-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v307)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v447) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x500000 : Shape := ⟨2, ![2, 500000]⟩
abbrev S64x128 : Shape := ⟨2, ![64, 128]⟩
abbrev S128 : Shape := ⟨1, ![128]⟩
abbrev S8x128x128 : Shape := ⟨3, ![8, 128, 128]⟩
abbrev S8x128 : Shape := ⟨2, ![8, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S8x128x128 .f32) (main_arg6 : FVec F S8x128 .f32) (main_arg7 : FVec F S8x128 .f32) (main_arg8 : FVec F S128x64 .f32) (main_arg9 : FVec F S64 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128x128 .f32 := Host.absf main_arg5
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg6
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S8x128 .f32 := Host.absf main_arg7
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x500000 32) (main_arg2 : FVec F S64x128 .f32) (main_arg3 : FVec F S128 .f32) (main_arg4 : FVec F S8x128x128 .f32) (main_arg5 : FVec F S8x128x128 .f32) (main_arg6 : FVec F S8x128 .f32) (main_arg7 : FVec F S8x128 .f32) (main_arg8 : FVec F S128x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8x128x128 .f32 := Host.absf main_arg4
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x500000 : Shape := ⟨2, ![2, 500000]⟩
abbrev S64x128 : Shape := ⟨2, ![64, 128]⟩
abbrev S128 : Shape := ⟨1, ![128]⟩
abbrev S8x128x128 : Shape := ⟨3, ![8, 128, 128]⟩
abbrev S8x128 : Shape := ⟨2, ![8, 128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S550000x128 : Shape := ⟨2, ![550000, 128]⟩
abbrev S1x128x128 : Shape := ⟨3, ![1, 128, 128]⟩
abbrev S128x128 : Shape := ⟨2, ![128, 128]⟩
abbrev S1x1 : Shape := ⟨2, ![1, 1]⟩
abbrev S1x64 : Shape := ⟨2, ![1, 64]⟩

abbrev nBuf : Space → Nat
  | .hbm => 561
  | .vmem => 140
  | .smem => 0
  | _ => 0

abbrev hbmTy0_0 (i : Nat) : BufTy := match i % 128 with
  | 0 => ⟨S50000x64, .f32⟩
  | 1 => ⟨S2x500000, .i32⟩
  | 2 => ⟨S64x128, .f32⟩
  | 3 => ⟨S128, .f32⟩
  | 4 => ⟨S8x128x128, .f32⟩
  | 5 => ⟨S8x128x128, .f32⟩
  | 6 => ⟨S8x128, .f32⟩
  | 7 => ⟨S8x128, .f32⟩
  | 8 => ⟨S128x64, .f32⟩
  | 9 => ⟨S64, .f32⟩
  | 10 => ⟨S1x500000, .i32⟩
  | 11 => ⟨S500000, .i32⟩
  | 12 => ⟨S1x500000, .i32⟩
  | 13 => ⟨S500000, .i32⟩
  | 14 => ⟨S50000, .i32⟩
  | 15 => ⟨S550000, .i32⟩
  | 16 => ⟨S550000, .i32⟩
  | 17 => ⟨S_, .f32⟩
  | 18 => ⟨S550000, .f32⟩
  | 19 => ⟨S_, .f32⟩
  | 20 => ⟨S50000, .f32⟩
  | 21 => ⟨S550000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000, .f32⟩
  | 40 => ⟨S_, .i32⟩
  | 41 => ⟨S550000, .i32⟩
  | 42 => ⟨S550000, .i1⟩
  | 43 => ⟨S_, .i32⟩
  | 44 => ⟨S550000, .i32⟩
  | 45 => ⟨S550000, .i32⟩
  | 46 => ⟨S550000, .i32⟩
  | 47 => ⟨S550000x1, .i32⟩
  | 48 => ⟨S550000, .f32⟩
  | 49 => ⟨S550000, .f32⟩
  | 50 => ⟨S1x128, .f32⟩
  | 51 => ⟨S50000x128, .f32⟩
  | 52 => ⟨S_, .f32⟩
  | 53 => ⟨S50000x128, .f32⟩
  | 54 => ⟨S50000x128, .f32⟩
  | 55 => ⟨S550000x1, .f32⟩
  | 56 => ⟨S_, .i32⟩
  | 57 => ⟨S550000, .i32⟩
  | 58 => ⟨S550000, .i1⟩
  | 59 => ⟨S_, .i32⟩
  | 60 => ⟨S550000, .i32⟩
  | 61 => ⟨S550000, .i32⟩
  | 62 => ⟨S550000, .i32⟩
  | 63 => ⟨S550000x1, .i32⟩
  | 64 => ⟨S550000x128, .f32⟩
  | 65 => ⟨S550000x128, .f32⟩
  | 66 => ⟨S550000x128, .f32⟩
  | 67 => ⟨S_, .f32⟩
  | 68 => ⟨S50000x128, .f32⟩
  | 69 => ⟨S550000x1, .i32⟩
  | 70 => ⟨S50000x128, .f32⟩
  | 71 => ⟨S_, .f32⟩
  | 72 => ⟨S50000x128, .f32⟩
  | 73 => ⟨S50000x128, .f32⟩
  | 74 => ⟨S1x128x128, .f32⟩
  | 75 => ⟨S128x128, .f32⟩
  | 76 => ⟨S1x128x128, .f32⟩
  | 77 => ⟨S128x128, .f32⟩
  | 78 => ⟨S50000x128, .f32⟩
  | 79 => ⟨S_, .f32⟩
  | 80 => ⟨S_, .f32⟩
  | 81 => ⟨S_, .f32⟩
  | 82 => ⟨S_, .f32⟩
  | 83 => ⟨S_, .i32⟩
  | 84 => ⟨S_, .f32⟩
  | 85 => ⟨S_, .f32⟩
  | 86 => ⟨S1x1, .f32⟩
  | 87 => ⟨S_, .f32⟩
  | 88 => ⟨S1x1, .f32⟩
  | 89 => ⟨S1x1, .f32⟩
  | 90 => ⟨S50000x128, .f32⟩
  | 91 => ⟨S50000x128, .f32⟩
  | 92 => ⟨S50000x128, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S1x1, .f32⟩
  | 116 => ⟨S1x1, .f32⟩
  | 117 => ⟨S50000x128, .f32⟩
  | 118 => ⟨S550000x1, .f32⟩
  | 119 => ⟨S_, .i32⟩
  | 120 => ⟨S550000, .i32⟩
  | 121 => ⟨S550000, .i1⟩
  | 122 => ⟨S_, .i32⟩
  | 123 => ⟨S550000, .i32⟩
  | 124 => ⟨S550000, .i32⟩
  | 125 => ⟨S550000, .i32⟩
  | 126 => ⟨S550000x1, .i32⟩
  | 127 => ⟨S550000x128, .f32⟩
  | _ => ⟨S50000x64, .f32⟩

abbrev hbmTy0_1 (i : Nat) : BufTy := match i % 128 with
  | 0 => ⟨S550000x128, .f32⟩
  | 1 => ⟨S550000x128, .f32⟩
  | 2 => ⟨S_, .f32⟩
  | 3 => ⟨S50000x128, .f32⟩
  | 4 => ⟨S550000x1, .i32⟩
  | 5 => ⟨S50000x128, .f32⟩
  | 6 => ⟨S_, .f32⟩
  | 7 => ⟨S50000x128, .f32⟩
  | 8 => ⟨S50000x128, .f32⟩
  | 9 => ⟨S1x128x128, .f32⟩
  | 10 => ⟨S128x128, .f32⟩
  | 11 => ⟨S1x128x128, .f32⟩
  | 12 => ⟨S128x128, .f32⟩
  | 13 => ⟨S50000x128, .f32⟩
  | 14 => ⟨S_, .f32⟩
  | 15 => ⟨S_, .f32⟩
  | 16 => ⟨S_, .f32⟩
  | 17 => ⟨S_, .f32⟩
  | 18 => ⟨S_, .i32⟩
  | 19 => ⟨S_, .f32⟩
  | 20 => ⟨S_, .f32⟩
  | 21 => ⟨S1x1, .f32⟩
  | 22 => ⟨S_, .f32⟩
  | 23 => ⟨S1x1, .f32⟩
  | 24 => ⟨S1x1, .f32⟩
  | 25 => ⟨S50000x128, .f32⟩
  | 26 => ⟨S50000x128, .f32⟩
  | 27 => ⟨S50000x128, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .i1⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1x128, .f32⟩
  | 45 => ⟨S128, .f32⟩
  | 46 => ⟨S1x128, .f32⟩
  | 47 => ⟨S128, .f32⟩
  | 48 => ⟨S1x128, .f32⟩
  | 49 => ⟨S1x128, .f32⟩
  | 50 => ⟨S1x1, .f32⟩
  | 51 => ⟨S1x1, .f32⟩
  | 52 => ⟨S50000x128, .f32⟩
  | 53 => ⟨S550000x1, .f32⟩
  | 54 => ⟨S_, .i32⟩
  | 55 => ⟨S550000, .i32⟩
  | 56 => ⟨S550000, .i1⟩
  | 57 => ⟨S_, .i32⟩
  | 58 => ⟨S550000, .i32⟩
  | 59 => ⟨S550000, .i32⟩
  | 60 => ⟨S550000, .i32⟩
  | 61 => ⟨S550000x1, .i32⟩
  | 62 => ⟨S550000x128, .f32⟩
  | 63 => ⟨S550000x128, .f32⟩
  | 64 => ⟨S550000x128, .f32⟩
  | 65 => ⟨S_, .f32⟩
  | 66 => ⟨S50000x128, .f32⟩
  | 67 => ⟨S550000x1, .i32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S1x128x128, .f32⟩
  | 75 => ⟨S128x128, .f32⟩
  | 76 => ⟨S50000x128, .f32⟩
  | 77 => ⟨S_, .f32⟩
  | 78 => ⟨S_, .f32⟩
  | 79 => ⟨S_, .f32⟩
  | 80 => ⟨S_, .f32⟩
  | 81 => ⟨S_, .i32⟩
  | 82 => ⟨S_, .f32⟩
  | 83 => ⟨S_, .f32⟩
  | 84 => ⟨S1x1, .f32⟩
  | 85 => ⟨S_, .f32⟩
  | 86 => ⟨S1x1, .f32⟩
  | 87 => ⟨S1x1, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S1x128, .f32⟩
  | 113 => ⟨S1x1, .f32⟩
  | 114 => ⟨S1x1, .f32⟩
  | 115 => ⟨S50000x128, .f32⟩
  | 116 => ⟨S550000x1, .f32⟩
  | 117 => ⟨S_, .i32⟩
  | 118 => ⟨S550000, .i32⟩
  | 119 => ⟨S550000, .i1⟩
  | 120 => ⟨S_, .i32⟩
  | 121 => ⟨S550000, .i32⟩
  | 122 => ⟨S550000, .i32⟩
  | 123 => ⟨S550000, .i32⟩
  | 124 => ⟨S550000x1, .i32⟩
  | 125 => ⟨S550000x128, .f32⟩
  | 126 => ⟨S550000x128, .f32⟩
  | 127 => ⟨S550000x128, .f32⟩
  | _ => ⟨S50000x64, .f32⟩

abbrev hbmTy0_2 (i : Nat) : BufTy := match i % 128 with
  | 0 => ⟨S_, .f32⟩
  | 1 => ⟨S50000x128, .f32⟩
  | 2 => ⟨S550000x1, .i32⟩
  | 3 => ⟨S50000x128, .f32⟩
  | 4 => ⟨S_, .f32⟩
  | 5 => ⟨S50000x128, .f32⟩
  | 6 => ⟨S50000x128, .f32⟩
  | 7 => ⟨S1x128x128, .f32⟩
  | 8 => ⟨S128x128, .f32⟩
  | 9 => ⟨S1x128x128, .f32⟩
  | 10 => ⟨S128x128, .f32⟩
  | 11 => ⟨S50000x128, .f32⟩
  | 12 => ⟨S_, .f32⟩
  | 13 => ⟨S_, .f32⟩
  | 14 => ⟨S_, .f32⟩
  | 15 => ⟨S_, .f32⟩
  | 16 => ⟨S_, .i32⟩
  | 17 => ⟨S_, .f32⟩
  | 18 => ⟨S_, .f32⟩
  | 19 => ⟨S1x1, .f32⟩
  | 20 => ⟨S_, .f32⟩
  | 21 => ⟨S1x1, .f32⟩
  | 22 => ⟨S1x1, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S1x128, .f32⟩
  | 48 => ⟨S1x1, .f32⟩
  | 49 => ⟨S1x1, .f32⟩
  | 50 => ⟨S50000x128, .f32⟩
  | 51 => ⟨S550000x1, .f32⟩
  | 52 => ⟨S_, .i32⟩
  | 53 => ⟨S550000, .i32⟩
  | 54 => ⟨S550000, .i1⟩
  | 55 => ⟨S_, .i32⟩
  | 56 => ⟨S550000, .i32⟩
  | 57 => ⟨S550000, .i32⟩
  | 58 => ⟨S550000, .i32⟩
  | 59 => ⟨S550000x1, .i32⟩
  | 60 => ⟨S550000x128, .f32⟩
  | 61 => ⟨S550000x128, .f32⟩
  | 62 => ⟨S550000x128, .f32⟩
  | 63 => ⟨S_, .f32⟩
  | 64 => ⟨S50000x128, .f32⟩
  | 65 => ⟨S550000x1, .i32⟩
  | 66 => ⟨S50000x128, .f32⟩
  | 67 => ⟨S_, .f32⟩
  | 68 => ⟨S50000x128, .f32⟩
  | 69 => ⟨S50000x128, .f32⟩
  | 70 => ⟨S1x128x128, .f32⟩
  | 71 => ⟨S128x128, .f32⟩
  | 72 => ⟨S1x128x128, .f32⟩
  | 73 => ⟨S128x128, .f32⟩
  | 74 => ⟨S50000x128, .f32⟩
  | 75 => ⟨S_, .f32⟩
  | 76 => ⟨S_, .f32⟩
  | 77 => ⟨S_, .f32⟩
  | 78 => ⟨S_, .f32⟩
  | 79 => ⟨S_, .i32⟩
  | 80 => ⟨S_, .f32⟩
  | 81 => ⟨S_, .f32⟩
  | 82 => ⟨S1x1, .f32⟩
  | 83 => ⟨S_, .f32⟩
  | 84 => ⟨S1x1, .f32⟩
  | 85 => ⟨S1x1, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .i1⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1x128, .f32⟩
  | 106 => ⟨S128, .f32⟩
  | 107 => ⟨S1x128, .f32⟩
  | 108 => ⟨S128, .f32⟩
  | 109 => ⟨S1x128, .f32⟩
  | 110 => ⟨S1x128, .f32⟩
  | 111 => ⟨S1x1, .f32⟩
  | 112 => ⟨S1x1, .f32⟩
  | 113 => ⟨S50000x128, .f32⟩
  | 114 => ⟨S550000x1, .f32⟩
  | 115 => ⟨S_, .i32⟩
  | 116 => ⟨S550000, .i32⟩
  | 117 => ⟨S550000, .i1⟩
  | 118 => ⟨S_, .i32⟩
  | 119 => ⟨S550000, .i32⟩
  | 120 => ⟨S550000, .i32⟩
  | 121 => ⟨S550000, .i32⟩
  | 122 => ⟨S550000x1, .i32⟩
  | 123 => ⟨S550000x128, .f32⟩
  | 124 => ⟨S550000x128, .f32⟩
  | 125 => ⟨S550000x128, .f32⟩
  | 126 => ⟨S_, .f32⟩
  | 127 => ⟨S50000x128, .f32⟩
  | _ => ⟨S50000x64, .f32⟩

abbrev hbmTy0_3 (i : Nat) : BufTy := match i % 128 with
  | 0 => ⟨S550000x1, .i32⟩
  | 1 => ⟨S50000x128, .f32⟩
  | 2 => ⟨S_, .f32⟩
  | 3 => ⟨S50000x128, .f32⟩
  | 4 => ⟨S50000x128, .f32⟩
  | 5 => ⟨S1x128x128, .f32⟩
  | 6 => ⟨S128x128, .f32⟩
  | 7 => ⟨S1x128x128, .f32⟩
  | 8 => ⟨S128x128, .f32⟩
  | 9 => ⟨S50000x128, .f32⟩
  | 10 => ⟨S_, .f32⟩
  | 11 => ⟨S_, .f32⟩
  | 12 => ⟨S_, .f32⟩
  | 13 => ⟨S_, .f32⟩
  | 14 => ⟨S_, .i32⟩
  | 15 => ⟨S_, .f32⟩
  | 16 => ⟨S_, .f32⟩
  | 17 => ⟨S1x1, .f32⟩
  | 18 => ⟨S_, .f32⟩
  | 19 => ⟨S1x1, .f32⟩
  | 20 => ⟨S1x1, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .i1⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S1x128, .f32⟩
  | 46 => ⟨S1x1, .f32⟩
  | 47 => ⟨S1x1, .f32⟩
  | 48 => ⟨S50000x128, .f32⟩
  | 49 => ⟨S550000x1, .f32⟩
  | 50 => ⟨S_, .i32⟩
  | 51 => ⟨S550000, .i32⟩
  | 52 => ⟨S550000, .i1⟩
  | 53 => ⟨S_, .i32⟩
  | 54 => ⟨S550000, .i32⟩
  | 55 => ⟨S550000, .i32⟩
  | 56 => ⟨S550000, .i32⟩
  | 57 => ⟨S550000x1, .i32⟩
  | 58 => ⟨S550000x128, .f32⟩
  | 59 => ⟨S550000x128, .f32⟩
  | 60 => ⟨S550000x128, .f32⟩
  | 61 => ⟨S_, .f32⟩
  | 62 => ⟨S50000x128, .f32⟩
  | 63 => ⟨S550000x1, .i32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S1x128x128, .f32⟩
  | 71 => ⟨S128x128, .f32⟩
  | 72 => ⟨S50000x128, .f32⟩
  | 73 => ⟨S_, .f32⟩
  | 74 => ⟨S_, .f32⟩
  | 75 => ⟨S_, .f32⟩
  | 76 => ⟨S_, .f32⟩
  | 77 => ⟨S_, .i32⟩
  | 78 => ⟨S_, .f32⟩
  | 79 => ⟨S_, .f32⟩
  | 80 => ⟨S1x1, .f32⟩
  | 81 => ⟨S_, .f32⟩
  | 82 => ⟨S1x1, .f32⟩
  | 83 => ⟨S1x1, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S1x128, .f32⟩
  | 109 => ⟨S1x1, .f32⟩
  | 110 => ⟨S1x1, .f32⟩
  | 111 => ⟨S50000x128, .f32⟩
  | 112 => ⟨S550000x1, .f32⟩
  | 113 => ⟨S_, .i32⟩
  | 114 => ⟨S550000, .i32⟩
  | 115 => ⟨S550000, .i1⟩
  | 116 => ⟨S_, .i32⟩
  | 117 => ⟨S550000, .i32⟩
  | 118 => ⟨S550000, .i32⟩
  | 119 => ⟨S550000, .i32⟩
  | 120 => ⟨S550000x1, .i32⟩
  | 121 => ⟨S550000x128, .f32⟩
  | 122 => ⟨S550000x128, .f32⟩
  | 123 => ⟨S550000x128, .f32⟩
  | 124 => ⟨S_, .f32⟩
  | 125 => ⟨S50000x128, .f32⟩
  | 126 => ⟨S550000x1, .i32⟩
  | 127 => ⟨S50000x128, .f32⟩
  | _ => ⟨S50000x64, .f32⟩

abbrev hbmTy0_4 (i : Nat) : BufTy := match i % 128 with
  | 0 => ⟨S_, .f32⟩
  | 1 => ⟨S50000x128, .f32⟩
  | 2 => ⟨S50000x128, .f32⟩
  | 3 => ⟨S1x128x128, .f32⟩
  | 4 => ⟨S128x128, .f32⟩
  | 5 => ⟨S1x128x128, .f32⟩
  | 6 => ⟨S128x128, .f32⟩
  | 7 => ⟨S50000x128, .f32⟩
  | 8 => ⟨S_, .f32⟩
  | 9 => ⟨S_, .f32⟩
  | 10 => ⟨S_, .f32⟩
  | 11 => ⟨S_, .f32⟩
  | 12 => ⟨S_, .i32⟩
  | 13 => ⟨S_, .f32⟩
  | 14 => ⟨S_, .f32⟩
  | 15 => ⟨S1x1, .f32⟩
  | 16 => ⟨S_, .f32⟩
  | 17 => ⟨S1x1, .f32⟩
  | 18 => ⟨S1x1, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i1⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S1x128, .f32⟩
  | 44 => ⟨S1x1, .f32⟩
  | 45 => ⟨S1x1, .f32⟩
  | 46 => ⟨S50000x128, .f32⟩
  | 47 => ⟨S1x64, .f32⟩
  | 48 => ⟨S50000x64, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev vmemTy0_0 (i : Nat) : BufTy := match i % 128 with
  | 0 => ⟨S5000x64, .f32⟩
  | 1 => ⟨S5000x64, .f32⟩
  | 2 => ⟨S64x128, .f32⟩
  | 3 => ⟨S1x128, .f32⟩
  | 4 => ⟨S5000x128, .f32⟩
  | 5 => ⟨S5000x128, .f32⟩
  | 6 => ⟨S5000x128, .f32⟩
  | 7 => ⟨S5000x128, .f32⟩
  | 8 => ⟨S5000x128, .f32⟩
  | 9 => ⟨S5000x128, .f32⟩
  | 10 => ⟨S128x128, .f32⟩
  | 11 => ⟨S128x128, .f32⟩
  | 12 => ⟨S5000x128, .f32⟩
  | 13 => ⟨S5000x128, .f32⟩
  | 14 => ⟨S5000x128, .f32⟩
  | 15 => ⟨S5000x128, .f32⟩
  | 16 => ⟨S1x128, .f32⟩
  | 17 => ⟨S1x128, .f32⟩
  | 18 => ⟨S1x1, .f32⟩
  | 19 => ⟨S1x1, .f32⟩
  | 20 => ⟨S5000x128, .f32⟩
  | 21 => ⟨S5000x128, .f32⟩
  | 22 => ⟨S5000x128, .f32⟩
  | 23 => ⟨S5000x128, .f32⟩
  | 24 => ⟨S5000x128, .f32⟩
  | 25 => ⟨S5000x128, .f32⟩
  | 26 => ⟨S128x128, .f32⟩
  | 27 => ⟨S128x128, .f32⟩
  | 28 => ⟨S5000x128, .f32⟩
  | 29 => ⟨S5000x128, .f32⟩
  | 30 => ⟨S5000x128, .f32⟩
  | 31 => ⟨S5000x128, .f32⟩
  | 32 => ⟨S1x128, .f32⟩
  | 33 => ⟨S1x128, .f32⟩
  | 34 => ⟨S1x1, .f32⟩
  | 35 => ⟨S1x1, .f32⟩
  | 36 => ⟨S5000x128, .f32⟩
  | 37 => ⟨S5000x128, .f32⟩
  | 38 => ⟨S5000x128, .f32⟩
  | 39 => ⟨S5000x128, .f32⟩
  | 40 => ⟨S5000x128, .f32⟩
  | 41 => ⟨S5000x128, .f32⟩
  | 42 => ⟨S128x128, .f32⟩
  | 43 => ⟨S128x128, .f32⟩
  | 44 => ⟨S5000x128, .f32⟩
  | 45 => ⟨S5000x128, .f32⟩
  | 46 => ⟨S5000x128, .f32⟩
  | 47 => ⟨S5000x128, .f32⟩
  | 48 => ⟨S1x128, .f32⟩
  | 49 => ⟨S1x128, .f32⟩
  | 50 => ⟨S1x1, .f32⟩
  | 51 => ⟨S1x1, .f32⟩
  | 52 => ⟨S5000x128, .f32⟩
  | 53 => ⟨S5000x128, .f32⟩
  | 54 => ⟨S5000x128, .f32⟩
  | 55 => ⟨S5000x128, .f32⟩
  | 56 => ⟨S5000x128, .f32⟩
  | 57 => ⟨S5000x128, .f32⟩
  | 58 => ⟨S128x128, .f32⟩
  | 59 => ⟨S128x128, .f32⟩
  | 60 => ⟨S5000x128, .f32⟩
  | 61 => ⟨S5000x128, .f32⟩
  | 62 => ⟨S5000x128, .f32⟩
  | 63 => ⟨S5000x128, .f32⟩
  | 64 => ⟨S1x128, .f32⟩
  | 65 => ⟨S1x128, .f32⟩
  | 66 => ⟨S1x1, .f32⟩
  | 67 => ⟨S1x1, .f32⟩
  | 68 => ⟨S5000x128, .f32⟩
  | 69 => ⟨S5000x128, .f32⟩
  | 70 => ⟨S5000x128, .f32⟩
  | 71 => ⟨S5000x128, .f32⟩
  | 72 => ⟨S5000x128, .f32⟩
  | 73 => ⟨S5000x128, .f32⟩
  | 74 => ⟨S128x128, .f32⟩
  | 75 => ⟨S128x128, .f32⟩
  | 76 => ⟨S5000x128, .f32⟩
  | 77 => ⟨S5000x128, .f32⟩
  | 78 => ⟨S5000x128, .f32⟩
  | 79 => ⟨S5000x128, .f32⟩
  | 80 => ⟨S1x128, .f32⟩
  | 81 => ⟨S1x128, .f32⟩
  | 82 => ⟨S1x1, .f32⟩
  | 83 => ⟨S1x1, .f32⟩
  | 84 => ⟨S5000x128, .f32⟩
  | 85 => ⟨S5000x128, .f32⟩
  | 86 => ⟨S5000x128, .f32⟩
  | 87 => ⟨S5000x128, .f32⟩
  | 88 => ⟨S5000x128, .f32⟩
  | 89 => ⟨S5000x128, .f32⟩
  | 90 => ⟨S128x128, .f32⟩
  | 91 => ⟨S128x128, .f32⟩
  | 92 => ⟨S5000x128, .f32⟩
  | 93 => ⟨S5000x128, .f32⟩
  | 94 => ⟨S5000x128, .f32⟩
  | 95 => ⟨S5000x128, .f32⟩
  | 96 => ⟨S1x128, .f32⟩
  | 97 => ⟨S1x128, .f32⟩
  | 98 => ⟨S1x1, .f32⟩
  | 99 => ⟨S1x1, .f32⟩
  | 100 => ⟨S5000x128, .f32⟩
  | 101 => ⟨S5000x128, .f32⟩
  | 102 => ⟨S5000x128, .f32⟩
  | 103 => ⟨S5000x128, .f32⟩
  | 104 => ⟨S5000x128, .f32⟩
  | 105 => ⟨S5000x128, .f32⟩
  | 106 => ⟨S128x128, .f32⟩
  | 107 => ⟨S128x128, .f32⟩
  | 108 => ⟨S5000x128, .f32⟩
  | 109 => ⟨S5000x128, .f32⟩
  | 110 => ⟨S5000x128, .f32⟩
  | 111 => ⟨S5000x128, .f32⟩
  | 112 => ⟨S1x128, .f32⟩
  | 113 => ⟨S1x128, .f32⟩
  | 114 => ⟨S1x1, .f32⟩
  | 115 => ⟨S1x1, .f32⟩
  | 116 => ⟨S5000x128, .f32⟩
  | 117 => ⟨S5000x128, .f32⟩
  | 118 => ⟨S5000x128, .f32⟩
  | 119 => ⟨S5000x128, .f32⟩
  | 120 => ⟨S5000x128, .f32⟩
  | 121 => ⟨S5000x128, .f32⟩
  | 122 => ⟨S128x128, .f32⟩
  | 123 => ⟨S128x128, .f32⟩
  | 124 => ⟨S5000x128, .f32⟩
  | 125 => ⟨S5000x128, .f32⟩
  | 126 => ⟨S5000x128, .f32⟩
  | 127 => ⟨S5000x128, .f32⟩
  | _ => ⟨S50000x64, .f32⟩

abbrev vmemTy0_1 (i : Nat) : BufTy := match i % 128 with
  | 0 => ⟨S1x128, .f32⟩
  | 1 => ⟨S1x128, .f32⟩
  | 2 => ⟨S1x1, .f32⟩
  | 3 => ⟨S1x1, .f32⟩
  | 4 => ⟨S5000x128, .f32⟩
  | 5 => ⟨S5000x128, .f32⟩
  | 6 => ⟨S5000x128, .f32⟩
  | 7 => ⟨S5000x128, .f32⟩
  | 8 => ⟨S128x64, .f32⟩
  | 9 => ⟨S1x64, .f32⟩
  | 10 => ⟨S5000x64, .f32⟩
  | 11 => ⟨S5000x64, .f32⟩
  | _ => ⟨S50000x64, .f32⟩

abbrev vmemTy (i : Nat) : BufTy := match i / 128 with
  | 0 => vmemTy0_0 i
  | 1 => vmemTy0_1 i
  | _ => ⟨S50000x64, .f32⟩

abbrev bufTy : (tb : Table) → Fin (tcTables nBuf tb) → BufTy
  | .hbm, ⟨i, _⟩ => hbmTy i
  | .local _ .vmem, ⟨i, _⟩ => vmemTy i
  | _, _ => ⟨S50000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 140 → Bool
  | ⟨i, _⟩ => dmaSemScopedAt i

abbrev sig : RefSig :=
  ofTc nBuf bufTy 0 140 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_c_13 : Ref sig .tc := ⟨.hbm, 83, rfl⟩
abbrev main_call1_call0_cst : Ref sig .tc := ⟨.hbm, 84, rfl⟩
abbrev main_call1_call0_v0 : Ref sig .tc := ⟨.hbm, 85, rfl⟩
abbrev main_call1_call0_v1 : Ref sig .tc := ⟨.hbm, 86, rfl⟩
abbrev main_call1_call0_cst_0 : Ref sig .tc := ⟨.hbm, 87, rfl⟩
abbrev main_call1_call0_v2 : Ref sig .tc := ⟨.hbm, 88, rfl⟩
abbrev main_call1_call0_v3 : Ref sig .tc := ⟨.hbm, 89, rfl⟩
abbrev main_call1_call0_v4 : Ref sig .tc := ⟨.hbm, 90, rfl⟩
abbrev main_call1_call0_v5 : Ref sig .tc := ⟨.hbm, 91, rfl⟩
abbrev main_call1_call0_v6 : Ref sig .tc := ⟨.hbm, 92, rfl⟩
abbrev main_call1_call0_v7 : Ref sig .tc := ⟨.hbm, 93, rfl⟩
abbrev main_call1_call0_cst_1 : Ref sig .tc := ⟨.hbm, 94, rfl⟩
abbrev main_call1_call0_v8 : Ref sig .tc := ⟨.hbm, 95, rfl⟩
abbrev main_call1_call0_cst_2 : Ref sig .tc := ⟨.hbm, 96, rfl⟩
abbrev main_call1_call0_v9 : Ref sig .tc := ⟨.hbm, 97, rfl⟩
abbrev main_call1_call0_v10 : Ref sig .tc := ⟨.hbm, 98, rfl⟩
abbrev main_call1_call0_cst_3 : Ref sig .tc := ⟨.hbm, 99, rfl⟩
abbrev main_call1_call0_v11 : Ref sig .tc := ⟨.hbm, 100, rfl⟩
abbrev main_call1_call0_cst_4 : Ref sig .tc := ⟨.hbm, 101, rfl⟩
abbrev main_call1_call0_call0_v0 : Ref sig .tc := ⟨.hbm, 102, rfl⟩
abbrev main_call1_v0 : Ref sig .tc := ⟨.hbm, 103, rfl⟩
abbrev main_v56 : Ref sig .tc := ⟨.hbm, 104, rfl⟩
abbrev main_cst_14 : Ref sig .tc := ⟨.hbm, 105, rfl⟩
abbrev main_v57 : Ref sig .tc := ⟨.hbm, 106, rfl⟩
abbrev main_cst_15 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_16 : Ref sig .tc := ⟨.hbm, 119, rfl⟩
abbrev main_v69 : Ref sig .tc := ⟨.hbm, 120, rfl⟩
abbrev main_v70 : Ref sig .tc := ⟨.hbm, 121, rfl⟩
abbrev main_c_17 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_18 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_19 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_20 : Ref sig .tc := ⟨.hbm, 142, rfl⟩
abbrev main_v88 : Ref sig .tc := ⟨.hbm, 143, rfl⟩
abbrev main_cst_21 : Ref sig .tc := ⟨.hbm, 144, rfl⟩
abbrev main_v89 : Ref sig .tc := ⟨.hbm, 145, rfl⟩
abbrev main_c_22 : Ref sig .tc := ⟨.hbm, 146, rfl⟩
abbrev main_call2_call0_cst : Ref sig .tc := ⟨.hbm, 147, rfl⟩
abbrev main_call2_call0_v0 : Ref sig .tc := ⟨.hbm, 148, rfl⟩
abbrev main_call2_call0_v1 : Ref sig .tc := ⟨.hbm, 149, rfl⟩
abbrev main_call2_call0_cst_0 : Ref sig .tc := ⟨.hbm, 150, rfl⟩
abbrev main_call2_call0_v2 : Ref sig .tc := ⟨.hbm, 151, rfl⟩
abbrev main_call2_call0_v3 : Ref sig .tc := ⟨.hbm, 152, rfl⟩
abbrev main_call2_call0_v4 : Ref sig .tc := ⟨.hbm, 153, rfl⟩
abbrev main_call2_call0_v5 : Ref sig .tc := ⟨.hbm, 154, rfl⟩
abbrev main_call2_call0_v6 : Ref sig .tc := ⟨.hbm, 155, rfl⟩
abbrev main_call2_call0_v7 : Ref sig .tc := ⟨.hbm, 156, rfl⟩
abbrev main_call2_call0_cst_1 : Ref sig .tc := ⟨.hbm, 157, rfl⟩
abbrev main_call2_call0_v8 : Ref sig .tc := ⟨.hbm, 158, rfl⟩
abbrev main_call2_call0_cst_2 : Ref sig .tc := ⟨.hbm, 159, rfl⟩
abbrev main_call2_call0_v9 : Ref sig .tc := ⟨.hbm, 160, rfl⟩
abbrev main_call2_call0_v10 : Ref sig .tc := ⟨.hbm, 161, rfl⟩
abbrev main_call2_call0_cst_3 : Ref sig .tc := ⟨.hbm, 162, rfl⟩
abbrev main_call2_call0_v11 : Ref sig .tc := ⟨.hbm, 163, rfl⟩
abbrev main_call2_call0_cst_4 : Ref sig .tc := ⟨.hbm, 164, rfl⟩
abbrev main_call2_call0_call0_v0 : Ref sig .tc := ⟨.hbm, 165, rfl⟩
abbrev main_call2_v0 : Ref sig .tc := ⟨.hbm, 166, rfl⟩
abbrev main_v90 : Ref sig .tc := ⟨.hbm, 167, rfl⟩
abbrev main_cst_23 : Ref sig .tc := ⟨.hbm, 168, rfl⟩
abbrev main_v91 : Ref sig .tc := ⟨.hbm, 169, rfl⟩
abbrev main_cst_24 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_c_25 : Ref sig .tc := ⟨.hbm, 182, rfl⟩
abbrev main_v103 : Ref sig .tc := ⟨.hbm, 183, rfl⟩
abbrev main_v104 : Ref sig .tc := ⟨.hbm, 184, rfl⟩
abbrev main_c_26 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_cst_27 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_cst_28 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_29 : Ref sig .tc := ⟨.hbm, 205, rfl⟩
abbrev main_v122 : Ref sig .tc := ⟨.hbm, 206, rfl⟩
abbrev main_cst_30 : Ref sig .tc := ⟨.hbm, 207, rfl⟩
abbrev main_v123 : Ref sig .tc := ⟨.hbm, 208, rfl⟩
abbrev main_c_31 : Ref sig .tc := ⟨.hbm, 209, rfl⟩
abbrev main_call3_call0_cst : Ref sig .tc := ⟨.hbm, 210, rfl⟩
abbrev main_call3_call0_v0 : Ref sig .tc := ⟨.hbm, 211, rfl⟩
abbrev main_call3_call0_v1 : Ref sig .tc := ⟨.hbm, 212, rfl⟩
abbrev main_call3_call0_cst_0 : Ref sig .tc := ⟨.hbm, 213, rfl⟩
abbrev main_call3_call0_v2 : Ref sig .tc := ⟨.hbm, 214, rfl⟩
abbrev main_call3_call0_v3 : Ref sig .tc := ⟨.hbm, 215, rfl⟩
abbrev main_call3_call0_v4 : Ref sig .tc := ⟨.hbm, 216, rfl⟩
abbrev main_call3_call0_v5 : Ref sig .tc := ⟨.hbm, 217, rfl⟩
abbrev main_call3_call0_v6 : Ref sig .tc := ⟨.hbm, 218, rfl⟩
abbrev main_call3_call0_v7 : Ref sig .tc := ⟨.hbm, 219, rfl⟩
abbrev main_call3_call0_cst_1 : Ref sig .tc := ⟨.hbm, 220, rfl⟩
abbrev main_call3_call0_v8 : Ref sig .tc := ⟨.hbm, 221, rfl⟩
abbrev main_call3_call0_cst_2 : Ref sig .tc := ⟨.hbm, 222, rfl⟩
abbrev main_call3_call0_v9 : Ref sig .tc := ⟨.hbm, 223, rfl⟩
abbrev main_call3_call0_v10 : Ref sig .tc := ⟨.hbm, 224, rfl⟩
abbrev main_call3_call0_cst_3 : Ref sig .tc := ⟨.hbm, 225, rfl⟩
abbrev main_call3_call0_v11 : Ref sig .tc := ⟨.hbm, 226, rfl⟩
abbrev main_call3_call0_cst_4 : Ref sig .tc := ⟨.hbm, 227, rfl⟩
abbrev main_call3_call0_call0_v0 : Ref sig .tc := ⟨.hbm, 228, rfl⟩
abbrev main_call3_v0 : Ref sig .tc := ⟨.hbm, 229, rfl⟩
abbrev main_v124 : Ref sig .tc := ⟨.hbm, 230, rfl⟩
abbrev main_cst_32 : Ref sig .tc := ⟨.hbm, 231, rfl⟩
abbrev main_v125 : Ref sig .tc := ⟨.hbm, 232, rfl⟩
abbrev main_cst_33 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_c_34 : Ref sig .tc := ⟨.hbm, 245, rfl⟩
abbrev main_v137 : Ref sig .tc := ⟨.hbm, 246, rfl⟩
abbrev main_v138 : Ref sig .tc := ⟨.hbm, 247, rfl⟩
abbrev main_c_35 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_cst_36 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_cst_37 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_cst_38 : Ref sig .tc := ⟨.hbm, 268, rfl⟩
abbrev main_v156 : Ref sig .tc := ⟨.hbm, 269, rfl⟩
abbrev main_cst_39 : Ref sig .tc := ⟨.hbm, 270, rfl⟩
abbrev main_v157 : Ref sig .tc := ⟨.hbm, 271, rfl⟩
abbrev main_c_40 : Ref sig .tc := ⟨.hbm, 272, rfl⟩
abbrev main_call4_call0_cst : Ref sig .tc := ⟨.hbm, 273, rfl⟩
abbrev main_call4_call0_v0 : Ref sig .tc := ⟨.hbm, 274, rfl⟩
abbrev main_call4_call0_v1 : Ref sig .tc := ⟨.hbm, 275, rfl⟩
abbrev main_call4_call0_cst_0 : Ref sig .tc := ⟨.hbm, 276, rfl⟩
abbrev main_call4_call0_v2 : Ref sig .tc := ⟨.hbm, 277, rfl⟩
abbrev main_call4_call0_v3 : Ref sig .tc := ⟨.hbm, 278, rfl⟩
abbrev main_call4_call0_v4 : Ref sig .tc := ⟨.hbm, 279, rfl⟩
abbrev main_call4_call0_v5 : Ref sig .tc := ⟨.hbm, 280, rfl⟩
abbrev main_call4_call0_v6 : Ref sig .tc := ⟨.hbm, 281, rfl⟩
abbrev main_call4_call0_v7 : Ref sig .tc := ⟨.hbm, 282, rfl⟩
abbrev main_call4_call0_cst_1 : Ref sig .tc := ⟨.hbm, 283, rfl⟩
abbrev main_call4_call0_v8 : Ref sig .tc := ⟨.hbm, 284, rfl⟩
abbrev main_call4_call0_cst_2 : Ref sig .tc := ⟨.hbm, 285, rfl⟩
abbrev main_call4_call0_v9 : Ref sig .tc := ⟨.hbm, 286, rfl⟩
abbrev main_call4_call0_v10 : Ref sig .tc := ⟨.hbm, 287, rfl⟩
abbrev main_call4_call0_cst_3 : Ref sig .tc := ⟨.hbm, 288, rfl⟩
abbrev main_call4_call0_v11 : Ref sig .tc := ⟨.hbm, 289, rfl⟩
abbrev main_call4_call0_cst_4 : Ref sig .tc := ⟨.hbm, 290, rfl⟩
abbrev main_call4_call0_call0_v0 : Ref sig .tc := ⟨.hbm, 291, rfl⟩
abbrev main_call4_v0 : Ref sig .tc := ⟨.hbm, 292, rfl⟩
abbrev main_v158 : Ref sig .tc := ⟨.hbm, 293, rfl⟩
abbrev main_cst_41 : Ref sig .tc := ⟨.hbm, 294, rfl⟩
abbrev main_v159 : Ref sig .tc := ⟨.hbm, 295, rfl⟩
abbrev main_cst_42 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_v168 : Ref sig .tc := ⟨.hbm, 305, rfl⟩
abbrev main_v169 : Ref sig .tc := ⟨.hbm, 306, rfl⟩
abbrev main_v170 : Ref sig .tc := ⟨.hbm, 307, rfl⟩
abbrev main_c_43 : Ref sig .tc := ⟨.hbm, 308, rfl⟩
abbrev main_v171 : Ref sig .tc := ⟨.hbm, 309, rfl⟩
abbrev main_v172 : Ref sig .tc := ⟨.hbm, 310, rfl⟩
abbrev main_c_44 : Ref sig .tc := ⟨.hbm, 311, rfl⟩
abbrev main_v173 : Ref sig .tc := ⟨.hbm, 312, rfl⟩
abbrev main_v174 : Ref sig .tc := ⟨.hbm, 313, rfl⟩
abbrev main_v175 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_cst_45 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_cst_46 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_cst_47 : Ref sig .tc := ⟨.hbm, 331, rfl⟩
abbrev main_v190 : Ref sig .tc := ⟨.hbm, 332, rfl⟩
abbrev main_cst_48 : Ref sig .tc := ⟨.hbm, 333, rfl⟩
abbrev main_v191 : Ref sig .tc := ⟨.hbm, 334, rfl⟩
abbrev main_c_49 : Ref sig .tc := ⟨.hbm, 335, rfl⟩
abbrev main_call5_call0_cst : Ref sig .tc := ⟨.hbm, 336, rfl⟩
abbrev main_call5_call0_v0 : Ref sig .tc := ⟨.hbm, 337, rfl⟩
abbrev main_call5_call0_v1 : Ref sig .tc := ⟨.hbm, 338, rfl⟩
abbrev main_call5_call0_cst_0 : Ref sig .tc := ⟨.hbm, 339, rfl⟩
abbrev main_call5_call0_v2 : Ref sig .tc := ⟨.hbm, 340, rfl⟩
abbrev main_call5_call0_v3 : Ref sig .tc := ⟨.hbm, 341, rfl⟩
abbrev main_call5_call0_v4 : Ref sig .tc := ⟨.hbm, 342, rfl⟩
abbrev main_call5_call0_v5 : Ref sig .tc := ⟨.hbm, 343, rfl⟩
abbrev main_call5_call0_v6 : Ref sig .tc := ⟨.hbm, 344, rfl⟩
abbrev main_call5_call0_v7 : Ref sig .tc := ⟨.hbm, 345, rfl⟩
abbrev main_call5_call0_cst_1 : Ref sig .tc := ⟨.hbm, 346, rfl⟩
abbrev main_call5_call0_v8 : Ref sig .tc := ⟨.hbm, 347, rfl⟩
abbrev main_call5_call0_cst_2 : Ref sig .tc := ⟨.hbm, 348, rfl⟩
abbrev main_call5_call0_v9 : Ref sig .tc := ⟨.hbm, 349, rfl⟩
abbrev main_call5_call0_v10 : Ref sig .tc := ⟨.hbm, 350, rfl⟩
abbrev main_call5_call0_cst_3 : Ref sig .tc := ⟨.hbm, 351, rfl⟩
abbrev main_call5_call0_v11 : Ref sig .tc := ⟨.hbm, 352, rfl⟩
abbrev main_call5_call0_cst_4 : Ref sig .tc := ⟨.hbm, 353, rfl⟩
abbrev main_call5_call0_call0_v0 : Ref sig .tc := ⟨.hbm, 354, rfl⟩
abbrev main_call5_v0 : Ref sig .tc := ⟨.hbm, 355, rfl⟩
abbrev main_v192 : Ref sig .tc := ⟨.hbm, 356, rfl⟩
abbrev main_cst_50 : Ref sig .tc := ⟨.hbm, 357, rfl⟩
abbrev main_v193 : Ref sig .tc := ⟨.hbm, 358, rfl⟩
abbrev main_cst_51 : Ref sig .tc := ⟨.hbm, 359, rfl⟩
abbrev main_v194 : Ref sig .tc := ⟨.hbm, 360, rfl⟩
abbrev main_v195 : Ref sig .tc := ⟨.hbm, 361, rfl⟩
abbrev main_v196 : Ref sig .tc := ⟨.hbm, 362, rfl⟩
abbrev main_v197 : Ref sig .tc := ⟨.hbm, 363, rfl⟩
abbrev main_v198 : Ref sig .tc := ⟨.hbm, 364, rfl⟩
abbrev main_v199 : Ref sig .tc := ⟨.hbm, 365, rfl⟩
abbrev main_v200 : Ref sig .tc := ⟨.hbm, 366, rfl⟩
abbrev main_v201 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_c_52 : Ref sig .tc := ⟨.hbm, 371, rfl⟩
abbrev main_v205 : Ref sig .tc := ⟨.hbm, 372, rfl⟩
abbrev main_v206 : Ref sig .tc := ⟨.hbm, 373, rfl⟩
abbrev main_c_53 : Ref sig .tc := ⟨.hbm, 374, rfl⟩
abbrev main_v207 : Ref sig .tc := ⟨.hbm, 375, rfl⟩
abbrev main_v208 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_cst_54 : Ref sig .tc := ⟨.hbm, 382, rfl⟩
abbrev main_v214 : Ref sig .tc := ⟨.hbm, 383, rfl⟩
abbrev main_v215 : Ref sig .tc := ⟨.hbm, 384, rfl⟩
abbrev main_v216 : Ref sig .tc := ⟨.hbm, 385, rfl⟩
abbrev main_cst_55 : Ref sig .tc := ⟨.hbm, 386, rfl⟩
abbrev main_v217 : Ref sig .tc := ⟨.hbm, 387, rfl⟩
abbrev main_v218 : Ref sig .tc := ⟨.hbm, 388, rfl⟩
abbrev main_v219 : Ref sig .tc := ⟨.hbm, 389, rfl⟩
abbrev main_v220 : Ref sig .tc := ⟨.hbm, 390, rfl⟩
abbrev main_v221 : Ref sig .tc := ⟨.hbm, 391, rfl⟩
abbrev main_v222 : Ref sig .tc := ⟨.hbm, 392, rfl⟩
abbrev main_v223 : Ref sig .tc := ⟨.hbm, 393, rfl⟩
abbrev main_cst_56 : Ref sig .tc := ⟨.hbm, 394, rfl⟩
abbrev main_v224 : Ref sig .tc := ⟨.hbm, 395, rfl⟩
abbrev main_cst_57 : Ref sig .tc := ⟨.hbm, 396, rfl⟩
abbrev main_v225 : Ref sig .tc := ⟨.hbm, 397, rfl⟩
abbrev main_c_58 : Ref sig .tc := ⟨.hbm, 398, rfl⟩
abbrev main_call6_call0_cst : Ref sig .tc := ⟨.hbm, 399, rfl⟩
abbrev main_call6_call0_v0 : Ref sig .tc := ⟨.hbm, 400, rfl⟩
abbrev main_call6_call0_v1 : Ref sig .tc := ⟨.hbm, 401, rfl⟩
abbrev main_call6_call0_cst_0 : Ref sig .tc := ⟨.hbm, 402, rfl⟩
abbrev main_call6_call0_v2 : Ref sig .tc := ⟨.hbm, 403, rfl⟩
abbrev main_call6_call0_v3 : Ref sig .tc := ⟨.hbm, 404, rfl⟩
abbrev main_call6_call0_v4 : Ref sig .tc := ⟨.hbm, 405, rfl⟩
abbrev main_call6_call0_v5 : Ref sig .tc := ⟨.hbm, 406, rfl⟩
abbrev main_call6_call0_v6 : Ref sig .tc := ⟨.hbm, 407, rfl⟩
abbrev main_call6_call0_v7 : Ref sig .tc := ⟨.hbm, 408, rfl⟩
abbrev main_call6_call0_cst_1 : Ref sig .tc := ⟨.hbm, 409, rfl⟩
abbrev main_call6_call0_v8 : Ref sig .tc := ⟨.hbm, 410, rfl⟩
abbrev main_call6_call0_cst_2 : Ref sig .tc := ⟨.hbm, 411, rfl⟩
abbrev main_call6_call0_v9 : Ref sig .tc := ⟨.hbm, 412, rfl⟩
abbrev main_call6_call0_v10 : Ref sig .tc := ⟨.hbm, 413, rfl⟩
abbrev main_call6_call0_cst_3 : Ref sig .tc := ⟨.hbm, 414, rfl⟩
abbrev main_call6_call0_v11 : Ref sig .tc := ⟨.hbm, 415, rfl⟩
abbrev main_call6_call0_cst_4 : Ref sig .tc := ⟨.hbm, 416, rfl⟩
abbrev main_call6_call0_call0_v0 : Ref sig .tc := ⟨.hbm, 417, rfl⟩
abbrev main_call6_v0 : Ref sig .tc := ⟨.hbm, 418, rfl⟩
abbrev main_v226 : Ref sig .tc := ⟨.hbm, 419, rfl⟩
abbrev main_cst_59 : Ref sig .tc := ⟨.hbm, 420, rfl⟩
abbrev main_v227 : Ref sig .tc := ⟨.hbm, 421, rfl⟩
abbrev main_cst_60 : Ref sig .tc := ⟨.hbm, 422, rfl⟩
abbrev main_v228 : Ref sig .tc := ⟨.hbm, 423, rfl⟩
abbrev main_v229 : Ref sig .tc := ⟨.hbm, 424, rfl⟩
abbrev main_v230 : Ref sig .tc := ⟨.hbm, 425, rfl⟩
abbrev main_v231 : Ref sig .tc := ⟨.hbm, 426, rfl⟩
abbrev main_v232 : Ref sig .tc := ⟨.hbm, 427, rfl⟩
abbrev main_v233 : Ref sig .tc := ⟨.hbm, 428, rfl⟩
abbrev main_v234 : Ref sig .tc := ⟨.hbm, 429, rfl⟩
abbrev main_v235 : Ref sig .tc := ⟨.hbm, 430, rfl⟩
abbrev main_v236 : Ref sig .tc := ⟨.hbm, 431, rfl⟩
abbrev main_v237 : Ref sig .tc := ⟨.hbm, 432, rfl⟩
abbrev main_v238 : Ref sig .tc := ⟨.hbm, 433, rfl⟩
abbrev main_c_61 : Ref sig .tc := ⟨.hbm, 434, rfl⟩
abbrev main_v239 : Ref sig .tc := ⟨.hbm, 435, rfl⟩
abbrev main_v240 : Ref sig .tc := ⟨.hbm, 436, rfl⟩
abbrev main_c_62 : Ref sig .tc := ⟨.hbm, 437, rfl⟩
abbrev main_v241 : Ref sig .tc := ⟨.hbm, 438, rfl⟩
abbrev main_v242 : Ref sig .tc := ⟨.hbm, 439, rfl⟩
abbrev main_v243 : Ref sig .tc := ⟨.hbm, 440, rfl⟩
abbrev main_v244 : Ref sig .tc := ⟨.hbm, 441, rfl⟩
abbrev main_v245 : Ref sig .tc := ⟨.hbm, 442, rfl⟩
abbrev main_v246 : Ref sig .tc := ⟨.hbm, 443, rfl⟩
abbrev main_v247 : Ref sig .tc := ⟨.hbm, 444, rfl⟩
abbrev main_cst_63 : Ref sig .tc := ⟨.hbm, 445, rfl⟩
abbrev main_v248 : Ref sig .tc := ⟨.hbm, 446, rfl⟩
abbrev main_v249 : Ref sig .tc := ⟨.hbm, 447, rfl⟩
abbrev main_v250 : Ref sig .tc := ⟨.hbm, 448, rfl⟩
abbrev main_cst_64 : Ref sig .tc := ⟨.hbm, 449, rfl⟩
abbrev main_v251 : Ref sig .tc := ⟨.hbm, 450, rfl⟩
abbrev main_v252 : Ref sig .tc := ⟨.hbm, 451, rfl⟩
abbrev main_v253 : Ref sig .tc := ⟨.hbm, 452, rfl⟩
abbrev main_v254 : Ref sig .tc := ⟨.hbm, 453, rfl⟩
abbrev main_v255 : Ref sig .tc := ⟨.hbm, 454, rfl⟩
abbrev main_v256 : Ref sig .tc := ⟨.hbm, 455, rfl⟩
abbrev main_v257 : Ref sig .tc := ⟨.hbm, 456, rfl⟩
abbrev main_cst_65 : Ref sig .tc := ⟨.hbm, 457, rfl⟩
abbrev main_v258 : Ref sig .tc := ⟨.hbm, 458, rfl⟩
abbrev main_cst_66 : Ref sig .tc := ⟨.hbm, 459, rfl⟩
abbrev main_v259 : Ref sig .tc := ⟨.hbm, 460, rfl⟩
abbrev main_c_67 : Ref sig .tc := ⟨.hbm, 461, rfl⟩
abbrev main_call7_call0_cst : Ref sig .tc := ⟨.hbm, 462, rfl⟩
abbrev main_call7_call0_v0 : Ref sig .tc := ⟨.hbm, 463, rfl⟩
abbrev main_call7_call0_v1 : Ref sig .tc := ⟨.hbm, 464, rfl⟩
abbrev main_call7_call0_cst_0 : Ref sig .tc := ⟨.hbm, 465, rfl⟩
abbrev main_call7_call0_v2 : Ref sig .tc := ⟨.hbm, 466, rfl⟩
abbrev main_call7_call0_v3 : Ref sig .tc := ⟨.hbm, 467, rfl⟩
abbrev main_call7_call0_v4 : Ref sig .tc := ⟨.hbm, 468, rfl⟩
abbrev main_call7_call0_v5 : Ref sig .tc := ⟨.hbm, 469, rfl⟩
abbrev main_call7_call0_v6 : Ref sig .tc := ⟨.hbm, 470, rfl⟩
abbrev main_call7_call0_v7 : Ref sig .tc := ⟨.hbm, 471, rfl⟩
abbrev main_call7_call0_cst_1 : Ref sig .tc := ⟨.hbm, 472, rfl⟩
abbrev main_call7_call0_v8 : Ref sig .tc := ⟨.hbm, 473, rfl⟩
abbrev main_call7_call0_cst_2 : Ref sig .tc := ⟨.hbm, 474, rfl⟩
abbrev main_call7_call0_v9 : Ref sig .tc := ⟨.hbm, 475, rfl⟩
abbrev main_call7_call0_v10 : Ref sig .tc := ⟨.hbm, 476, rfl⟩
abbrev main_call7_call0_cst_3 : Ref sig .tc := ⟨.hbm, 477, rfl⟩
abbrev main_call7_call0_v11 : Ref sig .tc := ⟨.hbm, 478, rfl⟩
abbrev main_call7_call0_cst_4 : Ref sig .tc := ⟨.hbm, 479, rfl⟩
abbrev main_call7_call0_call0_v0 : Ref sig .tc := ⟨.hbm, 480, rfl⟩
abbrev main_call7_v0 : Ref sig .tc := ⟨.hbm, 481, rfl⟩
abbrev main_v260 : Ref sig .tc := ⟨.hbm, 482, rfl⟩
abbrev main_cst_68 : Ref sig .tc := ⟨.hbm, 483, rfl⟩
abbrev main_v261 : Ref sig .tc := ⟨.hbm, 484, rfl⟩
abbrev main_cst_69 : Ref sig .tc := ⟨.hbm, 485, rfl⟩
abbrev main_v262 : Ref sig .tc := ⟨.hbm, 486, rfl⟩
abbrev main_v263 : Ref sig .tc := ⟨.hbm, 487, rfl⟩
abbrev main_v264 : Ref sig .tc := ⟨.hbm, 488, rfl⟩
abbrev main_v265 : Ref sig .tc := ⟨.hbm, 489, rfl⟩
abbrev main_v266 : Ref sig .tc := ⟨.hbm, 490, rfl⟩
abbrev main_v267 : Ref sig .tc := ⟨.hbm, 491, rfl⟩
abbrev main_v268 : Ref sig .tc := ⟨.hbm, 492, rfl⟩
abbrev main_v269 : Ref sig .tc := ⟨.hbm, 493, rfl⟩
abbrev main_v270 : Ref sig .tc := ⟨.hbm, 494, rfl⟩
abbrev main_v271 : Ref sig .tc := ⟨.hbm, 495, rfl⟩
abbrev main_v272 : Ref sig .tc := ⟨.hbm, 496, rfl⟩
abbrev main_c_70 : Ref sig .tc := ⟨.hbm, 497, rfl⟩
abbrev main_v273 : Ref sig .tc := ⟨.hbm, 498, rfl⟩
abbrev main_v274 : Ref sig .tc := ⟨.hbm, 499, rfl⟩
abbrev main_c_71 : Ref sig .tc := ⟨.hbm, 500, rfl⟩
abbrev main_v275 : Ref sig .tc := ⟨.hbm, 501, rfl⟩
abbrev main_v276 : Ref sig .tc := ⟨.hbm, 502, rfl⟩
abbrev main_v277 : Ref sig .tc := ⟨.hbm, 503, rfl⟩
abbrev main_v278 : Ref sig .tc := ⟨.hbm, 504, rfl⟩
abbrev main_v279 : Ref sig .tc := ⟨.hbm, 505, rfl⟩
abbrev main_v280 : Ref sig .tc := ⟨.hbm, 506, rfl⟩
abbrev main_v281 : Ref sig .tc := ⟨.hbm, 507, rfl⟩
abbrev main_cst_72 : Ref sig .tc := ⟨.hbm, 508, rfl⟩
abbrev main_v282 : Ref sig .tc := ⟨.hbm, 509, rfl⟩
abbrev main_v283 : Ref sig .tc := ⟨.hbm, 510, rfl⟩
abbrev main_v284 : Ref sig .tc := ⟨.hbm, 511, rfl⟩
abbrev main_cst_73 : Ref sig .tc := ⟨.hbm, 512, rfl⟩
abbrev main_v285 : Ref sig .tc := ⟨.hbm, 513, rfl⟩
abbrev main_v286 : Ref sig .tc := ⟨.hbm, 514, rfl⟩
abbrev main_v287 : Ref sig .tc := ⟨.hbm, 515, rfl⟩
abbrev main_v288 : Ref sig .tc := ⟨.hbm, 516, rfl⟩
abbrev main_v289 : Ref sig .tc := ⟨.hbm, 517, rfl⟩
abbrev main_v290 : Ref sig .tc := ⟨.hbm, 518, rfl⟩
abbrev main_v291 : Ref sig .tc := ⟨.hbm, 519, rfl⟩
abbrev main_cst_74 : Ref sig .tc := ⟨.hbm, 520, rfl⟩
abbrev main_v292 : Ref sig .tc := ⟨.hbm, 521, rfl⟩
abbrev main_cst_75 : Ref sig .tc := ⟨.hbm, 522, rfl⟩
abbrev main_v293 : Ref sig .tc := ⟨.hbm, 523, rfl⟩
abbrev main_c_76 : Ref sig .tc := ⟨.hbm, 524, rfl⟩
abbrev main_call8_call0_cst : Ref sig .tc := ⟨.hbm, 525, rfl⟩
abbrev main_call8_call0_v0 : Ref sig .tc := ⟨.hbm, 526, rfl⟩
abbrev main_call8_call0_v1 : Ref sig .tc := ⟨.hbm, 527, rfl⟩
abbrev main_call8_call0_cst_0 : Ref sig .tc := ⟨.hbm, 528, rfl⟩
abbrev main_call8_call0_v2 : Ref sig .tc := ⟨.hbm, 529, rfl⟩
abbrev main_call8_call0_v3 : Ref sig .tc := ⟨.hbm, 530, rfl⟩
abbrev main_call8_call0_v4 : Ref sig .tc := ⟨.hbm, 531, rfl⟩
abbrev main_call8_call0_v5 : Ref sig .tc := ⟨.hbm, 532, rfl⟩
abbrev main_call8_call0_v6 : Ref sig .tc := ⟨.hbm, 533, rfl⟩
abbrev main_call8_call0_v7 : Ref sig .tc := ⟨.hbm, 534, rfl⟩
abbrev main_call8_call0_cst_1 : Ref sig .tc := ⟨.hbm, 535, rfl⟩
abbrev main_call8_call0_v8 : Ref sig .tc := ⟨.hbm, 536, rfl⟩
abbrev main_call8_call0_cst_2 : Ref sig .tc := ⟨.hbm, 537, rfl⟩
abbrev main_call8_call0_v9 : Ref sig .tc := ⟨.hbm, 538, rfl⟩
abbrev main_call8_call0_v10 : Ref sig .tc := ⟨.hbm, 539, rfl⟩
abbrev main_call8_call0_cst_3 : Ref sig .tc := ⟨.hbm, 540, rfl⟩
abbrev main_call8_call0_v11 : Ref sig .tc := ⟨.hbm, 541, rfl⟩
abbrev main_call8_call0_cst_4 : Ref sig .tc := ⟨.hbm, 542, rfl⟩
abbrev main_call8_call0_call0_v0 : Ref sig .tc := ⟨.hbm, 543, rfl⟩
abbrev main_call8_v0 : Ref sig .tc := ⟨.hbm, 544, rfl⟩
abbrev main_v294 : Ref sig .tc := ⟨.hbm, 545, rfl⟩
abbrev main_cst_77 : Ref sig .tc := ⟨.hbm, 546, rfl⟩
abbrev main_v295 : Ref sig .tc := ⟨.hbm, 547, rfl⟩
abbrev main_cst_78 : Ref sig .tc := ⟨.hbm, 548, rfl⟩
abbrev main_v296 : Ref sig .tc := ⟨.hbm, 549, rfl⟩
abbrev main_v297 : Ref sig .tc := ⟨.hbm, 550, rfl⟩
abbrev main_v298 : Ref sig .tc := ⟨.hbm, 551, rfl⟩
abbrev main_v299 : Ref sig .tc := ⟨.hbm, 552, rfl⟩
abbrev main_v300 : Ref sig .tc := ⟨.hbm, 553, rfl⟩
abbrev main_v301 : Ref sig .tc := ⟨.hbm, 554, rfl⟩
abbrev main_v302 : Ref sig .tc := ⟨.hbm, 555, rfl⟩
abbrev main_v303 : Ref sig .tc := ⟨.hbm, 556, rfl⟩
abbrev main_v304 : Ref sig .tc := ⟨.hbm, 557, rfl⟩
abbrev main_v305 : Ref sig .tc := ⟨.hbm, 558, rfl⟩
abbrev main_v306 : Ref sig .tc := ⟨.hbm, 559, rfl⟩
abbrev main_v307 : Ref sig .tc := ⟨.hbm, 560, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg5_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg4_0 : Ref sig .tc := ⟨.vmem, 83, rfl⟩
abbrev cc10_stg5_0 : Ref sig .tc := ⟨.vmem, 84, rfl⟩
abbrev cc10_stg5_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg1_1 : Ref sig .tc := ⟨.vmem, 89, rfl⟩
abbrev cc11_stg2_0 : Ref sig .tc := ⟨.vmem, 90, rfl⟩
abbrev cc11_stg3_0 : Ref sig .tc := ⟨.vmem, 91, rfl⟩
abbrev cc11_stg4_0 : Ref sig .tc := ⟨.vmem, 92, rfl⟩
abbrev cc11_stg4_1 : Ref sig .tc := ⟨.vmem, 93, rfl⟩
abbrev cc12_stg0_0 : Ref sig .tc := ⟨.vmem, 94, rfl⟩
abbrev cc12_stg0_1 : Ref sig .tc := ⟨.vmem, 95, rfl⟩
abbrev cc12_stg1_0 : Ref sig .tc := ⟨.vmem, 96, rfl⟩
abbrev cc12_stg2_0 : Ref sig .tc := ⟨.vmem, 97, rfl⟩
abbrev cc12_stg3_0 : Ref sig .tc := ⟨.vmem, 98, rfl⟩
abbrev cc12_stg4_0 : Ref sig .tc := ⟨.vmem, 99, rfl⟩
abbrev cc12_stg5_0 : Ref sig .tc := ⟨.vmem, 100, rfl⟩
abbrev cc12_stg5_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg1_1 : Ref sig .tc := ⟨.vmem, 105, rfl⟩
abbrev cc13_stg2_0 : Ref sig .tc := ⟨.vmem, 106, rfl⟩
abbrev cc13_stg3_0 : Ref sig .tc := ⟨.vmem, 107, rfl⟩
abbrev cc13_stg4_0 : Ref sig .tc := ⟨.vmem, 108, rfl⟩
abbrev cc13_stg4_1 : Ref sig .tc := ⟨.vmem, 109, rfl⟩
abbrev cc14_stg0_0 : Ref sig .tc := ⟨.vmem, 110, rfl⟩
abbrev cc14_stg0_1 : Ref sig .tc := ⟨.vmem, 111, rfl⟩
abbrev cc14_stg1_0 : Ref sig .tc := ⟨.vmem, 112, rfl⟩
abbrev cc14_stg2_0 : Ref sig .tc := ⟨.vmem, 113, rfl⟩
abbrev cc14_stg3_0 : Ref sig .tc := ⟨.vmem, 114, rfl⟩
abbrev cc14_stg4_0 : Ref sig .tc := ⟨.vmem, 115, rfl⟩
abbrev cc14_stg5_0 : Ref sig .tc := ⟨.vmem, 116, rfl⟩
abbrev cc14_stg5_1 : Ref sig .tc := ⟨.vmem, 117, rfl⟩
abbrev cc15_stg0_0 : Ref sig .tc := ⟨.vmem, 118, rfl⟩
abbrev cc15_stg0_1 : Ref sig .tc := ⟨.vmem, 119, rfl⟩
abbrev cc15_stg1_0 : Ref sig .tc := ⟨.vmem, 120, rfl⟩
abbrev cc15_stg1_1 : Ref sig .tc := ⟨.vmem, 121, rfl⟩
abbrev cc15_stg2_0 : Ref sig .tc := ⟨.vmem, 122, rfl⟩
abbrev cc15_stg3_0 : Ref sig .tc := ⟨.vmem, 123, rfl⟩
abbrev cc15_stg4_0 : Ref sig .tc := ⟨.vmem, 124, rfl⟩
abbrev cc15_stg4_1 : Ref sig .tc := ⟨.vmem, 125, rfl⟩
abbrev cc16_stg0_0 : Ref sig .tc := ⟨.vmem, 126, rfl⟩
abbrev cc16_stg0_1 : Ref sig .tc := ⟨.vmem, 127, rfl⟩
abbrev cc16_stg1_0 : Ref sig .tc := ⟨.vmem, 128, rfl⟩
abbrev cc16_stg2_0 : Ref sig .tc := ⟨.vmem, 129, rfl⟩
abbrev cc16_stg3_0 : Ref sig .tc := ⟨.vmem, 130, rfl⟩
abbrev cc16_stg4_0 : Ref sig .tc := ⟨.vmem, 131, rfl⟩
abbrev cc16_stg5_0 : Ref sig .tc := ⟨.vmem, 132, rfl⟩
abbrev cc16_stg5_1 : Ref sig .tc := ⟨.vmem, 133, rfl⟩
abbrev cc17_stg0_0 : Ref sig .tc := ⟨.vmem, 134, rfl⟩
abbrev cc17_stg0_1 : Ref sig .tc := ⟨.vmem, 135, rfl⟩
abbrev cc17_stg1_0 : Ref sig .tc := ⟨.vmem, 136, rfl⟩
abbrev cc17_stg2_0 : Ref sig .tc := ⟨.vmem, 137, rfl⟩
abbrev cc17_stg3_0 : Ref sig .tc := ⟨.vmem, 138, rfl⟩
abbrev cc17_stg3_1 : Ref sig .tc := ⟨.vmem, 139, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem4_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem5_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem4_1 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem5_1 : DmaSem sig := 85
abbrev cc11_sem0_0 : DmaSem sig := 86
abbrev cc11_sem0_1 : DmaSem sig := 87
abbrev cc11_sem1_0 : DmaSem sig := 88
abbrev cc11_sem1_1 : DmaSem sig := 89
abbrev cc11_sem2_0 : DmaSem sig := 90
abbrev cc11_sem3_0 : DmaSem sig := 91
abbrev cc11_sem4_0 : DmaSem sig := 92
abbrev cc11_sem4_1 : DmaSem sig := 93
abbrev cc12_sem0_0 : DmaSem sig := 94
abbrev cc12_sem0_1 : DmaSem sig := 95
abbrev cc12_sem1_0 : DmaSem sig := 96
abbrev cc12_sem2_0 : DmaSem sig := 97
abbrev cc12_sem3_0 : DmaSem sig := 98
abbrev cc12_sem4_0 : DmaSem sig := 99
abbrev cc12_sem5_0 : DmaSem sig := 100
abbrev cc12_sem5_1 : DmaSem sig := 101
abbrev cc13_sem0_0 : DmaSem sig := 102
abbrev cc13_sem0_1 : DmaSem sig := 103
abbrev cc13_sem1_0 : DmaSem sig := 104
abbrev cc13_sem1_1 : DmaSem sig := 105
abbrev cc13_sem2_0 : DmaSem sig := 106
abbrev cc13_sem3_0 : DmaSem sig := 107
abbrev cc13_sem4_0 : DmaSem sig := 108
abbrev cc13_sem4_1 : DmaSem sig := 109
abbrev cc14_sem0_0 : DmaSem sig := 110
abbrev cc14_sem0_1 : DmaSem sig := 111
abbrev cc14_sem1_0 : DmaSem sig := 112
abbrev cc14_sem2_0 : DmaSem sig := 113
abbrev cc14_sem3_0 : DmaSem sig := 114
abbrev cc14_sem4_0 : DmaSem sig := 115
abbrev cc14_sem5_0 : DmaSem sig := 116
abbrev cc14_sem5_1 : DmaSem sig := 117
abbrev cc15_sem0_0 : DmaSem sig := 118
abbrev cc15_sem0_1 : DmaSem sig := 119
abbrev cc15_sem1_0 : DmaSem sig := 120
abbrev cc15_sem1_1 : DmaSem sig := 121
abbrev cc15_sem2_0 : DmaSem sig := 122
abbrev cc15_sem3_0 : DmaSem sig := 123
abbrev cc15_sem4_0 : DmaSem sig := 124
abbrev cc15_sem4_1 : DmaSem sig := 125
abbrev cc16_sem0_0 : DmaSem sig := 126
abbrev cc16_sem0_1 : DmaSem sig := 127
abbrev cc16_sem1_0 : DmaSem sig := 128
abbrev cc16_sem2_0 : DmaSem sig := 129
abbrev cc16_sem3_0 : DmaSem sig := 130
abbrev cc16_sem4_0 : DmaSem sig := 131
abbrev cc16_sem5_0 : DmaSem sig := 132
abbrev cc16_sem5_1 : DmaSem sig := 133
abbrev cc17_sem0_0 : DmaSem sig := 134
abbrev cc17_sem0_1 : DmaSem sig := 135
abbrev cc17_sem1_0 : DmaSem sig := 136
abbrev cc17_sem2_0 : DmaSem sig := 137
abbrev cc17_sem3_0 : DmaSem sig := 138
abbrev cc17_sem3_1 : DmaSem sig := 139

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x1 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x1 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S128x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S5000x128 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x1 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S5000x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x64 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S5000x64 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S550000x1_S550000x128_0_1 : S550000x1.BroadcastsInDim S550000x128 (![0, 1] : Fin 2 → Fin S550000x128.rank)
  slices_S8x128x128_S1x128x128_0_0_0 : S8x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reducesTo_S50000x128_S_d0_1 : S50000x128.ReducesTo [0, 1] S_
  h_S_ : 0 < S_.numel
  bcast_S_S1x1 : S_.BroadcastsInDim S1x1 (![] : Fin 0 → Fin S1x1.rank)
  bcast_S1x1_S50000x128_0_1 : S1x1.BroadcastsInDim S50000x128 (![0, 1] : Fin 2 → Fin S50000x128.rank)
  slices_S8x128_S1x128_0_0 : S8x128.Slices ![0, 0] S1x128
  shapeCasts_S1x128_S128 : S1x128.ShapeCasts S128
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S5000x64_S64x128_S5000x128_1_0_0_1_n_n_wf : DotDims.WF S5000x64 S64x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S50000x128.size a
  hwx9_4 : ∀ i : grid9.Coords, EltTy.bits .f32 = 32 ∨ (Rect.block (s := S50000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x1.size a ≤ S1x1.size a
  hwx10_3 : ∀ i : grid10.Coords, EltTy.bits .f32 = 32 ∨ (Rect.block (s := S1x1) S1x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x128.size a ≤ S50000x128.size a
  hwx11_1 : ∀ i : grid11.Coords, EltTy.bits .f32 = 32 ∨ (Rect.block (s := S50000x128) S5000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x128.size a ≤ S50000x128.size a
  hwx11_4 : ∀ i : grid11.Coords, EltTy.bits .f32 = 32 ∨ (Rect.block (s := S50000x128) S5000x128.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x1.size a ≤ S1x1.size a
  hwx12_3 : ∀ i : grid12.Coords, EltTy.bits .f32 = 32 ∨ (Rect.block (s := S1x1) S1x1.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1.size a ≤ S1x1.size a
  hwx12_4 : ∀ i : grid12.Coords, EltTy.bits .f32 = 32 ∨ (Rect.block (s := S1x1) S1x1.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x128.size a ≤ S50000x128.size a
  hwx12_5 : ∀ i : grid12.Coords, EltTy.bits .f32 = 32 ∨ (Rect.block (s := S50000x128) S5000x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S50000x128.size a
  hwx13_1 : ∀ i : grid13.Coords, EltTy.bits .f32 = 32 ∨ (Rect.block (s := S50000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S50000x128.size a
  hwx13_4 : ∀ i : grid13.Coords, EltTy.bits .f32 = 32 ∨ (Rect.block (s := S50000x128) S5000x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x1.size a ≤ S1x1.size a
  hwx14_3 : ∀ i : grid14.Coords, EltTy.bits .f32 = 32 ∨ (Rect.block (s := S1x1) S1x1.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x1.size a ≤ S1x1.size a
  hwx14_4 : ∀ i : grid14.Coords, EltTy.bits .f32 = 32 ∨ (Rect.block (s := S1x1) S1x1.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x128.size a ≤ S50000x128.size a
  hwx14_5 : ∀ i : grid14.Coords, EltTy.bits .f32 = 32 ∨ (Rect.block (s := S50000x128) S5000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S50000x128.size a
  hwx15_0 : ∀ i : grid15.Coords, EltTy.bits .f32 = 32 ∨ (Rect.block (s := S50000x128) S5000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x128.size a ≤ S50000x128.size a
  hwx15_1 : ∀ i : grid15.Coords, EltTy.bits .f32 = 32 ∨ (Rect.block (s := S50000x128) S5000x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128x128.size a ≤ S128x128.size a
  hwx15_2 : ∀ i : grid15.Coords, EltTy.bits .f32 = 32 ∨ (Rect.block (s := S128x128) S128x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S128x128.size a ≤ S128x128.size a
  hwx15_3 : ∀ i : grid15.Coords, EltTy.bits .f32 = 32 ∨ (Rect.block (s := S128x128) S128x128.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S5000x128.size a ≤ S50000x128.size a
  hwx15_4 : ∀ i : grid15.Coords, EltTy.bits .f32 = 32 ∨ (Rect.block (s := S50000x128) S5000x128.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S50000x128.size a
  hwx16_0 : ∀ i : grid16.Coords, EltTy.bits .f32 = 32 ∨ (Rect.block (s := S50000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x1.size a ≤ S1x1.size a
  hwx16_3 : ∀ i : grid16.Coords, EltTy.bits .f32 = 32 ∨ (Rect.block (s := S1x1) S1x1.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x1.size a ≤ S1x1.size a
  hwx16_4 : ∀ i : grid16.Coords, EltTy.bits .f32 = 32 ∨ (Rect.block (s := S1x1) S1x1.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S5000x128.size a ≤ S50000x128.size a
  hwx16_5 : ∀ i : grid16.Coords, EltTy.bits .f32 = 32 ∨ (Rect.block (s := S50000x128) S5000x128.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S50000x128.size a
  hwx17_0 : ∀ i : grid17.Coords, EltTy.bits .f32 = 32 ∨ (Rect.block (s := S50000x128) S5000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x64.size a ≤ S128x64.size a
  hwx17_1 : ∀ i : grid17.Coords, EltTy.bits .f32 = 32 ∨ (Rect.block (s := S128x64) S128x64.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x64.size a ≤ S1x64.size a
  hwx17_2 : ∀ i : grid17.Coords, EltTy.bits .f32 = 32 ∨ (Rect.block (s := S1x64) S1x64.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S5000x64.size a ≤ S50000x64.size a
  hwx17_3 : ∀ i : grid17.Coords, EltTy.bits .f32 = 32 ∨ (Rect.block (s := S50000x64) S5000x64.size (cc17_transform_3 i) (hinb17_3 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v87) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v99) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v116) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v118) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v121) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v131) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v132) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v133) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v134) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v135) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v150) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v33) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v152) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v154) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v155) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v155) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v165) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v166) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v167) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v168) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v169) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v184) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v33) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v186) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v188) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v189) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v189) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v199) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v200) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v201) S1x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v202) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v203) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v218) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v33) S5000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v220) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v222) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v223) S5000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v223) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v233) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v234) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v235) S1x1.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v236) S1x1.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v237) S5000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v252) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v33) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v254) S128x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v256) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v257) S5000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v257) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v267) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v268) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v269) S1x1.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v270) S1x1.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v271) S5000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v286) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v33) S5000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v288) S128x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v290) S128x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v291) S5000x128.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v291) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v301) S1x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v302) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v303) S1x1.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v304) S1x1.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v305) S5000x128.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v305) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg8) S128x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v306) S1x64.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v307) S5000x64.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

class Facts : Prop extends Facts₀ where

variable [Facts]
-- ==== ReferenceIdeal.lean ====
abbrev S50000x64 : Shape := ⟨2, ![50000, 64]⟩
abbrev S2x500000 : Shape := ⟨2, ![2, 500000]⟩
abbrev S64x128 : Shape := ⟨2, ![64, 128]⟩
abbrev S128 : Shape := ⟨1, ![128]⟩
abbrev S8x128x128 : Shape := ⟨3, ![8, 128, 128]⟩
abbrev S8x128 : Shape := ⟨2, ![8, 128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S50000x128 : Shape := ⟨2, ![50000, 128]⟩
abbrev S1x128 : Shape := ⟨2, ![1, 128]⟩
abbrev S550000x128 : Shape := ⟨2, ![550000, 128]⟩
abbrev S1x128x128 : Shape := ⟨3, ![1, 128, 128]⟩
abbrev S128x128 : Shape := ⟨2, ![128, 128]⟩
abbrev S1x1 : Shape := ⟨2, ![1, 1]⟩
abbrev S1x64 : Shape := ⟨2, ![1, 64]⟩

abbrev nBuf : Space → Nat
  | .hbm => 741
  | .vmem => 0
  | .smem => 0
  | _ => 0

abbrev hbmTy0_0 (i : Nat) : BufTy := match i % 128 with
  | 0 => ⟨S50000x64, .f32⟩
  | 1 => ⟨S2x500000, .i32⟩
  | 2 => ⟨S64x128, .f32⟩
  | 3 => ⟨S128, .f32⟩
  | 4 => ⟨S8x128x128, .f32⟩
  | 5 => ⟨S8x128x128, .f32⟩
  | 6 => ⟨S8x128, .f32⟩
  | 7 => ⟨S8x128, .f32⟩
  | 8 => ⟨S128x64, .f32⟩
  | 9 => ⟨S64, .f32⟩
  | 10 => ⟨S1x500000, .i32⟩
  | 11 => ⟨S500000, .i32⟩
  | 12 => ⟨S1x500000, .i32⟩
  | 13 => ⟨S500000, .i32⟩
  | 14 => ⟨S50000, .i32⟩
  | 15 => ⟨S550000, .i32⟩
  | 16 => ⟨S550000, .i32⟩
  | 17 => ⟨S_, .f32⟩
  | 18 => ⟨S550000, .f32⟩
  | 19 => ⟨S_, .f32⟩
  | 20 => ⟨S50000, .f32⟩
  | 21 => ⟨S550000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000, .f32⟩
  | 40 => ⟨S_, .i32⟩
  | 41 => ⟨S550000, .i32⟩
  | 42 => ⟨S550000, .i1⟩
  | 43 => ⟨S_, .i32⟩
  | 44 => ⟨S550000, .i32⟩
  | 45 => ⟨S550000, .i32⟩
  | 46 => ⟨S550000, .i32⟩
  | 47 => ⟨S550000x1, .i32⟩
  | 48 => ⟨S550000, .f32⟩
  | 49 => ⟨S550000, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S550000x1, .f32⟩
  | 58 => ⟨S_, .i32⟩
  | 59 => ⟨S550000, .i32⟩
  | 60 => ⟨S550000, .i1⟩
  | 61 => ⟨S_, .i32⟩
  | 62 => ⟨S550000, .i32⟩
  | 63 => ⟨S550000, .i32⟩
  | 64 => ⟨S550000, .i32⟩
  | 65 => ⟨S550000x1, .i32⟩
  | 66 => ⟨S550000x128, .f32⟩
  | 67 => ⟨S550000x128, .f32⟩
  | 68 => ⟨S550000x128, .f32⟩
  | 69 => ⟨S_, .f32⟩
  | 70 => ⟨S50000x128, .f32⟩
  | 71 => ⟨S550000x1, .i32⟩
  | 72 => ⟨S50000x128, .f32⟩
  | 73 => ⟨S_, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S128, .f32⟩
  | 101 => ⟨S_, .f32⟩
  | 102 => ⟨S_, .f32⟩
  | 103 => ⟨S_, .f32⟩
  | 104 => ⟨S_, .f32⟩
  | 105 => ⟨S50000x128, .f32⟩
  | 106 => ⟨S50000x128, .f32⟩
  | 107 => ⟨S_, .i32⟩
  | 108 => ⟨S_, .f32⟩
  | 109 => ⟨S_, .f32⟩
  | 110 => ⟨S1x1, .f32⟩
  | 111 => ⟨S_, .f32⟩
  | 112 => ⟨S1x1, .f32⟩
  | 113 => ⟨S1x1, .f32⟩
  | 114 => ⟨S50000x128, .f32⟩
  | 115 => ⟨S50000x128, .f32⟩
  | 116 => ⟨S50000x128, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .i1⟩
  | 125 => ⟨S_, .f32⟩
  | 126 => ⟨S_, .f32⟩
  | 127 => ⟨S_, .f32⟩
  | _ => ⟨S50000x64, .f32⟩

abbrev hbmTy0_1 (i : Nat) : BufTy := match i % 128 with
  | 0 => ⟨S_, .f32⟩
  | 1 => ⟨S_, .f32⟩
  | 2 => ⟨S_, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S550000x1, .f32⟩
  | 15 => ⟨S_, .i32⟩
  | 16 => ⟨S550000, .i32⟩
  | 17 => ⟨S550000, .i1⟩
  | 18 => ⟨S_, .i32⟩
  | 19 => ⟨S550000, .i32⟩
  | 20 => ⟨S550000, .i32⟩
  | 21 => ⟨S550000, .i32⟩
  | 22 => ⟨S550000x1, .i32⟩
  | 23 => ⟨S550000x128, .f32⟩
  | 24 => ⟨S550000x128, .f32⟩
  | 25 => ⟨S550000x128, .f32⟩
  | 26 => ⟨S_, .f32⟩
  | 27 => ⟨S50000x128, .f32⟩
  | 28 => ⟨S550000x1, .i32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128x128, .f32⟩
  | 48 => ⟨S128x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S_, .f32⟩
  | 60 => ⟨S_, .f32⟩
  | 61 => ⟨S_, .f32⟩
  | 62 => ⟨S50000x128, .f32⟩
  | 63 => ⟨S50000x128, .f32⟩
  | 64 => ⟨S_, .i32⟩
  | 65 => ⟨S_, .f32⟩
  | 66 => ⟨S_, .f32⟩
  | 67 => ⟨S1x1, .f32⟩
  | 68 => ⟨S_, .f32⟩
  | 69 => ⟨S1x1, .f32⟩
  | 70 => ⟨S1x1, .f32⟩
  | 71 => ⟨S50000x128, .f32⟩
  | 72 => ⟨S50000x128, .f32⟩
  | 73 => ⟨S50000x128, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S550000x1, .f32⟩
  | 100 => ⟨S_, .i32⟩
  | 101 => ⟨S550000, .i32⟩
  | 102 => ⟨S550000, .i1⟩
  | 103 => ⟨S_, .i32⟩
  | 104 => ⟨S550000, .i32⟩
  | 105 => ⟨S550000, .i32⟩
  | 106 => ⟨S550000, .i32⟩
  | 107 => ⟨S550000x1, .i32⟩
  | 108 => ⟨S550000x128, .f32⟩
  | 109 => ⟨S550000x128, .f32⟩
  | 110 => ⟨S550000x128, .f32⟩
  | 111 => ⟨S_, .f32⟩
  | 112 => ⟨S50000x128, .f32⟩
  | 113 => ⟨S550000x1, .i32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x64, .f32⟩

abbrev hbmTy0_2 (i : Nat) : BufTy := match i % 128 with
  | 0 => ⟨S_, .f32⟩
  | 1 => ⟨S50000x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S1x128, .f32⟩
  | 12 => ⟨S128, .f32⟩
  | 13 => ⟨S1x128, .f32⟩
  | 14 => ⟨S128, .f32⟩
  | 15 => ⟨S_, .f32⟩
  | 16 => ⟨S_, .f32⟩
  | 17 => ⟨S_, .f32⟩
  | 18 => ⟨S_, .f32⟩
  | 19 => ⟨S50000x128, .f32⟩
  | 20 => ⟨S50000x128, .f32⟩
  | 21 => ⟨S_, .i32⟩
  | 22 => ⟨S_, .f32⟩
  | 23 => ⟨S_, .f32⟩
  | 24 => ⟨S1x1, .f32⟩
  | 25 => ⟨S_, .f32⟩
  | 26 => ⟨S1x1, .f32⟩
  | 27 => ⟨S1x1, .f32⟩
  | 28 => ⟨S50000x128, .f32⟩
  | 29 => ⟨S50000x128, .f32⟩
  | 30 => ⟨S50000x128, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i1⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S550000x1, .f32⟩
  | 57 => ⟨S_, .i32⟩
  | 58 => ⟨S550000, .i32⟩
  | 59 => ⟨S550000, .i1⟩
  | 60 => ⟨S_, .i32⟩
  | 61 => ⟨S550000, .i32⟩
  | 62 => ⟨S550000, .i32⟩
  | 63 => ⟨S550000, .i32⟩
  | 64 => ⟨S550000x1, .i32⟩
  | 65 => ⟨S550000x128, .f32⟩
  | 66 => ⟨S550000x128, .f32⟩
  | 67 => ⟨S550000x128, .f32⟩
  | 68 => ⟨S_, .f32⟩
  | 69 => ⟨S50000x128, .f32⟩
  | 70 => ⟨S550000x1, .i32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S1x128x128, .f32⟩
  | 79 => ⟨S128x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S_, .f32⟩
  | 102 => ⟨S_, .f32⟩
  | 103 => ⟨S_, .f32⟩
  | 104 => ⟨S50000x128, .f32⟩
  | 105 => ⟨S50000x128, .f32⟩
  | 106 => ⟨S_, .i32⟩
  | 107 => ⟨S_, .f32⟩
  | 108 => ⟨S_, .f32⟩
  | 109 => ⟨S1x1, .f32⟩
  | 110 => ⟨S_, .f32⟩
  | 111 => ⟨S1x1, .f32⟩
  | 112 => ⟨S1x1, .f32⟩
  | 113 => ⟨S50000x128, .f32⟩
  | 114 => ⟨S50000x128, .f32⟩
  | 115 => ⟨S50000x128, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i1⟩
  | 124 => ⟨S_, .f32⟩
  | 125 => ⟨S_, .f32⟩
  | 126 => ⟨S_, .f32⟩
  | 127 => ⟨S_, .f32⟩
  | _ => ⟨S50000x64, .f32⟩

abbrev hbmTy0_3 (i : Nat) : BufTy := match i % 128 with
  | 0 => ⟨S_, .f32⟩
  | 1 => ⟨S_, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S550000x1, .f32⟩
  | 14 => ⟨S_, .i32⟩
  | 15 => ⟨S550000, .i32⟩
  | 16 => ⟨S550000, .i1⟩
  | 17 => ⟨S_, .i32⟩
  | 18 => ⟨S550000, .i32⟩
  | 19 => ⟨S550000, .i32⟩
  | 20 => ⟨S550000, .i32⟩
  | 21 => ⟨S550000x1, .i32⟩
  | 22 => ⟨S550000x128, .f32⟩
  | 23 => ⟨S550000x128, .f32⟩
  | 24 => ⟨S550000x128, .f32⟩
  | 25 => ⟨S_, .f32⟩
  | 26 => ⟨S50000x128, .f32⟩
  | 27 => ⟨S550000x1, .i32⟩
  | 28 => ⟨S50000x128, .f32⟩
  | 29 => ⟨S_, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S128, .f32⟩
  | 57 => ⟨S_, .f32⟩
  | 58 => ⟨S_, .f32⟩
  | 59 => ⟨S_, .f32⟩
  | 60 => ⟨S_, .f32⟩
  | 61 => ⟨S50000x128, .f32⟩
  | 62 => ⟨S50000x128, .f32⟩
  | 63 => ⟨S_, .i32⟩
  | 64 => ⟨S_, .f32⟩
  | 65 => ⟨S_, .f32⟩
  | 66 => ⟨S1x1, .f32⟩
  | 67 => ⟨S_, .f32⟩
  | 68 => ⟨S1x1, .f32⟩
  | 69 => ⟨S1x1, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .i1⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S550000x1, .f32⟩
  | 99 => ⟨S_, .i32⟩
  | 100 => ⟨S550000, .i32⟩
  | 101 => ⟨S550000, .i1⟩
  | 102 => ⟨S_, .i32⟩
  | 103 => ⟨S550000, .i32⟩
  | 104 => ⟨S550000, .i32⟩
  | 105 => ⟨S550000, .i32⟩
  | 106 => ⟨S550000x1, .i32⟩
  | 107 => ⟨S550000x128, .f32⟩
  | 108 => ⟨S550000x128, .f32⟩
  | 109 => ⟨S550000x128, .f32⟩
  | 110 => ⟨S_, .f32⟩
  | 111 => ⟨S50000x128, .f32⟩
  | 112 => ⟨S550000x1, .i32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S1x128x128, .f32⟩
  | 121 => ⟨S128x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S_, .f32⟩
  | _ => ⟨S50000x64, .f32⟩

abbrev hbmTy0_4 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S128, .f32⟩
  | 14 => ⟨S_, .f32⟩
  | 15 => ⟨S_, .f32⟩
  | 16 => ⟨S_, .f32⟩
  | 17 => ⟨S_, .f32⟩
  | 18 => ⟨S50000x128, .f32⟩
  | 19 => ⟨S50000x128, .f32⟩
  | 20 => ⟨S_, .i32⟩
  | 21 => ⟨S_, .f32⟩
  | 22 => ⟨S_, .f32⟩
  | 23 => ⟨S1x1, .f32⟩
  | 24 => ⟨S_, .f32⟩
  | 25 => ⟨S1x1, .f32⟩
  | 26 => ⟨S1x1, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S550000x1, .f32⟩
  | 56 => ⟨S_, .i32⟩
  | 57 => ⟨S550000, .i32⟩
  | 58 => ⟨S550000, .i1⟩
  | 59 => ⟨S_, .i32⟩
  | 60 => ⟨S550000, .i32⟩
  | 61 => ⟨S550000, .i32⟩
  | 62 => ⟨S550000, .i32⟩
  | 63 => ⟨S550000x1, .i32⟩
  | 64 => ⟨S550000x128, .f32⟩
  | 65 => ⟨S550000x128, .f32⟩
  | 66 => ⟨S550000x128, .f32⟩
  | 67 => ⟨S_, .f32⟩
  | 68 => ⟨S50000x128, .f32⟩
  | 69 => ⟨S550000x1, .i32⟩
  | 70 => ⟨S50000x128, .f32⟩
  | 71 => ⟨S_, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S1x128x128, .f32⟩
  | 78 => ⟨S128x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S1x128, .f32⟩
  | 96 => ⟨S128, .f32⟩
  | 97 => ⟨S1x128, .f32⟩
  | 98 => ⟨S128, .f32⟩
  | 99 => ⟨S_, .f32⟩
  | 100 => ⟨S_, .f32⟩
  | 101 => ⟨S_, .f32⟩
  | 102 => ⟨S_, .f32⟩
  | 103 => ⟨S50000x128, .f32⟩
  | 104 => ⟨S50000x128, .f32⟩
  | 105 => ⟨S_, .i32⟩
  | 106 => ⟨S_, .f32⟩
  | 107 => ⟨S_, .f32⟩
  | 108 => ⟨S1x1, .f32⟩
  | 109 => ⟨S_, .f32⟩
  | 110 => ⟨S1x1, .f32⟩
  | 111 => ⟨S1x1, .f32⟩
  | 112 => ⟨S50000x128, .f32⟩
  | 113 => ⟨S50000x128, .f32⟩
  | 114 => ⟨S50000x128, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .i1⟩
  | 123 => ⟨S_, .f32⟩
  | 124 => ⟨S_, .f32⟩
  | 125 => ⟨S_, .f32⟩
  | 126 => ⟨S_, .f32⟩
  | 127 => ⟨S_, .f32⟩
  | _ => ⟨S50000x64, .f32⟩

abbrev hbmTy0_5 (i : Nat) : BufTy := match i % 128 with
  | 0 => ⟨S_, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S550000x1, .f32⟩
  | 13 => ⟨S_, .i32⟩
  | 14 => ⟨S550000, .i32⟩
  | 15 => ⟨S550000, .i1⟩
  | 16 => ⟨S_, .i32⟩
  | 17 => ⟨S550000, .i32⟩
  | 18 => ⟨S550000, .i32⟩
  | 19 => ⟨S550000, .i32⟩
  | 20 => ⟨S550000x1, .i32⟩
  | 21 => ⟨S550000x128, .f32⟩
  | 22 => ⟨S550000x128, .f32⟩
  | 23 => ⟨S550000x128, .f32⟩
  | 24 => ⟨S_, .f32⟩
  | 25 => ⟨S50000x128, .f32⟩
  | 26 => ⟨S550000x1, .i32⟩
  | 27 => ⟨S50000x128, .f32⟩
  | 28 => ⟨S_, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S128, .f32⟩
  | 56 => ⟨S_, .f32⟩
  | 57 => ⟨S_, .f32⟩
  | 58 => ⟨S_, .f32⟩
  | 59 => ⟨S_, .f32⟩
  | 60 => ⟨S50000x128, .f32⟩
  | 61 => ⟨S50000x128, .f32⟩
  | 62 => ⟨S_, .i32⟩
  | 63 => ⟨S_, .f32⟩
  | 64 => ⟨S_, .f32⟩
  | 65 => ⟨S1x1, .f32⟩
  | 66 => ⟨S_, .f32⟩
  | 67 => ⟨S1x1, .f32⟩
  | 68 => ⟨S1x1, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x64, .f32⟩
  | 98 => ⟨S1x64, .f32⟩
  | 99 => ⟨S50000x64, .f32⟩
  | 100 => ⟨S50000x64, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_call1_call0_cst : Ref sig .tc := ⟨.hbm, 108, rfl⟩
abbrev main_call1_call0_v0 : Ref sig .tc := ⟨.hbm, 109, rfl⟩
abbrev main_call1_call0_v1 : Ref sig .tc := ⟨.hbm, 110, rfl⟩
abbrev main_call1_call0_cst_0 : Ref sig .tc := ⟨.hbm, 111, rfl⟩
abbrev main_call1_call0_v2 : Ref sig .tc := ⟨.hbm, 112, rfl⟩
abbrev main_call1_call0_v3 : Ref sig .tc := ⟨.hbm, 113, rfl⟩
abbrev main_call1_call0_v4 : Ref sig .tc := ⟨.hbm, 114, rfl⟩
abbrev main_call1_call0_v5 : Ref sig .tc := ⟨.hbm, 115, rfl⟩
abbrev main_call1_call0_v6 : Ref sig .tc := ⟨.hbm, 116, rfl⟩
abbrev main_call1_call0_v7 : Ref sig .tc := ⟨.hbm, 117, rfl⟩
abbrev main_call1_call0_cst_1 : Ref sig .tc := ⟨.hbm, 118, rfl⟩
abbrev main_call1_call0_v8 : Ref sig .tc := ⟨.hbm, 119, rfl⟩
abbrev main_call1_call0_cst_2 : Ref sig .tc := ⟨.hbm, 120, rfl⟩
abbrev main_call1_call0_v9 : Ref sig .tc := ⟨.hbm, 121, rfl⟩
abbrev main_call1_call0_v10 : Ref sig .tc := ⟨.hbm, 122, rfl⟩
abbrev main_call1_call0_cst_3 : Ref sig .tc := ⟨.hbm, 123, rfl⟩
abbrev main_call1_call0_v11 : Ref sig .tc := ⟨.hbm, 124, rfl⟩
abbrev main_call1_call0_cst_4 : Ref sig .tc := ⟨.hbm, 125, rfl⟩
abbrev main_call1_call0_call0_v0 : Ref sig .tc := ⟨.hbm, 126, rfl⟩
abbrev main_call1_v0 : Ref sig .tc := ⟨.hbm, 127, rfl⟩
abbrev main_v76 : Ref sig .tc := ⟨.hbm, 128, rfl⟩
abbrev main_cst_18 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_call2_cst : Ref sig .tc := ⟨.hbm, 139, rfl⟩
abbrev main_call2_v0 : Ref sig .tc := ⟨.hbm, 140, rfl⟩
abbrev main_v86 : Ref sig .tc := ⟨.hbm, 141, rfl⟩
abbrev main_v87 : Ref sig .tc := ⟨.hbm, 142, rfl⟩
abbrev main_c_19 : Ref sig .tc := ⟨.hbm, 143, rfl⟩
abbrev main_v88 : Ref sig .tc := ⟨.hbm, 144, rfl⟩
abbrev main_v89 : Ref sig .tc := ⟨.hbm, 145, rfl⟩
abbrev main_c_20 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_21 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_22 : Ref sig .tc := ⟨.hbm, 158, rfl⟩
abbrev main_v100 : Ref sig .tc := ⟨.hbm, 159, rfl⟩
abbrev main_v101 : Ref sig .tc := ⟨.hbm, 160, rfl⟩
abbrev main_cst_23 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_24 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_25 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_26 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_27 : Ref sig .tc := ⟨.hbm, 186, rfl⟩
abbrev main_v123 : Ref sig .tc := ⟨.hbm, 187, rfl⟩
abbrev main_cst_28 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_c_29 : Ref sig .tc := ⟨.hbm, 192, rfl⟩
abbrev main_call3_call0_cst : Ref sig .tc := ⟨.hbm, 193, rfl⟩
abbrev main_call3_call0_v0 : Ref sig .tc := ⟨.hbm, 194, rfl⟩
abbrev main_call3_call0_v1 : Ref sig .tc := ⟨.hbm, 195, rfl⟩
abbrev main_call3_call0_cst_0 : Ref sig .tc := ⟨.hbm, 196, rfl⟩
abbrev main_call3_call0_v2 : Ref sig .tc := ⟨.hbm, 197, rfl⟩
abbrev main_call3_call0_v3 : Ref sig .tc := ⟨.hbm, 198, rfl⟩
abbrev main_call3_call0_v4 : Ref sig .tc := ⟨.hbm, 199, rfl⟩
abbrev main_call3_call0_v5 : Ref sig .tc := ⟨.hbm, 200, rfl⟩
abbrev main_call3_call0_v6 : Ref sig .tc := ⟨.hbm, 201, rfl⟩
abbrev main_call3_call0_v7 : Ref sig .tc := ⟨.hbm, 202, rfl⟩
abbrev main_call3_call0_cst_1 : Ref sig .tc := ⟨.hbm, 203, rfl⟩
abbrev main_call3_call0_v8 : Ref sig .tc := ⟨.hbm, 204, rfl⟩
abbrev main_call3_call0_cst_2 : Ref sig .tc := ⟨.hbm, 205, rfl⟩
abbrev main_call3_call0_v9 : Ref sig .tc := ⟨.hbm, 206, rfl⟩
abbrev main_call3_call0_v10 : Ref sig .tc := ⟨.hbm, 207, rfl⟩
abbrev main_call3_call0_cst_3 : Ref sig .tc := ⟨.hbm, 208, rfl⟩
abbrev main_call3_call0_v11 : Ref sig .tc := ⟨.hbm, 209, rfl⟩
abbrev main_call3_call0_cst_4 : Ref sig .tc := ⟨.hbm, 210, rfl⟩
abbrev main_call3_call0_call0_v0 : Ref sig .tc := ⟨.hbm, 211, rfl⟩
abbrev main_call3_v0 : Ref sig .tc := ⟨.hbm, 212, rfl⟩
abbrev main_v127 : Ref sig .tc := ⟨.hbm, 213, rfl⟩
abbrev main_cst_30 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_call4_cst : Ref sig .tc := ⟨.hbm, 224, rfl⟩
abbrev main_call4_v0 : Ref sig .tc := ⟨.hbm, 225, rfl⟩
abbrev main_v137 : Ref sig .tc := ⟨.hbm, 226, rfl⟩
abbrev main_v138 : Ref sig .tc := ⟨.hbm, 227, rfl⟩
abbrev main_c_31 : Ref sig .tc := ⟨.hbm, 228, rfl⟩
abbrev main_v139 : Ref sig .tc := ⟨.hbm, 229, rfl⟩
abbrev main_v140 : Ref sig .tc := ⟨.hbm, 230, rfl⟩
abbrev main_c_32 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_cst_33 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_cst_34 : Ref sig .tc := ⟨.hbm, 243, rfl⟩
abbrev main_v151 : Ref sig .tc := ⟨.hbm, 244, rfl⟩
abbrev main_v152 : Ref sig .tc := ⟨.hbm, 245, rfl⟩
abbrev main_cst_35 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_36 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_cst_37 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_cst_38 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_cst_39 : Ref sig .tc := ⟨.hbm, 271, rfl⟩
abbrev main_v174 : Ref sig .tc := ⟨.hbm, 272, rfl⟩
abbrev main_cst_40 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_c_41 : Ref sig .tc := ⟨.hbm, 277, rfl⟩
abbrev main_call5_call0_cst : Ref sig .tc := ⟨.hbm, 278, rfl⟩
abbrev main_call5_call0_v0 : Ref sig .tc := ⟨.hbm, 279, rfl⟩
abbrev main_call5_call0_v1 : Ref sig .tc := ⟨.hbm, 280, rfl⟩
abbrev main_call5_call0_cst_0 : Ref sig .tc := ⟨.hbm, 281, rfl⟩
abbrev main_call5_call0_v2 : Ref sig .tc := ⟨.hbm, 282, rfl⟩
abbrev main_call5_call0_v3 : Ref sig .tc := ⟨.hbm, 283, rfl⟩
abbrev main_call5_call0_v4 : Ref sig .tc := ⟨.hbm, 284, rfl⟩
abbrev main_call5_call0_v5 : Ref sig .tc := ⟨.hbm, 285, rfl⟩
abbrev main_call5_call0_v6 : Ref sig .tc := ⟨.hbm, 286, rfl⟩
abbrev main_call5_call0_v7 : Ref sig .tc := ⟨.hbm, 287, rfl⟩
abbrev main_call5_call0_cst_1 : Ref sig .tc := ⟨.hbm, 288, rfl⟩
abbrev main_call5_call0_v8 : Ref sig .tc := ⟨.hbm, 289, rfl⟩
abbrev main_call5_call0_cst_2 : Ref sig .tc := ⟨.hbm, 290, rfl⟩
abbrev main_call5_call0_v9 : Ref sig .tc := ⟨.hbm, 291, rfl⟩
abbrev main_call5_call0_v10 : Ref sig .tc := ⟨.hbm, 292, rfl⟩
abbrev main_call5_call0_cst_3 : Ref sig .tc := ⟨.hbm, 293, rfl⟩
abbrev main_call5_call0_v11 : Ref sig .tc := ⟨.hbm, 294, rfl⟩
abbrev main_call5_call0_cst_4 : Ref sig .tc := ⟨.hbm, 295, rfl⟩
abbrev main_call5_call0_call0_v0 : Ref sig .tc := ⟨.hbm, 296, rfl⟩
abbrev main_call5_v0 : Ref sig .tc := ⟨.hbm, 297, rfl⟩
abbrev main_v178 : Ref sig .tc := ⟨.hbm, 298, rfl⟩
abbrev main_cst_42 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_call6_cst : Ref sig .tc := ⟨.hbm, 309, rfl⟩
abbrev main_call6_v0 : Ref sig .tc := ⟨.hbm, 310, rfl⟩
abbrev main_v188 : Ref sig .tc := ⟨.hbm, 311, rfl⟩
abbrev main_v189 : Ref sig .tc := ⟨.hbm, 312, rfl⟩
abbrev main_c_43 : Ref sig .tc := ⟨.hbm, 313, rfl⟩
abbrev main_v190 : Ref sig .tc := ⟨.hbm, 314, rfl⟩
abbrev main_v191 : Ref sig .tc := ⟨.hbm, 315, rfl⟩
abbrev main_c_44 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_cst_45 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_cst_46 : Ref sig .tc := ⟨.hbm, 328, rfl⟩
abbrev main_v202 : Ref sig .tc := ⟨.hbm, 329, rfl⟩
abbrev main_v203 : Ref sig .tc := ⟨.hbm, 330, rfl⟩
abbrev main_cst_47 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_cst_48 : Ref sig .tc := ⟨.hbm, 337, rfl⟩
abbrev main_v209 : Ref sig .tc := ⟨.hbm, 338, rfl⟩
abbrev main_v210 : Ref sig .tc := ⟨.hbm, 339, rfl⟩
abbrev main_v211 : Ref sig .tc := ⟨.hbm, 340, rfl⟩
abbrev main_cst_49 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_v215 : Ref sig .tc := ⟨.hbm, 345, rfl⟩
abbrev main_v216 : Ref sig .tc := ⟨.hbm, 346, rfl⟩
abbrev main_v217 : Ref sig .tc := ⟨.hbm, 347, rfl⟩
abbrev main_cst_50 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_cst_51 : Ref sig .tc := ⟨.hbm, 356, rfl⟩
abbrev main_v225 : Ref sig .tc := ⟨.hbm, 357, rfl⟩
abbrev main_cst_52 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_c_53 : Ref sig .tc := ⟨.hbm, 362, rfl⟩
abbrev main_call7_call0_cst : Ref sig .tc := ⟨.hbm, 363, rfl⟩
abbrev main_call7_call0_v0 : Ref sig .tc := ⟨.hbm, 364, rfl⟩
abbrev main_call7_call0_v1 : Ref sig .tc := ⟨.hbm, 365, rfl⟩
abbrev main_call7_call0_cst_0 : Ref sig .tc := ⟨.hbm, 366, rfl⟩
abbrev main_call7_call0_v2 : Ref sig .tc := ⟨.hbm, 367, rfl⟩
abbrev main_call7_call0_v3 : Ref sig .tc := ⟨.hbm, 368, rfl⟩
abbrev main_call7_call0_v4 : Ref sig .tc := ⟨.hbm, 369, rfl⟩
abbrev main_call7_call0_v5 : Ref sig .tc := ⟨.hbm, 370, rfl⟩
abbrev main_call7_call0_v6 : Ref sig .tc := ⟨.hbm, 371, rfl⟩
abbrev main_call7_call0_v7 : Ref sig .tc := ⟨.hbm, 372, rfl⟩
abbrev main_call7_call0_cst_1 : Ref sig .tc := ⟨.hbm, 373, rfl⟩
abbrev main_call7_call0_v8 : Ref sig .tc := ⟨.hbm, 374, rfl⟩
abbrev main_call7_call0_cst_2 : Ref sig .tc := ⟨.hbm, 375, rfl⟩
abbrev main_call7_call0_v9 : Ref sig .tc := ⟨.hbm, 376, rfl⟩
abbrev main_call7_call0_v10 : Ref sig .tc := ⟨.hbm, 377, rfl⟩
abbrev main_call7_call0_cst_3 : Ref sig .tc := ⟨.hbm, 378, rfl⟩
abbrev main_call7_call0_v11 : Ref sig .tc := ⟨.hbm, 379, rfl⟩
abbrev main_call7_call0_cst_4 : Ref sig .tc := ⟨.hbm, 380, rfl⟩
abbrev main_call7_call0_call0_v0 : Ref sig .tc := ⟨.hbm, 381, rfl⟩
abbrev main_call7_v0 : Ref sig .tc := ⟨.hbm, 382, rfl⟩
abbrev main_v229 : Ref sig .tc := ⟨.hbm, 383, rfl⟩
abbrev main_cst_54 : Ref sig .tc := ⟨.hbm, 384, rfl⟩
abbrev main_v230 : Ref sig .tc := ⟨.hbm, 385, rfl⟩
abbrev main_v231 : Ref sig .tc := ⟨.hbm, 386, rfl⟩
abbrev main_v232 : Ref sig .tc := ⟨.hbm, 387, rfl⟩
abbrev main_v233 : Ref sig .tc := ⟨.hbm, 388, rfl⟩
abbrev main_v234 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩
abbrev main_v238 : Ref sig .tc := ⟨.hbm, 393, rfl⟩
abbrev main_call8_cst : Ref sig .tc := ⟨.hbm, 394, rfl⟩
abbrev main_call8_v0 : Ref sig .tc := ⟨.hbm, 395, rfl⟩
abbrev main_v239 : Ref sig .tc := ⟨.hbm, 396, rfl⟩
abbrev main_v240 : Ref sig .tc := ⟨.hbm, 397, rfl⟩
abbrev main_c_55 : Ref sig .tc := ⟨.hbm, 398, rfl⟩
abbrev main_v241 : Ref sig .tc := ⟨.hbm, 399, rfl⟩
abbrev main_v242 : Ref sig .tc := ⟨.hbm, 400, rfl⟩
abbrev main_c_56 : Ref sig .tc := ⟨.hbm, 401, rfl⟩
abbrev main_v243 : Ref sig .tc := ⟨.hbm, 402, rfl⟩
abbrev main_v244 : Ref sig .tc := ⟨.hbm, 403, rfl⟩
abbrev main_v245 : Ref sig .tc := ⟨.hbm, 404, rfl⟩
abbrev main_v246 : Ref sig .tc := ⟨.hbm, 405, rfl⟩
abbrev main_v247 : Ref sig .tc := ⟨.hbm, 406, rfl⟩
abbrev main_v248 : Ref sig .tc := ⟨.hbm, 407, rfl⟩
abbrev main_v249 : Ref sig .tc := ⟨.hbm, 408, rfl⟩
abbrev main_cst_57 : Ref sig .tc := ⟨.hbm, 409, rfl⟩
abbrev main_v250 : Ref sig .tc := ⟨.hbm, 410, rfl⟩
abbrev main_v251 : Ref sig .tc := ⟨.hbm, 411, rfl⟩
abbrev main_v252 : Ref sig .tc := ⟨.hbm, 412, rfl⟩
abbrev main_cst_58 : Ref sig .tc := ⟨.hbm, 413, rfl⟩
abbrev main_v253 : Ref sig .tc := ⟨.hbm, 414, rfl⟩
abbrev main_v254 : Ref sig .tc := ⟨.hbm, 415, rfl⟩
abbrev main_cst_59 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_v259 : Ref sig .tc := ⟨.hbm, 421, rfl⟩
abbrev main_cst_60 : Ref sig .tc := ⟨.hbm, 422, rfl⟩
abbrev main_v260 : Ref sig .tc := ⟨.hbm, 423, rfl⟩
abbrev main_v261 : Ref sig .tc := ⟨.hbm, 424, rfl⟩
abbrev main_v262 : Ref sig .tc := ⟨.hbm, 425, rfl⟩
abbrev main_cst_61 : Ref sig .tc := ⟨.hbm, 426, rfl⟩
abbrev main_v263 : Ref sig .tc := ⟨.hbm, 427, rfl⟩
abbrev main_v264 : Ref sig .tc := ⟨.hbm, 428, rfl⟩
abbrev main_v265 : Ref sig .tc := ⟨.hbm, 429, rfl⟩
abbrev main_v266 : Ref sig .tc := ⟨.hbm, 430, rfl⟩
abbrev main_v267 : Ref sig .tc := ⟨.hbm, 431, rfl⟩
abbrev main_v268 : Ref sig .tc := ⟨.hbm, 432, rfl⟩
abbrev main_cst_62 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_cst_63 : Ref sig .tc := ⟨.hbm, 441, rfl⟩
abbrev main_v276 : Ref sig .tc := ⟨.hbm, 442, rfl⟩
abbrev main_cst_64 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_c_65 : Ref sig .tc := ⟨.hbm, 447, rfl⟩
abbrev main_call9_call0_cst : Ref sig .tc := ⟨.hbm, 448, rfl⟩
abbrev main_call9_call0_v0 : Ref sig .tc := ⟨.hbm, 449, rfl⟩
abbrev main_call9_call0_v1 : Ref sig .tc := ⟨.hbm, 450, rfl⟩
abbrev main_call9_call0_cst_0 : Ref sig .tc := ⟨.hbm, 451, rfl⟩
abbrev main_call9_call0_v2 : Ref sig .tc := ⟨.hbm, 452, rfl⟩
abbrev main_call9_call0_v3 : Ref sig .tc := ⟨.hbm, 453, rfl⟩
abbrev main_call9_call0_v4 : Ref sig .tc := ⟨.hbm, 454, rfl⟩
abbrev main_call9_call0_v5 : Ref sig .tc := ⟨.hbm, 455, rfl⟩
abbrev main_call9_call0_v6 : Ref sig .tc := ⟨.hbm, 456, rfl⟩
abbrev main_call9_call0_v7 : Ref sig .tc := ⟨.hbm, 457, rfl⟩
abbrev main_call9_call0_cst_1 : Ref sig .tc := ⟨.hbm, 458, rfl⟩
abbrev main_call9_call0_v8 : Ref sig .tc := ⟨.hbm, 459, rfl⟩
abbrev main_call9_call0_cst_2 : Ref sig .tc := ⟨.hbm, 460, rfl⟩
abbrev main_call9_call0_v9 : Ref sig .tc := ⟨.hbm, 461, rfl⟩
abbrev main_call9_call0_v10 : Ref sig .tc := ⟨.hbm, 462, rfl⟩
abbrev main_call9_call0_cst_3 : Ref sig .tc := ⟨.hbm, 463, rfl⟩
abbrev main_call9_call0_v11 : Ref sig .tc := ⟨.hbm, 464, rfl⟩
abbrev main_call9_call0_cst_4 : Ref sig .tc := ⟨.hbm, 465, rfl⟩
abbrev main_call9_call0_call0_v0 : Ref sig .tc := ⟨.hbm, 466, rfl⟩
abbrev main_call9_v0 : Ref sig .tc := ⟨.hbm, 467, rfl⟩
abbrev main_v280 : Ref sig .tc := ⟨.hbm, 468, rfl⟩
abbrev main_cst_66 : Ref sig .tc := ⟨.hbm, 469, rfl⟩
abbrev main_v281 : Ref sig .tc := ⟨.hbm, 470, rfl⟩
abbrev main_v282 : Ref sig .tc := ⟨.hbm, 471, rfl⟩
abbrev main_v283 : Ref sig .tc := ⟨.hbm, 472, rfl⟩
abbrev main_v284 : Ref sig .tc := ⟨.hbm, 473, rfl⟩
abbrev main_v285 : Ref sig .tc := ⟨.hbm, 474, rfl⟩
abbrev main_v286 : Ref sig .tc := ⟨.hbm, 475, rfl⟩
abbrev main_v287 : Ref sig .tc := ⟨.hbm, 476, rfl⟩
abbrev main_v288 : Ref sig .tc := ⟨.hbm, 477, rfl⟩
abbrev main_v289 : Ref sig .tc := ⟨.hbm, 478, rfl⟩
abbrev main_call10_cst : Ref sig .tc := ⟨.hbm, 479, rfl⟩
abbrev main_call10_v0 : Ref sig .tc := ⟨.hbm, 480, rfl⟩
abbrev main_v290 : Ref sig .tc := ⟨.hbm, 481, rfl⟩
abbrev main_v291 : Ref sig .tc := ⟨.hbm, 482, rfl⟩
abbrev main_c_67 : Ref sig .tc := ⟨.hbm, 483, rfl⟩
abbrev main_v292 : Ref sig .tc := ⟨.hbm, 484, rfl⟩
abbrev main_v293 : Ref sig .tc := ⟨.hbm, 485, rfl⟩
abbrev main_c_68 : Ref sig .tc := ⟨.hbm, 486, rfl⟩
abbrev main_v294 : Ref sig .tc := ⟨.hbm, 487, rfl⟩
abbrev main_v295 : Ref sig .tc := ⟨.hbm, 488, rfl⟩
abbrev main_v296 : Ref sig .tc := ⟨.hbm, 489, rfl⟩
abbrev main_v297 : Ref sig .tc := ⟨.hbm, 490, rfl⟩
abbrev main_v298 : Ref sig .tc := ⟨.hbm, 491, rfl⟩
abbrev main_v299 : Ref sig .tc := ⟨.hbm, 492, rfl⟩
abbrev main_v300 : Ref sig .tc := ⟨.hbm, 493, rfl⟩
abbrev main_cst_69 : Ref sig .tc := ⟨.hbm, 494, rfl⟩
abbrev main_v301 : Ref sig .tc := ⟨.hbm, 495, rfl⟩
abbrev main_v302 : Ref sig .tc := ⟨.hbm, 496, rfl⟩
abbrev main_v303 : Ref sig .tc := ⟨.hbm, 497, rfl⟩
abbrev main_cst_70 : Ref sig .tc := ⟨.hbm, 498, rfl⟩
abbrev main_v304 : Ref sig .tc := ⟨.hbm, 499, rfl⟩
abbrev main_v305 : Ref sig .tc := ⟨.hbm, 500, rfl⟩
abbrev main_cst_71 : Ref sig .tc := ⟨.hbm, 501, rfl⟩
abbrev main_v306 : Ref sig .tc := ⟨.hbm, 502, rfl⟩
abbrev main_v307 : Ref sig .tc := ⟨.hbm, 503, rfl⟩
abbrev main_v308 : Ref sig .tc := ⟨.hbm, 504, rfl⟩
abbrev main_v309 : Ref sig .tc := ⟨.hbm, 505, rfl⟩
abbrev main_v310 : Ref sig .tc := ⟨.hbm, 506, rfl⟩
abbrev main_cst_72 : Ref sig .tc := ⟨.hbm, 507, rfl⟩
abbrev main_v311 : Ref sig .tc := ⟨.hbm, 508, rfl⟩
abbrev main_v312 : Ref sig .tc := ⟨.hbm, 509, rfl⟩
abbrev main_v313 : Ref sig .tc := ⟨.hbm, 510, rfl⟩
abbrev main_cst_73 : Ref sig .tc := ⟨.hbm, 511, rfl⟩
abbrev main_v314 : Ref sig .tc := ⟨.hbm, 512, rfl⟩
abbrev main_v315 : Ref sig .tc := ⟨.hbm, 513, rfl⟩
abbrev main_v316 : Ref sig .tc := ⟨.hbm, 514, rfl⟩
abbrev main_v317 : Ref sig .tc := ⟨.hbm, 515, rfl⟩
abbrev main_v318 : Ref sig .tc := ⟨.hbm, 516, rfl⟩
abbrev main_v319 : Ref sig .tc := ⟨.hbm, 517, rfl⟩
abbrev main_cst_74 : Ref sig .tc := ⟨.hbm, 518, rfl⟩
abbrev main_v320 : Ref sig .tc := ⟨.hbm, 519, rfl⟩
abbrev main_v321 : Ref sig .tc := ⟨.hbm, 520, rfl⟩
abbrev main_v322 : Ref sig .tc := ⟨.hbm, 521, rfl⟩
abbrev main_v323 : Ref sig .tc := ⟨.hbm, 522, rfl⟩
abbrev main_v324 : Ref sig .tc := ⟨.hbm, 523, rfl⟩
abbrev main_v325 : Ref sig .tc := ⟨.hbm, 524, rfl⟩
abbrev main_v326 : Ref sig .tc := ⟨.hbm, 525, rfl⟩
abbrev main_cst_75 : Ref sig .tc := ⟨.hbm, 526, rfl⟩
abbrev main_v327 : Ref sig .tc := ⟨.hbm, 527, rfl⟩
abbrev main_cst_76 : Ref sig .tc := ⟨.hbm, 528, rfl⟩
abbrev main_v328 : Ref sig .tc := ⟨.hbm, 529, rfl⟩
abbrev main_v329 : Ref sig .tc := ⟨.hbm, 530, rfl⟩
abbrev main_v330 : Ref sig .tc := ⟨.hbm, 531, rfl⟩
abbrev main_c_77 : Ref sig .tc := ⟨.hbm, 532, rfl⟩
abbrev main_call11_call0_cst : Ref sig .tc := ⟨.hbm, 533, rfl⟩
abbrev main_call11_call0_v0 : Ref sig .tc := ⟨.hbm, 534, rfl⟩
abbrev main_call11_call0_v1 : Ref sig .tc := ⟨.hbm, 535, rfl⟩
abbrev main_call11_call0_cst_0 : Ref sig .tc := ⟨.hbm, 536, rfl⟩
abbrev main_call11_call0_v2 : Ref sig .tc := ⟨.hbm, 537, rfl⟩
abbrev main_call11_call0_v3 : Ref sig .tc := ⟨.hbm, 538, rfl⟩
abbrev main_call11_call0_v4 : Ref sig .tc := ⟨.hbm, 539, rfl⟩
abbrev main_call11_call0_v5 : Ref sig .tc := ⟨.hbm, 540, rfl⟩
abbrev main_call11_call0_v6 : Ref sig .tc := ⟨.hbm, 541, rfl⟩
abbrev main_call11_call0_v7 : Ref sig .tc := ⟨.hbm, 542, rfl⟩
abbrev main_call11_call0_cst_1 : Ref sig .tc := ⟨.hbm, 543, rfl⟩
abbrev main_call11_call0_v8 : Ref sig .tc := ⟨.hbm, 544, rfl⟩
abbrev main_call11_call0_cst_2 : Ref sig .tc := ⟨.hbm, 545, rfl⟩
abbrev main_call11_call0_v9 : Ref sig .tc := ⟨.hbm, 546, rfl⟩
abbrev main_call11_call0_v10 : Ref sig .tc := ⟨.hbm, 547, rfl⟩
abbrev main_call11_call0_cst_3 : Ref sig .tc := ⟨.hbm, 548, rfl⟩
abbrev main_call11_call0_v11 : Ref sig .tc := ⟨.hbm, 549, rfl⟩
abbrev main_call11_call0_cst_4 : Ref sig .tc := ⟨.hbm, 550, rfl⟩
abbrev main_call11_call0_call0_v0 : Ref sig .tc := ⟨.hbm, 551, rfl⟩
abbrev main_call11_v0 : Ref sig .tc := ⟨.hbm, 552, rfl⟩
abbrev main_v331 : Ref sig .tc := ⟨.hbm, 553, rfl⟩
abbrev main_cst_78 : Ref sig .tc := ⟨.hbm, 554, rfl⟩
abbrev main_v332 : Ref sig .tc := ⟨.hbm, 555, rfl⟩
abbrev main_v333 : Ref sig .tc := ⟨.hbm, 556, rfl⟩
abbrev main_v334 : Ref sig .tc := ⟨.hbm, 557, rfl⟩
abbrev main_v335 : Ref sig .tc := ⟨.hbm, 558, rfl⟩
abbrev main_v336 : Ref sig .tc := ⟨.hbm, 559, rfl⟩
abbrev main_v337 : Ref sig .tc := ⟨.hbm, 560, rfl⟩
abbrev main_v338 : Ref sig .tc := ⟨.hbm, 561, rfl⟩
abbrev main_v339 : Ref sig .tc := ⟨.hbm, 562, rfl⟩
abbrev main_v340 : Ref sig .tc := ⟨.hbm, 563, rfl⟩
abbrev main_call12_cst : Ref sig .tc := ⟨.hbm, 564, rfl⟩
abbrev main_call12_v0 : Ref sig .tc := ⟨.hbm, 565, rfl⟩
abbrev main_v341 : Ref sig .tc := ⟨.hbm, 566, rfl⟩
abbrev main_v342 : Ref sig .tc := ⟨.hbm, 567, rfl⟩
abbrev main_c_79 : Ref sig .tc := ⟨.hbm, 568, rfl⟩
abbrev main_v343 : Ref sig .tc := ⟨.hbm, 569, rfl⟩
abbrev main_v344 : Ref sig .tc := ⟨.hbm, 570, rfl⟩
abbrev main_c_80 : Ref sig .tc := ⟨.hbm, 571, rfl⟩
abbrev main_v345 : Ref sig .tc := ⟨.hbm, 572, rfl⟩
abbrev main_v346 : Ref sig .tc := ⟨.hbm, 573, rfl⟩
abbrev main_v347 : Ref sig .tc := ⟨.hbm, 574, rfl⟩
abbrev main_v348 : Ref sig .tc := ⟨.hbm, 575, rfl⟩
abbrev main_v349 : Ref sig .tc := ⟨.hbm, 576, rfl⟩
abbrev main_v350 : Ref sig .tc := ⟨.hbm, 577, rfl⟩
abbrev main_v351 : Ref sig .tc := ⟨.hbm, 578, rfl⟩
abbrev main_cst_81 : Ref sig .tc := ⟨.hbm, 579, rfl⟩
abbrev main_v352 : Ref sig .tc := ⟨.hbm, 580, rfl⟩
abbrev main_v353 : Ref sig .tc := ⟨.hbm, 581, rfl⟩
abbrev main_v354 : Ref sig .tc := ⟨.hbm, 582, rfl⟩
abbrev main_cst_82 : Ref sig .tc := ⟨.hbm, 583, rfl⟩
abbrev main_v355 : Ref sig .tc := ⟨.hbm, 584, rfl⟩
abbrev main_v356 : Ref sig .tc := ⟨.hbm, 585, rfl⟩
abbrev main_cst_83 : Ref sig .tc := ⟨.hbm, 586, rfl⟩
abbrev main_v357 : Ref sig .tc := ⟨.hbm, 587, rfl⟩
abbrev main_v358 : Ref sig .tc := ⟨.hbm, 588, rfl⟩
abbrev main_v359 : Ref sig .tc := ⟨.hbm, 589, rfl⟩
abbrev main_v360 : Ref sig .tc := ⟨.hbm, 590, rfl⟩
abbrev main_v361 : Ref sig .tc := ⟨.hbm, 591, rfl⟩
abbrev main_cst_84 : Ref sig .tc := ⟨.hbm, 592, rfl⟩
abbrev main_v362 : Ref sig .tc := ⟨.hbm, 593, rfl⟩
abbrev main_v363 : Ref sig .tc := ⟨.hbm, 594, rfl⟩
abbrev main_v364 : Ref sig .tc := ⟨.hbm, 595, rfl⟩
abbrev main_cst_85 : Ref sig .tc := ⟨.hbm, 596, rfl⟩
abbrev main_v365 : Ref sig .tc := ⟨.hbm, 597, rfl⟩
abbrev main_v366 : Ref sig .tc := ⟨.hbm, 598, rfl⟩
abbrev main_v367 : Ref sig .tc := ⟨.hbm, 599, rfl⟩
abbrev main_v368 : Ref sig .tc := ⟨.hbm, 600, rfl⟩
abbrev main_v369 : Ref sig .tc := ⟨.hbm, 601, rfl⟩
abbrev main_v370 : Ref sig .tc := ⟨.hbm, 602, rfl⟩
abbrev main_cst_86 : Ref sig .tc := ⟨.hbm, 603, rfl⟩
abbrev main_v371 : Ref sig .tc := ⟨.hbm, 604, rfl⟩
abbrev main_v372 : Ref sig .tc := ⟨.hbm, 605, rfl⟩
abbrev main_v373 : Ref sig .tc := ⟨.hbm, 606, rfl⟩
abbrev main_v374 : Ref sig .tc := ⟨.hbm, 607, rfl⟩
abbrev main_v375 : Ref sig .tc := ⟨.hbm, 608, rfl⟩
abbrev main_v376 : Ref sig .tc := ⟨.hbm, 609, rfl⟩
abbrev main_v377 : Ref sig .tc := ⟨.hbm, 610, rfl⟩
abbrev main_cst_87 : Ref sig .tc := ⟨.hbm, 611, rfl⟩
abbrev main_v378 : Ref sig .tc := ⟨.hbm, 612, rfl⟩
abbrev main_cst_88 : Ref sig .tc := ⟨.hbm, 613, rfl⟩
abbrev main_v379 : Ref sig .tc := ⟨.hbm, 614, rfl⟩
abbrev main_v380 : Ref sig .tc := ⟨.hbm, 615, rfl⟩
abbrev main_v381 : Ref sig .tc := ⟨.hbm, 616, rfl⟩
abbrev main_c_89 : Ref sig .tc := ⟨.hbm, 617, rfl⟩
abbrev main_call13_call0_cst : Ref sig .tc := ⟨.hbm, 618, rfl⟩
abbrev main_call13_call0_v0 : Ref sig .tc := ⟨.hbm, 619, rfl⟩
abbrev main_call13_call0_v1 : Ref sig .tc := ⟨.hbm, 620, rfl⟩
abbrev main_call13_call0_cst_0 : Ref sig .tc := ⟨.hbm, 621, rfl⟩
abbrev main_call13_call0_v2 : Ref sig .tc := ⟨.hbm, 622, rfl⟩
abbrev main_call13_call0_v3 : Ref sig .tc := ⟨.hbm, 623, rfl⟩
abbrev main_call13_call0_v4 : Ref sig .tc := ⟨.hbm, 624, rfl⟩
abbrev main_call13_call0_v5 : Ref sig .tc := ⟨.hbm, 625, rfl⟩
abbrev main_call13_call0_v6 : Ref sig .tc := ⟨.hbm, 626, rfl⟩
abbrev main_call13_call0_v7 : Ref sig .tc := ⟨.hbm, 627, rfl⟩
abbrev main_call13_call0_cst_1 : Ref sig .tc := ⟨.hbm, 628, rfl⟩
abbrev main_call13_call0_v8 : Ref sig .tc := ⟨.hbm, 629, rfl⟩
abbrev main_call13_call0_cst_2 : Ref sig .tc := ⟨.hbm, 630, rfl⟩
abbrev main_call13_call0_v9 : Ref sig .tc := ⟨.hbm, 631, rfl⟩
abbrev main_call13_call0_v10 : Ref sig .tc := ⟨.hbm, 632, rfl⟩
abbrev main_call13_call0_cst_3 : Ref sig .tc := ⟨.hbm, 633, rfl⟩
abbrev main_call13_call0_v11 : Ref sig .tc := ⟨.hbm, 634, rfl⟩
abbrev main_call13_call0_cst_4 : Ref sig .tc := ⟨.hbm, 635, rfl⟩
abbrev main_call13_call0_call0_v0 : Ref sig .tc := ⟨.hbm, 636, rfl⟩
abbrev main_call13_v0 : Ref sig .tc := ⟨.hbm, 637, rfl⟩
abbrev main_v382 : Ref sig .tc := ⟨.hbm, 638, rfl⟩
abbrev main_cst_90 : Ref sig .tc := ⟨.hbm, 639, rfl⟩
abbrev main_v383 : Ref sig .tc := ⟨.hbm, 640, rfl⟩
abbrev main_v384 : Ref sig .tc := ⟨.hbm, 641, rfl⟩
abbrev main_v385 : Ref sig .tc := ⟨.hbm, 642, rfl⟩
abbrev main_v386 : Ref sig .tc := ⟨.hbm, 643, rfl⟩
abbrev main_v387 : Ref sig .tc := ⟨.hbm, 644, rfl⟩
abbrev main_v388 : Ref sig .tc := ⟨.hbm, 645, rfl⟩
abbrev main_v389 : Ref sig .tc := ⟨.hbm, 646, rfl⟩
abbrev main_v390 : Ref sig .tc := ⟨.hbm, 647, rfl⟩
abbrev main_v391 : Ref sig .tc := ⟨.hbm, 648, rfl⟩
abbrev main_call14_cst : Ref sig .tc := ⟨.hbm, 649, rfl⟩
abbrev main_call14_v0 : Ref sig .tc := ⟨.hbm, 650, rfl⟩
abbrev main_v392 : Ref sig .tc := ⟨.hbm, 651, rfl⟩
abbrev main_v393 : Ref sig .tc := ⟨.hbm, 652, rfl⟩
abbrev main_c_91 : Ref sig .tc := ⟨.hbm, 653, rfl⟩
abbrev main_v394 : Ref sig .tc := ⟨.hbm, 654, rfl⟩
abbrev main_v395 : Ref sig .tc := ⟨.hbm, 655, rfl⟩
abbrev main_c_92 : Ref sig .tc := ⟨.hbm, 656, rfl⟩
abbrev main_v396 : Ref sig .tc := ⟨.hbm, 657, rfl⟩
abbrev main_v397 : Ref sig .tc := ⟨.hbm, 658, rfl⟩
abbrev main_v398 : Ref sig .tc := ⟨.hbm, 659, rfl⟩
abbrev main_v399 : Ref sig .tc := ⟨.hbm, 660, rfl⟩
abbrev main_v400 : Ref sig .tc := ⟨.hbm, 661, rfl⟩
abbrev main_v401 : Ref sig .tc := ⟨.hbm, 662, rfl⟩
abbrev main_v402 : Ref sig .tc := ⟨.hbm, 663, rfl⟩
abbrev main_cst_93 : Ref sig .tc := ⟨.hbm, 664, rfl⟩
abbrev main_v403 : Ref sig .tc := ⟨.hbm, 665, rfl⟩
abbrev main_v404 : Ref sig .tc := ⟨.hbm, 666, rfl⟩
abbrev main_v405 : Ref sig .tc := ⟨.hbm, 667, rfl⟩
abbrev main_cst_94 : Ref sig .tc := ⟨.hbm, 668, rfl⟩
abbrev main_v406 : Ref sig .tc := ⟨.hbm, 669, rfl⟩
abbrev main_v407 : Ref sig .tc := ⟨.hbm, 670, rfl⟩
abbrev main_cst_95 : Ref sig .tc := ⟨.hbm, 671, rfl⟩
abbrev main_v408 : Ref sig .tc := ⟨.hbm, 672, rfl⟩
abbrev main_v409 : Ref sig .tc := ⟨.hbm, 673, rfl⟩
abbrev main_v410 : Ref sig .tc := ⟨.hbm, 674, rfl⟩
abbrev main_v411 : Ref sig .tc := ⟨.hbm, 675, rfl⟩
abbrev main_v412 : Ref sig .tc := ⟨.hbm, 676, rfl⟩
abbrev main_cst_96 : Ref sig .tc := ⟨.hbm, 677, rfl⟩
abbrev main_v413 : Ref sig .tc := ⟨.hbm, 678, rfl⟩
abbrev main_v414 : Ref sig .tc := ⟨.hbm, 679, rfl⟩
abbrev main_v415 : Ref sig .tc := ⟨.hbm, 680, rfl⟩
abbrev main_cst_97 : Ref sig .tc := ⟨.hbm, 681, rfl⟩
abbrev main_v416 : Ref sig .tc := ⟨.hbm, 682, rfl⟩
abbrev main_v417 : Ref sig .tc := ⟨.hbm, 683, rfl⟩
abbrev main_v418 : Ref sig .tc := ⟨.hbm, 684, rfl⟩
abbrev main_v419 : Ref sig .tc := ⟨.hbm, 685, rfl⟩
abbrev main_v420 : Ref sig .tc := ⟨.hbm, 686, rfl⟩
abbrev main_v421 : Ref sig .tc := ⟨.hbm, 687, rfl⟩
abbrev main_cst_98 : Ref sig .tc := ⟨.hbm, 688, rfl⟩
abbrev main_v422 : Ref sig .tc := ⟨.hbm, 689, rfl⟩
abbrev main_v423 : Ref sig .tc := ⟨.hbm, 690, rfl⟩
abbrev main_v424 : Ref sig .tc := ⟨.hbm, 691, rfl⟩
abbrev main_v425 : Ref sig .tc := ⟨.hbm, 692, rfl⟩
abbrev main_v426 : Ref sig .tc := ⟨.hbm, 693, rfl⟩
abbrev main_v427 : Ref sig .tc := ⟨.hbm, 694, rfl⟩
abbrev main_v428 : Ref sig .tc := ⟨.hbm, 695, rfl⟩
abbrev main_cst_99 : Ref sig .tc := ⟨.hbm, 696, rfl⟩
abbrev main_v429 : Ref sig .tc := ⟨.hbm, 697, rfl⟩
abbrev main_cst_100 : Ref sig .tc := ⟨.hbm, 698, rfl⟩
abbrev main_v430 : Ref sig .tc := ⟨.hbm, 699, rfl⟩
abbrev main_v431 : Ref sig .tc := ⟨.hbm, 700, rfl⟩
abbrev main_v432 : Ref sig .tc := ⟨.hbm, 701, rfl⟩
abbrev main_c_101 : Ref sig .tc := ⟨.hbm, 702, rfl⟩
abbrev main_call15_call0_cst : Ref sig .tc := ⟨.hbm, 703, rfl⟩
abbrev main_call15_call0_v0 : Ref sig .tc := ⟨.hbm, 704, rfl⟩
abbrev main_call15_call0_v1 : Ref sig .tc := ⟨.hbm, 705, rfl⟩
abbrev main_call15_call0_cst_0 : Ref sig .tc := ⟨.hbm, 706, rfl⟩
abbrev main_call15_call0_v2 : Ref sig .tc := ⟨.hbm, 707, rfl⟩
abbrev main_call15_call0_v3 : Ref sig .tc := ⟨.hbm, 708, rfl⟩
abbrev main_call15_call0_v4 : Ref sig .tc := ⟨.hbm, 709, rfl⟩
abbrev main_call15_call0_v5 : Ref sig .tc := ⟨.hbm, 710, rfl⟩
abbrev main_call15_call0_v6 : Ref sig .tc := ⟨.hbm, 711, rfl⟩
abbrev main_call15_call0_v7 : Ref sig .tc := ⟨.hbm, 712, rfl⟩
abbrev main_call15_call0_cst_1 : Ref sig .tc := ⟨.hbm, 713, rfl⟩
abbrev main_call15_call0_v8 : Ref sig .tc := ⟨.hbm, 714, rfl⟩
abbrev main_call15_call0_cst_2 : Ref sig .tc := ⟨.hbm, 715, rfl⟩
abbrev main_call15_call0_v9 : Ref sig .tc := ⟨.hbm, 716, rfl⟩
abbrev main_call15_call0_v10 : Ref sig .tc := ⟨.hbm, 717, rfl⟩
abbrev main_call15_call0_cst_3 : Ref sig .tc := ⟨.hbm, 718, rfl⟩
abbrev main_call15_call0_v11 : Ref sig .tc := ⟨.hbm, 719, rfl⟩
abbrev main_call15_call0_cst_4 : Ref sig .tc := ⟨.hbm, 720, rfl⟩
abbrev main_call15_call0_call0_v0 : Ref sig .tc := ⟨.hbm, 721, rfl⟩
abbrev main_call15_v0 : Ref sig .tc := ⟨.hbm, 722, rfl⟩
abbrev main_v433 : Ref sig .tc := ⟨.hbm, 723, rfl⟩
abbrev main_cst_102 : Ref sig .tc := ⟨.hbm, 724, rfl⟩
abbrev main_v434 : Ref sig .tc := ⟨.hbm, 725, rfl⟩
abbrev main_v435 : Ref sig .tc := ⟨.hbm, 726, rfl⟩
abbrev main_v436 : Ref sig .tc := ⟨.hbm, 727, rfl⟩
abbrev main_v437 : Ref sig .tc := ⟨.hbm, 728, rfl⟩
abbrev main_v438 : Ref sig .tc := ⟨.hbm, 729, rfl⟩
abbrev main_v439 : Ref sig .tc := ⟨.hbm, 730, rfl⟩
abbrev main_v440 : Ref sig .tc := ⟨.hbm, 731, rfl⟩
abbrev main_v441 : Ref sig .tc := ⟨.hbm, 732, rfl⟩
abbrev main_v442 : Ref sig .tc := ⟨.hbm, 733, rfl⟩
abbrev main_call16_cst : Ref sig .tc := ⟨.hbm, 734, rfl⟩
abbrev main_call16_v0 : Ref sig .tc := ⟨.hbm, 735, rfl⟩
abbrev main_v443 : Ref sig .tc := ⟨.hbm, 736, rfl⟩
abbrev main_v444 : Ref sig .tc := ⟨.hbm, 737, rfl⟩
abbrev main_v445 : Ref sig .tc := ⟨.hbm, 738, rfl⟩
abbrev main_v446 : Ref sig .tc := ⟨.hbm, 739, rfl⟩
abbrev main_v447 : Ref sig .tc := ⟨.hbm, 740, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S550000x1_S550000x128_0_1 : S550000x1.BroadcastsInDim S550000x128 (![0, 1] : Fin 2 → Fin S550000x128.rank)
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  reducesTo_S50000x128_S_d0_1 : S50000x128.ReducesTo [0, 1] S_
  h_S_ : 0 < S_.numel
  bcast_S_S1x1 : S_.BroadcastsInDim S1x1 (![] : Fin 0 → Fin S1x1.rank)
  bcast_S1x1_S50000x128_0_1 : S1x1.BroadcastsInDim S50000x128 (![0, 1] : Fin 2 → Fin S50000x128.rank)
  slices_S8x128x128_S1x128x128_1_0_0 : S8x128x128.Slices ![1, 0, 0] S1x128x128
  slices_S8x128_S1x128_1_0 : S8x128.Slices ![1, 0] S1x128
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x64_S64x128_S50000x128_1_0_0_1_n_n_wf : DotDims.WF S50000x64 S64x128 S50000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Terms.lean ====
/-
  The float chains that both programs apply, written once as functions of their operands, in the reference program's
  vocabulary (its shapes and dimension records). Every definition is the composition of host operations exactly as the
  printed programs list them, at any float instance `F`:
  * `idxT v`        an index vector with negative entries wrapped once by 50000, as a column (the start indices of a gather);
  * `propT r c n h` neighbour aggregation: rows of `h` gathered at `r`, scaled by `n`, summed into rows `c` of a zero array, halved;
  * `combineT`      c1·agg + c2·(agg·w1) + c1·x0 + c2·(x0·w2), the additions associated to the left in this order;
  * `meanT`         the sum of all 6 400 000 entries divided by 6 400 000;
  * `varT`, `stdT`  the population variance about the array's own mean (guarded by a test that the divisor is positive) and its root;
  * `rnormT`        ((x − mean x) / (std (x − mean x) + ε)) · w + b, then the positive part;
  * `invstdT`       1 / (std x + ε).
-/
import proofs.«104804_j42004780155161_1_alg».proof.ReferenceIdeal

noncomputable section

namespace Cert.Hand.Terms

open Idealize.ShloMosaic Cert.ReferenceIdeal

variable {F : FTy → Type} [FloatOps F] [Cert.ReferenceIdeal.Facts₀]
open Cert.ReferenceIdeal.Facts₀

abbrev Act (F : FTy → Type) := (⟨S50000x128, .f32⟩ : BufTy).Contents (Elt F)
abbrev Sc (F : FTy → Type) := (⟨S_, .f32⟩ : BufTy).Contents (Elt F)
abbrev Ix (F : FTy → Type) := (⟨S550000, .i32⟩ : BufTy).Contents (Elt F)
abbrev Edge (F : FTy → Type) := (⟨S550000, .f32⟩ : BufTy).Contents (Elt F)
abbrev Wt (F : FTy → Type) := (⟨S128x128, .f32⟩ : BufTy).Contents (Elt F)
abbrev Row (F : FTy → Type) := (⟨S128, .f32⟩ : BufTy).Contents (Elt F)

/-- A scalar constant splat over the activations' shape. -/
def splatA (w : BitVec 32) : Act F :=
  (broadcastInDim S50000x128 ![] bcast_S_S50000x128 : Sc F → Act F) (constant S_ .f32 w)

/-- Negative indices wrapped once by 50000, laid out as a column of start indices. -/
def idxT (v : Ix F) : (⟨S550000x1, .i32⟩ : BufTy).Contents (Elt F) :=
  (broadcastInDim S550000x1 ![0] bcast_S550000_S550000x1_0 : Ix F → (⟨S550000x1, .i32⟩ : BufTy).Contents (Elt F))
    ((select : (⟨S550000, .i1⟩ : BufTy).Contents (Elt F) → Ix F → Ix F → Ix F)
      ((cmpi .slt : Ix F → Ix F → (⟨S550000, .i1⟩ : BufTy).Contents (Elt F)) v
        ((broadcastInDim S550000 ![] bcast_S_S550000 : (⟨S_, .i32⟩ : BufTy).Contents (Elt F) → Ix F) (constantI S_ 32 0#32)))
      ((addi : Ix F → Ix F → Ix F) v
        ((broadcastInDim S550000 ![] bcast_S_S550000 : (⟨S_, .i32⟩ : BufTy).Contents (Elt F) → Ix F) (constantI S_ 32 50000#32)))
      v)

/-- Neighbour aggregation, halved. -/
def propT (r c : Ix F) (n : Edge F) (h : Act F) : Act F :=
  (mulf : Act F → Act F → Act F)
    ((fun x i u => Host.scatterAdd scatter_S50000x128_S550000x1_S550000x128_1_0_0_1 x i u :
        Act F → (⟨S550000x1, .i32⟩ : BufTy).Contents (Elt F) → (⟨S550000x128, .f32⟩ : BufTy).Contents (Elt F) → Act F)
      (splatA 0x00000000#32)
      ((broadcastInDim S550000x1 ![0] bcast_S550000_S550000x1_0 : Ix F → (⟨S550000x1, .i32⟩ : BufTy).Contents (Elt F)) c)
      ((mulf : (⟨S550000x128, .f32⟩ : BufTy).Contents (Elt F) → (⟨S550000x128, .f32⟩ : BufTy).Contents (Elt F) → (⟨S550000x128, .f32⟩ : BufTy).Contents (Elt F))
        ((broadcastInDim S550000x128 ![0, 1] bcast_S550000x1_S550000x128_0_1 : (⟨S550000x1, .f32⟩ : BufTy).Contents (Elt F) → (⟨S550000x128, .f32⟩ : BufTy).Contents (Elt F))
          ((broadcastInDim S550000x1 ![0] bcast_S550000_S550000x1_0 : Edge F → (⟨S550000x1, .f32⟩ : BufTy).Contents (Elt F)) n))
        ((fun x i => Host.gather gather_S50000x128_S550000x1_S550000x128_1_0_n_n_0_1_1128 x i :
            Act F → (⟨S550000x1, .i32⟩ : BufTy).Contents (Elt F) → (⟨S550000x128, .f32⟩ : BufTy).Contents (Elt F)) h (idxT r))))
    (splatA 0x3F000000#32)

/-- The product of activations with a 128×128 weight. -/
def dotT (a : Act F) (w : Wt F) : Act F :=
  (fun l r => Host.dotGeneral dot_S50000x128_S128x128_S50000x128_1_0_0_1_n_n none l r : Act F → Wt F → Act F) a w

/-- c1·agg + c2·(agg·w1) + c1·x0 + c2·(x0·w2), associated to the left. -/
def combineT (c1 c2 : BitVec 32) (agg x0 : Act F) (w1 w2 : Wt F) : Act F :=
  (addf : Act F → Act F → Act F)
    ((addf : Act F → Act F → Act F)
      ((addf : Act F → Act F → Act F)
        ((mulf : Act F → Act F → Act F) (splatA c1) agg)
        ((mulf : Act F → Act F → Act F) (splatA c2) (dotT agg w1)))
      ((mulf : Act F → Act F → Act F) (splatA c1) x0))
    ((mulf : Act F → Act F → Act F) (splatA c2) (dotT x0 w2))

/-- The sum of all entries. -/
def sumT (x : Act F) : Sc F :=
  (fun x v => Host.reduceAdd x v reducesTo_S50000x128_S_d0_1 h_S_ : Act F → Sc F → Sc F) x (constant S_ .f32 0x00000000#32)

/-- The mean of all entries. -/
def meanT (x : Act F) : Sc F :=
  (Host.divf : Sc F → Sc F → Sc F) (sumT x) (constant S_ .f32 0x4AC35000#32)

/-- The population variance about the array's own mean, as the outlined function computes it (the mean through a 1×1
    array, the square as a product, the divisor 6 400 000 − ddof tested positive before the quotient is kept). -/
def varT (x : Act F) (ddof : (⟨S_, .i32⟩ : BufTy).Contents (Elt F)) : Sc F :=
  let S11 := (⟨S1x1, .f32⟩ : BufTy).Contents (Elt F)
  let d : Act F := (subf : Act F → Act F → Act F) x
    ((broadcastInDim S50000x128 ![0, 1] bcast_S1x1_S50000x128_0_1 : S11 → Act F)
      ((Host.divf : S11 → S11 → S11)
        ((broadcastInDim S1x1 ![] bcast_S_S1x1 : Sc F → S11) (sumT x))
        ((broadcastInDim S1x1 ![] bcast_S_S1x1 : Sc F → S11) (constant S_ .f32 0x4AC35000#32))))
  let nrm : Sc F := (subf : Sc F → Sc F → Sc F) (constant S_ .f32 0x4AC35000#32)
    ((sitofp .f32 : (⟨S_, .i32⟩ : BufTy).Contents (Elt F) → Sc F) ddof)
  (select : (⟨S_, .i1⟩ : BufTy).Contents (Elt F) → Sc F → Sc F → Sc F)
    ((cmpf .ogt : Sc F → Sc F → (⟨S_, .i1⟩ : BufTy).Contents (Elt F)) nrm (constant S_ .f32 0x00000000#32))
    ((Host.divf : Sc F → Sc F → Sc F) (sumT ((mulf : Act F → Act F → Act F) d d)) nrm)
    ((id : Sc F → Sc F) (constant S_ .f32 0x7FC00000#32))

/-- The population standard deviation (ddof = 0 at every call site). -/
def stdT (x : Act F) : Sc F :=
  (Host.sqrt : Sc F → Sc F) (varT x (constantI S_ 32 0#32))

/-- A scalar splat over the activations' shape. -/
def bcA (s : Sc F) : Act F := (broadcastInDim S50000x128 ![] bcast_S_S50000x128 : Sc F → Act F) s

/-- A 128-vector laid along the columns of the activations' shape. -/
def bcRow (w : Row F) : Act F :=
  (broadcastInDim S50000x128 ![0, 1] bcast_S1x128_S50000x128_0_1 : (⟨S1x128, .f32⟩ : BufTy).Contents (Elt F) → Act F)
    ((broadcastInDim S1x128 ![1] bcast_S128_S1x128_1 : Row F → (⟨S1x128, .f32⟩ : BufTy).Contents (Elt F)) w)

/-- The positive part, entry by entry. -/
def reluT (x : Act F) : Act F := (maximumf : Act F → Act F → Act F) x (splatA 0x00000000#32)

/-- The reference's layer norm and activation: centre, divide by the centred array's deviation plus ε, scale, shift, clip. -/
def rnormT (x : Act F) (w b : Row F) : Act F :=
  let d : Act F := (subf : Act F → Act F → Act F) x (bcA (meanT x))
  reluT ((addf : Act F → Act F → Act F)
    ((mulf : Act F → Act F → Act F)
      ((Host.divf : Act F → Act F → Act F) d
        (bcA ((addf : Sc F → Sc F → Sc F) (stdT d) (constant S_ .f32 0x3727C5AC#32))))
      (bcRow w))
    (bcRow b))

/-- The kernel program's reciprocal deviation: 1 / (std x + ε). -/
def invstdT (x : Act F) : Sc F :=
  (Host.divf : Sc F → Sc F → Sc F) (constant S_ .f32 0x3F800000#32)
    ((addf : Sc F → Sc F → Sc F) (stdT x) (constant S_ .f32 0x3727C5AC#32))

/-- One layer of the reference program from the previous activations. -/
def rlayerT (c1 c2 : BitVec 32) (r c : Ix F) (n : Edge F) (x0 : Act F) (w1 w2 : Wt F) (nw nb : Row F) (h : Act F) : Act F :=
  rnormT (combineT c1 c2 (propT r c n h) x0 w1 w2) nw nb

/-! ## The leaves: the edge lists, the degree, the edge weights, the weight slices

  `edgeT k` is row `k` of the 2 × 500000 edge list followed by the self loops 0 … 49999; `degT` counts the edges arriving at
  each node; `dinvT` is deg^(-1/2) where the degree is positive and 0 elsewhere; `normT` is `dinv` at the source times `dinv` at
  the target; `w3T k` is slab `k` of an 8 × 128 × 128 stack, `r2T k` row `k` of an 8 × 128 table. -/

abbrev E2 (F : FTy → Type) := (⟨S2x500000, .i32⟩ : BufTy).Contents (Elt F)
abbrev Node (F : FTy → Type) := (⟨S50000, .f32⟩ : BufTy).Contents (Elt F)

/-- Row `k` of the edge list, then the self loops. -/
def edgeT (k : Nat) (hs : S2x500000.Slices ![k, 0] S1x500000) (e : E2 F) : Ix F :=
  (fun a b => concatenate S550000 0 [⟨S500000, a⟩, ⟨S50000, b⟩] concatenates_S500000_S50000_S550000_d0 :
      (⟨S500000, .i32⟩ : BufTy).Contents (Elt F) → (⟨S50000, .i32⟩ : BufTy).Contents (Elt F) → Ix F)
    (fun i => shapeCast S500000
      (((extractStridedSlice S1x500000 ![k, 0] · hs) : E2 F → (⟨S1x500000, .i32⟩ : BufTy).Contents (Elt F)) e)
      shapeCasts_S1x500000_S500000 i)
    (iotaInDim S50000 32 0)

/-- The sources (row 0) and the targets (row 1). -/
def rowT (e : E2 F) : Ix F := edgeT 0 slices_S2x500000_S1x500000_0_0 e
def colT (e : E2 F) : Ix F := edgeT 1 slices_S2x500000_S1x500000_1_0 e

/-- A scalar constant splat over the nodes. -/
def splatN (w : BitVec 32) : Node F :=
  (broadcastInDim S50000 ![] bcast_S_S50000 : Sc F → Node F) (constant S_ .f32 w)

/-- The in-degree, self loop included. -/
def degT (c : Ix F) : Node F :=
  (fun x i u => Host.scatterAdd scatter_S50000_S550000x1_S550000_n_0_0_1 x i u :
      Node F → (⟨S550000x1, .i32⟩ : BufTy).Contents (Elt F) → Edge F → Node F)
    (splatN 0x00000000#32)
    ((broadcastInDim S550000x1 ![0] bcast_S550000_S550000x1_0 : Ix F → (⟨S550000x1, .i32⟩ : BufTy).Contents (Elt F)) c)
    ((broadcastInDim S550000 ![] bcast_S_S550000 : Sc F → Edge F) (constant S_ .f32 0x3F800000#32))

/-- deg^(-1/2) where deg > 0, else 0. -/
def dinvT (c : Ix F) : Node F :=
  (select : (⟨S50000, .i1⟩ : BufTy).Contents (Elt F) → Node F → Node F → Node F)
    ((cmpf .ogt : Node F → Node F → (⟨S50000, .i1⟩ : BufTy).Contents (Elt F)) (degT c) (splatN 0x00000000#32))
    ((Host.rsqrt : Node F → Node F) (degT c))
    ((broadcastInDim S50000 ![] bcast_S_S50000 : Sc F → Node F) ((id : Sc F → Sc F) (constant S_ .f32 0x00000000#32)))

/-- A node vector read at wrapped indices. -/
def takeN (x : Node F) (v : Ix F) : Edge F :=
  (fun x i => Host.gather gather_S50000_S550000x1_S550000_n_0_n_n_0_1_1 x i :
      Node F → (⟨S550000x1, .i32⟩ : BufTy).Contents (Elt F) → Edge F) x (idxT v)

/-- The symmetric normalisation of every edge. -/
def normT (r c : Ix F) : Edge F :=
  (mulf : Edge F → Edge F → Edge F) (takeN (dinvT c) r) (takeN (dinvT c) c)

/-- Slab `k` of a stack of eight 128 × 128 weights. -/
def w3T (k : Nat) (hs : S8x128x128.Slices ![k, 0, 0] S1x128x128) (a : (⟨S8x128x128, .f32⟩ : BufTy).Contents (Elt F)) : Wt F :=
  fun i => shapeCast S128x128
    (((extractStridedSlice S1x128x128 ![k, 0, 0] · hs) : (⟨S8x128x128, .f32⟩ : BufTy).Contents (Elt F) → (⟨S1x128x128, .f32⟩ : BufTy).Contents (Elt F)) a)
    shapeCasts_S1x128x128_S128x128 i

/-- Row `k` of a table of eight 128-vectors. -/
def r2T (k : Nat) (hs : S8x128.Slices ![k, 0] S1x128) (a : (⟨S8x128, .f32⟩ : BufTy).Contents (Elt F)) : Row F :=
  fun i => shapeCast S128
    (((extractStridedSlice S1x128 ![k, 0] · hs) : (⟨S8x128, .f32⟩ : BufTy).Contents (Elt F) → (⟨S1x128, .f32⟩ : BufTy).Contents (Elt F)) a)
    shapeCasts_S1x128_S128 i

end Cert.Hand.Terms

end
-- ==== Proof.RegCombineSpec.lean ====
/-
  The value of a combine layer as ONE function of its operands.

  For an aggregated array `agg` and a residual array `x0` (each 50000 × 128), two 128 × 128 weights `w1`, `w2`
  and two scalars `c1`, `c2`, the layer's result at row `r` and column `q` is

      ((c1 · agg r q + c2 · Σ_k agg r k · w1 k q) + c1 · x0 r q) + c2 · Σ_k x0 r k · w2 k q

  on the extended reals. The three additions are associated to the left in exactly this order and each product keeps the
  scalar on the left: on the extended reals no rearrangement is free at the infinities.
-/
import Idealize.ShloMosaic.PureOps.Ideal
import Idealize.ShloMosaic.Lib.ValueIdx

noncomputable section

namespace Cert.Hand.RegCombineSpec

open Idealize.ShloMosaic Idealize.ShloMosaic.ValueIdx

/-- The combined array, index by index: row `i 0`, column `i 1`. -/
def CMB (c1 c2 : EReal) (agg x0 : (⟨2, ![50000, 128]⟩ : Shape).Idx → EReal)
    (w1 w2 : (⟨2, ![128, 128]⟩ : Shape).Idx → EReal) : (⟨2, ![50000, 128]⟩ : Shape).Idx → EReal :=
  fun i => (((c1 * agg i) + (c2 * ∑ k : Fin 128, agg (ix2 (i 0 : Fin 50000) k) * w1 (ix2 k (i 1 : Fin 128))))
      + (c1 * x0 i))
    + (c2 * ∑ k : Fin 128, x0 (ix2 (i 0 : Fin 50000) k) * w2 (ix2 k (i 1 : Fin 128)))

/-- The same, read at explicit coordinates. -/
theorem CMB_apply (c1 c2 : EReal) (agg x0 : (⟨2, ![50000, 128]⟩ : Shape).Idx → EReal)
    (w1 w2 : (⟨2, ![128, 128]⟩ : Shape).Idx → EReal) (r : Fin 50000) (q : Fin 128) :
    CMB c1 c2 agg x0 w1 w2 (ix2 r q)
      = (((c1 * agg (ix2 r q)) + (c2 * ∑ k : Fin 128, agg (ix2 r k) * w1 (ix2 k q))) + (c1 * x0 (ix2 r q)))
        + (c2 * ∑ k : Fin 128, x0 (ix2 r k) * w2 (ix2 k q)) := rfl

end Cert.Hand.RegCombineSpec

end
-- ==== Proof.RegNormSpec.lean ====
/-
  The value of a normalise-and-rectify layer as ONE function of its five operands.

  For an activation array `val` of 50000 rows and 128 columns, a weight row `w` and a bias row `b` (each 1 × 128), and two
  one-entry arrays `mean` and `invstd`, the layer's result at row `r` and column `q` is

      max ((((val r q - mean) * invstd) * w q) + b q) 0

  on the extended reals: the entry is centred, scaled by the reciprocal deviation, scaled by the column's weight, shifted by
  the column's bias, and clipped below at zero. The association of the two products and the order of the operands of each
  operation are kept exactly as written here: on the extended reals no rearrangement is free at the infinities.
-/
import Idealize.ShloMosaic.PureOps.Ideal
import Idealize.ShloMosaic.Lib.ValueIdx

noncomputable section

namespace Cert.Hand.RegNormSpec

open Idealize.ShloMosaic Idealize.ShloMosaic.ValueIdx

/-- The one entry of the scalar operands, and the one row of the row operands. -/
abbrev o : Fin 1 := 0

/-- The normalised, rectified array, index by index: row `i 0`, column `i 1`. -/
def NRM (val : (⟨2, ![50000, 128]⟩ : Shape).Idx → EReal) (w b : (⟨2, ![1, 128]⟩ : Shape).Idx → EReal)
    (mean invstd : (⟨2, ![1, 1]⟩ : Shape).Idx → EReal) : (⟨2, ![50000, 128]⟩ : Shape).Idx → EReal :=
  fun i => max ((((val i - mean (ix2 o o)) * invstd (ix2 o o)) * w (ix2 o (i 1 : Fin 128))) + b (ix2 o (i 1 : Fin 128))) 0

/-- The same, read at explicit coordinates. -/
theorem NRM_apply (val : (⟨2, ![50000, 128]⟩ : Shape).Idx → EReal) (w b : (⟨2, ![1, 128]⟩ : Shape).Idx → EReal)
    (mean invstd : (⟨2, ![1, 1]⟩ : Shape).Idx → EReal) (r : Fin 50000) (q : Fin 128) :
    NRM val w b mean invstd (ix2 r q)
      = max ((((val (ix2 r q) - mean (ix2 o o)) * invstd (ix2 o o)) * w (ix2 o q)) + b (ix2 o q)) 0 := rfl

end Cert.Hand.RegNormSpec

end
-- ==== Proof.RegMatmulBiasSpec.lean ====
/-
  A block of rows times a weight matrix plus one bias row, as ONE function of the three arrays, index by index:
  entry (r, c) of the result is the sum over k of x(r, k) · w(k, c), plus b(0, c), on the extended reals.
  `MB0` is the first projection  [50000,64] · [64,128] + [1,128];  `MB17` the last one  [50000,128] · [128,64] + [1,64].
  The shapes are written out as literals so that both programs' names for them unfold to these.
-/
import Idealize.ShloMosaic.Lib.ValueIdx

noncomputable section

open scoped BigOperators

namespace Cert.Hand.RegMatmulBias

open Idealize.ShloMosaic Idealize.ShloMosaic.ValueIdx

/-- x · w + b for the first projection: 64 products per entry, the bias row added to every row. -/
def MB0 (x : (⟨2, ![50000, 64]⟩ : Shape).Idx → EReal) (w : (⟨2, ![64, 128]⟩ : Shape).Idx → EReal)
    (b : (⟨2, ![1, 128]⟩ : Shape).Idx → EReal) : (⟨2, ![50000, 128]⟩ : Shape).Idx → EReal :=
  fun i => (∑ k : Fin 64, x (ix2 (i 0 : Fin 50000) k) * w (ix2 k (i 1 : Fin 128))) + b (ix2 (0 : Fin 1) (i 1 : Fin 128))

/-- `MB0` at the entry (r, c). -/
theorem MB0_apply (x : (⟨2, ![50000, 64]⟩ : Shape).Idx → EReal) (w : (⟨2, ![64, 128]⟩ : Shape).Idx → EReal)
    (b : (⟨2, ![1, 128]⟩ : Shape).Idx → EReal) (r : Fin 50000) (c : Fin 128) :
    MB0 x w b (ix2 r c) = (∑ k : Fin 64, x (ix2 r k) * w (ix2 k c)) + b (ix2 (0 : Fin 1) c) := rfl

/-- h · w + b for the last projection: 128 products per entry, the bias row added to every row. -/
def MB17 (x : (⟨2, ![50000, 128]⟩ : Shape).Idx → EReal) (w : (⟨2, ![128, 64]⟩ : Shape).Idx → EReal)
    (b : (⟨2, ![1, 64]⟩ : Shape).Idx → EReal) : (⟨2, ![50000, 64]⟩ : Shape).Idx → EReal :=
  fun i => (∑ k : Fin 128, x (ix2 (i 0 : Fin 50000) k) * w (ix2 k (i 1 : Fin 64))) + b (ix2 (0 : Fin 1) (i 1 : Fin 64))

/-- `MB17` at the entry (r, c). -/
theorem MB17_apply (x : (⟨2, ![50000, 128]⟩ : Shape).Idx → EReal) (w : (⟨2, ![128, 64]⟩ : Shape).Idx → EReal)
    (b : (⟨2, ![1, 64]⟩ : Shape).Idx → EReal) (r : Fin 50000) (c : Fin 64) :
    MB17 x w b (ix2 r c) = (∑ k : Fin 128, x (ix2 r k) * w (ix2 k c)) + b (ix2 (0 : Fin 1) c) := rfl

end Cert.Hand.RegMatmulBias

end
-- ==== Proof.KVals.lean ====
/-
  Both programs' values as explicit functions of the ten argument arrays (x, the edge list, lin1's weight and bias, the two
  stacks of layer weights, the two tables of norm weights and biases, lin2's weight and bias), at the ideal instance.

  The reference side (`R…`): first activations x·W₁ + b₁, the residual (half of them), eight layers `rlayerT`, and the result
  h₈·W₂ + b₂. The kernel side (`K…`): the same network with each dense stage as its index-by-index function — `MB0` / `MB17`
  (matrix product plus bias), `CMB` (the combine), `NRM` (normalise and rectify, fed the mean and the reciprocal deviation that
  the host computed from the combine's output, as 1 × 1 arrays, and the norm weights as 1 × 128 arrays).
-/
import proofs.«104804_j42004780155161_1_alg».proof.KernelIdeal
import proofs.«104804_j42004780155161_1_alg».proof.Proof.Terms
import proofs.«104804_j42004780155161_1_alg».proof.Proof.RegCombineSpec
import proofs.«104804_j42004780155161_1_alg».proof.Proof.RegNormSpec
import proofs.«104804_j42004780155161_1_alg».proof.Proof.RegMatmulBiasSpec

noncomputable section

namespace Cert.Hand.KVals

open Idealize.ShloMosaic Cert.ReferenceIdeal Cert.Hand.Terms
open Cert.Hand.RegCombineSpec Cert.Hand.RegNormSpec Cert.Hand.RegMatmulBias

variable [Cert.ReferenceIdeal.Facts₀] [Cert.KernelIdeal.Facts₀]
open Cert.ReferenceIdeal.Facts₀

/-- The ten argument arrays. -/
structure Args where
  a0 : (⟨S50000x64, .f32⟩ : BufTy).Contents (Elt Ideal)
  a1 : E2 Ideal
  a2 : (⟨S64x128, .f32⟩ : BufTy).Contents (Elt Ideal)
  a3 : Row Ideal
  a4 : (⟨S8x128x128, .f32⟩ : BufTy).Contents (Elt Ideal)
  a5 : (⟨S8x128x128, .f32⟩ : BufTy).Contents (Elt Ideal)
  a6 : (⟨S8x128, .f32⟩ : BufTy).Contents (Elt Ideal)
  a7 : (⟨S8x128, .f32⟩ : BufTy).Contents (Elt Ideal)
  a8 : (⟨S128x64, .f32⟩ : BufTy).Contents (Elt Ideal)
  a9 : (⟨S64, .f32⟩ : BufTy).Contents (Elt Ideal)

variable (A : Args)

/-- A 128-vector as a 1 × 128 array, a 64-vector as 1 × 64, a scalar as 1 × 1: the host's reshapes. -/
def row128 (b : Row Ideal) : (⟨2, ![1, 128]⟩ : Shape).Idx → EReal :=
  fun i => shapeCast Cert.KernelIdeal.S1x128 b Cert.KernelIdeal.Facts₀.shapeCasts_S128_S1x128 i
def row64 (b : (⟨S64, .f32⟩ : BufTy).Contents (Elt Ideal)) : (⟨2, ![1, 64]⟩ : Shape).Idx → EReal :=
  fun i => shapeCast Cert.KernelIdeal.S1x64 b Cert.KernelIdeal.Facts₀.shapeCasts_S64_S1x64 i
def sc11 (s : Sc Ideal) : (⟨2, ![1, 1]⟩ : Shape).Idx → EReal :=
  fun i => shapeCast Cert.KernelIdeal.S1x1 s Cert.KernelIdeal.Facts₀.shapeCasts_S_S1x1 i

/-- The edge lists and the edge weights. -/
def row : Ix Ideal := rowT (F := Ideal) A.a1
def col : Ix Ideal := colT (F := Ideal) A.a1
def nrm : Edge Ideal := normT (F := Ideal) (row A) (col A)

/-! ## The reference side -/

def RH0 : Act Ideal :=
  (addf (F := Ideal) (φ := .f32) : Act Ideal → Act Ideal → Act Ideal)
    (Host.dotGeneral (F := Ideal) (φ₁ := .f32) (φ₂ := .f32) dot_S50000x64_S64x128_S50000x128_1_0_0_1_n_n none A.a0 A.a2) (bcRow (F := Ideal) A.a3)
def RX0 : Act Ideal := (mulf (F := Ideal) (φ := .f32) : Act Ideal → Act Ideal → Act Ideal) (splatA (F := Ideal) 0x3F000000#32) (RH0 A)
def RH1 : Act Ideal :=
  rlayerT (F := Ideal) 0x3E9D1BD0#32 0x3F317218#32 (row A) (col A) (nrm A) (RX0 A)
    (w3T (F := Ideal) 0 slices_S8x128x128_S1x128x128_0_0_0 A.a4) (w3T (F := Ideal) 0 slices_S8x128x128_S1x128x128_0_0_0 A.a5)
    (r2T (F := Ideal) 0 slices_S8x128_S1x128_0_0 A.a6) (r2T (F := Ideal) 0 slices_S8x128_S1x128_0_0 A.a7) (RH0 A)
def RH2 : Act Ideal :=
  rlayerT (F := Ideal) 0x3F183370#32 0x3ECF991F#32 (row A) (col A) (nrm A) (RX0 A)
    (w3T (F := Ideal) 1 slices_S8x128x128_S1x128x128_1_0_0 A.a4) (w3T (F := Ideal) 1 slices_S8x128x128_S1x128x128_1_0_0 A.a5)
    (r2T (F := Ideal) 1 slices_S8x128_S1x128_1_0 A.a6) (r2T (F := Ideal) 1 slices_S8x128_S1x128_1_0 A.a7) (RH1 A)
def RH3 : Act Ideal :=
  rlayerT (F := Ideal) 0x3F365A78#32 0x3E934B11#32 (row A) (col A) (nrm A) (RX0 A)
    (w3T (F := Ideal) 2 slices_S8x128x128_S1x128x128_2_0_0 A.a4) (w3T (F := Ideal) 2 slices_S8x128x128_S1x128x128_2_0_0 A.a5)
    (r2T (F := Ideal) 2 slices_S8x128_S1x128_2_0 A.a6) (r2T (F := Ideal) 2 slices_S8x128_S1x128_2_0 A.a7) (RH2 A)
def RH4 : Act Ideal :=
  rlayerT (F := Ideal) 0x3F46E010#32 0x3E647FBE#32 (row A) (col A) (nrm A) (RX0 A)
    (w3T (F := Ideal) 3 slices_S8x128x128_S1x128x128_3_0_0 A.a4) (w3T (F := Ideal) 3 slices_S8x128x128_S1x128x128_3_0_0 A.a5)
    (r2T (F := Ideal) 3 slices_S8x128_S1x128_3_0 A.a6) (r2T (F := Ideal) 3 slices_S8x128_S1x128_3_0 A.a7) (RH3 A)
def RH5 : Act Ideal :=
  rlayerT (F := Ideal) 0x3F515360#32 0x3E3AB281#32 (row A) (col A) (nrm A) (RX0 A)
    (w3T (F := Ideal) 4 slices_S8x128x128_S1x128x128_4_0_0 A.a4) (w3T (F := Ideal) 4 slices_S8x128x128_S1x128x128_4_0_0 A.a5)
    (r2T (F := Ideal) 4 slices_S8x128_S1x128_4_0 A.a6) (r2T (F := Ideal) 4 slices_S8x128_S1x128_4_0 A.a7) (RH4 A)
def RH6 : Act Ideal :=
  rlayerT (F := Ideal) 0x3F588995#32 0x3E1DD9AD#32 (row A) (col A) (nrm A) (RX0 A)
    (w3T (F := Ideal) 5 slices_S8x128x128_S1x128x128_5_0_0 A.a4) (w3T (F := Ideal) 5 slices_S8x128x128_S1x128x128_5_0_0 A.a5)
    (r2T (F := Ideal) 5 slices_S8x128_S1x128_5_0 A.a6) (r2T (F := Ideal) 5 slices_S8x128_S1x128_5_0 A.a7) (RH5 A)
def RH7 : Act Ideal :=
  rlayerT (F := Ideal) 0x3F5DD0E3#32 0x3E08BC74#32 (row A) (col A) (nrm A) (RX0 A)
    (w3T (F := Ideal) 6 slices_S8x128x128_S1x128x128_6_0_0 A.a4) (w3T (F := Ideal) 6 slices_S8x128x128_S1x128x128_6_0_0 A.a5)
    (r2T (F := Ideal) 6 slices_S8x128_S1x128_6_0 A.a6) (r2T (F := Ideal) 6 slices_S8x128_S1x128_6_0 A.a7) (RH6 A)
def RH8 : Act Ideal :=
  rlayerT (F := Ideal) 0x3F61D8F9#32 0x3DF1383B#32 (row A) (col A) (nrm A) (RX0 A)
    (w3T (F := Ideal) 7 slices_S8x128x128_S1x128x128_7_0_0 A.a4) (w3T (F := Ideal) 7 slices_S8x128x128_S1x128x128_7_0_0 A.a5)
    (r2T (F := Ideal) 7 slices_S8x128_S1x128_7_0 A.a6) (r2T (F := Ideal) 7 slices_S8x128_S1x128_7_0 A.a7) (RH7 A)
def ROut : (⟨S50000x64, .f32⟩ : BufTy).Contents (Elt Ideal) :=
  (addf (F := Ideal) (φ := .f32) : (⟨S50000x64, .f32⟩ : BufTy).Contents (Elt Ideal) → (⟨S50000x64, .f32⟩ : BufTy).Contents (Elt Ideal) → (⟨S50000x64, .f32⟩ : BufTy).Contents (Elt Ideal))
    (Host.dotGeneral (F := Ideal) (φ₁ := .f32) (φ₂ := .f32) dot_S50000x128_S128x64_S50000x64_1_0_0_1_n_n none (RH8 A) A.a8)
    ((broadcastInDim S50000x64 ![0, 1] bcast_S1x64_S50000x64_0_1 : (⟨S1x64, .f32⟩ : BufTy).Contents (Elt Ideal) → (⟨S50000x64, .f32⟩ : BufTy).Contents (Elt Ideal))
      ((broadcastInDim S1x64 ![1] bcast_S64_S1x64_1 : (⟨S64, .f32⟩ : BufTy).Contents (Elt Ideal) → (⟨S1x64, .f32⟩ : BufTy).Contents (Elt Ideal)) A.a9))

/-! ## The kernel side -/

def KH0 : (⟨2, ![50000, 128]⟩ : Shape).Idx → EReal := MB0 A.a0 A.a2 (row128 A.a3)
def KX0 : Act Ideal := (mulf (F := Ideal) (φ := .f32) : Act Ideal → Act Ideal → Act Ideal) (splatA (F := Ideal) 0x3F000000#32) (KH0 A)
def KOut0 : (⟨2, ![50000, 128]⟩ : Shape).Idx → EReal :=
  CMB (Ideal.ofBits .f32 0x3E9D1BD0#32) (Ideal.ofBits .f32 0x3F317218#32) (propT (F := Ideal) (row A) (col A) (nrm A) (KH0 A)) (KX0 A)
    (w3T (F := Ideal) 0 slices_S8x128x128_S1x128x128_0_0_0 A.a4) (w3T (F := Ideal) 0 slices_S8x128x128_S1x128x128_0_0_0 A.a5)
def KH1 : (⟨2, ![50000, 128]⟩ : Shape).Idx → EReal :=
  NRM (KOut0 A) (row128 (r2T (F := Ideal) 0 slices_S8x128_S1x128_0_0 A.a6)) (row128 (r2T (F := Ideal) 0 slices_S8x128_S1x128_0_0 A.a7))
    (sc11 (meanT (F := Ideal) (KOut0 A))) (sc11 (invstdT (F := Ideal) (KOut0 A)))
def KOut1 : (⟨2, ![50000, 128]⟩ : Shape).Idx → EReal :=
  CMB (Ideal.ofBits .f32 0x3F183370#32) (Ideal.ofBits .f32 0x3ECF991F#32) (propT (F := Ideal) (row A) (col A) (nrm A) (KH1 A)) (KX0 A)
    (w3T (F := Ideal) 1 slices_S8x128x128_S1x128x128_1_0_0 A.a4) (w3T (F := Ideal) 1 slices_S8x128x128_S1x128x128_1_0_0 A.a5)
def KH2 : (⟨2, ![50000, 128]⟩ : Shape).Idx → EReal :=
  NRM (KOut1 A) (row128 (r2T (F := Ideal) 1 slices_S8x128_S1x128_1_0 A.a6)) (row128 (r2T (F := Ideal) 1 slices_S8x128_S1x128_1_0 A.a7))
    (sc11 (meanT (F := Ideal) (KOut1 A))) (sc11 (invstdT (F := Ideal) (KOut1 A)))
def KOut2 : (⟨2, ![50000, 128]⟩ : Shape).Idx → EReal :=
  CMB (Ideal.ofBits .f32 0x3F365A78#32) (Ideal.ofBits .f32 0x3E934B11#32) (propT (F := Ideal) (row A) (col A) (nrm A) (KH2 A)) (KX0 A)
    (w3T (F := Ideal) 2 slices_S8x128x128_S1x128x128_2_0_0 A.a4) (w3T (F := Ideal) 2 slices_S8x128x128_S1x128x128_2_0_0 A.a5)
def KH3 : (⟨2, ![50000, 128]⟩ : Shape).Idx → EReal :=
  NRM (KOut2 A) (row128 (r2T (F := Ideal) 2 slices_S8x128_S1x128_2_0 A.a6)) (row128 (r2T (F := Ideal) 2 slices_S8x128_S1x128_2_0 A.a7))
    (sc11 (meanT (F := Ideal) (KOut2 A))) (sc11 (invstdT (F := Ideal) (KOut2 A)))
def KOut3 : (⟨2, ![50000, 128]⟩ : Shape).Idx → EReal :=
  CMB (Ideal.ofBits .f32 0x3F46E010#32) (Ideal.ofBits .f32 0x3E647FBE#32) (propT (F := Ideal) (row A) (col A) (nrm A) (KH3 A)) (KX0 A)
    (w3T (F := Ideal) 3 slices_S8x128x128_S1x128x128_3_0_0 A.a4) (w3T (F := Ideal) 3 slices_S8x128x128_S1x128x128_3_0_0 A.a5)
def KH4 : (⟨2, ![50000, 128]⟩ : Shape).Idx → EReal :=
  NRM (KOut3 A) (row128 (r2T (F := Ideal) 3 slices_S8x128_S1x128_3_0 A.a6)) (row128 (r2T (F := Ideal) 3 slices_S8x128_S1x128_3_0 A.a7))
    (sc11 (meanT (F := Ideal) (KOut3 A))) (sc11 (invstdT (F := Ideal) (KOut3 A)))
def KOut4 : (⟨2, ![50000, 128]⟩ : Shape).Idx → EReal :=
  CMB (Ideal.ofBits .f32 0x3F515360#32) (Ideal.ofBits .f32 0x3E3AB281#32) (propT (F := Ideal) (row A) (col A) (nrm A) (KH4 A)) (KX0 A)
    (w3T (F := Ideal) 4 slices_S8x128x128_S1x128x128_4_0_0 A.a4) (w3T (F := Ideal) 4 slices_S8x128x128_S1x128x128_4_0_0 A.a5)
def KH5 : (⟨2, ![50000, 128]⟩ : Shape).Idx → EReal :=
  NRM (KOut4 A) (row128 (r2T (F := Ideal) 4 slices_S8x128_S1x128_4_0 A.a6)) (row128 (r2T (F := Ideal) 4 slices_S8x128_S1x128_4_0 A.a7))
    (sc11 (meanT (F := Ideal) (KOut4 A))) (sc11 (invstdT (F := Ideal) (KOut4 A)))
def KOut5 : (⟨2, ![50000, 128]⟩ : Shape).Idx → EReal :=
  CMB (Ideal.ofBits .f32 0x3F588995#32) (Ideal.ofBits .f32 0x3E1DD9AD#32) (propT (F := Ideal) (row A) (col A) (nrm A) (KH5 A)) (KX0 A)
    (w3T (F := Ideal) 5 slices_S8x128x128_S1x128x128_5_0_0 A.a4) (w3T (F := Ideal) 5 slices_S8x128x128_S1x128x128_5_0_0 A.a5)
def KH6 : (⟨2, ![50000, 128]⟩ : Shape).Idx → EReal :=
  NRM (KOut5 A) (row128 (r2T (F := Ideal) 5 slices_S8x128_S1x128_5_0 A.a6)) (row128 (r2T (F := Ideal) 5 slices_S8x128_S1x128_5_0 A.a7))
    (sc11 (meanT (F := Ideal) (KOut5 A))) (sc11 (invstdT (F := Ideal) (KOut5 A)))
def KOut6 : (⟨2, ![50000, 128]⟩ : Shape).Idx → EReal :=
  CMB (Ideal.ofBits .f32 0x3F5DD0E3#32) (Ideal.ofBits .f32 0x3E08BC74#32) (propT (F := Ideal) (row A) (col A) (nrm A) (KH6 A)) (KX0 A)
    (w3T (F := Ideal) 6 slices_S8x128x128_S1x128x128_6_0_0 A.a4) (w3T (F := Ideal) 6 slices_S8x128x128_S1x128x128_6_0_0 A.a5)
def KH7 : (⟨2, ![50000, 128]⟩ : Shape).Idx → EReal :=
  NRM (KOut6 A) (row128 (r2T (F := Ideal) 6 slices_S8x128_S1x128_6_0 A.a6)) (row128 (r2T (F := Ideal) 6 slices_S8x128_S1x128_6_0 A.a7))
    (sc11 (meanT (F := Ideal) (KOut6 A))) (sc11 (invstdT (F := Ideal) (KOut6 A)))
def KOut7 : (⟨2, ![50000, 128]⟩ : Shape).Idx → EReal :=
  CMB (Ideal.ofBits .f32 0x3F61D8F9#32) (Ideal.ofBits .f32 0x3DF1383B#32) (propT (F := Ideal) (row A) (col A) (nrm A) (KH7 A)) (KX0 A)
    (w3T (F := Ideal) 7 slices_S8x128x128_S1x128x128_7_0_0 A.a4) (w3T (F := Ideal) 7 slices_S8x128x128_S1x128x128_7_0_0 A.a5)
def KH8 : (⟨2, ![50000, 128]⟩ : Shape).Idx → EReal :=
  NRM (KOut7 A) (row128 (r2T (F := Ideal) 7 slices_S8x128_S1x128_7_0 A.a6)) (row128 (r2T (F := Ideal) 7 slices_S8x128_S1x128_7_0 A.a7))
    (sc11 (meanT (F := Ideal) (KOut7 A))) (sc11 (invstdT (F := Ideal) (KOut7 A)))
def KOut : (⟨2, ![50000, 64]⟩ : Shape).Idx → EReal := MB17 (KH8 A) A.a8 (row64 A.a9)

end Cert.Hand.KVals

end
-- ==== Proof.KStretchLib.lean ====
/-
  Small facts shared by the kernel-side value modules.

  * A buffer that a straight line of host operations does not write keeps its contents: the membership fact that lets this
    be decided over a literal list of result buffers.
  * A vector read as the one row of a one-row matrix, and a scalar read as the one entry of a 1 × 1 matrix: the row-major
    order of the elements is unchanged, so entry (0, j) of the matrix is entry j of the vector, and entry (0, 0) is the scalar.
  * Two valuations that agree on a list of buffers: the relation is transitive, and a line of host operations that
    writes none of the listed buffers keeps it.
-/
import Idealize.ShloMosaic.Lib.StableHlo.Run
import Idealize.ShloMosaic.Lib.ValueLayout
import Idealize.ShloMosaic.Lib.ValueIdx

noncomputable section

namespace Cert.Hand.KChain

open Idealize.ShloMosaic Idealize.ShloMosaic.TcCoe Idealize.ShloMosaic.ValueIdx

variable {τ : Topo} {sig : RefSig} {Val : EltTy → Type}

/-- A listed result buffer lies in the listed set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Two valuations agree on every buffer of a list. -/
def Agree (L : List (Ref sig .tc)) (V V' : Valuation τ sig Val) : Prop :=
  ∀ r ∈ L, V (Proc.devRef .tc r) = V' (Proc.devRef .tc r)

theorem Agree.refl (L : List (Ref sig .tc)) (V : Valuation τ sig Val) : Agree L V V := fun _ _ => rfl

theorem Agree.trans {L : List (Ref sig .tc)} {V V' V'' : Valuation τ sig Val} (h : Agree L V V') (h' : Agree L V' V'') :
    Agree L V V'' := fun r hr => (h r hr).trans (h' r hr)

/-- A line of host operations whose result buffers are all in `W` keeps every buffer of a list disjoint from `W`. -/
theorem Agree.after {L W : List (Ref sig .tc)} (ops : List (HloOp τ sig Val)) (V : Valuation τ sig Val)
    (hW : ops.Forall fun op => op.writes ⊆ (W.map (Proc.devRef (τ := τ) .tc)).toFinset) (hd : ∀ r ∈ L, r ∉ W) :
    Agree L (StableHlo.after ops V) V :=
  fun r hr => StableHlo.after_of_writes_sub ops V hW (hd r hr)

variable {α : Type}

/-- A 128-vector as the one row of a 1 × 128 array. -/
def row1 (x : (⟨1, ![128]⟩ : Shape).Idx → α) : (⟨2, ![1, 128]⟩ : Shape).Idx → α :=
  fun i => shapeCast ⟨2, ![1, 128]⟩ x (by decide) i

/-- The row read at column `j`. -/
theorem row1_apply (x : (⟨1, ![128]⟩ : Shape).Idx → α) (u : Fin 1) (j : Fin 128) : row1 x (ix2 u j) = x (ix1 j) :=
  shapeCast_a_1a_apply x _ u j

/-- A 64-vector as the one row of a 1 × 64 array. -/
def row64 (x : (⟨1, ![64]⟩ : Shape).Idx → α) : (⟨2, ![1, 64]⟩ : Shape).Idx → α :=
  fun i => shapeCast ⟨2, ![1, 64]⟩ x (by decide) i

/-- The row read at column `j`. -/
theorem row64_apply (x : (⟨1, ![64]⟩ : Shape).Idx → α) (u : Fin 1) (j : Fin 64) : row64 x (ix2 u j) = x (ix1 j) :=
  shapeCast_a_1a_apply x _ u j

/-- A scalar as the one entry of a 1 × 1 array. -/
def one1 (x : (⟨0, ![]⟩ : Shape).Idx → α) : (⟨2, ![1, 1]⟩ : Shape).Idx → α :=
  fun i => shapeCast ⟨2, ![1, 1]⟩ x (by decide) i

/-- The entry: both arrays have one element, so both row-major positions are 0. -/
theorem one1_apply (x : (⟨0, ![]⟩ : Shape).Idx → α) (u v : Fin 1) : one1 x (ix2 u v) = x ix0 :=
  shapeCast_apply x _ _ _ (by
    have h1 := ((⟨0, ![]⟩ : Shape).rowMajor ix0).isLt
    have h2 := ((⟨2, ![1, 1]⟩ : Shape).rowMajor (ix2 u v)).isLt
    have e1 : (⟨0, ![]⟩ : Shape).numel = 1 := by decide
    have e2 : (⟨2, ![1, 1]⟩ : Shape).numel = 1 := by decide
    omega)

end Cert.Hand.KChain

end
-- ==== Proof.KStretchPre.lean ====
/-
  The host operations before the first projection (three stretches, run one after the other) and the one host operation
  before the last projection, read at an ARBITRARY valuation `V` of the buffers they start from.

  The first group builds, from the 2 × 500000 edge list `e`:
  * the sources and the targets, each followed by the self loops 0 … 49999;
  * the edge weights  dinv(source) · dinv(target),  where dinv = deg^(-1/2) on nodes of positive in-degree and 0 elsewhere;
  * the first bias vector as a 1 × 128 array.
  The last operation lays the last bias vector out as a 1 × 64 array. Every buffer that is not a result keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches before the first projection, run one after the other. -/
def afterPre (V : Valuation τ sig (Elt F)) : Valuation τ sig (Elt F) :=
  StableHlo.after (hostOps0_2 (F := F)) (StableHlo.after hostOps0_1 (StableHlo.after hostOps0 V))

/-- The result buffers of the three stretches, in order. -/
def writesPre : List (Ref sig .tc) :=
  [main_v0, main_v1, main_v2, main_v3, main_v4, main_v5, main_v6, main_cst, main_v7, main_cst_0, main_v8, main_v9,
   main_v10, main_cst_1, main_v11, main_v12, main_v13, main_cst_2, main_call0_v0, main_call0_v1, main_v14, main_c,
   main_v15, main_v16, main_c_3, main_v17, main_v18, main_v19, main_v20, main_v21, main_c_4, main_v22, main_v23,
   main_c_5, main_v24, main_v25, main_v26, main_v27, main_v28, main_v29, main_v30]

/-- Every operation of the first stretch writes a listed buffer. -/
theorem Pre_writes_a :
    (hostOps0 (F := F)).Forall fun op => op.writes ⊆ (writesPre.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem Pre_writes_b :
    (hostOps0_1 (F := F)).Forall fun op => op.writes ⊆ (writesPre.map (Proc.devRef (τ := τ) .tc)).toFinset := by
  simp only [hostOps0_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem Pre_writes_c :
    (hostOps0_2 (F := F)).Forall fun op => op.writes ⊆ (writesPre.map (Proc.devRef (τ := τ) .tc)).toFinset := by
  simp only [hostOps0_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem Pre_keep (V : Valuation τ sig (Elt F)) {r : Ref sig .tc} (hr : r ∉ writesPre) :
    afterPre V (Proc.devRef .tc r) = V (Proc.devRef .tc r) :=
  ((StableHlo.after_of_writes_sub hostOps0_2 _ Pre_writes_c hr).trans
    (StableHlo.after_of_writes_sub hostOps0_1 _ Pre_writes_b hr)).trans
    (StableHlo.after_of_writes_sub hostOps0 V Pre_writes_a hr)

/-- The sources, then the self loops. -/
theorem Pre_row (V : Valuation τ sig (Elt F)) :
    afterPre V (Proc.devRef .tc main_v5) = Terms.rowT (V (Proc.devRef .tc main_arg1)) := by
  unfold afterPre hostOps0_2 hostOps0_1 hostOps0
  after_results_simp
  rfl

/-- The targets, then the self loops. -/
theorem Pre_col (V : Valuation τ sig (Elt F)) :
    afterPre V (Proc.devRef .tc main_v6) = Terms.colT (V (Proc.devRef .tc main_arg1)) := by
  unfold afterPre hostOps0_2 hostOps0_1 hostOps0
  after_results_simp
  rfl

/-- The symmetric normalisation of every edge. -/
theorem Pre_norm (V : Valuation τ sig (Elt F)) :
    afterPre V (Proc.devRef .tc main_v29)
      = Terms.normT (Terms.rowT (V (Proc.devRef .tc main_arg1))) (Terms.colT (V (Proc.devRef .tc main_arg1))) := by
  unfold afterPre hostOps0_2 hostOps0_1 hostOps0
  after_results_simp
  rfl

/-- The first bias vector, as a 1 × 128 array. -/
theorem Pre_bias (V : Valuation τ sig (Elt F)) :
    afterPre V (Proc.devRef .tc main_v30) = row1 (V (Proc.devRef .tc main_arg3)) := by
  unfold afterPre hostOps0_2 hostOps0_1 hostOps0
  after_results_simp
  rfl

/-- The result buffer of the operation before the last projection. -/
def writesPost : List (Ref sig .tc) := [main_v306]

/-- The operation writes the listed buffer. -/
theorem Post_writes :
    (hostOps17 (F := F)).Forall fun op => op.writes ⊆ (writesPost.map (Proc.devRef (τ := τ) .tc)).toFinset := by
  simp only [hostOps17, List.Forall, StableHlo.reshape_writes]
  exact single_sub_of_mem (by decide)

/-- A buffer that is not the result keeps its contents. -/
theorem Post_keep (V : Valuation τ sig (Elt F)) {r : Ref sig .tc} (hr : r ∉ writesPost) :
    StableHlo.after (hostOps17 (F := F)) V (Proc.devRef .tc r) = V (Proc.devRef .tc r) :=
  StableHlo.after_of_writes_sub hostOps17 V Post_writes hr

/-- The last bias vector, as a 1 × 64 array. -/
theorem Post_bias (V : Valuation τ sig (Elt F)) :
    StableHlo.after (hostOps17 (F := F)) V (Proc.devRef .tc main_v306) = row64 (V (Proc.devRef .tc main_arg9)) := by
  unfold hostOps17
  after_results
  rfl

end Cert.Hand.KChain

end
-- ==== Proof.KStretchA1.lean ====
/-
  The host operations between the first projection and the first combine layer, read at an ARBITRARY valuation `V` of the
  buffers they start from. Four results are read later:
  * the residual  x0 = 0.5 · h0  (the constant on the left, as printed);
  * the halved neighbour aggregation of h0 along the edge lists with the edge weights;
  * slab 0 of each of the two stacks of 128 × 128 weights.
  Every buffer that is not one of the 26 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA1 : List (Ref sig .tc) :=
  [main_cst_6, main_v32, main_v33, main_v34, main_c_7, main_v35, main_v36, main_c_8, main_v37, main_v38, main_v39, main_v40,
   main_v41, main_v42, main_v43, main_cst_9, main_v44, main_v45, main_v46, main_cst_10, main_v47, main_v48, main_v49, main_v50,
   main_v51, main_v52]

/-- Every operation of the stretch writes a listed buffer. -/
theorem A1_writes :
    (hostOps1 (F := F)).Forall fun op => op.writes ⊆ (writesA1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A1_keep (V : Valuation τ sig (Elt F)) {r : Ref sig .tc} (hr : r ∉ writesA1) :
    StableHlo.after (hostOps1 (F := F)) V (Proc.devRef .tc r) = V (Proc.devRef .tc r) :=
  StableHlo.after_of_writes_sub hostOps1 V A1_writes hr

/-- The residual: one half, splat, times the first projection. -/
theorem A1_x0 (V : Valuation τ sig (Elt F)) :
    StableHlo.after (hostOps1 (F := F)) V (Proc.devRef .tc main_v33)
      = (mulf : Terms.Act F → Terms.Act F → Terms.Act F) (Terms.splatA 0x3F000000#32) (V (Proc.devRef .tc main_v31)) := by
  unfold hostOps1
  after_results
  rfl

/-- The halved neighbour aggregation of the first projection. -/
theorem A1_agg (V : Valuation τ sig (Elt F)) :
    StableHlo.after (hostOps1 (F := F)) V (Proc.devRef .tc main_v48)
      = Terms.propT (V (Proc.devRef .tc main_v5)) (V (Proc.devRef .tc main_v6)) (V (Proc.devRef .tc main_v29))
          (V (Proc.devRef .tc main_v31)) := by
  unfold hostOps1
  after_results_simp
  rfl

/-- Slab 0 of the first stack of weights. -/
theorem A1_w1 (V : Valuation τ sig (Elt F)) :
    StableHlo.after (hostOps1 (F := F)) V (Proc.devRef .tc main_v50)
      = Terms.w3T 0 Cert.ReferenceIdeal.Facts₀.slices_S8x128x128_S1x128x128_0_0_0 (V (Proc.devRef .tc main_arg4)) := by
  unfold hostOps1
  after_results
  rfl

/-- Slab 0 of the second stack of weights. -/
theorem A1_w2 (V : Valuation τ sig (Elt F)) :
    StableHlo.after (hostOps1 (F := F)) V (Proc.devRef .tc main_v52)
      = Terms.w3T 0 Cert.ReferenceIdeal.Facts₀.slices_S8x128x128_S1x128x128_0_0_0 (V (Proc.devRef .tc main_arg5)) := by
  unfold hostOps1
  after_results
  rfl

end Cert.Hand.KChain

end
-- ==== Proof.KChainBase.lean ====
/-
  The kernel program's run, from the launch memory to the entry of the first combine layer, at the ideal instance.

  The ten argument arrays are never written, so every boundary of the run finds them as launched (a region that reads
  one through an input window leaves it as it found it). The three stretches of host operations before the first projection leave the edge lists (sources and targets, each followed by the self loops),
  the edge weights and the first bias row; the first projection's region leaves  h0 = x · W₁ + b₁  (as the index-by-index
  function `MB0`); the next stretch leaves the residual  x0 = 0.5 · h0.  From there on ten buffers stay live and
  unwritten through every later boundary: the six arguments still to be read, the two edge lists, the edge weights and the residual.
  This module names them (`liveAll`), reads each at the boundary before the first combine region (`W5`), and states the
  two facts every later step uses: a stretch of host operations and a region each keep the live buffers.
-/
import proofs.«104804_j42004780155161_1_alg».proof.Proof.Gen.KernelIdeal.Frame
import proofs.«104804_j42004780155161_1_alg».proof.Proof.Gen.ReferenceIdeal
import proofs.«104804_j42004780155161_1_alg».proof.Proof.KVals
import proofs.«104804_j42004780155161_1_alg».proof.Proof.KStretchLib
import proofs.«104804_j42004780155161_1_alg».proof.Proof.KStretchPre
import proofs.«104804_j42004780155161_1_alg».proof.Proof.KStretchA1

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec Cert.Hand.RegMatmulBias

variable (m : (ℓ : Loc nD τ sig) → Buf (Elt Ideal) ℓ) (ρ : Dev nD → PrngReg) (c : Dev nD)

/-- The ten argument arrays as launched on device `c`. -/
def argsOf : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9)⟩

/-- The argument buffers. -/
def allArgs : List (Ref sig .tc) :=
  [main_arg0, main_arg1, main_arg2, main_arg3, main_arg4, main_arg5, main_arg6, main_arg7, main_arg8, main_arg9]

/-- The arguments that are read after the first projection: the two stacks of weights, the scale and shift tables, the last
    projection's weight and bias. -/
def liveArgs : List (Ref sig .tc) :=
  [main_arg4, main_arg5, main_arg6, main_arg7, main_arg8, main_arg9]

/-- Those arguments, the two edge lists and the edge weights: no region from the first projection to the last
    normalisation has any of them among its windows. -/
def liveRest : List (Ref sig .tc) :=
  [main_arg4, main_arg5, main_arg6, main_arg7, main_arg8, main_arg9, main_v5, main_v6, main_v29]

/-- The buffers that stay live and unwritten from the first combine layer on: the residual (an INPUT window of every combine
    region, read and never written there) and the rest. -/
def liveAll : List (Ref sig .tc) := main_v33 :: liveRest

/-- Agreement on a list with one more buffer in front. -/
theorem Agree.cons {r : Ref sig .tc} {L : List (Ref sig .tc)} {V V' : Valuation τ sig (Elt Ideal)}
    (h : V (Proc.devRef .tc r) = V' (Proc.devRef .tc r)) (hL : Agree L V V') : Agree (r :: L) V V' := fun x hx => by
  rcases List.mem_cons.mp hx with rfl | hx
  · exact h
  · exact hL x hx

/-- The host's reshapes of a vector to one row and of a scalar to one entry, in the two spellings used. -/
theorem row1_eq (b : Terms.Row Ideal) : row1 b = row128 b := rfl
theorem row64_eq (b : (⟨Cert.ReferenceIdeal.S64, .f32⟩ : BufTy).Contents (Elt Ideal)) : KChain.row64 b = KVals.row64 b := rfl
theorem one1_eq (s : Terms.Sc Ideal) : one1 s = sc11 s := rfl

/-! ## Before the first projection -/

/-- The arguments are as launched after the first three stretches. -/
theorem W3_args : Agree allArgs (W3 m ρ c) (W0 m ρ c) :=
  fun r hr => Pre_keep (F := Ideal) (W0 m ρ c) ((by decide : ∀ r ∈ allArgs, r ∉ writesPre) r hr)

theorem W3_row : W3 m ρ c (Proc.devRef .tc main_v5) = row (argsOf m c) := Pre_row (F := Ideal) (W0 m ρ c)
theorem W3_col : W3 m ρ c (Proc.devRef .tc main_v6) = col (argsOf m c) := Pre_col (F := Ideal) (W0 m ρ c)
theorem W3_nrm : W3 m ρ c (Proc.devRef .tc main_v29) = nrm (argsOf m c) := Pre_norm (F := Ideal) (W0 m ρ c)
theorem W3_bias : W3 m ρ c (Proc.devRef .tc main_v30) = row128 (argsOf m c).a3 := Pre_bias (F := Ideal) (W0 m ρ c)

/-! ## The first projection's region -/

/-- The region has none of the later arguments, the edge lists or the edge weights among its windows. -/
theorem W4_keep : Agree liveRest (W4 m ρ c) (W3 m ρ c) :=
  fun r hr => W4_of_ne m ρ c r ((by decide : ∀ r ∈ liveRest, ∀ w, Pipeline.arrRef spec0 w ≠ r) r hr)

/-- The first activations, given the region's array as one function of its three operands. -/
theorem W4_h0
    (h0 : (dat0 (V3 m ρ) c).arrAt 3 cfg0.N
      = MB0 (V3 m ρ c (Pipeline.arrRef spec0 0)) (V3 m ρ c (Pipeline.arrRef spec0 1)) (V3 m ρ c (Pipeline.arrRef spec0 2))) :
    W4 m ρ c (Proc.devRef .tc main_v31) = KH0 (argsOf m c) := by
  refine (W4_arr m ρ c 3).trans (h0.trans ?_)
  show MB0 (W3 m ρ c (Proc.devRef .tc main_arg0)) (W3 m ρ c (Proc.devRef .tc main_arg2))
      (W3 m ρ c (Proc.devRef .tc main_v30)) = KH0 (argsOf m c)
  rw [W3_args m ρ c main_arg0 (by decide), W3_args m ρ c main_arg2 (by decide), W3_bias m ρ c]
  rfl

/-! ## The stretch before the first combine layer -/

theorem W5_keep : Agree liveRest (W5 m ρ c) (W4 m ρ c) :=
  Agree.after (hostOps1 (F := Ideal)) (W4 m ρ c) (A1_writes (F := Ideal)) (by decide)

/-- The arguments at the entry of the first combine layer. -/
theorem W5_args : Agree liveArgs (W5 m ρ c) (W0 m ρ c) := fun r hr =>
  have hr' : r ∈ liveRest := (by decide : ∀ r ∈ liveArgs, r ∈ liveRest) r hr
  have hr'' : r ∈ allArgs := (by decide : ∀ r ∈ liveArgs, r ∈ allArgs) r hr
  ((W5_keep m ρ c r hr').trans (W4_keep m ρ c r hr')).trans (W3_args m ρ c r hr'')

theorem W5_row : W5 m ρ c (Proc.devRef .tc main_v5) = row (argsOf m c) :=
  ((W5_keep m ρ c main_v5 (by decide)).trans (W4_keep m ρ c main_v5 (by decide))).trans (W3_row m ρ c)
theorem W5_col : W5 m ρ c (Proc.devRef .tc main_v6) = col (argsOf m c) :=
  ((W5_keep m ρ c main_v6 (by decide)).trans (W4_keep m ρ c main_v6 (by decide))).trans (W3_col m ρ c)
theorem W5_nrm : W5 m ρ c (Proc.devRef .tc main_v29) = nrm (argsOf m c) :=
  ((W5_keep m ρ c main_v29 (by decide)).trans (W4_keep m ρ c main_v29 (by decide))).trans (W3_nrm m ρ c)

/-- The residual, given the first activations. -/
theorem W5_x0 (h : W4 m ρ c (Proc.devRef .tc main_v31) = KH0 (argsOf m c)) :
    W5 m ρ c (Proc.devRef .tc main_v33) = KX0 (argsOf m c) := by
  refine (A1_x0 (F := Ideal) (W4 m ρ c)).trans ?_
  rw [h]
  rfl

/-- The neighbour aggregation of the first activations, and slab 0 of each stack of weights. -/
theorem W5_agg (h : W4 m ρ c (Proc.devRef .tc main_v31) = KH0 (argsOf m c)) :
    W5 m ρ c (Proc.devRef .tc main_v48)
      = Terms.propT (F := Ideal) (row (argsOf m c)) (col (argsOf m c)) (nrm (argsOf m c)) (KH0 (argsOf m c)) := by
  refine (A1_agg (F := Ideal) (W4 m ρ c)).trans ?_
  rw [h, W4_keep m ρ c main_v5 (by decide), W4_keep m ρ c main_v6 (by decide), W4_keep m ρ c main_v29 (by decide),
    W3_row, W3_col, W3_nrm]
theorem W5_w1 : W5 m ρ c (Proc.devRef .tc main_v50)
    = Terms.w3T (F := Ideal) 0 Cert.ReferenceIdeal.Facts₀.slices_S8x128x128_S1x128x128_0_0_0 (argsOf m c).a4 := by
  refine (A1_w1 (F := Ideal) (W4 m ρ c)).trans ?_
  rw [W4_keep m ρ c main_arg4 (by decide), W3_args m ρ c main_arg4 (by decide)]
  rfl
theorem W5_w2 : W5 m ρ c (Proc.devRef .tc main_v52)
    = Terms.w3T (F := Ideal) 0 Cert.ReferenceIdeal.Facts₀.slices_S8x128x128_S1x128x128_0_0_0 (argsOf m c).a5 := by
  refine (A1_w2 (F := Ideal) (W4 m ρ c)).trans ?_
  rw [W4_keep m ρ c main_arg5 (by decide), W3_args m ρ c main_arg5 (by decide)]
  rfl

/-- An argument read at a later boundary that agrees with `W5` on the live buffers. -/
theorem arg_of_agree {V : Valuation τ sig (Elt Ideal)} (hL : Agree liveAll V (W5 m ρ c)) {r : Ref sig .tc}
    (hr : r ∈ liveArgs) : V (Proc.devRef .tc r) = W0 m ρ c (Proc.devRef .tc r) :=
  (hL r ((by decide : ∀ r ∈ liveArgs, r ∈ liveAll) r hr)).trans (W5_args m ρ c r hr)

end Cert.Hand.KChain

end
-- ==== Proof.KStretchM2.lean ====
/-
  The three stretches of host operations between a combine layer and its normalisation layer (here: layer 0), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 0 of the scale table and row 0 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM2 (V : Valuation τ sig (Elt F)) : Valuation τ sig (Elt F) :=
  StableHlo.after (hostOps2_2 (F := F)) (StableHlo.after hostOps2_1 (StableHlo.after hostOps2 V))

/-- The result buffers of the three stretches, in order. -/
def writesM2 : List (Ref sig .tc) :=
  [main_cst_11, main_v54, main_cst_12, main_v55, main_c_13, main_call1_call0_cst, main_call1_call0_v0,
   main_call1_call0_v1, main_call1_call0_cst_0, main_call1_call0_v2, main_call1_call0_v3, main_call1_call0_v4,
   main_call1_call0_v5, main_call1_call0_v6, main_call1_call0_v7, main_call1_call0_cst_1, main_call1_call0_v8,
   main_call1_call0_cst_2, main_call1_call0_v9, main_call1_call0_v10, main_call1_call0_cst_3, main_call1_call0_v11,
   main_call1_call0_cst_4, main_call1_call0_call0_v0, main_call1_v0, main_v56, main_cst_14, main_v57, main_cst_15,
   main_v58, main_v59, main_v60, main_v61, main_v62, main_v63, main_v64, main_v65, main_v66]

/-- Every operation of the first stretch writes a listed buffer. -/
theorem M2_writes_a :
    (hostOps2 (F := F)).Forall fun op => op.writes ⊆ (writesM2.map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M2_writes_b :
    (hostOps2_1 (F := F)).Forall fun op => op.writes ⊆ (writesM2.map (Proc.devRef (τ := τ) .tc)).toFinset := by
  simp only [hostOps2_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M2_writes_c :
    (hostOps2_2 (F := F)).Forall fun op => op.writes ⊆ (writesM2.map (Proc.devRef (τ := τ) .tc)).toFinset := by
  simp only [hostOps2_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M2_keep (V : Valuation τ sig (Elt F)) {r : Ref sig .tc} (hr : r ∉ writesM2) :
    afterM2 V (Proc.devRef .tc r) = V (Proc.devRef .tc r) :=
  ((StableHlo.after_of_writes_sub hostOps2_2 _ M2_writes_c hr).trans
    (StableHlo.after_of_writes_sub hostOps2_1 _ M2_writes_b hr)).trans
    (StableHlo.after_of_writes_sub hostOps2 V M2_writes_a hr)

/-- The mean of the combine layer's result, as a 1 × 1 array. -/
theorem M2_mean (V : Valuation τ sig (Elt F)) :
    afterM2 V (Proc.devRef .tc main_v65) = one1 (Terms.meanT (V (Proc.devRef .tc main_v53))) := by
  unfold afterM2 hostOps2_2 hostOps2_1 hostOps2
  after_results_simp
  rfl

/-- The reciprocal deviation of the combine layer's result, as a 1 × 1 array. -/
theorem M2_invstd (V : Valuation τ sig (Elt F)) :
    afterM2 V (Proc.devRef .tc main_v66) = one1 (Terms.invstdT (V (Proc.devRef .tc main_v53))) := by
  unfold afterM2 hostOps2_2 hostOps2_1 hostOps2
  after_results_simp
  rfl

/-- Row 0 of the scale table, as a 1 × 128 array. -/
theorem M2_nw (V : Valuation τ sig (Elt F)) :
    afterM2 V (Proc.devRef .tc main_v63)
      = row1 (Terms.r2T 0 Cert.ReferenceIdeal.Facts₀.slices_S8x128_S1x128_0_0 (V (Proc.devRef .tc main_arg6))) := by
  unfold afterM2 hostOps2_2 hostOps2_1 hostOps2
  after_results_simp
  rfl

/-- Row 0 of the shift table, as a 1 × 128 array. -/
theorem M2_nb (V : Valuation τ sig (Elt F)) :
    afterM2 V (Proc.devRef .tc main_v64)
      = row1 (Terms.r2T 0 Cert.ReferenceIdeal.Facts₀.slices_S8x128_S1x128_0_0 (V (Proc.devRef .tc main_arg7))) := by
  unfold afterM2 hostOps2_2 hostOps2_1 hostOps2
  after_results_simp
  rfl

end Cert.Hand.KChain

end
-- ==== Proof.KChainL0.lean ====
/-
  Layer 0 of the kernel program's run at the ideal instance (the combine region 1 and the normalisation region 2), from the
  boundary after the first projection's region to the boundary after the first normalisation region.

  The stretch before the combine region is read in the base module: it leaves the residual x0 = 0.5 · h0, the halved
  neighbour aggregation of h0 and slab 0 of each stack of weights. Then, as in every layer:
  * the combine region leaves  OUT = c1·agg + c2·(agg·W₁) + c1·x0 + c2·(x0·W₂)  (as the index-by-index function `CMB`);
  * the three stretches before the normalisation region leave the mean and the reciprocal deviation of OUT (1 × 1 arrays)
    and row 0 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchM2

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

theorem layer1 (c1 c2 : EReal)
    (h : W4 m ρ c (Proc.devRef .tc main_v31) = KH0 (argsOf m c))
    (hC : (dat1 (V5 m ρ) c).arrAt 4 cfg1.N
      = CMB c1 c2 (V5 m ρ c (Pipeline.arrRef spec1 0)) (V5 m ρ c (Pipeline.arrRef spec1 1))
          (V5 m ρ c (Pipeline.arrRef spec1 2)) (V5 m ρ c (Pipeline.arrRef spec1 3)))
    (hN : (dat2 (V9 m ρ) c).arrAt 5 cfg2.N
      = NRM (V9 m ρ c (Pipeline.arrRef spec2 0)) (V9 m ρ c (Pipeline.arrRef spec2 1))
          (V9 m ρ c (Pipeline.arrRef spec2 2)) (V9 m ρ c (Pipeline.arrRef spec2 3)) (V9 m ρ c (Pipeline.arrRef spec2 4))) :
    Agree liveAll (W10 m ρ c) (W5 m ρ c) ∧
    W10 m ρ c (Proc.devRef .tc main_v67)
      = NRM
          (CMB c1 c2 (Terms.propT (F := Ideal) (row (argsOf m c)) (col (argsOf m c)) (nrm (argsOf m c)) (KH0 (argsOf m c))) (KX0 (argsOf m c))
            (Terms.w3T (F := Ideal) 0 Cert.ReferenceIdeal.Facts₀.slices_S8x128x128_S1x128x128_0_0_0 (argsOf m c).a4)
            (Terms.w3T (F := Ideal) 0 Cert.ReferenceIdeal.Facts₀.slices_S8x128x128_S1x128x128_0_0_0 (argsOf m c).a5))
          (row128 (Terms.r2T (F := Ideal) 0 Cert.ReferenceIdeal.Facts₀.slices_S8x128_S1x128_0_0 (argsOf m c).a6))
          (row128 (Terms.r2T (F := Ideal) 0 Cert.ReferenceIdeal.Facts₀.slices_S8x128_S1x128_0_0 (argsOf m c).a7))
          (sc11 (Terms.meanT (F := Ideal)
            (CMB c1 c2 (Terms.propT (F := Ideal) (row (argsOf m c)) (col (argsOf m c)) (nrm (argsOf m c)) (KH0 (argsOf m c))) (KX0 (argsOf m c))
              (Terms.w3T (F := Ideal) 0 Cert.ReferenceIdeal.Facts₀.slices_S8x128x128_S1x128x128_0_0_0 (argsOf m c).a4)
              (Terms.w3T (F := Ideal) 0 Cert.ReferenceIdeal.Facts₀.slices_S8x128x128_S1x128x128_0_0_0 (argsOf m c).a5))))
          (sc11 (Terms.invstdT (F := Ideal)
            (CMB c1 c2 (Terms.propT (F := Ideal) (row (argsOf m c)) (col (argsOf m c)) (nrm (argsOf m c)) (KH0 (argsOf m c))) (KX0 (argsOf m c))
              (Terms.w3T (F := Ideal) 0 Cert.ReferenceIdeal.Facts₀.slices_S8x128x128_S1x128x128_0_0_0 (argsOf m c).a4)
              (Terms.w3T (F := Ideal) 0 Cert.ReferenceIdeal.Facts₀.slices_S8x128x128_S1x128x128_0_0_0 (argsOf m c).a5)))) := by
  -- no step writes a live buffer (the combine region reads the residual through an input window and leaves it as found)
  have k6 : Agree liveAll (W6 m ρ c) (W5 m ρ c) :=
    Agree.cons ((W6_arr m ρ c 1).trans (((dat1 (V5 m ρ) c).arrAt_in 1 rfl _).trans (A_eq1 (V5 m ρ) c 1)))
      (fun r hr => W6_of_ne m ρ c r ((by decide : ∀ r ∈ liveRest, ∀ w, Pipeline.arrRef spec1 w ≠ r) r hr))
  have k9 : Agree liveAll (W9 m ρ c) (W6 m ρ c) := fun r hr =>
    M2_keep (F := Ideal) (W6 m ρ c) ((by decide : ∀ r ∈ liveAll, r ∉ writesM2) r hr)
  have k10 : Agree liveAll (W10 m ρ c) (W9 m ρ c) := fun r hr =>
    W10_of_ne m ρ c r ((by decide : ∀ r ∈ liveAll, ∀ w, Pipeline.arrRef spec2 w ≠ r) r hr)
  have L9 : Agree liveAll (W9 m ρ c) (W5 m ρ c) := k9.trans k6
  have L10 : Agree liveAll (W10 m ρ c) (W5 m ρ c) := k10.trans L9
  -- the combine region
  have e_out : W6 m ρ c (Proc.devRef .tc main_v53)
      = CMB c1 c2 (Terms.propT (F := Ideal) (row (argsOf m c)) (col (argsOf m c)) (nrm (argsOf m c)) (KH0 (argsOf m c))) (KX0 (argsOf m c))
        (Terms.w3T (F := Ideal) 0 Cert.ReferenceIdeal.Facts₀.slices_S8x128x128_S1x128x128_0_0_0 (argsOf m c).a4)
        (Terms.w3T (F := Ideal) 0 Cert.ReferenceIdeal.Facts₀.slices_S8x128x128_S1x128x128_0_0_0 (argsOf m c).a5) :=
    (W6_arr m ρ c 4).trans (hC.trans (by
      show CMB c1 c2 (W5 m ρ c (Proc.devRef .tc main_v48)) (W5 m ρ c (Proc.devRef .tc main_v33))
          (W5 m ρ c (Proc.devRef .tc main_v50)) (W5 m ρ c (Proc.devRef .tc main_v52)) = _
      rw [W5_agg m ρ c h, W5_x0 m ρ c h, W5_w1 m ρ c, W5_w2 m ρ c]))
  -- the normalisation region's operands
  have e_val : W9 m ρ c (Proc.devRef .tc main_v53) = _ :=
    (M2_keep (F := Ideal) (W6 m ρ c) (by decide : main_v53 ∉ writesM2)).trans e_out
  have e_mean : W9 m ρ c (Proc.devRef .tc main_v65) = sc11 (Terms.meanT (F := Ideal) _) :=
    (M2_mean (F := Ideal) (W6 m ρ c)).trans (congrArg (fun x => sc11 (Terms.meanT (F := Ideal) x)) e_out)
  have e_inv : W9 m ρ c (Proc.devRef .tc main_v66) = sc11 (Terms.invstdT (F := Ideal) _) :=
    (M2_invstd (F := Ideal) (W6 m ρ c)).trans (congrArg (fun x => sc11 (Terms.invstdT (F := Ideal) x)) e_out)
  have e_nw : W9 m ρ c (Proc.devRef .tc main_v63)
      = row128 (Terms.r2T (F := Ideal) 0 Cert.ReferenceIdeal.Facts₀.slices_S8x128_S1x128_0_0 (argsOf m c).a6) :=
    (M2_nw (F := Ideal) (W6 m ρ c)).trans
      (congrArg (fun x => row128 (Terms.r2T (F := Ideal) 0 Cert.ReferenceIdeal.Facts₀.slices_S8x128_S1x128_0_0 x))
        (arg_of_agree m ρ c k6 (r := main_arg6) (by decide)))
  have e_nb : W9 m ρ c (Proc.devRef .tc main_v64)
      = row128 (Terms.r2T (F := Ideal) 0 Cert.ReferenceIdeal.Facts₀.slices_S8x128_S1x128_0_0 (argsOf m c).a7) :=
    (M2_nb (F := Ideal) (W6 m ρ c)).trans
      (congrArg (fun x => row128 (Terms.r2T (F := Ideal) 0 Cert.ReferenceIdeal.Facts₀.slices_S8x128_S1x128_0_0 x))
        (arg_of_agree m ρ c k6 (r := main_arg7) (by decide)))
  -- the normalisation region
  refine ⟨L10, (W10_arr m ρ c 5).trans (hN.trans ?_)⟩
  show NRM (W9 m ρ c (Proc.devRef .tc main_v53)) (W9 m ρ c (Proc.devRef .tc main_v63))
      (W9 m ρ c (Proc.devRef .tc main_v64)) (W9 m ρ c (Proc.devRef .tc main_v65))
      (W9 m ρ c (Proc.devRef .tc main_v66)) = _
  rw [e_val, e_nw, e_nb, e_mean, e_inv]

end Cert.Hand.KChain

end
-- ==== Proof.KStretchA3.lean ====
/-
  The host operations between a normalisation layer and the next combine layer (here: the ones before combine layer 1),
  read at an ARBITRARY valuation `V` of the buffers they start from. Three results are read later:
  * the halved neighbour aggregation of the previous activations along the edge lists with the edge weights;
  * slab 1 of each of the two stacks of 128 × 128 weights.
  Every buffer that is not one of the 23 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA3 : List (Ref sig .tc) :=
  [main_v68, main_c_16, main_v69, main_v70, main_c_17, main_v71, main_v72, main_v73, main_v74, main_v75, main_v76,
   main_v77, main_cst_18, main_v78, main_v79, main_v80, main_cst_19, main_v81, main_v82, main_v83, main_v84,
   main_v85, main_v86]

/-- Every operation of the stretch writes a listed buffer. -/
theorem A3_writes :
    (hostOps3 (F := F)).Forall fun op => op.writes ⊆ (writesA3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A3_keep (V : Valuation τ sig (Elt F)) {r : Ref sig .tc} (hr : r ∉ writesA3) :
    StableHlo.after (hostOps3 (F := F)) V (Proc.devRef .tc r) = V (Proc.devRef .tc r) :=
  StableHlo.after_of_writes_sub hostOps3 V A3_writes hr

/-- The halved neighbour aggregation of the previous activations. -/
theorem A3_agg (V : Valuation τ sig (Elt F)) :
    StableHlo.after (hostOps3 (F := F)) V (Proc.devRef .tc main_v82)
      = Terms.propT (V (Proc.devRef .tc main_v5)) (V (Proc.devRef .tc main_v6)) (V (Proc.devRef .tc main_v29))
          (V (Proc.devRef .tc main_v67)) := by
  unfold hostOps3
  after_results_simp
  rfl

/-- Slab 1 of the first stack of weights. -/
theorem A3_w1 (V : Valuation τ sig (Elt F)) :
    StableHlo.after (hostOps3 (F := F)) V (Proc.devRef .tc main_v84)
      = Terms.w3T 1 Cert.ReferenceIdeal.Facts₀.slices_S8x128x128_S1x128x128_1_0_0 (V (Proc.devRef .tc main_arg4)) := by
  unfold hostOps3
  after_results
  rfl

/-- Slab 1 of the second stack of weights. -/
theorem A3_w2 (V : Valuation τ sig (Elt F)) :
    StableHlo.after (hostOps3 (F := F)) V (Proc.devRef .tc main_v86)
      = Terms.w3T 1 Cert.ReferenceIdeal.Facts₀.slices_S8x128x128_S1x128x128_1_0_0 (V (Proc.devRef .tc main_arg5)) := by
  unfold hostOps3
  after_results
  rfl

end Cert.Hand.KChain

end
-- ==== Proof.KStretchM4.lean ====
/-
  The three stretches of host operations between a combine layer and its normalisation layer (here: layer 1), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 1 of the scale table and row 1 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM4 (V : Valuation τ sig (Elt F)) : Valuation τ sig (Elt F) :=
  StableHlo.after (hostOps4_2 (F := F)) (StableHlo.after hostOps4_1 (StableHlo.after hostOps4 V))

/-- The result buffers of the three stretches, in order. -/
def writesM4 : List (Ref sig .tc) :=
  [main_cst_20, main_v88, main_cst_21, main_v89, main_c_22, main_call2_call0_cst, main_call2_call0_v0,
   main_call2_call0_v1, main_call2_call0_cst_0, main_call2_call0_v2, main_call2_call0_v3, main_call2_call0_v4,
   main_call2_call0_v5, main_call2_call0_v6, main_call2_call0_v7, main_call2_call0_cst_1, main_call2_call0_v8,
   main_call2_call0_cst_2, main_call2_call0_v9, main_call2_call0_v10, main_call2_call0_cst_3, main_call2_call0_v11,
   main_call2_call0_cst_4, main_call2_call0_call0_v0, main_call2_v0, main_v90, main_cst_23, main_v91, main_cst_24,
   main_v92, main_v93, main_v94, main_v95, main_v96, main_v97, main_v98, main_v99, main_v100]

/-- Every operation of the first stretch writes a listed buffer. -/
theorem M4_writes_a :
    (hostOps4 (F := F)).Forall fun op => op.writes ⊆ (writesM4.map (Proc.devRef (τ := τ) .tc)).toFinset := by
  simp only [hostOps4, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M4_writes_b :
    (hostOps4_1 (F := F)).Forall fun op => op.writes ⊆ (writesM4.map (Proc.devRef (τ := τ) .tc)).toFinset := by
  simp only [hostOps4_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M4_writes_c :
    (hostOps4_2 (F := F)).Forall fun op => op.writes ⊆ (writesM4.map (Proc.devRef (τ := τ) .tc)).toFinset := by
  simp only [hostOps4_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M4_keep (V : Valuation τ sig (Elt F)) {r : Ref sig .tc} (hr : r ∉ writesM4) :
    afterM4 V (Proc.devRef .tc r) = V (Proc.devRef .tc r) :=
  ((StableHlo.after_of_writes_sub hostOps4_2 _ M4_writes_c hr).trans
    (StableHlo.after_of_writes_sub hostOps4_1 _ M4_writes_b hr)).trans
    (StableHlo.after_of_writes_sub hostOps4 V M4_writes_a hr)

/-- The mean of the combine layer's result, as a 1 × 1 array. -/
theorem M4_mean (V : Valuation τ sig (Elt F)) :
    afterM4 V (Proc.devRef .tc main_v99) = one1 (Terms.meanT (V (Proc.devRef .tc main_v87))) := by
  unfold afterM4 hostOps4_2 hostOps4_1 hostOps4
  after_results_simp
  rfl

/-- The reciprocal deviation of the combine layer's result, as a 1 × 1 array. -/
theorem M4_invstd (V : Valuation τ sig (Elt F)) :
    afterM4 V (Proc.devRef .tc main_v100) = one1 (Terms.invstdT (V (Proc.devRef .tc main_v87))) := by
  unfold afterM4 hostOps4_2 hostOps4_1 hostOps4
  after_results_simp
  rfl

/-- Row 1 of the scale table, as a 1 × 128 array. -/
theorem M4_nw (V : Valuation τ sig (Elt F)) :
    afterM4 V (Proc.devRef .tc main_v97)
      = row1 (Terms.r2T 1 Cert.ReferenceIdeal.Facts₀.slices_S8x128_S1x128_1_0 (V (Proc.devRef .tc main_arg6))) := by
  unfold afterM4 hostOps4_2 hostOps4_1 hostOps4
  after_results_simp
  rfl

/-- Row 1 of the shift table, as a 1 × 128 array. -/
theorem M4_nb (V : Valuation τ sig (Elt F)) :
    afterM4 V (Proc.devRef .tc main_v98)
      = row1 (Terms.r2T 1 Cert.ReferenceIdeal.Facts₀.slices_S8x128_S1x128_1_0 (V (Proc.devRef .tc main_arg7))) := by
  unfold afterM4 hostOps4_2 hostOps4_1 hostOps4
  after_results_simp
  rfl

end Cert.Hand.KChain

end
-- ==== Proof.KChainL1.lean ====
/-
  One layer of the kernel program's run at the ideal instance (here: layer 1, the combine region 3 and the normalisation
  region 4), from the boundary after the previous normalisation region to the boundary after this one.

  Given that the live buffers (the arguments, the edge lists, the edge weights, the residual) are at the entry what they were
  before the first combine layer, and that the previous activations are `H`:
  * the stretch before the combine region leaves the halved neighbour aggregation of `H` and slab 1 of each stack of weights;
  * the combine region leaves  OUT = c1·agg + c2·(agg·W₁) + c1·x0 + c2·(x0·W₂)  (as the index-by-index function `CMB`);
  * the three stretches before the normalisation region leave the mean and the reciprocal deviation of OUT (1 × 1 arrays)
    and row 1 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchA3
import proofs.«104804_j42004780155161_1_alg».proof.Proof.KStretchM4

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

set_option maxHeartbeats 1000000 in
theorem layer3 (H X0 : Terms.Act Ideal) (c1 c2 : EReal)
    (hL : Agree liveAll (W10 m ρ c) (W5 m ρ c))
    (hx0 : W5 m ρ c (Proc.devRef .tc main_v33) = X0)
    (hh : W10 m ρ c (Proc.devRef .tc main_v67) = H)
    (hC : (dat3 (V11 m ρ) c).arrAt 4 cfg3.N
      = CMB c1 c2 (V11 m ρ c (Pipeline.arrRef spec3 0)) (V11 m ρ c (Pipeline.arrRef spec3 1))
          (V11 m ρ c (Pipeline.arrRef spec3 2)) (V11 m ρ c (Pipeline.arrRef spec3 3)))
    (hN : (dat4 (V15 m ρ) c).arrAt 5 cfg4.N
      = NRM (V15 m ρ c (Pipeline.arrRef spec4 0)) (V15 m ρ c (Pipeline.arrRef spec4 1))
          (V15 m ρ c (Pipeline.arrRef spec4 2)) (V15 m ρ c (Pipeline.arrRef spec4 3)) (V15 m ρ c (Pipeline.arrRef spec4 4))) :
    Agree liveAll (W16 m ρ c) (W5 m ρ c) ∧
    W16 m ρ c (Proc.devRef .tc main_v101)
      = NRM
          (CMB c1 c2 (Terms.propT (F := Ideal) (row (argsOf m c)) (col (argsOf m c)) (nrm (argsOf m c)) H) X0
            (Terms.w3T (F := Ideal) 1 Cert.ReferenceIdeal.Facts₀.slices_S8x128x128_S1x128x128_1_0_0 (argsOf m c).a4)
            (Terms.w3T (F := Ideal) 1 Cert.ReferenceIdeal.Facts₀.slices_S8x128x128_S1x128x128_1_0_0 (argsOf m c).a5))
          (row128 (Terms.r2T (F := Ideal) 1 Cert.ReferenceIdeal.Facts₀.slices_S8x128_S1x128_1_0 (argsOf m c).a6))
          (row128 (Terms.r2T (F := Ideal) 1 Cert.ReferenceIdeal.Facts₀.slices_S8x128_S1x128_1_0 (argsOf m c).a7))
          (sc11 (Terms.meanT (F := Ideal)
            (CMB c1 c2 (Terms.propT (F := Ideal) (row (argsOf m c)) (col (argsOf m c)) (nrm (argsOf m c)) H) X0
              (Terms.w3T (F := Ideal) 1 Cert.ReferenceIdeal.Facts₀.slices_S8x128x128_S1x128x128_1_0_0 (argsOf m c).a4)
              (Terms.w3T (F := Ideal) 1 Cert.ReferenceIdeal.Facts₀.slices_S8x128x128_S1x128x128_1_0_0 (argsOf m c).a5))))
          (sc11 (Terms.invstdT (F := Ideal)
            (CMB c1 c2 (Terms.propT (F := Ideal) (row (argsOf m c)) (col (argsOf m c)) (nrm (argsOf m c)) H) X0
              (Terms.w3T (F := Ideal) 1 Cert.ReferenceIdeal.Facts₀.slices_S8x128x128_S1x128x128_1_0_0 (argsOf m c).a4)
              (Terms.w3T (F := Ideal) 1 Cert.ReferenceIdeal.Facts₀.slices_S8x128x128_S1x128x128_1_0_0 (argsOf m c).a5)))) := by
  -- no step writes a live buffer (the combine region reads the residual through an input window and leaves it as found)
  have k11 : Agree liveAll (W11 m ρ c) (W10 m ρ c) := Agree.after (hostOps3 (F := Ideal)) (W10 m ρ c) (A3_writes (F := Ideal)) (by decide)
  have k12 : Agree liveAll (W12 m ρ c) (W11 m ρ c) :=
    Agree.cons ((W12_arr m ρ c 1).trans (((dat3 (V11 m ρ) c).arrAt_in 1 rfl _).trans (A_eq3 (V11 m ρ) c 1)))
      (fun r hr => W12_of_ne m ρ c r ((by decide : ∀ r ∈ liveRest, ∀ w, Pipeline.arrRef spec3 w ≠ r) r hr))
  have k15 : Agree liveAll (W15 m ρ c) (W12 m ρ c) := fun r hr =>
    M4_keep (F := Ideal) (W12 m ρ c) ((by decide : ∀ r ∈ liveAll, r ∉ writesM4) r hr)
  have k16 : Agree liveAll (W16 m ρ c) (W15 m ρ c) := fun r hr =>
    W16_of_ne m ρ c r ((by decide : ∀ r ∈ liveAll, ∀ w, Pipeline.arrRef spec4 w ≠ r) r hr)
  have L11 : Agree liveAll (W11 m ρ c) (W5 m ρ c) := k11.trans hL
  have L12 : Agree liveAll (W12 m ρ c) (W5 m ρ c) := k12.trans L11
  have L15 : Agree liveAll (W15 m ρ c) (W5 m ρ c) := k15.trans L12
  have L16 : Agree liveAll (W16 m ρ c) (W5 m ρ c) := k16.trans L15
  -- the combine region's operands
  have e_agg : W11 m ρ c (Proc.devRef .tc main_v82)
      = Terms.propT (F := Ideal) (row (argsOf m c)) (col (argsOf m c)) (nrm (argsOf m c)) H :=
    (A3_agg (F := Ideal) (W10 m ρ c)).trans (by
      rw [hh, hL main_v5 (by decide), hL main_v6 (by decide), hL main_v29 (by decide), W5_row, W5_col, W5_nrm])
  have e_x0 : W11 m ρ c (Proc.devRef .tc main_v33) = X0 := (L11 main_v33 (by decide)).trans hx0
  have e_w1 : W11 m ρ c (Proc.devRef .tc main_v84)
      = Terms.w3T (F := Ideal) 1 Cert.ReferenceIdeal.Facts₀.slices_S8x128x128_S1x128x128_1_0_0 (argsOf m c).a4 :=
    (A3_w1 (F := Ideal) (W10 m ρ c)).trans
      (congrArg (Terms.w3T (F := Ideal) 1 Cert.ReferenceIdeal.Facts₀.slices_S8x128x128_S1x128x128_1_0_0)
        (arg_of_agree m ρ c hL (r := main_arg4) (by decide)))
  have e_w2 : W11 m ρ c (Proc.devRef .tc main_v86)
      = Terms.w3T (F := Ideal) 1 Cert.ReferenceIdeal.Facts₀.slices_S8x128x128_S1x128x128_1_0_0 (argsOf m c).a5 :=
    (A3_w2 (F := Ideal) (W10 m ρ c)).trans
      (congrArg (Terms.w3T (F := Ideal) 1 Cert.ReferenceIdeal.Facts₀.slices_S8x128x128_S1x128x128_1_0_0)
        (arg_of_agree m ρ c hL (r := main_arg5) (by decide)))
  -- the combine region
  have e_out : W12 m ρ c (Proc.devRef .tc main_v87)
      = CMB c1 c2 (Terms.propT (F := Ideal) (row (argsOf m c)) (col (argsOf m c)) (nrm (argsOf m c)) H) X0
          (Terms.w3T (F := Ideal) 1 Cert.ReferenceIdeal.Facts₀.slices_S8x128x128_S1x128x128_1_0_0 (argsOf m c).a4)
          (Terms.w3T (F := Ideal) 1 Cert.ReferenceIdeal.Facts₀.slices_S8x128x128_S1x128x128_1_0_0 (argsOf m c).a5) :=
    (W12_arr m ρ c 4).trans (hC.trans (by
      show CMB c1 c2 (W11 m ρ c (Proc.devRef .tc main_v82)) (W11 m ρ c (Proc.devRef .tc main_v33))
          (W11 m ρ c (Proc.devRef .tc main_v84)) (W11 m ρ c (Proc.devRef .tc main_v86)) = _
      rw [e_agg, e_x0, e_w1, e_w2]))
  -- the normalisation region's operands
  have e_val : W15 m ρ c (Proc.devRef .tc main_v87) = _ :=
    (M4_keep (F := Ideal) (W12 m ρ c) (by decide : main_v87 ∉ writesM4)).trans e_out
  have e_mean : W15 m ρ c (Proc.devRef .tc main_v99) = sc11 (Terms.meanT (F := Ideal) _) :=
    (M4_mean (F := Ideal) (W12 m ρ c)).trans (congrArg (fun x => sc11 (Terms.meanT (F := Ideal) x)) e_out)
  have e_inv : W15 m ρ c (Proc.devRef .tc main_v100) = sc11 (Terms.invstdT (F := Ideal) _) :=
    (M4_invstd (F := Ideal) (W12 m ρ c)).trans (congrArg (fun x => sc11 (Terms.invstdT (F := Ideal) x)) e_out)
  have e_nw : W15 m ρ c (Proc.devRef .tc main_v97)
      = row128 (Terms.r2T (F := Ideal) 1 Cert.ReferenceIdeal.Facts₀.slices_S8x128_S1x128_1_0 (argsOf m c).a6) :=
    (M4_nw (F := Ideal) (W12 m ρ c)).trans
      (congrArg (fun x => row128 (Terms.r2T (F := Ideal) 1 Cert.ReferenceIdeal.Facts₀.slices_S8x128_S1x128_1_0 x))
        (arg_of_agree m ρ c L12 (r := main_arg6) (by decide)))
  have e_nb : W15 m ρ c (Proc.devRef .tc main_v98)
      = row128 (Terms.r2T (F := Ideal) 1 Cert.ReferenceIdeal.Facts₀.slices_S8x128_S1x128_1_0 (argsOf m c).a7) :=
    (M4_nb (F := Ideal) (W12 m ρ c)).trans
      (congrArg (fun x => row128 (Terms.r2T (F := Ideal) 1 Cert.ReferenceIdeal.Facts₀.slices_S8x128_S1x128_1_0 x))
        (arg_of_agree m ρ c L12 (r := main_arg7) (by decide)))
  -- the normalisation region
  refine ⟨L16, (W16_arr m ρ c 5).trans (hN.trans ?_)⟩
  show NRM (W15 m ρ c (Proc.devRef .tc main_v87)) (W15 m ρ c (Proc.devRef .tc main_v97))
      (W15 m ρ c (Proc.devRef .tc main_v98)) (W15 m ρ c (Proc.devRef .tc main_v99))
      (W15 m ρ c (Proc.devRef .tc main_v100)) = _
  rw [e_val, e_nw, e_nb, e_mean, e_inv]

end Cert.Hand.KChain

end
-- ==== Proof.KStretchA5.lean ====
/-
  The host operations between a normalisation layer and the next combine layer (here: the ones before combine layer 2),
  read at an ARBITRARY valuation `V` of the buffers they start from. Three results are read later:
  * the halved neighbour aggregation of the previous activations along the edge lists with the edge weights;
  * slab 2 of each of the two stacks of 128 × 128 weights.
  Every buffer that is not one of the 23 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA5 : List (Ref sig .tc) :=
  [main_v102, main_c_25, main_v103, main_v104, main_c_26, main_v105, main_v106, main_v107, main_v108, main_v109, main_v110,
   main_v111, main_cst_27, main_v112, main_v113, main_v114, main_cst_28, main_v115, main_v116, main_v117, main_v118,
   main_v119, main_v120]

/-- Every operation of the stretch writes a listed buffer. -/
theorem A5_writes :
    (hostOps5 (F := F)).Forall fun op => op.writes ⊆ (writesA5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A5_keep (V : Valuation τ sig (Elt F)) {r : Ref sig .tc} (hr : r ∉ writesA5) :
    StableHlo.after (hostOps5 (F := F)) V (Proc.devRef .tc r) = V (Proc.devRef .tc r) :=
  StableHlo.after_of_writes_sub hostOps5 V A5_writes hr

/-- The halved neighbour aggregation of the previous activations. -/
theorem A5_agg (V : Valuation τ sig (Elt F)) :
    StableHlo.after (hostOps5 (F := F)) V (Proc.devRef .tc main_v116)
      = Terms.propT (V (Proc.devRef .tc main_v5)) (V (Proc.devRef .tc main_v6)) (V (Proc.devRef .tc main_v29))
          (V (Proc.devRef .tc main_v101)) := by
  unfold hostOps5
  after_results_simp
  rfl

/-- Slab 2 of the first stack of weights. -/
theorem A5_w1 (V : Valuation τ sig (Elt F)) :
    StableHlo.after (hostOps5 (F := F)) V (Proc.devRef .tc main_v118)
      = Terms.w3T 2 Cert.ReferenceIdeal.Facts₀.slices_S8x128x128_S1x128x128_2_0_0 (V (Proc.devRef .tc main_arg4)) := by
  unfold hostOps5
  after_results
  rfl

/-- Slab 2 of the second stack of weights. -/
theorem A5_w2 (V : Valuation τ sig (Elt F)) :
    StableHlo.after (hostOps5 (F := F)) V (Proc.devRef .tc main_v120)
      = Terms.w3T 2 Cert.ReferenceIdeal.Facts₀.slices_S8x128x128_S1x128x128_2_0_0 (V (Proc.devRef .tc main_arg5)) := by
  unfold hostOps5
  after_results
  rfl

end Cert.Hand.KChain

end
-- ==== Proof.KStretchM6.lean ====
/-
  The three stretches of host operations between a combine layer and its normalisation layer (here: layer 2), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 2 of the scale table and row 2 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM6 (V : Valuation τ sig (Elt F)) : Valuation τ sig (Elt F) :=
  StableHlo.after (hostOps6_2 (F := F)) (StableHlo.after hostOps6_1 (StableHlo.after hostOps6 V))

/-- The result buffers of the three stretches, in order. -/
def writesM6 : List (Ref sig .tc) :=
  [main_cst_29, main_v122, main_cst_30, main_v123, main_c_31, main_call3_call0_cst, main_call3_call0_v0,
   main_call3_call0_v1, main_call3_call0_cst_0, main_call3_call0_v2, main_call3_call0_v3, main_call3_call0_v4,
   main_call3_call0_v5, main_call3_call0_v6, main_call3_call0_v7, main_call3_call0_cst_1, main_call3_call0_v8,
   main_call3_call0_cst_2, main_call3_call0_v9, main_call3_call0_v10, main_call3_call0_cst_3, main_call3_call0_v11,
   main_call3_call0_cst_4, main_call3_call0_call0_v0, main_call3_v0, main_v124, main_cst_32, main_v125, main_cst_33,
   main_v126, main_v127, main_v128, main_v129, main_v130, main_v131, main_v132, main_v133, main_v134]

/-- Every operation of the first stretch writes a listed buffer. -/
theorem M6_writes_a :
    (hostOps6 (F := F)).Forall fun op => op.writes ⊆ (writesM6.map (Proc.devRef (τ := τ) .tc)).toFinset := by
  simp only [hostOps6, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M6_writes_b :
    (hostOps6_1 (F := F)).Forall fun op => op.writes ⊆ (writesM6.map (Proc.devRef (τ := τ) .tc)).toFinset := by
  simp only [hostOps6_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M6_writes_c :
    (hostOps6_2 (F := F)).Forall fun op => op.writes ⊆ (writesM6.map (Proc.devRef (τ := τ) .tc)).toFinset := by
  simp only [hostOps6_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M6_keep (V : Valuation τ sig (Elt F)) {r : Ref sig .tc} (hr : r ∉ writesM6) :
    afterM6 V (Proc.devRef .tc r) = V (Proc.devRef .tc r) :=
  ((StableHlo.after_of_writes_sub hostOps6_2 _ M6_writes_c hr).trans
    (StableHlo.after_of_writes_sub hostOps6_1 _ M6_writes_b hr)).trans
    (StableHlo.after_of_writes_sub hostOps6 V M6_writes_a hr)

/-- The mean of the combine layer's result, as a 1 × 1 array. -/
theorem M6_mean (V : Valuation τ sig (Elt F)) :
    afterM6 V (Proc.devRef .tc main_v133) = one1 (Terms.meanT (V (Proc.devRef .tc main_v121))) := by
  unfold afterM6 hostOps6_2 hostOps6_1 hostOps6
  after_results_simp
  rfl

/-- The reciprocal deviation of the combine layer's result, as a 1 × 1 array. -/
theorem M6_invstd (V : Valuation τ sig (Elt F)) :
    afterM6 V (Proc.devRef .tc main_v134) = one1 (Terms.invstdT (V (Proc.devRef .tc main_v121))) := by
  unfold afterM6 hostOps6_2 hostOps6_1 hostOps6
  after_results_simp
  rfl

/-- Row 2 of the scale table, as a 1 × 128 array. -/
theorem M6_nw (V : Valuation τ sig (Elt F)) :
    afterM6 V (Proc.devRef .tc main_v131)
      = row1 (Terms.r2T 2 Cert.ReferenceIdeal.Facts₀.slices_S8x128_S1x128_2_0 (V (Proc.devRef .tc main_arg6))) := by
  unfold afterM6 hostOps6_2 hostOps6_1 hostOps6
  after_results_simp
  rfl

/-- Row 2 of the shift table, as a 1 × 128 array. -/
theorem M6_nb (V : Valuation τ sig (Elt F)) :
    afterM6 V (Proc.devRef .tc main_v132)
      = row1 (Terms.r2T 2 Cert.ReferenceIdeal.Facts₀.slices_S8x128_S1x128_2_0 (V (Proc.devRef .tc main_arg7))) := by
  unfold afterM6 hostOps6_2 hostOps6_1 hostOps6
  after_results_simp
  rfl

end Cert.Hand.KChain

end
-- ==== Proof.KChainL2.lean ====
/-
  One layer of the kernel program's run at the ideal instance (here: layer 2, the combine region 5 and the normalisation
  region 6), from the boundary after the previous normalisation region to the boundary after this one.

  Given that the live buffers (the arguments, the edge lists, the edge weights, the residual) are at the entry what they were
  before the first combine layer, and that the previous activations are `H`:
  * the stretch before the combine region leaves the halved neighbour aggregation of `H` and slab 2 of each stack of weights;
  * the combine region leaves  OUT = c1·agg + c2·(agg·W₁) + c1·x0 + c2·(x0·W₂)  (as the index-by-index function `CMB`);
  * the three stretches before the normalisation region leave the mean and the reciprocal deviation of OUT (1 × 1 arrays)
    and row 2 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchA5
import proofs.«104804_j42004780155161_1_alg».proof.Proof.KStretchM6

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

set_option maxHeartbeats 1000000 in
theorem layer5 (H X0 : Terms.Act Ideal) (c1 c2 : EReal)
    (hL : Agree liveAll (W16 m ρ c) (W5 m ρ c))
    (hx0 : W5 m ρ c (Proc.devRef .tc main_v33) = X0)
    (hh : W16 m ρ c (Proc.devRef .tc main_v101) = H)
    (hC : (dat5 (V17 m ρ) c).arrAt 4 cfg5.N
      = CMB c1 c2 (V17 m ρ c (Pipeline.arrRef spec5 0)) (V17 m ρ c (Pipeline.arrRef spec5 1))
          (V17 m ρ c (Pipeline.arrRef spec5 2)) (V17 m ρ c (Pipeline.arrRef spec5 3)))
    (hN : (dat6 (V21 m ρ) c).arrAt 5 cfg6.N
      = NRM (V21 m ρ c (Pipeline.arrRef spec6 0)) (V21 m ρ c (Pipeline.arrRef spec6 1))
          (V21 m ρ c (Pipeline.arrRef spec6 2)) (V21 m ρ c (Pipeline.arrRef spec6 3)) (V21 m ρ c (Pipeline.arrRef spec6 4))) :
    Agree liveAll (W22 m ρ c) (W5 m ρ c) ∧
    W22 m ρ c (Proc.devRef .tc main_v135)
      = NRM
          (CMB c1 c2 (Terms.propT (F := Ideal) (row (argsOf m c)) (col (argsOf m c)) (nrm (argsOf m c)) H) X0
            (Terms.w3T (F := Ideal) 2 Cert.ReferenceIdeal.Facts₀.slices_S8x128x128_S1x128x128_2_0_0 (argsOf m c).a4)
            (Terms.w3T (F := Ideal) 2 Cert.ReferenceIdeal.Facts₀.slices_S8x128x128_S1x128x128_2_0_0 (argsOf m c).a5))
          (row128 (Terms.r2T (F := Ideal) 2 Cert.ReferenceIdeal.Facts₀.slices_S8x128_S1x128_2_0 (argsOf m c).a6))
          (row128 (Terms.r2T (F := Ideal) 2 Cert.ReferenceIdeal.Facts₀.slices_S8x128_S1x128_2_0 (argsOf m c).a7))
          (sc11 (Terms.meanT (F := Ideal)
            (CMB c1 c2 (Terms.propT (F := Ideal) (row (argsOf m c)) (col (argsOf m c)) (nrm (argsOf m c)) H) X0
              (Terms.w3T (F := Ideal) 2 Cert.ReferenceIdeal.Facts₀.slices_S8x128x128_S1x128x128_2_0_0 (argsOf m c).a4)
              (Terms.w3T (F := Ideal) 2 Cert.ReferenceIdeal.Facts₀.slices_S8x128x128_S1x128x128_2_0_0 (argsOf m c).a5))))
          (sc11 (Terms.invstdT (F := Ideal)
            (CMB c1 c2 (Terms.propT (F := Ideal) (row (argsOf m c)) (col (argsOf m c)) (nrm (argsOf m c)) H) X0
              (Terms.w3T (F := Ideal) 2 Cert.ReferenceIdeal.Facts₀.slices_S8x128x128_S1x128x128_2_0_0 (argsOf m c).a4)
              (Terms.w3T (F := Ideal) 2 Cert.ReferenceIdeal.Facts₀.slices_S8x128x128_S1x128x128_2_0_0 (argsOf m c).a5)))) := by
  -- no step writes a live buffer (the combine region reads the residual through an input window and leaves it as found)
  have k17 : Agree liveAll (W17 m ρ c) (W16 m ρ c) := Agree.after (hostOps5 (F := Ideal)) (W16 m ρ c) (A5_writes (F := Ideal)) (by decide)
  have k18 : Agree liveAll (W18 m ρ c) (W17 m ρ c) :=
    Agree.cons ((W18_arr m ρ c 1).trans (((dat5 (V17 m ρ) c).arrAt_in 1 rfl _).trans (A_eq5 (V17 m ρ) c 1)))
      (fun r hr => W18_of_ne m ρ c r ((by decide : ∀ r ∈ liveRest, ∀ w, Pipeline.arrRef spec5 w ≠ r) r hr))
  have k21 : Agree liveAll (W21 m ρ c) (W18 m ρ c) := fun r hr =>
    M6_keep (F := Ideal) (W18 m ρ c) ((by decide : ∀ r ∈ liveAll, r ∉ writesM6) r hr)
  have k22 : Agree liveAll (W22 m ρ c) (W21 m ρ c) := fun r hr =>
    W22_of_ne m ρ c r ((by decide : ∀ r ∈ liveAll, ∀ w, Pipeline.arrRef spec6 w ≠ r) r hr)
  have L17 : Agree liveAll (W17 m ρ c) (W5 m ρ c) := k17.trans hL
  have L18 : Agree liveAll (W18 m ρ c) (W5 m ρ c) := k18.trans L17
  have L21 : Agree liveAll (W21 m ρ c) (W5 m ρ c) := k21.trans L18
  have L22 : Agree liveAll (W22 m ρ c) (W5 m ρ c) := k22.trans L21
  -- the combine region's operands
  have e_agg : W17 m ρ c (Proc.devRef .tc main_v116)
      = Terms.propT (F := Ideal) (row (argsOf m c)) (col (argsOf m c)) (nrm (argsOf m c)) H :=
    (A5_agg (F := Ideal) (W16 m ρ c)).trans (by
      rw [hh, hL main_v5 (by decide), hL main_v6 (by decide), hL main_v29 (by decide), W5_row, W5_col, W5_nrm])
  have e_x0 : W17 m ρ c (Proc.devRef .tc main_v33) = X0 := (L17 main_v33 (by decide)).trans hx0
  have e_w1 : W17 m ρ c (Proc.devRef .tc main_v118)
      = Terms.w3T (F := Ideal) 2 Cert.ReferenceIdeal.Facts₀.slices_S8x128x128_S1x128x128_2_0_0 (argsOf m c).a4 :=
    (A5_w1 (F := Ideal) (W16 m ρ c)).trans
      (congrArg (Terms.w3T (F := Ideal) 2 Cert.ReferenceIdeal.Facts₀.slices_S8x128x128_S1x128x128_2_0_0)
        (arg_of_agree m ρ c hL (r := main_arg4) (by decide)))
  have e_w2 : W17 m ρ c (Proc.devRef .tc main_v120)
      = Terms.w3T (F := Ideal) 2 Cert.ReferenceIdeal.Facts₀.slices_S8x128x128_S1x128x128_2_0_0 (argsOf m c).a5 :=
    (A5_w2 (F := Ideal) (W16 m ρ c)).trans
      (congrArg (Terms.w3T (F := Ideal) 2 Cert.ReferenceIdeal.Facts₀.slices_S8x128x128_S1x128x128_2_0_0)
        (arg_of_agree m ρ c hL (r := main_arg5) (by decide)))
  -- the combine region
  have e_out : W18 m ρ c (Proc.devRef .tc main_v121)
      = CMB c1 c2 (Terms.propT (F := Ideal) (row (argsOf m c)) (col (argsOf m c)) (nrm (argsOf m c)) H) X0
          (Terms.w3T (F := Ideal) 2 Cert.ReferenceIdeal.Facts₀.slices_S8x128x128_S1x128x128_2_0_0 (argsOf m c).a4)
          (Terms.w3T (F := Ideal) 2 Cert.ReferenceIdeal.Facts₀.slices_S8x128x128_S1x128x128_2_0_0 (argsOf m c).a5) :=
    (W18_arr m ρ c 4).trans (hC.trans (by
      show CMB c1 c2 (W17 m ρ c (Proc.devRef .tc main_v116)) (W17 m ρ c (Proc.devRef .tc main_v33))
          (W17 m ρ c (Proc.devRef .tc main_v118)) (W17 m ρ c (Proc.devRef .tc main_v120)) = _
      rw [e_agg, e_x0, e_w1, e_w2]))
  -- the normalisation region's operands
  have e_val : W21 m ρ c (Proc.devRef .tc main_v121) = _ :=
    (M6_keep (F := Ideal) (W18 m ρ c) (by decide : main_v121 ∉ writesM6)).trans e_out
  have e_mean : W21 m ρ c (Proc.devRef .tc main_v133) = sc11 (Terms.meanT (F := Ideal) _) :=
    (M6_mean (F := Ideal) (W18 m ρ c)).trans (congrArg (fun x => sc11 (Terms.meanT (F := Ideal) x)) e_out)
  have e_inv : W21 m ρ c (Proc.devRef .tc main_v134) = sc11 (Terms.invstdT (F := Ideal) _) :=
    (M6_invstd (F := Ideal) (W18 m ρ c)).trans (congrArg (fun x => sc11 (Terms.invstdT (F := Ideal) x)) e_out)
  have e_nw : W21 m ρ c (Proc.devRef .tc main_v131)
      = row128 (Terms.r2T (F := Ideal) 2 Cert.ReferenceIdeal.Facts₀.slices_S8x128_S1x128_2_0 (argsOf m c).a6) :=
    (M6_nw (F := Ideal) (W18 m ρ c)).trans
      (congrArg (fun x => row128 (Terms.r2T (F := Ideal) 2 Cert.ReferenceIdeal.Facts₀.slices_S8x128_S1x128_2_0 x))
        (arg_of_agree m ρ c L18 (r := main_arg6) (by decide)))
  have e_nb : W21 m ρ c (Proc.devRef .tc main_v132)
      = row128 (Terms.r2T (F := Ideal) 2 Cert.ReferenceIdeal.Facts₀.slices_S8x128_S1x128_2_0 (argsOf m c).a7) :=
    (M6_nb (F := Ideal) (W18 m ρ c)).trans
      (congrArg (fun x => row128 (Terms.r2T (F := Ideal) 2 Cert.ReferenceIdeal.Facts₀.slices_S8x128_S1x128_2_0 x))
        (arg_of_agree m ρ c L18 (r := main_arg7) (by decide)))
  -- the normalisation region
  refine ⟨L22, (W22_arr m ρ c 5).trans (hN.trans ?_)⟩
  show NRM (W21 m ρ c (Proc.devRef .tc main_v121)) (W21 m ρ c (Proc.devRef .tc main_v131))
      (W21 m ρ c (Proc.devRef .tc main_v132)) (W21 m ρ c (Proc.devRef .tc main_v133))
      (W21 m ρ c (Proc.devRef .tc main_v134)) = _
  rw [e_val, e_nw, e_nb, e_mean, e_inv]

end Cert.Hand.KChain

end
-- ==== Proof.KStretchA7.lean ====
/-
  The host operations between a normalisation layer and the next combine layer (here: the ones before combine layer 3),
  read at an ARBITRARY valuation `V` of the buffers they start from. Three results are read later:
  * the halved neighbour aggregation of the previous activations along the edge lists with the edge weights;
  * slab 3 of each of the two stacks of 128 × 128 weights.
  Every buffer that is not one of the 23 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA7 : List (Ref sig .tc) :=
  [main_v136, main_c_34, main_v137, main_v138, main_c_35, main_v139, main_v140, main_v141, main_v142, main_v143, main_v144,
   main_v145, main_cst_36, main_v146, main_v147, main_v148, main_cst_37, main_v149, main_v150, main_v151, main_v152,
   main_v153, main_v154]

/-- Every operation of the stretch writes a listed buffer. -/
theorem A7_writes :
    (hostOps7 (F := F)).Forall fun op => op.writes ⊆ (writesA7.map (Proc.devRef (τ := τ) .tc)).toFinset := by
  simp only [hostOps7, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A7_keep (V : Valuation τ sig (Elt F)) {r : Ref sig .tc} (hr : r ∉ writesA7) :
    StableHlo.after (hostOps7 (F := F)) V (Proc.devRef .tc r) = V (Proc.devRef .tc r) :=
  StableHlo.after_of_writes_sub hostOps7 V A7_writes hr

/-- The halved neighbour aggregation of the previous activations. -/
theorem A7_agg (V : Valuation τ sig (Elt F)) :
    StableHlo.after (hostOps7 (F := F)) V (Proc.devRef .tc main_v150)
      = Terms.propT (V (Proc.devRef .tc main_v5)) (V (Proc.devRef .tc main_v6)) (V (Proc.devRef .tc main_v29))
          (V (Proc.devRef .tc main_v135)) := by
  unfold hostOps7
  after_results_simp
  rfl

/-- Slab 3 of the first stack of weights. -/
theorem A7_w1 (V : Valuation τ sig (Elt F)) :
    StableHlo.after (hostOps7 (F := F)) V (Proc.devRef .tc main_v152)
      = Terms.w3T 3 Cert.ReferenceIdeal.Facts₀.slices_S8x128x128_S1x128x128_3_0_0 (V (Proc.devRef .tc main_arg4)) := by
  unfold hostOps7
  after_results
  rfl

/-- Slab 3 of the second stack of weights. -/
theorem A7_w2 (V : Valuation τ sig (Elt F)) :
    StableHlo.after (hostOps7 (F := F)) V (Proc.devRef .tc main_v154)
      = Terms.w3T 3 Cert.ReferenceIdeal.Facts₀.slices_S8x128x128_S1x128x128_3_0_0 (V (Proc.devRef .tc main_arg5)) := by
  unfold hostOps7
  after_results
  rfl

end Cert.Hand.KChain

end
-- ==== Proof.KStretchM8.lean ====
/-
  The three stretches of host operations between a combine layer and its normalisation layer (here: layer 3), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 3 of the scale table and row 3 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM8 (V : Valuation τ sig (Elt F)) : Valuation τ sig (Elt F) :=
  StableHlo.after (hostOps8_2 (F := F)) (StableHlo.after hostOps8_1 (StableHlo.after hostOps8 V))

/-- The result buffers of the three stretches, in order. -/
def writesM8 : List (Ref sig .tc) :=
  [main_cst_38, main_v156, main_cst_39, main_v157, main_c_40, main_call4_call0_cst, main_call4_call0_v0,
   main_call4_call0_v1, main_call4_call0_cst_0, main_call4_call0_v2, main_call4_call0_v3, main_call4_call0_v4,
   main_call4_call0_v5, main_call4_call0_v6, main_call4_call0_v7, main_call4_call0_cst_1, main_call4_call0_v8,
   main_call4_call0_cst_2, main_call4_call0_v9, main_call4_call0_v10, main_call4_call0_cst_3, main_call4_call0_v11,
   main_call4_call0_cst_4, main_call4_call0_call0_v0, main_call4_v0, main_v158, main_cst_41, main_v159, main_cst_42,
   main_v160, main_v161, main_v162, main_v163, main_v164, main_v165, main_v166, main_v167, main_v168]

/-- Every operation of the first stretch writes a listed buffer. -/
theorem M8_writes_a :
    (hostOps8 (F := F)).Forall fun op => op.writes ⊆ (writesM8.map (Proc.devRef (τ := τ) .tc)).toFinset := by
  simp only [hostOps8, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M8_writes_b :
    (hostOps8_1 (F := F)).Forall fun op => op.writes ⊆ (writesM8.map (Proc.devRef (τ := τ) .tc)).toFinset := by
  simp only [hostOps8_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M8_writes_c :
    (hostOps8_2 (F := F)).Forall fun op => op.writes ⊆ (writesM8.map (Proc.devRef (τ := τ) .tc)).toFinset := by
  simp only [hostOps8_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M8_keep (V : Valuation τ sig (Elt F)) {r : Ref sig .tc} (hr : r ∉ writesM8) :
    afterM8 V (Proc.devRef .tc r) = V (Proc.devRef .tc r) :=
  ((StableHlo.after_of_writes_sub hostOps8_2 _ M8_writes_c hr).trans
    (StableHlo.after_of_writes_sub hostOps8_1 _ M8_writes_b hr)).trans
    (StableHlo.after_of_writes_sub hostOps8 V M8_writes_a hr)

/-- The mean of the combine layer's result, as a 1 × 1 array. -/
theorem M8_mean (V : Valuation τ sig (Elt F)) :
    afterM8 V (Proc.devRef .tc main_v167) = one1 (Terms.meanT (V (Proc.devRef .tc main_v155))) := by
  unfold afterM8 hostOps8_2 hostOps8_1 hostOps8
  after_results_simp
  rfl

/-- The reciprocal deviation of the combine layer's result, as a 1 × 1 array. -/
theorem M8_invstd (V : Valuation τ sig (Elt F)) :
    afterM8 V (Proc.devRef .tc main_v168) = one1 (Terms.invstdT (V (Proc.devRef .tc main_v155))) := by
  unfold afterM8 hostOps8_2 hostOps8_1 hostOps8
  after_results_simp
  rfl

/-- Row 3 of the scale table, as a 1 × 128 array. -/
theorem M8_nw (V : Valuation τ sig (Elt F)) :
    afterM8 V (Proc.devRef .tc main_v165)
      = row1 (Terms.r2T 3 Cert.ReferenceIdeal.Facts₀.slices_S8x128_S1x128_3_0 (V (Proc.devRef .tc main_arg6))) := by
  unfold afterM8 hostOps8_2 hostOps8_1 hostOps8
  after_results_simp
  rfl

/-- Row 3 of the shift table, as a 1 × 128 array. -/
theorem M8_nb (V : Valuation τ sig (Elt F)) :
    afterM8 V (Proc.devRef .tc main_v166)
      = row1 (Terms.r2T 3 Cert.ReferenceIdeal.Facts₀.slices_S8x128_S1x128_3_0 (V (Proc.devRef .tc main_arg7))) := by
  unfold afterM8 hostOps8_2 hostOps8_1 hostOps8
  after_results_simp
  rfl

end Cert.Hand.KChain

end
-- ==== Proof.KChainL3.lean ====
/-
  One layer of the kernel program's run at the ideal instance (here: layer 3, the combine region 7 and the normalisation
  region 8), from the boundary after the previous normalisation region to the boundary after this one.

  Given that the live buffers (the arguments, the edge lists, the edge weights, the residual) are at the entry what they were
  before the first combine layer, and that the previous activations are `H`:
  * the stretch before the combine region leaves the halved neighbour aggregation of `H` and slab 3 of each stack of weights;
  * the combine region leaves  OUT = c1·agg + c2·(agg·W₁) + c1·x0 + c2·(x0·W₂)  (as the index-by-index function `CMB`);
  * the three stretches before the normalisation region leave the mean and the reciprocal deviation of OUT (1 × 1 arrays)
    and row 3 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchA7
import proofs.«104804_j42004780155161_1_alg».proof.Proof.KStretchM8

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

set_option maxHeartbeats 1000000 in
theorem layer7 (H X0 : Terms.Act Ideal) (c1 c2 : EReal)
    (hL : Agree liveAll (W22 m ρ c) (W5 m ρ c))
    (hx0 : W5 m ρ c (Proc.devRef .tc main_v33) = X0)
    (hh : W22 m ρ c (Proc.devRef .tc main_v135) = H)
    (hC : (dat7 (V23 m ρ) c).arrAt 4 cfg7.N
      = CMB c1 c2 (V23 m ρ c (Pipeline.arrRef spec7 0)) (V23 m ρ c (Pipeline.arrRef spec7 1))
          (V23 m ρ c (Pipeline.arrRef spec7 2)) (V23 m ρ c (Pipeline.arrRef spec7 3)))
    (hN : (dat8 (V27 m ρ) c).arrAt 5 cfg8.N
      = NRM (V27 m ρ c (Pipeline.arrRef spec8 0)) (V27 m ρ c (Pipeline.arrRef spec8 1))
          (V27 m ρ c (Pipeline.arrRef spec8 2)) (V27 m ρ c (Pipeline.arrRef spec8 3)) (V27 m ρ c (Pipeline.arrRef spec8 4))) :
    Agree liveAll (W28 m ρ c) (W5 m ρ c) ∧
    W28 m ρ c (Proc.devRef .tc main_v169)
      = NRM
          (CMB c1 c2 (Terms.propT (F := Ideal) (row (argsOf m c)) (col (argsOf m c)) (nrm (argsOf m c)) H) X0
            (Terms.w3T (F := Ideal) 3 Cert.ReferenceIdeal.Facts₀.slices_S8x128x128_S1x128x128_3_0_0 (argsOf m c).a4)
            (Terms.w3T (F := Ideal) 3 Cert.ReferenceIdeal.Facts₀.slices_S8x128x128_S1x128x128_3_0_0 (argsOf m c).a5))
          (row128 (Terms.r2T (F := Ideal) 3 Cert.ReferenceIdeal.Facts₀.slices_S8x128_S1x128_3_0 (argsOf m c).a6))
          (row128 (Terms.r2T (F := Ideal) 3 Cert.ReferenceIdeal.Facts₀.slices_S8x128_S1x128_3_0 (argsOf m c).a7))
          (sc11 (Terms.meanT (F := Ideal)
            (CMB c1 c2 (Terms.propT (F := Ideal) (row (argsOf m c)) (col (argsOf m c)) (nrm (argsOf m c)) H) X0
              (Terms.w3T (F := Ideal) 3 Cert.ReferenceIdeal.Facts₀.slices_S8x128x128_S1x128x128_3_0_0 (argsOf m c).a4)
              (Terms.w3T (F := Ideal) 3 Cert.ReferenceIdeal.Facts₀.slices_S8x128x128_S1x128x128_3_0_0 (argsOf m c).a5))))
          (sc11 (Terms.invstdT (F := Ideal)
            (CMB c1 c2 (Terms.propT (F := Ideal) (row (argsOf m c)) (col (argsOf m c)) (nrm (argsOf m c)) H) X0
              (Terms.w3T (F := Ideal) 3 Cert.ReferenceIdeal.Facts₀.slices_S8x128x128_S1x128x128_3_0_0 (argsOf m c).a4)
              (Terms.w3T (F := Ideal) 3 Cert.ReferenceIdeal.Facts₀.slices_S8x128x128_S1x128x128_3_0_0 (argsOf m c).a5)))) := by
  -- no step writes a live buffer (the combine region reads the residual through an input window and leaves it as found)
  have k23 : Agree liveAll (W23 m ρ c) (W22 m ρ c) := Agree.after (hostOps7 (F := Ideal)) (W22 m ρ c) (A7_writes (F := Ideal)) (by decide)
  have k24 : Agree liveAll (W24 m ρ c) (W23 m ρ c) :=
    Agree.cons ((W24_arr m ρ c 1).trans (((dat7 (V23 m ρ) c).arrAt_in 1 rfl _).trans (A_eq7 (V23 m ρ) c 1)))
      (fun r hr => W24_of_ne m ρ c r ((by decide : ∀ r ∈ liveRest, ∀ w, Pipeline.arrRef spec7 w ≠ r) r hr))
  have k27 : Agree liveAll (W27 m ρ c) (W24 m ρ c) := fun r hr =>
    M8_keep (F := Ideal) (W24 m ρ c) ((by decide : ∀ r ∈ liveAll, r ∉ writesM8) r hr)
  have k28 : Agree liveAll (W28 m ρ c) (W27 m ρ c) := fun r hr =>
    W28_of_ne m ρ c r ((by decide : ∀ r ∈ liveAll, ∀ w, Pipeline.arrRef spec8 w ≠ r) r hr)
  have L23 : Agree liveAll (W23 m ρ c) (W5 m ρ c) := k23.trans hL
  have L24 : Agree liveAll (W24 m ρ c) (W5 m ρ c) := k24.trans L23
  have L27 : Agree liveAll (W27 m ρ c) (W5 m ρ c) := k27.trans L24
  have L28 : Agree liveAll (W28 m ρ c) (W5 m ρ c) := k28.trans L27
  -- the combine region's operands
  have e_agg : W23 m ρ c (Proc.devRef .tc main_v150)
      = Terms.propT (F := Ideal) (row (argsOf m c)) (col (argsOf m c)) (nrm (argsOf m c)) H :=
    (A7_agg (F := Ideal) (W22 m ρ c)).trans (by
      rw [hh, hL main_v5 (by decide), hL main_v6 (by decide), hL main_v29 (by decide), W5_row, W5_col, W5_nrm])
  have e_x0 : W23 m ρ c (Proc.devRef .tc main_v33) = X0 := (L23 main_v33 (by decide)).trans hx0
  have e_w1 : W23 m ρ c (Proc.devRef .tc main_v152)
      = Terms.w3T (F := Ideal) 3 Cert.ReferenceIdeal.Facts₀.slices_S8x128x128_S1x128x128_3_0_0 (argsOf m c).a4 :=
    (A7_w1 (F := Ideal) (W22 m ρ c)).trans
      (congrArg (Terms.w3T (F := Ideal) 3 Cert.ReferenceIdeal.Facts₀.slices_S8x128x128_S1x128x128_3_0_0)
        (arg_of_agree m ρ c hL (r := main_arg4) (by decide)))
  have e_w2 : W23 m ρ c (Proc.devRef .tc main_v154)
      = Terms.w3T (F := Ideal) 3 Cert.ReferenceIdeal.Facts₀.slices_S8x128x128_S1x128x128_3_0_0 (argsOf m c).a5 :=
    (A7_w2 (F := Ideal) (W22 m ρ c)).trans
      (congrArg (Terms.w3T (F := Ideal) 3 Cert.ReferenceIdeal.Facts₀.slices_S8x128x128_S1x128x128_3_0_0)
        (arg_of_agree m ρ c hL (r := main_arg5) (by decide)))
  -- the combine region
  have e_out : W24 m ρ c (Proc.devRef .tc main_v155)
      = CMB c1 c2 (Terms.propT (F := Ideal) (row (argsOf m c)) (col (argsOf m c)) (nrm (argsOf m c)) H) X0
          (Terms.w3T (F := Ideal) 3 Cert.ReferenceIdeal.Facts₀.slices_S8x128x128_S1x128x128_3_0_0 (argsOf m c).a4)
          (Terms.w3T (F := Ideal) 3 Cert.ReferenceIdeal.Facts₀.slices_S8x128x128_S1x128x128_3_0_0 (argsOf m c).a5) :=
    (W24_arr m ρ c 4).trans (hC.trans (by
      show CMB c1 c2 (W23 m ρ c (Proc.devRef .tc main_v150)) (W23 m ρ c (Proc.devRef .tc main_v33))
          (W23 m ρ c (Proc.devRef .tc main_v152)) (W23 m ρ c (Proc.devRef .tc main_v154)) = _
      rw [e_agg, e_x0, e_w1, e_w2]))
  -- the normalisation region's operands
  have e_val : W27 m ρ c (Proc.devRef .tc main_v155) = _ :=
    (M8_keep (F := Ideal) (W24 m ρ c) (by decide : main_v155 ∉ writesM8)).trans e_out
  have e_mean : W27 m ρ c (Proc.devRef .tc main_v167) = sc11 (Terms.meanT (F := Ideal) _) :=
    (M8_mean (F := Ideal) (W24 m ρ c)).trans (congrArg (fun x => sc11 (Terms.meanT (F := Ideal) x)) e_out)
  have e_inv : W27 m ρ c (Proc.devRef .tc main_v168) = sc11 (Terms.invstdT (F := Ideal) _) :=
    (M8_invstd (F := Ideal) (W24 m ρ c)).trans (congrArg (fun x => sc11 (Terms.invstdT (F := Ideal) x)) e_out)
  have e_nw : W27 m ρ c (Proc.devRef .tc main_v165)
      = row128 (Terms.r2T (F := Ideal) 3 Cert.ReferenceIdeal.Facts₀.slices_S8x128_S1x128_3_0 (argsOf m c).a6) :=
    (M8_nw (F := Ideal) (W24 m ρ c)).trans
      (congrArg (fun x => row128 (Terms.r2T (F := Ideal) 3 Cert.ReferenceIdeal.Facts₀.slices_S8x128_S1x128_3_0 x))
        (arg_of_agree m ρ c L24 (r := main_arg6) (by decide)))
  have e_nb : W27 m ρ c (Proc.devRef .tc main_v166)
      = row128 (Terms.r2T (F := Ideal) 3 Cert.ReferenceIdeal.Facts₀.slices_S8x128_S1x128_3_0 (argsOf m c).a7) :=
    (M8_nb (F := Ideal) (W24 m ρ c)).trans
      (congrArg (fun x => row128 (Terms.r2T (F := Ideal) 3 Cert.ReferenceIdeal.Facts₀.slices_S8x128_S1x128_3_0 x))
        (arg_of_agree m ρ c L24 (r := main_arg7) (by decide)))
  -- the normalisation region
  refine ⟨L28, (W28_arr m ρ c 5).trans (hN.trans ?_)⟩
  show NRM (W27 m ρ c (Proc.devRef .tc main_v155)) (W27 m ρ c (Proc.devRef .tc main_v165))
      (W27 m ρ c (Proc.devRef .tc main_v166)) (W27 m ρ c (Proc.devRef .tc main_v167))
      (W27 m ρ c (Proc.devRef .tc main_v168)) = _
  rw [e_val, e_nw, e_nb, e_mean, e_inv]

end Cert.Hand.KChain

end
-- ==== Proof.KStretchA9.lean ====
/-
  The host operations between a normalisation layer and the next combine layer (here: the ones before combine layer 4),
  read at an ARBITRARY valuation `V` of the buffers they start from. Three results are read later:
  * the halved neighbour aggregation of the previous activations along the edge lists with the edge weights;
  * slab 4 of each of the two stacks of 128 × 128 weights.
  Every buffer that is not one of the 23 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA9 : List (Ref sig .tc) :=
  [main_v170, main_c_43, main_v171, main_v172, main_c_44, main_v173, main_v174, main_v175, main_v176, main_v177, main_v178,
   main_v179, main_cst_45, main_v180, main_v181, main_v182, main_cst_46, main_v183, main_v184, main_v185, main_v186,
   main_v187, main_v188]

/-- Every operation of the stretch writes a listed buffer. -/
theorem A9_writes :
    (hostOps9 (F := F)).Forall fun op => op.writes ⊆ (writesA9.map (Proc.devRef (τ := τ) .tc)).toFinset := by
  simp only [hostOps9, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A9_keep (V : Valuation τ sig (Elt F)) {r : Ref sig .tc} (hr : r ∉ writesA9) :
    StableHlo.after (hostOps9 (F := F)) V (Proc.devRef .tc r) = V (Proc.devRef .tc r) :=
  StableHlo.after_of_writes_sub hostOps9 V A9_writes hr

/-- The halved neighbour aggregation of the previous activations. -/
theorem A9_agg (V : Valuation τ sig (Elt F)) :
    StableHlo.after (hostOps9 (F := F)) V (Proc.devRef .tc main_v184)
      = Terms.propT (V (Proc.devRef .tc main_v5)) (V (Proc.devRef .tc main_v6)) (V (Proc.devRef .tc main_v29))
          (V (Proc.devRef .tc main_v169)) := by
  unfold hostOps9
  after_results_simp
  rfl

/-- Slab 4 of the first stack of weights. -/
theorem A9_w1 (V : Valuation τ sig (Elt F)) :
    StableHlo.after (hostOps9 (F := F)) V (Proc.devRef .tc main_v186)
      = Terms.w3T 4 Cert.ReferenceIdeal.Facts₀.slices_S8x128x128_S1x128x128_4_0_0 (V (Proc.devRef .tc main_arg4)) := by
  unfold hostOps9
  after_results
  rfl

/-- Slab 4 of the second stack of weights. -/
theorem A9_w2 (V : Valuation τ sig (Elt F)) :
    StableHlo.after (hostOps9 (F := F)) V (Proc.devRef .tc main_v188)
      = Terms.w3T 4 Cert.ReferenceIdeal.Facts₀.slices_S8x128x128_S1x128x128_4_0_0 (V (Proc.devRef .tc main_arg5)) := by
  unfold hostOps9
  after_results
  rfl

end Cert.Hand.KChain

end
-- ==== Proof.KStretchM10.lean ====
/-
  The three stretches of host operations between a combine layer and its normalisation layer (here: layer 4), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 4 of the scale table and row 4 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM10 (V : Valuation τ sig (Elt F)) : Valuation τ sig (Elt F) :=
  StableHlo.after (hostOps10_2 (F := F)) (StableHlo.after hostOps10_1 (StableHlo.after hostOps10 V))

/-- The result buffers of the three stretches, in order. -/
def writesM10 : List (Ref sig .tc) :=
  [main_cst_47, main_v190, main_cst_48, main_v191, main_c_49, main_call5_call0_cst, main_call5_call0_v0,
   main_call5_call0_v1, main_call5_call0_cst_0, main_call5_call0_v2, main_call5_call0_v3, main_call5_call0_v4,
   main_call5_call0_v5, main_call5_call0_v6, main_call5_call0_v7, main_call5_call0_cst_1, main_call5_call0_v8,
   main_call5_call0_cst_2, main_call5_call0_v9, main_call5_call0_v10, main_call5_call0_cst_3, main_call5_call0_v11,
   main_call5_call0_cst_4, main_call5_call0_call0_v0, main_call5_v0, main_v192, main_cst_50, main_v193, main_cst_51,
   main_v194, main_v195, main_v196, main_v197, main_v198, main_v199, main_v200, main_v201, main_v202]

/-- Every operation of the first stretch writes a listed buffer. -/
theorem M10_writes_a :
    (hostOps10 (F := F)).Forall fun op => op.writes ⊆ (writesM10.map (Proc.devRef (τ := τ) .tc)).toFinset := by
  simp only [hostOps10, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M10_writes_b :
    (hostOps10_1 (F := F)).Forall fun op => op.writes ⊆ (writesM10.map (Proc.devRef (τ := τ) .tc)).toFinset := by
  simp only [hostOps10_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M10_writes_c :
    (hostOps10_2 (F := F)).Forall fun op => op.writes ⊆ (writesM10.map (Proc.devRef (τ := τ) .tc)).toFinset := by
  simp only [hostOps10_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M10_keep (V : Valuation τ sig (Elt F)) {r : Ref sig .tc} (hr : r ∉ writesM10) :
    afterM10 V (Proc.devRef .tc r) = V (Proc.devRef .tc r) :=
  ((StableHlo.after_of_writes_sub hostOps10_2 _ M10_writes_c hr).trans
    (StableHlo.after_of_writes_sub hostOps10_1 _ M10_writes_b hr)).trans
    (StableHlo.after_of_writes_sub hostOps10 V M10_writes_a hr)

/-- The mean of the combine layer's result, as a 1 × 1 array. -/
theorem M10_mean (V : Valuation τ sig (Elt F)) :
    afterM10 V (Proc.devRef .tc main_v201) = one1 (Terms.meanT (V (Proc.devRef .tc main_v189))) := by
  unfold afterM10 hostOps10_2 hostOps10_1 hostOps10
  after_results_simp
  rfl

/-- The reciprocal deviation of the combine layer's result, as a 1 × 1 array. -/
theorem M10_invstd (V : Valuation τ sig (Elt F)) :
    afterM10 V (Proc.devRef .tc main_v202) = one1 (Terms.invstdT (V (Proc.devRef .tc main_v189))) := by
  unfold afterM10 hostOps10_2 hostOps10_1 hostOps10
  after_results_simp
  rfl

/-- Row 4 of the scale table, as a 1 × 128 array. -/
theorem M10_nw (V : Valuation τ sig (Elt F)) :
    afterM10 V (Proc.devRef .tc main_v199)
      = row1 (Terms.r2T 4 Cert.ReferenceIdeal.Facts₀.slices_S8x128_S1x128_4_0 (V (Proc.devRef .tc main_arg6))) := by
  unfold afterM10 hostOps10_2 hostOps10_1 hostOps10
  after_results_simp
  rfl

/-- Row 4 of the shift table, as a 1 × 128 array. -/
theorem M10_nb (V : Valuation τ sig (Elt F)) :
    afterM10 V (Proc.devRef .tc main_v200)
      = row1 (Terms.r2T 4 Cert.ReferenceIdeal.Facts₀.slices_S8x128_S1x128_4_0 (V (Proc.devRef .tc main_arg7))) := by
  unfold afterM10 hostOps10_2 hostOps10_1 hostOps10
  after_results_simp
  rfl

end Cert.Hand.KChain

end
-- ==== Proof.KChainL4.lean ====
/-
  One layer of the kernel program's run at the ideal instance (here: layer 4, the combine region 9 and the normalisation
  region 10), from the boundary after the previous normalisation region to the boundary after this one.

  Given that the live buffers (the arguments, the edge lists, the edge weights, the residual) are at the entry what they were
  before the first combine layer, and that the previous activations are `H`:
  * the stretch before the combine region leaves the halved neighbour aggregation of `H` and slab 4 of each stack of weights;
  * the combine region leaves  OUT = c1·agg + c2·(agg·W₁) + c1·x0 + c2·(x0·W₂)  (as the index-by-index function `CMB`);
  * the three stretches before the normalisation region leave the mean and the reciprocal deviation of OUT (1 × 1 arrays)
    and row 4 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchA9
import proofs.«104804_j42004780155161_1_alg».proof.Proof.KStretchM10

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

set_option maxHeartbeats 1000000 in
theorem layer9 (H X0 : Terms.Act Ideal) (c1 c2 : EReal)
    (hL : Agree liveAll (W28 m ρ c) (W5 m ρ c))
    (hx0 : W5 m ρ c (Proc.devRef .tc main_v33) = X0)
    (hh : W28 m ρ c (Proc.devRef .tc main_v169) = H)
    (hC : (dat9 (V29 m ρ) c).arrAt 4 cfg9.N
      = CMB c1 c2 (V29 m ρ c (Pipeline.arrRef spec9 0)) (V29 m ρ c (Pipeline.arrRef spec9 1))
          (V29 m ρ c (Pipeline.arrRef spec9 2)) (V29 m ρ c (Pipeline.arrRef spec9 3)))
    (hN : (dat10 (V33 m ρ) c).arrAt 5 cfg10.N
      = NRM (V33 m ρ c (Pipeline.arrRef spec10 0)) (V33 m ρ c (Pipeline.arrRef spec10 1))
          (V33 m ρ c (Pipeline.arrRef spec10 2)) (V33 m ρ c (Pipeline.arrRef spec10 3)) (V33 m ρ c (Pipeline.arrRef spec10 4))) :
    Agree liveAll (W34 m ρ c) (W5 m ρ c) ∧
    W34 m ρ c (Proc.devRef .tc main_v203)
      = NRM
          (CMB c1 c2 (Terms.propT (F := Ideal) (row (argsOf m c)) (col (argsOf m c)) (nrm (argsOf m c)) H) X0
            (Terms.w3T (F := Ideal) 4 Cert.ReferenceIdeal.Facts₀.slices_S8x128x128_S1x128x128_4_0_0 (argsOf m c).a4)
            (Terms.w3T (F := Ideal) 4 Cert.ReferenceIdeal.Facts₀.slices_S8x128x128_S1x128x128_4_0_0 (argsOf m c).a5))
          (row128 (Terms.r2T (F := Ideal) 4 Cert.ReferenceIdeal.Facts₀.slices_S8x128_S1x128_4_0 (argsOf m c).a6))
          (row128 (Terms.r2T (F := Ideal) 4 Cert.ReferenceIdeal.Facts₀.slices_S8x128_S1x128_4_0 (argsOf m c).a7))
          (sc11 (Terms.meanT (F := Ideal)
            (CMB c1 c2 (Terms.propT (F := Ideal) (row (argsOf m c)) (col (argsOf m c)) (nrm (argsOf m c)) H) X0
              (Terms.w3T (F := Ideal) 4 Cert.ReferenceIdeal.Facts₀.slices_S8x128x128_S1x128x128_4_0_0 (argsOf m c).a4)
              (Terms.w3T (F := Ideal) 4 Cert.ReferenceIdeal.Facts₀.slices_S8x128x128_S1x128x128_4_0_0 (argsOf m c).a5))))
          (sc11 (Terms.invstdT (F := Ideal)
            (CMB c1 c2 (Terms.propT (F := Ideal) (row (argsOf m c)) (col (argsOf m c)) (nrm (argsOf m c)) H) X0
              (Terms.w3T (F := Ideal) 4 Cert.ReferenceIdeal.Facts₀.slices_S8x128x128_S1x128x128_4_0_0 (argsOf m c).a4)
              (Terms.w3T (F := Ideal) 4 Cert.ReferenceIdeal.Facts₀.slices_S8x128x128_S1x128x128_4_0_0 (argsOf m c).a5)))) := by
  -- no step writes a live buffer (the combine region reads the residual through an input window and leaves it as found)
  have k29 : Agree liveAll (W29 m ρ c) (W28 m ρ c) := Agree.after (hostOps9 (F := Ideal)) (W28 m ρ c) (A9_writes (F := Ideal)) (by decide)
  have k30 : Agree liveAll (W30 m ρ c) (W29 m ρ c) :=
    Agree.cons ((W30_arr m ρ c 1).trans (((dat9 (V29 m ρ) c).arrAt_in 1 rfl _).trans (A_eq9 (V29 m ρ) c 1)))
      (fun r hr => W30_of_ne m ρ c r ((by decide : ∀ r ∈ liveRest, ∀ w, Pipeline.arrRef spec9 w ≠ r) r hr))
  have k33 : Agree liveAll (W33 m ρ c) (W30 m ρ c) := fun r hr =>
    M10_keep (F := Ideal) (W30 m ρ c) ((by decide : ∀ r ∈ liveAll, r ∉ writesM10) r hr)
  have k34 : Agree liveAll (W34 m ρ c) (W33 m ρ c) := fun r hr =>
    W34_of_ne m ρ c r ((by decide : ∀ r ∈ liveAll, ∀ w, Pipeline.arrRef spec10 w ≠ r) r hr)
  have L29 : Agree liveAll (W29 m ρ c) (W5 m ρ c) := k29.trans hL
  have L30 : Agree liveAll (W30 m ρ c) (W5 m ρ c) := k30.trans L29
  have L33 : Agree liveAll (W33 m ρ c) (W5 m ρ c) := k33.trans L30
  have L34 : Agree liveAll (W34 m ρ c) (W5 m ρ c) := k34.trans L33
  -- the combine region's operands
  have e_agg : W29 m ρ c (Proc.devRef .tc main_v184)
      = Terms.propT (F := Ideal) (row (argsOf m c)) (col (argsOf m c)) (nrm (argsOf m c)) H :=
    (A9_agg (F := Ideal) (W28 m ρ c)).trans (by
      rw [hh, hL main_v5 (by decide), hL main_v6 (by decide), hL main_v29 (by decide), W5_row, W5_col, W5_nrm])
  have e_x0 : W29 m ρ c (Proc.devRef .tc main_v33) = X0 := (L29 main_v33 (by decide)).trans hx0
  have e_w1 : W29 m ρ c (Proc.devRef .tc main_v186)
      = Terms.w3T (F := Ideal) 4 Cert.ReferenceIdeal.Facts₀.slices_S8x128x128_S1x128x128_4_0_0 (argsOf m c).a4 :=
    (A9_w1 (F := Ideal) (W28 m ρ c)).trans
      (congrArg (Terms.w3T (F := Ideal) 4 Cert.ReferenceIdeal.Facts₀.slices_S8x128x128_S1x128x128_4_0_0)
        (arg_of_agree m ρ c hL (r := main_arg4) (by decide)))
  have e_w2 : W29 m ρ c (Proc.devRef .tc main_v188)
      = Terms.w3T (F := Ideal) 4 Cert.ReferenceIdeal.Facts₀.slices_S8x128x128_S1x128x128_4_0_0 (argsOf m c).a5 :=
    (A9_w2 (F := Ideal) (W28 m ρ c)).trans
      (congrArg (Terms.w3T (F := Ideal) 4 Cert.ReferenceIdeal.Facts₀.slices_S8x128x128_S1x128x128_4_0_0)
        (arg_of_agree m ρ c hL (r := main_arg5) (by decide)))
  -- the combine region
  have e_out : W30 m ρ c (Proc.devRef .tc main_v189)
      = CMB c1 c2 (Terms.propT (F := Ideal) (row (argsOf m c)) (col (argsOf m c)) (nrm (argsOf m c)) H) X0
          (Terms.w3T (F := Ideal) 4 Cert.ReferenceIdeal.Facts₀.slices_S8x128x128_S1x128x128_4_0_0 (argsOf m c).a4)
          (Terms.w3T (F := Ideal) 4 Cert.ReferenceIdeal.Facts₀.slices_S8x128x128_S1x128x128_4_0_0 (argsOf m c).a5) :=
    (W30_arr m ρ c 4).trans (hC.trans (by
      show CMB c1 c2 (W29 m ρ c (Proc.devRef .tc main_v184)) (W29 m ρ c (Proc.devRef .tc main_v33))
          (W29 m ρ c (Proc.devRef .tc main_v186)) (W29 m ρ c (Proc.devRef .tc main_v188)) = _
      rw [e_agg, e_x0, e_w1, e_w2]))
  -- the normalisation region's operands
  have e_val : W33 m ρ c (Proc.devRef .tc main_v189) = _ :=
    (M10_keep (F := Ideal) (W30 m ρ c) (by decide : main_v189 ∉ writesM10)).trans e_out
  have e_mean : W33 m ρ c (Proc.devRef .tc main_v201) = sc11 (Terms.meanT (F := Ideal) _) :=
    (M10_mean (F := Ideal) (W30 m ρ c)).trans (congrArg (fun x => sc11 (Terms.meanT (F := Ideal) x)) e_out)
  have e_inv : W33 m ρ c (Proc.devRef .tc main_v202) = sc11 (Terms.invstdT (F := Ideal) _) :=
    (M10_invstd (F := Ideal) (W30 m ρ c)).trans (congrArg (fun x => sc11 (Terms.invstdT (F := Ideal) x)) e_out)
  have e_nw : W33 m ρ c (Proc.devRef .tc main_v199)
      = row128 (Terms.r2T (F := Ideal) 4 Cert.ReferenceIdeal.Facts₀.slices_S8x128_S1x128_4_0 (argsOf m c).a6) :=
    (M10_nw (F := Ideal) (W30 m ρ c)).trans
      (congrArg (fun x => row128 (Terms.r2T (F := Ideal) 4 Cert.ReferenceIdeal.Facts₀.slices_S8x128_S1x128_4_0 x))
        (arg_of_agree m ρ c L30 (r := main_arg6) (by decide)))
  have e_nb : W33 m ρ c (Proc.devRef .tc main_v200)
      = row128 (Terms.r2T (F := Ideal) 4 Cert.ReferenceIdeal.Facts₀.slices_S8x128_S1x128_4_0 (argsOf m c).a7) :=
    (M10_nb (F := Ideal) (W30 m ρ c)).trans
      (congrArg (fun x => row128 (Terms.r2T (F := Ideal) 4 Cert.ReferenceIdeal.Facts₀.slices_S8x128_S1x128_4_0 x))
        (arg_of_agree m ρ c L30 (r := main_arg7) (by decide)))
  -- the normalisation region
  refine ⟨L34, (W34_arr m ρ c 5).trans (hN.trans ?_)⟩
  show NRM (W33 m ρ c (Proc.devRef .tc main_v189)) (W33 m ρ c (Proc.devRef .tc main_v199))
      (W33 m ρ c (Proc.devRef .tc main_v200)) (W33 m ρ c (Proc.devRef .tc main_v201))
      (W33 m ρ c (Proc.devRef .tc main_v202)) = _
  rw [e_val, e_nw, e_nb, e_mean, e_inv]

end Cert.Hand.KChain

end
-- ==== Proof.KStretchA11.lean ====
/-
  The host operations between a normalisation layer and the next combine layer (here: the ones before combine layer 5),
  read at an ARBITRARY valuation `V` of the buffers they start from. Three results are read later:
  * the halved neighbour aggregation of the previous activations along the edge lists with the edge weights;
  * slab 5 of each of the two stacks of 128 × 128 weights.
  Every buffer that is not one of the 23 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA11 : List (Ref sig .tc) :=
  [main_v204, main_c_52, main_v205, main_v206, main_c_53, main_v207, main_v208, main_v209, main_v210, main_v211, main_v212,
   main_v213, main_cst_54, main_v214, main_v215, main_v216, main_cst_55, main_v217, main_v218, main_v219, main_v220,
   main_v221, main_v222]

/-- Every operation of the stretch writes a listed buffer. -/
theorem A11_writes :
    (hostOps11 (F := F)).Forall fun op => op.writes ⊆ (writesA11.map (Proc.devRef (τ := τ) .tc)).toFinset := by
  simp only [hostOps11, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A11_keep (V : Valuation τ sig (Elt F)) {r : Ref sig .tc} (hr : r ∉ writesA11) :
    StableHlo.after (hostOps11 (F := F)) V (Proc.devRef .tc r) = V (Proc.devRef .tc r) :=
  StableHlo.after_of_writes_sub hostOps11 V A11_writes hr

/-- The halved neighbour aggregation of the previous activations. -/
theorem A11_agg (V : Valuation τ sig (Elt F)) :
    StableHlo.after (hostOps11 (F := F)) V (Proc.devRef .tc main_v218)
      = Terms.propT (V (Proc.devRef .tc main_v5)) (V (Proc.devRef .tc main_v6)) (V (Proc.devRef .tc main_v29))
          (V (Proc.devRef .tc main_v203)) := by
  unfold hostOps11
  after_results_simp
  rfl

/-- Slab 5 of the first stack of weights. -/
theorem A11_w1 (V : Valuation τ sig (Elt F)) :
    StableHlo.after (hostOps11 (F := F)) V (Proc.devRef .tc main_v220)
      = Terms.w3T 5 Cert.ReferenceIdeal.Facts₀.slices_S8x128x128_S1x128x128_5_0_0 (V (Proc.devRef .tc main_arg4)) := by
  unfold hostOps11
  after_results
  rfl

/-- Slab 5 of the second stack of weights. -/
theorem A11_w2 (V : Valuation τ sig (Elt F)) :
    StableHlo.after (hostOps11 (F := F)) V (Proc.devRef .tc main_v222)
      = Terms.w3T 5 Cert.ReferenceIdeal.Facts₀.slices_S8x128x128_S1x128x128_5_0_0 (V (Proc.devRef .tc main_arg5)) := by
  unfold hostOps11
  after_results
  rfl

end Cert.Hand.KChain

end
-- ==== Proof.KStretchM12.lean ====
/-
  The three stretches of host operations between a combine layer and its normalisation layer (here: layer 5), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 5 of the scale table and row 5 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM12 (V : Valuation τ sig (Elt F)) : Valuation τ sig (Elt F) :=
  StableHlo.after (hostOps12_2 (F := F)) (StableHlo.after hostOps12_1 (StableHlo.after hostOps12 V))

/-- The result buffers of the three stretches, in order. -/
def writesM12 : List (Ref sig .tc) :=
  [main_cst_56, main_v224, main_cst_57, main_v225, main_c_58, main_call6_call0_cst, main_call6_call0_v0,
   main_call6_call0_v1, main_call6_call0_cst_0, main_call6_call0_v2, main_call6_call0_v3, main_call6_call0_v4,
   main_call6_call0_v5, main_call6_call0_v6, main_call6_call0_v7, main_call6_call0_cst_1, main_call6_call0_v8,
   main_call6_call0_cst_2, main_call6_call0_v9, main_call6_call0_v10, main_call6_call0_cst_3, main_call6_call0_v11,
   main_call6_call0_cst_4, main_call6_call0_call0_v0, main_call6_v0, main_v226, main_cst_59, main_v227, main_cst_60,
   main_v228, main_v229, main_v230, main_v231, main_v232, main_v233, main_v234, main_v235, main_v236]

/-- Every operation of the first stretch writes a listed buffer. -/
theorem M12_writes_a :
    (hostOps12 (F := F)).Forall fun op => op.writes ⊆ (writesM12.map (Proc.devRef (τ := τ) .tc)).toFinset := by
  simp only [hostOps12, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M12_writes_b :
    (hostOps12_1 (F := F)).Forall fun op => op.writes ⊆ (writesM12.map (Proc.devRef (τ := τ) .tc)).toFinset := by
  simp only [hostOps12_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M12_writes_c :
    (hostOps12_2 (F := F)).Forall fun op => op.writes ⊆ (writesM12.map (Proc.devRef (τ := τ) .tc)).toFinset := by
  simp only [hostOps12_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M12_keep (V : Valuation τ sig (Elt F)) {r : Ref sig .tc} (hr : r ∉ writesM12) :
    afterM12 V (Proc.devRef .tc r) = V (Proc.devRef .tc r) :=
  ((StableHlo.after_of_writes_sub hostOps12_2 _ M12_writes_c hr).trans
    (StableHlo.after_of_writes_sub hostOps12_1 _ M12_writes_b hr)).trans
    (StableHlo.after_of_writes_sub hostOps12 V M12_writes_a hr)

/-- The mean of the combine layer's result, as a 1 × 1 array. -/
theorem M12_mean (V : Valuation τ sig (Elt F)) :
    afterM12 V (Proc.devRef .tc main_v235) = one1 (Terms.meanT (V (Proc.devRef .tc main_v223))) := by
  unfold afterM12 hostOps12_2 hostOps12_1 hostOps12
  after_results_simp
  rfl

/-- The reciprocal deviation of the combine layer's result, as a 1 × 1 array. -/
theorem M12_invstd (V : Valuation τ sig (Elt F)) :
    afterM12 V (Proc.devRef .tc main_v236) = one1 (Terms.invstdT (V (Proc.devRef .tc main_v223))) := by
  unfold afterM12 hostOps12_2 hostOps12_1 hostOps12
  after_results_simp
  rfl

/-- Row 5 of the scale table, as a 1 × 128 array. -/
theorem M12_nw (V : Valuation τ sig (Elt F)) :
    afterM12 V (Proc.devRef .tc main_v233)
      = row1 (Terms.r2T 5 Cert.ReferenceIdeal.Facts₀.slices_S8x128_S1x128_5_0 (V (Proc.devRef .tc main_arg6))) := by
  unfold afterM12 hostOps12_2 hostOps12_1 hostOps12
  after_results_simp
  rfl

/-- Row 5 of the shift table, as a 1 × 128 array. -/
theorem M12_nb (V : Valuation τ sig (Elt F)) :
    afterM12 V (Proc.devRef .tc main_v234)
      = row1 (Terms.r2T 5 Cert.ReferenceIdeal.Facts₀.slices_S8x128_S1x128_5_0 (V (Proc.devRef .tc main_arg7))) := by
  unfold afterM12 hostOps12_2 hostOps12_1 hostOps12
  after_results_simp
  rfl

end Cert.Hand.KChain

end
-- ==== Proof.KChainL5.lean ====
/-
  One layer of the kernel program's run at the ideal instance (here: layer 5, the combine region 11 and the normalisation
  region 12), from the boundary after the previous normalisation region to the boundary after this one.

  Given that the live buffers (the arguments, the edge lists, the edge weights, the residual) are at the entry what they were
  before the first combine layer, and that the previous activations are `H`:
  * the stretch before the combine region leaves the halved neighbour aggregation of `H` and slab 5 of each stack of weights;
  * the combine region leaves  OUT = c1·agg + c2·(agg·W₁) + c1·x0 + c2·(x0·W₂)  (as the index-by-index function `CMB`);
  * the three stretches before the normalisation region leave the mean and the reciprocal deviation of OUT (1 × 1 arrays)
    and row 5 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchA11
import proofs.«104804_j42004780155161_1_alg».proof.Proof.KStretchM12

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

set_option maxHeartbeats 1000000 in
theorem layer11 (H X0 : Terms.Act Ideal) (c1 c2 : EReal)
    (hL : Agree liveAll (W34 m ρ c) (W5 m ρ c))
    (hx0 : W5 m ρ c (Proc.devRef .tc main_v33) = X0)
    (hh : W34 m ρ c (Proc.devRef .tc main_v203) = H)
    (hC : (dat11 (V35 m ρ) c).arrAt 4 cfg11.N
      = CMB c1 c2 (V35 m ρ c (Pipeline.arrRef spec11 0)) (V35 m ρ c (Pipeline.arrRef spec11 1))
          (V35 m ρ c (Pipeline.arrRef spec11 2)) (V35 m ρ c (Pipeline.arrRef spec11 3)))
    (hN : (dat12 (V39 m ρ) c).arrAt 5 cfg12.N
      = NRM (V39 m ρ c (Pipeline.arrRef spec12 0)) (V39 m ρ c (Pipeline.arrRef spec12 1))
          (V39 m ρ c (Pipeline.arrRef spec12 2)) (V39 m ρ c (Pipeline.arrRef spec12 3)) (V39 m ρ c (Pipeline.arrRef spec12 4))) :
    Agree liveAll (W40 m ρ c) (W5 m ρ c) ∧
    W40 m ρ c (Proc.devRef .tc main_v237)
      = NRM
          (CMB c1 c2 (Terms.propT (F := Ideal) (row (argsOf m c)) (col (argsOf m c)) (nrm (argsOf m c)) H) X0
            (Terms.w3T (F := Ideal) 5 Cert.ReferenceIdeal.Facts₀.slices_S8x128x128_S1x128x128_5_0_0 (argsOf m c).a4)
            (Terms.w3T (F := Ideal) 5 Cert.ReferenceIdeal.Facts₀.slices_S8x128x128_S1x128x128_5_0_0 (argsOf m c).a5))
          (row128 (Terms.r2T (F := Ideal) 5 Cert.ReferenceIdeal.Facts₀.slices_S8x128_S1x128_5_0 (argsOf m c).a6))
          (row128 (Terms.r2T (F := Ideal) 5 Cert.ReferenceIdeal.Facts₀.slices_S8x128_S1x128_5_0 (argsOf m c).a7))
          (sc11 (Terms.meanT (F := Ideal)
            (CMB c1 c2 (Terms.propT (F := Ideal) (row (argsOf m c)) (col (argsOf m c)) (nrm (argsOf m c)) H) X0
              (Terms.w3T (F := Ideal) 5 Cert.ReferenceIdeal.Facts₀.slices_S8x128x128_S1x128x128_5_0_0 (argsOf m c).a4)
              (Terms.w3T (F := Ideal) 5 Cert.ReferenceIdeal.Facts₀.slices_S8x128x128_S1x128x128_5_0_0 (argsOf m c).a5))))
          (sc11 (Terms.invstdT (F := Ideal)
            (CMB c1 c2 (Terms.propT (F := Ideal) (row (argsOf m c)) (col (argsOf m c)) (nrm (argsOf m c)) H) X0
              (Terms.w3T (F := Ideal) 5 Cert.ReferenceIdeal.Facts₀.slices_S8x128x128_S1x128x128_5_0_0 (argsOf m c).a4)
              (Terms.w3T (F := Ideal) 5 Cert.ReferenceIdeal.Facts₀.slices_S8x128x128_S1x128x128_5_0_0 (argsOf m c).a5)))) := by
  -- no step writes a live buffer (the combine region reads the residual through an input window and leaves it as found)
  have k35 : Agree liveAll (W35 m ρ c) (W34 m ρ c) := Agree.after (hostOps11 (F := Ideal)) (W34 m ρ c) (A11_writes (F := Ideal)) (by decide)
  have k36 : Agree liveAll (W36 m ρ c) (W35 m ρ c) :=
    Agree.cons ((W36_arr m ρ c 1).trans (((dat11 (V35 m ρ) c).arrAt_in 1 rfl _).trans (A_eq11 (V35 m ρ) c 1)))
      (fun r hr => W36_of_ne m ρ c r ((by decide : ∀ r ∈ liveRest, ∀ w, Pipeline.arrRef spec11 w ≠ r) r hr))
  have k39 : Agree liveAll (W39 m ρ c) (W36 m ρ c) := fun r hr =>
    M12_keep (F := Ideal) (W36 m ρ c) ((by decide : ∀ r ∈ liveAll, r ∉ writesM12) r hr)
  have k40 : Agree liveAll (W40 m ρ c) (W39 m ρ c) := fun r hr =>
    W40_of_ne m ρ c r ((by decide : ∀ r ∈ liveAll, ∀ w, Pipeline.arrRef spec12 w ≠ r) r hr)
  have L35 : Agree liveAll (W35 m ρ c) (W5 m ρ c) := k35.trans hL
  have L36 : Agree liveAll (W36 m ρ c) (W5 m ρ c) := k36.trans L35
  have L39 : Agree liveAll (W39 m ρ c) (W5 m ρ c) := k39.trans L36
  have L40 : Agree liveAll (W40 m ρ c) (W5 m ρ c) := k40.trans L39
  -- the combine region's operands
  have e_agg : W35 m ρ c (Proc.devRef .tc main_v218)
      = Terms.propT (F := Ideal) (row (argsOf m c)) (col (argsOf m c)) (nrm (argsOf m c)) H :=
    (A11_agg (F := Ideal) (W34 m ρ c)).trans (by
      rw [hh, hL main_v5 (by decide), hL main_v6 (by decide), hL main_v29 (by decide), W5_row, W5_col, W5_nrm])
  have e_x0 : W35 m ρ c (Proc.devRef .tc main_v33) = X0 := (L35 main_v33 (by decide)).trans hx0
  have e_w1 : W35 m ρ c (Proc.devRef .tc main_v220)
      = Terms.w3T (F := Ideal) 5 Cert.ReferenceIdeal.Facts₀.slices_S8x128x128_S1x128x128_5_0_0 (argsOf m c).a4 :=
    (A11_w1 (F := Ideal) (W34 m ρ c)).trans
      (congrArg (Terms.w3T (F := Ideal) 5 Cert.ReferenceIdeal.Facts₀.slices_S8x128x128_S1x128x128_5_0_0)
        (arg_of_agree m ρ c hL (r := main_arg4) (by decide)))
  have e_w2 : W35 m ρ c (Proc.devRef .tc main_v222)
      = Terms.w3T (F := Ideal) 5 Cert.ReferenceIdeal.Facts₀.slices_S8x128x128_S1x128x128_5_0_0 (argsOf m c).a5 :=
    (A11_w2 (F := Ideal) (W34 m ρ c)).trans
      (congrArg (Terms.w3T (F := Ideal) 5 Cert.ReferenceIdeal.Facts₀.slices_S8x128x128_S1x128x128_5_0_0)
        (arg_of_agree m ρ c hL (r := main_arg5) (by decide)))
  -- the combine region
  have e_out : W36 m ρ c (Proc.devRef .tc main_v223)
      = CMB c1 c2 (Terms.propT (F := Ideal) (row (argsOf m c)) (col (argsOf m c)) (nrm (argsOf m c)) H) X0
          (Terms.w3T (F := Ideal) 5 Cert.ReferenceIdeal.Facts₀.slices_S8x128x128_S1x128x128_5_0_0 (argsOf m c).a4)
          (Terms.w3T (F := Ideal) 5 Cert.ReferenceIdeal.Facts₀.slices_S8x128x128_S1x128x128_5_0_0 (argsOf m c).a5) :=
    (W36_arr m ρ c 4).trans (hC.trans (by
      show CMB c1 c2 (W35 m ρ c (Proc.devRef .tc main_v218)) (W35 m ρ c (Proc.devRef .tc main_v33))
          (W35 m ρ c (Proc.devRef .tc main_v220)) (W35 m ρ c (Proc.devRef .tc main_v222)) = _
      rw [e_agg, e_x0, e_w1, e_w2]))
  -- the normalisation region's operands
  have e_val : W39 m ρ c (Proc.devRef .tc main_v223) = _ :=
    (M12_keep (F := Ideal) (W36 m ρ c) (by decide : main_v223 ∉ writesM12)).trans e_out
  have e_mean : W39 m ρ c (Proc.devRef .tc main_v235) = sc11 (Terms.meanT (F := Ideal) _) :=
    (M12_mean (F := Ideal) (W36 m ρ c)).trans (congrArg (fun x => sc11 (Terms.meanT (F := Ideal) x)) e_out)
  have e_inv : W39 m ρ c (Proc.devRef .tc main_v236) = sc11 (Terms.invstdT (F := Ideal) _) :=
    (M12_invstd (F := Ideal) (W36 m ρ c)).trans (congrArg (fun x => sc11 (Terms.invstdT (F := Ideal) x)) e_out)
  have e_nw : W39 m ρ c (Proc.devRef .tc main_v233)
      = row128 (Terms.r2T (F := Ideal) 5 Cert.ReferenceIdeal.Facts₀.slices_S8x128_S1x128_5_0 (argsOf m c).a6) :=
    (M12_nw (F := Ideal) (W36 m ρ c)).trans
      (congrArg (fun x => row128 (Terms.r2T (F := Ideal) 5 Cert.ReferenceIdeal.Facts₀.slices_S8x128_S1x128_5_0 x))
        (arg_of_agree m ρ c L36 (r := main_arg6) (by decide)))
  have e_nb : W39 m ρ c (Proc.devRef .tc main_v234)
      = row128 (Terms.r2T (F := Ideal) 5 Cert.ReferenceIdeal.Facts₀.slices_S8x128_S1x128_5_0 (argsOf m c).a7) :=
    (M12_nb (F := Ideal) (W36 m ρ c)).trans
      (congrArg (fun x => row128 (Terms.r2T (F := Ideal) 5 Cert.ReferenceIdeal.Facts₀.slices_S8x128_S1x128_5_0 x))
        (arg_of_agree m ρ c L36 (r := main_arg7) (by decide)))
  -- the normalisation region
  refine ⟨L40, (W40_arr m ρ c 5).trans (hN.trans ?_)⟩
  show NRM (W39 m ρ c (Proc.devRef .tc main_v223)) (W39 m ρ c (Proc.devRef .tc main_v233))
      (W39 m ρ c (Proc.devRef .tc main_v234)) (W39 m ρ c (Proc.devRef .tc main_v235))
      (W39 m ρ c (Proc.devRef .tc main_v236)) = _
  rw [e_val, e_nw, e_nb, e_mean, e_inv]

end Cert.Hand.KChain

end
-- ==== Proof.KStretchA13.lean ====
/-
  The host operations between a normalisation layer and the next combine layer (here: the ones before combine layer 6),
  read at an ARBITRARY valuation `V` of the buffers they start from. Three results are read later:
  * the halved neighbour aggregation of the previous activations along the edge lists with the edge weights;
  * slab 6 of each of the two stacks of 128 × 128 weights.
  Every buffer that is not one of the 23 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA13 : List (Ref sig .tc) :=
  [main_v238, main_c_61, main_v239, main_v240, main_c_62, main_v241, main_v242, main_v243, main_v244, main_v245, main_v246,
   main_v247, main_cst_63, main_v248, main_v249, main_v250, main_cst_64, main_v251, main_v252, main_v253, main_v254,
   main_v255, main_v256]

/-- Every operation of the stretch writes a listed buffer. -/
theorem A13_writes :
    (hostOps13 (F := F)).Forall fun op => op.writes ⊆ (writesA13.map (Proc.devRef (τ := τ) .tc)).toFinset := by
  simp only [hostOps13, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A13_keep (V : Valuation τ sig (Elt F)) {r : Ref sig .tc} (hr : r ∉ writesA13) :
    StableHlo.after (hostOps13 (F := F)) V (Proc.devRef .tc r) = V (Proc.devRef .tc r) :=
  StableHlo.after_of_writes_sub hostOps13 V A13_writes hr

/-- The halved neighbour aggregation of the previous activations. -/
theorem A13_agg (V : Valuation τ sig (Elt F)) :
    StableHlo.after (hostOps13 (F := F)) V (Proc.devRef .tc main_v252)
      = Terms.propT (V (Proc.devRef .tc main_v5)) (V (Proc.devRef .tc main_v6)) (V (Proc.devRef .tc main_v29))
          (V (Proc.devRef .tc main_v237)) := by
  unfold hostOps13
  after_results_simp
  rfl

/-- Slab 6 of the first stack of weights. -/
theorem A13_w1 (V : Valuation τ sig (Elt F)) :
    StableHlo.after (hostOps13 (F := F)) V (Proc.devRef .tc main_v254)
      = Terms.w3T 6 Cert.ReferenceIdeal.Facts₀.slices_S8x128x128_S1x128x128_6_0_0 (V (Proc.devRef .tc main_arg4)) := by
  unfold hostOps13
  after_results
  rfl

/-- Slab 6 of the second stack of weights. -/
theorem A13_w2 (V : Valuation τ sig (Elt F)) :
    StableHlo.after (hostOps13 (F := F)) V (Proc.devRef .tc main_v256)
      = Terms.w3T 6 Cert.ReferenceIdeal.Facts₀.slices_S8x128x128_S1x128x128_6_0_0 (V (Proc.devRef .tc main_arg5)) := by
  unfold hostOps13
  after_results
  rfl

end Cert.Hand.KChain

end
-- ==== Proof.KStretchM14.lean ====
/-
  The three stretches of host operations between a combine layer and its normalisation layer (here: layer 6), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 6 of the scale table and row 6 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM14 (V : Valuation τ sig (Elt F)) : Valuation τ sig (Elt F) :=
  StableHlo.after (hostOps14_2 (F := F)) (StableHlo.after hostOps14_1 (StableHlo.after hostOps14 V))

/-- The result buffers of the three stretches, in order. -/
def writesM14 : List (Ref sig .tc) :=
  [main_cst_65, main_v258, main_cst_66, main_v259, main_c_67, main_call7_call0_cst, main_call7_call0_v0,
   main_call7_call0_v1, main_call7_call0_cst_0, main_call7_call0_v2, main_call7_call0_v3, main_call7_call0_v4,
   main_call7_call0_v5, main_call7_call0_v6, main_call7_call0_v7, main_call7_call0_cst_1, main_call7_call0_v8,
   main_call7_call0_cst_2, main_call7_call0_v9, main_call7_call0_v10, main_call7_call0_cst_3, main_call7_call0_v11,
   main_call7_call0_cst_4, main_call7_call0_call0_v0, main_call7_v0, main_v260, main_cst_68, main_v261, main_cst_69,
   main_v262, main_v263, main_v264, main_v265, main_v266, main_v267, main_v268, main_v269, main_v270]

/-- Every operation of the first stretch writes a listed buffer. -/
theorem M14_writes_a :
    (hostOps14 (F := F)).Forall fun op => op.writes ⊆ (writesM14.map (Proc.devRef (τ := τ) .tc)).toFinset := by
  simp only [hostOps14, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M14_writes_b :
    (hostOps14_1 (F := F)).Forall fun op => op.writes ⊆ (writesM14.map (Proc.devRef (τ := τ) .tc)).toFinset := by
  simp only [hostOps14_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M14_writes_c :
    (hostOps14_2 (F := F)).Forall fun op => op.writes ⊆ (writesM14.map (Proc.devRef (τ := τ) .tc)).toFinset := by
  simp only [hostOps14_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M14_keep (V : Valuation τ sig (Elt F)) {r : Ref sig .tc} (hr : r ∉ writesM14) :
    afterM14 V (Proc.devRef .tc r) = V (Proc.devRef .tc r) :=
  ((StableHlo.after_of_writes_sub hostOps14_2 _ M14_writes_c hr).trans
    (StableHlo.after_of_writes_sub hostOps14_1 _ M14_writes_b hr)).trans
    (StableHlo.after_of_writes_sub hostOps14 V M14_writes_a hr)

/-- The mean of the combine layer's result, as a 1 × 1 array. -/
theorem M14_mean (V : Valuation τ sig (Elt F)) :
    afterM14 V (Proc.devRef .tc main_v269) = one1 (Terms.meanT (V (Proc.devRef .tc main_v257))) := by
  unfold afterM14 hostOps14_2 hostOps14_1 hostOps14
  after_results_simp
  rfl

/-- The reciprocal deviation of the combine layer's result, as a 1 × 1 array. -/
theorem M14_invstd (V : Valuation τ sig (Elt F)) :
    afterM14 V (Proc.devRef .tc main_v270) = one1 (Terms.invstdT (V (Proc.devRef .tc main_v257))) := by
  unfold afterM14 hostOps14_2 hostOps14_1 hostOps14
  after_results_simp
  rfl

/-- Row 6 of the scale table, as a 1 × 128 array. -/
theorem M14_nw (V : Valuation τ sig (Elt F)) :
    afterM14 V (Proc.devRef .tc main_v267)
      = row1 (Terms.r2T 6 Cert.ReferenceIdeal.Facts₀.slices_S8x128_S1x128_6_0 (V (Proc.devRef .tc main_arg6))) := by
  unfold afterM14 hostOps14_2 hostOps14_1 hostOps14
  after_results_simp
  rfl

/-- Row 6 of the shift table, as a 1 × 128 array. -/
theorem M14_nb (V : Valuation τ sig (Elt F)) :
    afterM14 V (Proc.devRef .tc main_v268)
      = row1 (Terms.r2T 6 Cert.ReferenceIdeal.Facts₀.slices_S8x128_S1x128_6_0 (V (Proc.devRef .tc main_arg7))) := by
  unfold afterM14 hostOps14_2 hostOps14_1 hostOps14
  after_results_simp
  rfl

end Cert.Hand.KChain

end
-- ==== Proof.KChainL6.lean ====
/-
  One layer of the kernel program's run at the ideal instance (here: layer 6, the combine region 13 and the normalisation
  region 14), from the boundary after the previous normalisation region to the boundary after this one.

  Given that the live buffers (the arguments, the edge lists, the edge weights, the residual) are at the entry what they were
  before the first combine layer, and that the previous activations are `H`:
  * the stretch before the combine region leaves the halved neighbour aggregation of `H` and slab 6 of each stack of weights;
  * the combine region leaves  OUT = c1·agg + c2·(agg·W₁) + c1·x0 + c2·(x0·W₂)  (as the index-by-index function `CMB`);
  * the three stretches before the normalisation region leave the mean and the reciprocal deviation of OUT (1 × 1 arrays)
    and row 6 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchA13
import proofs.«104804_j42004780155161_1_alg».proof.Proof.KStretchM14

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

set_option maxHeartbeats 1000000 in
theorem layer13 (H X0 : Terms.Act Ideal) (c1 c2 : EReal)
    (hL : Agree liveAll (W40 m ρ c) (W5 m ρ c))
    (hx0 : W5 m ρ c (Proc.devRef .tc main_v33) = X0)
    (hh : W40 m ρ c (Proc.devRef .tc main_v237) = H)
    (hC : (dat13 (V41 m ρ) c).arrAt 4 cfg13.N
      = CMB c1 c2 (V41 m ρ c (Pipeline.arrRef spec13 0)) (V41 m ρ c (Pipeline.arrRef spec13 1))
          (V41 m ρ c (Pipeline.arrRef spec13 2)) (V41 m ρ c (Pipeline.arrRef spec13 3)))
    (hN : (dat14 (V45 m ρ) c).arrAt 5 cfg14.N
      = NRM (V45 m ρ c (Pipeline.arrRef spec14 0)) (V45 m ρ c (Pipeline.arrRef spec14 1))
          (V45 m ρ c (Pipeline.arrRef spec14 2)) (V45 m ρ c (Pipeline.arrRef spec14 3)) (V45 m ρ c (Pipeline.arrRef spec14 4))) :
    Agree liveAll (W46 m ρ c) (W5 m ρ c) ∧
    W46 m ρ c (Proc.devRef .tc main_v271)
      = NRM
          (CMB c1 c2 (Terms.propT (F := Ideal) (row (argsOf m c)) (col (argsOf m c)) (nrm (argsOf m c)) H) X0
            (Terms.w3T (F := Ideal) 6 Cert.ReferenceIdeal.Facts₀.slices_S8x128x128_S1x128x128_6_0_0 (argsOf m c).a4)
            (Terms.w3T (F := Ideal) 6 Cert.ReferenceIdeal.Facts₀.slices_S8x128x128_S1x128x128_6_0_0 (argsOf m c).a5))
          (row128 (Terms.r2T (F := Ideal) 6 Cert.ReferenceIdeal.Facts₀.slices_S8x128_S1x128_6_0 (argsOf m c).a6))
          (row128 (Terms.r2T (F := Ideal) 6 Cert.ReferenceIdeal.Facts₀.slices_S8x128_S1x128_6_0 (argsOf m c).a7))
          (sc11 (Terms.meanT (F := Ideal)
            (CMB c1 c2 (Terms.propT (F := Ideal) (row (argsOf m c)) (col (argsOf m c)) (nrm (argsOf m c)) H) X0
              (Terms.w3T (F := Ideal) 6 Cert.ReferenceIdeal.Facts₀.slices_S8x128x128_S1x128x128_6_0_0 (argsOf m c).a4)
              (Terms.w3T (F := Ideal) 6 Cert.ReferenceIdeal.Facts₀.slices_S8x128x128_S1x128x128_6_0_0 (argsOf m c).a5))))
          (sc11 (Terms.invstdT (F := Ideal)
            (CMB c1 c2 (Terms.propT (F := Ideal) (row (argsOf m c)) (col (argsOf m c)) (nrm (argsOf m c)) H) X0
              (Terms.w3T (F := Ideal) 6 Cert.ReferenceIdeal.Facts₀.slices_S8x128x128_S1x128x128_6_0_0 (argsOf m c).a4)
              (Terms.w3T (F := Ideal) 6 Cert.ReferenceIdeal.Facts₀.slices_S8x128x128_S1x128x128_6_0_0 (argsOf m c).a5)))) := by
  -- no step writes a live buffer (the combine region reads the residual through an input window and leaves it as found)
  have k41 : Agree liveAll (W41 m ρ c) (W40 m ρ c) := Agree.after (hostOps13 (F := Ideal)) (W40 m ρ c) (A13_writes (F := Ideal)) (by decide)
  have k42 : Agree liveAll (W42 m ρ c) (W41 m ρ c) :=
    Agree.cons ((W42_arr m ρ c 1).trans (((dat13 (V41 m ρ) c).arrAt_in 1 rfl _).trans (A_eq13 (V41 m ρ) c 1)))
      (fun r hr => W42_of_ne m ρ c r ((by decide : ∀ r ∈ liveRest, ∀ w, Pipeline.arrRef spec13 w ≠ r) r hr))
  have k45 : Agree liveAll (W45 m ρ c) (W42 m ρ c) := fun r hr =>
    M14_keep (F := Ideal) (W42 m ρ c) ((by decide : ∀ r ∈ liveAll, r ∉ writesM14) r hr)
  have k46 : Agree liveAll (W46 m ρ c) (W45 m ρ c) := fun r hr =>
    W46_of_ne m ρ c r ((by decide : ∀ r ∈ liveAll, ∀ w, Pipeline.arrRef spec14 w ≠ r) r hr)
  have L41 : Agree liveAll (W41 m ρ c) (W5 m ρ c) := k41.trans hL
  have L42 : Agree liveAll (W42 m ρ c) (W5 m ρ c) := k42.trans L41
  have L45 : Agree liveAll (W45 m ρ c) (W5 m ρ c) := k45.trans L42
  have L46 : Agree liveAll (W46 m ρ c) (W5 m ρ c) := k46.trans L45
  -- the combine region's operands
  have e_agg : W41 m ρ c (Proc.devRef .tc main_v252)
      = Terms.propT (F := Ideal) (row (argsOf m c)) (col (argsOf m c)) (nrm (argsOf m c)) H :=
    (A13_agg (F := Ideal) (W40 m ρ c)).trans (by
      rw [hh, hL main_v5 (by decide), hL main_v6 (by decide), hL main_v29 (by decide), W5_row, W5_col, W5_nrm])
  have e_x0 : W41 m ρ c (Proc.devRef .tc main_v33) = X0 := (L41 main_v33 (by decide)).trans hx0
  have e_w1 : W41 m ρ c (Proc.devRef .tc main_v254)
      = Terms.w3T (F := Ideal) 6 Cert.ReferenceIdeal.Facts₀.slices_S8x128x128_S1x128x128_6_0_0 (argsOf m c).a4 :=
    (A13_w1 (F := Ideal) (W40 m ρ c)).trans
      (congrArg (Terms.w3T (F := Ideal) 6 Cert.ReferenceIdeal.Facts₀.slices_S8x128x128_S1x128x128_6_0_0)
        (arg_of_agree m ρ c hL (r := main_arg4) (by decide)))
  have e_w2 : W41 m ρ c (Proc.devRef .tc main_v256)
      = Terms.w3T (F := Ideal) 6 Cert.ReferenceIdeal.Facts₀.slices_S8x128x128_S1x128x128_6_0_0 (argsOf m c).a5 :=
    (A13_w2 (F := Ideal) (W40 m ρ c)).trans
      (congrArg (Terms.w3T (F := Ideal) 6 Cert.ReferenceIdeal.Facts₀.slices_S8x128x128_S1x128x128_6_0_0)
        (arg_of_agree m ρ c hL (r := main_arg5) (by decide)))
  -- the combine region
  have e_out : W42 m ρ c (Proc.devRef .tc main_v257)
      = CMB c1 c2 (Terms.propT (F := Ideal) (row (argsOf m c)) (col (argsOf m c)) (nrm (argsOf m c)) H) X0
          (Terms.w3T (F := Ideal) 6 Cert.ReferenceIdeal.Facts₀.slices_S8x128x128_S1x128x128_6_0_0 (argsOf m c).a4)
          (Terms.w3T (F := Ideal) 6 Cert.ReferenceIdeal.Facts₀.slices_S8x128x128_S1x128x128_6_0_0 (argsOf m c).a5) :=
    (W42_arr m ρ c 4).trans (hC.trans (by
      show CMB c1 c2 (W41 m ρ c (Proc.devRef .tc main_v252)) (W41 m ρ c (Proc.devRef .tc main_v33))
          (W41 m ρ c (Proc.devRef .tc main_v254)) (W41 m ρ c (Proc.devRef .tc main_v256)) = _
      rw [e_agg, e_x0, e_w1, e_w2]))
  -- the normalisation region's operands
  have e_val : W45 m ρ c (Proc.devRef .tc main_v257) = _ :=
    (M14_keep (F := Ideal) (W42 m ρ c) (by decide : main_v257 ∉ writesM14)).trans e_out
  have e_mean : W45 m ρ c (Proc.devRef .tc main_v269) = sc11 (Terms.meanT (F := Ideal) _) :=
    (M14_mean (F := Ideal) (W42 m ρ c)).trans (congrArg (fun x => sc11 (Terms.meanT (F := Ideal) x)) e_out)
  have e_inv : W45 m ρ c (Proc.devRef .tc main_v270) = sc11 (Terms.invstdT (F := Ideal) _) :=
    (M14_invstd (F := Ideal) (W42 m ρ c)).trans (congrArg (fun x => sc11 (Terms.invstdT (F := Ideal) x)) e_out)
  have e_nw : W45 m ρ c (Proc.devRef .tc main_v267)
      = row128 (Terms.r2T (F := Ideal) 6 Cert.ReferenceIdeal.Facts₀.slices_S8x128_S1x128_6_0 (argsOf m c).a6) :=
    (M14_nw (F := Ideal) (W42 m ρ c)).trans
      (congrArg (fun x => row128 (Terms.r2T (F := Ideal) 6 Cert.ReferenceIdeal.Facts₀.slices_S8x128_S1x128_6_0 x))
        (arg_of_agree m ρ c L42 (r := main_arg6) (by decide)))
  have e_nb : W45 m ρ c (Proc.devRef .tc main_v268)
      = row128 (Terms.r2T (F := Ideal) 6 Cert.ReferenceIdeal.Facts₀.slices_S8x128_S1x128_6_0 (argsOf m c).a7) :=
    (M14_nb (F := Ideal) (W42 m ρ c)).trans
      (congrArg (fun x => row128 (Terms.r2T (F := Ideal) 6 Cert.ReferenceIdeal.Facts₀.slices_S8x128_S1x128_6_0 x))
        (arg_of_agree m ρ c L42 (r := main_arg7) (by decide)))
  -- the normalisation region
  refine ⟨L46, (W46_arr m ρ c 5).trans (hN.trans ?_)⟩
  show NRM (W45 m ρ c (Proc.devRef .tc main_v257)) (W45 m ρ c (Proc.devRef .tc main_v267))
      (W45 m ρ c (Proc.devRef .tc main_v268)) (W45 m ρ c (Proc.devRef .tc main_v269))
      (W45 m ρ c (Proc.devRef .tc main_v270)) = _
  rw [e_val, e_nw, e_nb, e_mean, e_inv]

end Cert.Hand.KChain

end
-- ==== Proof.KStretchA15.lean ====
/-
  The host operations between a normalisation layer and the next combine layer (here: the ones before combine layer 7),
  read at an ARBITRARY valuation `V` of the buffers they start from. Three results are read later:
  * the halved neighbour aggregation of the previous activations along the edge lists with the edge weights;
  * slab 7 of each of the two stacks of 128 × 128 weights.
  Every buffer that is not one of the 23 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The result buffers of the stretch, in order. -/
def writesA15 : List (Ref sig .tc) :=
  [main_v272, main_c_70, main_v273, main_v274, main_c_71, main_v275, main_v276, main_v277, main_v278, main_v279, main_v280,
   main_v281, main_cst_72, main_v282, main_v283, main_v284, main_cst_73, main_v285, main_v286, main_v287, main_v288,
   main_v289, main_v290]

/-- Every operation of the stretch writes a listed buffer. -/
theorem A15_writes :
    (hostOps15 (F := F)).Forall fun op => op.writes ⊆ (writesA15.map (Proc.devRef (τ := τ) .tc)).toFinset := by
  simp only [hostOps15, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem A15_keep (V : Valuation τ sig (Elt F)) {r : Ref sig .tc} (hr : r ∉ writesA15) :
    StableHlo.after (hostOps15 (F := F)) V (Proc.devRef .tc r) = V (Proc.devRef .tc r) :=
  StableHlo.after_of_writes_sub hostOps15 V A15_writes hr

/-- The halved neighbour aggregation of the previous activations. -/
theorem A15_agg (V : Valuation τ sig (Elt F)) :
    StableHlo.after (hostOps15 (F := F)) V (Proc.devRef .tc main_v286)
      = Terms.propT (V (Proc.devRef .tc main_v5)) (V (Proc.devRef .tc main_v6)) (V (Proc.devRef .tc main_v29))
          (V (Proc.devRef .tc main_v271)) := by
  unfold hostOps15
  after_results_simp
  rfl

/-- Slab 7 of the first stack of weights. -/
theorem A15_w1 (V : Valuation τ sig (Elt F)) :
    StableHlo.after (hostOps15 (F := F)) V (Proc.devRef .tc main_v288)
      = Terms.w3T 7 Cert.ReferenceIdeal.Facts₀.slices_S8x128x128_S1x128x128_7_0_0 (V (Proc.devRef .tc main_arg4)) := by
  unfold hostOps15
  after_results
  rfl

/-- Slab 7 of the second stack of weights. -/
theorem A15_w2 (V : Valuation τ sig (Elt F)) :
    StableHlo.after (hostOps15 (F := F)) V (Proc.devRef .tc main_v290)
      = Terms.w3T 7 Cert.ReferenceIdeal.Facts₀.slices_S8x128x128_S1x128x128_7_0_0 (V (Proc.devRef .tc main_arg5)) := by
  unfold hostOps15
  after_results
  rfl

end Cert.Hand.KChain

end
-- ==== Proof.KStretchM16.lean ====
/-
  The three stretches of host operations between a combine layer and its normalisation layer (here: layer 7), run one
  after the other and read at an ARBITRARY valuation `V` of the buffers they start from. With `out` the combine layer's
  result, four results are read later:
  * the mean of `out` (its sum over all 6 400 000 entries divided by 6 400 000), as a 1 × 1 array;
  * the reciprocal deviation 1 / (std out + ε), as a 1 × 1 array, the deviation being the root of the population
    variance about the mean as the outlined function computes it;
  * row 7 of the scale table and row 7 of the shift table, each as a 1 × 128 array.
  Every buffer that is not one of the 38 results keeps its contents.
-/
import proofs.«104804_j42004780155161_1_alg».proof.Proof.Gen.KernelIdeal.Launch
import proofs.«104804_j42004780155161_1_alg».proof.Proof.Gen.ReferenceIdeal
import proofs.«104804_j42004780155161_1_alg».proof.Proof.Terms
import proofs.«104804_j42004780155161_1_alg».proof.Proof.KStretchLib

noncomputable section

namespace Cert.Hand.KChain

open Idealize.ShloMosaic Idealize.ShloMosaic.TcCoe
open Cert.KernelIdeal Cert.KernelIdeal.Gen
open Cert.Hand

variable {F : FTy → Type} [FloatOps F]

/-- The three stretches, run one after the other. -/
def afterM16 (V : Valuation τ sig (Elt F)) : Valuation τ sig (Elt F) :=
  StableHlo.after (hostOps16_2 (F := F)) (StableHlo.after hostOps16_1 (StableHlo.after hostOps16 V))

/-- The result buffers of the three stretches, in order. -/
def writesM16 : List (Ref sig .tc) :=
  [main_cst_74, main_v292, main_cst_75, main_v293, main_c_76, main_call8_call0_cst, main_call8_call0_v0,
   main_call8_call0_v1, main_call8_call0_cst_0, main_call8_call0_v2, main_call8_call0_v3, main_call8_call0_v4,
   main_call8_call0_v5, main_call8_call0_v6, main_call8_call0_v7, main_call8_call0_cst_1, main_call8_call0_v8,
   main_call8_call0_cst_2, main_call8_call0_v9, main_call8_call0_v10, main_call8_call0_cst_3, main_call8_call0_v11,
   main_call8_call0_cst_4, main_call8_call0_call0_v0, main_call8_v0, main_v294, main_cst_77, main_v295, main_cst_78,
   main_v296, main_v297, main_v298, main_v299, main_v300, main_v301, main_v302, main_v303, main_v304]

/-- Every operation of the first stretch writes a listed buffer. -/
theorem M16_writes_a :
    (hostOps16 (F := F)).Forall fun op => op.writes ⊆ (writesM16.map (Proc.devRef (τ := τ) .tc)).toFinset := by
  simp only [hostOps16, List.Forall, StableHlo.nullary_writes, StableHlo.unary_writes, StableHlo.binary_writes,
    StableHlo.ternary_writes, StableHlo.reshape_writes]
  repeat' apply And.intro
  all_goals exact single_sub_of_mem (by decide)

/-- Every operation of the second stretch writes a listed buffer. -/
theorem M16_writes_b :
    (hostOps16_1 (F := F)).Forall fun op => op.writes ⊆ (writesM16.map (Proc.devRef (τ := τ) .tc)).toFinset := by
  simp only [hostOps16_1, List.Forall, StableHlo.nullary_writes, StableHlo.unary_writes, StableHlo.binary_writes,
    StableHlo.ternary_writes, StableHlo.reshape_writes]
  repeat' apply And.intro
  all_goals exact single_sub_of_mem (by decide)

/-- Every operation of the third stretch writes a listed buffer. -/
theorem M16_writes_c :
    (hostOps16_2 (F := F)).Forall fun op => op.writes ⊆ (writesM16.map (Proc.devRef (τ := τ) .tc)).toFinset := by
  simp only [hostOps16_2, List.Forall, StableHlo.nullary_writes, StableHlo.unary_writes, StableHlo.binary_writes,
    StableHlo.ternary_writes, StableHlo.reshape_writes]
  repeat' apply And.intro
  all_goals exact single_sub_of_mem (by decide)

/-- A buffer that is not a result keeps its contents. -/
theorem M16_keep (V : Valuation τ sig (Elt F)) {r : Ref sig .tc} (hr : r ∉ writesM16) :
    afterM16 V (Proc.devRef .tc r) = V (Proc.devRef .tc r) :=
  ((StableHlo.after_of_writes_sub hostOps16_2 _ M16_writes_c hr).trans
    (StableHlo.after_of_writes_sub hostOps16_1 _ M16_writes_b hr)).trans
    (StableHlo.after_of_writes_sub hostOps16 V M16_writes_a hr)

/-- The mean of the combine layer's result, as a 1 × 1 array. -/
theorem M16_mean (V : Valuation τ sig (Elt F)) :
    afterM16 V (Proc.devRef .tc main_v303) = one1 (Terms.meanT (V (Proc.devRef .tc main_v291))) := by
  unfold afterM16 hostOps16_2 hostOps16_1 hostOps16
  after_results_simp
  rfl

/-- The reciprocal deviation of the combine layer's result, as a 1 × 1 array. -/
theorem M16_invstd (V : Valuation τ sig (Elt F)) :
    afterM16 V (Proc.devRef .tc main_v304) = one1 (Terms.invstdT (V (Proc.devRef .tc main_v291))) := by
  unfold afterM16 hostOps16_2 hostOps16_1 hostOps16
  after_results_simp
  rfl

/-- Row 7 of the scale table, as a 1 × 128 array. -/
theorem M16_nw (V : Valuation τ sig (Elt F)) :
    afterM16 V (Proc.devRef .tc main_v301)
      = row1 (Terms.r2T 7 Cert.ReferenceIdeal.Facts₀.slices_S8x128_S1x128_7_0 (V (Proc.devRef .tc main_arg6))) := by
  unfold afterM16 hostOps16_2 hostOps16_1 hostOps16
  after_results_simp
  rfl

/-- Row 7 of the shift table, as a 1 × 128 array. -/
theorem M16_nb (V : Valuation τ sig (Elt F)) :
    afterM16 V (Proc.devRef .tc main_v302)
      = row1 (Terms.r2T 7 Cert.ReferenceIdeal.Facts₀.slices_S8x128_S1x128_7_0 (V (Proc.devRef .tc main_arg7))) := by
  unfold afterM16 hostOps16_2 hostOps16_1 hostOps16
  after_results_simp
  rfl

end Cert.Hand.KChain

end
-- ==== Proof.KChainL7.lean ====
/-
  One layer of the kernel program's run at the ideal instance (here: layer 7, the combine region 15 and the normalisation
  region 16), from the boundary after the previous normalisation region to the boundary after this one.

  Given that the live buffers (the arguments, the edge lists, the edge weights, the residual) are at the entry what they were
  before the first combine layer, and that the previous activations are `H`:
  * the stretch before the combine region leaves the halved neighbour aggregation of `H` and slab 7 of each stack of weights;
  * the combine region leaves  OUT = c1·agg + c2·(agg·W₁) + c1·x0 + c2·(x0·W₂)  (as the index-by-index function `CMB`);
  * the three stretches before the normalisation region leave the mean and the reciprocal deviation of OUT (1 × 1 arrays)
    and row 7 of the scale and shift tables (1 × 128 arrays), and keep OUT;
  * the normalisation region leaves  max (((OUT − mean) · invstd) · w + b) 0  (as the index-by-index function `NRM`).
  No step writes a live buffer. The two regions' arrays, each as ONE function of its operands, are hypotheses here.
-/
import proofs.«104804_j42004780155161_1_alg».proof.Proof.KChainBase
import proofs.«104804_j42004780155161_1_alg».proof.Proof.KStretchA15
import proofs.«104804_j42004780155161_1_alg».proof.Proof.KStretchM16

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec

variable (m : (ℓ : Loc nD τ sig) → Buf (Elt Ideal) ℓ) (ρ : Dev nD → PrngReg) (c : Dev nD)

set_option maxHeartbeats 1000000 in
theorem layer15 (H X0 : Terms.Act Ideal) (c1 c2 : EReal)
    (hL : Agree liveAll (W46 m ρ c) (W5 m ρ c))
    (hx0 : W5 m ρ c (Proc.devRef .tc main_v33) = X0)
    (hh : W46 m ρ c (Proc.devRef .tc main_v271) = H)
    (hC : (dat15 (V47 m ρ) c).arrAt 4 cfg15.N
      = CMB c1 c2 (V47 m ρ c (Pipeline.arrRef spec15 0)) (V47 m ρ c (Pipeline.arrRef spec15 1))
          (V47 m ρ c (Pipeline.arrRef spec15 2)) (V47 m ρ c (Pipeline.arrRef spec15 3)))
    (hN : (dat16 (V51 m ρ) c).arrAt 5 cfg16.N
      = NRM (V51 m ρ c (Pipeline.arrRef spec16 0)) (V51 m ρ c (Pipeline.arrRef spec16 1))
          (V51 m ρ c (Pipeline.arrRef spec16 2)) (V51 m ρ c (Pipeline.arrRef spec16 3)) (V51 m ρ c (Pipeline.arrRef spec16 4))) :
    Agree liveAll (W52 m ρ c) (W5 m ρ c) ∧
    W52 m ρ c (Proc.devRef .tc main_v305)
      = NRM
          (CMB c1 c2 (Terms.propT (F := Ideal) (row (argsOf m c)) (col (argsOf m c)) (nrm (argsOf m c)) H) X0
            (Terms.w3T (F := Ideal) 7 Cert.ReferenceIdeal.Facts₀.slices_S8x128x128_S1x128x128_7_0_0 (argsOf m c).a4)
            (Terms.w3T (F := Ideal) 7 Cert.ReferenceIdeal.Facts₀.slices_S8x128x128_S1x128x128_7_0_0 (argsOf m c).a5))
          (row128 (Terms.r2T (F := Ideal) 7 Cert.ReferenceIdeal.Facts₀.slices_S8x128_S1x128_7_0 (argsOf m c).a6))
          (row128 (Terms.r2T (F := Ideal) 7 Cert.ReferenceIdeal.Facts₀.slices_S8x128_S1x128_7_0 (argsOf m c).a7))
          (sc11 (Terms.meanT (F := Ideal)
            (CMB c1 c2 (Terms.propT (F := Ideal) (row (argsOf m c)) (col (argsOf m c)) (nrm (argsOf m c)) H) X0
              (Terms.w3T (F := Ideal) 7 Cert.ReferenceIdeal.Facts₀.slices_S8x128x128_S1x128x128_7_0_0 (argsOf m c).a4)
              (Terms.w3T (F := Ideal) 7 Cert.ReferenceIdeal.Facts₀.slices_S8x128x128_S1x128x128_7_0_0 (argsOf m c).a5))))
          (sc11 (Terms.invstdT (F := Ideal)
            (CMB c1 c2 (Terms.propT (F := Ideal) (row (argsOf m c)) (col (argsOf m c)) (nrm (argsOf m c)) H) X0
              (Terms.w3T (F := Ideal) 7 Cert.ReferenceIdeal.Facts₀.slices_S8x128x128_S1x128x128_7_0_0 (argsOf m c).a4)
              (Terms.w3T (F := Ideal) 7 Cert.ReferenceIdeal.Facts₀.slices_S8x128x128_S1x128x128_7_0_0 (argsOf m c).a5)))) := by
  -- no step writes a live buffer (the combine region reads the residual through an input window and leaves it as found)
  have k47 : Agree liveAll (W47 m ρ c) (W46 m ρ c) := Agree.after (hostOps15 (F := Ideal)) (W46 m ρ c) (A15_writes (F := Ideal)) (by decide)
  have k48 : Agree liveAll (W48 m ρ c) (W47 m ρ c) :=
    Agree.cons ((W48_arr m ρ c 1).trans (((dat15 (V47 m ρ) c).arrAt_in 1 rfl _).trans (A_eq15 (V47 m ρ) c 1)))
      (fun r hr => W48_of_ne m ρ c r ((by decide : ∀ r ∈ liveRest, ∀ w, Pipeline.arrRef spec15 w ≠ r) r hr))
  have k51 : Agree liveAll (W51 m ρ c) (W48 m ρ c) := fun r hr =>
    M16_keep (F := Ideal) (W48 m ρ c) ((by decide : ∀ r ∈ liveAll, r ∉ writesM16) r hr)
  have k52 : Agree liveAll (W52 m ρ c) (W51 m ρ c) := fun r hr =>
    W52_of_ne m ρ c r ((by decide : ∀ r ∈ liveAll, ∀ w, Pipeline.arrRef spec16 w ≠ r) r hr)
  have L47 : Agree liveAll (W47 m ρ c) (W5 m ρ c) := k47.trans hL
  have L48 : Agree liveAll (W48 m ρ c) (W5 m ρ c) := k48.trans L47
  have L51 : Agree liveAll (W51 m ρ c) (W5 m ρ c) := k51.trans L48
  have L52 : Agree liveAll (W52 m ρ c) (W5 m ρ c) := k52.trans L51
  -- the combine region's operands
  have e_agg : W47 m ρ c (Proc.devRef .tc main_v286)
      = Terms.propT (F := Ideal) (row (argsOf m c)) (col (argsOf m c)) (nrm (argsOf m c)) H :=
    (A15_agg (F := Ideal) (W46 m ρ c)).trans (by
      rw [hh, hL main_v5 (by decide), hL main_v6 (by decide), hL main_v29 (by decide), W5_row, W5_col, W5_nrm])
  have e_x0 : W47 m ρ c (Proc.devRef .tc main_v33) = X0 := (L47 main_v33 (by decide)).trans hx0
  have e_w1 : W47 m ρ c (Proc.devRef .tc main_v288)
      = Terms.w3T (F := Ideal) 7 Cert.ReferenceIdeal.Facts₀.slices_S8x128x128_S1x128x128_7_0_0 (argsOf m c).a4 :=
    (A15_w1 (F := Ideal) (W46 m ρ c)).trans
      (congrArg (Terms.w3T (F := Ideal) 7 Cert.ReferenceIdeal.Facts₀.slices_S8x128x128_S1x128x128_7_0_0)
        (arg_of_agree m ρ c hL (r := main_arg4) (by decide)))
  have e_w2 : W47 m ρ c (Proc.devRef .tc main_v290)
      = Terms.w3T (F := Ideal) 7 Cert.ReferenceIdeal.Facts₀.slices_S8x128x128_S1x128x128_7_0_0 (argsOf m c).a5 :=
    (A15_w2 (F := Ideal) (W46 m ρ c)).trans
      (congrArg (Terms.w3T (F := Ideal) 7 Cert.ReferenceIdeal.Facts₀.slices_S8x128x128_S1x128x128_7_0_0)
        (arg_of_agree m ρ c hL (r := main_arg5) (by decide)))
  -- the combine region
  have e_out : W48 m ρ c (Proc.devRef .tc main_v291)
      = CMB c1 c2 (Terms.propT (F := Ideal) (row (argsOf m c)) (col (argsOf m c)) (nrm (argsOf m c)) H) X0
          (Terms.w3T (F := Ideal) 7 Cert.ReferenceIdeal.Facts₀.slices_S8x128x128_S1x128x128_7_0_0 (argsOf m c).a4)
          (Terms.w3T (F := Ideal) 7 Cert.ReferenceIdeal.Facts₀.slices_S8x128x128_S1x128x128_7_0_0 (argsOf m c).a5) :=
    (W48_arr m ρ c 4).trans (hC.trans (by
      show CMB c1 c2 (W47 m ρ c (Proc.devRef .tc main_v286)) (W47 m ρ c (Proc.devRef .tc main_v33))
          (W47 m ρ c (Proc.devRef .tc main_v288)) (W47 m ρ c (Proc.devRef .tc main_v290)) = _
      rw [e_agg, e_x0, e_w1, e_w2]))
  -- the normalisation region's operands
  have e_val : W51 m ρ c (Proc.devRef .tc main_v291) = _ :=
    (M16_keep (F := Ideal) (W48 m ρ c) (by decide : main_v291 ∉ writesM16)).trans e_out
  have e_mean : W51 m ρ c (Proc.devRef .tc main_v303) = sc11 (Terms.meanT (F := Ideal) _) :=
    (M16_mean (F := Ideal) (W48 m ρ c)).trans (congrArg (fun x => sc11 (Terms.meanT (F := Ideal) x)) e_out)
  have e_inv : W51 m ρ c (Proc.devRef .tc main_v304) = sc11 (Terms.invstdT (F := Ideal) _) :=
    (M16_invstd (F := Ideal) (W48 m ρ c)).trans (congrArg (fun x => sc11 (Terms.invstdT (F := Ideal) x)) e_out)
  have e_nw : W51 m ρ c (Proc.devRef .tc main_v301)
      = row128 (Terms.r2T (F := Ideal) 7 Cert.ReferenceIdeal.Facts₀.slices_S8x128_S1x128_7_0 (argsOf m c).a6) :=
    (M16_nw (F := Ideal) (W48 m ρ c)).trans
      (congrArg (fun x => row128 (Terms.r2T (F := Ideal) 7 Cert.ReferenceIdeal.Facts₀.slices_S8x128_S1x128_7_0 x))
        (arg_of_agree m ρ c L48 (r := main_arg6) (by decide)))
  have e_nb : W51 m ρ c (Proc.devRef .tc main_v302)
      = row128 (Terms.r2T (F := Ideal) 7 Cert.ReferenceIdeal.Facts₀.slices_S8x128_S1x128_7_0 (argsOf m c).a7) :=
    (M16_nb (F := Ideal) (W48 m ρ c)).trans
      (congrArg (fun x => row128 (Terms.r2T (F := Ideal) 7 Cert.ReferenceIdeal.Facts₀.slices_S8x128_S1x128_7_0 x))
        (arg_of_agree m ρ c L48 (r := main_arg7) (by decide)))
  -- the normalisation region
  refine ⟨L52, (W52_arr m ρ c 5).trans (hN.trans ?_)⟩
  show NRM (W51 m ρ c (Proc.devRef .tc main_v291)) (W51 m ρ c (Proc.devRef .tc main_v301))
      (W51 m ρ c (Proc.devRef .tc main_v302)) (W51 m ρ c (Proc.devRef .tc main_v303))
      (W51 m ρ c (Proc.devRef .tc main_v304)) = _
  rw [e_val, e_nw, e_nb, e_mean, e_inv]

end Cert.Hand.KChain

end
-- ==== Proof.RegMatmulBiasPay.lean ====
/-
  The two matrix-product bodies read at one entry. A body loads a block of rows x0, the whole weight x1 and the bias
  row x2, and stores  x0 · x1 + x2  (the narrowing of the operands is the identity on the extended reals, and the
  product accumulates into zero): entry (p, q) of what it stores is the sum over k of x0(p, k) · x1(k, q), plus x2(0, q).
-/
import proofs.«104804_j42004780155161_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hand.RegMatmulBias

open Idealize.ShloMosaic Idealize.ShloMosaic.ValueIdx Cert.KernelIdeal Cert.KernelIdeal.Gen

/-! ## The first projection's body: a [5000,64] block times the [64,128] weight -/

theorem lhs0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The block product into a zero accumulator, at the entry (p, q): the 64 products of row p with column q, summed. -/
theorem matmul0_apply (a : FVec Ideal S5000x64 .bf16) (b : FVec Ideal S64x128 .bf16) (p : Fin 5000) (q : Fin 128) :
    matmul dot_S5000x64_S64x128_S5000x128_1_0_0_1_n_n none a b (constant (F := Ideal) S5000x128 .f32 0x00000000#32) (ix2 p q)
      = ∑ k : Fin 64, a (ix2 p k) * b (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-- What the first projection's body stores, at the entry (p, q) of its block. -/
theorem pay0_apply (x0 : Vec Ideal S5000x64 .f32) (x1 : Vec Ideal S64x128 .f32) (x2 : Vec Ideal S1x128 .f32) (p : Fin 5000) (q : Fin 128) :
    (k0_pay1 (F := Ideal) x0 x1 x2) (ix2 p q) = (∑ k : Fin 64, x0 (ix2 p k) * x1 (ix2 k q)) + x2 (ix2 (0 : Fin 1) q) := by
  unfold k0_pay1
  refine (addf_apply _ _ (ix2 p q)).trans ?_
  refine congrArg₂ (· + ·) ((matmul0_apply _ _ p q).trans rfl) ?_
  refine (broadcastTo_1b_ab_apply _ _ p q).trans ?_
  rw [shapeCast_self]

/-! ## The last projection's body: a [5000,128] block times the [128,64] weight -/

theorem lhs17_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs17_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs17_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs17_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into a zero accumulator, at the entry (p, q): the 128 products of row p with column q, summed. -/
theorem matmul17_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs17_0 _ _
    | ⟨1, _⟩ => exact (lhs17_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs17_0 _ _).trans hk
    | ⟨1, _⟩ => exact rhs17_1 _ _)
  rw [el, er]

/-- What the last projection's body stores, at the entry (p, q) of its block. -/
theorem pay17_apply (x0 : Vec Ideal S5000x128 .f32) (x1 : Vec Ideal S128x64 .f32) (x2 : Vec Ideal S1x64 .f32) (p : Fin 5000) (q : Fin 64) :
    (k17_pay1 (F := Ideal) x0 x1 x2) (ix2 p q) = (∑ k : Fin 128, x0 (ix2 p k) * x1 (ix2 k q)) + x2 (ix2 (0 : Fin 1) q) := by
  unfold k17_pay1
  refine (addf_apply _ _ (ix2 p q)).trans ?_
  refine congrArg₂ (· + ·) ((matmul17_apply _ _ p q).trans ?_) ?_
  · rw [shapeCast_self]; rfl
  · refine (broadcastTo_1b_ab_apply _ _ p q).trans ?_
    rw [shapeCast_self]

end Cert.Hand.RegMatmulBias

end
-- ==== Proof.RegMatmulBias.lean ====
/-
  The value of the two projection regions of the kernel program, each as ONE function of the arrays the region finds.
  A region runs ten grid points; point t loads rows 5000·t … 5000·t + 4999 of the input, the whole weight and the bias
  row, and writes  rows · weight + bias  back to the same rows of the output. The ten row blocks tile the 50000 rows, so
  after the region the output array is  input · weight + bias  entry by entry: `MB0` for region 0, `MB17` for region 17.
-/
import proofs.«104804_j42004780155161_1_alg».proof.Proof.Gen.KernelIdeal.Frame
import proofs.«104804_j42004780155161_1_alg».proof.Proof.RegMatmulBiasSpec
import proofs.«104804_j42004780155161_1_alg».proof.Proof.RegMatmulBiasPay
import Idealize.ShloMosaic.Lib.Pipeline.Value
import Idealize.ShloMosaic.Lib.ValueIdx

noncomputable section

open scoped BigOperators

namespace Cert.Hand.RegMatmulBias

open Idealize.ShloMosaic Idealize.ShloMosaic.TcCoe Idealize.SL.Sem Idealize.ShloMosaic.ValueIdx
open Idealize.ShloMosaic.Pipeline (Dat)
open Cert.KernelIdeal Cert.KernelIdeal.Gen

-- The TensorCore's buffer contents when a region is entered: every statement below holds for any such contents.
variable (V : (c : Dev nD) → (b : Ref sig .tc) → Buf (Elt Ideal) ((c : Thread nD τ).loc b))

theorem hz : (![0, 0] : Fin 2 → Nat) = fun _ => 0 := funext fun a => by fin_cases a <;> rfl

/-! ## Region 0: x[50000,64] · w[64,128] + b[1,128] -/

/-- The index maps over the ten grid points: the row-block windows (the input rows, the output rows) sit at block
    `t` along the rows and block 0 along the columns; the weight and the bias are one block each. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows 5000·t … 5000·t + 4999 of the input array. -/
theorem xblk0_apply (c : Dev nD) (t : Fin cfg0.N) (y : S5000x64.Idx) (k : S50000x64.Idx)
    (hk0 : (k 0).val = t.val * 5000 + (y 0).val) (hk1 : (k 1).val = (y 1).val) :
    (iblk0 V c 0 t : Vec Ideal S5000x64 .f32) y = (V c (Pipeline.arrRef spec0 0) : S50000x64.Idx → EReal) k := by
  obtain ⟨e00, e01, -⟩ := idx0 t
  unfold iblk0
  rw [View.read_apply]
  refine congrArg (V c (Pipeline.arrRef spec0 0) : S50000x64.Idx → EReal) ?_
  funext a
  apply Fin.ext
  match a with
  | ⟨0, _⟩ => show win0_0.index t (0 : Fin 2) * 5000 + 1 * (y 0).val = (k 0).val; omega
  | ⟨1, _⟩ => show win0_0.index t (1 : Fin 2) * 64 + 1 * (y 1).val = (k 1).val; omega

/-- The weight block at every point is the whole weight array. -/
theorem wblk0_eq (c : Dev nD) (t : Fin cfg0.N) :
    (iblk0 V c 1 t : Vec Ideal S64x128 .f32) = (V c (Pipeline.arrRef spec0 1) : S64x128.Idx → EReal) := by
  obtain ⟨-, -, e10, e11, -⟩ := idx0 t
  funext y
  unfold iblk0
  rw [View.read_apply]
  refine congrArg (V c (Pipeline.arrRef spec0 1) : S64x128.Idx → EReal) ?_
  funext a
  apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The bias block at every point is the whole one-row bias array. -/
theorem bblk0_eq (c : Dev nD) (t : Fin cfg0.N) :
    (iblk0 V c 2 t : Vec Ideal S1x128 .f32) = (V c (Pipeline.arrRef spec0 2) : S1x128.Idx → EReal) := by
  obtain ⟨-, -, -, -, e20, e21, -⟩ := idx0 t
  funext y
  unfold iblk0
  rw [View.read_apply]
  refine congrArg (V c (Pipeline.arrRef spec0 2) : S1x128.Idx → EReal) ?_
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- One entry of what a point stores, against one entry of `MB0`: over a block of rows that is rows 5000·n … of X, the
    whole weight W and the bias row B, the body's entry (p, q) is `MB0 X W B` at (5000·n + p, q). -/
theorem point0 (X : S50000x64.Idx → EReal) (W : S64x128.Idx → EReal) (B : S1x128.Idx → EReal)
    (x0 : Vec Ideal S5000x64 .f32) (x1 : Vec Ideal S64x128 .f32) (x2 : Vec Ideal S1x128 .f32)
    (j : S5000x128.Idx) (i : S50000x128.Idx) (n : Nat)
    (h0 : ∀ (y : S5000x64.Idx) (k : S50000x64.Idx), (k 0).val = n * 5000 + (y 0).val → (k 1).val = (y 1).val → x0 y = X k)
    (h1 : x1 = W) (h2 : x2 = B)
    (hi0 : (i 0).val = n * 5000 + (j 0).val) (hi1 : (i 1).val = (j 1).val) :
    (k0_pay1 (F := Ideal) x0 x1 x2) j = MB0 X W B i := by
  obtain ⟨p, q, rfl⟩ : ∃ (p : Fin 5000) (q : Fin 128), j = ix2 p q := ⟨j 0, j 1, eq_ix2 j⟩
  obtain ⟨r, c, rfl⟩ : ∃ (r : Fin 50000) (c : Fin 128), i = ix2 r c := ⟨i 0, i 1, eq_ix2 i⟩
  obtain rfl : c = q := Fin.ext hi1
  subst h1 h2
  rw [pay0_apply, MB0_apply]
  refine congrArg (· + x2 (ix2 (0 : Fin 1) c)) (Finset.sum_congr rfl fun k _ => ?_)
  rw [h0 (ix2 p k) (ix2 r k) hi0 rfl]

/-- WHAT POINT `t` WRITES BACK is block `t` of `MB0` of the three arrays as the region finds them. -/
theorem flushed0_eq (c : Dev nD) (t : Fin cfg0.N) :
    (dat0 V c).flushed 3 t = ((cfg0.win 3).blk t).view.read (Elt Ideal)
      (MB0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S1x128) hz]
  obtain ⟨-, -, -, -, -, -, e30, e31⟩ := idx0 t
  funext j
  rw [View.read_apply]
  refine point0 _ _ _ (iblk0 V c 0 t) (iblk0 V c 1 t) (iblk0 V c 2 t) j (((cfg0.win 3).blk t).view.emb j) t.val
    (fun y k hk0 hk1 => xblk0_apply V c t y k hk0 hk1) (wblk0_eq V c t) (bblk0_eq V c t) ?_ ?_
  · show win0_3.index t (0 : Fin 2) * 5000 + 1 * (j 0).val = t.val * 5000 + (j 0).val; omega
  · show win0_3.index t (1 : Fin 2) * 128 + 1 * (j 1).val = (j 1).val; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- Every row of the output is in some point's block: row r in the block of point r / 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e30, e31⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY AFTER REGION 0: `MB0` of the input, weight and bias arrays as the region finds them. -/
theorem arrAt0 (c : Dev nD) :
    (dat0 (F := Ideal) V c).arrAt 3 cfg0.N
      = MB0 (V c (Pipeline.arrRef spec0 0)) (V c (Pipeline.arrRef spec0 1)) (V c (Pipeline.arrRef spec0 2)) :=
  (dat0 V c).arrAt_eq_of_cover 3 _ (fun t _ => flushed0_eq V c t) (cover0)

/-! ## Region 17: h[50000,128] · w[128,64] + b[1,64] -/

/-- The index maps over the ten grid points: the row-block windows (the input rows, the output rows) sit at block
    `t` along the rows and block 0 along the columns; the weight and the bias are one block each. -/
theorem idx17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- The input block at point `t` is rows 5000·t … 5000·t + 4999 of the input array. -/
theorem xblk17_apply (c : Dev nD) (t : Fin cfg17.N) (y : S5000x128.Idx) (k : S50000x128.Idx)
    (hk0 : (k 0).val = t.val * 5000 + (y 0).val) (hk1 : (k 1).val = (y 1).val) :
    (iblk17 V c 0 t : Vec Ideal S5000x128 .f32) y = (V c (Pipeline.arrRef spec17 0) : S50000x128.Idx → EReal) k := by
  obtain ⟨e00, e01, -⟩ := idx17 t
  unfold iblk17
  rw [View.read_apply]
  refine congrArg (V c (Pipeline.arrRef spec17 0) : S50000x128.Idx → EReal) ?_
  funext a
  apply Fin.ext
  match a with
  | ⟨0, _⟩ => show win17_0.index t (0 : Fin 2) * 5000 + 1 * (y 0).val = (k 0).val; omega
  | ⟨1, _⟩ => show win17_0.index t (1 : Fin 2) * 128 + 1 * (y 1).val = (k 1).val; omega

/-- The weight block at every point is the whole weight array. -/
theorem wblk17_eq (c : Dev nD) (t : Fin cfg17.N) :
    (iblk17 V c 1 t : Vec Ideal S128x64 .f32) = (V c (Pipeline.arrRef spec17 1) : S128x64.Idx → EReal) := by
  obtain ⟨-, -, e10, e11, -⟩ := idx17 t
  funext y
  unfold iblk17
  rw [View.read_apply]
  refine congrArg (V c (Pipeline.arrRef spec17 1) : S128x64.Idx → EReal) ?_
  funext a
  apply Fin.ext
  match a with
  | ⟨0, _⟩ => show win17_1.index t (0 : Fin 2) * 128 + 1 * (y 0).val = (y 0).val; omega
  | ⟨1, _⟩ => show win17_1.index t (1 : Fin 2) * 64 + 1 * (y 1).val = (y 1).val; omega

/-- The bias block at every point is the whole one-row bias array. -/
theorem bblk17_eq (c : Dev nD) (t : Fin cfg17.N) :
    (iblk17 V c 2 t : Vec Ideal S1x64 .f32) = (V c (Pipeline.arrRef spec17 2) : S1x64.Idx → EReal) := by
  obtain ⟨-, -, -, -, e20, e21, -⟩ := idx17 t
  funext y
  unfold iblk17
  rw [View.read_apply]
  refine congrArg (V c (Pipeline.arrRef spec17 2) : S1x64.Idx → EReal) ?_
  funext a
  apply Fin.ext
  match a with
  | ⟨0, _⟩ => show win17_2.index t (0 : Fin 2) * 1 + 1 * (y 0).val = (y 0).val; omega
  | ⟨1, _⟩ => show win17_2.index t (1 : Fin 2) * 64 + 1 * (y 1).val = (y 1).val; omega

/-- One entry of what a point stores, against one entry of `MB17`: over a block of rows that is rows 5000·n … of X, the
    whole weight W and the bias row B, the body's entry (p, q) is `MB17 X W B` at (5000·n + p, q). -/
theorem point17 (X : S50000x128.Idx → EReal) (W : S128x64.Idx → EReal) (B : S1x64.Idx → EReal)
    (x0 : Vec Ideal S5000x128 .f32) (x1 : Vec Ideal S128x64 .f32) (x2 : Vec Ideal S1x64 .f32)
    (j : S5000x64.Idx) (i : S50000x64.Idx) (n : Nat)
    (h0 : ∀ (y : S5000x128.Idx) (k : S50000x128.Idx), (k 0).val = n * 5000 + (y 0).val → (k 1).val = (y 1).val → x0 y = X k)
    (h1 : x1 = W) (h2 : x2 = B)
    (hi0 : (i 0).val = n * 5000 + (j 0).val) (hi1 : (i 1).val = (j 1).val) :
    (k17_pay1 (F := Ideal) x0 x1 x2) j = MB17 X W B i := by
  obtain ⟨p, q, rfl⟩ : ∃ (p : Fin 5000) (q : Fin 64), j = ix2 p q := ⟨j 0, j 1, eq_ix2 j⟩
  obtain ⟨r, c, rfl⟩ : ∃ (r : Fin 50000) (c : Fin 64), i = ix2 r c := ⟨i 0, i 1, eq_ix2 i⟩
  obtain rfl : c = q := Fin.ext hi1
  subst h1 h2
  rw [pay17_apply, MB17_apply]
  refine congrArg (· + x2 (ix2 (0 : Fin 1) c)) (Finset.sum_congr rfl fun k _ => ?_)
  rw [h0 (ix2 p k) (ix2 r k) hi0 rfl]

/-- WHAT POINT `t` WRITES BACK is block `t` of `MB17` of the three arrays as the region finds them. -/
theorem flushed17_eq (c : Dev nD) (t : Fin cfg17.N) :
    (dat17 V c).flushed 3 t = ((cfg17.win 3).blk t).view.read (Elt Ideal)
      (MB17 (V c (Pipeline.arrRef spec17 0)) (V c (Pipeline.arrRef spec17 1)) (V c (Pipeline.arrRef spec17 2))) := by
  show (cfg17.win 3).cut (grid17.coords t) ((dat17 V c).after 3 t) = _
  rw [after17_3]
  unfold out17_3
  rw [View.canon_unit_zero hz]
  simp only [View.ld_unit_zero (S := S5000x128) hz, View.ld_unit_zero (S := S128x64) hz, View.ld_unit_zero (S := S1x64) hz]
  obtain ⟨-, -, -, -, -, -, e30, e31⟩ := idx17 t
  funext j
  rw [View.read_apply]
  refine point17 _ _ _ (iblk17 V c 0 t) (iblk17 V c 1 t) (iblk17 V c 2 t) j (((cfg17.win 3).blk t).view.emb j) t.val
    (fun y k hk0 hk1 => xblk17_apply V c t y k hk0 hk1) (wblk17_eq V c t) (bblk17_eq V c t) ?_ ?_
  · show win17_3.index t (0 : Fin 2) * 5000 + 1 * (j 0).val = t.val * 5000 + (j 0).val; omega
  · show win17_3.index t (1 : Fin 2) * 64 + 1 * (j 1).val = (j 1).val; omega

/-- An index of the output array is in point `t`'s block iff each coordinate is in the block's range on its axis. -/
theorem mem_blk17 (t : Fin cfg17.N) (i : S50000x64.Idx) :
    i ∈ ((cfg17.win 3).blk t).view.set ↔ ∀ a : Fin 2, win17_3.index t a * S5000x64.size a ≤ (i a).val ∧ (i a).val < win17_3.index t a * S5000x64.size a + S5000x64.size a := by
  show i ∈ ((View.whole main_v307).slice (win17_3.rect t)).set ↔ _
  rw [View.set_slice_whole, Rect.mem_set_unit]
  exact Iff.rfl

/-- Every row of the output is in some point's block: row r in the block of point r / 5000. -/
theorem cover17 (i : S50000x64.Idx) : ∃ t : Fin cfg17.N, (cfg17.win 3).flush t = true ∧ i ∈ ((cfg17.win 3).blk t).view.set := by
  have hi0 : (i 0).val < 50000 := (i 0).isLt
  have hi1 : (i 1).val < 64 := (i 1).isLt
  obtain ⟨t, ht⟩ : ∃ t : Fin cfg17.N, t.val = (i 0).val / 5000 :=
    ⟨⟨(i 0).val / 5000, by rw [show cfg17.N = 10 from N_17]; omega⟩, rfl⟩
  obtain ⟨-, -, -, -, -, -, e30, e31⟩ := idx17 t
  refine ⟨t, flush17_3 t, ?_⟩
  rw [mem_blk17]
  intro a
  match a with
  | ⟨0, _⟩ => show win17_3.index t (0 : Fin 2) * 5000 ≤ (i 0).val ∧ (i 0).val < win17_3.index t (0 : Fin 2) * 5000 + 5000; omega
  | ⟨1, _⟩ => show win17_3.index t (1 : Fin 2) * 64 ≤ (i 1).val ∧ (i 1).val < win17_3.index t (1 : Fin 2) * 64 + 64; omega

/-- THE OUTPUT ARRAY AFTER REGION 17: `MB17` of the input, weight and bias arrays as the region finds them. -/
theorem arrAt17 (c : Dev nD) :
    (dat17 (F := Ideal) V c).arrAt 3 cfg17.N
      = MB17 (V c (Pipeline.arrRef spec17 0)) (V c (Pipeline.arrRef spec17 1)) (V c (Pipeline.arrRef spec17 2)) :=
  (dat17 V c).arrAt_eq_of_cover 3 _ (fun t _ => flushed17_eq V c t) (cover17)

end Cert.Hand.RegMatmulBias

end
-- ==== Proof.RegCombineDot.lean ====
/-
  A plain matrix product read at one entry.

  For dimension numbers that contract the left operand's columns against the right operand's rows, with no batch axis
  (an M × K matrix times a K × N matrix), the operand indices at result entry (p, q) and contraction position k are
  (p, k) on the left and (k, q) on the right. So the sum over the contraction index is the sum over k < K of
  l (p, k) · r (k, q): the same sum for a product accumulated into zero and for a product with no accumulator. Only
  0 + x = x is used of the arithmetic, so the reading holds at the infinities too.
-/
import Idealize.ShloMosaic.PureOps.Ideal.Laws
import Idealize.ShloMosaic.Lib.ValueIdx

noncomputable section

namespace Cert.Hand.RegCombineDot

open Idealize.ShloMosaic Idealize.ShloMosaic.ValueIdx
open scoped BigOperators

variable {M K N : Nat} (d : DotDims ⟨2, ![M, K]⟩ ⟨2, ![K, N]⟩ ⟨2, ![M, N]⟩)

/-- The dimension numbers of a plain product: no batch axis; the left operand keeps axis 0 and contracts axis 1, the
    right operand contracts axis 0 and keeps axis 1. -/
structure Plain : Prop where
  lb : d.lhsBatch = []
  ln : d.lhsNonContracting = [0]
  lc : d.lhsContracting = [1]
  rb : d.rhsBatch = []
  rn : d.rhsNonContracting = [1]
  rc : d.rhsContracting = [0]

variable {d}

/-- The left operand's row is the result's row. -/
theorem lhs_row (h : Plain d) (j : (⟨2, ![M, N]⟩ : Shape).Idx) (k : d.contr.Idx) : (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val :=
    fun a b ha hb e => by subst e; rfl
  exact key _ 0 _ (by decide) (by simp [h.lb, h.ln])

/-- The left operand's column is the contraction position. -/
theorem lhs_col (h : Plain d) (j : (⟨2, ![M, N]⟩ : Shape).Idx) (k : d.contr.Idx) :
    (d.lhsIdx j k 1).val = (k ⟨0, by rw [d.rank_contr, h.lc]; exact Nat.one_pos⟩).val :=
  d.lhsIdx_val_of_single h.lc j k

/-- The right operand's row is the contraction position. -/
theorem rhs_row (h : Plain d) (j : (⟨2, ![M, N]⟩ : Shape).Idx) (k : d.contr.Idx) :
    (d.rhsIdx j k 0).val = (k ⟨0, by rw [d.rank_contr, h.lc]; exact Nat.one_pos⟩).val :=
  d.rhsIdx_val_of_single h.rc j k

/-- The right operand's column is the result's column. -/
theorem rhs_col (h : Plain d) (j : (⟨2, ![M, N]⟩ : Shape).Idx) (k : d.contr.Idx) : (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val :=
    fun a b ha hb e => by subst e; rfl
  exact key _ 1 _ (by decide) (by simp [h.lb, h.ln, h.rn])

/-- The contraction has one axis ... -/
theorem contr_rank (h : Plain d) : d.contr.rank = 1 := by rw [d.rank_contr, h.lc]; rfl

/-- ... of extent K. -/
theorem contr_size (h : Plain d) : d.contr.size ⟨0, by rw [contr_rank h]; exact Nat.one_pos⟩ = K := by
  have e : ∀ (L : List (Fin 2)) (hL : L = [1]) (hp : 0 < L.length), (⟨2, ![M, K]⟩ : Shape).size L[0] = K := by
    intro L hL hp; subst hL; rfl
  exact (d.size_contr 0 (by rw [h.lc]; exact Nat.one_pos)).trans (e _ h.lc _)

/-- THE CONTRACTION AS A SUM OVER k < K: at result entry (p, q) the factors are l (p, k) and r (k, q). -/
theorem contr_sum (h : Plain d) (l : (⟨2, ![M, K]⟩ : Shape).Idx → EReal) (r : (⟨2, ![K, N]⟩ : Shape).Idx → EReal)
    (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have e1 : d.lhsIdx (ix2 p q) ((contrEquiv1 d K (contr_rank h) (contr_size h)).symm k) = ix2 p k := by
    funext a; apply Fin.ext
    match a with
    | ⟨0, _⟩ => exact lhs_row h _ _
    | ⟨1, _⟩ => exact (lhs_col h _ _).trans hk
  have e2 : d.rhsIdx (ix2 p q) ((contrEquiv1 d K (contr_rank h) (contr_size h)).symm k) = ix2 k q := by
    funext a; apply Fin.ext
    match a with
    | ⟨0, _⟩ => exact (rhs_row h _ _).trans hk
    | ⟨1, _⟩ => exact rhs_col h _ _
  rw [e1, e2]

/-- A product accumulated into the zero splat, at one entry. -/
theorem matmul_zero_apply (h : Plain d) {φ₁ φ₂ : FTy} (l : FVec Ideal ⟨2, ![M, K]⟩ φ₁) (r : FVec Ideal ⟨2, ![K, N]⟩ φ₂)
    (p : Fin M) (q : Fin N) :
    matmul d none l r (constant ⟨2, ![M, N]⟩ .f32 0x00000000#32) (ix2 p q) = ∑ k : Fin K, l (ix2 p k) * r (ix2 k q) :=
  (Ideal.matmul_constant_zero_apply d none l r (ix2 p q)).trans (contr_sum h l r p q)

/-- A product with no accumulator, at one entry. -/
theorem dotGeneral_apply (h : Plain d) {φ₁ φ₂ : FTy} (l : FVec Ideal ⟨2, ![M, K]⟩ φ₁) (r : FVec Ideal ⟨2, ![K, N]⟩ φ₂)
    (p : Fin M) (q : Fin N) :
    Host.dotGeneral d none l r (ix2 p q) = ∑ k : Fin K, l (ix2 p k) * r (ix2 k q) :=
  (Ideal.dotGeneral_apply d none .single l r (ix2 p q)).trans (contr_sum h l r p q)

end Cert.Hand.RegCombineDot

end
-- ==== Proof.RegCombine1.lean ====
/-
  The combine layer computed by launch 1, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine1

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k1_pay1 (F := Ideal) x0 x1 x2 x3) (ix2 p q)
      = (((Ideal.ofBits .f32 0x3E9D1BD0#32 * x0 (ix2 p q))
            + (Ideal.ofBits .f32 0x3F317218#32 * ∑ k : Fin 128, x0 (ix2 p k) * x2 (ix2 k q)))
          + (Ideal.ofBits .f32 0x3E9D1BD0#32 * x1 (ix2 p q)))
        + (Ideal.ofBits .f32 0x3F317218#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k1_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k1_pay1 (F := Ideal) x0 x1 x2 x3) (ix2 p q)
      = CMB (Ideal.ofBits .f32 0x3E9D1BD0#32) (Ideal.ofBits .f32 0x3F317218#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows 5000·t … of the aggregated array. -/
theorem blk0 (c : Dev nD) (t : Fin cfg1.N) (p : Fin 5000) (q : Fin 128) (r : Fin 50000) (hr : r.val = t.val * 5000 + p.val) :
    (iblk1 V c 0 t : Vec Ideal S5000x128 .f32) (ix2 p q)
      = (V c (Pipeline.arrRef spec1 0) : (⟨2, ![50000, 128]⟩ : Shape).Idx → EReal) (ix2 r q) := by
  obtain ⟨e0, e1, -⟩ := idx_facts t
  show (V c (Pipeline.arrRef spec1 0) : (⟨2, ![50000, 128]⟩ : Shape).Idx → EReal) (((cfg1.win 0).blk t).view.emb (ix2 p q)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Window 1's block at point t is rows 5000·t … of the residual array. -/
theorem blk1 (c : Dev nD) (t : Fin cfg1.N) (p : Fin 5000) (q : Fin 128) (r : Fin 50000) (hr : r.val = t.val * 5000 + p.val) :
    (iblk1 V c 1 t : Vec Ideal S5000x128 .f32) (ix2 p q)
      = (V c (Pipeline.arrRef spec1 1) : (⟨2, ![50000, 128]⟩ : Shape).Idx → EReal) (ix2 r q) := by
  obtain ⟨-, -, e0, e1, -⟩ := idx_facts t
  show (V c (Pipeline.arrRef spec1 1) : (⟨2, ![50000, 128]⟩ : Shape).Idx → EReal) (((cfg1.win 1).blk t).view.emb (ix2 p q)) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * q.val = q.val; rw [e1]; omega

/-- Window 2's block at every point is the first weight, whole. -/
theorem blk2 (c : Dev nD) (t : Fin cfg1.N) (k : Fin 128) (q : Fin 128) :
    (iblk1 V c 2 t : Vec Ideal S128x128 .f32) (ix2 k q)
      = (V c (Pipeline.arrRef spec1 2) : (⟨2, ![128, 128]⟩ : Shape).Idx → EReal) (ix2 k q) := by
  obtain ⟨-, -, -, -, e0, e1, -⟩ := idx_facts t
  show (V c (Pipeline.arrRef spec1 2) : (⟨2, ![128, 128]⟩ : Shape).Idx → EReal) (((cfg1.win 2).blk t).view.emb (ix2 k q)) = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- Window 3's block at every point is the second weight, whole. -/
theorem blk3 (c : Dev nD) (t : Fin cfg1.N) (k : Fin 128) (q : Fin 128) :
    (iblk1 V c 3 t : Vec Ideal S128x128 .f32) (ix2 k q)
      = (V c (Pipeline.arrRef spec1 3) : (⟨2, ![128, 128]⟩ : Shape).Idx → EReal) (ix2 k q) := by
  obtain ⟨-, -, -, -, -, -, e0, e1, -⟩ := idx_facts t
  show (V c (Pipeline.arrRef spec1 3) : (⟨2, ![128, 128]⟩ : Shape).Idx → EReal) (((cfg1.win 3).blk t).view.emb (ix2 k q)) = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- WHAT POINT t WRITES BACK is block t of the combined array of the arrays the launch finds. -/
theorem flushed_eq (c : Dev nD) (t : Fin cfg1.N) :
    (dat1 V c).flushed 4 t = ((cfg1.win 4).blk t).view.read (Elt Ideal)
      (CMB (Ideal.ofBits .f32 0x3E9D1BD0#32) (Ideal.ofBits .f32 0x3F317218#32)
        (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  obtain ⟨-, -, -, -, -, -, -, -, e0, e1⟩ := idx_facts t
  funext j
  show (k1_pay1 (F := Ideal) (iblk1 V c 0 t) (iblk1 V c 1 t) (iblk1 V c 2 t) (iblk1 V c 3 t)) j
    = CMB (Ideal.ofBits .f32 0x3E9D1BD0#32) (Ideal.ofBits .f32 0x3F317218#32)
        (V c (Pipeline.arrRef spec1 0)) (V c (Pipeline.arrRef spec1 1))
        (V c (Pipeline.arrRef spec1 2)) (V c (Pipeline.arrRef spec1 3)) (((cfg1.win 4).blk t).view.emb j)
  have hp : (j 0).val < 5000 := (j 0).isLt
  have hN : cfg1.N = 10 := N_1
  have ht : t.val < 10 := lt_of_lt_of_eq t.isLt hN
  have hemb : ((cfg1.win 4).blk t).view.emb j = ix2 (⟨t.val * 5000 + (j 0).val, by omega⟩ : Fin 50000) (j 1) := by
    funext a; apply Fin.ext
    match a with
    | ⟨0, _⟩ => show win1_4.index t (0 : Fin 2) * 5000 + 1 * (j 0).val = t.val * 5000 + (j 0).val; rw [e0]; omega
    | ⟨1, _⟩ => show win1_4.index t (1 : Fin 2) * 128 + 1 * (j 1).val = (j 1).val; rw [e1]; omega
  rw [hemb]
  refine Eq.trans (congrArg _ (eq_ix2 j)) ?_
  exact pay_point _ _ _ _ (iblk1 V c 0 t) (iblk1 V c 1 t) (iblk1 V c 2 t) (iblk1 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v53).slice (win1_4.rect t)).set ↔ _
  rw [View.set_slice_whole, Rect.mem_set_unit]
  exact Iff.rfl

/-- Every row of the result array lies in some point's block: row r in block r / 5000. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_4 _, ?_⟩
  obtain ⟨-, -, -, -, -, -, -, -, e0, e1⟩ := idx_facts ⟨(i 0).val / 5000, by rw [hN]; omega⟩
  rw [mem_blk]
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e1]; omega

/-- THE RESULT ARRAY AFTER THE LAUNCH is the combined array of the four arrays the launch finds. -/
theorem arrAt1 (c : Dev nD) :
    (dat1 (F := Ideal) V c).arrAt 4 cfg1.N
      = CMB (Ideal.ofBits .f32 0x3E9D1BD0#32) (Ideal.ofBits .f32 0x3F317218#32)
          (V c (Pipeline.arrRef spec1 0)) (V c (Pipeline.arrRef spec1 1))
          (V c (Pipeline.arrRef spec1 2)) (V c (Pipeline.arrRef spec1 3)) :=
  (dat1 V c).arrAt_eq_of_cover 4 _ (fun t _ => flushed_eq V c t) cover

end Cert.Hand.RegCombine1

end
-- ==== Proof.RegCombine3.lean ====
/-
  The combine layer computed by launch 3, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine3

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k3_pay1 (F := Ideal) x0 x1 x2 x3) (ix2 p q)
      = (((Ideal.ofBits .f32 0x3F183370#32 * x0 (ix2 p q))
            + (Ideal.ofBits .f32 0x3ECF991F#32 * ∑ k : Fin 128, x0 (ix2 p k) * x2 (ix2 k q)))
          + (Ideal.ofBits .f32 0x3F183370#32 * x1 (ix2 p q)))
        + (Ideal.ofBits .f32 0x3ECF991F#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k3_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k3_pay1 (F := Ideal) x0 x1 x2 x3) (ix2 p q)
      = CMB (Ideal.ofBits .f32 0x3F183370#32) (Ideal.ofBits .f32 0x3ECF991F#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point t is rows 5000·t … of the aggregated array. -/
theorem blk0 (c : Dev nD) (t : Fin cfg3.N) (p : Fin 5000) (q : Fin 128) (r : Fin 50000) (hr : r.val = t.val * 5000 + p.val) :
    (iblk3 V c 0 t : Vec Ideal S5000x128 .f32) (ix2 p q)
      = (V c (Pipeline.arrRef spec3 0) : (⟨2, ![50000, 128]⟩ : Shape).Idx → EReal) (ix2 r q) := by
  obtain ⟨e0, e1, -⟩ := idx_facts t
  show (V c (Pipeline.arrRef spec3 0) : (⟨2, ![50000, 128]⟩ : Shape).Idx → EReal) (((cfg3.win 0).blk t).view.emb (ix2 p q)) = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- Window 1's block at point t is rows 5000·t … of the residual array. -/
theorem blk1 (c : Dev nD) (t : Fin cfg3.N) (p : Fin 5000) (q : Fin 128) (r : Fin 50000) (hr : r.val = t.val * 5000 + p.val) :
    (iblk3 V c 1 t : Vec Ideal S5000x128 .f32) (ix2 p q)
      = (V c (Pipeline.arrRef spec3 1) : (⟨2, ![50000, 128]⟩ : Shape).Idx → EReal) (ix2 r q) := by
  obtain ⟨-, -, e0, e1, -⟩ := idx_facts t
  show (V c (Pipeline.arrRef spec3 1) : (⟨2, ![50000, 128]⟩ : Shape).Idx → EReal) (((cfg3.win 1).blk t).view.emb (ix2 p q)) = _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 128 + 1 * q.val = q.val; rw [e1]; omega

/-- Window 2's block at every point is the first weight, whole. -/
theorem blk2 (c : Dev nD) (t : Fin cfg3.N) (k : Fin 128) (q : Fin 128) :
    (iblk3 V c 2 t : Vec Ideal S128x128 .f32) (ix2 k q)
      = (V c (Pipeline.arrRef spec3 2) : (⟨2, ![128, 128]⟩ : Shape).Idx → EReal) (ix2 k q) := by
  obtain ⟨-, -, -, -, e0, e1, -⟩ := idx_facts t
  show (V c (Pipeline.arrRef spec3 2) : (⟨2, ![128, 128]⟩ : Shape).Idx → EReal) (((cfg3.win 2).blk t).view.emb (ix2 k q)) = _
  refine congrArg _ (funext fun a => Fin.ext ?_)
  match a with
  | ⟨0, _⟩ => show win3_2.index t (0 : Fin 2) * 128 + 1 * k.val = k.val; rw [e0]; omega
  | ⟨1, _⟩ => show win3_2.index t (1 : Fin 2) * 128 + 1 * q.val = q.val; rw [e1]; omega

/-- Window 3's block at every point is the second weight, whole. -/
theorem blk3 (c : Dev nD) (t : Fin cfg3.N) (k : Fin 128) (q : Fin 128) :
    (iblk3 V c 3 t : Vec Ideal S128x128 .f32) (ix2 k q)
      = (V c (Pipeline.arrRef spec3 3) : (⟨2, ![128, 128]⟩ : Shape).Idx → EReal) (ix2 k q) := by
  obtain ⟨-, -, -, -, -, -, e0, e1, -⟩ := idx_facts t
  show (V c (Pipeline.arrRef spec3 3) : (⟨2, ![128, 128]⟩ : Shape).Idx → EReal) (((cfg3.win 3).blk t).view.emb (ix2 k q)) = _
  refine congrArg _ (funext fun a => Fin.ext ?_)
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- WHAT POINT t WRITES BACK is block t of the combined array of the arrays the launch finds. -/
theorem flushed_eq (c : Dev nD) (t : Fin cfg3.N) :
    (dat3 V c).flushed 4 t = ((cfg3.win 4).blk t).view.read (Elt Ideal)
      (CMB (Ideal.ofBits .f32 0x3F183370#32) (Ideal.ofBits .f32 0x3ECF991F#32)
        (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz]
  obtain ⟨-, -, -, -, -, -, -, -, e0, e1⟩ := idx_facts t
  funext j
  show (k3_pay1 (F := Ideal) (iblk3 V c 0 t) (iblk3 V c 1 t) (iblk3 V c 2 t) (iblk3 V c 3 t)) j
    = CMB (Ideal.ofBits .f32 0x3F183370#32) (Ideal.ofBits .f32 0x3ECF991F#32)
        (V c (Pipeline.arrRef spec3 0)) (V c (Pipeline.arrRef spec3 1))
        (V c (Pipeline.arrRef spec3 2)) (V c (Pipeline.arrRef spec3 3)) (((cfg3.win 4).blk t).view.emb j)
  have hp : (j 0).val < 5000 := (j 0).isLt
  have hN : cfg3.N = 10 := N_3
  have ht : t.val < 10 := lt_of_lt_of_eq t.isLt hN
  have hemb : ((cfg3.win 4).blk t).view.emb j = ix2 (⟨t.val * 5000 + (j 0).val, by omega⟩ : Fin 50000) (j 1) := by
    funext a; apply Fin.ext
    match a with
    | ⟨0, _⟩ => show win3_4.index t (0 : Fin 2) * 5000 + 1 * (j 0).val = t.val * 5000 + (j 0).val; rw [e0]; omega
    | ⟨1, _⟩ => show win3_4.index t (1 : Fin 2) * 128 + 1 * (j 1).val = (j 1).val; rw [e1]; omega
  rw [hemb]
  refine Eq.trans (congrArg _ (eq_ix2 j)) ?_
  exact pay_point _ _ _ _ (iblk3 V c 0 t) (iblk3 V c 1 t) (iblk3 V c 2 t) (iblk3 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v87).slice (win3_4.rect t)).set ↔ _
  rw [View.set_slice_whole, Rect.mem_set_unit]
  exact Iff.rfl

/-- Every row of the result array lies in some point's block: row r in block r / 5000. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_4 _, ?_⟩
  obtain ⟨-, -, -, -, -, -, -, -, e0, e1⟩ := idx_facts ⟨(i 0).val / 5000, by rw [hN]; omega⟩
  rw [mem_blk]
  intro a
  match a with
  | ⟨0, _⟩ =>
    show win3_4.index _ (0 : Fin 2) * 5000 ≤ (i 0).val ∧ (i 0).val < win3_4.index _ (0 : Fin 2) * 5000 + 5000
    rw [e0]; show (i 0).val / 5000 * 5000 ≤ (i 0).val ∧ (i 0).val < (i 0).val / 5000 * 5000 + 5000; omega
  | ⟨1, _⟩ =>
    show win3_4.index _ (1 : Fin 2) * 128 ≤ (i 1).val ∧ (i 1).val < win3_4.index _ (1 : Fin 2) * 128 + 128
    rw [e1]; omega

/-- THE RESULT ARRAY AFTER THE LAUNCH is the combined array of the four arrays the launch finds. -/
theorem arrAt3 (c : Dev nD) :
    (dat3 (F := Ideal) V c).arrAt 4 cfg3.N
      = CMB (Ideal.ofBits .f32 0x3F183370#32) (Ideal.ofBits .f32 0x3ECF991F#32)
          (V c (Pipeline.arrRef spec3 0)) (V c (Pipeline.arrRef spec3 1))
          (V c (Pipeline.arrRef spec3 2)) (V c (Pipeline.arrRef spec3 3)) :=
  (dat3 V c).arrAt_eq_of_cover 4 _ (fun t _ => flushed_eq V c t) cover

end Cert.Hand.RegCombine3

end
-- ==== Proof.RegCombine5.lean ====
/-
  The combine layer computed by launch 5, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine5

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k5_pay1 (F := Ideal) x0 x1 x2 x3) (ix2 p q)
      = (((Ideal.ofBits .f32 0x3F365A78#32 * x0 (ix2 p q))
            + (Ideal.ofBits .f32 0x3E934B11#32 * ∑ k : Fin 128, x0 (ix2 p k) * x2 (ix2 k q)))
          + (Ideal.ofBits .f32 0x3F365A78#32 * x1 (ix2 p q)))
        + (Ideal.ofBits .f32 0x3E934B11#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k5_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k5_pay1 (F := Ideal) x0 x1 x2 x3) (ix2 p q)
      = CMB (Ideal.ofBits .f32 0x3F365A78#32) (Ideal.ofBits .f32 0x3E934B11#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0's block at point t is rows 5000·t … of the aggregated array. -/
theorem blk0 (c : Dev nD) (t : Fin cfg5.N) (p : Fin 5000) (q : Fin 128) (r : Fin 50000) (hr : r.val = t.val * 5000 + p.val) :
    (iblk5 V c 0 t : Vec Ideal S5000x128 .f32) (ix2 p q)
      = (V c (Pipeline.arrRef spec5 0) : (⟨2, ![50000, 128]⟩ : Shape).Idx → EReal) (ix2 r q) := by
  obtain ⟨e0, e1, -⟩ := idx_facts t
  show (V c (Pipeline.arrRef spec5 0) : (⟨2, ![50000, 128]⟩ : Shape).Idx → EReal) (((cfg5.win 0).blk t).view.emb (ix2 p q)) = _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * q.val = q.val; rw [e1]; omega

/-- Window 1's block at point t is rows 5000·t … of the residual array. -/
theorem blk1 (c : Dev nD) (t : Fin cfg5.N) (p : Fin 5000) (q : Fin 128) (r : Fin 50000) (hr : r.val = t.val * 5000 + p.val) :
    (iblk5 V c 1 t : Vec Ideal S5000x128 .f32) (ix2 p q)
      = (V c (Pipeline.arrRef spec5 1) : (⟨2, ![50000, 128]⟩ : Shape).Idx → EReal) (ix2 r q) := by
  obtain ⟨-, -, e0, e1, -⟩ := idx_facts t
  show (V c (Pipeline.arrRef spec5 1) : (⟨2, ![50000, 128]⟩ : Shape).Idx → EReal) (((cfg5.win 1).blk t).view.emb (ix2 p q)) = _
  refine congrArg _ (funext fun a => Fin.ext ?_)
  match a with
  | ⟨0, _⟩ => show win5_1.index t (0 : Fin 2) * 5000 + 1 * p.val = r.val; rw [e0, hr]; omega
  | ⟨1, _⟩ => show win5_1.index t (1 : Fin 2) * 128 + 1 * q.val = q.val; rw [e1]; omega

/-- Window 2's block at every point is the first weight, whole. -/
theorem blk2 (c : Dev nD) (t : Fin cfg5.N) (k : Fin 128) (q : Fin 128) :
    (iblk5 V c 2 t : Vec Ideal S128x128 .f32) (ix2 k q)
      = (V c (Pipeline.arrRef spec5 2) : (⟨2, ![128, 128]⟩ : Shape).Idx → EReal) (ix2 k q) := by
  obtain ⟨-, -, -, -, e0, e1, -⟩ := idx_facts t
  show (V c (Pipeline.arrRef spec5 2) : (⟨2, ![128, 128]⟩ : Shape).Idx → EReal) (((cfg5.win 2).blk t).view.emb (ix2 k q)) = _
  refine congrArg _ (funext fun a => Fin.ext ?_)
  match a with
  | ⟨0, _⟩ => show win5_2.index t (0 : Fin 2) * 128 + 1 * k.val = k.val; rw [e0]; omega
  | ⟨1, _⟩ => show win5_2.index t (1 : Fin 2) * 128 + 1 * q.val = q.val; rw [e1]; omega

/-- Window 3's block at every point is the second weight, whole. -/
theorem blk3 (c : Dev nD) (t : Fin cfg5.N) (k : Fin 128) (q : Fin 128) :
    (iblk5 V c 3 t : Vec Ideal S128x128 .f32) (ix2 k q)
      = (V c (Pipeline.arrRef spec5 3) : (⟨2, ![128, 128]⟩ : Shape).Idx → EReal) (ix2 k q) := by
  obtain ⟨-, -, -, -, -, -, e0, e1, -⟩ := idx_facts t
  show (V c (Pipeline.arrRef spec5 3) : (⟨2, ![128, 128]⟩ : Shape).Idx → EReal) (((cfg5.win 3).blk t).view.emb (ix2 k q)) = _
  refine congrArg _ (funext fun a => Fin.ext ?_)
  match a with
  | ⟨0, _⟩ => show win5_3.index t (0 : Fin 2) * 128 + 1 * k.val = k.val; rw [e0]; omega
  | ⟨1, _⟩ => show win5_3.index t (1 : Fin 2) * 128 + 1 * q.val = q.val; rw [e1]; omega

/-- WHAT POINT t WRITES BACK is block t of the combined array of the arrays the launch finds. -/
theorem flushed_eq (c : Dev nD) (t : Fin cfg5.N) :
    (dat5 V c).flushed 4 t = ((cfg5.win 4).blk t).view.read (Elt Ideal)
      (CMB (Ideal.ofBits .f32 0x3F365A78#32) (Ideal.ofBits .f32 0x3E934B11#32)
        (V c (Pipeline.arrRef spec5 0)) (V c (Pipeline.arrRef spec5 1))
        (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S5000x128) hz, View.ld_unit_zero (S := S128x128) hz]
  obtain ⟨-, -, -, -, -, -, -, -, e0, e1⟩ := idx_facts t
  funext j
  show (k5_pay1 (F := Ideal) (iblk5 V c 0 t) (iblk5 V c 1 t) (iblk5 V c 2 t) (iblk5 V c 3 t)) j
    = CMB (Ideal.ofBits .f32 0x3F365A78#32) (Ideal.ofBits .f32 0x3E934B11#32)
        (V c (Pipeline.arrRef spec5 0)) (V c (Pipeline.arrRef spec5 1))
        (V c (Pipeline.arrRef spec5 2)) (V c (Pipeline.arrRef spec5 3)) (((cfg5.win 4).blk t).view.emb j)
  have hp : (j 0).val < 5000 := (j 0).isLt
  have hN : cfg5.N = 10 := N_5
  have ht : t.val < 10 := lt_of_lt_of_eq t.isLt hN
  have hemb : ((cfg5.win 4).blk t).view.emb j = ix2 (⟨t.val * 5000 + (j 0).val, by omega⟩ : Fin 50000) (j 1) := by
    funext a; apply Fin.ext
    match a with
    | ⟨0, _⟩ => show win5_4.index t (0 : Fin 2) * 5000 + 1 * (j 0).val = t.val * 5000 + (j 0).val; rw [e0]; omega
    | ⟨1, _⟩ => show win5_4.index t (1 : Fin 2) * 128 + 1 * (j 1).val = (j 1).val; rw [e1]; omega
  rw [hemb]
  refine Eq.trans (congrArg _ (eq_ix2 j)) ?_
  exact pay_point _ _ _ _ (iblk5 V c 0 t) (iblk5 V c 1 t) (iblk5 V c 2 t) (iblk5 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v121).slice (win5_4.rect t)).set ↔ _
  rw [View.set_slice_whole, Rect.mem_set_unit]
  exact Iff.rfl

/-- Every row of the result array lies in some point's block: row r in block r / 5000. -/
theorem cover (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_4 _, ?_⟩
  obtain ⟨-, -, -, -, -, -, -, -, e0, e1⟩ := idx_facts ⟨(i 0).val / 5000, by rw [hN]; omega⟩
  rw [mem_blk]
  intro a
  match a with
  | ⟨0, _⟩ =>
    show win5_4.index _ (0 : Fin 2) * 5000 ≤ (i 0).val ∧ (i 0).val < win5_4.index _ (0 : Fin 2) * 5000 + 5000
    rw [e0]; show (i 0).val / 5000 * 5000 ≤ (i 0).val ∧ (i 0).val < (i 0).val / 5000 * 5000 + 5000; omega
  | ⟨1, _⟩ =>
    show win5_4.index _ (1 : Fin 2) * 128 ≤ (i 1).val ∧ (i 1).val < win5_4.index _ (1 : Fin 2) * 128 + 128
    rw [e1]; omega

/-- THE RESULT ARRAY AFTER THE LAUNCH is the combined array of the four arrays the launch finds. -/
theorem arrAt5 (c : Dev nD) :
    (dat5 (F := Ideal) V c).arrAt 4 cfg5.N
      = CMB (Ideal.ofBits .f32 0x3F365A78#32) (Ideal.ofBits .f32 0x3E934B11#32)
          (V c (Pipeline.arrRef spec5 0)) (V c (Pipeline.arrRef spec5 1))
          (V c (Pipeline.arrRef spec5 2)) (V c (Pipeline.arrRef spec5 3)) :=
  (dat5 V c).arrAt_eq_of_cover 4 _ (fun t _ => flushed_eq V c t) cover

end Cert.Hand.RegCombine5

end
-- ==== Proof.RegCombine7.lean ====
/-
  The combine layer computed by launch 7, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine7

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k7_pay1 (F := Ideal) x0 x1 x2 x3) (ix2 p q)
      = (((Ideal.ofBits .f32 0x3F46E010#32 * x0 (ix2 p q))
            + (Ideal.ofBits .f32 0x3E647FBE#32 * ∑ k : Fin 128, x0 (ix2 p k) * x2 (ix2 k q)))
          + (Ideal.ofBits .f32 0x3F46E010#32 * x1 (ix2 p q)))
        + (Ideal.ofBits .f32 0x3E647FBE#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k7_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k7_pay1 (F := Ideal) x0 x1 x2 x3) (ix2 p q)
      = CMB (Ideal.ofBits .f32 0x3F46E010#32) (Ideal.ofBits .f32 0x3E647FBE#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg7.N,
      win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Window 0's block at point t is rows 5000·t … of the aggregated array. -/
theorem blk0 (c : Dev nD) (t : Fin cfg7.N) (p : Fin 5000) (q : Fin 128) (r : Fin 50000) (hr : r.val = t.val * 5000 + p.val) :
    (iblk7 V c 0 t : Vec Ideal S5000x128 .f32) (ix2 p q)
      = (V c (Pipeline.arrRef spec7 0) : (⟨2, ![50000, 128]⟩ : Shape).Idx → EReal) (ix2 r q) := by
  obtain ⟨e0, e1, -⟩ := idx_facts t
  show (V c (Pipeline.arrRef spec7 0) : (⟨2, ![50000, 128]⟩ : Shape).Idx → EReal) (((cfg7.win 0).blk t).view.emb (ix2 p q)) = _
  refine congrArg _ (funext fun a => Fin.ext ?_)
  match a with
  | ⟨0, _⟩ => show win7_0.index t (0 : Fin 2) * 5000 + 1 * p.val = r.val; rw [e0, hr]; omega
  | ⟨1, _⟩ => show win7_0.index t (1 : Fin 2) * 128 + 1 * q.val = q.val; rw [e1]; omega

/-- Window 1's block at point t is rows 5000·t … of the residual array. -/
theorem blk1 (c : Dev nD) (t : Fin cfg7.N) (p : Fin 5000) (q : Fin 128) (r : Fin 50000) (hr : r.val = t.val * 5000 + p.val) :
    (iblk7 V c 1 t : Vec Ideal S5000x128 .f32) (ix2 p q)
      = (V c (Pipeline.arrRef spec7 1) : (⟨2, ![50000, 128]⟩ : Shape).Idx → EReal) (ix2 r q) := by
  obtain ⟨-, -, e0, e1, -⟩ := idx_facts t
  show (V c (Pipeline.arrRef spec7 1) : (⟨2, ![50000, 128]⟩ : Shape).Idx → EReal) (((cfg7.win 1).blk t).view.emb (ix2 p q)) = _
  refine congrArg _ (funext fun a => Fin.ext ?_)
  match a with
  | ⟨0, _⟩ => show win7_1.index t (0 : Fin 2) * 5000 + 1 * p.val = r.val; rw [e0, hr]; omega
  | ⟨1, _⟩ => show win7_1.index t (1 : Fin 2) * 128 + 1 * q.val = q.val; rw [e1]; omega

/-- Window 2's block at every point is the first weight, whole. -/
theorem blk2 (c : Dev nD) (t : Fin cfg7.N) (k : Fin 128) (q : Fin 128) :
    (iblk7 V c 2 t : Vec Ideal S128x128 .f32) (ix2 k q)
      = (V c (Pipeline.arrRef spec7 2) : (⟨2, ![128, 128]⟩ : Shape).Idx → EReal) (ix2 k q) := by
  obtain ⟨-, -, -, -, e0, e1, -⟩ := idx_facts t
  show (V c (Pipeline.arrRef spec7 2) : (⟨2, ![128, 128]⟩ : Shape).Idx → EReal) (((cfg7.win 2).blk t).view.emb (ix2 k q)) = _
  refine congrArg _ (funext fun a => Fin.ext ?_)
  match a with
  | ⟨0, _⟩ => show win7_2.index t (0 : Fin 2) * 128 + 1 * k.val = k.val; rw [e0]; omega
  | ⟨1, _⟩ => show win7_2.index t (1 : Fin 2) * 128 + 1 * q.val = q.val; rw [e1]; omega

/-- Window 3's block at every point is the second weight, whole. -/
theorem blk3 (c : Dev nD) (t : Fin cfg7.N) (k : Fin 128) (q : Fin 128) :
    (iblk7 V c 3 t : Vec Ideal S128x128 .f32) (ix2 k q)
      = (V c (Pipeline.arrRef spec7 3) : (⟨2, ![128, 128]⟩ : Shape).Idx → EReal) (ix2 k q) := by
  obtain ⟨-, -, -, -, -, -, e0, e1, -⟩ := idx_facts t
  show (V c (Pipeline.arrRef spec7 3) : (⟨2, ![128, 128]⟩ : Shape).Idx → EReal) (((cfg7.win 3).blk t).view.emb (ix2 k q)) = _
  refine congrArg _ (funext fun a => Fin.ext ?_)
  match a with
  | ⟨0, _⟩ => show win7_3.index t (0 : Fin 2) * 128 + 1 * k.val = k.val; rw [e0]; omega
  | ⟨1, _⟩ => show win7_3.index t (1 : Fin 2) * 128 + 1 * q.val = q.val; rw [e1]; omega

/-- WHAT POINT t WRITES BACK is block t of the combined array of the arrays the launch finds. -/
theorem flushed_eq (c : Dev nD) (t : Fin cfg7.N) :
    (dat7 V c).flushed 4 t = ((cfg7.win 4).blk t).view.read (Elt Ideal)
      (CMB (Ideal.ofBits .f32 0x3F46E010#32) (Ideal.ofBits .f32 0x3E647FBE#32)
        (V c (Pipeline.arrRef spec7 0)) (V c (Pipeline.arrRef spec7 1))
        (V c (Pipeline.arrRef spec7 2)) (V c (Pipeline.arrRef spec7 3))) := by
  show (cfg7.win 4).cut (grid7.coords t) ((dat7 V c).after 4 t) = _
  rw [after7_4]
  unfold out7_4
  rw [View.canon_unit_zero hz]
  simp only [View.ld_unit_zero (S := S5000x128) hz, View.ld_unit_zero (S := S128x128) hz]
  obtain ⟨-, -, -, -, -, -, -, -, e0, e1⟩ := idx_facts t
  funext j
  show (k7_pay1 (F := Ideal) (iblk7 V c 0 t) (iblk7 V c 1 t) (iblk7 V c 2 t) (iblk7 V c 3 t)) j
    = CMB (Ideal.ofBits .f32 0x3F46E010#32) (Ideal.ofBits .f32 0x3E647FBE#32)
        (V c (Pipeline.arrRef spec7 0)) (V c (Pipeline.arrRef spec7 1))
        (V c (Pipeline.arrRef spec7 2)) (V c (Pipeline.arrRef spec7 3)) (((cfg7.win 4).blk t).view.emb j)
  have hp : (j 0).val < 5000 := (j 0).isLt
  have hN : cfg7.N = 10 := N_7
  have ht : t.val < 10 := lt_of_lt_of_eq t.isLt hN
  have hemb : ((cfg7.win 4).blk t).view.emb j = ix2 (⟨t.val * 5000 + (j 0).val, by omega⟩ : Fin 50000) (j 1) := by
    funext a; apply Fin.ext
    match a with
    | ⟨0, _⟩ => show win7_4.index t (0 : Fin 2) * 5000 + 1 * (j 0).val = t.val * 5000 + (j 0).val; rw [e0]; omega
    | ⟨1, _⟩ => show win7_4.index t (1 : Fin 2) * 128 + 1 * (j 1).val = (j 1).val; rw [e1]; omega
  rw [hemb]
  refine Eq.trans (congrArg _ (eq_ix2 j)) ?_
  exact pay_point _ _ _ _ (iblk7 V c 0 t) (iblk7 V c 1 t) (iblk7 V c 2 t) (iblk7 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg7.N) (i : S50000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v155).slice (win7_4.rect t)).set ↔ _
  rw [View.set_slice_whole, Rect.mem_set_unit]
  exact Iff.rfl

/-- Every row of the result array lies in some point's block: row r in block r / 5000. -/
theorem cover (i : S50000x128.Idx) : ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 10 := N_7
  refine ⟨⟨(i 0).val / 5000, by rw [hN]; omega⟩, flush7_4 _, ?_⟩
  obtain ⟨-, -, -, -, -, -, -, -, e0, e1⟩ := idx_facts ⟨(i 0).val / 5000, by rw [hN]; omega⟩
  rw [mem_blk]
  intro a
  match a with
  | ⟨0, _⟩ =>
    show win7_4.index _ (0 : Fin 2) * 5000 ≤ (i 0).val ∧ (i 0).val < win7_4.index _ (0 : Fin 2) * 5000 + 5000
    rw [e0]; show (i 0).val / 5000 * 5000 ≤ (i 0).val ∧ (i 0).val < (i 0).val / 5000 * 5000 + 5000; omega
  | ⟨1, _⟩ =>
    show win7_4.index _ (1 : Fin 2) * 128 ≤ (i 1).val ∧ (i 1).val < win7_4.index _ (1 : Fin 2) * 128 + 128
    rw [e1]; omega

/-- THE RESULT ARRAY AFTER THE LAUNCH is the combined array of the four arrays the launch finds. -/
theorem arrAt7 (c : Dev nD) :
    (dat7 (F := Ideal) V c).arrAt 4 cfg7.N
      = CMB (Ideal.ofBits .f32 0x3F46E010#32) (Ideal.ofBits .f32 0x3E647FBE#32)
          (V c (Pipeline.arrRef spec7 0)) (V c (Pipeline.arrRef spec7 1))
          (V c (Pipeline.arrRef spec7 2)) (V c (Pipeline.arrRef spec7 3)) :=
  (dat7 V c).arrAt_eq_of_cover 4 _ (fun t _ => flushed_eq V c t) cover

end Cert.Hand.RegCombine7

end
-- ==== Proof.RegCombine9.lean ====
/-
  The combine layer computed by launch 9, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine9

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k9_pay1 (F := Ideal) x0 x1 x2 x3) (ix2 p q)
      = (((Ideal.ofBits .f32 0x3F515360#32 * x0 (ix2 p q))
            + (Ideal.ofBits .f32 0x3E3AB281#32 * ∑ k : Fin 128, x0 (ix2 p k) * x2 (ix2 k q)))
          + (Ideal.ofBits .f32 0x3F515360#32 * x1 (ix2 p q)))
        + (Ideal.ofBits .f32 0x3E3AB281#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k9_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k9_pay1 (F := Ideal) x0 x1 x2 x3) (ix2 p q)
      = CMB (Ideal.ofBits .f32 0x3F515360#32) (Ideal.ofBits .f32 0x3E3AB281#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg9.N,
      win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Window 0's block at point t is rows 5000·t … of the aggregated array. -/
theorem blk0 (c : Dev nD) (t : Fin cfg9.N) (p : Fin 5000) (q : Fin 128) (r : Fin 50000) (hr : r.val = t.val * 5000 + p.val) :
    (iblk9 V c 0 t : Vec Ideal S5000x128 .f32) (ix2 p q)
      = (V c (Pipeline.arrRef spec9 0) : (⟨2, ![50000, 128]⟩ : Shape).Idx → EReal) (ix2 r q) := by
  obtain ⟨e0, e1, -⟩ := idx_facts t
  show (V c (Pipeline.arrRef spec9 0) : (⟨2, ![50000, 128]⟩ : Shape).Idx → EReal) (((cfg9.win 0).blk t).view.emb (ix2 p q)) = _
  refine congrArg _ (funext fun a => Fin.ext ?_)
  match a with
  | ⟨0, _⟩ => show win9_0.index t (0 : Fin 2) * 5000 + 1 * p.val = r.val; rw [e0, hr]; omega
  | ⟨1, _⟩ => show win9_0.index t (1 : Fin 2) * 128 + 1 * q.val = q.val; rw [e1]; omega

/-- Window 1's block at point t is rows 5000·t … of the residual array. -/
theorem blk1 (c : Dev nD) (t : Fin cfg9.N) (p : Fin 5000) (q : Fin 128) (r : Fin 50000) (hr : r.val = t.val * 5000 + p.val) :
    (iblk9 V c 1 t : Vec Ideal S5000x128 .f32) (ix2 p q)
      = (V c (Pipeline.arrRef spec9 1) : (⟨2, ![50000, 128]⟩ : Shape).Idx → EReal) (ix2 r q) := by
  obtain ⟨-, -, e0, e1, -⟩ := idx_facts t
  show (V c (Pipeline.arrRef spec9 1) : (⟨2, ![50000, 128]⟩ : Shape).Idx → EReal) (((cfg9.win 1).blk t).view.emb (ix2 p q)) = _
  refine congrArg _ (funext fun a => Fin.ext ?_)
  match a with
  | ⟨0, _⟩ => show win9_1.index t (0 : Fin 2) * 5000 + 1 * p.val = r.val; rw [e0, hr]; omega
  | ⟨1, _⟩ => show win9_1.index t (1 : Fin 2) * 128 + 1 * q.val = q.val; rw [e1]; omega

/-- Window 2's block at every point is the first weight, whole. -/
theorem blk2 (c : Dev nD) (t : Fin cfg9.N) (k : Fin 128) (q : Fin 128) :
    (iblk9 V c 2 t : Vec Ideal S128x128 .f32) (ix2 k q)
      = (V c (Pipeline.arrRef spec9 2) : (⟨2, ![128, 128]⟩ : Shape).Idx → EReal) (ix2 k q) := by
  obtain ⟨-, -, -, -, e0, e1, -⟩ := idx_facts t
  show (V c (Pipeline.arrRef spec9 2) : (⟨2, ![128, 128]⟩ : Shape).Idx → EReal) (((cfg9.win 2).blk t).view.emb (ix2 k q)) = _
  refine congrArg _ (funext fun a => Fin.ext ?_)
  match a with
  | ⟨0, _⟩ => show win9_2.index t (0 : Fin 2) * 128 + 1 * k.val = k.val; rw [e0]; omega
  | ⟨1, _⟩ => show win9_2.index t (1 : Fin 2) * 128 + 1 * q.val = q.val; rw [e1]; omega

/-- Window 3's block at every point is the second weight, whole. -/
theorem blk3 (c : Dev nD) (t : Fin cfg9.N) (k : Fin 128) (q : Fin 128) :
    (iblk9 V c 3 t : Vec Ideal S128x128 .f32) (ix2 k q)
      = (V c (Pipeline.arrRef spec9 3) : (⟨2, ![128, 128]⟩ : Shape).Idx → EReal) (ix2 k q) := by
  obtain ⟨-, -, -, -, -, -, e0, e1, -⟩ := idx_facts t
  show (V c (Pipeline.arrRef spec9 3) : (⟨2, ![128, 128]⟩ : Shape).Idx → EReal) (((cfg9.win 3).blk t).view.emb (ix2 k q)) = _
  refine congrArg _ (funext fun a => Fin.ext ?_)
  match a with
  | ⟨0, _⟩ => show win9_3.index t (0 : Fin 2) * 128 + 1 * k.val = k.val; rw [e0]; omega
  | ⟨1, _⟩ => show win9_3.index t (1 : Fin 2) * 128 + 1 * q.val = q.val; rw [e1]; omega

/-- WHAT POINT t WRITES BACK is block t of the combined array of the arrays the launch finds. -/
theorem flushed_eq (c : Dev nD) (t : Fin cfg9.N) :
    (dat9 V c).flushed 4 t = ((cfg9.win 4).blk t).view.read (Elt Ideal)
      (CMB (Ideal.ofBits .f32 0x3F515360#32) (Ideal.ofBits .f32 0x3E3AB281#32)
        (V c (Pipeline.arrRef spec9 0)) (V c (Pipeline.arrRef spec9 1))
        (V c (Pipeline.arrRef spec9 2)) (V c (Pipeline.arrRef spec9 3))) := by
  show (cfg9.win 4).cut (grid9.coords t) ((dat9 V c).after 4 t) = _
  rw [after9_4]
  unfold out9_4
  rw [View.canon_unit_zero hz]
  simp only [View.ld_unit_zero (S := S5000x128) hz, View.ld_unit_zero (S := S128x128) hz]
  obtain ⟨-, -, -, -, -, -, -, -, e0, e1⟩ := idx_facts t
  funext j
  show (k9_pay1 (F := Ideal) (iblk9 V c 0 t) (iblk9 V c 1 t) (iblk9 V c 2 t) (iblk9 V c 3 t)) j
    = CMB (Ideal.ofBits .f32 0x3F515360#32) (Ideal.ofBits .f32 0x3E3AB281#32)
        (V c (Pipeline.arrRef spec9 0)) (V c (Pipeline.arrRef spec9 1))
        (V c (Pipeline.arrRef spec9 2)) (V c (Pipeline.arrRef spec9 3)) (((cfg9.win 4).blk t).view.emb j)
  have hp : (j 0).val < 5000 := (j 0).isLt
  have hN : cfg9.N = 10 := N_9
  have ht : t.val < 10 := lt_of_lt_of_eq t.isLt hN
  have hemb : ((cfg9.win 4).blk t).view.emb j = ix2 (⟨t.val * 5000 + (j 0).val, by omega⟩ : Fin 50000) (j 1) := by
    funext a; apply Fin.ext
    match a with
    | ⟨0, _⟩ => show win9_4.index t (0 : Fin 2) * 5000 + 1 * (j 0).val = t.val * 5000 + (j 0).val; rw [e0]; omega
    | ⟨1, _⟩ => show win9_4.index t (1 : Fin 2) * 128 + 1 * (j 1).val = (j 1).val; rw [e1]; omega
  rw [hemb]
  refine Eq.trans (congrArg _ (eq_ix2 j)) ?_
  exact pay_point _ _ _ _ (iblk9 V c 0 t) (iblk9 V c 1 t) (iblk9 V c 2 t) (iblk9 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg9.N) (i : S50000x128.Idx) :
    i ∈ ((cfg9.win 4).blk t).view.set ↔ ∀ a : Fin 2, win9_4.index t a * S5000x128.size a ≤ (i a).val ∧ (i a).val < win9_4.index t a * S5000x128.size a + S5000x128.size a := by
  show i ∈ ((View.whole main_v189).slice (win9_4.rect t)).set ↔ _
  rw [View.set_slice_whole, Rect.mem_set_unit]
  exact Iff.rfl

/-- Every row of the result array lies in some point's block: row r in block r / 5000. -/
theorem cover (i : S50000x128.Idx) : ∃ t : Fin cfg9.N, (cfg9.win 4).flush t = true ∧ i ∈ ((cfg9.win 4).blk t).view.set := by
  have hi0 : (i 0).val < 50000 := (i 0).isLt
  have hi1 : (i 1).val < 128 := (i 1).isLt
  have hN : cfg9.N = 10 := N_9
  refine ⟨⟨(i 0).val / 5000, by rw [hN]; omega⟩, flush9_4 _, ?_⟩
  obtain ⟨-, -, -, -, -, -, -, -, e0, e1⟩ := idx_facts ⟨(i 0).val / 5000, by rw [hN]; omega⟩
  rw [mem_blk]
  intro a
  match a with
  | ⟨0, _⟩ =>
    show win9_4.index _ (0 : Fin 2) * 5000 ≤ (i 0).val ∧ (i 0).val < win9_4.index _ (0 : Fin 2) * 5000 + 5000
    rw [e0]; show (i 0).val / 5000 * 5000 ≤ (i 0).val ∧ (i 0).val < (i 0).val / 5000 * 5000 + 5000; omega
  | ⟨1, _⟩ =>
    show win9_4.index _ (1 : Fin 2) * 128 ≤ (i 1).val ∧ (i 1).val < win9_4.index _ (1 : Fin 2) * 128 + 128
    rw [e1]; omega

/-- THE RESULT ARRAY AFTER THE LAUNCH is the combined array of the four arrays the launch finds. -/
theorem arrAt9 (c : Dev nD) :
    (dat9 (F := Ideal) V c).arrAt 4 cfg9.N
      = CMB (Ideal.ofBits .f32 0x3F515360#32) (Ideal.ofBits .f32 0x3E3AB281#32)
          (V c (Pipeline.arrRef spec9 0)) (V c (Pipeline.arrRef spec9 1))
          (V c (Pipeline.arrRef spec9 2)) (V c (Pipeline.arrRef spec9 3)) :=
  (dat9 V c).arrAt_eq_of_cover 4 _ (fun t _ => flushed_eq V c t) cover

end Cert.Hand.RegCombine9

end
-- ==== Proof.RegCombine11.lean ====
/-
  The combine layer computed by launch 11, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine11

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k11_pay1 (F := Ideal) x0 x1 x2 x3) (ix2 p q)
      = (((Ideal.ofBits .f32 0x3F588995#32 * x0 (ix2 p q))
            + (Ideal.ofBits .f32 0x3E1DD9AD#32 * ∑ k : Fin 128, x0 (ix2 p k) * x2 (ix2 k q)))
          + (Ideal.ofBits .f32 0x3F588995#32 * x1 (ix2 p q)))
        + (Ideal.ofBits .f32 0x3E1DD9AD#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k11_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k11_pay1 (F := Ideal) x0 x1 x2 x3) (ix2 p q)
      = CMB (Ideal.ofBits .f32 0x3F588995#32) (Ideal.ofBits .f32 0x3E1DD9AD#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg11.N,
      win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

/-- Window 0's block at point t is rows 5000·t … of the aggregated array. -/
theorem blk0 (c : Dev nD) (t : Fin cfg11.N) (p : Fin 5000) (q : Fin 128) (r : Fin 50000) (hr : r.val = t.val * 5000 + p.val) :
    (iblk11 V c 0 t : Vec Ideal S5000x128 .f32) (ix2 p q)
      = (V c (Pipeline.arrRef spec11 0) : (⟨2, ![50000, 128]⟩ : Shape).Idx → EReal) (ix2 r q) := by
  obtain ⟨e0, e1, -⟩ := idx_facts t
  show (V c (Pipeline.arrRef spec11 0) : (⟨2, ![50000, 128]⟩ : Shape).Idx → EReal) (((cfg11.win 0).blk t).view.emb (ix2 p q)) = _
  refine congrArg _ (funext fun a => Fin.ext ?_)
  match a with
  | ⟨0, _⟩ => show win11_0.index t (0 : Fin 2) * 5000 + 1 * p.val = r.val; rw [e0, hr]; omega
  | ⟨1, _⟩ => show win11_0.index t (1 : Fin 2) * 128 + 1 * q.val = q.val; rw [e1]; omega

/-- Window 1's block at point t is rows 5000·t … of the residual array. -/
theorem blk1 (c : Dev nD) (t : Fin cfg11.N) (p : Fin 5000) (q : Fin 128) (r : Fin 50000) (hr : r.val = t.val * 5000 + p.val) :
    (iblk11 V c 1 t : Vec Ideal S5000x128 .f32) (ix2 p q)
      = (V c (Pipeline.arrRef spec11 1) : (⟨2, ![50000, 128]⟩ : Shape).Idx → EReal) (ix2 r q) := by
  obtain ⟨-, -, e0, e1, -⟩ := idx_facts t
  show (V c (Pipeline.arrRef spec11 1) : (⟨2, ![50000, 128]⟩ : Shape).Idx → EReal) (((cfg11.win 1).blk t).view.emb (ix2 p q)) = _
  refine congrArg _ (funext fun a => Fin.ext ?_)
  match a with
  | ⟨0, _⟩ => show win11_1.index t (0 : Fin 2) * 5000 + 1 * p.val = r.val; rw [e0, hr]; omega
  | ⟨1, _⟩ => show win11_1.index t (1 : Fin 2) * 128 + 1 * q.val = q.val; rw [e1]; omega

/-- Window 2's block at every point is the first weight, whole. -/
theorem blk2 (c : Dev nD) (t : Fin cfg11.N) (k : Fin 128) (q : Fin 128) :
    (iblk11 V c 2 t : Vec Ideal S128x128 .f32) (ix2 k q)
      = (V c (Pipeline.arrRef spec11 2) : (⟨2, ![128, 128]⟩ : Shape).Idx → EReal) (ix2 k q) := by
  obtain ⟨-, -, -, -, e0, e1, -⟩ := idx_facts t
  show (V c (Pipeline.arrRef spec11 2) : (⟨2, ![128, 128]⟩ : Shape).Idx → EReal) (((cfg11.win 2).blk t).view.emb (ix2 k q)) = _
  refine congrArg _ (funext fun a => Fin.ext ?_)
  match a with
  | ⟨0, _⟩ => show win11_2.index t (0 : Fin 2) * 128 + 1 * k.val = k.val; rw [e0]; omega
  | ⟨1, _⟩ => show win11_2.index t (1 : Fin 2) * 128 + 1 * q.val = q.val; rw [e1]; omega

/-- Window 3's block at every point is the second weight, whole. -/
theorem blk3 (c : Dev nD) (t : Fin cfg11.N) (k : Fin 128) (q : Fin 128) :
    (iblk11 V c 3 t : Vec Ideal S128x128 .f32) (ix2 k q)
      = (V c (Pipeline.arrRef spec11 3) : (⟨2, ![128, 128]⟩ : Shape).Idx → EReal) (ix2 k q) := by
  obtain ⟨-, -, -, -, -, -, e0, e1, -⟩ := idx_facts t
  show (V c (Pipeline.arrRef spec11 3) : (⟨2, ![128, 128]⟩ : Shape).Idx → EReal) (((cfg11.win 3).blk t).view.emb (ix2 k q)) = _
  refine congrArg _ (funext fun a => Fin.ext ?_)
  match a with
  | ⟨0, _⟩ => show win11_3.index t (0 : Fin 2) * 128 + 1 * k.val = k.val; rw [e0]; omega
  | ⟨1, _⟩ => show win11_3.index t (1 : Fin 2) * 128 + 1 * q.val = q.val; rw [e1]; omega

/-- WHAT POINT t WRITES BACK is block t of the combined array of the arrays the launch finds. -/
theorem flushed_eq (c : Dev nD) (t : Fin cfg11.N) :
    (dat11 V c).flushed 4 t = ((cfg11.win 4).blk t).view.read (Elt Ideal)
      (CMB (Ideal.ofBits .f32 0x3F588995#32) (Ideal.ofBits .f32 0x3E1DD9AD#32)
        (V c (Pipeline.arrRef spec11 0)) (V c (Pipeline.arrRef spec11 1))
        (V c (Pipeline.arrRef spec11 2)) (V c (Pipeline.arrRef spec11 3))) := by
  show (cfg11.win 4).cut (grid11.coords t) ((dat11 V c).after 4 t) = _
  rw [after11_4]
  unfold out11_4
  rw [View.canon_unit_zero hz]
  simp only [View.ld_unit_zero (S := S5000x128) hz, View.ld_unit_zero (S := S128x128) hz]
  obtain ⟨-, -, -, -, -, -, -, -, e0, e1⟩ := idx_facts t
  funext j
  show (k11_pay1 (F := Ideal) (iblk11 V c 0 t) (iblk11 V c 1 t) (iblk11 V c 2 t) (iblk11 V c 3 t)) j
    = CMB (Ideal.ofBits .f32 0x3F588995#32) (Ideal.ofBits .f32 0x3E1DD9AD#32)
        (V c (Pipeline.arrRef spec11 0)) (V c (Pipeline.arrRef spec11 1))
        (V c (Pipeline.arrRef spec11 2)) (V c (Pipeline.arrRef spec11 3)) (((cfg11.win 4).blk t).view.emb j)
  have hp : (j 0).val < 5000 := (j 0).isLt
  have hN : cfg11.N = 10 := N_11
  have ht : t.val < 10 := lt_of_lt_of_eq t.isLt hN
  have hemb : ((cfg11.win 4).blk t).view.emb j = ix2 (⟨t.val * 5000 + (j 0).val, by omega⟩ : Fin 50000) (j 1) := by
    funext a; apply Fin.ext
    match a with
    | ⟨0, _⟩ => show win11_4.index t (0 : Fin 2) * 5000 + 1 * (j 0).val = t.val * 5000 + (j 0).val; rw [e0]; omega
    | ⟨1, _⟩ => show win11_4.index t (1 : Fin 2) * 128 + 1 * (j 1).val = (j 1).val; rw [e1]; omega
  rw [hemb]
  refine Eq.trans (congrArg _ (eq_ix2 j)) ?_
  exact pay_point _ _ _ _ (iblk11 V c 0 t) (iblk11 V c 1 t) (iblk11 V c 2 t) (iblk11 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg11.N) (i : S50000x128.Idx) :
    i ∈ ((cfg11.win 4).blk t).view.set ↔ ∀ a : Fin 2, win11_4.index t a * S5000x128.size a ≤ (i a).val ∧ (i a).val < win11_4.index t a * S5000x128.size a + S5000x128.size a := by
  show i ∈ ((View.whole main_v223).slice (win11_4.rect t)).set ↔ _
  rw [View.set_slice_whole, Rect.mem_set_unit]
  exact Iff.rfl

/-- Every row of the result array lies in some point's block: row r in block r / 5000. -/
theorem cover (i : S50000x128.Idx) : ∃ t : Fin cfg11.N, (cfg11.win 4).flush t = true ∧ i ∈ ((cfg11.win 4).blk t).view.set := by
  have hi0 : (i 0).val < 50000 := (i 0).isLt
  have hi1 : (i 1).val < 128 := (i 1).isLt
  have hN : cfg11.N = 10 := N_11
  refine ⟨⟨(i 0).val / 5000, by rw [hN]; omega⟩, flush11_4 _, ?_⟩
  obtain ⟨-, -, -, -, -, -, -, -, e0, e1⟩ := idx_facts ⟨(i 0).val / 5000, by rw [hN]; omega⟩
  rw [mem_blk]
  intro a
  match a with
  | ⟨0, _⟩ =>
    show win11_4.index _ (0 : Fin 2) * 5000 ≤ (i 0).val ∧ (i 0).val < win11_4.index _ (0 : Fin 2) * 5000 + 5000
    rw [e0]; show (i 0).val / 5000 * 5000 ≤ (i 0).val ∧ (i 0).val < (i 0).val / 5000 * 5000 + 5000; omega
  | ⟨1, _⟩ =>
    show win11_4.index _ (1 : Fin 2) * 128 ≤ (i 1).val ∧ (i 1).val < win11_4.index _ (1 : Fin 2) * 128 + 128
    rw [e1]; omega

/-- THE RESULT ARRAY AFTER THE LAUNCH is the combined array of the four arrays the launch finds. -/
theorem arrAt11 (c : Dev nD) :
    (dat11 (F := Ideal) V c).arrAt 4 cfg11.N
      = CMB (Ideal.ofBits .f32 0x3F588995#32) (Ideal.ofBits .f32 0x3E1DD9AD#32)
          (V c (Pipeline.arrRef spec11 0)) (V c (Pipeline.arrRef spec11 1))
          (V c (Pipeline.arrRef spec11 2)) (V c (Pipeline.arrRef spec11 3)) :=
  (dat11 V c).arrAt_eq_of_cover 4 _ (fun t _ => flushed_eq V c t) cover

end Cert.Hand.RegCombine11

end
-- ==== Proof.RegCombine13.lean ====
/-
  The combine layer computed by launch 13, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine13

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k13_pay1 (F := Ideal) x0 x1 x2 x3) (ix2 p q)
      = (((Ideal.ofBits .f32 0x3F5DD0E3#32 * x0 (ix2 p q))
            + (Ideal.ofBits .f32 0x3E08BC74#32 * ∑ k : Fin 128, x0 (ix2 p k) * x2 (ix2 k q)))
          + (Ideal.ofBits .f32 0x3F5DD0E3#32 * x1 (ix2 p q)))
        + (Ideal.ofBits .f32 0x3E08BC74#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k13_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k13_pay1 (F := Ideal) x0 x1 x2 x3) (ix2 p q)
      = CMB (Ideal.ofBits .f32 0x3F5DD0E3#32) (Ideal.ofBits .f32 0x3E08BC74#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg13.N,
      win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

/-- Window 0's block at point t is rows 5000·t … of the aggregated array. -/
theorem blk0 (c : Dev nD) (t : Fin cfg13.N) (p : Fin 5000) (q : Fin 128) (r : Fin 50000) (hr : r.val = t.val * 5000 + p.val) :
    (iblk13 V c 0 t : Vec Ideal S5000x128 .f32) (ix2 p q)
      = (V c (Pipeline.arrRef spec13 0) : (⟨2, ![50000, 128]⟩ : Shape).Idx → EReal) (ix2 r q) := by
  obtain ⟨e0, e1, -⟩ := idx_facts t
  show (V c (Pipeline.arrRef spec13 0) : (⟨2, ![50000, 128]⟩ : Shape).Idx → EReal) (((cfg13.win 0).blk t).view.emb (ix2 p q)) = _
  refine congrArg _ (funext fun a => Fin.ext ?_)
  match a with
  | ⟨0, _⟩ => show win13_0.index t (0 : Fin 2) * 5000 + 1 * p.val = r.val; rw [e0, hr]; omega
  | ⟨1, _⟩ => show win13_0.index t (1 : Fin 2) * 128 + 1 * q.val = q.val; rw [e1]; omega

/-- Window 1's block at point t is rows 5000·t … of the residual array. -/
theorem blk1 (c : Dev nD) (t : Fin cfg13.N) (p : Fin 5000) (q : Fin 128) (r : Fin 50000) (hr : r.val = t.val * 5000 + p.val) :
    (iblk13 V c 1 t : Vec Ideal S5000x128 .f32) (ix2 p q)
      = (V c (Pipeline.arrRef spec13 1) : (⟨2, ![50000, 128]⟩ : Shape).Idx → EReal) (ix2 r q) := by
  obtain ⟨-, -, e0, e1, -⟩ := idx_facts t
  show (V c (Pipeline.arrRef spec13 1) : (⟨2, ![50000, 128]⟩ : Shape).Idx → EReal) (((cfg13.win 1).blk t).view.emb (ix2 p q)) = _
  refine congrArg _ (funext fun a => Fin.ext ?_)
  match a with
  | ⟨0, _⟩ => show win13_1.index t (0 : Fin 2) * 5000 + 1 * p.val = r.val; rw [e0, hr]; omega
  | ⟨1, _⟩ => show win13_1.index t (1 : Fin 2) * 128 + 1 * q.val = q.val; rw [e1]; omega

/-- Window 2's block at every point is the first weight, whole. -/
theorem blk2 (c : Dev nD) (t : Fin cfg13.N) (k : Fin 128) (q : Fin 128) :
    (iblk13 V c 2 t : Vec Ideal S128x128 .f32) (ix2 k q)
      = (V c (Pipeline.arrRef spec13 2) : (⟨2, ![128, 128]⟩ : Shape).Idx → EReal) (ix2 k q) := by
  obtain ⟨-, -, -, -, e0, e1, -⟩ := idx_facts t
  show (V c (Pipeline.arrRef spec13 2) : (⟨2, ![128, 128]⟩ : Shape).Idx → EReal) (((cfg13.win 2).blk t).view.emb (ix2 k q)) = _
  refine congrArg _ (funext fun a => Fin.ext ?_)
  match a with
  | ⟨0, _⟩ => show win13_2.index t (0 : Fin 2) * 128 + 1 * k.val = k.val; rw [e0]; omega
  | ⟨1, _⟩ => show win13_2.index t (1 : Fin 2) * 128 + 1 * q.val = q.val; rw [e1]; omega

/-- Window 3's block at every point is the second weight, whole. -/
theorem blk3 (c : Dev nD) (t : Fin cfg13.N) (k : Fin 128) (q : Fin 128) :
    (iblk13 V c 3 t : Vec Ideal S128x128 .f32) (ix2 k q)
      = (V c (Pipeline.arrRef spec13 3) : (⟨2, ![128, 128]⟩ : Shape).Idx → EReal) (ix2 k q) := by
  obtain ⟨-, -, -, -, -, -, e0, e1, -⟩ := idx_facts t
  show (V c (Pipeline.arrRef spec13 3) : (⟨2, ![128, 128]⟩ : Shape).Idx → EReal) (((cfg13.win 3).blk t).view.emb (ix2 k q)) = _
  refine congrArg _ (funext fun a => Fin.ext ?_)
  match a with
  | ⟨0, _⟩ => show win13_3.index t (0 : Fin 2) * 128 + 1 * k.val = k.val; rw [e0]; omega
  | ⟨1, _⟩ => show win13_3.index t (1 : Fin 2) * 128 + 1 * q.val = q.val; rw [e1]; omega

/-- WHAT POINT t WRITES BACK is block t of the combined array of the arrays the launch finds. -/
theorem flushed_eq (c : Dev nD) (t : Fin cfg13.N) :
    (dat13 V c).flushed 4 t = ((cfg13.win 4).blk t).view.read (Elt Ideal)
      (CMB (Ideal.ofBits .f32 0x3F5DD0E3#32) (Ideal.ofBits .f32 0x3E08BC74#32)
        (V c (Pipeline.arrRef spec13 0)) (V c (Pipeline.arrRef spec13 1))
        (V c (Pipeline.arrRef spec13 2)) (V c (Pipeline.arrRef spec13 3))) := by
  show (cfg13.win 4).cut (grid13.coords t) ((dat13 V c).after 4 t) = _
  rw [after13_4]
  unfold out13_4
  rw [View.canon_unit_zero hz]
  simp only [View.ld_unit_zero (S := S5000x128) hz, View.ld_unit_zero (S := S128x128) hz]
  obtain ⟨-, -, -, -, -, -, -, -, e0, e1⟩ := idx_facts t
  funext j
  show (k13_pay1 (F := Ideal) (iblk13 V c 0 t) (iblk13 V c 1 t) (iblk13 V c 2 t) (iblk13 V c 3 t)) j
    = CMB (Ideal.ofBits .f32 0x3F5DD0E3#32) (Ideal.ofBits .f32 0x3E08BC74#32)
        (V c (Pipeline.arrRef spec13 0)) (V c (Pipeline.arrRef spec13 1))
        (V c (Pipeline.arrRef spec13 2)) (V c (Pipeline.arrRef spec13 3)) (((cfg13.win 4).blk t).view.emb j)
  have hp : (j 0).val < 5000 := (j 0).isLt
  have hN : cfg13.N = 10 := N_13
  have ht : t.val < 10 := lt_of_lt_of_eq t.isLt hN
  have hemb : ((cfg13.win 4).blk t).view.emb j = ix2 (⟨t.val * 5000 + (j 0).val, by omega⟩ : Fin 50000) (j 1) := by
    funext a; apply Fin.ext
    match a with
    | ⟨0, _⟩ => show win13_4.index t (0 : Fin 2) * 5000 + 1 * (j 0).val = t.val * 5000 + (j 0).val; rw [e0]; omega
    | ⟨1, _⟩ => show win13_4.index t (1 : Fin 2) * 128 + 1 * (j 1).val = (j 1).val; rw [e1]; omega
  rw [hemb]
  refine Eq.trans (congrArg _ (eq_ix2 j)) ?_
  exact pay_point _ _ _ _ (iblk13 V c 0 t) (iblk13 V c 1 t) (iblk13 V c 2 t) (iblk13 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg13.N) (i : S50000x128.Idx) :
    i ∈ ((cfg13.win 4).blk t).view.set ↔ ∀ a : Fin 2, win13_4.index t a * S5000x128.size a ≤ (i a).val ∧ (i a).val < win13_4.index t a * S5000x128.size a + S5000x128.size a := by
  show i ∈ ((View.whole main_v257).slice (win13_4.rect t)).set ↔ _
  rw [View.set_slice_whole, Rect.mem_set_unit]
  exact Iff.rfl

/-- Every row of the result array lies in some point's block: row r in block r / 5000. -/
theorem cover (i : S50000x128.Idx) : ∃ t : Fin cfg13.N, (cfg13.win 4).flush t = true ∧ i ∈ ((cfg13.win 4).blk t).view.set := by
  have hi0 : (i 0).val < 50000 := (i 0).isLt
  have hi1 : (i 1).val < 128 := (i 1).isLt
  have hN : cfg13.N = 10 := N_13
  refine ⟨⟨(i 0).val / 5000, by rw [hN]; omega⟩, flush13_4 _, ?_⟩
  obtain ⟨-, -, -, -, -, -, -, -, e0, e1⟩ := idx_facts ⟨(i 0).val / 5000, by rw [hN]; omega⟩
  rw [mem_blk]
  intro a
  match a with
  | ⟨0, _⟩ =>
    show win13_4.index _ (0 : Fin 2) * 5000 ≤ (i 0).val ∧ (i 0).val < win13_4.index _ (0 : Fin 2) * 5000 + 5000
    rw [e0]; show (i 0).val / 5000 * 5000 ≤ (i 0).val ∧ (i 0).val < (i 0).val / 5000 * 5000 + 5000; omega
  | ⟨1, _⟩ =>
    show win13_4.index _ (1 : Fin 2) * 128 ≤ (i 1).val ∧ (i 1).val < win13_4.index _ (1 : Fin 2) * 128 + 128
    rw [e1]; omega

/-- THE RESULT ARRAY AFTER THE LAUNCH is the combined array of the four arrays the launch finds. -/
theorem arrAt13 (c : Dev nD) :
    (dat13 (F := Ideal) V c).arrAt 4 cfg13.N
      = CMB (Ideal.ofBits .f32 0x3F5DD0E3#32) (Ideal.ofBits .f32 0x3E08BC74#32)
          (V c (Pipeline.arrRef spec13 0)) (V c (Pipeline.arrRef spec13 1))
          (V c (Pipeline.arrRef spec13 2)) (V c (Pipeline.arrRef spec13 3)) :=
  (dat13 V c).arrAt_eq_of_cover 4 _ (fun t _ => flushed_eq V c t) cover

end Cert.Hand.RegCombine13

end
-- ==== Proof.RegCombine15.lean ====
/-
  The combine layer computed by launch 15, as one function of the arrays the launch finds.

  The launch walks ten row blocks of 5000 rows. At block t it reads rows 5000·t … 5000·t + 4999 of the aggregated array
  and of the residual array, reads both 128 × 128 weights whole, and writes rows 5000·t … 5000·t + 4999 of the result:
  entry (p, q) of the block is

      ((c1 · a p q + c2 · Σ_k a p k · w1 k q) + c1 · x p q) + c2 · Σ_k x p k · w2 k q

  where a and x are the two row blocks. A row of the result depends only on the same row of the two arrays, so each
  block written is the block of ONE array-wide function, the combined array of the specification; the ten blocks tile the
  50000 rows (row r lies in block r / 5000), hence after the launch the result array IS that function.
  The narrowing of the operands before each product is the identity on the extended reals, and a product accumulated
  into zero is the plain sum over the contraction index.
-/
import proofs.«104804_j42004780155161_1_alg».proof.Proof.Gen.KernelIdeal.Frame
import proofs.«104804_j42004780155161_1_alg».proof.Proof.RegCombineSpec
import proofs.«104804_j42004780155161_1_alg».proof.Proof.RegCombineDot
import Idealize.ShloMosaic.Lib.Pipeline.Value
import Idealize.ShloMosaic.Lib.ValueIdx
import Idealize.ShloMosaic.PureOps.Ideal.Laws

noncomputable section

namespace Cert.Hand.RegCombine15

open Cert.KernelIdeal Cert.KernelIdeal.Gen Idealize.ShloMosaic Idealize.ShloMosaic.ValueIdx Idealize.ShloMosaic.TcCoe
open Idealize.SL.Sem
open Idealize.ShloMosaic.Pipeline (Dat)
open Cert.Hand.RegCombineSpec Cert.Hand.RegCombineDot

/-! ## The body at one entry of a block -/

/-- The body's two products contract the left operand's columns against the right operand's rows. -/
theorem plain : Plain dot_S5000x128_S128x128_S5000x128_1_0_0_1_n_n := ⟨rfl, rfl, rfl, rfl, rfl, rfl⟩

/-- Entry (p, q) of what the body stores, from the four blocks it loads. -/
theorem pay_apply (x0 x1 : Vec Ideal S5000x128 .f32) (x2 x3 : Vec Ideal S128x128 .f32) (p : Fin 5000) (q : Fin 128) :
    (k15_pay1 (F := Ideal) x0 x1 x2 x3) (ix2 p q)
      = (((Ideal.ofBits .f32 0x3F61D8F9#32 * x0 (ix2 p q))
            + (Ideal.ofBits .f32 0x3DF1383B#32 * ∑ k : Fin 128, x0 (ix2 p k) * x2 (ix2 k q)))
          + (Ideal.ofBits .f32 0x3F61D8F9#32 * x1 (ix2 p q)))
        + (Ideal.ofBits .f32 0x3DF1383B#32 * ∑ k : Fin 128, x1 (ix2 p k) * x3 (ix2 k q)) := by
  have hm1 : matmul (F := Ideal) dot_S5000x128_S128x128_S5000x128_1_0_0_1_n_n none (truncf .bf16 x0 bitsLt_bf16_f32)
      (truncf .bf16 x2 bitsLt_bf16_f32) (constant S5000x128 .f32 0x00000000#32) (ix2 p q)
        = ∑ k : Fin 128, x0 (ix2 p k) * x2 (ix2 k q) :=
    matmul_zero_apply plain (truncf .bf16 x0 bitsLt_bf16_f32) (truncf .bf16 x2 bitsLt_bf16_f32) p q
  have hm2 : matmul (F := Ideal) dot_S5000x128_S128x128_S5000x128_1_0_0_1_n_n none (truncf .bf16 x1 bitsLt_bf16_f32)
      (truncf .bf16 x3 bitsLt_bf16_f32) (constant S5000x128 .f32 0x00000000#32) (ix2 p q)
        = ∑ k : Fin 128, x1 (ix2 p k) * x3 (ix2 k q) :=
    matmul_zero_apply plain (truncf .bf16 x1 bitsLt_bf16_f32) (truncf .bf16 x3 bitsLt_bf16_f32) p q
  unfold k15_pay1
  simp only [shapeCast_self, addf_apply, mulf_apply, broadcast_apply]
  rw [hm1, hm2]
  rfl

/-- The same entry when the row blocks are rows b·5000 … of two arrays A and X and the weight blocks are the weights:
    it is the combined array at row b·5000 + p. -/
theorem pay_point (A X : (⟨2, ![50000, 128]⟩ : Shape).Idx → EReal) (W1 W2 : (⟨2, ![128, 128]⟩ : Shape).Idx → EReal)
    (x0 x1 : Vec Ideal S5000x128 .f32) (x2 x3 : Vec Ideal S128x128 .f32) (b : Nat)
    (h0 : ∀ (p : Fin 5000) (q : Fin 128) (r : Fin 50000), r.val = b * 5000 + p.val → x0 (ix2 p q) = A (ix2 r q))
    (h1 : ∀ (p : Fin 5000) (q : Fin 128) (r : Fin 50000), r.val = b * 5000 + p.val → x1 (ix2 p q) = X (ix2 r q))
    (h2 : ∀ (k : Fin 128) (q : Fin 128), x2 (ix2 k q) = W1 (ix2 k q))
    (h3 : ∀ (k : Fin 128) (q : Fin 128), x3 (ix2 k q) = W2 (ix2 k q))
    (p : Fin 5000) (q : Fin 128) (r : Fin 50000) (hr : r.val = b * 5000 + p.val) :
    (k15_pay1 (F := Ideal) x0 x1 x2 x3) (ix2 p q)
      = CMB (Ideal.ofBits .f32 0x3F61D8F9#32) (Ideal.ofBits .f32 0x3DF1383B#32) A X W1 W2 (ix2 r q) := by
  rw [pay_apply, CMB_apply, h0 p q r hr, h1 p q r hr]
  simp only [h0 p _ r hr, h1 p _ r hr, h2, h3]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-block windows and the result's window sit at row block t,
    the two weight windows at the origin. -/
theorem idx_facts : ∀ t : Fin cfg15.N,
      win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0 :=
  (by decide +kernel : ∀ t : Fin grid15.N, _)

/-- Window 0's block at point t is rows 5000·t … of the aggregated array. -/
theorem blk0 (c : Dev nD) (t : Fin cfg15.N) (p : Fin 5000) (q : Fin 128) (r : Fin 50000) (hr : r.val = t.val * 5000 + p.val) :
    (iblk15 V c 0 t : Vec Ideal S5000x128 .f32) (ix2 p q)
      = (V c (Pipeline.arrRef spec15 0) : (⟨2, ![50000, 128]⟩ : Shape).Idx → EReal) (ix2 r q) := by
  obtain ⟨e0, e1, -⟩ := idx_facts t
  show (V c (Pipeline.arrRef spec15 0) : (⟨2, ![50000, 128]⟩ : Shape).Idx → EReal) (((cfg15.win 0).blk t).view.emb (ix2 p q)) = _
  refine congrArg _ (funext fun a => Fin.ext ?_)
  match a with
  | ⟨0, _⟩ => show win15_0.index t (0 : Fin 2) * 5000 + 1 * p.val = r.val; rw [e0, hr]; omega
  | ⟨1, _⟩ => show win15_0.index t (1 : Fin 2) * 128 + 1 * q.val = q.val; rw [e1]; omega

/-- Window 1's block at point t is rows 5000·t … of the residual array. -/
theorem blk1 (c : Dev nD) (t : Fin cfg15.N) (p : Fin 5000) (q : Fin 128) (r : Fin 50000) (hr : r.val = t.val * 5000 + p.val) :
    (iblk15 V c 1 t : Vec Ideal S5000x128 .f32) (ix2 p q)
      = (V c (Pipeline.arrRef spec15 1) : (⟨2, ![50000, 128]⟩ : Shape).Idx → EReal) (ix2 r q) := by
  obtain ⟨-, -, e0, e1, -⟩ := idx_facts t
  show (V c (Pipeline.arrRef spec15 1) : (⟨2, ![50000, 128]⟩ : Shape).Idx → EReal) (((cfg15.win 1).blk t).view.emb (ix2 p q)) = _
  refine congrArg _ (funext fun a => Fin.ext ?_)
  match a with
  | ⟨0, _⟩ => show win15_1.index t (0 : Fin 2) * 5000 + 1 * p.val = r.val; rw [e0, hr]; omega
  | ⟨1, _⟩ => show win15_1.index t (1 : Fin 2) * 128 + 1 * q.val = q.val; rw [e1]; omega

/-- Window 2's block at every point is the first weight, whole. -/
theorem blk2 (c : Dev nD) (t : Fin cfg15.N) (k : Fin 128) (q : Fin 128) :
    (iblk15 V c 2 t : Vec Ideal S128x128 .f32) (ix2 k q)
      = (V c (Pipeline.arrRef spec15 2) : (⟨2, ![128, 128]⟩ : Shape).Idx → EReal) (ix2 k q) := by
  obtain ⟨-, -, -, -, e0, e1, -⟩ := idx_facts t
  show (V c (Pipeline.arrRef spec15 2) : (⟨2, ![128, 128]⟩ : Shape).Idx → EReal) (((cfg15.win 2).blk t).view.emb (ix2 k q)) = _
  refine congrArg _ (funext fun a => Fin.ext ?_)
  match a with
  | ⟨0, _⟩ => show win15_2.index t (0 : Fin 2) * 128 + 1 * k.val = k.val; rw [e0]; omega
  | ⟨1, _⟩ => show win15_2.index t (1 : Fin 2) * 128 + 1 * q.val = q.val; rw [e1]; omega

/-- Window 3's block at every point is the second weight, whole. -/
theorem blk3 (c : Dev nD) (t : Fin cfg15.N) (k : Fin 128) (q : Fin 128) :
    (iblk15 V c 3 t : Vec Ideal S128x128 .f32) (ix2 k q)
      = (V c (Pipeline.arrRef spec15 3) : (⟨2, ![128, 128]⟩ : Shape).Idx → EReal) (ix2 k q) := by
  obtain ⟨-, -, -, -, -, -, e0, e1, -⟩ := idx_facts t
  show (V c (Pipeline.arrRef spec15 3) : (⟨2, ![128, 128]⟩ : Shape).Idx → EReal) (((cfg15.win 3).blk t).view.emb (ix2 k q)) = _
  refine congrArg _ (funext fun a => Fin.ext ?_)
  match a with
  | ⟨0, _⟩ => show win15_3.index t (0 : Fin 2) * 128 + 1 * k.val = k.val; rw [e0]; omega
  | ⟨1, _⟩ => show win15_3.index t (1 : Fin 2) * 128 + 1 * q.val = q.val; rw [e1]; omega

/-- WHAT POINT t WRITES BACK is block t of the combined array of the arrays the launch finds. -/
theorem flushed_eq (c : Dev nD) (t : Fin cfg15.N) :
    (dat15 V c).flushed 4 t = ((cfg15.win 4).blk t).view.read (Elt Ideal)
      (CMB (Ideal.ofBits .f32 0x3F61D8F9#32) (Ideal.ofBits .f32 0x3DF1383B#32)
        (V c (Pipeline.arrRef spec15 0)) (V c (Pipeline.arrRef spec15 1))
        (V c (Pipeline.arrRef spec15 2)) (V c (Pipeline.arrRef spec15 3))) := by
  show (cfg15.win 4).cut (grid15.coords t) ((dat15 V c).after 4 t) = _
  rw [after15_4]
  unfold out15_4
  rw [View.canon_unit_zero hz]
  simp only [View.ld_unit_zero (S := S5000x128) hz, View.ld_unit_zero (S := S128x128) hz]
  obtain ⟨-, -, -, -, -, -, -, -, e0, e1⟩ := idx_facts t
  funext j
  show (k15_pay1 (F := Ideal) (iblk15 V c 0 t) (iblk15 V c 1 t) (iblk15 V c 2 t) (iblk15 V c 3 t)) j
    = CMB (Ideal.ofBits .f32 0x3F61D8F9#32) (Ideal.ofBits .f32 0x3DF1383B#32)
        (V c (Pipeline.arrRef spec15 0)) (V c (Pipeline.arrRef spec15 1))
        (V c (Pipeline.arrRef spec15 2)) (V c (Pipeline.arrRef spec15 3)) (((cfg15.win 4).blk t).view.emb j)
  have hp : (j 0).val < 5000 := (j 0).isLt
  have hN : cfg15.N = 10 := N_15
  have ht : t.val < 10 := lt_of_lt_of_eq t.isLt hN
  have hemb : ((cfg15.win 4).blk t).view.emb j = ix2 (⟨t.val * 5000 + (j 0).val, by omega⟩ : Fin 50000) (j 1) := by
    funext a; apply Fin.ext
    match a with
    | ⟨0, _⟩ => show win15_4.index t (0 : Fin 2) * 5000 + 1 * (j 0).val = t.val * 5000 + (j 0).val; rw [e0]; omega
    | ⟨1, _⟩ => show win15_4.index t (1 : Fin 2) * 128 + 1 * (j 1).val = (j 1).val; rw [e1]; omega
  rw [hemb]
  refine Eq.trans (congrArg _ (eq_ix2 j)) ?_
  exact pay_point _ _ _ _ (iblk15 V c 0 t) (iblk15 V c 1 t) (iblk15 V c 2 t) (iblk15 V c 3 t) t.val
    (fun p q r hr => blk0 V c t p q r hr) (fun p q r hr => blk1 V c t p q r hr)
    (fun k q => blk2 V c t k q) (fun k q => blk3 V c t k q) (j 0) (j 1) _ rfl

/-- An index of the result array is in point t's block iff each coordinate is in the block's range on its axis. -/
theorem mem_blk (t : Fin cfg15.N) (i : S50000x128.Idx) :
    i ∈ ((cfg15.win 4).blk t).view.set ↔ ∀ a : Fin 2, win15_4.index t a * S5000x128.size a ≤ (i a).val ∧ (i a).val < win15_4.index t a * S5000x128.size a + S5000x128.size a := by
  show i ∈ ((View.whole main_v291).slice (win15_4.rect t)).set ↔ _
  rw [View.set_slice_whole, Rect.mem_set_unit]
  exact Iff.rfl

/-- Every row of the result array lies in some point's block: row r in block r / 5000. -/
theorem cover (i : S50000x128.Idx) : ∃ t : Fin cfg15.N, (cfg15.win 4).flush t = true ∧ i ∈ ((cfg15.win 4).blk t).view.set := by
  have hi0 : (i 0).val < 50000 := (i 0).isLt
  have hi1 : (i 1).val < 128 := (i 1).isLt
  have hN : cfg15.N = 10 := N_15
  refine ⟨⟨(i 0).val / 5000, by rw [hN]; omega⟩, flush15_4 _, ?_⟩
  obtain ⟨-, -, -, -, -, -, -, -, e0, e1⟩ := idx_facts ⟨(i 0).val / 5000, by rw [hN]; omega⟩
  rw [mem_blk]
  intro a
  match a with
  | ⟨0, _⟩ =>
    show win15_4.index _ (0 : Fin 2) * 5000 ≤ (i 0).val ∧ (i 0).val < win15_4.index _ (0 : Fin 2) * 5000 + 5000
    rw [e0]; show (i 0).val / 5000 * 5000 ≤ (i 0).val ∧ (i 0).val < (i 0).val / 5000 * 5000 + 5000; omega
  | ⟨1, _⟩ =>
    show win15_4.index _ (1 : Fin 2) * 128 ≤ (i 1).val ∧ (i 1).val < win15_4.index _ (1 : Fin 2) * 128 + 128
    rw [e1]; omega

/-- THE RESULT ARRAY AFTER THE LAUNCH is the combined array of the four arrays the launch finds. -/
theorem arrAt15 (c : Dev nD) :
    (dat15 (F := Ideal) V c).arrAt 4 cfg15.N
      = CMB (Ideal.ofBits .f32 0x3F61D8F9#32) (Ideal.ofBits .f32 0x3DF1383B#32)
          (V c (Pipeline.arrRef spec15 0)) (V c (Pipeline.arrRef spec15 1))
          (V c (Pipeline.arrRef spec15 2)) (V c (Pipeline.arrRef spec15 3)) :=
  (dat15 V c).arrAt_eq_of_cover 4 _ (fun t _ => flushed_eq V c t) cover

end Cert.Hand.RegCombine15

end
-- ==== Proof.RegNorm2.lean ====
/-
  Region 2 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm2

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k2_pay1 (F := Ideal) v0 v2 v4 v6 v8) (ix2 p q)
      = max ((((v0 (ix2 p q) - v2 (ix2 o o)) * v4 (ix2 o o)) * v6 (ix2 o q)) + v8 (ix2 o q)) 0 := by
  unfold k2_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k2_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg2.N) :
    (iblk2 V c 1 t : S1x128.Idx → EReal) = (V c (Pipeline.arrRef spec2 1) : S1x128.Idx → EReal) := by
  obtain ⟨-, -, -, -, e0, e1, -⟩ := idx_facts t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The bias row's block at any point is the bias row. -/
theorem whole2 (c : Dev nD) (t : Fin cfg2.N) :
    (iblk2 V c 2 t : S1x128.Idx → EReal) = (V c (Pipeline.arrRef spec2 2) : S1x128.Idx → EReal) := by
  obtain ⟨-, -, -, -, -, -, e0, e1, -⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The mean's block at any point is the mean. -/
theorem whole3 (c : Dev nD) (t : Fin cfg2.N) :
    (iblk2 V c 3 t : S1x1.Idx → EReal) = (V c (Pipeline.arrRef spec2 3) : S1x1.Idx → EReal) := by
  obtain ⟨-, -, -, -, -, -, -, -, e0, e1, -⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 1 + 1 * (y 1).val = (y 1).val; omega

/-- The reciprocal deviation's block at any point is the reciprocal deviation. -/
theorem whole4 (c : Dev nD) (t : Fin cfg2.N) :
    (iblk2 V c 4 t : S1x1.Idx → EReal) = (V c (Pipeline.arrRef spec2 4) : S1x1.Idx → EReal) := by
  obtain ⟨-, -, -, -, -, -, -, -, -, -, e0, e1⟩ := idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec2 0)) (V c (Pipeline.arrRef spec2 1)) (V c (Pipeline.arrRef spec2 2))
    (V c (Pipeline.arrRef spec2 3)) (V c (Pipeline.arrRef spec2 4))

/-- Point `t` writes back block `t` of the whole-array function: the activation block and the result block sit on the same
    rows, and a block index keeps its column. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) j (((cfg2.win 5).blk t).view.emb j)
    ?_ ?_ (whole1 V c t) (whole2 V c t) (whole3 V c t) (whole4 V c t)
  · show V c (Pipeline.arrRef spec2 0) (((cfg2.win 0).blk t).view.emb j) = V c (Pipeline.arrRef spec2 0) (((cfg2.win 5).blk t).view.emb j)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  · show win2_5.index t (1 : Fin 2) * 128 + 1 * (j 1).val = (j 1).val
    omega

/-! ## The ten blocks tile the rows -/

/-- An index of the result array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v67).slice (win2_5.rect t)).set ↔ _
  rw [View.set_slice_whole, Rect.mem_set_unit]
  exact Iff.rfl

/-- Row `r` lies in the block of point `r / 5000`, which writes back. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, b0, b1, -⟩ := idx_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    rw [b1]; omega

/-! ## The array after the launch -/

/-- After the launch the result array is the normalised, rectified activation, entry by entry. -/
theorem arrAt2 (c : Dev nD) :
    (dat2 V c).arrAt 5 cfg2.N
      = NRM (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 (G V c) (fun t _ => flushed_eq V c t) cover

end AtEntry

end Cert.Hand.RegNorm2

end
-- ==== Proof.RegNorm4.lean ====
/-
  Region 4 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm4

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k4_pay1 (F := Ideal) v0 v2 v4 v6 v8) (ix2 p q)
      = max ((((v0 (ix2 p q) - v2 (ix2 o o)) * v4 (ix2 o o)) * v6 (ix2 o q)) + v8 (ix2 o q)) 0 := by
  unfold k4_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k4_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg4.N,
    win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg4.N) :
    (iblk4 V c 1 t : S1x128.Idx → EReal) = (V c (Pipeline.arrRef spec4 1) : S1x128.Idx → EReal) := by
  obtain ⟨-, -, -, -, e0, e1, -⟩ := idx_facts t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- The bias row's block at any point is the bias row. -/
theorem whole2 (c : Dev nD) (t : Fin cfg4.N) :
    (iblk4 V c 2 t : S1x128.Idx → EReal) = (V c (Pipeline.arrRef spec4 2) : S1x128.Idx → EReal) := by
  obtain ⟨-, -, -, -, -, -, e0, e1, -⟩ := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The mean's block at any point is the mean. -/
theorem whole3 (c : Dev nD) (t : Fin cfg4.N) :
    (iblk4 V c 3 t : S1x1.Idx → EReal) = (V c (Pipeline.arrRef spec4 3) : S1x1.Idx → EReal) := by
  obtain ⟨-, -, -, -, -, -, -, -, e0, e1, -⟩ := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 1 + 1 * (y 1).val = (y 1).val; omega

/-- The reciprocal deviation's block at any point is the reciprocal deviation. -/
theorem whole4 (c : Dev nD) (t : Fin cfg4.N) :
    (iblk4 V c 4 t : S1x1.Idx → EReal) = (V c (Pipeline.arrRef spec4 4) : S1x1.Idx → EReal) := by
  obtain ⟨-, -, -, -, -, -, -, -, -, -, e0, e1⟩ := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec4 0)) (V c (Pipeline.arrRef spec4 1)) (V c (Pipeline.arrRef spec4 2))
    (V c (Pipeline.arrRef spec4 3)) (V c (Pipeline.arrRef spec4 4))

/-- Point `t` writes back block `t` of the whole-array function: the activation block and the result block sit on the same
    rows, and a block index keeps its column. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk4 V c 0 t) (iblk4 V c 1 t) (iblk4 V c 2 t) (iblk4 V c 3 t) (iblk4 V c 4 t)
    (V c (Pipeline.arrRef spec4 0)) (V c (Pipeline.arrRef spec4 1)) (V c (Pipeline.arrRef spec4 2))
    (V c (Pipeline.arrRef spec4 3)) (V c (Pipeline.arrRef spec4 4)) j (((cfg4.win 5).blk t).view.emb j)
    ?_ ?_ (whole1 V c t) (whole2 V c t) (whole3 V c t) (whole4 V c t)
  · show V c (Pipeline.arrRef spec4 0) (((cfg4.win 0).blk t).view.emb j) = V c (Pipeline.arrRef spec4 0) (((cfg4.win 5).blk t).view.emb j)
    refine congrArg _ (funext fun a => Fin.ext ?_)
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 128 + 1 * (j 1).val = win4_5.index t (1 : Fin 2) * 128 + 1 * (j 1).val; omega
  · show win4_5.index t (1 : Fin 2) * 128 + 1 * (j 1).val = (j 1).val
    omega

/-! ## The ten blocks tile the rows -/

/-- An index of the result array is in point `t`'s block iff each coordinate is in the block's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v101).slice (win4_5.rect t)).set ↔ _
  rw [View.set_slice_whole, Rect.mem_set_unit]
  exact Iff.rfl

/-- Row `r` lies in the block of point `r / 5000`, which writes back. -/
theorem cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  have hlt : (i 0).val / 5000 < cfg4.N := by rw [hN]; omega
  obtain ⟨-, -, b0, b1, -⟩ := idx_facts ⟨(i 0).val / 5000, hlt⟩
  refine ⟨⟨(i 0).val / 5000, hlt⟩, flush4_5 _, ?_⟩
  rw [mem_blk]
  intro a
  match a with
  | ⟨0, _⟩ =>
    show win4_5.index ⟨(i 0).val / 5000, hlt⟩ (0 : Fin 2) * 5000 ≤ (i 0).val ∧ (i 0).val < win4_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win4_5.index ⟨(i 0).val / 5000, hlt⟩ (1 : Fin 2) * 128 ≤ (i 1).val ∧ (i 1).val < win4_5.index ⟨(i 0).val / 5000, hlt⟩ (1 : Fin 2) * 128 + 128
    rw [b1]; omega

/-! ## The array after the launch -/

/-- After the launch the result array is the normalised, rectified activation, entry by entry. -/
theorem arrAt4 (c : Dev nD) :
    (dat4 V c).arrAt 5 cfg4.N
      = NRM (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 (G V c) (fun t _ => flushed_eq V c t) cover

end AtEntry

end Cert.Hand.RegNorm4

end
-- ==== Proof.RegNorm6.lean ====
/-
  Region 6 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm6

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k6_pay1 (F := Ideal) v0 v2 v4 v6 v8) (ix2 p q)
      = max ((((v0 (ix2 p q) - v2 (ix2 o o)) * v4 (ix2 o o)) * v6 (ix2 o q)) + v8 (ix2 o q)) 0 := by
  unfold k6_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k6_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg6.N,
    win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg6.N) :
    (iblk6 V c 1 t : S1x128.Idx → EReal) = (V c (Pipeline.arrRef spec6 1) : S1x128.Idx → EReal) := by
  obtain ⟨-, -, -, -, e0, e1, -⟩ := idx_facts t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 1 + 1 * (y 0).val = (y 0).val; omega
  | ⟨1, _⟩ => show win6_1.index t (1 : Fin 2) * 128 + 1 * (y 1).val = (y 1).val; omega

/-- The bias row's block at any point is the bias row. -/
theorem whole2 (c : Dev nD) (t : Fin cfg6.N) :
    (iblk6 V c 2 t : S1x128.Idx → EReal) = (V c (Pipeline.arrRef spec6 2) : S1x128.Idx → EReal) := by
  obtain ⟨-, -, -, -, -, -, e0, e1, -⟩ := idx_facts t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- The mean's block at any point is the mean. -/
theorem whole3 (c : Dev nD) (t : Fin cfg6.N) :
    (iblk6 V c 3 t : S1x1.Idx → EReal) = (V c (Pipeline.arrRef spec6 3) : S1x1.Idx → EReal) := by
  obtain ⟨-, -, -, -, -, -, -, -, e0, e1, -⟩ := idx_facts t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 1 + 1 * (y 1).val = (y 1).val; omega

/-- The reciprocal deviation's block at any point is the reciprocal deviation. -/
theorem whole4 (c : Dev nD) (t : Fin cfg6.N) :
    (iblk6 V c 4 t : S1x1.Idx → EReal) = (V c (Pipeline.arrRef spec6 4) : S1x1.Idx → EReal) := by
  obtain ⟨-, -, -, -, -, -, -, -, -, -, e0, e1⟩ := idx_facts t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec6 0)) (V c (Pipeline.arrRef spec6 1)) (V c (Pipeline.arrRef spec6 2))
    (V c (Pipeline.arrRef spec6 3)) (V c (Pipeline.arrRef spec6 4))

/-- Point `t` writes back block `t` of the whole-array function: the activation block and the result block sit on the same
    rows, and a block index keeps its column. -/
theorem flushed_eq (c : Dev nD) (t : Fin cfg6.N) :
    (dat6 V c).flushed 5 t = ((cfg6.win 5).blk t).view.read (Elt Ideal) (G V c) := by
  show (cfg6.win 5).cut (grid6.coords t) ((dat6 V c).after 5 t) = _
  rw [after6_5]
  unfold out6_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4)) j (((cfg6.win 5).blk t).view.emb j)
    ?_ ?_ (whole1 V c t) (whole2 V c t) (whole3 V c t) (whole4 V c t)
  · show V c (Pipeline.arrRef spec6 0) (((cfg6.win 0).blk t).view.emb j) = V c (Pipeline.arrRef spec6 0) (((cfg6.win 5).blk t).view.emb j)
    refine congrArg _ (funext fun a => Fin.ext ?_)
    match a with
    | ⟨0, _⟩ => show win6_0.index t (0 : Fin 2) * 5000 + 1 * (j 0).val = win6_5.index t (0 : Fin 2) * 5000 + 1 * (j 0).val; omega
    | ⟨1, _⟩ => show win6_0.index t (1 : Fin 2) * 128 + 1 * (j 1).val = win6_5.index t (1 : Fin 2) * 128 + 1 * (j 1).val; omega
  · show win6_5.index t (1 : Fin 2) * 128 + 1 * (j 1).val = (j 1).val
    omega

/-! ## The ten blocks tile the rows -/

/-- An index of the result array is in point `t`'s block iff each coordinate is in the block's range on its axis. -/
theorem mem_blk (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v135).slice (win6_5.rect t)).set ↔ _
  rw [View.set_slice_whole, Rect.mem_set_unit]
  exact Iff.rfl

/-- Row `r` lies in the block of point `r / 5000`, which writes back. -/
theorem cover (i : S50000x128.Idx) :
    ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := N_6
  have hlt : (i 0).val / 5000 < cfg6.N := by rw [hN]; omega
  obtain ⟨-, -, b0, b1, -⟩ := idx_facts ⟨(i 0).val / 5000, hlt⟩
  refine ⟨⟨(i 0).val / 5000, hlt⟩, flush6_5 _, ?_⟩
  rw [mem_blk]
  intro a
  match a with
  | ⟨0, _⟩ =>
    show win6_5.index ⟨(i 0).val / 5000, hlt⟩ (0 : Fin 2) * 5000 ≤ (i 0).val ∧ (i 0).val < win6_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win6_5.index ⟨(i 0).val / 5000, hlt⟩ (1 : Fin 2) * 128 ≤ (i 1).val ∧ (i 1).val < win6_5.index ⟨(i 0).val / 5000, hlt⟩ (1 : Fin 2) * 128 + 128
    rw [b1]; omega

/-! ## The array after the launch -/

/-- After the launch the result array is the normalised, rectified activation, entry by entry. -/
theorem arrAt6 (c : Dev nD) :
    (dat6 V c).arrAt 5 cfg6.N
      = NRM (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 (G V c) (fun t _ => flushed_eq V c t) cover

end AtEntry

end Cert.Hand.RegNorm6

end
-- ==== Proof.RegNorm8.lean ====
/-
  Region 8 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm8

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k8_pay1 (F := Ideal) v0 v2 v4 v6 v8) (ix2 p q)
      = max ((((v0 (ix2 p q) - v2 (ix2 o o)) * v4 (ix2 o o)) * v6 (ix2 o q)) + v8 (ix2 o q)) 0 := by
  unfold k8_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k8_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg8.N) :
    (iblk8 V c 1 t : S1x128.Idx → EReal) = (V c (Pipeline.arrRef spec8 1) : S1x128.Idx → EReal) := by
  obtain ⟨-, -, -, -, e0, e1, -⟩ := idx_facts t
  funext y
  show V c (Pipeline.arrRef spec8 1) (((cfg8.win 1).blk t).view.emb y) = V c (Pipeline.arrRef spec8 1) y
  refine congrArg _ (funext fun a => Fin.ext ?_)
  match a with
  | ⟨0, _⟩ => show win8_1.index t (0 : Fin 2) * 1 + 1 * (y 0).val = (y 0).val; omega
  | ⟨1, _⟩ => show win8_1.index t (1 : Fin 2) * 128 + 1 * (y 1).val = (y 1).val; omega

/-- The bias row's block at any point is the bias row. -/
theorem whole2 (c : Dev nD) (t : Fin cfg8.N) :
    (iblk8 V c 2 t : S1x128.Idx → EReal) = (V c (Pipeline.arrRef spec8 2) : S1x128.Idx → EReal) := by
  obtain ⟨-, -, -, -, -, -, e0, e1, -⟩ := idx_facts t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 128 + 1 * (y 1).val = (y 1).val; omega

/-- The mean's block at any point is the mean. -/
theorem whole3 (c : Dev nD) (t : Fin cfg8.N) :
    (iblk8 V c 3 t : S1x1.Idx → EReal) = (V c (Pipeline.arrRef spec8 3) : S1x1.Idx → EReal) := by
  obtain ⟨-, -, -, -, -, -, -, -, e0, e1, -⟩ := idx_facts t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 1 + 1 * (y 1).val = (y 1).val; omega

/-- The reciprocal deviation's block at any point is the reciprocal deviation. -/
theorem whole4 (c : Dev nD) (t : Fin cfg8.N) :
    (iblk8 V c 4 t : S1x1.Idx → EReal) = (V c (Pipeline.arrRef spec8 4) : S1x1.Idx → EReal) := by
  obtain ⟨-, -, -, -, -, -, -, -, -, -, e0, e1⟩ := idx_facts t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 1 + 1 * (y 0).val = (y 0).val; omega
  | ⟨1, _⟩ => show win8_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec8 0)) (V c (Pipeline.arrRef spec8 1)) (V c (Pipeline.arrRef spec8 2))
    (V c (Pipeline.arrRef spec8 3)) (V c (Pipeline.arrRef spec8 4))

/-- Point `t` writes back block `t` of the whole-array function: the activation block and the result block sit on the same
    rows, and a block index keeps its column. -/
theorem flushed_eq (c : Dev nD) (t : Fin cfg8.N) :
    (dat8 V c).flushed 5 t = ((cfg8.win 5).blk t).view.read (Elt Ideal) (G V c) := by
  show (cfg8.win 5).cut (grid8.coords t) ((dat8 V c).after 5 t) = _
  rw [after8_5]
  unfold out8_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk8 V c 0 t) (iblk8 V c 1 t) (iblk8 V c 2 t) (iblk8 V c 3 t) (iblk8 V c 4 t)
    (V c (Pipeline.arrRef spec8 0)) (V c (Pipeline.arrRef spec8 1)) (V c (Pipeline.arrRef spec8 2))
    (V c (Pipeline.arrRef spec8 3)) (V c (Pipeline.arrRef spec8 4)) j (((cfg8.win 5).blk t).view.emb j)
    ?_ ?_ (whole1 V c t) (whole2 V c t) (whole3 V c t) (whole4 V c t)
  · show V c (Pipeline.arrRef spec8 0) (((cfg8.win 0).blk t).view.emb j) = V c (Pipeline.arrRef spec8 0) (((cfg8.win 5).blk t).view.emb j)
    refine congrArg _ (funext fun a => Fin.ext ?_)
    match a with
    | ⟨0, _⟩ => show win8_0.index t (0 : Fin 2) * 5000 + 1 * (j 0).val = win8_5.index t (0 : Fin 2) * 5000 + 1 * (j 0).val; omega
    | ⟨1, _⟩ => show win8_0.index t (1 : Fin 2) * 128 + 1 * (j 1).val = win8_5.index t (1 : Fin 2) * 128 + 1 * (j 1).val; omega
  · show win8_5.index t (1 : Fin 2) * 128 + 1 * (j 1).val = (j 1).val
    omega

/-! ## The ten blocks tile the rows -/

/-- An index of the result array is in point `t`'s block iff each coordinate is in the block's range on its axis. -/
theorem mem_blk (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v169).slice (win8_5.rect t)).set ↔ _
  rw [View.set_slice_whole, Rect.mem_set_unit]
  exact Iff.rfl

/-- Row `r` lies in the block of point `r / 5000`, which writes back. -/
theorem cover (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  have hN : cfg8.N = 10 := N_8
  have hlt : (i 0).val / 5000 < cfg8.N := by rw [hN]; omega
  obtain ⟨-, -, b0, b1, -⟩ := idx_facts ⟨(i 0).val / 5000, hlt⟩
  refine ⟨⟨(i 0).val / 5000, hlt⟩, flush8_5 _, ?_⟩
  rw [mem_blk]
  intro a
  match a with
  | ⟨0, _⟩ =>
    show win8_5.index ⟨(i 0).val / 5000, hlt⟩ (0 : Fin 2) * 5000 ≤ (i 0).val ∧ (i 0).val < win8_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win8_5.index ⟨(i 0).val / 5000, hlt⟩ (1 : Fin 2) * 128 ≤ (i 1).val ∧ (i 1).val < win8_5.index ⟨(i 0).val / 5000, hlt⟩ (1 : Fin 2) * 128 + 128
    rw [b1]; omega

/-! ## The array after the launch -/

/-- After the launch the result array is the normalised, rectified activation, entry by entry. -/
theorem arrAt8 (c : Dev nD) :
    (dat8 V c).arrAt 5 cfg8.N
      = NRM (V c (Pipeline.arrRef spec8 0)) (V c (Pipeline.arrRef spec8 1)) (V c (Pipeline.arrRef spec8 2))
          (V c (Pipeline.arrRef spec8 3)) (V c (Pipeline.arrRef spec8 4)) :=
  (dat8 V c).arrAt_eq_of_cover 5 (G V c) (fun t _ => flushed_eq V c t) cover

end AtEntry

end Cert.Hand.RegNorm8

end
-- ==== Proof.RegNorm10.lean ====
/-
  Region 10 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm10

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k10_pay1 (F := Ideal) v0 v2 v4 v6 v8) (ix2 p q)
      = max ((((v0 (ix2 p q) - v2 (ix2 o o)) * v4 (ix2 o o)) * v6 (ix2 o q)) + v8 (ix2 o q)) 0 := by
  unfold k10_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k10_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg10.N,
    win10_0.index t (0 : Fin 2) = t.val ∧ win10_0.index t (1 : Fin 2) = 0
    ∧ win10_5.index t (0 : Fin 2) = t.val ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg10.N) :
    (iblk10 V c 1 t : S1x128.Idx → EReal) = (V c (Pipeline.arrRef spec10 1) : S1x128.Idx → EReal) := by
  obtain ⟨-, -, -, -, e0, e1, -⟩ := idx_facts t
  funext y
  show V c (Pipeline.arrRef spec10 1) (((cfg10.win 1).blk t).view.emb y) = V c (Pipeline.arrRef spec10 1) y
  refine congrArg _ (funext fun a => Fin.ext ?_)
  match a with
  | ⟨0, _⟩ => show win10_1.index t (0 : Fin 2) * 1 + 1 * (y 0).val = (y 0).val; omega
  | ⟨1, _⟩ => show win10_1.index t (1 : Fin 2) * 128 + 1 * (y 1).val = (y 1).val; omega

/-- The bias row's block at any point is the bias row. -/
theorem whole2 (c : Dev nD) (t : Fin cfg10.N) :
    (iblk10 V c 2 t : S1x128.Idx → EReal) = (V c (Pipeline.arrRef spec10 2) : S1x128.Idx → EReal) := by
  obtain ⟨-, -, -, -, -, -, e0, e1, -⟩ := idx_facts t
  funext y
  show V c (Pipeline.arrRef spec10 2) (((cfg10.win 2).blk t).view.emb y) = V c (Pipeline.arrRef spec10 2) y
  refine congrArg _ (funext fun a => Fin.ext ?_)
  match a with
  | ⟨0, _⟩ => show win10_2.index t (0 : Fin 2) * 1 + 1 * (y 0).val = (y 0).val; omega
  | ⟨1, _⟩ => show win10_2.index t (1 : Fin 2) * 128 + 1 * (y 1).val = (y 1).val; omega

/-- The mean's block at any point is the mean. -/
theorem whole3 (c : Dev nD) (t : Fin cfg10.N) :
    (iblk10 V c 3 t : S1x1.Idx → EReal) = (V c (Pipeline.arrRef spec10 3) : S1x1.Idx → EReal) := by
  obtain ⟨-, -, -, -, -, -, -, -, e0, e1, -⟩ := idx_facts t
  funext y
  show V c (Pipeline.arrRef spec10 3) (((cfg10.win 3).blk t).view.emb y) = V c (Pipeline.arrRef spec10 3) y
  refine congrArg _ (funext fun a => Fin.ext ?_)
  match a with
  | ⟨0, _⟩ => show win10_3.index t (0 : Fin 2) * 1 + 1 * (y 0).val = (y 0).val; omega
  | ⟨1, _⟩ => show win10_3.index t (1 : Fin 2) * 1 + 1 * (y 1).val = (y 1).val; omega

/-- The reciprocal deviation's block at any point is the reciprocal deviation. -/
theorem whole4 (c : Dev nD) (t : Fin cfg10.N) :
    (iblk10 V c 4 t : S1x1.Idx → EReal) = (V c (Pipeline.arrRef spec10 4) : S1x1.Idx → EReal) := by
  obtain ⟨-, -, -, -, -, -, -, -, -, -, e0, e1⟩ := idx_facts t
  funext y
  show V c (Pipeline.arrRef spec10 4) (((cfg10.win 4).blk t).view.emb y) = V c (Pipeline.arrRef spec10 4) y
  refine congrArg _ (funext fun a => Fin.ext ?_)
  match a with
  | ⟨0, _⟩ => show win10_4.index t (0 : Fin 2) * 1 + 1 * (y 0).val = (y 0).val; omega
  | ⟨1, _⟩ => show win10_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec10 0)) (V c (Pipeline.arrRef spec10 1)) (V c (Pipeline.arrRef spec10 2))
    (V c (Pipeline.arrRef spec10 3)) (V c (Pipeline.arrRef spec10 4))

/-- Point `t` writes back block `t` of the whole-array function: the activation block and the result block sit on the same
    rows, and a block index keeps its column. -/
theorem flushed_eq (c : Dev nD) (t : Fin cfg10.N) :
    (dat10 V c).flushed 5 t = ((cfg10.win 5).blk t).view.read (Elt Ideal) (G V c) := by
  show (cfg10.win 5).cut (grid10.coords t) ((dat10 V c).after 5 t) = _
  rw [after10_5]
  unfold out10_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk10 V c 0 t) (iblk10 V c 1 t) (iblk10 V c 2 t) (iblk10 V c 3 t) (iblk10 V c 4 t)
    (V c (Pipeline.arrRef spec10 0)) (V c (Pipeline.arrRef spec10 1)) (V c (Pipeline.arrRef spec10 2))
    (V c (Pipeline.arrRef spec10 3)) (V c (Pipeline.arrRef spec10 4)) j (((cfg10.win 5).blk t).view.emb j)
    ?_ ?_ (whole1 V c t) (whole2 V c t) (whole3 V c t) (whole4 V c t)
  · show V c (Pipeline.arrRef spec10 0) (((cfg10.win 0).blk t).view.emb j) = V c (Pipeline.arrRef spec10 0) (((cfg10.win 5).blk t).view.emb j)
    refine congrArg _ (funext fun a => Fin.ext ?_)
    match a with
    | ⟨0, _⟩ => show win10_0.index t (0 : Fin 2) * 5000 + 1 * (j 0).val = win10_5.index t (0 : Fin 2) * 5000 + 1 * (j 0).val; omega
    | ⟨1, _⟩ => show win10_0.index t (1 : Fin 2) * 128 + 1 * (j 1).val = win10_5.index t (1 : Fin 2) * 128 + 1 * (j 1).val; omega
  · show win10_5.index t (1 : Fin 2) * 128 + 1 * (j 1).val = (j 1).val
    omega

/-! ## The ten blocks tile the rows -/

/-- An index of the result array is in point `t`'s block iff each coordinate is in the block's range on its axis. -/
theorem mem_blk (t : Fin cfg10.N) (i : S50000x128.Idx) :
    i ∈ ((cfg10.win 5).blk t).view.set ↔ ∀ a : Fin 2, win10_5.index t a * S5000x128.size a ≤ (i a).val ∧ (i a).val < win10_5.index t a * S5000x128.size a + S5000x128.size a := by
  show i ∈ ((View.whole main_v203).slice (win10_5.rect t)).set ↔ _
  rw [View.set_slice_whole, Rect.mem_set_unit]
  exact Iff.rfl

/-- Row `r` lies in the block of point `r / 5000`, which writes back. -/
theorem cover (i : S50000x128.Idx) :
    ∃ t : Fin cfg10.N, (cfg10.win 5).flush t = true ∧ i ∈ ((cfg10.win 5).blk t).view.set := by
  have hi0 : (i 0).val < 50000 := (i 0).isLt
  have hi1 : (i 1).val < 128 := (i 1).isLt
  have hN : cfg10.N = 10 := N_10
  have hlt : (i 0).val / 5000 < cfg10.N := by rw [hN]; omega
  obtain ⟨-, -, b0, b1, -⟩ := idx_facts ⟨(i 0).val / 5000, hlt⟩
  refine ⟨⟨(i 0).val / 5000, hlt⟩, flush10_5 _, ?_⟩
  rw [mem_blk]
  intro a
  match a with
  | ⟨0, _⟩ =>
    show win10_5.index ⟨(i 0).val / 5000, hlt⟩ (0 : Fin 2) * 5000 ≤ (i 0).val ∧ (i 0).val < win10_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win10_5.index ⟨(i 0).val / 5000, hlt⟩ (1 : Fin 2) * 128 ≤ (i 1).val ∧ (i 1).val < win10_5.index ⟨(i 0).val / 5000, hlt⟩ (1 : Fin 2) * 128 + 128
    rw [b1]; omega

/-! ## The array after the launch -/

/-- After the launch the result array is the normalised, rectified activation, entry by entry. -/
theorem arrAt10 (c : Dev nD) :
    (dat10 V c).arrAt 5 cfg10.N
      = NRM (V c (Pipeline.arrRef spec10 0)) (V c (Pipeline.arrRef spec10 1)) (V c (Pipeline.arrRef spec10 2))
          (V c (Pipeline.arrRef spec10 3)) (V c (Pipeline.arrRef spec10 4)) :=
  (dat10 V c).arrAt_eq_of_cover 5 (G V c) (fun t _ => flushed_eq V c t) cover

end AtEntry

end Cert.Hand.RegNorm10

end
-- ==== Proof.RegNorm12.lean ====
/-
  Region 12 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm12

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k12_pay1 (F := Ideal) v0 v2 v4 v6 v8) (ix2 p q)
      = max ((((v0 (ix2 p q) - v2 (ix2 o o)) * v4 (ix2 o o)) * v6 (ix2 o q)) + v8 (ix2 o q)) 0 := by
  unfold k12_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k12_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg12.N,
    win12_0.index t (0 : Fin 2) = t.val ∧ win12_0.index t (1 : Fin 2) = 0
    ∧ win12_5.index t (0 : Fin 2) = t.val ∧ win12_5.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg12.N) :
    (iblk12 V c 1 t : S1x128.Idx → EReal) = (V c (Pipeline.arrRef spec12 1) : S1x128.Idx → EReal) := by
  obtain ⟨-, -, -, -, e0, e1, -⟩ := idx_facts t
  funext y
  show V c (Pipeline.arrRef spec12 1) (((cfg12.win 1).blk t).view.emb y) = V c (Pipeline.arrRef spec12 1) y
  refine congrArg _ (funext fun a => Fin.ext ?_)
  match a with
  | ⟨0, _⟩ => show win12_1.index t (0 : Fin 2) * 1 + 1 * (y 0).val = (y 0).val; omega
  | ⟨1, _⟩ => show win12_1.index t (1 : Fin 2) * 128 + 1 * (y 1).val = (y 1).val; omega

/-- The bias row's block at any point is the bias row. -/
theorem whole2 (c : Dev nD) (t : Fin cfg12.N) :
    (iblk12 V c 2 t : S1x128.Idx → EReal) = (V c (Pipeline.arrRef spec12 2) : S1x128.Idx → EReal) := by
  obtain ⟨-, -, -, -, -, -, e0, e1, -⟩ := idx_facts t
  funext y
  show V c (Pipeline.arrRef spec12 2) (((cfg12.win 2).blk t).view.emb y) = V c (Pipeline.arrRef spec12 2) y
  refine congrArg _ (funext fun a => Fin.ext ?_)
  match a with
  | ⟨0, _⟩ => show win12_2.index t (0 : Fin 2) * 1 + 1 * (y 0).val = (y 0).val; omega
  | ⟨1, _⟩ => show win12_2.index t (1 : Fin 2) * 128 + 1 * (y 1).val = (y 1).val; omega

/-- The mean's block at any point is the mean. -/
theorem whole3 (c : Dev nD) (t : Fin cfg12.N) :
    (iblk12 V c 3 t : S1x1.Idx → EReal) = (V c (Pipeline.arrRef spec12 3) : S1x1.Idx → EReal) := by
  obtain ⟨-, -, -, -, -, -, -, -, e0, e1, -⟩ := idx_facts t
  funext y
  show V c (Pipeline.arrRef spec12 3) (((cfg12.win 3).blk t).view.emb y) = V c (Pipeline.arrRef spec12 3) y
  refine congrArg _ (funext fun a => Fin.ext ?_)
  match a with
  | ⟨0, _⟩ => show win12_3.index t (0 : Fin 2) * 1 + 1 * (y 0).val = (y 0).val; omega
  | ⟨1, _⟩ => show win12_3.index t (1 : Fin 2) * 1 + 1 * (y 1).val = (y 1).val; omega

/-- The reciprocal deviation's block at any point is the reciprocal deviation. -/
theorem whole4 (c : Dev nD) (t : Fin cfg12.N) :
    (iblk12 V c 4 t : S1x1.Idx → EReal) = (V c (Pipeline.arrRef spec12 4) : S1x1.Idx → EReal) := by
  obtain ⟨-, -, -, -, -, -, -, -, -, -, e0, e1⟩ := idx_facts t
  funext y
  show V c (Pipeline.arrRef spec12 4) (((cfg12.win 4).blk t).view.emb y) = V c (Pipeline.arrRef spec12 4) y
  refine congrArg _ (funext fun a => Fin.ext ?_)
  match a with
  | ⟨0, _⟩ => show win12_4.index t (0 : Fin 2) * 1 + 1 * (y 0).val = (y 0).val; omega
  | ⟨1, _⟩ => show win12_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec12 0)) (V c (Pipeline.arrRef spec12 1)) (V c (Pipeline.arrRef spec12 2))
    (V c (Pipeline.arrRef spec12 3)) (V c (Pipeline.arrRef spec12 4))

/-- Point `t` writes back block `t` of the whole-array function: the activation block and the result block sit on the same
    rows, and a block index keeps its column. -/
theorem flushed_eq (c : Dev nD) (t : Fin cfg12.N) :
    (dat12 V c).flushed 5 t = ((cfg12.win 5).blk t).view.read (Elt Ideal) (G V c) := by
  show (cfg12.win 5).cut (grid12.coords t) ((dat12 V c).after 5 t) = _
  rw [after12_5]
  unfold out12_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk12 V c 0 t) (iblk12 V c 1 t) (iblk12 V c 2 t) (iblk12 V c 3 t) (iblk12 V c 4 t)
    (V c (Pipeline.arrRef spec12 0)) (V c (Pipeline.arrRef spec12 1)) (V c (Pipeline.arrRef spec12 2))
    (V c (Pipeline.arrRef spec12 3)) (V c (Pipeline.arrRef spec12 4)) j (((cfg12.win 5).blk t).view.emb j)
    ?_ ?_ (whole1 V c t) (whole2 V c t) (whole3 V c t) (whole4 V c t)
  · show V c (Pipeline.arrRef spec12 0) (((cfg12.win 0).blk t).view.emb j) = V c (Pipeline.arrRef spec12 0) (((cfg12.win 5).blk t).view.emb j)
    refine congrArg _ (funext fun a => Fin.ext ?_)
    match a with
    | ⟨0, _⟩ => show win12_0.index t (0 : Fin 2) * 5000 + 1 * (j 0).val = win12_5.index t (0 : Fin 2) * 5000 + 1 * (j 0).val; omega
    | ⟨1, _⟩ => show win12_0.index t (1 : Fin 2) * 128 + 1 * (j 1).val = win12_5.index t (1 : Fin 2) * 128 + 1 * (j 1).val; omega
  · show win12_5.index t (1 : Fin 2) * 128 + 1 * (j 1).val = (j 1).val
    omega

/-! ## The ten blocks tile the rows -/

/-- An index of the result array is in point `t`'s block iff each coordinate is in the block's range on its axis. -/
theorem mem_blk (t : Fin cfg12.N) (i : S50000x128.Idx) :
    i ∈ ((cfg12.win 5).blk t).view.set ↔ ∀ a : Fin 2, win12_5.index t a * S5000x128.size a ≤ (i a).val ∧ (i a).val < win12_5.index t a * S5000x128.size a + S5000x128.size a := by
  show i ∈ ((View.whole main_v237).slice (win12_5.rect t)).set ↔ _
  rw [View.set_slice_whole, Rect.mem_set_unit]
  exact Iff.rfl

/-- Row `r` lies in the block of point `r / 5000`, which writes back. -/
theorem cover (i : S50000x128.Idx) :
    ∃ t : Fin cfg12.N, (cfg12.win 5).flush t = true ∧ i ∈ ((cfg12.win 5).blk t).view.set := by
  have hi0 : (i 0).val < 50000 := (i 0).isLt
  have hi1 : (i 1).val < 128 := (i 1).isLt
  have hN : cfg12.N = 10 := N_12
  have hlt : (i 0).val / 5000 < cfg12.N := by rw [hN]; omega
  obtain ⟨-, -, b0, b1, -⟩ := idx_facts ⟨(i 0).val / 5000, hlt⟩
  refine ⟨⟨(i 0).val / 5000, hlt⟩, flush12_5 _, ?_⟩
  rw [mem_blk]
  intro a
  match a with
  | ⟨0, _⟩ =>
    show win12_5.index ⟨(i 0).val / 5000, hlt⟩ (0 : Fin 2) * 5000 ≤ (i 0).val ∧ (i 0).val < win12_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win12_5.index ⟨(i 0).val / 5000, hlt⟩ (1 : Fin 2) * 128 ≤ (i 1).val ∧ (i 1).val < win12_5.index ⟨(i 0).val / 5000, hlt⟩ (1 : Fin 2) * 128 + 128
    rw [b1]; omega

/-! ## The array after the launch -/

/-- After the launch the result array is the normalised, rectified activation, entry by entry. -/
theorem arrAt12 (c : Dev nD) :
    (dat12 V c).arrAt 5 cfg12.N
      = NRM (V c (Pipeline.arrRef spec12 0)) (V c (Pipeline.arrRef spec12 1)) (V c (Pipeline.arrRef spec12 2))
          (V c (Pipeline.arrRef spec12 3)) (V c (Pipeline.arrRef spec12 4)) :=
  (dat12 V c).arrAt_eq_of_cover 5 (G V c) (fun t _ => flushed_eq V c t) cover

end AtEntry

end Cert.Hand.RegNorm12

end
-- ==== Proof.RegNorm14.lean ====
/-
  Region 14 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm14

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k14_pay1 (F := Ideal) v0 v2 v4 v6 v8) (ix2 p q)
      = max ((((v0 (ix2 p q) - v2 (ix2 o o)) * v4 (ix2 o o)) * v6 (ix2 o q)) + v8 (ix2 o q)) 0 := by
  unfold k14_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k14_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg14.N,
    win14_0.index t (0 : Fin 2) = t.val ∧ win14_0.index t (1 : Fin 2) = 0
    ∧ win14_5.index t (0 : Fin 2) = t.val ∧ win14_5.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg14.N) :
    (iblk14 V c 1 t : S1x128.Idx → EReal) = (V c (Pipeline.arrRef spec14 1) : S1x128.Idx → EReal) := by
  obtain ⟨-, -, -, -, e0, e1, -⟩ := idx_facts t
  funext y
  show V c (Pipeline.arrRef spec14 1) (((cfg14.win 1).blk t).view.emb y) = V c (Pipeline.arrRef spec14 1) y
  refine congrArg _ (funext fun a => Fin.ext ?_)
  match a with
  | ⟨0, _⟩ => show win14_1.index t (0 : Fin 2) * 1 + 1 * (y 0).val = (y 0).val; omega
  | ⟨1, _⟩ => show win14_1.index t (1 : Fin 2) * 128 + 1 * (y 1).val = (y 1).val; omega

/-- The bias row's block at any point is the bias row. -/
theorem whole2 (c : Dev nD) (t : Fin cfg14.N) :
    (iblk14 V c 2 t : S1x128.Idx → EReal) = (V c (Pipeline.arrRef spec14 2) : S1x128.Idx → EReal) := by
  obtain ⟨-, -, -, -, -, -, e0, e1, -⟩ := idx_facts t
  funext y
  show V c (Pipeline.arrRef spec14 2) (((cfg14.win 2).blk t).view.emb y) = V c (Pipeline.arrRef spec14 2) y
  refine congrArg _ (funext fun a => Fin.ext ?_)
  match a with
  | ⟨0, _⟩ => show win14_2.index t (0 : Fin 2) * 1 + 1 * (y 0).val = (y 0).val; omega
  | ⟨1, _⟩ => show win14_2.index t (1 : Fin 2) * 128 + 1 * (y 1).val = (y 1).val; omega

/-- The mean's block at any point is the mean. -/
theorem whole3 (c : Dev nD) (t : Fin cfg14.N) :
    (iblk14 V c 3 t : S1x1.Idx → EReal) = (V c (Pipeline.arrRef spec14 3) : S1x1.Idx → EReal) := by
  obtain ⟨-, -, -, -, -, -, -, -, e0, e1, -⟩ := idx_facts t
  funext y
  show V c (Pipeline.arrRef spec14 3) (((cfg14.win 3).blk t).view.emb y) = V c (Pipeline.arrRef spec14 3) y
  refine congrArg _ (funext fun a => Fin.ext ?_)
  match a with
  | ⟨0, _⟩ => show win14_3.index t (0 : Fin 2) * 1 + 1 * (y 0).val = (y 0).val; omega
  | ⟨1, _⟩ => show win14_3.index t (1 : Fin 2) * 1 + 1 * (y 1).val = (y 1).val; omega

/-- The reciprocal deviation's block at any point is the reciprocal deviation. -/
theorem whole4 (c : Dev nD) (t : Fin cfg14.N) :
    (iblk14 V c 4 t : S1x1.Idx → EReal) = (V c (Pipeline.arrRef spec14 4) : S1x1.Idx → EReal) := by
  obtain ⟨-, -, -, -, -, -, -, -, -, -, e0, e1⟩ := idx_facts t
  funext y
  show V c (Pipeline.arrRef spec14 4) (((cfg14.win 4).blk t).view.emb y) = V c (Pipeline.arrRef spec14 4) y
  refine congrArg _ (funext fun a => Fin.ext ?_)
  match a with
  | ⟨0, _⟩ => show win14_4.index t (0 : Fin 2) * 1 + 1 * (y 0).val = (y 0).val; omega
  | ⟨1, _⟩ => show win14_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec14 0)) (V c (Pipeline.arrRef spec14 1)) (V c (Pipeline.arrRef spec14 2))
    (V c (Pipeline.arrRef spec14 3)) (V c (Pipeline.arrRef spec14 4))

/-- Point `t` writes back block `t` of the whole-array function: the activation block and the result block sit on the same
    rows, and a block index keeps its column. -/
theorem flushed_eq (c : Dev nD) (t : Fin cfg14.N) :
    (dat14 V c).flushed 5 t = ((cfg14.win 5).blk t).view.read (Elt Ideal) (G V c) := by
  show (cfg14.win 5).cut (grid14.coords t) ((dat14 V c).after 5 t) = _
  rw [after14_5]
  unfold out14_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk14 V c 0 t) (iblk14 V c 1 t) (iblk14 V c 2 t) (iblk14 V c 3 t) (iblk14 V c 4 t)
    (V c (Pipeline.arrRef spec14 0)) (V c (Pipeline.arrRef spec14 1)) (V c (Pipeline.arrRef spec14 2))
    (V c (Pipeline.arrRef spec14 3)) (V c (Pipeline.arrRef spec14 4)) j (((cfg14.win 5).blk t).view.emb j)
    ?_ ?_ (whole1 V c t) (whole2 V c t) (whole3 V c t) (whole4 V c t)
  · show V c (Pipeline.arrRef spec14 0) (((cfg14.win 0).blk t).view.emb j) = V c (Pipeline.arrRef spec14 0) (((cfg14.win 5).blk t).view.emb j)
    refine congrArg _ (funext fun a => Fin.ext ?_)
    match a with
    | ⟨0, _⟩ => show win14_0.index t (0 : Fin 2) * 5000 + 1 * (j 0).val = win14_5.index t (0 : Fin 2) * 5000 + 1 * (j 0).val; omega
    | ⟨1, _⟩ => show win14_0.index t (1 : Fin 2) * 128 + 1 * (j 1).val = win14_5.index t (1 : Fin 2) * 128 + 1 * (j 1).val; omega
  · show win14_5.index t (1 : Fin 2) * 128 + 1 * (j 1).val = (j 1).val
    omega

/-! ## The ten blocks tile the rows -/

/-- An index of the result array is in point `t`'s block iff each coordinate is in the block's range on its axis. -/
theorem mem_blk (t : Fin cfg14.N) (i : S50000x128.Idx) :
    i ∈ ((cfg14.win 5).blk t).view.set ↔ ∀ a : Fin 2, win14_5.index t a * S5000x128.size a ≤ (i a).val ∧ (i a).val < win14_5.index t a * S5000x128.size a + S5000x128.size a := by
  show i ∈ ((View.whole main_v271).slice (win14_5.rect t)).set ↔ _
  rw [View.set_slice_whole, Rect.mem_set_unit]
  exact Iff.rfl

/-- Row `r` lies in the block of point `r / 5000`, which writes back. -/
theorem cover (i : S50000x128.Idx) :
    ∃ t : Fin cfg14.N, (cfg14.win 5).flush t = true ∧ i ∈ ((cfg14.win 5).blk t).view.set := by
  have hi0 : (i 0).val < 50000 := (i 0).isLt
  have hi1 : (i 1).val < 128 := (i 1).isLt
  have hN : cfg14.N = 10 := N_14
  have hlt : (i 0).val / 5000 < cfg14.N := by rw [hN]; omega
  obtain ⟨-, -, b0, b1, -⟩ := idx_facts ⟨(i 0).val / 5000, hlt⟩
  refine ⟨⟨(i 0).val / 5000, hlt⟩, flush14_5 _, ?_⟩
  rw [mem_blk]
  intro a
  match a with
  | ⟨0, _⟩ =>
    show win14_5.index ⟨(i 0).val / 5000, hlt⟩ (0 : Fin 2) * 5000 ≤ (i 0).val ∧ (i 0).val < win14_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win14_5.index ⟨(i 0).val / 5000, hlt⟩ (1 : Fin 2) * 128 ≤ (i 1).val ∧ (i 1).val < win14_5.index ⟨(i 0).val / 5000, hlt⟩ (1 : Fin 2) * 128 + 128
    rw [b1]; omega

/-! ## The array after the launch -/

/-- After the launch the result array is the normalised, rectified activation, entry by entry. -/
theorem arrAt14 (c : Dev nD) :
    (dat14 V c).arrAt 5 cfg14.N
      = NRM (V c (Pipeline.arrRef spec14 0)) (V c (Pipeline.arrRef spec14 1)) (V c (Pipeline.arrRef spec14 2))
          (V c (Pipeline.arrRef spec14 3)) (V c (Pipeline.arrRef spec14 4)) :=
  (dat14 V c).arrAt_eq_of_cover 5 (G V c) (fun t _ => flushed_eq V c t) cover

end AtEntry

end Cert.Hand.RegNorm14

end
-- ==== Proof.RegNorm16.lean ====
/-
  Region 16 of the kernel program (a normalise-and-rectify launch), read as a value.

  The launch walks a grid of ten points. At point `t` it stages rows 5000·t … 5000·t + 4999 of the activation array (window 0),
  the whole weight row and the whole bias row (windows 1 and 2), the one-entry mean and reciprocal deviation (windows 3 and 4),
  and writes back rows 5000·t … 5000·t + 4999 of the result (window 5). The body is pointwise in the row: at row `p` of the
  block and column `q` it leaves  max ((((x p q − mean) · invstd) · w q) + b q) 0.  Hence what point `t` writes back is block `t`
  of ONE whole-array function, `NRM` of the five arrays as the region finds them; the ten blocks tile the 50000 rows (row `r`
  lies in the block of point `r / 5000`), so after the launch the result array IS that function.

  Everything is stated at an arbitrary valuation `V` of the buffers at the region's entry.
-/
import proofs.«104804_j42004780155161_1_alg».proof.Proof.Gen.KernelIdeal.Frame
import proofs.«104804_j42004780155161_1_alg».proof.Proof.RegNormSpec
import Idealize.ShloMosaic.Lib.Pipeline.Value
import Idealize.ShloMosaic.Lib.ValueIdx
import Idealize.ShloMosaic.Lib.ValueLayout
import Idealize.ShloMosaic.PureOps.Ideal.Laws

noncomputable section

namespace Cert.Hand.RegNorm16

open Cert.KernelIdeal Cert.KernelIdeal.Gen Idealize.ShloMosaic Idealize.ShloMosaic.TcCoe Idealize.SL.Sem
open Idealize.ShloMosaic.Pipeline (Dat)
open Idealize.ShloMosaic.ValueIdx
open Cert.Hand.RegNormSpec

/-! ## The body at one entry -/

/-- Reading the one entry of a 1 × 1 vector at the static position (0, 0). -/
theorem extract00 (v : Vec Ideal S1x1 .f32) (h : ∀ a, (![0, 0] : Fin 2 → Nat) a < S1x1.size a) :
    extractAt ![0, 0] v h = v (ix2 o o) :=
  congrArg v (funext fun a => Fin.ext (by match a with | ⟨0, _⟩ => rfl | ⟨1, _⟩ => rfl))

/-- The body's result at row `p`, column `q` of the block: the entry centred by the mean, scaled by the reciprocal
    deviation and by the column's weight, shifted by the column's bias, clipped below at zero (the zero word is the real 0). -/
theorem pay_apply (v0 : Vec Ideal S5000x128 .f32) (v2 v4 : Vec Ideal S1x1 .f32) (v6 v8 : Vec Ideal S1x128 .f32)
    (p : Fin 5000) (q : Fin 128) :
    (k16_pay1 (F := Ideal) v0 v2 v4 v6 v8) (ix2 p q)
      = max ((((v0 (ix2 p q) - v2 (ix2 o o)) * v4 (ix2 o o)) * v6 (ix2 o q)) + v8 (ix2 o q)) 0 := by
  unfold k16_pay1
  simp only [maximumf_apply, addf_apply, mulf_apply, subf_apply, broadcast_apply, shapeCast_self]
  have e2 : extractAt ![0, 0] v2 inpos_S1x1_p0_0 = v2 (ix2 o o) := extract00 v2 _
  have e4 : extractAt ![0, 0] v4 inpos_S1x1_p0_0 = v4 (ix2 o o) := extract00 v4 _
  have e6 : broadcastTo S5000x128 v6 broadcasts_S1x128_S5000x128 (ix2 p q) = v6 (ix2 o q) :=
    broadcastTo_1b_ab_apply v6 _ p q
  have e8 : broadcastTo S5000x128 v8 broadcasts_S1x128_S5000x128 (ix2 p q) = v8 (ix2 o q) :=
    broadcastTo_1b_ab_apply v8 _ p q
  have ez : (FloatOps.ofBits (F := Ideal) FTy.f32 0x00000000#32) = 0 := Ideal.ofBits_zero_f32
  rw [e2, e4, e6, e8, ez]

/-- The body's result at a block index `j` is the whole-array function at an array index `i`, as soon as the block's
    entry at `j` is the array's at `i`, the two indices have the same column, and the four small operands are the arrays
    themselves. -/
theorem point_eq (x0 : Vec Ideal S5000x128 .f32) (x1 x2 : Vec Ideal S1x128 .f32) (x3 x4 : Vec Ideal S1x1 .f32)
    (val : S50000x128.Idx → EReal) (w b : S1x128.Idx → EReal) (mean invstd : S1x1.Idx → EReal)
    (j : S5000x128.Idx) (i : S50000x128.Idx)
    (h0 : x0 j = val i) (hc : (i 1).val = (j 1).val)
    (h1 : x1 = w) (h2 : x2 = b) (h3 : x3 = mean) (h4 : x4 = invstd) :
    (k16_pay1 (F := Ideal) x0 x3 x4 x1 x2) j = NRM val w b mean invstd i := by
  subst h1 h2 h3 h4
  obtain ⟨p, q, rfl⟩ : ∃ (p : Fin 5000) (q : Fin 128), j = ix2 p q := ⟨j 0, j 1, eq_ix2 j⟩
  have hq : (i 1 : Fin 128) = q := Fin.ext hc
  rw [pay_apply, h0]
  unfold NRM
  rw [hq]

/-! ## The windows' index maps, decided over the ten points -/

theorem hz : (![0, 0] : Fin 2 → Nat) = fun _ => 0 :=
  funext fun a => by match a with | ⟨0, _⟩ => rfl | ⟨1, _⟩ => rfl

/-- The activation's and the result's block index is the point itself along the rows and 0 along the columns; the four
    small operands are staged whole (block index 0 on both axes). -/
theorem idx_facts : ∀ t : Fin cfg16.N,
    win16_0.index t (0 : Fin 2) = t.val ∧ win16_0.index t (1 : Fin 2) = 0
    ∧ win16_5.index t (0 : Fin 2) = t.val ∧ win16_5.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0 :=
  (by decide +kernel : ∀ t : Fin grid16.N, _)

section AtEntry

variable (V : (c : Dev nD) → (b : Ref sig .tc) → Buf (Elt Ideal) ((c : Thread nD τ).loc b))

/-! ## The small operands are staged whole -/

/-- The weight row's block at any point is the weight row. -/
theorem whole1 (c : Dev nD) (t : Fin cfg16.N) :
    (iblk16 V c 1 t : S1x128.Idx → EReal) = (V c (Pipeline.arrRef spec16 1) : S1x128.Idx → EReal) := by
  obtain ⟨-, -, -, -, e0, e1, -⟩ := idx_facts t
  funext y
  show V c (Pipeline.arrRef spec16 1) (((cfg16.win 1).blk t).view.emb y) = V c (Pipeline.arrRef spec16 1) y
  refine congrArg _ (funext fun a => Fin.ext ?_)
  match a with
  | ⟨0, _⟩ => show win16_1.index t (0 : Fin 2) * 1 + 1 * (y 0).val = (y 0).val; omega
  | ⟨1, _⟩ => show win16_1.index t (1 : Fin 2) * 128 + 1 * (y 1).val = (y 1).val; omega

/-- The bias row's block at any point is the bias row. -/
theorem whole2 (c : Dev nD) (t : Fin cfg16.N) :
    (iblk16 V c 2 t : S1x128.Idx → EReal) = (V c (Pipeline.arrRef spec16 2) : S1x128.Idx → EReal) := by
  obtain ⟨-, -, -, -, -, -, e0, e1, -⟩ := idx_facts t
  funext y
  show V c (Pipeline.arrRef spec16 2) (((cfg16.win 2).blk t).view.emb y) = V c (Pipeline.arrRef spec16 2) y
  refine congrArg _ (funext fun a => Fin.ext ?_)
  match a with
  | ⟨0, _⟩ => show win16_2.index t (0 : Fin 2) * 1 + 1 * (y 0).val = (y 0).val; omega
  | ⟨1, _⟩ => show win16_2.index t (1 : Fin 2) * 128 + 1 * (y 1).val = (y 1).val; omega

/-- The mean's block at any point is the mean. -/
theorem whole3 (c : Dev nD) (t : Fin cfg16.N) :
    (iblk16 V c 3 t : S1x1.Idx → EReal) = (V c (Pipeline.arrRef spec16 3) : S1x1.Idx → EReal) := by
  obtain ⟨-, -, -, -, -, -, -, -, e0, e1, -⟩ := idx_facts t
  funext y
  show V c (Pipeline.arrRef spec16 3) (((cfg16.win 3).blk t).view.emb y) = V c (Pipeline.arrRef spec16 3) y
  refine congrArg _ (funext fun a => Fin.ext ?_)
  match a with
  | ⟨0, _⟩ => show win16_3.index t (0 : Fin 2) * 1 + 1 * (y 0).val = (y 0).val; omega
  | ⟨1, _⟩ => show win16_3.index t (1 : Fin 2) * 1 + 1 * (y 1).val = (y 1).val; omega

/-- The reciprocal deviation's block at any point is the reciprocal deviation. -/
theorem whole4 (c : Dev nD) (t : Fin cfg16.N) :
    (iblk16 V c 4 t : S1x1.Idx → EReal) = (V c (Pipeline.arrRef spec16 4) : S1x1.Idx → EReal) := by
  obtain ⟨-, -, -, -, -, -, -, -, -, -, e0, e1⟩ := idx_facts t
  funext y
  show V c (Pipeline.arrRef spec16 4) (((cfg16.win 4).blk t).view.emb y) = V c (Pipeline.arrRef spec16 4) y
  refine congrArg _ (funext fun a => Fin.ext ?_)
  match a with
  | ⟨0, _⟩ => show win16_4.index t (0 : Fin 2) * 1 + 1 * (y 0).val = (y 0).val; omega
  | ⟨1, _⟩ => show win16_4.index t (1 : Fin 2) * 1 + 1 * (y 1).val = (y 1).val; omega

/-! ## What a point writes back -/

/-- The whole-array value of the launch's result, of the five arrays as the region finds them. -/
abbrev G (c : Dev nD) : S50000x128.Idx → EReal :=
  NRM (V c (Pipeline.arrRef spec16 0)) (V c (Pipeline.arrRef spec16 1)) (V c (Pipeline.arrRef spec16 2))
    (V c (Pipeline.arrRef spec16 3)) (V c (Pipeline.arrRef spec16 4))

/-- Point `t` writes back block `t` of the whole-array function: the activation block and the result block sit on the same
    rows, and a block index keeps its column. -/
theorem flushed_eq (c : Dev nD) (t : Fin cfg16.N) :
    (dat16 V c).flushed 5 t = ((cfg16.win 5).blk t).view.read (Elt Ideal) (G V c) := by
  show (cfg16.win 5).cut (grid16.coords t) ((dat16 V c).after 5 t) = _
  rw [after16_5]
  unfold out16_5
  rw [View.canon_unit_zero hz]
  simp only [View.ld_unit_zero (S := S5000x128) hz, View.ld_unit_zero (S := S1x128) hz, View.ld_unit_zero (S := S1x1) hz]
  obtain ⟨a0, a1, b0, b1, -⟩ := idx_facts t
  funext j
  refine point_eq (iblk16 V c 0 t) (iblk16 V c 1 t) (iblk16 V c 2 t) (iblk16 V c 3 t) (iblk16 V c 4 t)
    (V c (Pipeline.arrRef spec16 0)) (V c (Pipeline.arrRef spec16 1)) (V c (Pipeline.arrRef spec16 2))
    (V c (Pipeline.arrRef spec16 3)) (V c (Pipeline.arrRef spec16 4)) j (((cfg16.win 5).blk t).view.emb j)
    ?_ ?_ (whole1 V c t) (whole2 V c t) (whole3 V c t) (whole4 V c t)
  · show V c (Pipeline.arrRef spec16 0) (((cfg16.win 0).blk t).view.emb j) = V c (Pipeline.arrRef spec16 0) (((cfg16.win 5).blk t).view.emb j)
    refine congrArg _ (funext fun a => Fin.ext ?_)
    match a with
    | ⟨0, _⟩ => show win16_0.index t (0 : Fin 2) * 5000 + 1 * (j 0).val = win16_5.index t (0 : Fin 2) * 5000 + 1 * (j 0).val; omega
    | ⟨1, _⟩ => show win16_0.index t (1 : Fin 2) * 128 + 1 * (j 1).val = win16_5.index t (1 : Fin 2) * 128 + 1 * (j 1).val; omega
  · show win16_5.index t (1 : Fin 2) * 128 + 1 * (j 1).val = (j 1).val
    omega

/-! ## The ten blocks tile the rows -/

/-- An index of the result array is in point `t`'s block iff each coordinate is in the block's range on its axis. -/
theorem mem_blk (t : Fin cfg16.N) (i : S50000x128.Idx) :
    i ∈ ((cfg16.win 5).blk t).view.set ↔ ∀ a : Fin 2, win16_5.index t a * S5000x128.size a ≤ (i a).val ∧ (i a).val < win16_5.index t a * S5000x128.size a + S5000x128.size a := by
  show i ∈ ((View.whole main_v305).slice (win16_5.rect t)).set ↔ _
  rw [View.set_slice_whole, Rect.mem_set_unit]
  exact Iff.rfl

/-- Row `r` lies in the block of point `r / 5000`, which writes back. -/
theorem cover (i : S50000x128.Idx) :
    ∃ t : Fin cfg16.N, (cfg16.win 5).flush t = true ∧ i ∈ ((cfg16.win 5).blk t).view.set := by
  have hi0 : (i 0).val < 50000 := (i 0).isLt
  have hi1 : (i 1).val < 128 := (i 1).isLt
  have hN : cfg16.N = 10 := N_16
  have hlt : (i 0).val / 5000 < cfg16.N := by rw [hN]; omega
  obtain ⟨-, -, b0, b1, -⟩ := idx_facts ⟨(i 0).val / 5000, hlt⟩
  refine ⟨⟨(i 0).val / 5000, hlt⟩, flush16_5 _, ?_⟩
  rw [mem_blk]
  intro a
  match a with
  | ⟨0, _⟩ =>
    show win16_5.index ⟨(i 0).val / 5000, hlt⟩ (0 : Fin 2) * 5000 ≤ (i 0).val ∧ (i 0).val < win16_5.index ⟨(i 0).val / 5000, hlt⟩ (0 : Fin 2) * 5000 + 5000
    rw [b0]; show (i 0).val / 5000 * 5000 ≤ (i 0).val ∧ (i 0).val < (i 0).val / 5000 * 5000 + 5000
    omega
  | ⟨1, _⟩ =>
    show win16_5.index ⟨(i 0).val / 5000, hlt⟩ (1 : Fin 2) * 128 ≤ (i 1).val ∧ (i 1).val < win16_5.index ⟨(i 0).val / 5000, hlt⟩ (1 : Fin 2) * 128 + 128
    rw [b1]; omega

/-! ## The array after the launch -/

/-- After the launch the result array is the normalised, rectified activation, entry by entry. -/
theorem arrAt16 (c : Dev nD) :
    (dat16 V c).arrAt 5 cfg16.N
      = NRM (V c (Pipeline.arrRef spec16 0)) (V c (Pipeline.arrRef spec16 1)) (V c (Pipeline.arrRef spec16 2))
          (V c (Pipeline.arrRef spec16 3)) (V c (Pipeline.arrRef spec16 4)) :=
  (dat16 V c).arrAt_eq_of_cover 5 (G V c) (fun t _ => flushed_eq V c t) cover

end AtEntry

end Cert.Hand.RegNorm16

end
-- ==== Proof.KChain.lean ====
/-
  The kernel program's result as ONE function of the ten argument arrays, at the ideal instance.

  The run is walked boundary by boundary: the host operations before the first projection, the first projection's region
  (h0), then eight layers — each a stretch of host operations, a combine region, three stretches that compute the mean and
  the reciprocal deviation of the combine's result, and a normalisation region — and finally the one host operation and the
  region of the last projection. Every region's array is ONE function of the arrays the region finds (the three region
  families' value lemmas); every stretch's results are the shared float chains of their operands (the stretch lemmas);
  nothing writes an argument, an edge list, the edge weights or the residual after they are made. The composition is the
  explicit kernel-side network `KVals.KOut`.
-/
import proofs.«104804_j42004780155161_1_alg».proof.Proof.KChainL0
import proofs.«104804_j42004780155161_1_alg».proof.Proof.KChainL1
import proofs.«104804_j42004780155161_1_alg».proof.Proof.KChainL2
import proofs.«104804_j42004780155161_1_alg».proof.Proof.KChainL3
import proofs.«104804_j42004780155161_1_alg».proof.Proof.KChainL4
import proofs.«104804_j42004780155161_1_alg».proof.Proof.KChainL5
import proofs.«104804_j42004780155161_1_alg».proof.Proof.KChainL6
import proofs.«104804_j42004780155161_1_alg».proof.Proof.KChainL7
import proofs.«104804_j42004780155161_1_alg».proof.Proof.RegMatmulBias
import proofs.«104804_j42004780155161_1_alg».proof.Proof.RegCombine1
import proofs.«104804_j42004780155161_1_alg».proof.Proof.RegCombine3
import proofs.«104804_j42004780155161_1_alg».proof.Proof.RegCombine5
import proofs.«104804_j42004780155161_1_alg».proof.Proof.RegCombine7
import proofs.«104804_j42004780155161_1_alg».proof.Proof.RegCombine9
import proofs.«104804_j42004780155161_1_alg».proof.Proof.RegCombine11
import proofs.«104804_j42004780155161_1_alg».proof.Proof.RegCombine13
import proofs.«104804_j42004780155161_1_alg».proof.Proof.RegCombine15
import proofs.«104804_j42004780155161_1_alg».proof.Proof.RegNorm2
import proofs.«104804_j42004780155161_1_alg».proof.Proof.RegNorm4
import proofs.«104804_j42004780155161_1_alg».proof.Proof.RegNorm6
import proofs.«104804_j42004780155161_1_alg».proof.Proof.RegNorm8
import proofs.«104804_j42004780155161_1_alg».proof.Proof.RegNorm10
import proofs.«104804_j42004780155161_1_alg».proof.Proof.RegNorm12
import proofs.«104804_j42004780155161_1_alg».proof.Proof.RegNorm14
import proofs.«104804_j42004780155161_1_alg».proof.Proof.RegNorm16

set_option maxRecDepth 16384

noncomputable section

namespace Cert.Hand.KChain

open Idealize.ShloMosaic Idealize.ShloMosaic.TcCoe
open Cert.KernelIdeal Cert.KernelIdeal.Gen
open Cert.Hand Cert.Hand.KVals
open Cert.Hand.RegCombineSpec Cert.Hand.RegNormSpec Cert.Hand.RegMatmulBias

variable (m : (ℓ : Loc nD τ sig) → Buf (Elt Ideal) ℓ) (ρ : Dev nD → PrngReg) (c : Dev nD)

/-- The kernel program's result buffer at the end of the run. -/
theorem kernel_value :
    W54 m ρ c (Proc.devRef .tc main_v307) = KOut (argsOf m c) := by
  -- the first projection and the residual
  have h0 : W4 m ρ c (Proc.devRef .tc main_v31) = KH0 (argsOf m c) := W4_h0 m ρ c (arrAt0 (V3 m ρ) c)
  have hx : W5 m ρ c (Proc.devRef .tc main_v33) = KX0 (argsOf m c) := W5_x0 m ρ c h0
  -- the eight layers
  have s1 := layer1 m ρ c (Ideal.ofBits .f32 0x3E9D1BD0#32) (Ideal.ofBits .f32 0x3F317218#32) h0
    (RegCombine1.arrAt1 (V5 m ρ) c) (RegNorm2.arrAt2 (V9 m ρ) c)
  have s1 : Agree liveAll (W10 m ρ c) (W5 m ρ c) ∧ W10 m ρ c (Proc.devRef .tc main_v67) = KH1 (argsOf m c) := s1
  have s2 := layer3 m ρ c (KH1 (argsOf m c)) (KX0 (argsOf m c)) (Ideal.ofBits .f32 0x3F183370#32) (Ideal.ofBits .f32 0x3ECF991F#32)
    s1.1 hx s1.2 (RegCombine3.arrAt3 (V11 m ρ) c) (RegNorm4.arrAt4 (V15 m ρ) c)
  have s2 : Agree liveAll (W16 m ρ c) (W5 m ρ c) ∧ W16 m ρ c (Proc.devRef .tc main_v101) = KH2 (argsOf m c) := s2
  have s3 := layer5 m ρ c (KH2 (argsOf m c)) (KX0 (argsOf m c)) (Ideal.ofBits .f32 0x3F365A78#32) (Ideal.ofBits .f32 0x3E934B11#32)
    s2.1 hx s2.2 (RegCombine5.arrAt5 (V17 m ρ) c) (RegNorm6.arrAt6 (V21 m ρ) c)
  have s3 : Agree liveAll (W22 m ρ c) (W5 m ρ c) ∧ W22 m ρ c (Proc.devRef .tc main_v135) = KH3 (argsOf m c) := s3
  have s4 := layer7 m ρ c (KH3 (argsOf m c)) (KX0 (argsOf m c)) (Ideal.ofBits .f32 0x3F46E010#32) (Ideal.ofBits .f32 0x3E647FBE#32)
    s3.1 hx s3.2 (RegCombine7.arrAt7 (V23 m ρ) c) (RegNorm8.arrAt8 (V27 m ρ) c)
  have s4 : Agree liveAll (W28 m ρ c) (W5 m ρ c) ∧ W28 m ρ c (Proc.devRef .tc main_v169) = KH4 (argsOf m c) := s4
  have s5 := layer9 m ρ c (KH4 (argsOf m c)) (KX0 (argsOf m c)) (Ideal.ofBits .f32 0x3F515360#32) (Ideal.ofBits .f32 0x3E3AB281#32)
    s4.1 hx s4.2 (RegCombine9.arrAt9 (V29 m ρ) c) (RegNorm10.arrAt10 (V33 m ρ) c)
  have s5 : Agree liveAll (W34 m ρ c) (W5 m ρ c) ∧ W34 m ρ c (Proc.devRef .tc main_v203) = KH5 (argsOf m c) := s5
  have s6 := layer11 m ρ c (KH5 (argsOf m c)) (KX0 (argsOf m c)) (Ideal.ofBits .f32 0x3F588995#32) (Ideal.ofBits .f32 0x3E1DD9AD#32)
    s5.1 hx s5.2 (RegCombine11.arrAt11 (V35 m ρ) c) (RegNorm12.arrAt12 (V39 m ρ) c)
  have s6 : Agree liveAll (W40 m ρ c) (W5 m ρ c) ∧ W40 m ρ c (Proc.devRef .tc main_v237) = KH6 (argsOf m c) := s6
  have s7 := layer13 m ρ c (KH6 (argsOf m c)) (KX0 (argsOf m c)) (Ideal.ofBits .f32 0x3F5DD0E3#32) (Ideal.ofBits .f32 0x3E08BC74#32)
    s6.1 hx s6.2 (RegCombine13.arrAt13 (V41 m ρ) c) (RegNorm14.arrAt14 (V45 m ρ) c)
  have s7 : Agree liveAll (W46 m ρ c) (W5 m ρ c) ∧ W46 m ρ c (Proc.devRef .tc main_v271) = KH7 (argsOf m c) := s7
  have s8 := layer15 m ρ c (KH7 (argsOf m c)) (KX0 (argsOf m c)) (Ideal.ofBits .f32 0x3F61D8F9#32) (Ideal.ofBits .f32 0x3DF1383B#32)
    s7.1 hx s7.2 (RegCombine15.arrAt15 (V47 m ρ) c) (RegNorm16.arrAt16 (V51 m ρ) c)
  have s8 : Agree liveAll (W52 m ρ c) (W5 m ρ c) ∧ W52 m ρ c (Proc.devRef .tc main_v305) = KH8 (argsOf m c) := s8
  -- the last projection
  refine (W54_arr m ρ c 3).trans ((arrAt17 (V53 m ρ) c).trans ?_)
  show MB17 (W53 m ρ c (Proc.devRef .tc main_v305)) (W53 m ρ c (Proc.devRef .tc main_arg8))
      (W53 m ρ c (Proc.devRef .tc main_v306)) = KOut (argsOf m c)
  have e_h : W53 m ρ c (Proc.devRef .tc main_v305) = KH8 (argsOf m c) :=
    (Post_keep (F := Ideal) (W52 m ρ c) (by decide : main_v305 ∉ writesPost)).trans s8.2
  have e_w : W53 m ρ c (Proc.devRef .tc main_arg8) = (argsOf m c).a8 :=
    (Post_keep (F := Ideal) (W52 m ρ c) (by decide : main_arg8 ∉ writesPost)).trans (arg_of_agree m ρ c s8.1 (r := main_arg8) (by decide))
  have e_b : W53 m ρ c (Proc.devRef .tc main_v306) = KVals.row64 (argsOf m c).a9 :=
    (Post_bias (F := Ideal) (W52 m ρ c)).trans
      (congrArg (fun x => KVals.row64 x) (arg_of_agree m ρ c s8.1 (r := main_arg9) (by decide)))
  rw [e_h, e_w, e_b]
  rfl

end Cert.Hand.KChain

end
-- ==== Proof.RefOpsPre.lean ====
/- The reference program's @main, statements 1 … 45 of its 553 (in its window `main_part0`), as a list of
   operations in order: each statement's own operation, and for a call of a module-local function the function's
   operations over the call's operands and buffer record (47 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 45 of @main: 47 operations, in order. -/
abbrev opsPre : List (HloOp τ sig (Elt F)) :=
  [
    StableHlo.unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000,
    StableHlo.nullary main_v4 (iotaInDim S50000 32 0),
    StableHlo.binary main_v1 main_v4 main_v5 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.binary main_v3 main_v4 main_v6 ((fun a b => concatenate S550000 0 [⟨S500000, a⟩, ⟨S50000, b⟩] concatenates_S500000_S50000_S550000_d0) : (⟨S500000, .i32⟩ : BufTy).Contents (Elt F) → (⟨S50000, .i32⟩ : BufTy).Contents (Elt F) → (⟨S550000, .i32⟩ : BufTy).Contents (Elt F)),
    StableHlo.nullary main_cst (constant S_ .f32 0x3F800000#32),
    StableHlo.unary main_cst main_v7 (broadcastInDim S550000 ![] bcast_S_S550000 : (⟨S_, .f32⟩ : BufTy).Contents (Elt F) → (⟨S550000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S550000x1 ![0] bcast_S550000_S550000x1_0 : (⟨S550000, .i32⟩ : BufTy).Contents (Elt F) → (⟨S550000x1, .i32⟩ : BufTy).Contents (Elt F)),
    StableHlo.ternary main_v8 main_v9 main_v7 main_v10 ((fun x i u => Host.scatterAdd scatter_S50000_S550000x1_S550000_n_0_0_1 x i u) : (⟨S50000, .f32⟩ : BufTy).Contents (Elt F) → (⟨S550000x1, .i32⟩ : BufTy).Contents (Elt F) → (⟨S550000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S550000 ![] bcast_S_S550000 : (⟨S_, .i32⟩ : BufTy).Contents (Elt F) → (⟨S550000, .i32⟩ : BufTy).Contents (Elt F)),
    StableHlo.binary main_v5 main_v15 main_v16 (cmpi .slt : (⟨S550000, .i32⟩ : BufTy).Contents (Elt F) → (⟨S550000, .i32⟩ : BufTy).Contents (Elt F) → (⟨S550000, .i1⟩ : BufTy).Contents (Elt F)),
    StableHlo.nullary main_c_3 (constantI S_ 32 50000#32),
    StableHlo.unary main_c_3 main_v17 (broadcastInDim S550000 ![] bcast_S_S550000 : (⟨S_, .i32⟩ : BufTy).Contents (Elt F) → (⟨S550000, .i32⟩ : BufTy).Contents (Elt F)),
    StableHlo.binary main_v5 main_v17 main_v18 (addi : (⟨S550000, .i32⟩ : BufTy).Contents (Elt F) → (⟨S550000, .i32⟩ : BufTy).Contents (Elt F) → (⟨S550000, .i32⟩ : BufTy).Contents (Elt F)),
    StableHlo.ternary main_v16 main_v18 main_v5 main_v19 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v19 main_v20 (broadcastInDim S550000x1 ![0] bcast_S550000_S550000x1_0 : (⟨S550000, .i32⟩ : BufTy).Contents (Elt F) → (⟨S550000x1, .i32⟩ : BufTy).Contents (Elt F)),
    StableHlo.binary main_v14 main_v20 main_v21 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.nullary main_c_4 (constantI S_ 32 0#32),
    StableHlo.unary main_c_4 main_v22 (broadcastInDim S550000 ![] bcast_S_S550000 : (⟨S_, .i32⟩ : BufTy).Contents (Elt F) → (⟨S550000, .i32⟩ : BufTy).Contents (Elt F)),
    StableHlo.binary main_v6 main_v22 main_v23 (cmpi .slt : (⟨S550000, .i32⟩ : BufTy).Contents (Elt F) → (⟨S550000, .i32⟩ : BufTy).Contents (Elt F) → (⟨S550000, .i1⟩ : BufTy).Contents (Elt F)),
    StableHlo.nullary main_c_5 (constantI S_ 32 50000#32),
    StableHlo.unary main_c_5 main_v24 (broadcastInDim S550000 ![] bcast_S_S550000 : (⟨S_, .i32⟩ : BufTy).Contents (Elt F) → (⟨S550000, .i32⟩ : BufTy).Contents (Elt F)),
    StableHlo.binary main_v6 main_v24 main_v25 (addi : (⟨S550000, .i32⟩ : BufTy).Contents (Elt F) → (⟨S550000, .i32⟩ : BufTy).Contents (Elt F) → (⟨S550000, .i32⟩ : BufTy).Contents (Elt F)),
    StableHlo.ternary main_v23 main_v25 main_v6 main_v26 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v26 main_v27 (broadcastInDim S550000x1 ![0] bcast_S550000_S550000x1_0 : (⟨S550000, .i32⟩ : BufTy).Contents (Elt F) → (⟨S550000x1, .i32⟩ : BufTy).Contents (Elt F)),
    StableHlo.binary main_v14 main_v27 main_v28 ((fun x i => Host.gather gather_S50000_S550000x1_S550000_n_0_n_n_0_1_1 x i) : (⟨S50000, .f32⟩ : BufTy).Contents (Elt F) → (⟨S550000x1, .i32⟩ : BufTy).Contents (Elt F) → (⟨S550000, .f32⟩ : BufTy).Contents (Elt F)),
    StableHlo.binary main_v21 main_v28 main_v29 (mulf : (⟨S550000, .f32⟩ : BufTy).Contents (Elt F) → (⟨S550000, .f32⟩ : BufTy).Contents (Elt F) → (⟨S550000, .f32⟩ : BufTy).Contents (Elt F)),
    StableHlo.binary main_arg0 main_arg2 main_v30 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg3 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v32 main_v33 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3F000000#32),
    StableHlo.unary main_cst_6 main_v34 (broadcastInDim S50000x128 ![] bcast_S_S50000x128 : (⟨S_, .f32⟩ : BufTy).Contents (Elt F) → (⟨S50000x128, .f32⟩ : BufTy).Contents (Elt F)),
    StableHlo.binary main_v34 main_v33 main_v35 (mulf : (⟨S50000x128, .f32⟩ : BufTy).Contents (Elt F) → (⟨S50000x128, .f32⟩ : BufTy).Contents (Elt F) → (⟨S50000x128, .f32⟩ : BufTy).Contents (Elt F)) ]

/-- Every buffer these operations touch is a TensorCore reference. -/
theorem opsPre_sub : (opsPre : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub ..⟩

/-- Each of these operations determines the contents it writes. -/
theorem opsPre_fresh : ∀ op ∈ (opsPre : List (HloOp τ sig (Elt F))), op.fresh = ∅ := by
  intro _ h
  repeat (cases h with | head => rfl | tail _ h => ?_)
  exact nomatch h

end Cert.Hand.RefRun

end
-- ==== Proof.RefOpsL0a.lean ====
/- The reference program's @main, statements 46 … 60 of its 553 (in its window `main_part0`), as a list of
   operations in order: each statement's own operation, and for a call of a module-local function the function's
   operations over the call's operands and buffer record (15 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 46 … 60 of @main: 15 operations, in order. -/
abbrev opsL0a : List (HloOp τ sig (Elt F)) :=
  [
    StableHlo.unary main_v29 main_v36 (broadcastInDim S550000x1 ![0] bcast_S550000_S550000x1_0 : (⟨S550000, .f32⟩ : BufTy).Contents (Elt F) → (⟨S550000x1, .f32⟩ : BufTy).Contents (Elt F)),
    StableHlo.nullary main_c_7 (constantI S_ 32 0#32),
    StableHlo.unary main_c_7 main_v37 (broadcastInDim S550000 ![] bcast_S_S550000 : (⟨S_, .i32⟩ : BufTy).Contents (Elt F) → (⟨S550000, .i32⟩ : BufTy).Contents (Elt F)),
    StableHlo.binary main_v5 main_v37 main_v38 (cmpi .slt : (⟨S550000, .i32⟩ : BufTy).Contents (Elt F) → (⟨S550000, .i32⟩ : BufTy).Contents (Elt F) → (⟨S550000, .i1⟩ : BufTy).Contents (Elt F)),
    StableHlo.nullary main_c_8 (constantI S_ 32 50000#32),
    StableHlo.unary main_c_8 main_v39 (broadcastInDim S550000 ![] bcast_S_S550000 : (⟨S_, .i32⟩ : BufTy).Contents (Elt F) → (⟨S550000, .i32⟩ : BufTy).Contents (Elt F)),
    StableHlo.binary main_v5 main_v39 main_v40 (addi : (⟨S550000, .i32⟩ : BufTy).Contents (Elt F) → (⟨S550000, .i32⟩ : BufTy).Contents (Elt F) → (⟨S550000, .i32⟩ : BufTy).Contents (Elt F)),
    StableHlo.ternary main_v38 main_v40 main_v5 main_v41 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v41 main_v42 (broadcastInDim S550000x1 ![0] bcast_S550000_S550000x1_0 : (⟨S550000, .i32⟩ : BufTy).Contents (Elt F) → (⟨S550000x1, .i32⟩ : BufTy).Contents (Elt F)),
    StableHlo.binary main_v33 main_v42 main_v43 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v36 main_v44 (broadcastInDim S550000x128 ![0, 1] bcast_S550000x1_S550000x128_0_1 : (⟨S550000x1, .f32⟩ : BufTy).Contents (Elt F) → (⟨S550000x128, .f32⟩ : BufTy).Contents (Elt F)),
    StableHlo.binary main_v44 main_v43 main_v45 (mulf : (⟨S550000x128, .f32⟩ : BufTy).Contents (Elt F) → (⟨S550000x128, .f32⟩ : BufTy).Contents (Elt F) → (⟨S550000x128, .f32⟩ : BufTy).Contents (Elt F)),
    StableHlo.nullary main_cst_9 (constant S_ .f32 0x00000000#32),
    StableHlo.unary main_cst_9 main_v46 (broadcastInDim S50000x128 ![] bcast_S_S50000x128 : (⟨S_, .f32⟩ : BufTy).Contents (Elt F) → (⟨S50000x128, .f32⟩ : BufTy).Contents (Elt F)),
    StableHlo.unary main_v6 main_v47 (broadcastInDim S550000x1 ![0] bcast_S550000_S550000x1_0 : (⟨S550000, .i32⟩ : BufTy).Contents (Elt F) → (⟨S550000x1, .i32⟩ : BufTy).Contents (Elt F)) ]

/-- Every buffer these operations touch is a TensorCore reference. -/
theorem opsL0a_sub : (opsL0a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩

/-- Each of these operations determines the contents it writes. -/
theorem opsL0a_fresh : ∀ op ∈ (opsL0a : List (HloOp τ sig (Elt F))), op.fresh = ∅ := by
  intro _ h
  repeat (cases h with | head => rfl | tail _ h => ?_)
  exact nomatch h

end Cert.Hand.RefRun

end
-- ==== Proof.RefOpsL0b.lean ====
/- The reference program's @main, statements 61 … 108 of its 553 (in its window `main_part1`), as a list of
   operations in order: each statement's own operation, and for a call of a module-local function the function's
   operations over the call's operands and buffer record (70 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 61 … 108 of @main: 70 operations, in order. -/
abbrev opsL0b : List (HloOp τ sig (Elt F)) :=
  [
    StableHlo.ternary main_v46 main_v47 main_v45 main_v48 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_10 (constant S_ .f32 0x3F000000#32),
    StableHlo.unary main_cst_10 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3E9D1BD0#32),
    StableHlo.unary main_cst_11 main_v51 (broadcastInDim S50000x128 ![] bcast_S_S50000x128 : (⟨S_, .f32⟩ : BufTy).Contents (Elt F) → (⟨S50000x128, .f32⟩ : BufTy).Contents (Elt F)),
    StableHlo.binary main_v51 main_v50 main_v52 (mulf : (⟨S50000x128, .f32⟩ : BufTy).Contents (Elt F) → (⟨S50000x128, .f32⟩ : BufTy).Contents (Elt F) → (⟨S50000x128, .f32⟩ : BufTy).Contents (Elt F)),
    StableHlo.unary main_arg4 main_v53 ((extractStridedSlice S1x128x128 ![0, 0, 0] · slices_S8x128x128_S1x128x128_0_0_0) : (⟨S8x128x128, .f32⟩ : BufTy).Contents (Elt F) → (⟨S1x128x128, .f32⟩ : BufTy).Contents (Elt F)),
    StableHlo.reshape main_v53 main_v54 rfl shapeCasts_S1x128x128_S128x128,
    StableHlo.binary main_v50 main_v54 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_12 (constant S_ .f32 0x3F317218#32),
    StableHlo.unary main_cst_12 main_v56 (broadcastInDim S50000x128 ![] bcast_S_S50000x128 : (⟨S_, .f32⟩ : BufTy).Contents (Elt F) → (⟨S50000x128, .f32⟩ : BufTy).Contents (Elt F)),
    StableHlo.binary main_v56 main_v55 main_v57 (mulf : (⟨S50000x128, .f32⟩ : BufTy).Contents (Elt F) → (⟨S50000x128, .f32⟩ : BufTy).Contents (Elt F) → (⟨S50000x128, .f32⟩ : BufTy).Contents (Elt F)),
    StableHlo.binary main_v52 main_v57 main_v58 (addf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3E9D1BD0#32),
    StableHlo.unary main_cst_13 main_v59 (broadcastInDim S50000x128 ![] bcast_S_S50000x128 : (⟨S_, .f32⟩ : BufTy).Contents (Elt F) → (⟨S50000x128, .f32⟩ : BufTy).Contents (Elt F)),
    StableHlo.binary main_v59 main_v35 main_v60 (mulf : (⟨S50000x128, .f32⟩ : BufTy).Contents (Elt F) → (⟨S50000x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)),
    StableHlo.unary main_arg5 main_v62 ((extractStridedSlice S1x128x128 ![0, 0, 0] · slices_S8x128x128_S1x128x128_0_0_0) : (⟨S8x128x128, .f32⟩ : BufTy).Contents (Elt F) → (⟨S1x128x128, .f32⟩ : BufTy).Contents (Elt F)),
    StableHlo.reshape main_v62 main_v63 rfl shapeCasts_S1x128x128_S128x128,
    StableHlo.binary main_v35 main_v63 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_14 (constant S_ .f32 0x3F317218#32),
    StableHlo.unary main_cst_14 main_v65 (broadcastInDim S50000x128 ![] bcast_S_S50000x128 : (⟨S_, .f32⟩ : BufTy).Contents (Elt F) → (⟨S50000x128, .f32⟩ : BufTy).Contents (Elt F)),
    StableHlo.binary main_v65 main_v64 main_v66 (mulf : (⟨S50000x128, .f32⟩ : BufTy).Contents (Elt F) → (⟨S50000x128, .f32⟩ : BufTy).Contents (Elt F) → (⟨S50000x128, .f32⟩ : BufTy).Contents (Elt F)),
    StableHlo.binary main_v61 main_v66 main_v67 (addf : (⟨S50000x128, .f32⟩ : BufTy).Contents (Elt F) → (⟨S50000x128, .f32⟩ : BufTy).Contents (Elt F) → (⟨S50000x128, .f32⟩ : BufTy).Contents (Elt F)),
    StableHlo.unary main_arg6 main_v68 ((extractStridedSlice S1x128 ![0, 0] · slices_S8x128_S1x128_0_0) : (⟨S8x128, .f32⟩ : BufTy).Contents (Elt F) → (⟨S1x128, .f32⟩ : BufTy).Contents (Elt F)),
    StableHlo.reshape main_v68 main_v69 rfl shapeCasts_S1x128_S128,
    StableHlo.unary main_arg7 main_v70 ((extractStridedSlice S1x128 ![0, 0] · slices_S8x128_S1x128_0_0) : (⟨S8x128, .f32⟩ : BufTy).Contents (Elt F) → (⟨S1x128, .f32⟩ : BufTy).Contents (Elt F)),
    StableHlo.reshape main_v70 main_v71 rfl shapeCasts_S1x128_S128,
    StableHlo.nullary main_cst_15 (constant S_ .f32 0x00000000#32),
    StableHlo.binary main_v67 main_cst_15 main_v72 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_16 (constant S_ .f32 0x4AC35000#32),
    StableHlo.binary main_v72 main_cst_16 main_v73 (Host.divf : (⟨S_, .f32⟩ : BufTy).Contents (Elt F) → (⟨S_, .f32⟩ : BufTy).Contents (Elt F) → (⟨S_, .f32⟩ : BufTy).Contents (Elt F)),
    StableHlo.unary main_v73 main_v74 (broadcastInDim S50000x128 ![] bcast_S_S50000x128 : (⟨S_, .f32⟩ : BufTy).Contents (Elt F) → (⟨S50000x128, .f32⟩ : BufTy).Contents (Elt F)),
    StableHlo.binary main_v67 main_v74 main_v75 (subf : (⟨S50000x128, .f32⟩ : BufTy).Contents (Elt F) → (⟨S50000x128, .f32⟩ : BufTy).Contents (Elt F) → (⟨S50000x128, .f32⟩ : BufTy).Contents (Elt F)),
    StableHlo.nullary main_c_17 (constantI S_ 32 0#32),
    StableHlo.TRef.nullary main_call1.call0.cst (constant S_ .f32 0x00000000#32),
    StableHlo.TRef.binary (.of main_v75 : StableHlo.TRef sig ⟨S50000x128, .f32⟩) main_call1.call0.cst main_call1.call0.v0 (fun x v => Host.reduceAdd x v reducesTo_S50000x128_S_d0_1 h_S_),
    StableHlo.TRef.unary main_call1.call0.v0 main_call1.call0.v1 (broadcastInDim S1x1 ![] bcast_S_S1x1),
    StableHlo.TRef.nullary main_call1.call0.cst_0 (constant S_ .f32 0x4AC35000#32),
    StableHlo.TRef.unary main_call1.call0.cst_0 main_call1.call0.v2 (broadcastInDim S1x1 ![] bcast_S_S1x1),
    StableHlo.TRef.binary main_call1.call0.v1 main_call1.call0.v2 main_call1.call0.v3 Host.divf,
    StableHlo.TRef.unary main_call1.call0.v3 main_call1.call0.v4 (broadcastInDim S50000x128 ![0, 1] bcast_S1x1_S50000x128_0_1),
    StableHlo.TRef.binary (.of main_v75 : StableHlo.TRef sig ⟨S50000x128, .f32⟩) main_call1.call0.v4 main_call1.call0.v5 subf,
    StableHlo.TRef.binary main_call1.call0.v5 main_call1.call0.v5 main_call1.call0.v6 mulf,
    StableHlo.TRef.unary (.of main_c_17 : StableHlo.TRef sig ⟨S_, .i32⟩) main_call1.call0.v7 (sitofp .f32),
    StableHlo.TRef.nullary main_call1.call0.cst_1 (constant S_ .f32 0x4AC35000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S50000x128_S_d0_1 h_S_),
    StableHlo.TRef.binary main_call1.call0.v9 main_call1.call0.v8 main_call1.call0.v10 Host.divf,
    StableHlo.TRef.nullary main_call1.call0.cst_3 (constant S_ .f32 0x00000000#32),
    StableHlo.TRef.binary main_call1.call0.v8 main_call1.call0.cst_3 main_call1.call0.v11 (cmpf .ogt),
    StableHlo.TRef.nullary main_call1.call0.cst_4 (constant S_ .f32 0x7FC00000#32),
    StableHlo.TRef.unary main_call1.call0.cst_4 main_call1.call0.call0.v0 id,
    StableHlo.TRef.ternary main_call1.call0.v11 main_call1.call0.v10 main_call1.call0.call0.v0 main_call1.call0.call0.v1 select,
    StableHlo.TRef.unary main_call1.call0.call0.v1 main_call1.v1 Host.sqrt,
    StableHlo.nullary main_cst_18 (constant S_ .f32 0x3727C5AC#32),
    StableHlo.binary main_v76 main_cst_18 main_v77 (addf : (⟨S_, .f32⟩ : BufTy).Contents (Elt F) → (⟨S_, .f32⟩ : BufTy).Contents (Elt F) → (⟨S_, .f32⟩ : BufTy).Contents (Elt F)),
    StableHlo.unary main_v77 main_v78 (broadcastInDim S50000x128 ![] bcast_S_S50000x128 : (⟨S_, .f32⟩ : BufTy).Contents (Elt F) → (⟨S50000x128, .f32⟩ : BufTy).Contents (Elt F)),
    StableHlo.binary main_v75 main_v78 main_v79 (Host.divf : (⟨S50000x128, .f32⟩ : BufTy).Contents (Elt F) → (⟨S50000x128, .f32⟩ : BufTy).Contents (Elt F) → (⟨S50000x128, .f32⟩ : BufTy).Contents (Elt F)),
    StableHlo.unary main_v69 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (mulf : (⟨S50000x128, .f32⟩ : BufTy).Contents (Elt F) → (⟨S50000x128, .f32⟩ : BufTy).Contents (Elt F) → (⟨S50000x128, .f32⟩ : BufTy).Contents (Elt F)),
    StableHlo.unary main_v71 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v85 : StableHlo.TRef sig ⟨S50000x128, .f32⟩) main_call2.v0 main_call2.v1 maximumf ]

/-- Every buffer these operations touch is a TensorCore reference. -/
theorem opsL0b_sub : (opsL0b : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Each of these operations determines the contents it writes. -/
theorem opsL0b_fresh : ∀ op ∈ (opsL0b : List (HloOp τ sig (Elt F))), op.fresh = ∅ := by
  intro _ h
  repeat (cases h with | head => rfl | tail _ h => ?_)
  exact nomatch h

end Cert.Hand.RefRun

end
-- ==== Proof.RefOpsL1a.lean ====
/- The reference program's @main, statements 109 … 120 of its 553 (in its window `main_part1`), as a list of
   operations in order: each statement's own operation, and for a call of a module-local function the function's
   operations over the call's operands and buffer record (12 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 109 … 120 of @main: 12 operations, in order. -/
abbrev opsL1a : List (HloOp τ sig (Elt F)) :=
  [
    StableHlo.unary main_v29 main_v87 (broadcastInDim S550000x1 ![0] bcast_S550000_S550000x1_0 : (⟨S550000, .f32⟩ : BufTy).Contents (Elt F) → (⟨S550000x1, .f32⟩ : BufTy).Contents (Elt F)),
    StableHlo.nullary main_c_19 (constantI S_ 32 0#32),
    StableHlo.unary main_c_19 main_v88 (broadcastInDim S550000 ![] bcast_S_S550000 : (⟨S_, .i32⟩ : BufTy).Contents (Elt F) → (⟨S550000, .i32⟩ : BufTy).Contents (Elt F)),
    StableHlo.binary main_v5 main_v88 main_v89 (cmpi .slt : (⟨S550000, .i32⟩ : BufTy).Contents (Elt F) → (⟨S550000, .i32⟩ : BufTy).Contents (Elt F) → (⟨S550000, .i1⟩ : BufTy).Contents (Elt F)),
    StableHlo.nullary main_c_20 (constantI S_ 32 50000#32),
    StableHlo.unary main_c_20 main_v90 (broadcastInDim S550000 ![] bcast_S_S550000 : (⟨S_, .i32⟩ : BufTy).Contents (Elt F) → (⟨S550000, .i32⟩ : BufTy).Contents (Elt F)),
    StableHlo.binary main_v5 main_v90 main_v91 (addi : (⟨S550000, .i32⟩ : BufTy).Contents (Elt F) → (⟨S550000, .i32⟩ : BufTy).Contents (Elt F) → (⟨S550000, .i32⟩ : BufTy).Contents (Elt F)),
    StableHlo.ternary main_v89 main_v91 main_v5 main_v92 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v92 main_v93 (broadcastInDim S550000x1 ![0] bcast_S550000_S550000x1_0 : (⟨S550000, .i32⟩ : BufTy).Contents (Elt F) → (⟨S550000x1, .i32⟩ : BufTy).Contents (Elt F)),
    StableHlo.binary main_v86 main_v93 main_v94 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v87 main_v95 (broadcastInDim S550000x128 ![0, 1] bcast_S550000x1_S550000x128_0_1 : (⟨S550000x1, .f32⟩ : BufTy).Contents (Elt F) → (⟨S550000x128, .f32⟩ : BufTy).Contents (Elt F)),
    StableHlo.binary main_v95 main_v94 main_v96 (mulf : (⟨S550000x128, .f32⟩ : BufTy).Contents (Elt F) → (⟨S550000x128, .f32⟩ : BufTy).Contents (Elt F) → (⟨S550000x128, .f32⟩ : BufTy).Contents (Elt F)) ]

/-- Every buffer these operations touch is a TensorCore reference. -/
theorem opsL1a_sub : (opsL1a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

/-- Each of these operations determines the contents it writes. -/
theorem opsL1a_fresh : ∀ op ∈ (opsL1a : List (HloOp τ sig (Elt F))), op.fresh = ∅ := by
  intro _ h
  repeat (cases h with | head => rfl | tail _ h => ?_)
  exact nomatch h

end Cert.Hand.RefRun

end
-- ==== Proof.RefOpsL1b.lean ====
/- The reference program's @main, statements 121 … 171 of its 553 (in its window `main_part2`), as a list of
   operations in order: each statement's own operation, and for a call of a module-local function the function's
   operations over the call's operands and buffer record (73 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 121 … 171 of @main: 73 operations, in order. -/
abbrev opsL1b : List (HloOp τ sig (Elt F)) :=
  [
    StableHlo.nullary main_cst_21 (constant S_ .f32 0x00000000#32),
    StableHlo.unary main_cst_21 main_v97 (broadcastInDim S50000x128 ![] bcast_S_S50000x128 : (⟨S_, .f32⟩ : BufTy).Contents (Elt F) → (⟨S50000x128, .f32⟩ : BufTy).Contents (Elt F)),
    StableHlo.unary main_v6 main_v98 (broadcastInDim S550000x1 ![0] bcast_S550000_S550000x1_0 : (⟨S550000, .i32⟩ : BufTy).Contents (Elt F) → (⟨S550000x1, .i32⟩ : BufTy).Contents (Elt F)),
    StableHlo.ternary main_v97 main_v98 main_v96 main_v99 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_22 (constant S_ .f32 0x3F000000#32),
    StableHlo.unary main_cst_22 main_v100 (broadcastInDim S50000x128 ![] bcast_S_S50000x128 : (⟨S_, .f32⟩ : BufTy).Contents (Elt F) → (⟨S50000x128, .f32⟩ : BufTy).Contents (Elt F)),
    StableHlo.binary main_v99 main_v100 main_v101 (mulf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3F183370#32),
    StableHlo.unary main_cst_23 main_v102 (broadcastInDim S50000x128 ![] bcast_S_S50000x128 : (⟨S_, .f32⟩ : BufTy).Contents (Elt F) → (⟨S50000x128, .f32⟩ : BufTy).Contents (Elt F)),
    StableHlo.binary main_v102 main_v101 main_v103 (mulf : (⟨S50000x128, .f32⟩ : BufTy).Contents (Elt F) → (⟨S50000x128, .f32⟩ : BufTy).Contents (Elt F) → (⟨S50000x128, .f32⟩ : BufTy).Contents (Elt F)),
    StableHlo.unary main_arg4 main_v104 ((extractStridedSlice S1x128x128 ![1, 0, 0] · slices_S8x128x128_S1x128x128_1_0_0) : (⟨S8x128x128, .f32⟩ : BufTy).Contents (Elt F) → (⟨S1x128x128, .f32⟩ : BufTy).Contents (Elt F)),
    StableHlo.reshape main_v104 main_v105 rfl shapeCasts_S1x128x128_S128x128,
    StableHlo.binary main_v101 main_v105 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_24 (constant S_ .f32 0x3ECF991F#32),
    StableHlo.unary main_cst_24 main_v107 (broadcastInDim S50000x128 ![] bcast_S_S50000x128 : (⟨S_, .f32⟩ : BufTy).Contents (Elt F) → (⟨S50000x128, .f32⟩ : BufTy).Contents (Elt F)),
    StableHlo.binary main_v107 main_v106 main_v108 (mulf : (⟨S50000x128, .f32⟩ : BufTy).Contents (Elt F) → (⟨S50000x128, .f32⟩ : BufTy).Contents (Elt F) → (⟨S50000x128, .f32⟩ : BufTy).Contents (Elt F)),
    StableHlo.binary main_v103 main_v108 main_v109 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3F183370#32),
    StableHlo.unary main_cst_25 main_v110 (broadcastInDim S50000x128 ![] bcast_S_S50000x128 : (⟨S_, .f32⟩ : BufTy).Contents (Elt F) → (⟨S50000x128, .f32⟩ : BufTy).Contents (Elt F)),
    StableHlo.binary main_v110 main_v35 main_v111 (mulf : (⟨S50000x128, .f32⟩ : BufTy).Contents (Elt F) → (⟨S50000x128, .f32⟩ : BufTy).Contents (Elt F) → (⟨S50000x128, .f32⟩ : BufTy).Contents (Elt F)),
    StableHlo.binary main_v109 main_v111 main_v112 (addf : (⟨S50000x128, .f32⟩ : BufTy).Contents (Elt F) → (⟨S50000x128, .f32⟩ : BufTy).Contents (Elt F) → (⟨S50000x128, .f32⟩ : BufTy).Contents (Elt F)),
    StableHlo.unary main_arg5 main_v113 ((extractStridedSlice S1x128x128 ![1, 0, 0] · slices_S8x128x128_S1x128x128_1_0_0) : (⟨S8x128x128, .f32⟩ : BufTy).Contents (Elt F) → (⟨S1x128x128, .f32⟩ : BufTy).Contents (Elt F)),
    StableHlo.reshape main_v113 main_v114 rfl shapeCasts_S1x128x128_S128x128,
    StableHlo.binary main_v35 main_v114 main_v115 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_26 (constant S_ .f32 0x3ECF991F#32),
    StableHlo.unary main_cst_26 main_v116 (broadcastInDim S50000x128 ![] bcast_S_S50000x128 : (⟨S_, .f32⟩ : BufTy).Contents (Elt F) → (⟨S50000x128, .f32⟩ : BufTy).Contents (Elt F)),
    StableHlo.binary main_v116 main_v115 main_v117 (mulf : (⟨S50000x128, .f32⟩ : BufTy).Contents (Elt F) → (⟨S50000x128, .f32⟩ : BufTy).Contents (Elt F) → (⟨S50000x128, .f32⟩ : BufTy).Contents (Elt F)),
    StableHlo.binary main_v112 main_v117 main_v118 (addf : (⟨S50000x128, .f32⟩ : BufTy).Contents (Elt F) → (⟨S50000x128, .f32⟩ : BufTy).Contents (Elt F) → (⟨S50000x128, .f32⟩ : BufTy).Contents (Elt F)),
    StableHlo.unary main_arg6 main_v119 ((extractStridedSlice S1x128 ![1, 0] · slices_S8x128_S1x128_1_0) : (⟨S8x128, .f32⟩ : BufTy).Contents (Elt F) → (⟨S1x128, .f32⟩ : BufTy).Contents (Elt F)),
    StableHlo.reshape main_v119 main_v120 rfl shapeCasts_S1x128_S128,
    StableHlo.unary main_arg7 main_v121 ((extractStridedSlice S1x128 ![1, 0] · slices_S8x128_S1x128_1_0) : (⟨S8x128, .f32⟩ : BufTy).Contents (Elt F) → (⟨S1x128, .f32⟩ : BufTy).Contents (Elt F)),
    StableHlo.reshape main_v121 main_v122 rfl shapeCasts_S1x128_S128,
    StableHlo.nullary main_cst_27 (constant S_ .f32 0x00000000#32),
    StableHlo.binary main_v118 main_cst_27 main_v123 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_28 (constant S_ .f32 0x4AC35000#32),
    StableHlo.binary main_v123 main_cst_28 main_v124 (Host.divf : (⟨S_, .f32⟩ : BufTy).Contents (Elt F) → (⟨S_, .f32⟩ : BufTy).Contents (Elt F) → (⟨S_, .f32⟩ : BufTy).Contents (Elt F)),
    StableHlo.unary main_v124 main_v125 (broadcastInDim S50000x128 ![] bcast_S_S50000x128 : (⟨S_, .f32⟩ : BufTy).Contents (Elt F) → (⟨S50000x128, .f32⟩ : BufTy).Contents (Elt F)),
    StableHlo.binary main_v118 main_v125 main_v126 (subf : (⟨S50000x128, .f32⟩ : BufTy).Contents (Elt F) → (⟨S50000x128, .f32⟩ : BufTy).Contents (Elt F) → (⟨S50000x128, .f32⟩ : BufTy).Contents (Elt F)),
    StableHlo.nullary main_c_29 (constantI S_ 32 0#32),
    StableHlo.TRef.nullary main_call3.call0.cst (constant S_ .f32 0x00000000#32),
    StableHlo.TRef.binary (.of main_v126 : StableHlo.TRef sig ⟨S50000x128, .f32⟩) main_call3.call0.cst main_call3.call0.v0 (fun x v => Host.reduceAdd x v reducesTo_S50000x128_S_d0_1 h_S_),
    StableHlo.TRef.unary main_call3.call0.v0 main_call3.call0.v1 (broadcastInDim S1x1 ![] bcast_S_S1x1),
    StableHlo.TRef.nullary main_call3.call0.cst_0 (constant S_ .f32 0x4AC35000#32),
    StableHlo.TRef.unary main_call3.call0.cst_0 main_call3.call0.v2 (broadcastInDim S1x1 ![] bcast_S_S1x1),
    StableHlo.TRef.binary main_call3.call0.v1 main_call3.call0.v2 main_call3.call0.v3 Host.divf,
    StableHlo.TRef.unary main_call3.call0.v3 main_call3.call0.v4 (broadcastInDim S50000x128 ![0, 1] bcast_S1x1_S50000x128_0_1),
    StableHlo.TRef.binary (.of main_v126 : StableHlo.TRef sig ⟨S50000x128, .f32⟩) main_call3.call0.v4 main_call3.call0.v5 subf,
    StableHlo.TRef.binary main_call3.call0.v5 main_call3.call0.v5 main_call3.call0.v6 mulf,
    StableHlo.TRef.unary (.of main_c_29 : StableHlo.TRef sig ⟨S_, .i32⟩) main_call3.call0.v7 (sitofp .f32),
    StableHlo.TRef.nullary main_call3.call0.cst_1 (constant S_ .f32 0x4AC35000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S50000x128_S_d0_1 h_S_),
    StableHlo.TRef.binary main_call3.call0.v9 main_call3.call0.v8 main_call3.call0.v10 Host.divf,
    StableHlo.TRef.nullary main_call3.call0.cst_3 (constant S_ .f32 0x00000000#32),
    StableHlo.TRef.binary main_call3.call0.v8 main_call3.call0.cst_3 main_call3.call0.v11 (cmpf .ogt),
    StableHlo.TRef.nullary main_call3.call0.cst_4 (constant S_ .f32 0x7FC00000#32),
    StableHlo.TRef.unary main_call3.call0.cst_4 main_call3.call0.call0.v0 id,
    StableHlo.TRef.ternary main_call3.call0.v11 main_call3.call0.v10 main_call3.call0.call0.v0 main_call3.call0.call0.v1 select,
    StableHlo.TRef.unary main_call3.call0.call0.v1 main_call3.v1 Host.sqrt,
    StableHlo.nullary main_cst_30 (constant S_ .f32 0x3727C5AC#32),
    StableHlo.binary main_v127 main_cst_30 main_v128 (addf : (⟨S_, .f32⟩ : BufTy).Contents (Elt F) → (⟨S_, .f32⟩ : BufTy).Contents (Elt F) → (⟨S_, .f32⟩ : BufTy).Contents (Elt F)),
    StableHlo.unary main_v128 main_v129 (broadcastInDim S50000x128 ![] bcast_S_S50000x128 : (⟨S_, .f32⟩ : BufTy).Contents (Elt F) → (⟨S50000x128, .f32⟩ : BufTy).Contents (Elt F)),
    StableHlo.binary main_v126 main_v129 main_v130 (Host.divf : (⟨S50000x128, .f32⟩ : BufTy).Contents (Elt F) → (⟨S50000x128, .f32⟩ : BufTy).Contents (Elt F) → (⟨S50000x128, .f32⟩ : BufTy).Contents (Elt F)),
    StableHlo.unary main_v120 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v132 main_v133 (mulf : (⟨S50000x128, .f32⟩ : BufTy).Contents (Elt F) → (⟨S50000x128, .f32⟩ : BufTy).Contents (Elt F) → (⟨S50000x128, .f32⟩ : BufTy).Contents (Elt F)),
    StableHlo.unary main_v122 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v135 main_v136 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v136 : StableHlo.TRef sig ⟨S50000x128, .f32⟩) main_call4.v0 main_call4.v1 maximumf ]

/-- Every buffer these operations touch is a TensorCore reference. -/
theorem opsL1b_sub : (opsL1b : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Each of these operations determines the contents it writes. -/
theorem opsL1b_fresh : ∀ op ∈ (opsL1b : List (HloOp τ sig (Elt F))), op.fresh = ∅ := by
  intro _ h
  repeat (cases h with | head => rfl | tail _ h => ?_)
  exact nomatch h

end Cert.Hand.RefRun

end
-- ==== Proof.RefOpsL2a.lean ====
/- The reference program's @main, statements 172 … 180 of its 553 (in its window `main_part2`), as a list of
   operations in order: each statement's own operation, and for a call of a module-local function the function's
   operations over the call's operands and buffer record (9 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 172 … 180 of @main: 9 operations, in order. -/
abbrev opsL2a : List (HloOp τ sig (Elt F)) :=
  [
    StableHlo.unary main_v29 main_v138 (broadcastInDim S550000x1 ![0] bcast_S550000_S550000x1_0 : (⟨S550000, .f32⟩ : BufTy).Contents (Elt F) → (⟨S550000x1, .f32⟩ : BufTy).Contents (Elt F)),
    StableHlo.nullary main_c_31 (constantI S_ 32 0#32),
    StableHlo.unary main_c_31 main_v139 (broadcastInDim S550000 ![] bcast_S_S550000 : (⟨S_, .i32⟩ : BufTy).Contents (Elt F) → (⟨S550000, .i32⟩ : BufTy).Contents (Elt F)),
    StableHlo.binary main_v5 main_v139 main_v140 (cmpi .slt : (⟨S550000, .i32⟩ : BufTy).Contents (Elt F) → (⟨S550000, .i32⟩ : BufTy).Contents (Elt F) → (⟨S550000, .i1⟩ : BufTy).Contents (Elt F)),
    StableHlo.nullary main_c_32 (constantI S_ 32 50000#32),
    StableHlo.unary main_c_32 main_v141 (broadcastInDim S550000 ![] bcast_S_S550000 : (⟨S_, .i32⟩ : BufTy).Contents (Elt F) → (⟨S550000, .i32⟩ : BufTy).Contents (Elt F)),
    StableHlo.binary main_v5 main_v141 main_v142 (addi : (⟨S550000, .i32⟩ : BufTy).Contents (Elt F) → (⟨S550000, .i32⟩ : BufTy).Contents (Elt F) → (⟨S550000, .i32⟩ : BufTy).Contents (Elt F)),
    StableHlo.ternary main_v140 main_v142 main_v5 main_v143 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v143 main_v144 (broadcastInDim S550000x1 ![0] bcast_S550000_S550000x1_0 : (⟨S550000, .i32⟩ : BufTy).Contents (Elt F) → (⟨S550000x1, .i32⟩ : BufTy).Contents (Elt F)) ]

/-- Every buffer these operations touch is a TensorCore reference. -/
theorem opsL2a_sub : (opsL2a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub ..⟩

/-- Each of these operations determines the contents it writes. -/
theorem opsL2a_fresh : ∀ op ∈ (opsL2a : List (HloOp τ sig (Elt F))), op.fresh = ∅ := by
  intro _ h
  repeat (cases h with | head => rfl | tail _ h => ?_)
  exact nomatch h

end Cert.Hand.RefRun

end
-- ==== Proof.RefOpsL2b.lean ====
/- The reference program's @main, statements 181 … 234 of its 553 (in its window `main_part3`), as a list of
   operations in order: each statement's own operation, and for a call of a module-local function the function's
   operations over the call's operands and buffer record (76 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 181 … 234 of @main: 76 operations, in order. -/
abbrev opsL2b : List (HloOp τ sig (Elt F)) :=
  [
    StableHlo.binary main_v137 main_v144 main_v145 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v138 main_v146 (broadcastInDim S550000x128 ![0, 1] bcast_S550000x1_S550000x128_0_1 : (⟨S550000x1, .f32⟩ : BufTy).Contents (Elt F) → (⟨S550000x128, .f32⟩ : BufTy).Contents (Elt F)),
    StableHlo.binary main_v146 main_v145 main_v147 (mulf : (⟨S550000x128, .f32⟩ : BufTy).Contents (Elt F) → (⟨S550000x128, .f32⟩ : BufTy).Contents (Elt F) → (⟨S550000x128, .f32⟩ : BufTy).Contents (Elt F)),
    StableHlo.nullary main_cst_33 (constant S_ .f32 0x00000000#32),
    StableHlo.unary main_cst_33 main_v148 (broadcastInDim S50000x128 ![] bcast_S_S50000x128 : (⟨S_, .f32⟩ : BufTy).Contents (Elt F) → (⟨S50000x128, .f32⟩ : BufTy).Contents (Elt F)),
    StableHlo.unary main_v6 main_v149 (broadcastInDim S550000x1 ![0] bcast_S550000_S550000x1_0 : (⟨S550000, .i32⟩ : BufTy).Contents (Elt F) → (⟨S550000x1, .i32⟩ : BufTy).Contents (Elt F)),
    StableHlo.ternary main_v148 main_v149 main_v147 main_v150 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_34 (constant S_ .f32 0x3F000000#32),
    StableHlo.unary main_cst_34 main_v151 (broadcastInDim S50000x128 ![] bcast_S_S50000x128 : (⟨S_, .f32⟩ : BufTy).Contents (Elt F) → (⟨S50000x128, .f32⟩ : BufTy).Contents (Elt F)),
    StableHlo.binary main_v150 main_v151 main_v152 (mulf : (⟨S50000x128, .f32⟩ : BufTy).Contents (Elt F) → (⟨S50000x128, .f32⟩ : BufTy).Contents (Elt F) → (⟨S50000x128, .f32⟩ : BufTy).Contents (Elt F)),
    StableHlo.nullary main_cst_35 (constant S_ .f32 0x3F365A78#32),
    StableHlo.unary main_cst_35 main_v153 (broadcastInDim S50000x128 ![] bcast_S_S50000x128 : (⟨S_, .f32⟩ : BufTy).Contents (Elt F) → (⟨S50000x128, .f32⟩ : BufTy).Contents (Elt F)),
    StableHlo.binary main_v153 main_v152 main_v154 (mulf : (⟨S50000x128, .f32⟩ : BufTy).Contents (Elt F) → (⟨S50000x128, .f32⟩ : BufTy).Contents (Elt F) → (⟨S50000x128, .f32⟩ : BufTy).Contents (Elt F)),
    StableHlo.unary main_arg4 main_v155 ((extractStridedSlice S1x128x128 ![2, 0, 0] · slices_S8x128x128_S1x128x128_2_0_0) : (⟨S8x128x128, .f32⟩ : BufTy).Contents (Elt F) → (⟨S1x128x128, .f32⟩ : BufTy).Contents (Elt F)),
    StableHlo.reshape main_v155 main_v156 rfl shapeCasts_S1x128x128_S128x128,
    StableHlo.binary main_v152 main_v156 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_36 (constant S_ .f32 0x3E934B11#32),
    StableHlo.unary main_cst_36 main_v158 (broadcastInDim S50000x128 ![] bcast_S_S50000x128 : (⟨S_, .f32⟩ : BufTy).Contents (Elt F) → (⟨S50000x128, .f32⟩ : BufTy).Contents (Elt F)),
    StableHlo.binary main_v158 main_v157 main_v159 (mulf : (⟨S50000x128, .f32⟩ : BufTy).Contents (Elt F) → (⟨S50000x128, .f32⟩ : BufTy).Contents (Elt F) → (⟨S50000x128, .f32⟩ : BufTy).Contents (Elt F)),
    StableHlo.binary main_v154 main_v159 main_v160 (addf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3F365A78#32),
    StableHlo.unary main_cst_37 main_v161 (broadcastInDim S50000x128 ![] bcast_S_S50000x128 : (⟨S_, .f32⟩ : BufTy).Contents (Elt F) → (⟨S50000x128, .f32⟩ : BufTy).Contents (Elt F)),
    StableHlo.binary main_v161 main_v35 main_v162 (mulf : (⟨S50000x128, .f32⟩ : BufTy).Contents (Elt F) → (⟨S50000x128, .f32⟩ : BufTy).Contents (Elt F) → (⟨S50000x128, .f32⟩ : BufTy).Contents (Elt F)),
    StableHlo.binary main_v160 main_v162 main_v163 (addf : (⟨S50000x128, .f32⟩ : BufTy).Contents (Elt F) → (⟨S50000x128, .f32⟩ : BufTy).Contents (Elt F) → (⟨S50000x128, .f32⟩ : BufTy).Contents (Elt F)),
    StableHlo.unary main_arg5 main_v164 ((extractStridedSlice S1x128x128 ![2, 0, 0] · slices_S8x128x128_S1x128x128_2_0_0) : (⟨S8x128x128, .f32⟩ : BufTy).Contents (Elt F) → (⟨S1x128x128, .f32⟩ : BufTy).Contents (Elt F)),
    StableHlo.reshape main_v164 main_v165 rfl shapeCasts_S1x128x128_S128x128,
    StableHlo.binary main_v35 main_v165 main_v166 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_38 (constant S_ .f32 0x3E934B11#32),
    StableHlo.unary main_cst_38 main_v167 (broadcastInDim S50000x128 ![] bcast_S_S50000x128 : (⟨S_, .f32⟩ : BufTy).Contents (Elt F) → (⟨S50000x128, .f32⟩ : BufTy).Contents (Elt F)),
    StableHlo.binary main_v167 main_v166 main_v168 (mulf : (⟨S50000x128, .f32⟩ : BufTy).Contents (Elt F) → (⟨S50000x128, .f32⟩ : BufTy).Contents (Elt F) → (⟨S50000x128, .f32⟩ : BufTy).Contents (Elt F)),
    StableHlo.binary main_v163 main_v168 main_v169 (addf : (⟨S50000x128, .f32⟩ : BufTy).Contents (Elt F) → (⟨S50000x128, .f32⟩ : BufTy).Contents (Elt F) → (⟨S50000x128, .f32⟩ : BufTy).Contents (Elt F)),
    StableHlo.unary main_arg6 main_v170 ((extractStridedSlice S1x128 ![2, 0] · slices_S8x128_S1x128_2_0) : (⟨S8x128, .f32⟩ : BufTy).Contents (Elt F) → (⟨S1x128, .f32⟩ : BufTy).Contents (Elt F)),
    StableHlo.reshape main_v170 main_v171 rfl shapeCasts_S1x128_S128,
    StableHlo.unary main_arg7 main_v172 ((extractStridedSlice S1x128 ![2, 0] · slices_S8x128_S1x128_2_0) : (⟨S8x128, .f32⟩ : BufTy).Contents (Elt F) → (⟨S1x128, .f32⟩ : BufTy).Contents (Elt F)),
    StableHlo.reshape main_v172 main_v173 rfl shapeCasts_S1x128_S128,
    StableHlo.nullary main_cst_39 (constant S_ .f32 0x00000000#32),
    StableHlo.binary main_v169 main_cst_39 main_v174 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_40 (constant S_ .f32 0x4AC35000#32),
    StableHlo.binary main_v174 main_cst_40 main_v175 (Host.divf : (⟨S_, .f32⟩ : BufTy).Contents (Elt F) → (⟨S_, .f32⟩ : BufTy).Contents (Elt F) → (⟨S_, .f32⟩ : BufTy).Contents (Elt F)),
    StableHlo.unary main_v175 main_v176 (broadcastInDim S50000x128 ![] bcast_S_S50000x128 : (⟨S_, .f32⟩ : BufTy).Contents (Elt F) → (⟨S50000x128, .f32⟩ : BufTy).Contents (Elt F)),
    StableHlo.binary main_v169 main_v176 main_v177 (subf : (⟨S50000x128, .f32⟩ : BufTy).Contents (Elt F) → (⟨S50000x128, .f32⟩ : BufTy).Contents (Elt F) → (⟨S50000x128, .f32⟩ : BufTy).Contents (Elt F)),
    StableHlo.nullary main_c_41 (constantI S_ 32 0#32),
    StableHlo.TRef.nullary main_call5.call0.cst (constant S_ .f32 0x00000000#32),
    StableHlo.TRef.binary (.of main_v177 : StableHlo.TRef sig ⟨S50000x128, .f32⟩) main_call5.call0.cst main_call5.call0.v0 (fun x v => Host.reduceAdd x v reducesTo_S50000x128_S_d0_1 h_S_),
    StableHlo.TRef.unary main_call5.call0.v0 main_call5.call0.v1 (broadcastInDim S1x1 ![] bcast_S_S1x1),
    StableHlo.TRef.nullary main_call5.call0.cst_0 (constant S_ .f32 0x4AC35000#32),
    StableHlo.TRef.unary main_call5.call0.cst_0 main_call5.call0.v2 (broadcastInDim S1x1 ![] bcast_S_S1x1),
    StableHlo.TRef.binary main_call5.call0.v1 main_call5.call0.v2 main_call5.call0.v3 Host.divf,
    StableHlo.TRef.unary main_call5.call0.v3 main_call5.call0.v4 (broadcastInDim S50000x128 ![0, 1] bcast_S1x1_S50000x128_0_1),
    StableHlo.TRef.binary (.of main_v177 : StableHlo.TRef sig ⟨S50000x128, .f32⟩) main_call5.call0.v4 main_call5.call0.v5 subf,
    StableHlo.TRef.binary main_call5.call0.v5 main_call5.call0.v5 main_call5.call0.v6 mulf,
    StableHlo.TRef.unary (.of main_c_41 : StableHlo.TRef sig ⟨S_, .i32⟩) main_call5.call0.v7 (sitofp .f32),
    StableHlo.TRef.nullary main_call5.call0.cst_1 (constant S_ .f32 0x4AC35000#32),
    StableHlo.TRef.binary main_call5.call0.cst_1 main_call5.call0.v7 main_call5.call0.v8 subf,
    StableHlo.TRef.nullary main_call5.call0.cst_2 (constant S_ .f32 0x00000000#32),
    StableHlo.TRef.binary main_call5.call0.v6 main_call5.call0.cst_2 main_call5.call0.v9 (fun x v => Host.reduceAdd x v reducesTo_S50000x128_S_d0_1 h_S_),
    StableHlo.TRef.binary main_call5.call0.v9 main_call5.call0.v8 main_call5.call0.v10 Host.divf,
    StableHlo.TRef.nullary main_call5.call0.cst_3 (constant S_ .f32 0x00000000#32),
    StableHlo.TRef.binary main_call5.call0.v8 main_call5.call0.cst_3 main_call5.call0.v11 (cmpf .ogt),
    StableHlo.TRef.nullary main_call5.call0.cst_4 (constant S_ .f32 0x7FC00000#32),
    StableHlo.TRef.unary main_call5.call0.cst_4 main_call5.call0.call0.v0 id,
    StableHlo.TRef.ternary main_call5.call0.v11 main_call5.call0.v10 main_call5.call0.call0.v0 main_call5.call0.call0.v1 select,
    StableHlo.TRef.unary main_call5.call0.call0.v1 main_call5.v1 Host.sqrt,
    StableHlo.nullary main_cst_42 (constant S_ .f32 0x3727C5AC#32),
    StableHlo.binary main_v178 main_cst_42 main_v179 (addf : (⟨S_, .f32⟩ : BufTy).Contents (Elt F) → (⟨S_, .f32⟩ : BufTy).Contents (Elt F) → (⟨S_, .f32⟩ : BufTy).Contents (Elt F)),
    StableHlo.unary main_v179 main_v180 (broadcastInDim S50000x128 ![] bcast_S_S50000x128 : (⟨S_, .f32⟩ : BufTy).Contents (Elt F) → (⟨S50000x128, .f32⟩ : BufTy).Contents (Elt F)),
    StableHlo.binary main_v177 main_v180 main_v181 (Host.divf : (⟨S50000x128, .f32⟩ : BufTy).Contents (Elt F) → (⟨S50000x128, .f32⟩ : BufTy).Contents (Elt F) → (⟨S50000x128, .f32⟩ : BufTy).Contents (Elt F)),
    StableHlo.unary main_v171 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S50000x128 ![0, 1] bcast_S1x128_S50000x128_0_1 : (⟨S1x128, .f32⟩ : BufTy).Contents (Elt F) → (⟨S50000x128, .f32⟩ : BufTy).Contents (Elt F)),
    StableHlo.binary main_v181 main_v183 main_v184 (mulf : (⟨S50000x128, .f32⟩ : BufTy).Contents (Elt F) → (⟨S50000x128, .f32⟩ : BufTy).Contents (Elt F) → (⟨S50000x128, .f32⟩ : BufTy).Contents (Elt F)),
    StableHlo.unary main_v173 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S50000x128 ![0, 1] bcast_S1x128_S50000x128_0_1 : (⟨S1x128, .f32⟩ : BufTy).Contents (Elt F) → (⟨S50000x128, .f32⟩ : BufTy).Contents (Elt F)),
    StableHlo.binary main_v184 main_v186 main_v187 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v187 : StableHlo.TRef sig ⟨S50000x128, .f32⟩) main_call6.v0 main_call6.v1 maximumf ]

/-- Every buffer these operations touch is a TensorCore reference. -/
theorem opsL2b_sub : (opsL2b : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Each of these operations determines the contents it writes. -/
theorem opsL2b_fresh : ∀ op ∈ (opsL2b : List (HloOp τ sig (Elt F))), op.fresh = ∅ := by
  intro _ h
  repeat (cases h with | head => rfl | tail _ h => ?_)
  exact nomatch h

end Cert.Hand.RefRun

end
-- ==== Proof.RefOpsL3a.lean ====
/- The reference program's @main, statements 235 … 240 of its 553 (in its window `main_part3`), as a list of
   operations in order: each statement's own operation, and for a call of a module-local function the function's
   operations over the call's operands and buffer record (6 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 235 … 240 of @main: 6 operations, in order. -/
abbrev opsL3a : List (HloOp τ sig (Elt F)) :=
  [
    StableHlo.unary main_v29 main_v189 (broadcastInDim S550000x1 ![0] bcast_S550000_S550000x1_0 : (⟨S550000, .f32⟩ : BufTy).Contents (Elt F) → (⟨S550000x1, .f32⟩ : BufTy).Contents (Elt F)),
    StableHlo.nullary main_c_43 (constantI S_ 32 0#32),
    StableHlo.unary main_c_43 main_v190 (broadcastInDim S550000 ![] bcast_S_S550000 : (⟨S_, .i32⟩ : BufTy).Contents (Elt F) → (⟨S550000, .i32⟩ : BufTy).Contents (Elt F)),
    StableHlo.binary main_v5 main_v190 main_v191 (cmpi .slt : (⟨S550000, .i32⟩ : BufTy).Contents (Elt F) → (⟨S550000, .i32⟩ : BufTy).Contents (Elt F) → (⟨S550000, .i1⟩ : BufTy).Contents (Elt F)),
    StableHlo.nullary main_c_44 (constantI S_ 32 50000#32),
    StableHlo.unary main_c_44 main_v192 (broadcastInDim S550000 ![] bcast_S_S550000 : (⟨S_, .i32⟩ : BufTy).Contents (Elt F) → (⟨S550000, .i32⟩ : BufTy).Contents (Elt F)) ]

/-- Every buffer these operations touch is a TensorCore reference. -/
theorem opsL3a_sub : (opsL3a : List (HloOp τ sig (Elt F))).Forall fun op => op.bufs ⊆ tcRefs τ sig :=
  ⟨unary_bufs_sub .., nullary_bufs_sub .., unary_bufs_sub .., binary_bufs_sub .., nullary_bufs_sub .., unary_bufs_sub ..⟩

/-- Each of these operations determines the contents it writes. -/
theorem opsL3a_fresh : ∀ op ∈ (opsL3a : List (HloOp τ sig (Elt F))), op.fresh = ∅ := by
  intro _ h
  repeat (cases h with | head => rfl | tail _ h => ?_)
  exact nomatch h

end Cert.Hand.RefRun

end
-- ==== Proof.RefOpsL3b.lean ====
/- The reference program's @main, statements 241 … 297 of its 553 (in its window `main_part4`), as a list of
   operations in order: each statement's own operation, and for a call of a module-local function the function's
   operations over the call's operands and buffer record (79 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 241 … 297 of @main: 79 operations, in order. -/
abbrev opsL3b : List (HloOp τ sig (Elt F)) :=
  [
    StableHlo.binary main_v5 main_v192 main_v193 (addi : (⟨S550000, .i32⟩ : BufTy).Contents (Elt F) → (⟨S550000, .i32⟩ : BufTy).Contents (Elt F) → (⟨S550000, .i32⟩ : BufTy).Contents (Elt F)),
    StableHlo.ternary main_v191 main_v193 main_v5 main_v194 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v194 main_v195 (broadcastInDim S550000x1 ![0] bcast_S550000_S550000x1_0 : (⟨S550000, .i32⟩ : BufTy).Contents (Elt F) → (⟨S550000x1, .i32⟩ : BufTy).Contents (Elt F)),
    StableHlo.binary main_v188 main_v195 main_v196 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v189 main_v197 (broadcastInDim S550000x128 ![0, 1] bcast_S550000x1_S550000x128_0_1 : (⟨S550000x1, .f32⟩ : BufTy).Contents (Elt F) → (⟨S550000x128, .f32⟩ : BufTy).Contents (Elt F)),
    StableHlo.binary main_v197 main_v196 main_v198 (mulf : (⟨S550000x128, .f32⟩ : BufTy).Contents (Elt F) → (⟨S550000x128, .f32⟩ : BufTy).Contents (Elt F) → (⟨S550000x128, .f32⟩ : BufTy).Contents (Elt F)),
    StableHlo.nullary main_cst_45 (constant S_ .f32 0x00000000#32),
    StableHlo.unary main_cst_45 main_v199 (broadcastInDim S50000x128 ![] bcast_S_S50000x128 : (⟨S_, .f32⟩ : BufTy).Contents (Elt F) → (⟨S50000x128, .f32⟩ : BufTy).Contents (Elt F)),
    StableHlo.unary main_v6 main_v200 (broadcastInDim S550000x1 ![0] bcast_S550000_S550000x1_0 : (⟨S550000, .i32⟩ : BufTy).Contents (Elt F) → (⟨S550000x1, .i32⟩ : BufTy).Contents (Elt F)),
    StableHlo.ternary main_v199 main_v200 main_v198 main_v201 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_46 (constant S_ .f32 0x3F000000#32),
    StableHlo.unary main_cst_46 main_v202 (broadcastInDim S50000x128 ![] bcast_S_S50000x128 : (⟨S_, .f32⟩ : BufTy).Contents (Elt F) → (⟨S50000x128, .f32⟩ : BufTy).Contents (Elt F)),
    StableHlo.binary main_v201 main_v202 main_v203 (mulf : (⟨S50000x128, .f32⟩ : BufTy).Contents (Elt F) → (⟨S50000x128, .f32⟩ : BufTy).Contents (Elt F) → (⟨S50000x128, .f32⟩ : BufTy).Contents (Elt F)),
    StableHlo.nullary main_cst_47 (constant S_ .f32 0x3F46E010#32),
    StableHlo.unary main_cst_47 main_v204 (broadcastInDim S50000x128 ![] bcast_S_S50000x128 : (⟨S_, .f32⟩ : BufTy).Contents (Elt F) → (⟨S50000x128, .f32⟩ : BufTy).Contents (Elt F)),
    StableHlo.binary main_v204 main_v203 main_v205 (mulf : (⟨S50000x128, .f32⟩ : BufTy).Contents (Elt F) → (⟨S50000x128, .f32⟩ : BufTy).Contents (Elt F) → (⟨S50000x128, .f32⟩ : BufTy).Contents (Elt F)),
    StableHlo.unary main_arg4 main_v206 ((extractStridedSlice S1x128x128 ![3, 0, 0] · slices_S8x128x128_S1x128x128_3_0_0) : (⟨S8x128x128, .f32⟩ : BufTy).Contents (Elt F) → (⟨S1x128x128, .f32⟩ : BufTy).Contents (Elt F)),
    StableHlo.reshape main_v206 main_v207 rfl shapeCasts_S1x128x128_S128x128,
    StableHlo.binary main_v203 main_v207 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_48 (constant S_ .f32 0x3E647FBE#32),
    StableHlo.unary main_cst_48 main_v209 (broadcastInDim S50000x128 ![] bcast_S_S50000x128 : (⟨S_, .f32⟩ : BufTy).Contents (Elt F) → (⟨S50000x128, .f32⟩ : BufTy).Contents (Elt F)),
    StableHlo.binary main_v209 main_v208 main_v210 (mulf : (⟨S50000x128, .f32⟩ : BufTy).Contents (Elt F) → (⟨S50000x128, .f32⟩ : BufTy).Contents (Elt F) → (⟨S50000x128, .f32⟩ : BufTy).Contents (Elt F)),
    StableHlo.binary main_v205 main_v210 main_v211 (addf : (⟨S50000x128, .f32⟩ : BufTy).Contents (Elt F) → (⟨S50000x128, .f32⟩ : BufTy).Contents (Elt F) → (⟨S50000x128, .f32⟩ : BufTy).Contents (Elt F)),
    StableHlo.nullary main_cst_49 (constant S_ .f32 0x3F46E010#32),
    StableHlo.unary main_cst_49 main_v212 (broadcastInDim S50000x128 ![] bcast_S_S50000x128 : (⟨S_, .f32⟩ : BufTy).Contents (Elt F) → (⟨S50000x128, .f32⟩ : BufTy).Contents (Elt F)),
    StableHlo.binary main_v212 main_v35 main_v213 (mulf : (⟨S50000x128, .f32⟩ : BufTy).Contents (Elt F) → (⟨S50000x128, .f32⟩ : BufTy).Contents (Elt F) → (⟨S50000x128, .f32⟩ : BufTy).Contents (Elt F)),
    StableHlo.binary main_v211 main_v213 main_v214 (addf : (⟨S50000x128, .f32⟩ : BufTy).Contents (Elt F) → (⟨S50000x128, .f32⟩ : BufTy).Contents (Elt F) → (⟨S50000x128, .f32⟩ : BufTy).Contents (Elt F)),
    StableHlo.unary main_arg5 main_v215 ((extractStridedSlice S1x128x128 ![3, 0, 0] · slices_S8x128x128_S1x128x128_3_0_0) : (⟨S8x128x128, .f32⟩ : BufTy).Contents (Elt F) → (⟨S1x128x128, .f32⟩ : BufTy).Contents (Elt F)),
    StableHlo.reshape main_v215 main_v216 rfl shapeCasts_S1x128x128_S128x128,
    StableHlo.binary main_v35 main_v216 main_v217 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_50 (constant S_ .f32 0x3E647FBE#32),
    StableHlo.unary main_cst_50 main_v218 (broadcastInDim S50000x128 ![] bcast_S_S50000x128 : (⟨S_, .f32⟩ : BufTy).Contents (Elt F) → (⟨S50000x128, .f32⟩ : BufTy).Contents (Elt F)),
    StableHlo.binary main_v218 main_v217 main_v219 (mulf : (⟨S50000x128, .f32⟩ : BufTy).Contents (Elt F) → (⟨S50000x128, .f32⟩ : BufTy).Contents (Elt F) → (⟨S50000x128, .f32⟩ : BufTy).Contents (Elt F)),
    StableHlo.binary main_v214 main_v219 main_v220 (addf : (⟨S50000x128, .f32⟩ : BufTy).Contents (Elt F) → (⟨S50000x128, .f32⟩ : BufTy).Contents (Elt F) → (⟨S50000x128, .f32⟩ : BufTy).Contents (Elt F)),
    StableHlo.unary main_arg6 main_v221 ((extractStridedSlice S1x128 ![3, 0] · slices_S8x128_S1x128_3_0) : (⟨S8x128, .f32⟩ : BufTy).Contents (Elt F) → (⟨S1x128, .f32⟩ : BufTy).Contents (Elt F)),
    StableHlo.reshape main_v221 main_v222 rfl shapeCasts_S1x128_S128,
    StableHlo.unary main_arg7 main_v223 ((extractStridedSlice S1x128 ![3, 0] · slices_S8x128_S1x128_3_0) : (⟨S8x128, .f32⟩ : BufTy).Contents (Elt F) → (⟨S1x128, .f32⟩ : BufTy).Contents (Elt F)),
    StableHlo.reshape main_v223 main_v224 rfl shapeCasts_S1x128_S128,
    StableHlo.nullary main_cst_51 (constant S_ .f32 0x00000000#32),
    StableHlo.binary main_v220 main_cst_51 main_v225 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_52 (constant S_ .f32 0x4AC35000#32),
    StableHlo.binary main_v225 main_cst_52 main_v226 (Host.divf : (⟨S_, .f32⟩ : BufTy).Contents (Elt F) → (⟨S_, .f32⟩ : BufTy).Contents (Elt F) → (⟨S_, .f32⟩ : BufTy).Contents (Elt F)),
    StableHlo.unary main_v226 main_v227 (broadcastInDim S50000x128 ![] bcast_S_S50000x128 : (⟨S_, .f32⟩ : BufTy).Contents (Elt F) → (⟨S50000x128, .f32⟩ : BufTy).Contents (Elt F)),
    StableHlo.binary main_v220 main_v227 main_v228 (subf : (⟨S50000x128, .f32⟩ : BufTy).Contents (Elt F) → (⟨S50000x128, .f32⟩ : BufTy).Contents (Elt F) → (⟨S50000x128, .f32⟩ : BufTy).Contents (Elt F)),
    StableHlo.nullary main_c_53 (constantI S_ 32 0#32),
    StableHlo.TRef.nullary main_call7.call0.cst (constant S_ .f32 0x00000000#32),
    StableHlo.TRef.binary (.of main_v228 : StableHlo.TRef sig ⟨S50000x128, .f32⟩) main_call7.call0.cst main_call7.call0.v0 (fun x v => Host.reduceAdd x v reducesTo_S50000x128_S_d0_1 h_S_),
    StableHlo.TRef.unary main_call7.call0.v0 main_call7.call0.v1 (broadcastInDim S1x1 ![] bcast_S_S1x1),
    StableHlo.TRef.nullary main_call7.call0.cst_0 (constant S_ .f32 0x4AC35000#32),
    StableHlo.TRef.unary main_call7.call0.cst_0 main_call7.call0.v2 (broadcastInDim S1x1 ![] bcast_S_S1x1),
    StableHlo.TRef.binary main_call7.call0.v1 main_call7.call0.v2 main_call7.call0.v3 Host.divf,
    StableHlo.TRef.unary main_call7.call0.v3 main_call7.call0.v4 (broadcastInDim S50000x128 ![0, 1] bcast_S1x1_S50000x128_0_1),
    StableHlo.TRef.binary (.of main_v228 : StableHlo.TRef sig ⟨S50000x128, .f32⟩) main_call7.call0.v4 main_call7.call0.v5 subf,
    StableHlo.TRef.binary main_call7.call0.v5 main_call7.call0.v5 main_call7.call0.v6 mulf,
    StableHlo.TRef.unary (.of main_c_53 : StableHlo.TRef sig ⟨S_, .i32⟩) main_call7.call0.v7 (sitofp .f32),
    StableHlo.TRef.nullary main_call7.call0.cst_1 (constant S_ .f32 0x4AC35000#32),
    StableHlo.TRef.binary main_call7.call0.cst_1 main_call7.call0.v7 main_call7.call0.v8 subf,
    StableHlo.TRef.nullary main_call7.call0.cst_2 (constant S_ .f32 0x00000000#32),
    StableHlo.TRef.binary main_call7.call0.v6 main_call7.call0.cst_2 main_call7.call0.v9 (fun x v => Host.reduceAdd x v reducesTo_S50000x128_S_d0_1 h_S_),
    StableHlo.TRef.binary main_call7.call0.v9 main_call7.call0.v8 main_call7.call0.v10 Host.divf,
    StableHlo.TRef.nullary main_call7.call0.cst_3 (constant S_ .f32 0x00000000#32),
    StableHlo.TRef.binary main_call7.call0.v8 main_call7.call0.cst_3 main_call7.call0.v11 (cmpf .ogt),
    StableHlo.TRef.nullary main_call7.call0.cst_4 (constant S_ .f32 0x7FC00000#32),
    StableHlo.TRef.unary main_call7.call0.cst_4 main_call7.call0.call0.v0 id,
    StableHlo.TRef.ternary main_call7.call0.v11 main_call7.call0.v10 main_call7.call0.call0.v0 main_call7.call0.call0.v1 select,
    StableHlo.TRef.unary main_call7.call0.call0.v1 main_call7.v1 Host.sqrt,
    StableHlo.nullary main_cst_54 (constant S_ .f32 0x3727C5AC#32),
    StableHlo.binary main_v229 main_cst_54 main_v230 (addf : (⟨S_, .f32⟩ : BufTy).Contents (Elt F) → (⟨S_, .f32⟩ : BufTy).Contents (Elt F) → (⟨S_, .f32⟩ : BufTy).Contents (Elt F)),
    StableHlo.unary main_v230 main_v231 (broadcastInDim S50000x128 ![] bcast_S_S50000x128 : (⟨S_, .f32⟩ : BufTy).Contents (Elt F) → (⟨S50000x128, .f32⟩ : BufTy).Contents (Elt F)),
    StableHlo.binary main_v228 main_v231 main_v232 (Host.divf : (⟨S50000x128, .f32⟩ : BufTy).Contents (Elt F) → (⟨S50000x128, .f32⟩ : BufTy).Contents (Elt F) → (⟨S50000x128, .f32⟩ : BufTy).Contents (Elt F)),
    StableHlo.unary main_v222 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S50000x128 ![0, 1] bcast_S1x128_S50000x128_0_1 : (⟨S1x128, .f32⟩ : BufTy).Contents (Elt F) → (⟨S50000x128, .f32⟩ : BufTy).Contents (Elt F)),
    StableHlo.binary main_v232 main_v234 main_v235 (mulf : (⟨S50000x128, .f32⟩ : BufTy).Contents (Elt F) → (⟨S50000x128, .f32⟩ : BufTy).Contents (Elt F) → (⟨S50000x128, .f32⟩ : BufTy).Contents (Elt F)),
    StableHlo.unary main_v224 main_v236 (broadcastInDim S1x128 ![1] bcast_S128_S1x128_1 : (⟨S128, .f32⟩ : BufTy).Contents (Elt F) → (⟨S1x128, .f32⟩ : BufTy).Contents (Elt F)),
    StableHlo.unary main_v236 main_v237 (broadcastInDim S50000x128 ![0, 1] bcast_S1x128_S50000x128_0_1 : (⟨S1x128, .f32⟩ : BufTy).Contents (Elt F) → (⟨S50000x128, .f32⟩ : BufTy).Contents (Elt F)),
    StableHlo.binary main_v235 main_v237 main_v238 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v238 : StableHlo.TRef sig ⟨S50000x128, .f32⟩) main_call8.v0 main_call8.v1 maximumf ]

/-- Every buffer these operations touch is a TensorCore reference. -/
theorem opsL3b_sub : (opsL3b : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Each of these operations determines the contents it writes. -/
theorem opsL3b_fresh : ∀ op ∈ (opsL3b : List (HloOp τ sig (Elt F))), op.fresh = ∅ := by
  intro _ h
  repeat (cases h with | head => rfl | tail _ h => ?_)
  exact nomatch h

end Cert.Hand.RefRun

end
-- ==== Proof.RefOpsL4a.lean ====
/- The reference program's @main, statements 298 … 300 of its 553 (in its window `main_part4`), as a list of
   operations in order: each statement's own operation, and for a call of a module-local function the function's
   operations over the call's operands and buffer record (3 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 298 … 300 of @main: 3 operations, in order. -/
abbrev opsL4a : List (HloOp τ sig (Elt F)) :=
  [
    StableHlo.unary main_v29 main_v240 (broadcastInDim S550000x1 ![0] bcast_S550000_S550000x1_0 : (⟨S550000, .f32⟩ : BufTy).Contents (Elt F) → (⟨S550000x1, .f32⟩ : BufTy).Contents (Elt F)),
    StableHlo.nullary main_c_55 (constantI S_ 32 0#32),
    StableHlo.unary main_c_55 main_v241 (broadcastInDim S550000 ![] bcast_S_S550000 : (⟨S_, .i32⟩ : BufTy).Contents (Elt F) → (⟨S550000, .i32⟩ : BufTy).Contents (Elt F)) ]

/-- Every buffer these operations touch is a TensorCore reference. -/
theorem opsL4a_sub : (opsL4a : List (HloOp τ sig (Elt F))).Forall fun op => op.bufs ⊆ tcRefs τ sig :=
  ⟨unary_bufs_sub .., nullary_bufs_sub .., unary_bufs_sub ..⟩

/-- Each of these operations determines the contents it writes. -/
theorem opsL4a_fresh : ∀ op ∈ (opsL4a : List (HloOp τ sig (Elt F))), op.fresh = ∅ := by
  intro _ h
  repeat (cases h with | head => rfl | tail _ h => ?_)
  exact nomatch h

end Cert.Hand.RefRun

end
-- ==== Proof.RefOpsL4b.lean ====
/- The reference program's @main, statements 301 … 360 of its 553 (in its window `main_part5`), as a list of
   operations in order: each statement's own operation, and for a call of a module-local function the function's
   operations over the call's operands and buffer record (82 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 301 … 360 of @main: 82 operations, in order. -/
abbrev opsL4b : List (HloOp τ sig (Elt F)) :=
  [
    StableHlo.binary main_v5 main_v241 main_v242 (cmpi .slt : (⟨S550000, .i32⟩ : BufTy).Contents (Elt F) → (⟨S550000, .i32⟩ : BufTy).Contents (Elt F) → (⟨S550000, .i1⟩ : BufTy).Contents (Elt F)),
    StableHlo.nullary main_c_56 (constantI S_ 32 50000#32),
    StableHlo.unary main_c_56 main_v243 (broadcastInDim S550000 ![] bcast_S_S550000 : (⟨S_, .i32⟩ : BufTy).Contents (Elt F) → (⟨S550000, .i32⟩ : BufTy).Contents (Elt F)),
    StableHlo.binary main_v5 main_v243 main_v244 (addi : (⟨S550000, .i32⟩ : BufTy).Contents (Elt F) → (⟨S550000, .i32⟩ : BufTy).Contents (Elt F) → (⟨S550000, .i32⟩ : BufTy).Contents (Elt F)),
    StableHlo.ternary main_v242 main_v244 main_v5 main_v245 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v245 main_v246 (broadcastInDim S550000x1 ![0] bcast_S550000_S550000x1_0 : (⟨S550000, .i32⟩ : BufTy).Contents (Elt F) → (⟨S550000x1, .i32⟩ : BufTy).Contents (Elt F)),
    StableHlo.binary main_v239 main_v246 main_v247 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v240 main_v248 (broadcastInDim S550000x128 ![0, 1] bcast_S550000x1_S550000x128_0_1 : (⟨S550000x1, .f32⟩ : BufTy).Contents (Elt F) → (⟨S550000x128, .f32⟩ : BufTy).Contents (Elt F)),
    StableHlo.binary main_v248 main_v247 main_v249 (mulf : (⟨S550000x128, .f32⟩ : BufTy).Contents (Elt F) → (⟨S550000x128, .f32⟩ : BufTy).Contents (Elt F) → (⟨S550000x128, .f32⟩ : BufTy).Contents (Elt F)),
    StableHlo.nullary main_cst_57 (constant S_ .f32 0x00000000#32),
    StableHlo.unary main_cst_57 main_v250 (broadcastInDim S50000x128 ![] bcast_S_S50000x128 : (⟨S_, .f32⟩ : BufTy).Contents (Elt F) → (⟨S50000x128, .f32⟩ : BufTy).Contents (Elt F)),
    StableHlo.unary main_v6 main_v251 (broadcastInDim S550000x1 ![0] bcast_S550000_S550000x1_0 : (⟨S550000, .i32⟩ : BufTy).Contents (Elt F) → (⟨S550000x1, .i32⟩ : BufTy).Contents (Elt F)),
    StableHlo.ternary main_v250 main_v251 main_v249 main_v252 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_58 (constant S_ .f32 0x3F000000#32),
    StableHlo.unary main_cst_58 main_v253 (broadcastInDim S50000x128 ![] bcast_S_S50000x128 : (⟨S_, .f32⟩ : BufTy).Contents (Elt F) → (⟨S50000x128, .f32⟩ : BufTy).Contents (Elt F)),
    StableHlo.binary main_v252 main_v253 main_v254 (mulf : (⟨S50000x128, .f32⟩ : BufTy).Contents (Elt F) → (⟨S50000x128, .f32⟩ : BufTy).Contents (Elt F) → (⟨S50000x128, .f32⟩ : BufTy).Contents (Elt F)),
    StableHlo.nullary main_cst_59 (constant S_ .f32 0x3F515360#32),
    StableHlo.unary main_cst_59 main_v255 (broadcastInDim S50000x128 ![] bcast_S_S50000x128 : (⟨S_, .f32⟩ : BufTy).Contents (Elt F) → (⟨S50000x128, .f32⟩ : BufTy).Contents (Elt F)),
    StableHlo.binary main_v255 main_v254 main_v256 (mulf : (⟨S50000x128, .f32⟩ : BufTy).Contents (Elt F) → (⟨S50000x128, .f32⟩ : BufTy).Contents (Elt F) → (⟨S50000x128, .f32⟩ : BufTy).Contents (Elt F)),
    StableHlo.unary main_arg4 main_v257 ((extractStridedSlice S1x128x128 ![4, 0, 0] · slices_S8x128x128_S1x128x128_4_0_0) : (⟨S8x128x128, .f32⟩ : BufTy).Contents (Elt F) → (⟨S1x128x128, .f32⟩ : BufTy).Contents (Elt F)),
    StableHlo.reshape main_v257 main_v258 rfl shapeCasts_S1x128x128_S128x128,
    StableHlo.binary main_v254 main_v258 main_v259 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_60 (constant S_ .f32 0x3E3AB281#32),
    StableHlo.unary main_cst_60 main_v260 (broadcastInDim S50000x128 ![] bcast_S_S50000x128 : (⟨S_, .f32⟩ : BufTy).Contents (Elt F) → (⟨S50000x128, .f32⟩ : BufTy).Contents (Elt F)),
    StableHlo.binary main_v260 main_v259 main_v261 (mulf : (⟨S50000x128, .f32⟩ : BufTy).Contents (Elt F) → (⟨S50000x128, .f32⟩ : BufTy).Contents (Elt F) → (⟨S50000x128, .f32⟩ : BufTy).Contents (Elt F)),
    StableHlo.binary main_v256 main_v261 main_v262 (addf : (⟨S50000x128, .f32⟩ : BufTy).Contents (Elt F) → (⟨S50000x128, .f32⟩ : BufTy).Contents (Elt F) → (⟨S50000x128, .f32⟩ : BufTy).Contents (Elt F)),
    StableHlo.nullary main_cst_61 (constant S_ .f32 0x3F515360#32),
    StableHlo.unary main_cst_61 main_v263 (broadcastInDim S50000x128 ![] bcast_S_S50000x128 : (⟨S_, .f32⟩ : BufTy).Contents (Elt F) → (⟨S50000x128, .f32⟩ : BufTy).Contents (Elt F)),
    StableHlo.binary main_v263 main_v35 main_v264 (mulf : (⟨S50000x128, .f32⟩ : BufTy).Contents (Elt F) → (⟨S50000x128, .f32⟩ : BufTy).Contents (Elt F) → (⟨S50000x128, .f32⟩ : BufTy).Contents (Elt F)),
    StableHlo.binary main_v262 main_v264 main_v265 (addf : (⟨S50000x128, .f32⟩ : BufTy).Contents (Elt F) → (⟨S50000x128, .f32⟩ : BufTy).Contents (Elt F) → (⟨S50000x128, .f32⟩ : BufTy).Contents (Elt F)),
    StableHlo.unary main_arg5 main_v266 ((extractStridedSlice S1x128x128 ![4, 0, 0] · slices_S8x128x128_S1x128x128_4_0_0) : (⟨S8x128x128, .f32⟩ : BufTy).Contents (Elt F) → (⟨S1x128x128, .f32⟩ : BufTy).Contents (Elt F)),
    StableHlo.reshape main_v266 main_v267 rfl shapeCasts_S1x128x128_S128x128,
    StableHlo.binary main_v35 main_v267 main_v268 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_62 (constant S_ .f32 0x3E3AB281#32),
    StableHlo.unary main_cst_62 main_v269 (broadcastInDim S50000x128 ![] bcast_S_S50000x128 : (⟨S_, .f32⟩ : BufTy).Contents (Elt F) → (⟨S50000x128, .f32⟩ : BufTy).Contents (Elt F)),
    StableHlo.binary main_v269 main_v268 main_v270 (mulf : (⟨S50000x128, .f32⟩ : BufTy).Contents (Elt F) → (⟨S50000x128, .f32⟩ : BufTy).Contents (Elt F) → (⟨S50000x128, .f32⟩ : BufTy).Contents (Elt F)),
    StableHlo.binary main_v265 main_v270 main_v271 (addf : (⟨S50000x128, .f32⟩ : BufTy).Contents (Elt F) → (⟨S50000x128, .f32⟩ : BufTy).Contents (Elt F) → (⟨S50000x128, .f32⟩ : BufTy).Contents (Elt F)),
    StableHlo.unary main_arg6 main_v272 ((extractStridedSlice S1x128 ![4, 0] · slices_S8x128_S1x128_4_0) : (⟨S8x128, .f32⟩ : BufTy).Contents (Elt F) → (⟨S1x128, .f32⟩ : BufTy).Contents (Elt F)),
    StableHlo.reshape main_v272 main_v273 rfl shapeCasts_S1x128_S128,
    StableHlo.unary main_arg7 main_v274 ((extractStridedSlice S1x128 ![4, 0] · slices_S8x128_S1x128_4_0) : (⟨S8x128, .f32⟩ : BufTy).Contents (Elt F) → (⟨S1x128, .f32⟩ : BufTy).Contents (Elt F)),
    StableHlo.reshape main_v274 main_v275 rfl shapeCasts_S1x128_S128,
    StableHlo.nullary main_cst_63 (constant S_ .f32 0x00000000#32),
    StableHlo.binary main_v271 main_cst_63 main_v276 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_64 (constant S_ .f32 0x4AC35000#32),
    StableHlo.binary main_v276 main_cst_64 main_v277 (Host.divf : (⟨S_, .f32⟩ : BufTy).Contents (Elt F) → (⟨S_, .f32⟩ : BufTy).Contents (Elt F) → (⟨S_, .f32⟩ : BufTy).Contents (Elt F)),
    StableHlo.unary main_v277 main_v278 (broadcastInDim S50000x128 ![] bcast_S_S50000x128 : (⟨S_, .f32⟩ : BufTy).Contents (Elt F) → (⟨S50000x128, .f32⟩ : BufTy).Contents (Elt F)),
    StableHlo.binary main_v271 main_v278 main_v279 (subf : (⟨S50000x128, .f32⟩ : BufTy).Contents (Elt F) → (⟨S50000x128, .f32⟩ : BufTy).Contents (Elt F) → (⟨S50000x128, .f32⟩ : BufTy).Contents (Elt F)),
    StableHlo.nullary main_c_65 (constantI S_ 32 0#32),
    StableHlo.TRef.nullary main_call9.call0.cst (constant S_ .f32 0x00000000#32),
    StableHlo.TRef.binary (.of main_v279 : StableHlo.TRef sig ⟨S50000x128, .f32⟩) main_call9.call0.cst main_call9.call0.v0 (fun x v => Host.reduceAdd x v reducesTo_S50000x128_S_d0_1 h_S_),
    StableHlo.TRef.unary main_call9.call0.v0 main_call9.call0.v1 (broadcastInDim S1x1 ![] bcast_S_S1x1),
    StableHlo.TRef.nullary main_call9.call0.cst_0 (constant S_ .f32 0x4AC35000#32),
    StableHlo.TRef.unary main_call9.call0.cst_0 main_call9.call0.v2 (broadcastInDim S1x1 ![] bcast_S_S1x1),
    StableHlo.TRef.binary main_call9.call0.v1 main_call9.call0.v2 main_call9.call0.v3 Host.divf,
    StableHlo.TRef.unary main_call9.call0.v3 main_call9.call0.v4 (broadcastInDim S50000x128 ![0, 1] bcast_S1x1_S50000x128_0_1),
    StableHlo.TRef.binary (.of main_v279 : StableHlo.TRef sig ⟨S50000x128, .f32⟩) main_call9.call0.v4 main_call9.call0.v5 subf,
    StableHlo.TRef.binary main_call9.call0.v5 main_call9.call0.v5 main_call9.call0.v6 mulf,
    StableHlo.TRef.unary (.of main_c_65 : StableHlo.TRef sig ⟨S_, .i32⟩) main_call9.call0.v7 (sitofp .f32),
    StableHlo.TRef.nullary main_call9.call0.cst_1 (constant S_ .f32 0x4AC35000#32),
    StableHlo.TRef.binary main_call9.call0.cst_1 main_call9.call0.v7 main_call9.call0.v8 subf,
    StableHlo.TRef.nullary main_call9.call0.cst_2 (constant S_ .f32 0x00000000#32),
    StableHlo.TRef.binary main_call9.call0.v6 main_call9.call0.cst_2 main_call9.call0.v9 (fun x v => Host.reduceAdd x v reducesTo_S50000x128_S_d0_1 h_S_),
    StableHlo.TRef.binary main_call9.call0.v9 main_call9.call0.v8 main_call9.call0.v10 Host.divf,
    StableHlo.TRef.nullary main_call9.call0.cst_3 (constant S_ .f32 0x00000000#32),
    StableHlo.TRef.binary main_call9.call0.v8 main_call9.call0.cst_3 main_call9.call0.v11 (cmpf .ogt),
    StableHlo.TRef.nullary main_call9.call0.cst_4 (constant S_ .f32 0x7FC00000#32),
    StableHlo.TRef.unary main_call9.call0.cst_4 main_call9.call0.call0.v0 id,
    StableHlo.TRef.ternary main_call9.call0.v11 main_call9.call0.v10 main_call9.call0.call0.v0 main_call9.call0.call0.v1 select,
    StableHlo.TRef.unary main_call9.call0.call0.v1 main_call9.v1 Host.sqrt,
    StableHlo.nullary main_cst_66 (constant S_ .f32 0x3727C5AC#32),
    StableHlo.binary main_v280 main_cst_66 main_v281 (addf : (⟨S_, .f32⟩ : BufTy).Contents (Elt F) → (⟨S_, .f32⟩ : BufTy).Contents (Elt F) → (⟨S_, .f32⟩ : BufTy).Contents (Elt F)),
    StableHlo.unary main_v281 main_v282 (broadcastInDim S50000x128 ![] bcast_S_S50000x128 : (⟨S_, .f32⟩ : BufTy).Contents (Elt F) → (⟨S50000x128, .f32⟩ : BufTy).Contents (Elt F)),
    StableHlo.binary main_v279 main_v282 main_v283 (Host.divf : (⟨S50000x128, .f32⟩ : BufTy).Contents (Elt F) → (⟨S50000x128, .f32⟩ : BufTy).Contents (Elt F) → (⟨S50000x128, .f32⟩ : BufTy).Contents (Elt F)),
    StableHlo.unary main_v273 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S50000x128 ![0, 1] bcast_S1x128_S50000x128_0_1 : (⟨S1x128, .f32⟩ : BufTy).Contents (Elt F) → (⟨S50000x128, .f32⟩ : BufTy).Contents (Elt F)),
    StableHlo.binary main_v283 main_v285 main_v286 (mulf : (⟨S50000x128, .f32⟩ : BufTy).Contents (Elt F) → (⟨S50000x128, .f32⟩ : BufTy).Contents (Elt F) → (⟨S50000x128, .f32⟩ : BufTy).Contents (Elt F)),
    StableHlo.unary main_v275 main_v287 (broadcastInDim S1x128 ![1] bcast_S128_S1x128_1 : (⟨S128, .f32⟩ : BufTy).Contents (Elt F) → (⟨S1x128, .f32⟩ : BufTy).Contents (Elt F)),
    StableHlo.unary main_v287 main_v288 (broadcastInDim S50000x128 ![0, 1] bcast_S1x128_S50000x128_0_1 : (⟨S1x128, .f32⟩ : BufTy).Contents (Elt F) → (⟨S50000x128, .f32⟩ : BufTy).Contents (Elt F)),
    StableHlo.binary main_v286 main_v288 main_v289 (addf : (⟨S50000x128, .f32⟩ : BufTy).Contents (Elt F) → (⟨S50000x128, .f32⟩ : BufTy).Contents (Elt F) → (⟨S50000x128, .f32⟩ : BufTy).Contents (Elt F)),
    StableHlo.TRef.nullary main_call10.cst (constant S_ .f32 0x00000000#32),
    StableHlo.TRef.unary main_call10.cst main_call10.v0 (broadcastInDim S50000x128 ![] bcast_S_S50000x128),
    StableHlo.TRef.binary (.of main_v289 : StableHlo.TRef sig ⟨S50000x128, .f32⟩) main_call10.v0 main_call10.v1 maximumf ]

/-- Every buffer these operations touch is a TensorCore reference. -/
theorem opsL4b_sub : (opsL4b : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Each of these operations determines the contents it writes. -/
theorem opsL4b_fresh : ∀ op ∈ (opsL4b : List (HloOp τ sig (Elt F))), op.fresh = ∅ := by
  intro _ h
  repeat (cases h with | head => rfl | tail _ h => ?_)
  exact nomatch h

end Cert.Hand.RefRun

end
-- ==== Proof.RefOpsL5a.lean ====
/- The reference program's @main, statements 361 … 420 of its 553 (in its window `main_part6`), as a list of
   operations in order: each statement's own operation, and for a call of a module-local function the function's
   operations over the call's operands and buffer record (80 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 361 … 420 of @main: 80 operations, in order. -/
abbrev opsL5a : List (HloOp τ sig (Elt F)) :=
  [
    StableHlo.unary main_v29 main_v291 (broadcastInDim S550000x1 ![0] bcast_S550000_S550000x1_0 : (⟨S550000, .f32⟩ : BufTy).Contents (Elt F) → (⟨S550000x1, .f32⟩ : BufTy).Contents (Elt F)),
    StableHlo.nullary main_c_67 (constantI S_ 32 0#32),
    StableHlo.unary main_c_67 main_v292 (broadcastInDim S550000 ![] bcast_S_S550000 : (⟨S_, .i32⟩ : BufTy).Contents (Elt F) → (⟨S550000, .i32⟩ : BufTy).Contents (Elt F)),
    StableHlo.binary main_v5 main_v292 main_v293 (cmpi .slt : (⟨S550000, .i32⟩ : BufTy).Contents (Elt F) → (⟨S550000, .i32⟩ : BufTy).Contents (Elt F) → (⟨S550000, .i1⟩ : BufTy).Contents (Elt F)),
    StableHlo.nullary main_c_68 (constantI S_ 32 50000#32),
    StableHlo.unary main_c_68 main_v294 (broadcastInDim S550000 ![] bcast_S_S550000 : (⟨S_, .i32⟩ : BufTy).Contents (Elt F) → (⟨S550000, .i32⟩ : BufTy).Contents (Elt F)),
    StableHlo.binary main_v5 main_v294 main_v295 (addi : (⟨S550000, .i32⟩ : BufTy).Contents (Elt F) → (⟨S550000, .i32⟩ : BufTy).Contents (Elt F) → (⟨S550000, .i32⟩ : BufTy).Contents (Elt F)),
    StableHlo.ternary main_v293 main_v295 main_v5 main_v296 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v296 main_v297 (broadcastInDim S550000x1 ![0] bcast_S550000_S550000x1_0 : (⟨S550000, .i32⟩ : BufTy).Contents (Elt F) → (⟨S550000x1, .i32⟩ : BufTy).Contents (Elt F)),
    StableHlo.binary main_v290 main_v297 main_v298 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v291 main_v299 (broadcastInDim S550000x128 ![0, 1] bcast_S550000x1_S550000x128_0_1 : (⟨S550000x1, .f32⟩ : BufTy).Contents (Elt F) → (⟨S550000x128, .f32⟩ : BufTy).Contents (Elt F)),
    StableHlo.binary main_v299 main_v298 main_v300 (mulf : (⟨S550000x128, .f32⟩ : BufTy).Contents (Elt F) → (⟨S550000x128, .f32⟩ : BufTy).Contents (Elt F) → (⟨S550000x128, .f32⟩ : BufTy).Contents (Elt F)),
    StableHlo.nullary main_cst_69 (constant S_ .f32 0x00000000#32),
    StableHlo.unary main_cst_69 main_v301 (broadcastInDim S50000x128 ![] bcast_S_S50000x128 : (⟨S_, .f32⟩ : BufTy).Contents (Elt F) → (⟨S50000x128, .f32⟩ : BufTy).Contents (Elt F)),
    StableHlo.unary main_v6 main_v302 (broadcastInDim S550000x1 ![0] bcast_S550000_S550000x1_0 : (⟨S550000, .i32⟩ : BufTy).Contents (Elt F) → (⟨S550000x1, .i32⟩ : BufTy).Contents (Elt F)),
    StableHlo.ternary main_v301 main_v302 main_v300 main_v303 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_70 (constant S_ .f32 0x3F000000#32),
    StableHlo.unary main_cst_70 main_v304 (broadcastInDim S50000x128 ![] bcast_S_S50000x128 : (⟨S_, .f32⟩ : BufTy).Contents (Elt F) → (⟨S50000x128, .f32⟩ : BufTy).Contents (Elt F)),
    StableHlo.binary main_v303 main_v304 main_v305 (mulf : (⟨S50000x128, .f32⟩ : BufTy).Contents (Elt F) → (⟨S50000x128, .f32⟩ : BufTy).Contents (Elt F) → (⟨S50000x128, .f32⟩ : BufTy).Contents (Elt F)),
    StableHlo.nullary main_cst_71 (constant S_ .f32 0x3F588995#32),
    StableHlo.unary main_cst_71 main_v306 (broadcastInDim S50000x128 ![] bcast_S_S50000x128 : (⟨S_, .f32⟩ : BufTy).Contents (Elt F) → (⟨S50000x128, .f32⟩ : BufTy).Contents (Elt F)),
    StableHlo.binary main_v306 main_v305 main_v307 (mulf : (⟨S50000x128, .f32⟩ : BufTy).Contents (Elt F) → (⟨S50000x128, .f32⟩ : BufTy).Contents (Elt F) → (⟨S50000x128, .f32⟩ : BufTy).Contents (Elt F)),
    StableHlo.unary main_arg4 main_v308 ((extractStridedSlice S1x128x128 ![5, 0, 0] · slices_S8x128x128_S1x128x128_5_0_0) : (⟨S8x128x128, .f32⟩ : BufTy).Contents (Elt F) → (⟨S1x128x128, .f32⟩ : BufTy).Contents (Elt F)),
    StableHlo.reshape main_v308 main_v309 rfl shapeCasts_S1x128x128_S128x128,
    StableHlo.binary main_v305 main_v309 main_v310 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_72 (constant S_ .f32 0x3E1DD9AD#32),
    StableHlo.unary main_cst_72 main_v311 (broadcastInDim S50000x128 ![] bcast_S_S50000x128 : (⟨S_, .f32⟩ : BufTy).Contents (Elt F) → (⟨S50000x128, .f32⟩ : BufTy).Contents (Elt F)),
    StableHlo.binary main_v311 main_v310 main_v312 (mulf : (⟨S50000x128, .f32⟩ : BufTy).Contents (Elt F) → (⟨S50000x128, .f32⟩ : BufTy).Contents (Elt F) → (⟨S50000x128, .f32⟩ : BufTy).Contents (Elt F)),
    StableHlo.binary main_v307 main_v312 main_v313 (addf : (⟨S50000x128, .f32⟩ : BufTy).Contents (Elt F) → (⟨S50000x128, .f32⟩ : BufTy).Contents (Elt F) → (⟨S50000x128, .f32⟩ : BufTy).Contents (Elt F)),
    StableHlo.nullary main_cst_73 (constant S_ .f32 0x3F588995#32),
    StableHlo.unary main_cst_73 main_v314 (broadcastInDim S50000x128 ![] bcast_S_S50000x128 : (⟨S_, .f32⟩ : BufTy).Contents (Elt F) → (⟨S50000x128, .f32⟩ : BufTy).Contents (Elt F)),
    StableHlo.binary main_v314 main_v35 main_v315 (mulf : (⟨S50000x128, .f32⟩ : BufTy).Contents (Elt F) → (⟨S50000x128, .f32⟩ : BufTy).Contents (Elt F) → (⟨S50000x128, .f32⟩ : BufTy).Contents (Elt F)),
    StableHlo.binary main_v313 main_v315 main_v316 (addf : (⟨S50000x128, .f32⟩ : BufTy).Contents (Elt F) → (⟨S50000x128, .f32⟩ : BufTy).Contents (Elt F) → (⟨S50000x128, .f32⟩ : BufTy).Contents (Elt F)),
    StableHlo.unary main_arg5 main_v317 ((extractStridedSlice S1x128x128 ![5, 0, 0] · slices_S8x128x128_S1x128x128_5_0_0) : (⟨S8x128x128, .f32⟩ : BufTy).Contents (Elt F) → (⟨S1x128x128, .f32⟩ : BufTy).Contents (Elt F)),
    StableHlo.reshape main_v317 main_v318 rfl shapeCasts_S1x128x128_S128x128,
    StableHlo.binary main_v35 main_v318 main_v319 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_74 (constant S_ .f32 0x3E1DD9AD#32),
    StableHlo.unary main_cst_74 main_v320 (broadcastInDim S50000x128 ![] bcast_S_S50000x128 : (⟨S_, .f32⟩ : BufTy).Contents (Elt F) → (⟨S50000x128, .f32⟩ : BufTy).Contents (Elt F)),
    StableHlo.binary main_v320 main_v319 main_v321 (mulf : (⟨S50000x128, .f32⟩ : BufTy).Contents (Elt F) → (⟨S50000x128, .f32⟩ : BufTy).Contents (Elt F) → (⟨S50000x128, .f32⟩ : BufTy).Contents (Elt F)),
    StableHlo.binary main_v316 main_v321 main_v322 (addf : (⟨S50000x128, .f32⟩ : BufTy).Contents (Elt F) → (⟨S50000x128, .f32⟩ : BufTy).Contents (Elt F) → (⟨S50000x128, .f32⟩ : BufTy).Contents (Elt F)),
    StableHlo.unary main_arg6 main_v323 ((extractStridedSlice S1x128 ![5, 0] · slices_S8x128_S1x128_5_0) : (⟨S8x128, .f32⟩ : BufTy).Contents (Elt F) → (⟨S1x128, .f32⟩ : BufTy).Contents (Elt F)),
    StableHlo.reshape main_v323 main_v324 rfl shapeCasts_S1x128_S128,
    StableHlo.unary main_arg7 main_v325 ((extractStridedSlice S1x128 ![5, 0] · slices_S8x128_S1x128_5_0) : (⟨S8x128, .f32⟩ : BufTy).Contents (Elt F) → (⟨S1x128, .f32⟩ : BufTy).Contents (Elt F)),
    StableHlo.reshape main_v325 main_v326 rfl shapeCasts_S1x128_S128,
    StableHlo.nullary main_cst_75 (constant S_ .f32 0x00000000#32),
    StableHlo.binary main_v322 main_cst_75 main_v327 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_76 (constant S_ .f32 0x4AC35000#32),
    StableHlo.binary main_v327 main_cst_76 main_v328 (Host.divf : (⟨S_, .f32⟩ : BufTy).Contents (Elt F) → (⟨S_, .f32⟩ : BufTy).Contents (Elt F) → (⟨S_, .f32⟩ : BufTy).Contents (Elt F)),
    StableHlo.unary main_v328 main_v329 (broadcastInDim S50000x128 ![] bcast_S_S50000x128 : (⟨S_, .f32⟩ : BufTy).Contents (Elt F) → (⟨S50000x128, .f32⟩ : BufTy).Contents (Elt F)),
    StableHlo.binary main_v322 main_v329 main_v330 (subf : (⟨S50000x128, .f32⟩ : BufTy).Contents (Elt F) → (⟨S50000x128, .f32⟩ : BufTy).Contents (Elt F) → (⟨S50000x128, .f32⟩ : BufTy).Contents (Elt F)),
    StableHlo.nullary main_c_77 (constantI S_ 32 0#32),
    StableHlo.TRef.nullary main_call11.call0.cst (constant S_ .f32 0x00000000#32),
    StableHlo.TRef.binary (.of main_v330 : StableHlo.TRef sig ⟨S50000x128, .f32⟩) main_call11.call0.cst main_call11.call0.v0 (fun x v => Host.reduceAdd x v reducesTo_S50000x128_S_d0_1 h_S_),
    StableHlo.TRef.unary main_call11.call0.v0 main_call11.call0.v1 (broadcastInDim S1x1 ![] bcast_S_S1x1),
    StableHlo.TRef.nullary main_call11.call0.cst_0 (constant S_ .f32 0x4AC35000#32),
    StableHlo.TRef.unary main_call11.call0.cst_0 main_call11.call0.v2 (broadcastInDim S1x1 ![] bcast_S_S1x1),
    StableHlo.TRef.binary main_call11.call0.v1 main_call11.call0.v2 main_call11.call0.v3 Host.divf,
    StableHlo.TRef.unary main_call11.call0.v3 main_call11.call0.v4 (broadcastInDim S50000x128 ![0, 1] bcast_S1x1_S50000x128_0_1),
    StableHlo.TRef.binary (.of main_v330 : StableHlo.TRef sig ⟨S50000x128, .f32⟩) main_call11.call0.v4 main_call11.call0.v5 subf,
    StableHlo.TRef.binary main_call11.call0.v5 main_call11.call0.v5 main_call11.call0.v6 mulf,
    StableHlo.TRef.unary (.of main_c_77 : StableHlo.TRef sig ⟨S_, .i32⟩) main_call11.call0.v7 (sitofp .f32),
    StableHlo.TRef.nullary main_call11.call0.cst_1 (constant S_ .f32 0x4AC35000#32),
    StableHlo.TRef.binary main_call11.call0.cst_1 main_call11.call0.v7 main_call11.call0.v8 subf,
    StableHlo.TRef.nullary main_call11.call0.cst_2 (constant S_ .f32 0x00000000#32),
    StableHlo.TRef.binary main_call11.call0.v6 main_call11.call0.cst_2 main_call11.call0.v9 (fun x v => Host.reduceAdd x v reducesTo_S50000x128_S_d0_1 h_S_),
    StableHlo.TRef.binary main_call11.call0.v9 main_call11.call0.v8 main_call11.call0.v10 Host.divf,
    StableHlo.TRef.nullary main_call11.call0.cst_3 (constant S_ .f32 0x00000000#32),
    StableHlo.TRef.binary main_call11.call0.v8 main_call11.call0.cst_3 main_call11.call0.v11 (cmpf .ogt),
    StableHlo.TRef.nullary main_call11.call0.cst_4 (constant S_ .f32 0x7FC00000#32),
    StableHlo.TRef.unary main_call11.call0.cst_4 main_call11.call0.call0.v0 id,
    StableHlo.TRef.ternary main_call11.call0.v11 main_call11.call0.v10 main_call11.call0.call0.v0 main_call11.call0.call0.v1 select,
    StableHlo.TRef.unary main_call11.call0.call0.v1 main_call11.v1 Host.sqrt,
    StableHlo.nullary main_cst_78 (constant S_ .f32 0x3727C5AC#32),
    StableHlo.binary main_v331 main_cst_78 main_v332 (addf : (⟨S_, .f32⟩ : BufTy).Contents (Elt F) → (⟨S_, .f32⟩ : BufTy).Contents (Elt F) → (⟨S_, .f32⟩ : BufTy).Contents (Elt F)),
    StableHlo.unary main_v332 main_v333 (broadcastInDim S50000x128 ![] bcast_S_S50000x128 : (⟨S_, .f32⟩ : BufTy).Contents (Elt F) → (⟨S50000x128, .f32⟩ : BufTy).Contents (Elt F)),
    StableHlo.binary main_v330 main_v333 main_v334 (Host.divf : (⟨S50000x128, .f32⟩ : BufTy).Contents (Elt F) → (⟨S50000x128, .f32⟩ : BufTy).Contents (Elt F) → (⟨S50000x128, .f32⟩ : BufTy).Contents (Elt F)),
    StableHlo.unary main_v324 main_v335 (broadcastInDim S1x128 ![1] bcast_S128_S1x128_1 : (⟨S128, .f32⟩ : BufTy).Contents (Elt F) → (⟨S1x128, .f32⟩ : BufTy).Contents (Elt F)),
    StableHlo.unary main_v335 main_v336 (broadcastInDim S50000x128 ![0, 1] bcast_S1x128_S50000x128_0_1 : (⟨S1x128, .f32⟩ : BufTy).Contents (Elt F) → (⟨S50000x128, .f32⟩ : BufTy).Contents (Elt F)),
    StableHlo.binary main_v334 main_v336 main_v337 (mulf : (⟨S50000x128, .f32⟩ : BufTy).Contents (Elt F) → (⟨S50000x128, .f32⟩ : BufTy).Contents (Elt F) → (⟨S50000x128, .f32⟩ : BufTy).Contents (Elt F)),
    StableHlo.unary main_v326 main_v338 (broadcastInDim S1x128 ![1] bcast_S128_S1x128_1 : (⟨S128, .f32⟩ : BufTy).Contents (Elt F) → (⟨S1x128, .f32⟩ : BufTy).Contents (Elt F)) ]

/-- Every buffer these operations touch is a TensorCore reference. -/
theorem opsL5a_sub : (opsL5a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., binary_bufs_sub .., unary_bufs_sub ..⟩

/-- Each of these operations determines the contents it writes. -/
theorem opsL5a_fresh : ∀ op ∈ (opsL5a : List (HloOp τ sig (Elt F))), op.fresh = ∅ := by
  intro _ h
  repeat (cases h with | head => rfl | tail _ h => ?_)
  exact nomatch h

end Cert.Hand.RefRun

end
-- ==== Proof.RefOpsL5b.lean ====
/- The reference program's @main, statements 421 … 423 of its 553 (in its window `main_part7`), as a list of
   operations in order: each statement's own operation, and for a call of a module-local function the function's
   operations over the call's operands and buffer record (5 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 421 … 423 of @main: 5 operations, in order. -/
abbrev opsL5b : List (HloOp τ sig (Elt F)) :=
  [
    StableHlo.unary main_v338 main_v339 (broadcastInDim S50000x128 ![0, 1] bcast_S1x128_S50000x128_0_1 : (⟨S1x128, .f32⟩ : BufTy).Contents (Elt F) → (⟨S50000x128, .f32⟩ : BufTy).Contents (Elt F)),
    StableHlo.binary main_v337 main_v339 main_v340 (addf : (⟨S50000x128, .f32⟩ : BufTy).Contents (Elt F) → (⟨S50000x128, .f32⟩ : BufTy).Contents (Elt F) → (⟨S50000x128, .f32⟩ : BufTy).Contents (Elt F)),
    StableHlo.TRef.nullary main_call12.cst (constant S_ .f32 0x00000000#32),
    StableHlo.TRef.unary main_call12.cst main_call12.v0 (broadcastInDim S50000x128 ![] bcast_S_S50000x128),
    StableHlo.TRef.binary (.of main_v340 : StableHlo.TRef sig ⟨S50000x128, .f32⟩) main_call12.v0 main_call12.v1 maximumf ]

/-- Every buffer these operations touch is a TensorCore reference. -/
theorem opsL5b_sub : (opsL5b : List (HloOp τ sig (Elt F))).Forall fun op => op.bufs ⊆ tcRefs τ sig :=
  ⟨unary_bufs_sub .., binary_bufs_sub .., nullary_bufs_sub .., unary_bufs_sub .., binary_bufs_sub ..⟩

/-- Each of these operations determines the contents it writes. -/
theorem opsL5b_fresh : ∀ op ∈ (opsL5b : List (HloOp τ sig (Elt F))), op.fresh = ∅ := by
  intro _ h
  repeat (cases h with | head => rfl | tail _ h => ?_)
  exact nomatch h

end Cert.Hand.RefRun

end
-- ==== Proof.RefOpsL6a.lean ====
/- The reference program's @main, statements 424 … 480 of its 553 (in its window `main_part7`), as a list of
   operations in order: each statement's own operation, and for a call of a module-local function the function's
   operations over the call's operands and buffer record (77 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 424 … 480 of @main: 77 operations, in order. -/
abbrev opsL6a : List (HloOp τ sig (Elt F)) :=
  [
    StableHlo.unary main_v29 main_v342 (broadcastInDim S550000x1 ![0] bcast_S550000_S550000x1_0 : (⟨S550000, .f32⟩ : BufTy).Contents (Elt F) → (⟨S550000x1, .f32⟩ : BufTy).Contents (Elt F)),
    StableHlo.nullary main_c_79 (constantI S_ 32 0#32),
    StableHlo.unary main_c_79 main_v343 (broadcastInDim S550000 ![] bcast_S_S550000 : (⟨S_, .i32⟩ : BufTy).Contents (Elt F) → (⟨S550000, .i32⟩ : BufTy).Contents (Elt F)),
    StableHlo.binary main_v5 main_v343 main_v344 (cmpi .slt : (⟨S550000, .i32⟩ : BufTy).Contents (Elt F) → (⟨S550000, .i32⟩ : BufTy).Contents (Elt F) → (⟨S550000, .i1⟩ : BufTy).Contents (Elt F)),
    StableHlo.nullary main_c_80 (constantI S_ 32 50000#32),
    StableHlo.unary main_c_80 main_v345 (broadcastInDim S550000 ![] bcast_S_S550000 : (⟨S_, .i32⟩ : BufTy).Contents (Elt F) → (⟨S550000, .i32⟩ : BufTy).Contents (Elt F)),
    StableHlo.binary main_v5 main_v345 main_v346 (addi : (⟨S550000, .i32⟩ : BufTy).Contents (Elt F) → (⟨S550000, .i32⟩ : BufTy).Contents (Elt F) → (⟨S550000, .i32⟩ : BufTy).Contents (Elt F)),
    StableHlo.ternary main_v344 main_v346 main_v5 main_v347 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v347 main_v348 (broadcastInDim S550000x1 ![0] bcast_S550000_S550000x1_0 : (⟨S550000, .i32⟩ : BufTy).Contents (Elt F) → (⟨S550000x1, .i32⟩ : BufTy).Contents (Elt F)),
    StableHlo.binary main_v341 main_v348 main_v349 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v342 main_v350 (broadcastInDim S550000x128 ![0, 1] bcast_S550000x1_S550000x128_0_1 : (⟨S550000x1, .f32⟩ : BufTy).Contents (Elt F) → (⟨S550000x128, .f32⟩ : BufTy).Contents (Elt F)),
    StableHlo.binary main_v350 main_v349 main_v351 (mulf : (⟨S550000x128, .f32⟩ : BufTy).Contents (Elt F) → (⟨S550000x128, .f32⟩ : BufTy).Contents (Elt F) → (⟨S550000x128, .f32⟩ : BufTy).Contents (Elt F)),
    StableHlo.nullary main_cst_81 (constant S_ .f32 0x00000000#32),
    StableHlo.unary main_cst_81 main_v352 (broadcastInDim S50000x128 ![] bcast_S_S50000x128 : (⟨S_, .f32⟩ : BufTy).Contents (Elt F) → (⟨S50000x128, .f32⟩ : BufTy).Contents (Elt F)),
    StableHlo.unary main_v6 main_v353 (broadcastInDim S550000x1 ![0] bcast_S550000_S550000x1_0 : (⟨S550000, .i32⟩ : BufTy).Contents (Elt F) → (⟨S550000x1, .i32⟩ : BufTy).Contents (Elt F)),
    StableHlo.ternary main_v352 main_v353 main_v351 main_v354 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_82 (constant S_ .f32 0x3F000000#32),
    StableHlo.unary main_cst_82 main_v355 (broadcastInDim S50000x128 ![] bcast_S_S50000x128 : (⟨S_, .f32⟩ : BufTy).Contents (Elt F) → (⟨S50000x128, .f32⟩ : BufTy).Contents (Elt F)),
    StableHlo.binary main_v354 main_v355 main_v356 (mulf : (⟨S50000x128, .f32⟩ : BufTy).Contents (Elt F) → (⟨S50000x128, .f32⟩ : BufTy).Contents (Elt F) → (⟨S50000x128, .f32⟩ : BufTy).Contents (Elt F)),
    StableHlo.nullary main_cst_83 (constant S_ .f32 0x3F5DD0E3#32),
    StableHlo.unary main_cst_83 main_v357 (broadcastInDim S50000x128 ![] bcast_S_S50000x128 : (⟨S_, .f32⟩ : BufTy).Contents (Elt F) → (⟨S50000x128, .f32⟩ : BufTy).Contents (Elt F)),
    StableHlo.binary main_v357 main_v356 main_v358 (mulf : (⟨S50000x128, .f32⟩ : BufTy).Contents (Elt F) → (⟨S50000x128, .f32⟩ : BufTy).Contents (Elt F) → (⟨S50000x128, .f32⟩ : BufTy).Contents (Elt F)),
    StableHlo.unary main_arg4 main_v359 ((extractStridedSlice S1x128x128 ![6, 0, 0] · slices_S8x128x128_S1x128x128_6_0_0) : (⟨S8x128x128, .f32⟩ : BufTy).Contents (Elt F) → (⟨S1x128x128, .f32⟩ : BufTy).Contents (Elt F)),
    StableHlo.reshape main_v359 main_v360 rfl shapeCasts_S1x128x128_S128x128,
    StableHlo.binary main_v356 main_v360 main_v361 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_84 (constant S_ .f32 0x3E08BC74#32),
    StableHlo.unary main_cst_84 main_v362 (broadcastInDim S50000x128 ![] bcast_S_S50000x128 : (⟨S_, .f32⟩ : BufTy).Contents (Elt F) → (⟨S50000x128, .f32⟩ : BufTy).Contents (Elt F)),
    StableHlo.binary main_v362 main_v361 main_v363 (mulf : (⟨S50000x128, .f32⟩ : BufTy).Contents (Elt F) → (⟨S50000x128, .f32⟩ : BufTy).Contents (Elt F) → (⟨S50000x128, .f32⟩ : BufTy).Contents (Elt F)),
    StableHlo.binary main_v358 main_v363 main_v364 (addf : (⟨S50000x128, .f32⟩ : BufTy).Contents (Elt F) → (⟨S50000x128, .f32⟩ : BufTy).Contents (Elt F) → (⟨S50000x128, .f32⟩ : BufTy).Contents (Elt F)),
    StableHlo.nullary main_cst_85 (constant S_ .f32 0x3F5DD0E3#32),
    StableHlo.unary main_cst_85 main_v365 (broadcastInDim S50000x128 ![] bcast_S_S50000x128 : (⟨S_, .f32⟩ : BufTy).Contents (Elt F) → (⟨S50000x128, .f32⟩ : BufTy).Contents (Elt F)),
    StableHlo.binary main_v365 main_v35 main_v366 (mulf : (⟨S50000x128, .f32⟩ : BufTy).Contents (Elt F) → (⟨S50000x128, .f32⟩ : BufTy).Contents (Elt F) → (⟨S50000x128, .f32⟩ : BufTy).Contents (Elt F)),
    StableHlo.binary main_v364 main_v366 main_v367 (addf : (⟨S50000x128, .f32⟩ : BufTy).Contents (Elt F) → (⟨S50000x128, .f32⟩ : BufTy).Contents (Elt F) → (⟨S50000x128, .f32⟩ : BufTy).Contents (Elt F)),
    StableHlo.unary main_arg5 main_v368 ((extractStridedSlice S1x128x128 ![6, 0, 0] · slices_S8x128x128_S1x128x128_6_0_0) : (⟨S8x128x128, .f32⟩ : BufTy).Contents (Elt F) → (⟨S1x128x128, .f32⟩ : BufTy).Contents (Elt F)),
    StableHlo.reshape main_v368 main_v369 rfl shapeCasts_S1x128x128_S128x128,
    StableHlo.binary main_v35 main_v369 main_v370 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_86 (constant S_ .f32 0x3E08BC74#32),
    StableHlo.unary main_cst_86 main_v371 (broadcastInDim S50000x128 ![] bcast_S_S50000x128 : (⟨S_, .f32⟩ : BufTy).Contents (Elt F) → (⟨S50000x128, .f32⟩ : BufTy).Contents (Elt F)),
    StableHlo.binary main_v371 main_v370 main_v372 (mulf : (⟨S50000x128, .f32⟩ : BufTy).Contents (Elt F) → (⟨S50000x128, .f32⟩ : BufTy).Contents (Elt F) → (⟨S50000x128, .f32⟩ : BufTy).Contents (Elt F)),
    StableHlo.binary main_v367 main_v372 main_v373 (addf : (⟨S50000x128, .f32⟩ : BufTy).Contents (Elt F) → (⟨S50000x128, .f32⟩ : BufTy).Contents (Elt F) → (⟨S50000x128, .f32⟩ : BufTy).Contents (Elt F)),
    StableHlo.unary main_arg6 main_v374 ((extractStridedSlice S1x128 ![6, 0] · slices_S8x128_S1x128_6_0) : (⟨S8x128, .f32⟩ : BufTy).Contents (Elt F) → (⟨S1x128, .f32⟩ : BufTy).Contents (Elt F)),
    StableHlo.reshape main_v374 main_v375 rfl shapeCasts_S1x128_S128,
    StableHlo.unary main_arg7 main_v376 ((extractStridedSlice S1x128 ![6, 0] · slices_S8x128_S1x128_6_0) : (⟨S8x128, .f32⟩ : BufTy).Contents (Elt F) → (⟨S1x128, .f32⟩ : BufTy).Contents (Elt F)),
    StableHlo.reshape main_v376 main_v377 rfl shapeCasts_S1x128_S128,
    StableHlo.nullary main_cst_87 (constant S_ .f32 0x00000000#32),
    StableHlo.binary main_v373 main_cst_87 main_v378 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_88 (constant S_ .f32 0x4AC35000#32),
    StableHlo.binary main_v378 main_cst_88 main_v379 (Host.divf : (⟨S_, .f32⟩ : BufTy).Contents (Elt F) → (⟨S_, .f32⟩ : BufTy).Contents (Elt F) → (⟨S_, .f32⟩ : BufTy).Contents (Elt F)),
    StableHlo.unary main_v379 main_v380 (broadcastInDim S50000x128 ![] bcast_S_S50000x128 : (⟨S_, .f32⟩ : BufTy).Contents (Elt F) → (⟨S50000x128, .f32⟩ : BufTy).Contents (Elt F)),
    StableHlo.binary main_v373 main_v380 main_v381 (subf : (⟨S50000x128, .f32⟩ : BufTy).Contents (Elt F) → (⟨S50000x128, .f32⟩ : BufTy).Contents (Elt F) → (⟨S50000x128, .f32⟩ : BufTy).Contents (Elt F)),
    StableHlo.nullary main_c_89 (constantI S_ 32 0#32),
    StableHlo.TRef.nullary main_call13.call0.cst (constant S_ .f32 0x00000000#32),
    StableHlo.TRef.binary (.of main_v381 : StableHlo.TRef sig ⟨S50000x128, .f32⟩) main_call13.call0.cst main_call13.call0.v0 (fun x v => Host.reduceAdd x v reducesTo_S50000x128_S_d0_1 h_S_),
    StableHlo.TRef.unary main_call13.call0.v0 main_call13.call0.v1 (broadcastInDim S1x1 ![] bcast_S_S1x1),
    StableHlo.TRef.nullary main_call13.call0.cst_0 (constant S_ .f32 0x4AC35000#32),
    StableHlo.TRef.unary main_call13.call0.cst_0 main_call13.call0.v2 (broadcastInDim S1x1 ![] bcast_S_S1x1),
    StableHlo.TRef.binary main_call13.call0.v1 main_call13.call0.v2 main_call13.call0.v3 Host.divf,
    StableHlo.TRef.unary main_call13.call0.v3 main_call13.call0.v4 (broadcastInDim S50000x128 ![0, 1] bcast_S1x1_S50000x128_0_1),
    StableHlo.TRef.binary (.of main_v381 : StableHlo.TRef sig ⟨S50000x128, .f32⟩) main_call13.call0.v4 main_call13.call0.v5 subf,
    StableHlo.TRef.binary main_call13.call0.v5 main_call13.call0.v5 main_call13.call0.v6 mulf,
    StableHlo.TRef.unary (.of main_c_89 : StableHlo.TRef sig ⟨S_, .i32⟩) main_call13.call0.v7 (sitofp .f32),
    StableHlo.TRef.nullary main_call13.call0.cst_1 (constant S_ .f32 0x4AC35000#32),
    StableHlo.TRef.binary main_call13.call0.cst_1 main_call13.call0.v7 main_call13.call0.v8 subf,
    StableHlo.TRef.nullary main_call13.call0.cst_2 (constant S_ .f32 0x00000000#32),
    StableHlo.TRef.binary main_call13.call0.v6 main_call13.call0.cst_2 main_call13.call0.v9 (fun x v => Host.reduceAdd x v reducesTo_S50000x128_S_d0_1 h_S_),
    StableHlo.TRef.binary main_call13.call0.v9 main_call13.call0.v8 main_call13.call0.v10 Host.divf,
    StableHlo.TRef.nullary main_call13.call0.cst_3 (constant S_ .f32 0x00000000#32),
    StableHlo.TRef.binary main_call13.call0.v8 main_call13.call0.cst_3 main_call13.call0.v11 (cmpf .ogt),
    StableHlo.TRef.nullary main_call13.call0.cst_4 (constant S_ .f32 0x7FC00000#32),
    StableHlo.TRef.unary main_call13.call0.cst_4 main_call13.call0.call0.v0 id,
    StableHlo.TRef.ternary main_call13.call0.v11 main_call13.call0.v10 main_call13.call0.call0.v0 main_call13.call0.call0.v1 select,
    StableHlo.TRef.unary main_call13.call0.call0.v1 main_call13.v1 Host.sqrt,
    StableHlo.nullary main_cst_90 (constant S_ .f32 0x3727C5AC#32),
    StableHlo.binary main_v382 main_cst_90 main_v383 (addf : (⟨S_, .f32⟩ : BufTy).Contents (Elt F) → (⟨S_, .f32⟩ : BufTy).Contents (Elt F) → (⟨S_, .f32⟩ : BufTy).Contents (Elt F)),
    StableHlo.unary main_v383 main_v384 (broadcastInDim S50000x128 ![] bcast_S_S50000x128 : (⟨S_, .f32⟩ : BufTy).Contents (Elt F) → (⟨S50000x128, .f32⟩ : BufTy).Contents (Elt F)),
    StableHlo.binary main_v381 main_v384 main_v385 (Host.divf : (⟨S50000x128, .f32⟩ : BufTy).Contents (Elt F) → (⟨S50000x128, .f32⟩ : BufTy).Contents (Elt F) → (⟨S50000x128, .f32⟩ : BufTy).Contents (Elt F)),
    StableHlo.unary main_v375 main_v386 (broadcastInDim S1x128 ![1] bcast_S128_S1x128_1 : (⟨S128, .f32⟩ : BufTy).Contents (Elt F) → (⟨S1x128, .f32⟩ : BufTy).Contents (Elt F)) ]

/-- Every buffer these operations touch is a TensorCore reference. -/
theorem opsL6a_sub : (opsL6a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub ..⟩

/-- Each of these operations determines the contents it writes. -/
theorem opsL6a_fresh : ∀ op ∈ (opsL6a : List (HloOp τ sig (Elt F))), op.fresh = ∅ := by
  intro _ h
  repeat (cases h with | head => rfl | tail _ h => ?_)
  exact nomatch h

end Cert.Hand.RefRun

end
-- ==== Proof.RefOpsL6b.lean ====
/- The reference program's @main, statements 481 … 486 of its 553 (in its window `main_part8`), as a list of
   operations in order: each statement's own operation, and for a call of a module-local function the function's
   operations over the call's operands and buffer record (8 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 481 … 486 of @main: 8 operations, in order. -/
abbrev opsL6b : List (HloOp τ sig (Elt F)) :=
  [
    StableHlo.unary main_v386 main_v387 (broadcastInDim S50000x128 ![0, 1] bcast_S1x128_S50000x128_0_1 : (⟨S1x128, .f32⟩ : BufTy).Contents (Elt F) → (⟨S50000x128, .f32⟩ : BufTy).Contents (Elt F)),
    StableHlo.binary main_v385 main_v387 main_v388 (mulf : (⟨S50000x128, .f32⟩ : BufTy).Contents (Elt F) → (⟨S50000x128, .f32⟩ : BufTy).Contents (Elt F) → (⟨S50000x128, .f32⟩ : BufTy).Contents (Elt F)),
    StableHlo.unary main_v377 main_v389 (broadcastInDim S1x128 ![1] bcast_S128_S1x128_1 : (⟨S128, .f32⟩ : BufTy).Contents (Elt F) → (⟨S1x128, .f32⟩ : BufTy).Contents (Elt F)),
    StableHlo.unary main_v389 main_v390 (broadcastInDim S50000x128 ![0, 1] bcast_S1x128_S50000x128_0_1 : (⟨S1x128, .f32⟩ : BufTy).Contents (Elt F) → (⟨S50000x128, .f32⟩ : BufTy).Contents (Elt F)),
    StableHlo.binary main_v388 main_v390 main_v391 (addf : (⟨S50000x128, .f32⟩ : BufTy).Contents (Elt F) → (⟨S50000x128, .f32⟩ : BufTy).Contents (Elt F) → (⟨S50000x128, .f32⟩ : BufTy).Contents (Elt F)),
    StableHlo.TRef.nullary main_call14.cst (constant S_ .f32 0x00000000#32),
    StableHlo.TRef.unary main_call14.cst main_call14.v0 (broadcastInDim S50000x128 ![] bcast_S_S50000x128),
    StableHlo.TRef.binary (.of main_v391 : StableHlo.TRef sig ⟨S50000x128, .f32⟩) main_call14.v0 main_call14.v1 maximumf ]

/-- Every buffer these operations touch is a TensorCore reference. -/
theorem opsL6b_sub : (opsL6b : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩

/-- Each of these operations determines the contents it writes. -/
theorem opsL6b_fresh : ∀ op ∈ (opsL6b : List (HloOp τ sig (Elt F))), op.fresh = ∅ := by
  intro _ h
  repeat (cases h with | head => rfl | tail _ h => ?_)
  exact nomatch h

end Cert.Hand.RefRun

end
-- ==== Proof.RefOpsL7a.lean ====
/- The reference program's @main, statements 487 … 540 of its 553 (in its window `main_part8`), as a list of
   operations in order: each statement's own operation, and for a call of a module-local function the function's
   operations over the call's operands and buffer record (74 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 487 … 540 of @main: 74 operations, in order. -/
abbrev opsL7a : List (HloOp τ sig (Elt F)) :=
  [
    StableHlo.unary main_v29 main_v393 (broadcastInDim S550000x1 ![0] bcast_S550000_S550000x1_0 : (⟨S550000, .f32⟩ : BufTy).Contents (Elt F) → (⟨S550000x1, .f32⟩ : BufTy).Contents (Elt F)),
    StableHlo.nullary main_c_91 (constantI S_ 32 0#32),
    StableHlo.unary main_c_91 main_v394 (broadcastInDim S550000 ![] bcast_S_S550000 : (⟨S_, .i32⟩ : BufTy).Contents (Elt F) → (⟨S550000, .i32⟩ : BufTy).Contents (Elt F)),
    StableHlo.binary main_v5 main_v394 main_v395 (cmpi .slt : (⟨S550000, .i32⟩ : BufTy).Contents (Elt F) → (⟨S550000, .i32⟩ : BufTy).Contents (Elt F) → (⟨S550000, .i1⟩ : BufTy).Contents (Elt F)),
    StableHlo.nullary main_c_92 (constantI S_ 32 50000#32),
    StableHlo.unary main_c_92 main_v396 (broadcastInDim S550000 ![] bcast_S_S550000 : (⟨S_, .i32⟩ : BufTy).Contents (Elt F) → (⟨S550000, .i32⟩ : BufTy).Contents (Elt F)),
    StableHlo.binary main_v5 main_v396 main_v397 (addi : (⟨S550000, .i32⟩ : BufTy).Contents (Elt F) → (⟨S550000, .i32⟩ : BufTy).Contents (Elt F) → (⟨S550000, .i32⟩ : BufTy).Contents (Elt F)),
    StableHlo.ternary main_v395 main_v397 main_v5 main_v398 (select : (⟨S550000, .i1⟩ : BufTy).Contents (Elt F) → (⟨S550000, .i32⟩ : BufTy).Contents (Elt F) → (⟨S550000, .i32⟩ : BufTy).Contents (Elt F) → (⟨S550000, .i32⟩ : BufTy).Contents (Elt F)),
    StableHlo.unary main_v398 main_v399 (broadcastInDim S550000x1 ![0] bcast_S550000_S550000x1_0 : (⟨S550000, .i32⟩ : BufTy).Contents (Elt F) → (⟨S550000x1, .i32⟩ : BufTy).Contents (Elt F)),
    StableHlo.binary main_v392 main_v399 main_v400 ((fun x i => Host.gather gather_S50000x128_S550000x1_S550000x128_1_0_n_n_0_1_1128 x i) : (⟨S50000x128, .f32⟩ : BufTy).Contents (Elt F) → (⟨S550000x1, .i32⟩ : BufTy).Contents (Elt F) → (⟨S550000x128, .f32⟩ : BufTy).Contents (Elt F)),
    StableHlo.unary main_v393 main_v401 (broadcastInDim S550000x128 ![0, 1] bcast_S550000x1_S550000x128_0_1 : (⟨S550000x1, .f32⟩ : BufTy).Contents (Elt F) → (⟨S550000x128, .f32⟩ : BufTy).Contents (Elt F)),
    StableHlo.binary main_v401 main_v400 main_v402 (mulf : (⟨S550000x128, .f32⟩ : BufTy).Contents (Elt F) → (⟨S550000x128, .f32⟩ : BufTy).Contents (Elt F) → (⟨S550000x128, .f32⟩ : BufTy).Contents (Elt F)),
    StableHlo.nullary main_cst_93 (constant S_ .f32 0x00000000#32),
    StableHlo.unary main_cst_93 main_v403 (broadcastInDim S50000x128 ![] bcast_S_S50000x128 : (⟨S_, .f32⟩ : BufTy).Contents (Elt F) → (⟨S50000x128, .f32⟩ : BufTy).Contents (Elt F)),
    StableHlo.unary main_v6 main_v404 (broadcastInDim S550000x1 ![0] bcast_S550000_S550000x1_0 : (⟨S550000, .i32⟩ : BufTy).Contents (Elt F) → (⟨S550000x1, .i32⟩ : BufTy).Contents (Elt F)),
    StableHlo.ternary main_v403 main_v404 main_v402 main_v405 ((fun x i u => Host.scatterAdd scatter_S50000x128_S550000x1_S550000x128_1_0_0_1 x i u) : (⟨S50000x128, .f32⟩ : BufTy).Contents (Elt F) → (⟨S550000x1, .i32⟩ : BufTy).Contents (Elt F) → (⟨S550000x128, .f32⟩ : BufTy).Contents (Elt F) → (⟨S50000x128, .f32⟩ : BufTy).Contents (Elt F)),
    StableHlo.nullary main_cst_94 (constant S_ .f32 0x3F000000#32),
    StableHlo.unary main_cst_94 main_v406 (broadcastInDim S50000x128 ![] bcast_S_S50000x128 : (⟨S_, .f32⟩ : BufTy).Contents (Elt F) → (⟨S50000x128, .f32⟩ : BufTy).Contents (Elt F)),
    StableHlo.binary main_v405 main_v406 main_v407 (mulf : (⟨S50000x128, .f32⟩ : BufTy).Contents (Elt F) → (⟨S50000x128, .f32⟩ : BufTy).Contents (Elt F) → (⟨S50000x128, .f32⟩ : BufTy).Contents (Elt F)),
    StableHlo.nullary main_cst_95 (constant S_ .f32 0x3F61D8F9#32),
    StableHlo.unary main_cst_95 main_v408 (broadcastInDim S50000x128 ![] bcast_S_S50000x128 : (⟨S_, .f32⟩ : BufTy).Contents (Elt F) → (⟨S50000x128, .f32⟩ : BufTy).Contents (Elt F)),
    StableHlo.binary main_v408 main_v407 main_v409 (mulf : (⟨S50000x128, .f32⟩ : BufTy).Contents (Elt F) → (⟨S50000x128, .f32⟩ : BufTy).Contents (Elt F) → (⟨S50000x128, .f32⟩ : BufTy).Contents (Elt F)),
    StableHlo.unary main_arg4 main_v410 ((extractStridedSlice S1x128x128 ![7, 0, 0] · slices_S8x128x128_S1x128x128_7_0_0) : (⟨S8x128x128, .f32⟩ : BufTy).Contents (Elt F) → (⟨S1x128x128, .f32⟩ : BufTy).Contents (Elt F)),
    StableHlo.reshape main_v410 main_v411 rfl shapeCasts_S1x128x128_S128x128,
    StableHlo.binary main_v407 main_v411 main_v412 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_96 (constant S_ .f32 0x3DF1383B#32),
    StableHlo.unary main_cst_96 main_v413 (broadcastInDim S50000x128 ![] bcast_S_S50000x128 : (⟨S_, .f32⟩ : BufTy).Contents (Elt F) → (⟨S50000x128, .f32⟩ : BufTy).Contents (Elt F)),
    StableHlo.binary main_v413 main_v412 main_v414 (mulf : (⟨S50000x128, .f32⟩ : BufTy).Contents (Elt F) → (⟨S50000x128, .f32⟩ : BufTy).Contents (Elt F) → (⟨S50000x128, .f32⟩ : BufTy).Contents (Elt F)),
    StableHlo.binary main_v409 main_v414 main_v415 (addf : (⟨S50000x128, .f32⟩ : BufTy).Contents (Elt F) → (⟨S50000x128, .f32⟩ : BufTy).Contents (Elt F) → (⟨S50000x128, .f32⟩ : BufTy).Contents (Elt F)),
    StableHlo.nullary main_cst_97 (constant S_ .f32 0x3F61D8F9#32),
    StableHlo.unary main_cst_97 main_v416 (broadcastInDim S50000x128 ![] bcast_S_S50000x128 : (⟨S_, .f32⟩ : BufTy).Contents (Elt F) → (⟨S50000x128, .f32⟩ : BufTy).Contents (Elt F)),
    StableHlo.binary main_v416 main_v35 main_v417 (mulf : (⟨S50000x128, .f32⟩ : BufTy).Contents (Elt F) → (⟨S50000x128, .f32⟩ : BufTy).Contents (Elt F) → (⟨S50000x128, .f32⟩ : BufTy).Contents (Elt F)),
    StableHlo.binary main_v415 main_v417 main_v418 (addf : (⟨S50000x128, .f32⟩ : BufTy).Contents (Elt F) → (⟨S50000x128, .f32⟩ : BufTy).Contents (Elt F) → (⟨S50000x128, .f32⟩ : BufTy).Contents (Elt F)),
    StableHlo.unary main_arg5 main_v419 ((extractStridedSlice S1x128x128 ![7, 0, 0] · slices_S8x128x128_S1x128x128_7_0_0) : (⟨S8x128x128, .f32⟩ : BufTy).Contents (Elt F) → (⟨S1x128x128, .f32⟩ : BufTy).Contents (Elt F)),
    StableHlo.reshape main_v419 main_v420 rfl shapeCasts_S1x128x128_S128x128,
    StableHlo.binary main_v35 main_v420 main_v421 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_98 (constant S_ .f32 0x3DF1383B#32),
    StableHlo.unary main_cst_98 main_v422 (broadcastInDim S50000x128 ![] bcast_S_S50000x128 : (⟨S_, .f32⟩ : BufTy).Contents (Elt F) → (⟨S50000x128, .f32⟩ : BufTy).Contents (Elt F)),
    StableHlo.binary main_v422 main_v421 main_v423 (mulf : (⟨S50000x128, .f32⟩ : BufTy).Contents (Elt F) → (⟨S50000x128, .f32⟩ : BufTy).Contents (Elt F) → (⟨S50000x128, .f32⟩ : BufTy).Contents (Elt F)),
    StableHlo.binary main_v418 main_v423 main_v424 (addf : (⟨S50000x128, .f32⟩ : BufTy).Contents (Elt F) → (⟨S50000x128, .f32⟩ : BufTy).Contents (Elt F) → (⟨S50000x128, .f32⟩ : BufTy).Contents (Elt F)),
    StableHlo.unary main_arg6 main_v425 ((extractStridedSlice S1x128 ![7, 0] · slices_S8x128_S1x128_7_0) : (⟨S8x128, .f32⟩ : BufTy).Contents (Elt F) → (⟨S1x128, .f32⟩ : BufTy).Contents (Elt F)),
    StableHlo.reshape main_v425 main_v426 rfl shapeCasts_S1x128_S128,
    StableHlo.unary main_arg7 main_v427 ((extractStridedSlice S1x128 ![7, 0] · slices_S8x128_S1x128_7_0) : (⟨S8x128, .f32⟩ : BufTy).Contents (Elt F) → (⟨S1x128, .f32⟩ : BufTy).Contents (Elt F)),
    StableHlo.reshape main_v427 main_v428 rfl shapeCasts_S1x128_S128,
    StableHlo.nullary main_cst_99 (constant S_ .f32 0x00000000#32),
    StableHlo.binary main_v424 main_cst_99 main_v429 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    StableHlo.nullary main_cst_100 (constant S_ .f32 0x4AC35000#32),
    StableHlo.binary main_v429 main_cst_100 main_v430 (Host.divf : (⟨S_, .f32⟩ : BufTy).Contents (Elt F) → (⟨S_, .f32⟩ : BufTy).Contents (Elt F) → (⟨S_, .f32⟩ : BufTy).Contents (Elt F)),
    StableHlo.unary main_v430 main_v431 (broadcastInDim S50000x128 ![] bcast_S_S50000x128 : (⟨S_, .f32⟩ : BufTy).Contents (Elt F) → (⟨S50000x128, .f32⟩ : BufTy).Contents (Elt F)),
    StableHlo.binary main_v424 main_v431 main_v432 (subf : (⟨S50000x128, .f32⟩ : BufTy).Contents (Elt F) → (⟨S50000x128, .f32⟩ : BufTy).Contents (Elt F) → (⟨S50000x128, .f32⟩ : BufTy).Contents (Elt F)),
    StableHlo.nullary main_c_101 (constantI S_ 32 0#32),
    StableHlo.TRef.nullary main_call15.call0.cst (constant S_ .f32 0x00000000#32),
    StableHlo.TRef.binary (.of main_v432 : StableHlo.TRef sig ⟨S50000x128, .f32⟩) main_call15.call0.cst main_call15.call0.v0 (fun x v => Host.reduceAdd x v reducesTo_S50000x128_S_d0_1 h_S_),
    StableHlo.TRef.unary main_call15.call0.v0 main_call15.call0.v1 (broadcastInDim S1x1 ![] bcast_S_S1x1),
    StableHlo.TRef.nullary main_call15.call0.cst_0 (constant S_ .f32 0x4AC35000#32),
    StableHlo.TRef.unary main_call15.call0.cst_0 main_call15.call0.v2 (broadcastInDim S1x1 ![] bcast_S_S1x1),
    StableHlo.TRef.binary main_call15.call0.v1 main_call15.call0.v2 main_call15.call0.v3 Host.divf,
    StableHlo.TRef.unary main_call15.call0.v3 main_call15.call0.v4 (broadcastInDim S50000x128 ![0, 1] bcast_S1x1_S50000x128_0_1),
    StableHlo.TRef.binary (.of main_v432 : StableHlo.TRef sig ⟨S50000x128, .f32⟩) main_call15.call0.v4 main_call15.call0.v5 subf,
    StableHlo.TRef.binary main_call15.call0.v5 main_call15.call0.v5 main_call15.call0.v6 mulf,
    StableHlo.TRef.unary (.of main_c_101 : StableHlo.TRef sig ⟨S_, .i32⟩) main_call15.call0.v7 (sitofp .f32),
    StableHlo.TRef.nullary main_call15.call0.cst_1 (constant S_ .f32 0x4AC35000#32),
    StableHlo.TRef.binary main_call15.call0.cst_1 main_call15.call0.v7 main_call15.call0.v8 subf,
    StableHlo.TRef.nullary main_call15.call0.cst_2 (constant S_ .f32 0x00000000#32),
    StableHlo.TRef.binary main_call15.call0.v6 main_call15.call0.cst_2 main_call15.call0.v9 (fun x v => Host.reduceAdd x v reducesTo_S50000x128_S_d0_1 h_S_),
    StableHlo.TRef.binary main_call15.call0.v9 main_call15.call0.v8 main_call15.call0.v10 Host.divf,
    StableHlo.TRef.nullary main_call15.call0.cst_3 (constant S_ .f32 0x00000000#32),
    StableHlo.TRef.binary main_call15.call0.v8 main_call15.call0.cst_3 main_call15.call0.v11 (cmpf .ogt),
    StableHlo.TRef.nullary main_call15.call0.cst_4 (constant S_ .f32 0x7FC00000#32),
    StableHlo.TRef.unary main_call15.call0.cst_4 main_call15.call0.call0.v0 id,
    StableHlo.TRef.ternary main_call15.call0.v11 main_call15.call0.v10 main_call15.call0.call0.v0 main_call15.call0.call0.v1 select,
    StableHlo.TRef.unary main_call15.call0.call0.v1 main_call15.v1 Host.sqrt,
    StableHlo.nullary main_cst_102 (constant S_ .f32 0x3727C5AC#32),
    StableHlo.binary main_v433 main_cst_102 main_v434 (addf : (⟨S_, .f32⟩ : BufTy).Contents (Elt F) → (⟨S_, .f32⟩ : BufTy).Contents (Elt F) → (⟨S_, .f32⟩ : BufTy).Contents (Elt F)) ]

/-- Every buffer these operations touch is a TensorCore reference. -/
theorem opsL7a_sub : (opsL7a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub ..⟩

/-- Each of these operations determines the contents it writes. -/
theorem opsL7a_fresh : ∀ op ∈ (opsL7a : List (HloOp τ sig (Elt F))), op.fresh = ∅ := by
  intro _ h
  repeat (cases h with | head => rfl | tail _ h => ?_)
  exact nomatch h

end Cert.Hand.RefRun

end
-- ==== Proof.RefOpsL7b.lean ====
/- The reference program's @main, statements 541 … 549 of its 553 (in its window `main_part9`), as a list of
   operations in order: each statement's own operation, and for a call of a module-local function the function's
   operations over the call's operands and buffer record (11 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 541 … 549 of @main: 11 operations, in order. -/
abbrev opsL7b : List (HloOp τ sig (Elt F)) :=
  [
    StableHlo.unary main_v434 main_v435 (broadcastInDim S50000x128 ![] bcast_S_S50000x128 : (⟨S_, .f32⟩ : BufTy).Contents (Elt F) → (⟨S50000x128, .f32⟩ : BufTy).Contents (Elt F)),
    StableHlo.binary main_v432 main_v435 main_v436 (Host.divf : (⟨S50000x128, .f32⟩ : BufTy).Contents (Elt F) → (⟨S50000x128, .f32⟩ : BufTy).Contents (Elt F) → (⟨S50000x128, .f32⟩ : BufTy).Contents (Elt F)),
    StableHlo.unary main_v426 main_v437 (broadcastInDim S1x128 ![1] bcast_S128_S1x128_1 : (⟨S128, .f32⟩ : BufTy).Contents (Elt F) → (⟨S1x128, .f32⟩ : BufTy).Contents (Elt F)),
    StableHlo.unary main_v437 main_v438 (broadcastInDim S50000x128 ![0, 1] bcast_S1x128_S50000x128_0_1 : (⟨S1x128, .f32⟩ : BufTy).Contents (Elt F) → (⟨S50000x128, .f32⟩ : BufTy).Contents (Elt F)),
    StableHlo.binary main_v436 main_v438 main_v439 (mulf : (⟨S50000x128, .f32⟩ : BufTy).Contents (Elt F) → (⟨S50000x128, .f32⟩ : BufTy).Contents (Elt F) → (⟨S50000x128, .f32⟩ : BufTy).Contents (Elt F)),
    StableHlo.unary main_v428 main_v440 (broadcastInDim S1x128 ![1] bcast_S128_S1x128_1 : (⟨S128, .f32⟩ : BufTy).Contents (Elt F) → (⟨S1x128, .f32⟩ : BufTy).Contents (Elt F)),
    StableHlo.unary main_v440 main_v441 (broadcastInDim S50000x128 ![0, 1] bcast_S1x128_S50000x128_0_1 : (⟨S1x128, .f32⟩ : BufTy).Contents (Elt F) → (⟨S50000x128, .f32⟩ : BufTy).Contents (Elt F)),
    StableHlo.binary main_v439 main_v441 main_v442 (addf : (⟨S50000x128, .f32⟩ : BufTy).Contents (Elt F) → (⟨S50000x128, .f32⟩ : BufTy).Contents (Elt F) → (⟨S50000x128, .f32⟩ : BufTy).Contents (Elt F)),
    StableHlo.TRef.nullary main_call16.cst (constant S_ .f32 0x00000000#32),
    StableHlo.TRef.unary main_call16.cst main_call16.v0 (broadcastInDim S50000x128 ![] bcast_S_S50000x128),
    StableHlo.TRef.binary (.of main_v442 : StableHlo.TRef sig ⟨S50000x128, .f32⟩) main_call16.v0 main_call16.v1 maximumf ]

/-- Every buffer these operations touch is a TensorCore reference. -/
theorem opsL7b_sub : (opsL7b : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Each of these operations determines the contents it writes. -/
theorem opsL7b_fresh : ∀ op ∈ (opsL7b : List (HloOp τ sig (Elt F))), op.fresh = ∅ := by
  intro _ h
  repeat (cases h with | head => rfl | tail _ h => ?_)
  exact nomatch h

end Cert.Hand.RefRun

end
-- ==== Proof.RefOpsPost.lean ====
/- The reference program's @main, statements 550 … 553 of its 553 (in its window `main_part9`), as a list of
   operations in order: each statement's own operation, and for a call of a module-local function the function's
   operations over the call's operands and buffer record (4 operations). -/
import proofs.«104804_j42004780155161_1_alg».proof.Proof.Gen.ReferenceIdeal
import Idealize.ShloMosaic.Lib.StableHlo.Run

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 550 … 553 of @main: 4 operations, in order. -/
abbrev opsPost : List (HloOp τ sig (Elt F)) :=
  [
    StableHlo.binary main_v443 main_arg8 main_v444 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg9 main_v445 (broadcastInDim S1x64 ![1] bcast_S64_S1x64_1 : (⟨S64, .f32⟩ : BufTy).Contents (Elt F) → (⟨S1x64, .f32⟩ : BufTy).Contents (Elt F)),
    StableHlo.unary main_v445 main_v446 (broadcastInDim S50000x64 ![0, 1] bcast_S1x64_S50000x64_0_1 : (⟨S1x64, .f32⟩ : BufTy).Contents (Elt F) → (⟨S50000x64, .f32⟩ : BufTy).Contents (Elt F)),
    StableHlo.binary main_v444 main_v446 main_v447 (addf : (⟨S50000x64, .f32⟩ : BufTy).Contents (Elt F) → (⟨S50000x64, .f32⟩ : BufTy).Contents (Elt F) → (⟨S50000x64, .f32⟩ : BufTy).Contents (Elt F)) ]

/-- Every buffer these operations touch is a TensorCore reference. -/
theorem opsPost_sub : (opsPost : List (HloOp τ sig (Elt F))).Forall fun op => op.bufs ⊆ tcRefs τ sig :=
  ⟨binary_bufs_sub .., unary_bufs_sub .., unary_bufs_sub .., binary_bufs_sub ..⟩

/-- Each of these operations determines the contents it writes. -/
theorem opsPost_fresh : ∀ op ∈ (opsPost : List (HloOp τ sig (Elt F))), op.fresh = ∅ := by
  intro _ h
  repeat (cases h with | head => rfl | tail _ h => ?_)
  exact nomatch h

end Cert.Hand.RefRun

end
-- ==== Proof.RefOps.lean ====
/- The reference program's @main as ONE list of operations, layer by layer. The list is cut where the network's
   layers meet: the operations up to the scaled first linear map `x0` (`%35`), then for each of the eight layers the
   operations from the statement after the previous cut through the rectifier that yields the layer's activations
   (`%86, %137, %188, %239, %290, %341, %392, %443`), then the last linear map (`%444 … %447`). Each layer is two
   stretches (it crosses one edge of the printed windows of @main). Here: the layers and the whole list as appends of
   the stretches, that every operation touches TensorCore references only and determines what it writes, and the
   fold of the whole list as the folds of its parts in order. -/
import proofs.«104804_j42004780155161_1_alg».proof.Proof.RefOpsPre
import proofs.«104804_j42004780155161_1_alg».proof.Proof.RefOpsL0a
import proofs.«104804_j42004780155161_1_alg».proof.Proof.RefOpsL0b
import proofs.«104804_j42004780155161_1_alg».proof.Proof.RefOpsL1a
import proofs.«104804_j42004780155161_1_alg».proof.Proof.RefOpsL1b
import proofs.«104804_j42004780155161_1_alg».proof.Proof.RefOpsL2a
import proofs.«104804_j42004780155161_1_alg».proof.Proof.RefOpsL2b
import proofs.«104804_j42004780155161_1_alg».proof.Proof.RefOpsL3a
import proofs.«104804_j42004780155161_1_alg».proof.Proof.RefOpsL3b
import proofs.«104804_j42004780155161_1_alg».proof.Proof.RefOpsL4a
import proofs.«104804_j42004780155161_1_alg».proof.Proof.RefOpsL4b
import proofs.«104804_j42004780155161_1_alg».proof.Proof.RefOpsL5a
import proofs.«104804_j42004780155161_1_alg».proof.Proof.RefOpsL5b
import proofs.«104804_j42004780155161_1_alg».proof.Proof.RefOpsL6a
import proofs.«104804_j42004780155161_1_alg».proof.Proof.RefOpsL6b
import proofs.«104804_j42004780155161_1_alg».proof.Proof.RefOpsL7a
import proofs.«104804_j42004780155161_1_alg».proof.Proof.RefOpsL7b
import proofs.«104804_j42004780155161_1_alg».proof.Proof.RefOpsPost
import Idealize.ShloMosaic.Lib.Pipeline.Frame

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-! ## Two lists, one after the other -/

/-- A property of every entry of two lists holds of every entry of their append. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- If no operation of two lists leaves its result undetermined, none of their append does. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-! ## The layers -/

/-- Layer 0: from the statement after `x0 = %35` through the rectifier that yields `%86`. -/
abbrev opsL0 : List (HloOp τ sig (Elt F)) := opsL0a ++ opsL0b
/-- Layer 1: from the statement after `%86` through the rectifier that yields `%137`. -/
abbrev opsL1 : List (HloOp τ sig (Elt F)) := opsL1a ++ opsL1b
/-- Layer 2: from the statement after `%137` through the rectifier that yields `%188`. -/
abbrev opsL2 : List (HloOp τ sig (Elt F)) := opsL2a ++ opsL2b
/-- Layer 3: from the statement after `%188` through the rectifier that yields `%239`. -/
abbrev opsL3 : List (HloOp τ sig (Elt F)) := opsL3a ++ opsL3b
/-- Layer 4: from the statement after `%239` through the rectifier that yields `%290`. -/
abbrev opsL4 : List (HloOp τ sig (Elt F)) := opsL4a ++ opsL4b
/-- Layer 5: from the statement after `%290` through the rectifier that yields `%341`. -/
abbrev opsL5 : List (HloOp τ sig (Elt F)) := opsL5a ++ opsL5b
/-- Layer 6: from the statement after `%341` through the rectifier that yields `%392`. -/
abbrev opsL6 : List (HloOp τ sig (Elt F)) := opsL6a ++ opsL6b
/-- Layer 7: from the statement after `%392` through the rectifier that yields `%443`. -/
abbrev opsL7 : List (HloOp τ sig (Elt F)) := opsL7a ++ opsL7b

/-- @main's 731 operations in order, the module-local functions written out at their calls: the stretch before the
    layers, the eight layers, the last linear map — appended to the right,
    `opsPre ++ (opsL0 ++ (opsL1 ++ … ++ (opsL7 ++ opsPost)))`. -/
abbrev ops : List (HloOp τ sig (Elt F)) :=
  opsPre ++ (opsL0 ++ (opsL1 ++ (opsL2 ++ (opsL3 ++ (opsL4 ++ (opsL5 ++ (opsL6 ++ (opsL7 ++ opsPost))))))))

/-! ## Every operation stays on the TensorCore's references and determines its result -/

theorem opsL0_sub : (opsL0 : List (HloOp τ sig (Elt F))).Forall fun op => op.bufs ⊆ tcRefs τ sig :=
  forall_append opsL0a_sub opsL0b_sub
theorem opsL0_fresh : ∀ op ∈ (opsL0 : List (HloOp τ sig (Elt F))), op.fresh = ∅ :=
  fresh_append opsL0a_fresh opsL0b_fresh
theorem opsL1_sub : (opsL1 : List (HloOp τ sig (Elt F))).Forall fun op => op.bufs ⊆ tcRefs τ sig :=
  forall_append opsL1a_sub opsL1b_sub
theorem opsL1_fresh : ∀ op ∈ (opsL1 : List (HloOp τ sig (Elt F))), op.fresh = ∅ :=
  fresh_append opsL1a_fresh opsL1b_fresh
theorem opsL2_sub : (opsL2 : List (HloOp τ sig (Elt F))).Forall fun op => op.bufs ⊆ tcRefs τ sig :=
  forall_append opsL2a_sub opsL2b_sub
theorem opsL2_fresh : ∀ op ∈ (opsL2 : List (HloOp τ sig (Elt F))), op.fresh = ∅ :=
  fresh_append opsL2a_fresh opsL2b_fresh
theorem opsL3_sub : (opsL3 : List (HloOp τ sig (Elt F))).Forall fun op => op.bufs ⊆ tcRefs τ sig :=
  forall_append opsL3a_sub opsL3b_sub
theorem opsL3_fresh : ∀ op ∈ (opsL3 : List (HloOp τ sig (Elt F))), op.fresh = ∅ :=
  fresh_append opsL3a_fresh opsL3b_fresh
theorem opsL4_sub : (opsL4 : List (HloOp τ sig (Elt F))).Forall fun op => op.bufs ⊆ tcRefs τ sig :=
  forall_append opsL4a_sub opsL4b_sub
theorem opsL4_fresh : ∀ op ∈ (opsL4 : List (HloOp τ sig (Elt F))), op.fresh = ∅ :=
  fresh_append opsL4a_fresh opsL4b_fresh
theorem opsL5_sub : (opsL5 : List (HloOp τ sig (Elt F))).Forall fun op => op.bufs ⊆ tcRefs τ sig :=
  forall_append opsL5a_sub opsL5b_sub
theorem opsL5_fresh : ∀ op ∈ (opsL5 : List (HloOp τ sig (Elt F))), op.fresh = ∅ :=
  fresh_append opsL5a_fresh opsL5b_fresh
theorem opsL6_sub : (opsL6 : List (HloOp τ sig (Elt F))).Forall fun op => op.bufs ⊆ tcRefs τ sig :=
  forall_append opsL6a_sub opsL6b_sub
theorem opsL6_fresh : ∀ op ∈ (opsL6 : List (HloOp τ sig (Elt F))), op.fresh = ∅ :=
  fresh_append opsL6a_fresh opsL6b_fresh
theorem opsL7_sub : (opsL7 : List (HloOp τ sig (Elt F))).Forall fun op => op.bufs ⊆ tcRefs τ sig :=
  forall_append opsL7a_sub opsL7b_sub
theorem opsL7_fresh : ∀ op ∈ (opsL7 : List (HloOp τ sig (Elt F))), op.fresh = ∅ :=
  fresh_append opsL7a_fresh opsL7b_fresh

theorem ops_sub : (ops : List (HloOp τ sig (Elt F))).Forall fun op => op.bufs ⊆ tcRefs τ sig :=
  forall_append opsPre_sub <| forall_append opsL0_sub <| forall_append opsL1_sub <| forall_append opsL2_sub <|
    forall_append opsL3_sub <| forall_append opsL4_sub <| forall_append opsL5_sub <| forall_append opsL6_sub <|
    forall_append opsL7_sub opsPost_sub

theorem ops_fresh : ∀ op ∈ (ops : List (HloOp τ sig (Elt F))), op.fresh = ∅ :=
  fresh_append opsPre_fresh <| fresh_append opsL0_fresh <| fresh_append opsL1_fresh <| fresh_append opsL2_fresh <|
    fresh_append opsL3_fresh <| fresh_append opsL4_fresh <| fresh_append opsL5_fresh <| fresh_append opsL6_fresh <|
    fresh_append opsL7_fresh opsPost_fresh

/-! ## The fold of the list is the folds of its parts, in order -/

/-- Layer 0's fold is its second stretch's over its first's. -/
theorem after_opsL0 (V : Valuation τ sig (Elt F)) : after opsL0 V = after opsL0b (after opsL0a V) :=
  StableHlo.after_append _ _ V
/-- Layer 1's fold is its second stretch's over its first's. -/
theorem after_opsL1 (V : Valuation τ sig (Elt F)) : after opsL1 V = after opsL1b (after opsL1a V) :=
  StableHlo.after_append _ _ V
/-- Layer 2's fold is its second stretch's over its first's. -/
theorem after_opsL2 (V : Valuation τ sig (Elt F)) : after opsL2 V = after opsL2b (after opsL2a V) :=
  StableHlo.after_append _ _ V
/-- Layer 3's fold is its second stretch's over its first's. -/
theorem after_opsL3 (V : Valuation τ sig (Elt F)) : after opsL3 V = after opsL3b (after opsL3a V) :=
  StableHlo.after_append _ _ V
/-- Layer 4's fold is its second stretch's over its first's. -/
theorem after_opsL4 (V : Valuation τ sig (Elt F)) : after opsL4 V = after opsL4b (after opsL4a V) :=
  StableHlo.after_append _ _ V
/-- Layer 5's fold is its second stretch's over its first's. -/
theorem after_opsL5 (V : Valuation τ sig (Elt F)) : after opsL5 V = after opsL5b (after opsL5a V) :=
  StableHlo.after_append _ _ V
/-- Layer 6's fold is its second stretch's over its first's. -/
theorem after_opsL6 (V : Valuation τ sig (Elt F)) : after opsL6 V = after opsL6b (after opsL6a V) :=
  StableHlo.after_append _ _ V
/-- Layer 7's fold is its second stretch's over its first's. -/
theorem after_opsL7 (V : Valuation τ sig (Elt F)) : after opsL7 V = after opsL7b (after opsL7a V) :=
  StableHlo.after_append _ _ V

/-- The contents after the whole program: the last linear map's fold over layer 7's over … over layer 0's over the
    first stretch's. -/
theorem after_ops (V : Valuation τ sig (Elt F)) :
    after ops V
      = after opsPost (after opsL7 (after opsL6 (after opsL5 (after opsL4 (after opsL3 (after opsL2 (after opsL1
          (after opsL0 (after opsPre V))))))))) := by
  simp only [ops, StableHlo.after_append]

end Cert.Hand.RefRun

end
-- ==== Proof.RefRunW0.lean ====
/- Window 0 of the reference program's @main (`main_part0`) is a straight line of operations:
   the statements up to `x0 = %35`, then layer 0's first fifteen. -/
import proofs.«104804_j42004780155161_1_alg».proof.Proof.RefOpsPre
import proofs.«104804_j42004780155161_1_alg».proof.Proof.RefOpsL0a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part0_eq (c : Dev nD) : main_part0 (F := F) c = seq (opsPre ++ opsL0a) := rfl

end Cert.Hand.RefRun

end
-- ==== Proof.RefRunW1.lean ====
/- Window 1 of the reference program's @main (`main_part1`) is a straight line of operations:
   the rest of layer 0 (through the rectifier that yields `%86`), then layer 1's first twelve statements. -/
import proofs.«104804_j42004780155161_1_alg».proof.Proof.RefOpsL0b
import proofs.«104804_j42004780155161_1_alg».proof.Proof.RefOpsL1a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part1_eq (c : Dev nD) : main_part1 (F := F) c = seq (opsL0b ++ opsL1a) := rfl

end Cert.Hand.RefRun

end
-- ==== Proof.RefRunW2.lean ====
/- Window 2 of the reference program's @main (`main_part2`) is a straight line of operations:
   the rest of layer 1 (through `%137`), then layer 2's first nine statements. -/
import proofs.«104804_j42004780155161_1_alg».proof.Proof.RefOpsL1b
import proofs.«104804_j42004780155161_1_alg».proof.Proof.RefOpsL2a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part2_eq (c : Dev nD) : main_part2 (F := F) c = seq (opsL1b ++ opsL2a) := rfl

end Cert.Hand.RefRun

end
-- ==== Proof.RefRunW3.lean ====
/- Window 3 of the reference program's @main (`main_part3`) is a straight line of operations:
   the rest of layer 2 (through `%188`), then layer 3's first six statements. -/
import proofs.«104804_j42004780155161_1_alg».proof.Proof.RefOpsL2b
import proofs.«104804_j42004780155161_1_alg».proof.Proof.RefOpsL3a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part3_eq (c : Dev nD) : main_part3 (F := F) c = seq (opsL2b ++ opsL3a) := rfl

end Cert.Hand.RefRun

end
-- ==== Proof.RefRunW4.lean ====
/- Window 4 of the reference program's @main (`main_part4`) is a straight line of operations:
   the rest of layer 3 (through `%239`), then layer 4's first three statements. -/
import proofs.«104804_j42004780155161_1_alg».proof.Proof.RefOpsL3b
import proofs.«104804_j42004780155161_1_alg».proof.Proof.RefOpsL4a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part4_eq (c : Dev nD) : main_part4 (F := F) c = seq (opsL3b ++ opsL4a) := rfl

end Cert.Hand.RefRun

end
-- ==== Proof.RefRunW5.lean ====
/- Window 5 of the reference program's @main (`main_part5`) is a straight line of operations:
   the rest of layer 4 (through `%290`): the window ends where the layer does. -/
import proofs.«104804_j42004780155161_1_alg».proof.Proof.RefOpsL4b

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part5_eq (c : Dev nD) : main_part5 (F := F) c = seq (opsL4b) := rfl

end Cert.Hand.RefRun

end
-- ==== Proof.RefRunW6.lean ====
/- Window 6 of the reference program's @main (`main_part6`) is a straight line of operations:
   layer 5's first sixty statements: the window lies inside the layer. -/
import proofs.«104804_j42004780155161_1_alg».proof.Proof.RefOpsL5a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part6_eq (c : Dev nD) : main_part6 (F := F) c = seq (opsL5a) := rfl

end Cert.Hand.RefRun

end
-- ==== Proof.RefRunW7.lean ====
/- Window 7 of the reference program's @main (`main_part7`) is a straight line of operations:
   the rest of layer 5 (through `%341`), then layer 6's first fifty-seven statements. -/
import proofs.«104804_j42004780155161_1_alg».proof.Proof.RefOpsL5b
import proofs.«104804_j42004780155161_1_alg».proof.Proof.RefOpsL6a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part7_eq (c : Dev nD) : main_part7 (F := F) c = seq (opsL5b ++ opsL6a) := rfl

end Cert.Hand.RefRun

end
-- ==== Proof.RefRunW8.lean ====
/- Window 8 of the reference program's @main (`main_part8`) is a straight line of operations:
   the rest of layer 6 (through `%392`), then layer 7's first fifty-four statements. -/
import proofs.«104804_j42004780155161_1_alg».proof.Proof.RefOpsL6b
import proofs.«104804_j42004780155161_1_alg».proof.Proof.RefOpsL7a

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part8_eq (c : Dev nD) : main_part8 (F := F) c = seq (opsL6b ++ opsL7a) := rfl

end Cert.Hand.RefRun

end
-- ==== Proof.RefRunW9.lean ====
/- Window 9 of the reference program's @main (`main_part9`) is a straight line of operations:
   the rest of layer 7 (through `%443`), then the last linear map `%444 … %447`. -/
import proofs.«104804_j42004780155161_1_alg».proof.Proof.RefOpsL7b
import proofs.«104804_j42004780155161_1_alg».proof.Proof.RefOpsPost

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

-- one bind per statement and one more per operation of a called function's body: deeper than the default bound
set_option maxRecDepth 8192 in
set_option maxHeartbeats 4000000 in
/-- The window's statements are `hlo` steps in sequence, a call being its function's body over the call's operands and
    buffer record; unfolding the window, the functions and `seq` gives the same chain of steps on both sides. -/
theorem main_part9_eq (c : Dev nD) : main_part9 (F := F) c = seq (opsL7b ++ opsPost) := rfl

end Cert.Hand.RefRun

end
-- ==== Proof.RefRun.lean ====
/- The reference program's run. Its @main is its ten printed windows in order; each window is a straight line of
   operations (the window modules), so @main is the straight line of the windows' lists appended, and that list is
   the layer list `ops` re-bracketed. A straight line on the TensorCore from any memory with zero counters ends, in
   every weakly fair execution, with each buffer at the fold of the operations' results over its launch contents. -/
import proofs.«104804_j42004780155161_1_alg».proof.Proof.RefOps
import proofs.«104804_j42004780155161_1_alg».proof.Proof.RefRunW0
import proofs.«104804_j42004780155161_1_alg».proof.Proof.RefRunW1
import proofs.«104804_j42004780155161_1_alg».proof.Proof.RefRunW2
import proofs.«104804_j42004780155161_1_alg».proof.Proof.RefRunW3
import proofs.«104804_j42004780155161_1_alg».proof.Proof.RefRunW4
import proofs.«104804_j42004780155161_1_alg».proof.Proof.RefRunW5
import proofs.«104804_j42004780155161_1_alg».proof.Proof.RefRunW6
import proofs.«104804_j42004780155161_1_alg».proof.Proof.RefRunW7
import proofs.«104804_j42004780155161_1_alg».proof.Proof.RefRunW8
import proofs.«104804_j42004780155161_1_alg».proof.Proof.RefRunW9

noncomputable section

namespace Cert.Hand.RefRun

open Cert.ReferenceIdeal Cert.ReferenceIdeal.Gen Idealize.ShloMosaic Idealize.ShloMosaic.TcCoe Idealize.SL.Sem Idealize.ShloMosaic.StableHlo

variable {F : FTy → Type} [FloatOps F]

/-- Two straight lines run one after the other are the straight line of their lists appended. -/
theorem bind_seq {Λ : Labels} {p q : Prog (TpuEff nD τ sig (Elt F) Λ .tc) PUnit} {l₁ l₂ : List (HloOp τ sig (Elt F))}
    (h₁ : p = seq l₁) (h₂ : q = seq l₂) : (p >>= fun _ => q) = seq (l₁ ++ l₂) := by
  rw [seq_append, h₁, h₂]

/-- The layer list is the windows' lists appended in order: the same eighteen stretches in the same order, bracketed by
    layer on the left and by window on the right. -/
theorem ops_eq_windows :
    (ops : List (HloOp τ sig (Elt F)))
      = (opsPre ++ opsL0a) ++ ((opsL0b ++ opsL1a) ++ ((opsL1b ++ opsL2a) ++ ((opsL2b ++ opsL3a) ++ ((opsL3b ++ opsL4a)
          ++ (opsL4b ++ (opsL5a ++ ((opsL5b ++ opsL6a) ++ ((opsL6b ++ opsL7a) ++ (opsL7b ++ opsPost))))))))) := by
  simp only [ops, opsL0, opsL1, opsL2, opsL3, opsL4, opsL5, opsL6, opsL7, List.append_assoc]

/-- @main is its windows in order, each a straight line: the straight line of their lists appended. -/
theorem main_eq_windows (c : Dev nD) :
    main (F := F) c
      = seq ((opsPre ++ opsL0a) ++ ((opsL0b ++ opsL1a) ++ ((opsL1b ++ opsL2a) ++ ((opsL2b ++ opsL3a) ++ ((opsL3b ++ opsL4a)
          ++ (opsL4b ++ (opsL5a ++ ((opsL5b ++ opsL6a) ++ ((opsL6b ++ opsL7a) ++ (opsL7b ++ opsPost)))))))))) := by
  unfold main
  exact bind_seq (main_part0_eq c) <| bind_seq (main_part1_eq c) <| bind_seq (main_part2_eq c) <|
    bind_seq (main_part3_eq c) <| bind_seq (main_part4_eq c) <| bind_seq (main_part5_eq c) <|
    bind_seq (main_part6_eq c) <| bind_seq (main_part7_eq c) <| bind_seq (main_part8_eq c) (main_part9_eq c)

/-- @main is the straight line of the layer list. -/
theorem main_eq (c : Dev nD) : main (F := F) c = seq ops :=
  (main_eq_windows c).trans (congrArg seq ops_eq_windows.symm)

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    on the TensorCores terminates, and every final state has each TensorCore buffer at the fold of the operations'
    results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.Hand.RefRun

end
-- ==== Proof.RStretchVals.lean ====
/-
  The reference program's values as explicit terms of its arguments' contents at launch: the edge lists, the edge weights,
  the first activations and the residual, the activations after each of the eight layers, and the result; and the record of
  what every layer finds unchanged in the contents it starts from.
-/
import proofs.«104804_j42004780155161_1_alg».proof.Proof.Terms
import proofs.«104804_j42004780155161_1_alg».proof.Proof.Gen.ReferenceIdeal
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms

variable {F : FTy → Type} [FloatOps F]

/-! ## The reference program's values, from the contents `V` of its arguments at launch -/

/-- The 50000 × 64 results' array type. -/
abbrev Out (F : FTy → Type) := (⟨S50000x64, .f32⟩ : BufTy).Contents (Elt F)

/-- The sources of the edges. -/
def RRow (V : Valuation τ sig (Elt F)) : Ix F := rowT (V (main_arg1 : DevRef τ sig))
/-- The targets of the edges. -/
def RCol (V : Valuation τ sig (Elt F)) : Ix F := colT (V (main_arg1 : DevRef τ sig))
/-- The edge weights. -/
def RNorm (V : Valuation τ sig (Elt F)) : Edge F := normT (RRow V) (RCol V)

/-- The first activations: input · weight + bias. -/
def RH0 (V : Valuation τ sig (Elt F)) : Act F :=
  (addf : Act F → Act F → Act F)
    (Host.dotGeneral dot_S50000x64_S64x128_S50000x128_1_0_0_1_n_n none
      (V (main_arg0 : DevRef τ sig)) (V (main_arg2 : DevRef τ sig)))
    (bcRow (V (main_arg3 : DevRef τ sig)))

/-- The residual: half of the first activations. -/
def RX0 (V : Valuation τ sig (Elt F)) : Act F := (mulf : Act F → Act F → Act F) (splatA 0x3F000000#32) (RH0 V)

/-- The activations after layer 0. -/
def RH1 (V : Valuation τ sig (Elt F)) : Act F :=
  rlayerT 0x3E9D1BD0#32 0x3F317218#32 (RRow V) (RCol V) (RNorm V) (RX0 V)
    (w3T 0 slices_S8x128x128_S1x128x128_0_0_0 (V (main_arg4 : DevRef τ sig)))
    (w3T 0 slices_S8x128x128_S1x128x128_0_0_0 (V (main_arg5 : DevRef τ sig)))
    (r2T 0 slices_S8x128_S1x128_0_0 (V (main_arg6 : DevRef τ sig)))
    (r2T 0 slices_S8x128_S1x128_0_0 (V (main_arg7 : DevRef τ sig)))
    (RH0 V)

/-- The activations after layer 1. -/
def RH2 (V : Valuation τ sig (Elt F)) : Act F :=
  rlayerT 0x3F183370#32 0x3ECF991F#32 (RRow V) (RCol V) (RNorm V) (RX0 V)
    (w3T 1 slices_S8x128x128_S1x128x128_1_0_0 (V (main_arg4 : DevRef τ sig)))
    (w3T 1 slices_S8x128x128_S1x128x128_1_0_0 (V (main_arg5 : DevRef τ sig)))
    (r2T 1 slices_S8x128_S1x128_1_0 (V (main_arg6 : DevRef τ sig)))
    (r2T 1 slices_S8x128_S1x128_1_0 (V (main_arg7 : DevRef τ sig)))
    (RH1 V)

/-- The activations after layer 2. -/
def RH3 (V : Valuation τ sig (Elt F)) : Act F :=
  rlayerT 0x3F365A78#32 0x3E934B11#32 (RRow V) (RCol V) (RNorm V) (RX0 V)
    (w3T 2 slices_S8x128x128_S1x128x128_2_0_0 (V (main_arg4 : DevRef τ sig)))
    (w3T 2 slices_S8x128x128_S1x128x128_2_0_0 (V (main_arg5 : DevRef τ sig)))
    (r2T 2 slices_S8x128_S1x128_2_0 (V (main_arg6 : DevRef τ sig)))
    (r2T 2 slices_S8x128_S1x128_2_0 (V (main_arg7 : DevRef τ sig)))
    (RH2 V)

/-- The activations after layer 3. -/
def RH4 (V : Valuation τ sig (Elt F)) : Act F :=
  rlayerT 0x3F46E010#32 0x3E647FBE#32 (RRow V) (RCol V) (RNorm V) (RX0 V)
    (w3T 3 slices_S8x128x128_S1x128x128_3_0_0 (V (main_arg4 : DevRef τ sig)))
    (w3T 3 slices_S8x128x128_S1x128x128_3_0_0 (V (main_arg5 : DevRef τ sig)))
    (r2T 3 slices_S8x128_S1x128_3_0 (V (main_arg6 : DevRef τ sig)))
    (r2T 3 slices_S8x128_S1x128_3_0 (V (main_arg7 : DevRef τ sig)))
    (RH3 V)

/-- The activations after layer 4. -/
def RH5 (V : Valuation τ sig (Elt F)) : Act F :=
  rlayerT 0x3F515360#32 0x3E3AB281#32 (RRow V) (RCol V) (RNorm V) (RX0 V)
    (w3T 4 slices_S8x128x128_S1x128x128_4_0_0 (V (main_arg4 : DevRef τ sig)))
    (w3T 4 slices_S8x128x128_S1x128x128_4_0_0 (V (main_arg5 : DevRef τ sig)))
    (r2T 4 slices_S8x128_S1x128_4_0 (V (main_arg6 : DevRef τ sig)))
    (r2T 4 slices_S8x128_S1x128_4_0 (V (main_arg7 : DevRef τ sig)))
    (RH4 V)

/-- The activations after layer 5. -/
def RH6 (V : Valuation τ sig (Elt F)) : Act F :=
  rlayerT 0x3F588995#32 0x3E1DD9AD#32 (RRow V) (RCol V) (RNorm V) (RX0 V)
    (w3T 5 slices_S8x128x128_S1x128x128_5_0_0 (V (main_arg4 : DevRef τ sig)))
    (w3T 5 slices_S8x128x128_S1x128x128_5_0_0 (V (main_arg5 : DevRef τ sig)))
    (r2T 5 slices_S8x128_S1x128_5_0 (V (main_arg6 : DevRef τ sig)))
    (r2T 5 slices_S8x128_S1x128_5_0 (V (main_arg7 : DevRef τ sig)))
    (RH5 V)

/-- The activations after layer 6. -/
def RH7 (V : Valuation τ sig (Elt F)) : Act F :=
  rlayerT 0x3F5DD0E3#32 0x3E08BC74#32 (RRow V) (RCol V) (RNorm V) (RX0 V)
    (w3T 6 slices_S8x128x128_S1x128x128_6_0_0 (V (main_arg4 : DevRef τ sig)))
    (w3T 6 slices_S8x128x128_S1x128x128_6_0_0 (V (main_arg5 : DevRef τ sig)))
    (r2T 6 slices_S8x128_S1x128_6_0 (V (main_arg6 : DevRef τ sig)))
    (r2T 6 slices_S8x128_S1x128_6_0 (V (main_arg7 : DevRef τ sig)))
    (RH6 V)

/-- The activations after layer 7. -/
def RH8 (V : Valuation τ sig (Elt F)) : Act F :=
  rlayerT 0x3F61D8F9#32 0x3DF1383B#32 (RRow V) (RCol V) (RNorm V) (RX0 V)
    (w3T 7 slices_S8x128x128_S1x128x128_7_0_0 (V (main_arg4 : DevRef τ sig)))
    (w3T 7 slices_S8x128x128_S1x128x128_7_0_0 (V (main_arg5 : DevRef τ sig)))
    (r2T 7 slices_S8x128_S1x128_7_0 (V (main_arg6 : DevRef τ sig)))
    (r2T 7 slices_S8x128_S1x128_7_0 (V (main_arg7 : DevRef τ sig)))
    (RH7 V)

/-- The program's result: last activations · last weight + last bias. -/
def ROut (V : Valuation τ sig (Elt F)) : Out F :=
  (addf : Out F → Out F → Out F)
    (Host.dotGeneral dot_S50000x128_S128x64_S50000x64_1_0_0_1_n_n none (RH8 V) (V (main_arg8 : DevRef τ sig)))
    ((broadcastInDim S50000x64 ![0, 1] bcast_S1x64_S50000x64_0_1 : (⟨S1x64, .f32⟩ : BufTy).Contents (Elt F) → Out F)
      ((broadcastInDim S1x64 ![1] bcast_S64_S1x64_1 :
          (⟨S64, .f32⟩ : BufTy).Contents (Elt F) → (⟨S1x64, .f32⟩ : BufTy).Contents (Elt F))
        (V (main_arg9 : DevRef τ sig))))

/-- What the layers read besides the previous activations, in contents `W` reached from the launch contents `V`:
    the edge lists, the edge weights and the residual hold their values, and the ten arguments are as at launch. -/
structure Live (V W : Valuation τ sig (Elt F)) : Prop where
  v5 : W (main_v5 : DevRef τ sig) = RRow V
  v6 : W (main_v6 : DevRef τ sig) = RCol V
  v29 : W (main_v29 : DevRef τ sig) = RNorm V
  v35 : W (main_v35 : DevRef τ sig) = RX0 V
  arg0 : W (main_arg0 : DevRef τ sig) = V (main_arg0 : DevRef τ sig)
  arg1 : W (main_arg1 : DevRef τ sig) = V (main_arg1 : DevRef τ sig)
  arg2 : W (main_arg2 : DevRef τ sig) = V (main_arg2 : DevRef τ sig)
  arg3 : W (main_arg3 : DevRef τ sig) = V (main_arg3 : DevRef τ sig)
  arg4 : W (main_arg4 : DevRef τ sig) = V (main_arg4 : DevRef τ sig)
  arg5 : W (main_arg5 : DevRef τ sig) = V (main_arg5 : DevRef τ sig)
  arg6 : W (main_arg6 : DevRef τ sig) = V (main_arg6 : DevRef τ sig)
  arg7 : W (main_arg7 : DevRef τ sig) = V (main_arg7 : DevRef τ sig)
  arg8 : W (main_arg8 : DevRef τ sig) = V (main_arg8 : DevRef τ sig)
  arg9 : W (main_arg9 : DevRef τ sig) = V (main_arg9 : DevRef τ sig)

end Cert.Hand.RChain

end
-- ==== Proof.RStretchPre.lean ====
/-
  The reference program before its first layer: what its operations leave in the buffers the layers read.

  The values are stated for ANY contents `V` the operations start from, as the terms of the shared vocabulary applied to
  `V` at the program's arguments; a buffer the operations do not write keeps what `V` had there.
-/
import proofs.«104804_j42004780155161_1_alg».proof.Proof.RStretchVals
import proofs.«104804_j42004780155161_1_alg».proof.Proof.RefOpsPre
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## The stretch before the first layer

  From any contents `V`: the sources and the targets are the two rows of the edge list followed by the self loops; the
  edge weights are the symmetric normalisation; the first activations are the input times the first weight plus the first
  bias, and the residual is half of that. -/

/-- The sources of the edges. -/
theorem pre_v5 (V : Valuation τ sig (Elt F)) :
    after opsPre V (main_v5 : DevRef τ sig) = rowT (V (main_arg1 : DevRef τ sig)) := by
  after_results_simp
  rfl

/-- The targets of the edges. -/
theorem pre_v6 (V : Valuation τ sig (Elt F)) :
    after opsPre V (main_v6 : DevRef τ sig) = colT (V (main_arg1 : DevRef τ sig)) := by
  after_results_simp
  rfl

/-- The edge weights. -/
theorem pre_v29 (V : Valuation τ sig (Elt F)) :
    after opsPre V (main_v29 : DevRef τ sig)
      = normT (rowT (V (main_arg1 : DevRef τ sig))) (colT (V (main_arg1 : DevRef τ sig))) := by
  after_results_simp
  rfl

/-- The first activations: input · weight + bias. -/
theorem pre_v33 (V : Valuation τ sig (Elt F)) :
    after opsPre V (main_v33 : DevRef τ sig)
      = (addf : Act F → Act F → Act F)
          (Host.dotGeneral dot_S50000x64_S64x128_S50000x128_1_0_0_1_n_n none
            (V (main_arg0 : DevRef τ sig)) (V (main_arg2 : DevRef τ sig)))
          (bcRow (V (main_arg3 : DevRef τ sig))) := by
  after_results_simp
  rfl

/-- The residual: half of the first activations. -/
theorem pre_v35 (V : Valuation τ sig (Elt F)) :
    after opsPre V (main_v35 : DevRef τ sig)
      = (mulf : Act F → Act F → Act F) (splatA 0x3F000000#32)
          ((addf : Act F → Act F → Act F)
            (Host.dotGeneral dot_S50000x64_S64x128_S50000x128_1_0_0_1_n_n none
              (V (main_arg0 : DevRef τ sig)) (V (main_arg2 : DevRef τ sig)))
            (bcRow (V (main_arg3 : DevRef τ sig)))) := by
  after_results_simp
  rfl

/-- The references this stretch writes. -/
abbrev opsPre_W : List (Ref sig .tc) :=
  [main_v0, main_v1, main_v2, main_v3, main_v4, main_v5, main_v6, main_cst, main_v7, main_cst_0, main_v8, main_v9, main_v10,
   main_cst_1, main_v11, main_v12, main_v13, main_cst_2, main_call0.v0.ref, main_call0.v1.ref, main_call0.v2.ref, main_c,
   main_v15, main_v16, main_c_3, main_v17, main_v18, main_v19, main_v20, main_v21, main_c_4, main_v22, main_v23, main_c_5,
   main_v24, main_v25, main_v26, main_v27, main_v28, main_v29, main_v30, main_v31, main_v32, main_v33, main_cst_6, main_v34,
   main_v35]

theorem opsPre_writes : (opsPre : List (HloOp τ sig (Elt F))).Forall fun op =>
    op.writes ⊆ (opsPre_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference this stretch does not write keeps its contents. -/
theorem pre_keep (V : Valuation τ sig (Elt F)) (r : Ref sig .tc) (h : r ∉ opsPre_W) :
    after opsPre V (Proc.devRef .tc r) = V (Proc.devRef .tc r) :=
  after_of_writes_sub opsPre V opsPre_writes h

/-- After this stretch the edge lists, the edge weights and the residual hold their values and the arguments are as at
    launch. -/
theorem livePre (V : Valuation τ sig (Elt F)) : Live V (after opsPre V) where
  v5 := pre_v5 V
  v6 := pre_v6 V
  v29 := pre_v29 V
  v35 := pre_v35 V
  arg0 := pre_keep V main_arg0 (by decide)
  arg1 := pre_keep V main_arg1 (by decide)
  arg2 := pre_keep V main_arg2 (by decide)
  arg3 := pre_keep V main_arg3 (by decide)
  arg4 := pre_keep V main_arg4 (by decide)
  arg5 := pre_keep V main_arg5 (by decide)
  arg6 := pre_keep V main_arg6 (by decide)
  arg7 := pre_keep V main_arg7 (by decide)
  arg8 := pre_keep V main_arg8 (by decide)
  arg9 := pre_keep V main_arg9 (by decide)

/-- After this stretch the first activations hold their value. -/
theorem nextPre (V : Valuation τ sig (Elt F)) : after opsPre V (main_v33 : DevRef τ sig) = RH0 V := pre_v33 V

end Cert.Hand.RChain

end
-- ==== Proof.RStretchL0.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL0a
import proofs.«104804_j42004780155161_1_alg».proof.Proof.RefOpsL0b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer0 (V : Valuation τ sig (Elt F)) :
    after opsL0b (after opsL0a V) (main_v86 : DevRef τ sig)
      = rlayerT 0x3E9D1BD0#32 0x3F317218#32
          (V (main_v5 : DevRef τ sig)) (V (main_v6 : DevRef τ sig)) (V (main_v29 : DevRef τ sig))
          (V (main_v35 : DevRef τ sig))
          (w3T 0 slices_S8x128x128_S1x128x128_0_0_0 (V (main_arg4 : DevRef τ sig)))
          (w3T 0 slices_S8x128x128_S1x128x128_0_0_0 (V (main_arg5 : DevRef τ sig)))
          (r2T 0 slices_S8x128_S1x128_0_0 (V (main_arg6 : DevRef τ sig)))
          (r2T 0 slices_S8x128_S1x128_0_0 (V (main_arg7 : DevRef τ sig)))
          (V (main_v33 : DevRef τ sig)) := by
  after_results_simp
  rfl

/-- The references the layer writes. -/
abbrev opsL0_W : List (Ref sig .tc) :=
  [
   main_v36, main_c_7, main_v37, main_v38, main_c_8, main_v39, main_v40, main_v41, main_v42, main_v43, main_v44,
   main_v45, main_cst_9, main_v46, main_v47, main_v48, main_cst_10, main_v49, main_v50, main_cst_11, main_v51,
   main_v52, main_v53, main_v54, main_v55, main_cst_12, main_v56, main_v57, main_v58, main_cst_13, main_v59,
   main_v60, main_v61, main_v62, main_v63, main_v64, main_cst_14, main_v65, main_v66, main_v67, main_v68, main_v69,
   main_v70, main_v71, main_cst_15, main_v72, main_cst_16, main_v73, main_v74, main_v75, main_c_17,
   main_call1.call0.cst.ref, main_call1.call0.v0.ref, main_call1.call0.v1.ref, main_call1.call0.cst_0.ref,
   main_call1.call0.v2.ref, main_call1.call0.v3.ref, main_call1.call0.v4.ref, main_call1.call0.v5.ref,
   main_call1.call0.v6.ref, main_call1.call0.v7.ref, main_call1.call0.cst_1.ref, main_call1.call0.v8.ref,
   main_call1.call0.cst_2.ref, main_call1.call0.v9.ref, main_call1.call0.v10.ref, main_call1.call0.cst_3.ref,
   main_call1.call0.v11.ref, main_call1.call0.cst_4.ref, main_call1.call0.call0.v0.ref,
   main_call1.call0.call0.v1.ref, main_call1.v1.ref, main_cst_18, main_v77, main_v78, main_v79, main_v80, main_v81,
   main_v82, main_v83, main_v84, main_v85, main_call2.cst.ref, main_call2.v0.ref, main_call2.v1.ref ]

theorem opsL0a_writes : (opsL0a : List (HloOp τ sig (Elt F))).Forall fun op =>
    op.writes ⊆ (opsL0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL0b_writes : (opsL0b : List (HloOp τ sig (Elt F))).Forall fun op =>
    op.writes ⊆ (opsL0_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l0_keep (V : Valuation τ sig (Elt F)) (r : Ref sig .tc) (h : r ∉ opsL0_W) :
    after opsL0b (after opsL0a V) (Proc.devRef .tc r) = V (Proc.devRef .tc r) := by
  rw [after_of_writes_sub opsL0b _ opsL0b_writes h, after_of_writes_sub opsL0a _ opsL0a_writes h]

/-- The layer leaves the edge lists, the edge weights, the residual and the arguments as it found them. -/
theorem live0 {V W : Valuation τ sig (Elt F)} (h : Live V W) : Live V (after opsL0b (after opsL0a W)) where
  v5 := (l0_keep W main_v5 (by decide)).trans h.v5
  v6 := (l0_keep W main_v6 (by decide)).trans h.v6
  v29 := (l0_keep W main_v29 (by decide)).trans h.v29
  v35 := (l0_keep W main_v35 (by decide)).trans h.v35
  arg0 := (l0_keep W main_arg0 (by decide)).trans h.arg0
  arg1 := (l0_keep W main_arg1 (by decide)).trans h.arg1
  arg2 := (l0_keep W main_arg2 (by decide)).trans h.arg2
  arg3 := (l0_keep W main_arg3 (by decide)).trans h.arg3
  arg4 := (l0_keep W main_arg4 (by decide)).trans h.arg4
  arg5 := (l0_keep W main_arg5 (by decide)).trans h.arg5
  arg6 := (l0_keep W main_arg6 (by decide)).trans h.arg6
  arg7 := (l0_keep W main_arg7 (by decide)).trans h.arg7
  arg8 := (l0_keep W main_arg8 (by decide)).trans h.arg8
  arg9 := (l0_keep W main_arg9 (by decide)).trans h.arg9

/-- The layer turns the previous activations into the next. -/
theorem next0 {V W : Valuation τ sig (Elt F)} (h : Live V W) (hh : W (main_v33 : DevRef τ sig) = RH0 V) :
    after opsL0b (after opsL0a W) (main_v86 : DevRef τ sig) = RH1 V := by
  rw [layer0, h.v5, h.v6, h.v29, h.v35, h.arg4, h.arg5, h.arg6, h.arg7, hh]
  rfl

end Cert.Hand.RChain

end
-- ==== Proof.RStretchL1.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL1a
import proofs.«104804_j42004780155161_1_alg».proof.Proof.RefOpsL1b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer1 (V : Valuation τ sig (Elt F)) :
    after opsL1b (after opsL1a V) (main_v137 : DevRef τ sig)
      = rlayerT 0x3F183370#32 0x3ECF991F#32
          (V (main_v5 : DevRef τ sig)) (V (main_v6 : DevRef τ sig)) (V (main_v29 : DevRef τ sig))
          (V (main_v35 : DevRef τ sig))
          (w3T 1 slices_S8x128x128_S1x128x128_1_0_0 (V (main_arg4 : DevRef τ sig)))
          (w3T 1 slices_S8x128x128_S1x128x128_1_0_0 (V (main_arg5 : DevRef τ sig)))
          (r2T 1 slices_S8x128_S1x128_1_0 (V (main_arg6 : DevRef τ sig)))
          (r2T 1 slices_S8x128_S1x128_1_0 (V (main_arg7 : DevRef τ sig)))
          (V (main_v86 : DevRef τ sig)) := by
  after_results_simp
  rfl

/-- The references the layer writes. -/
abbrev opsL1_W : List (Ref sig .tc) :=
  [
   main_v87, main_c_19, main_v88, main_v89, main_c_20, main_v90, main_v91, main_v92, main_v93, main_v94, main_v95,
   main_v96, main_cst_21, main_v97, main_v98, main_v99, main_cst_22, main_v100, main_v101, main_cst_23, main_v102,
   main_v103, main_v104, main_v105, main_v106, main_cst_24, main_v107, main_v108, main_v109, main_cst_25, main_v110,
   main_v111, main_v112, main_v113, main_v114, main_v115, main_cst_26, main_v116, main_v117, main_v118, main_v119, main_v120,
   main_v121, main_v122, main_cst_27, main_v123, main_cst_28, main_v124, main_v125, main_v126, main_c_29,
   main_call3.call0.cst.ref, main_call3.call0.v0.ref, main_call3.call0.v1.ref, main_call3.call0.cst_0.ref,
   main_call3.call0.v2.ref, main_call3.call0.v3.ref, main_call3.call0.v4.ref, main_call3.call0.v5.ref,
   main_call3.call0.v6.ref, main_call3.call0.v7.ref, main_call3.call0.cst_1.ref, main_call3.call0.v8.ref,
   main_call3.call0.cst_2.ref, main_call3.call0.v9.ref, main_call3.call0.v10.ref, main_call3.call0.cst_3.ref,
   main_call3.call0.v11.ref, main_call3.call0.cst_4.ref, main_call3.call0.call0.v0.ref,
   main_call3.call0.call0.v1.ref, main_call3.v1.ref, main_cst_30, main_v128, main_v129, main_v130, main_v131, main_v132,
   main_v133, main_v134, main_v135, main_v136, main_call4.cst.ref, main_call4.v0.ref, main_call4.v1.ref ]

theorem opsL1a_writes : (opsL1a : List (HloOp τ sig (Elt F))).Forall fun op =>
    op.writes ⊆ (opsL1_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL1b_writes : (opsL1b : List (HloOp τ sig (Elt F))).Forall fun op =>
    op.writes ⊆ (opsL1_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l1_keep (V : Valuation τ sig (Elt F)) (r : Ref sig .tc) (h : r ∉ opsL1_W) :
    after opsL1b (after opsL1a V) (Proc.devRef .tc r) = V (Proc.devRef .tc r) := by
  rw [after_of_writes_sub opsL1b _ opsL1b_writes h, after_of_writes_sub opsL1a _ opsL1a_writes h]

/-- The layer leaves the edge lists, the edge weights, the residual and the arguments as it found them. -/
theorem live1 {V W : Valuation τ sig (Elt F)} (h : Live V W) : Live V (after opsL1b (after opsL1a W)) where
  v5 := (l1_keep W main_v5 (by decide)).trans h.v5
  v6 := (l1_keep W main_v6 (by decide)).trans h.v6
  v29 := (l1_keep W main_v29 (by decide)).trans h.v29
  v35 := (l1_keep W main_v35 (by decide)).trans h.v35
  arg0 := (l1_keep W main_arg0 (by decide)).trans h.arg0
  arg1 := (l1_keep W main_arg1 (by decide)).trans h.arg1
  arg2 := (l1_keep W main_arg2 (by decide)).trans h.arg2
  arg3 := (l1_keep W main_arg3 (by decide)).trans h.arg3
  arg4 := (l1_keep W main_arg4 (by decide)).trans h.arg4
  arg5 := (l1_keep W main_arg5 (by decide)).trans h.arg5
  arg6 := (l1_keep W main_arg6 (by decide)).trans h.arg6
  arg7 := (l1_keep W main_arg7 (by decide)).trans h.arg7
  arg8 := (l1_keep W main_arg8 (by decide)).trans h.arg8
  arg9 := (l1_keep W main_arg9 (by decide)).trans h.arg9

/-- The layer turns the previous activations into the next. -/
theorem next1 {V W : Valuation τ sig (Elt F)} (h : Live V W) (hh : W (main_v86 : DevRef τ sig) = RH1 V) :
    after opsL1b (after opsL1a W) (main_v137 : DevRef τ sig) = RH2 V := by
  rw [layer1, h.v5, h.v6, h.v29, h.v35, h.arg4, h.arg5, h.arg6, h.arg7, hh]
  rfl

end Cert.Hand.RChain

end
-- ==== Proof.RStretchL2.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL2a
import proofs.«104804_j42004780155161_1_alg».proof.Proof.RefOpsL2b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer2 (V : Valuation τ sig (Elt F)) :
    after opsL2b (after opsL2a V) (main_v188 : DevRef τ sig)
      = rlayerT 0x3F365A78#32 0x3E934B11#32
          (V (main_v5 : DevRef τ sig)) (V (main_v6 : DevRef τ sig)) (V (main_v29 : DevRef τ sig))
          (V (main_v35 : DevRef τ sig))
          (w3T 2 slices_S8x128x128_S1x128x128_2_0_0 (V (main_arg4 : DevRef τ sig)))
          (w3T 2 slices_S8x128x128_S1x128x128_2_0_0 (V (main_arg5 : DevRef τ sig)))
          (r2T 2 slices_S8x128_S1x128_2_0 (V (main_arg6 : DevRef τ sig)))
          (r2T 2 slices_S8x128_S1x128_2_0 (V (main_arg7 : DevRef τ sig)))
          (V (main_v137 : DevRef τ sig)) := by
  after_results_simp
  rfl

/-- The references the layer writes. -/
abbrev opsL2_W : List (Ref sig .tc) :=
  [
   main_v138, main_c_31, main_v139, main_v140, main_c_32, main_v141, main_v142, main_v143, main_v144, main_v145, main_v146,
   main_v147, main_cst_33, main_v148, main_v149, main_v150, main_cst_34, main_v151, main_v152, main_cst_35, main_v153,
   main_v154, main_v155, main_v156, main_v157, main_cst_36, main_v158, main_v159, main_v160, main_cst_37, main_v161,
   main_v162, main_v163, main_v164, main_v165, main_v166, main_cst_38, main_v167, main_v168, main_v169, main_v170, main_v171,
   main_v172, main_v173, main_cst_39, main_v174, main_cst_40, main_v175, main_v176, main_v177, main_c_41,
   main_call5.call0.cst.ref, main_call5.call0.v0.ref, main_call5.call0.v1.ref, main_call5.call0.cst_0.ref,
   main_call5.call0.v2.ref, main_call5.call0.v3.ref, main_call5.call0.v4.ref, main_call5.call0.v5.ref,
   main_call5.call0.v6.ref, main_call5.call0.v7.ref, main_call5.call0.cst_1.ref, main_call5.call0.v8.ref,
   main_call5.call0.cst_2.ref, main_call5.call0.v9.ref, main_call5.call0.v10.ref, main_call5.call0.cst_3.ref,
   main_call5.call0.v11.ref, main_call5.call0.cst_4.ref, main_call5.call0.call0.v0.ref,
   main_call5.call0.call0.v1.ref, main_call5.v1.ref, main_cst_42, main_v179, main_v180, main_v181, main_v182, main_v183,
   main_v184, main_v185, main_v186, main_v187, main_call6.cst.ref, main_call6.v0.ref, main_call6.v1.ref ]

theorem opsL2a_writes : (opsL2a : List (HloOp τ sig (Elt F))).Forall fun op =>
    op.writes ⊆ (opsL2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL2b_writes : (opsL2b : List (HloOp τ sig (Elt F))).Forall fun op =>
    op.writes ⊆ (opsL2_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l2_keep (V : Valuation τ sig (Elt F)) (r : Ref sig .tc) (h : r ∉ opsL2_W) :
    after opsL2b (after opsL2a V) (Proc.devRef .tc r) = V (Proc.devRef .tc r) := by
  rw [after_of_writes_sub opsL2b _ opsL2b_writes h, after_of_writes_sub opsL2a _ opsL2a_writes h]

/-- The layer leaves the edge lists, the edge weights, the residual and the arguments as it found them. -/
theorem live2 {V W : Valuation τ sig (Elt F)} (h : Live V W) : Live V (after opsL2b (after opsL2a W)) where
  v5 := (l2_keep W main_v5 (by decide)).trans h.v5
  v6 := (l2_keep W main_v6 (by decide)).trans h.v6
  v29 := (l2_keep W main_v29 (by decide)).trans h.v29
  v35 := (l2_keep W main_v35 (by decide)).trans h.v35
  arg0 := (l2_keep W main_arg0 (by decide)).trans h.arg0
  arg1 := (l2_keep W main_arg1 (by decide)).trans h.arg1
  arg2 := (l2_keep W main_arg2 (by decide)).trans h.arg2
  arg3 := (l2_keep W main_arg3 (by decide)).trans h.arg3
  arg4 := (l2_keep W main_arg4 (by decide)).trans h.arg4
  arg5 := (l2_keep W main_arg5 (by decide)).trans h.arg5
  arg6 := (l2_keep W main_arg6 (by decide)).trans h.arg6
  arg7 := (l2_keep W main_arg7 (by decide)).trans h.arg7
  arg8 := (l2_keep W main_arg8 (by decide)).trans h.arg8
  arg9 := (l2_keep W main_arg9 (by decide)).trans h.arg9

/-- The layer turns the previous activations into the next. -/
theorem next2 {V W : Valuation τ sig (Elt F)} (h : Live V W) (hh : W (main_v137 : DevRef τ sig) = RH2 V) :
    after opsL2b (after opsL2a W) (main_v188 : DevRef τ sig) = RH3 V := by
  rw [layer2, h.v5, h.v6, h.v29, h.v35, h.arg4, h.arg5, h.arg6, h.arg7, hh]
  rfl

end Cert.Hand.RChain

end
-- ==== Proof.RStretchL3.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL3a
import proofs.«104804_j42004780155161_1_alg».proof.Proof.RefOpsL3b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer3 (V : Valuation τ sig (Elt F)) :
    after opsL3b (after opsL3a V) (main_v239 : DevRef τ sig)
      = rlayerT 0x3F46E010#32 0x3E647FBE#32
          (V (main_v5 : DevRef τ sig)) (V (main_v6 : DevRef τ sig)) (V (main_v29 : DevRef τ sig))
          (V (main_v35 : DevRef τ sig))
          (w3T 3 slices_S8x128x128_S1x128x128_3_0_0 (V (main_arg4 : DevRef τ sig)))
          (w3T 3 slices_S8x128x128_S1x128x128_3_0_0 (V (main_arg5 : DevRef τ sig)))
          (r2T 3 slices_S8x128_S1x128_3_0 (V (main_arg6 : DevRef τ sig)))
          (r2T 3 slices_S8x128_S1x128_3_0 (V (main_arg7 : DevRef τ sig)))
          (V (main_v188 : DevRef τ sig)) := by
  after_results_simp
  rfl

/-- The references the layer writes. -/
abbrev opsL3_W : List (Ref sig .tc) :=
  [
   main_v189, main_c_43, main_v190, main_v191, main_c_44, main_v192, main_v193, main_v194, main_v195, main_v196, main_v197,
   main_v198, main_cst_45, main_v199, main_v200, main_v201, main_cst_46, main_v202, main_v203, main_cst_47, main_v204,
   main_v205, main_v206, main_v207, main_v208, main_cst_48, main_v209, main_v210, main_v211, main_cst_49, main_v212,
   main_v213, main_v214, main_v215, main_v216, main_v217, main_cst_50, main_v218, main_v219, main_v220, main_v221, main_v222,
   main_v223, main_v224, main_cst_51, main_v225, main_cst_52, main_v226, main_v227, main_v228, main_c_53,
   main_call7.call0.cst.ref, main_call7.call0.v0.ref, main_call7.call0.v1.ref, main_call7.call0.cst_0.ref,
   main_call7.call0.v2.ref, main_call7.call0.v3.ref, main_call7.call0.v4.ref, main_call7.call0.v5.ref,
   main_call7.call0.v6.ref, main_call7.call0.v7.ref, main_call7.call0.cst_1.ref, main_call7.call0.v8.ref,
   main_call7.call0.cst_2.ref, main_call7.call0.v9.ref, main_call7.call0.v10.ref, main_call7.call0.cst_3.ref,
   main_call7.call0.v11.ref, main_call7.call0.cst_4.ref, main_call7.call0.call0.v0.ref,
   main_call7.call0.call0.v1.ref, main_call7.v1.ref, main_cst_54, main_v230, main_v231, main_v232, main_v233, main_v234,
   main_v235, main_v236, main_v237, main_v238, main_call8.cst.ref, main_call8.v0.ref, main_call8.v1.ref ]

theorem opsL3a_writes : (opsL3a : List (HloOp τ sig (Elt F))).Forall fun op =>
    op.writes ⊆ (opsL3_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL3b_writes : (opsL3b : List (HloOp τ sig (Elt F))).Forall fun op =>
    op.writes ⊆ (opsL3_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l3_keep (V : Valuation τ sig (Elt F)) (r : Ref sig .tc) (h : r ∉ opsL3_W) :
    after opsL3b (after opsL3a V) (Proc.devRef .tc r) = V (Proc.devRef .tc r) := by
  rw [after_of_writes_sub opsL3b _ opsL3b_writes h, after_of_writes_sub opsL3a _ opsL3a_writes h]

/-- The layer leaves the edge lists, the edge weights, the residual and the arguments as it found them. -/
theorem live3 {V W : Valuation τ sig (Elt F)} (h : Live V W) : Live V (after opsL3b (after opsL3a W)) where
  v5 := (l3_keep W main_v5 (by decide)).trans h.v5
  v6 := (l3_keep W main_v6 (by decide)).trans h.v6
  v29 := (l3_keep W main_v29 (by decide)).trans h.v29
  v35 := (l3_keep W main_v35 (by decide)).trans h.v35
  arg0 := (l3_keep W main_arg0 (by decide)).trans h.arg0
  arg1 := (l3_keep W main_arg1 (by decide)).trans h.arg1
  arg2 := (l3_keep W main_arg2 (by decide)).trans h.arg2
  arg3 := (l3_keep W main_arg3 (by decide)).trans h.arg3
  arg4 := (l3_keep W main_arg4 (by decide)).trans h.arg4
  arg5 := (l3_keep W main_arg5 (by decide)).trans h.arg5
  arg6 := (l3_keep W main_arg6 (by decide)).trans h.arg6
  arg7 := (l3_keep W main_arg7 (by decide)).trans h.arg7
  arg8 := (l3_keep W main_arg8 (by decide)).trans h.arg8
  arg9 := (l3_keep W main_arg9 (by decide)).trans h.arg9

/-- The layer turns the previous activations into the next. -/
theorem next3 {V W : Valuation τ sig (Elt F)} (h : Live V W) (hh : W (main_v188 : DevRef τ sig) = RH3 V) :
    after opsL3b (after opsL3a W) (main_v239 : DevRef τ sig) = RH4 V := by
  rw [layer3, h.v5, h.v6, h.v29, h.v35, h.arg4, h.arg5, h.arg6, h.arg7, hh]
  rfl

end Cert.Hand.RChain

end
-- ==== Proof.RStretchL4.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL4a
import proofs.«104804_j42004780155161_1_alg».proof.Proof.RefOpsL4b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer4 (V : Valuation τ sig (Elt F)) :
    after opsL4b (after opsL4a V) (main_v290 : DevRef τ sig)
      = rlayerT 0x3F515360#32 0x3E3AB281#32
          (V (main_v5 : DevRef τ sig)) (V (main_v6 : DevRef τ sig)) (V (main_v29 : DevRef τ sig))
          (V (main_v35 : DevRef τ sig))
          (w3T 4 slices_S8x128x128_S1x128x128_4_0_0 (V (main_arg4 : DevRef τ sig)))
          (w3T 4 slices_S8x128x128_S1x128x128_4_0_0 (V (main_arg5 : DevRef τ sig)))
          (r2T 4 slices_S8x128_S1x128_4_0 (V (main_arg6 : DevRef τ sig)))
          (r2T 4 slices_S8x128_S1x128_4_0 (V (main_arg7 : DevRef τ sig)))
          (V (main_v239 : DevRef τ sig)) := by
  after_results_simp
  rfl

/-- The references the layer writes. -/
abbrev opsL4_W : List (Ref sig .tc) :=
  [
   main_v240, main_c_55, main_v241, main_v242, main_c_56, main_v243, main_v244, main_v245, main_v246, main_v247, main_v248,
   main_v249, main_cst_57, main_v250, main_v251, main_v252, main_cst_58, main_v253, main_v254, main_cst_59, main_v255,
   main_v256, main_v257, main_v258, main_v259, main_cst_60, main_v260, main_v261, main_v262, main_cst_61, main_v263,
   main_v264, main_v265, main_v266, main_v267, main_v268, main_cst_62, main_v269, main_v270, main_v271, main_v272, main_v273,
   main_v274, main_v275, main_cst_63, main_v276, main_cst_64, main_v277, main_v278, main_v279, main_c_65,
   main_call9.call0.cst.ref, main_call9.call0.v0.ref, main_call9.call0.v1.ref, main_call9.call0.cst_0.ref,
   main_call9.call0.v2.ref, main_call9.call0.v3.ref, main_call9.call0.v4.ref, main_call9.call0.v5.ref,
   main_call9.call0.v6.ref, main_call9.call0.v7.ref, main_call9.call0.cst_1.ref, main_call9.call0.v8.ref,
   main_call9.call0.cst_2.ref, main_call9.call0.v9.ref, main_call9.call0.v10.ref, main_call9.call0.cst_3.ref,
   main_call9.call0.v11.ref, main_call9.call0.cst_4.ref, main_call9.call0.call0.v0.ref,
   main_call9.call0.call0.v1.ref, main_call9.v1.ref, main_cst_66, main_v281, main_v282, main_v283, main_v284, main_v285,
   main_v286, main_v287, main_v288, main_v289, main_call10.cst.ref, main_call10.v0.ref, main_call10.v1.ref ]

theorem opsL4a_writes : (opsL4a : List (HloOp τ sig (Elt F))).Forall fun op =>
    op.writes ⊆ (opsL4_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL4b_writes : (opsL4b : List (HloOp τ sig (Elt F))).Forall fun op =>
    op.writes ⊆ (opsL4_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l4_keep (V : Valuation τ sig (Elt F)) (r : Ref sig .tc) (h : r ∉ opsL4_W) :
    after opsL4b (after opsL4a V) (Proc.devRef .tc r) = V (Proc.devRef .tc r) := by
  rw [after_of_writes_sub opsL4b _ opsL4b_writes h, after_of_writes_sub opsL4a _ opsL4a_writes h]

/-- The layer leaves the edge lists, the edge weights, the residual and the arguments as it found them. -/
theorem live4 {V W : Valuation τ sig (Elt F)} (h : Live V W) : Live V (after opsL4b (after opsL4a W)) where
  v5 := (l4_keep W main_v5 (by decide)).trans h.v5
  v6 := (l4_keep W main_v6 (by decide)).trans h.v6
  v29 := (l4_keep W main_v29 (by decide)).trans h.v29
  v35 := (l4_keep W main_v35 (by decide)).trans h.v35
  arg0 := (l4_keep W main_arg0 (by decide)).trans h.arg0
  arg1 := (l4_keep W main_arg1 (by decide)).trans h.arg1
  arg2 := (l4_keep W main_arg2 (by decide)).trans h.arg2
  arg3 := (l4_keep W main_arg3 (by decide)).trans h.arg3
  arg4 := (l4_keep W main_arg4 (by decide)).trans h.arg4
  arg5 := (l4_keep W main_arg5 (by decide)).trans h.arg5
  arg6 := (l4_keep W main_arg6 (by decide)).trans h.arg6
  arg7 := (l4_keep W main_arg7 (by decide)).trans h.arg7
  arg8 := (l4_keep W main_arg8 (by decide)).trans h.arg8
  arg9 := (l4_keep W main_arg9 (by decide)).trans h.arg9

/-- The layer turns the previous activations into the next. -/
theorem next4 {V W : Valuation τ sig (Elt F)} (h : Live V W) (hh : W (main_v239 : DevRef τ sig) = RH4 V) :
    after opsL4b (after opsL4a W) (main_v290 : DevRef τ sig) = RH5 V := by
  rw [layer4, h.v5, h.v6, h.v29, h.v35, h.arg4, h.arg5, h.arg6, h.arg7, hh]
  rfl

end Cert.Hand.RChain

end
-- ==== Proof.RStretchL5.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL5a
import proofs.«104804_j42004780155161_1_alg».proof.Proof.RefOpsL5b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer5 (V : Valuation τ sig (Elt F)) :
    after opsL5b (after opsL5a V) (main_v341 : DevRef τ sig)
      = rlayerT 0x3F588995#32 0x3E1DD9AD#32
          (V (main_v5 : DevRef τ sig)) (V (main_v6 : DevRef τ sig)) (V (main_v29 : DevRef τ sig))
          (V (main_v35 : DevRef τ sig))
          (w3T 5 slices_S8x128x128_S1x128x128_5_0_0 (V (main_arg4 : DevRef τ sig)))
          (w3T 5 slices_S8x128x128_S1x128x128_5_0_0 (V (main_arg5 : DevRef τ sig)))
          (r2T 5 slices_S8x128_S1x128_5_0 (V (main_arg6 : DevRef τ sig)))
          (r2T 5 slices_S8x128_S1x128_5_0 (V (main_arg7 : DevRef τ sig)))
          (V (main_v290 : DevRef τ sig)) := by
  after_results_simp
  rfl

/-- The references the layer writes. -/
abbrev opsL5_W : List (Ref sig .tc) :=
  [
   main_v291, main_c_67, main_v292, main_v293, main_c_68, main_v294, main_v295, main_v296, main_v297, main_v298, main_v299,
   main_v300, main_cst_69, main_v301, main_v302, main_v303, main_cst_70, main_v304, main_v305, main_cst_71, main_v306,
   main_v307, main_v308, main_v309, main_v310, main_cst_72, main_v311, main_v312, main_v313, main_cst_73, main_v314,
   main_v315, main_v316, main_v317, main_v318, main_v319, main_cst_74, main_v320, main_v321, main_v322, main_v323, main_v324,
   main_v325, main_v326, main_cst_75, main_v327, main_cst_76, main_v328, main_v329, main_v330, main_c_77,
   main_call11.call0.cst.ref, main_call11.call0.v0.ref, main_call11.call0.v1.ref, main_call11.call0.cst_0.ref,
   main_call11.call0.v2.ref, main_call11.call0.v3.ref, main_call11.call0.v4.ref, main_call11.call0.v5.ref,
   main_call11.call0.v6.ref, main_call11.call0.v7.ref, main_call11.call0.cst_1.ref, main_call11.call0.v8.ref,
   main_call11.call0.cst_2.ref, main_call11.call0.v9.ref, main_call11.call0.v10.ref, main_call11.call0.cst_3.ref,
   main_call11.call0.v11.ref, main_call11.call0.cst_4.ref, main_call11.call0.call0.v0.ref,
   main_call11.call0.call0.v1.ref, main_call11.v1.ref, main_cst_78, main_v332, main_v333, main_v334, main_v335, main_v336,
   main_v337, main_v338, main_v339, main_v340, main_call12.cst.ref, main_call12.v0.ref, main_call12.v1.ref ]

theorem opsL5a_writes : (opsL5a : List (HloOp τ sig (Elt F))).Forall fun op =>
    op.writes ⊆ (opsL5_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL5b_writes : (opsL5b : List (HloOp τ sig (Elt F))).Forall fun op =>
    op.writes ⊆ (opsL5_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l5_keep (V : Valuation τ sig (Elt F)) (r : Ref sig .tc) (h : r ∉ opsL5_W) :
    after opsL5b (after opsL5a V) (Proc.devRef .tc r) = V (Proc.devRef .tc r) := by
  rw [after_of_writes_sub opsL5b _ opsL5b_writes h, after_of_writes_sub opsL5a _ opsL5a_writes h]

/-- The layer leaves the edge lists, the edge weights, the residual and the arguments as it found them. -/
theorem live5 {V W : Valuation τ sig (Elt F)} (h : Live V W) : Live V (after opsL5b (after opsL5a W)) where
  v5 := (l5_keep W main_v5 (by decide)).trans h.v5
  v6 := (l5_keep W main_v6 (by decide)).trans h.v6
  v29 := (l5_keep W main_v29 (by decide)).trans h.v29
  v35 := (l5_keep W main_v35 (by decide)).trans h.v35
  arg0 := (l5_keep W main_arg0 (by decide)).trans h.arg0
  arg1 := (l5_keep W main_arg1 (by decide)).trans h.arg1
  arg2 := (l5_keep W main_arg2 (by decide)).trans h.arg2
  arg3 := (l5_keep W main_arg3 (by decide)).trans h.arg3
  arg4 := (l5_keep W main_arg4 (by decide)).trans h.arg4
  arg5 := (l5_keep W main_arg5 (by decide)).trans h.arg5
  arg6 := (l5_keep W main_arg6 (by decide)).trans h.arg6
  arg7 := (l5_keep W main_arg7 (by decide)).trans h.arg7
  arg8 := (l5_keep W main_arg8 (by decide)).trans h.arg8
  arg9 := (l5_keep W main_arg9 (by decide)).trans h.arg9

/-- The layer turns the previous activations into the next. -/
theorem next5 {V W : Valuation τ sig (Elt F)} (h : Live V W) (hh : W (main_v290 : DevRef τ sig) = RH5 V) :
    after opsL5b (after opsL5a W) (main_v341 : DevRef τ sig) = RH6 V := by
  rw [layer5, h.v5, h.v6, h.v29, h.v35, h.arg4, h.arg5, h.arg6, h.arg7, hh]
  rfl

end Cert.Hand.RChain

end
-- ==== Proof.RStretchL6.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL6a
import proofs.«104804_j42004780155161_1_alg».proof.Proof.RefOpsL6b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer6 (V : Valuation τ sig (Elt F)) :
    after opsL6b (after opsL6a V) (main_v392 : DevRef τ sig)
      = rlayerT 0x3F5DD0E3#32 0x3E08BC74#32
          (V (main_v5 : DevRef τ sig)) (V (main_v6 : DevRef τ sig)) (V (main_v29 : DevRef τ sig))
          (V (main_v35 : DevRef τ sig))
          (w3T 6 slices_S8x128x128_S1x128x128_6_0_0 (V (main_arg4 : DevRef τ sig)))
          (w3T 6 slices_S8x128x128_S1x128x128_6_0_0 (V (main_arg5 : DevRef τ sig)))
          (r2T 6 slices_S8x128_S1x128_6_0 (V (main_arg6 : DevRef τ sig)))
          (r2T 6 slices_S8x128_S1x128_6_0 (V (main_arg7 : DevRef τ sig)))
          (V (main_v341 : DevRef τ sig)) := by
  after_results_simp
  rfl

/-- The references the layer writes. -/
abbrev opsL6_W : List (Ref sig .tc) :=
  [
   main_v342, main_c_79, main_v343, main_v344, main_c_80, main_v345, main_v346, main_v347, main_v348, main_v349, main_v350,
   main_v351, main_cst_81, main_v352, main_v353, main_v354, main_cst_82, main_v355, main_v356, main_cst_83, main_v357,
   main_v358, main_v359, main_v360, main_v361, main_cst_84, main_v362, main_v363, main_v364, main_cst_85, main_v365,
   main_v366, main_v367, main_v368, main_v369, main_v370, main_cst_86, main_v371, main_v372, main_v373, main_v374, main_v375,
   main_v376, main_v377, main_cst_87, main_v378, main_cst_88, main_v379, main_v380, main_v381, main_c_89,
   main_call13.call0.cst.ref, main_call13.call0.v0.ref, main_call13.call0.v1.ref, main_call13.call0.cst_0.ref,
   main_call13.call0.v2.ref, main_call13.call0.v3.ref, main_call13.call0.v4.ref, main_call13.call0.v5.ref,
   main_call13.call0.v6.ref, main_call13.call0.v7.ref, main_call13.call0.cst_1.ref, main_call13.call0.v8.ref,
   main_call13.call0.cst_2.ref, main_call13.call0.v9.ref, main_call13.call0.v10.ref, main_call13.call0.cst_3.ref,
   main_call13.call0.v11.ref, main_call13.call0.cst_4.ref, main_call13.call0.call0.v0.ref,
   main_call13.call0.call0.v1.ref, main_call13.v1.ref, main_cst_90, main_v383, main_v384, main_v385, main_v386, main_v387,
   main_v388, main_v389, main_v390, main_v391, main_call14.cst.ref, main_call14.v0.ref, main_call14.v1.ref ]

theorem opsL6a_writes : (opsL6a : List (HloOp τ sig (Elt F))).Forall fun op =>
    op.writes ⊆ (opsL6_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL6b_writes : (opsL6b : List (HloOp τ sig (Elt F))).Forall fun op =>
    op.writes ⊆ (opsL6_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l6_keep (V : Valuation τ sig (Elt F)) (r : Ref sig .tc) (h : r ∉ opsL6_W) :
    after opsL6b (after opsL6a V) (Proc.devRef .tc r) = V (Proc.devRef .tc r) := by
  rw [after_of_writes_sub opsL6b _ opsL6b_writes h, after_of_writes_sub opsL6a _ opsL6a_writes h]

/-- The layer leaves the edge lists, the edge weights, the residual and the arguments as it found them. -/
theorem live6 {V W : Valuation τ sig (Elt F)} (h : Live V W) : Live V (after opsL6b (after opsL6a W)) where
  v5 := (l6_keep W main_v5 (by decide)).trans h.v5
  v6 := (l6_keep W main_v6 (by decide)).trans h.v6
  v29 := (l6_keep W main_v29 (by decide)).trans h.v29
  v35 := (l6_keep W main_v35 (by decide)).trans h.v35
  arg0 := (l6_keep W main_arg0 (by decide)).trans h.arg0
  arg1 := (l6_keep W main_arg1 (by decide)).trans h.arg1
  arg2 := (l6_keep W main_arg2 (by decide)).trans h.arg2
  arg3 := (l6_keep W main_arg3 (by decide)).trans h.arg3
  arg4 := (l6_keep W main_arg4 (by decide)).trans h.arg4
  arg5 := (l6_keep W main_arg5 (by decide)).trans h.arg5
  arg6 := (l6_keep W main_arg6 (by decide)).trans h.arg6
  arg7 := (l6_keep W main_arg7 (by decide)).trans h.arg7
  arg8 := (l6_keep W main_arg8 (by decide)).trans h.arg8
  arg9 := (l6_keep W main_arg9 (by decide)).trans h.arg9

/-- The layer turns the previous activations into the next. -/
theorem next6 {V W : Valuation τ sig (Elt F)} (h : Live V W) (hh : W (main_v341 : DevRef τ sig) = RH6 V) :
    after opsL6b (after opsL6a W) (main_v392 : DevRef τ sig) = RH7 V := by
  rw [layer6, h.v5, h.v6, h.v29, h.v35, h.arg4, h.arg5, h.arg6, h.arg7, hh]
  rfl

end Cert.Hand.RChain

end
-- ==== Proof.RStretchL7.lean ====
/-
  One layer of the reference program: what its operations leave in its result buffer, for ANY contents `V` they start
  from, as the layer function of the shared vocabulary applied to `V` at the buffers the layer reads; that they write no
  buffer outside their own list; and the step of the fold: the record of unchanged buffers is carried on and the previous
  activations become the next.
-/
import proofs.«104804_j42004780155161_1_alg».proof.Proof.RStretchVals
import proofs.«104804_j42004780155161_1_alg».proof.Proof.RefOpsL7a
import proofs.«104804_j42004780155161_1_alg».proof.Proof.RefOpsL7b
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## One layer

  From any contents `V`, the layer's operations leave in its result buffer the layer function of the edge lists, the edge
  weights, the residual, this layer's two weight slabs and two norm rows, and the previous activations, all read from `V`;
  and they write no buffer outside their own list. -/

/-- The layer's result. -/
theorem layer7 (V : Valuation τ sig (Elt F)) :
    after opsL7b (after opsL7a V) (main_v443 : DevRef τ sig)
      = rlayerT 0x3F61D8F9#32 0x3DF1383B#32
          (V (main_v5 : DevRef τ sig)) (V (main_v6 : DevRef τ sig)) (V (main_v29 : DevRef τ sig))
          (V (main_v35 : DevRef τ sig))
          (w3T 7 slices_S8x128x128_S1x128x128_7_0_0 (V (main_arg4 : DevRef τ sig)))
          (w3T 7 slices_S8x128x128_S1x128x128_7_0_0 (V (main_arg5 : DevRef τ sig)))
          (r2T 7 slices_S8x128_S1x128_7_0 (V (main_arg6 : DevRef τ sig)))
          (r2T 7 slices_S8x128_S1x128_7_0 (V (main_arg7 : DevRef τ sig)))
          (V (main_v392 : DevRef τ sig)) := by
  after_results_simp
  rfl

/-- The references the layer writes. -/
abbrev opsL7_W : List (Ref sig .tc) :=
  [
   main_v393, main_c_91, main_v394, main_v395, main_c_92, main_v396, main_v397, main_v398, main_v399, main_v400, main_v401,
   main_v402, main_cst_93, main_v403, main_v404, main_v405, main_cst_94, main_v406, main_v407, main_cst_95, main_v408,
   main_v409, main_v410, main_v411, main_v412, main_cst_96, main_v413, main_v414, main_v415, main_cst_97, main_v416,
   main_v417, main_v418, main_v419, main_v420, main_v421, main_cst_98, main_v422, main_v423, main_v424, main_v425, main_v426,
   main_v427, main_v428, main_cst_99, main_v429, main_cst_100, main_v430, main_v431, main_v432, main_c_101,
   main_call15.call0.cst.ref, main_call15.call0.v0.ref, main_call15.call0.v1.ref, main_call15.call0.cst_0.ref,
   main_call15.call0.v2.ref, main_call15.call0.v3.ref, main_call15.call0.v4.ref, main_call15.call0.v5.ref,
   main_call15.call0.v6.ref, main_call15.call0.v7.ref, main_call15.call0.cst_1.ref, main_call15.call0.v8.ref,
   main_call15.call0.cst_2.ref, main_call15.call0.v9.ref, main_call15.call0.v10.ref, main_call15.call0.cst_3.ref,
   main_call15.call0.v11.ref, main_call15.call0.cst_4.ref, main_call15.call0.call0.v0.ref,
   main_call15.call0.call0.v1.ref, main_call15.v1.ref, main_cst_102, main_v434, main_v435, main_v436, main_v437, main_v438,
   main_v439, main_v440, main_v441, main_v442, main_call16.cst.ref, main_call16.v0.ref, main_call16.v1.ref ]

theorem opsL7a_writes : (opsL7a : List (HloOp τ sig (Elt F))).Forall fun op =>
    op.writes ⊆ (opsL7_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem opsL7b_writes : (opsL7b : List (HloOp τ sig (Elt F))).Forall fun op =>
    op.writes ⊆ (opsL7_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference the layer does not write keeps its contents. -/
theorem l7_keep (V : Valuation τ sig (Elt F)) (r : Ref sig .tc) (h : r ∉ opsL7_W) :
    after opsL7b (after opsL7a V) (Proc.devRef .tc r) = V (Proc.devRef .tc r) := by
  rw [after_of_writes_sub opsL7b _ opsL7b_writes h, after_of_writes_sub opsL7a _ opsL7a_writes h]

/-- The layer leaves the edge lists, the edge weights, the residual and the arguments as it found them. -/
theorem live7 {V W : Valuation τ sig (Elt F)} (h : Live V W) : Live V (after opsL7b (after opsL7a W)) where
  v5 := (l7_keep W main_v5 (by decide)).trans h.v5
  v6 := (l7_keep W main_v6 (by decide)).trans h.v6
  v29 := (l7_keep W main_v29 (by decide)).trans h.v29
  v35 := (l7_keep W main_v35 (by decide)).trans h.v35
  arg0 := (l7_keep W main_arg0 (by decide)).trans h.arg0
  arg1 := (l7_keep W main_arg1 (by decide)).trans h.arg1
  arg2 := (l7_keep W main_arg2 (by decide)).trans h.arg2
  arg3 := (l7_keep W main_arg3 (by decide)).trans h.arg3
  arg4 := (l7_keep W main_arg4 (by decide)).trans h.arg4
  arg5 := (l7_keep W main_arg5 (by decide)).trans h.arg5
  arg6 := (l7_keep W main_arg6 (by decide)).trans h.arg6
  arg7 := (l7_keep W main_arg7 (by decide)).trans h.arg7
  arg8 := (l7_keep W main_arg8 (by decide)).trans h.arg8
  arg9 := (l7_keep W main_arg9 (by decide)).trans h.arg9

/-- The layer turns the previous activations into the next. -/
theorem next7 {V W : Valuation τ sig (Elt F)} (h : Live V W) (hh : W (main_v392 : DevRef τ sig) = RH7 V) :
    after opsL7b (after opsL7a W) (main_v443 : DevRef τ sig) = RH8 V := by
  rw [layer7, h.v5, h.v6, h.v29, h.v35, h.arg4, h.arg5, h.arg6, h.arg7, hh]
  rfl

end Cert.Hand.RChain

end
-- ==== Proof.RStretchPost.lean ====
/-
  The reference program after its last layer: the last linear map's value for ANY contents `V` its four operations start
  from, that they write only their own four buffers, and the last step of the fold.
-/
import proofs.«104804_j42004780155161_1_alg».proof.Proof.RStretchVals
import proofs.«104804_j42004780155161_1_alg».proof.Proof.RefOpsPost
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-! ## The stretch after the last layer

  From any contents `V`: the result is the last activations times the last weight plus the last bias, the bias laid along
  the columns; the four operations write four buffers of their own. -/

/-- The program's result. -/
theorem post_v447 (V : Valuation τ sig (Elt F)) :
    after opsPost V (main_v447 : DevRef τ sig)
      = (addf : Out F → Out F → Out F)
          (Host.dotGeneral dot_S50000x128_S128x64_S50000x64_1_0_0_1_n_n none
            (V (main_v443 : DevRef τ sig)) (V (main_arg8 : DevRef τ sig)))
          ((broadcastInDim S50000x64 ![0, 1] bcast_S1x64_S50000x64_0_1 : (⟨S1x64, .f32⟩ : BufTy).Contents (Elt F) → Out F)
            ((broadcastInDim S1x64 ![1] bcast_S64_S1x64_1 :
                (⟨S64, .f32⟩ : BufTy).Contents (Elt F) → (⟨S1x64, .f32⟩ : BufTy).Contents (Elt F))
              (V (main_arg9 : DevRef τ sig)))) := by
  after_results_simp

/-- The references this stretch writes. -/
abbrev opsPost_W : List (Ref sig .tc) := [main_v444, main_v445, main_v446, main_v447]

theorem opsPost_writes : (opsPost : List (HloOp τ sig (Elt F))).Forall fun op =>
    op.writes ⊆ (opsPost_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A reference this stretch does not write keeps its contents. -/
theorem post_keep (V : Valuation τ sig (Elt F)) (r : Ref sig .tc) (h : r ∉ opsPost_W) :
    after opsPost V (Proc.devRef .tc r) = V (Proc.devRef .tc r) :=
  after_of_writes_sub opsPost V opsPost_writes h

/-- From contents whose last activations and arguments hold their values, the result holds its value. -/
theorem nextPost {V W : Valuation τ sig (Elt F)} (h : Live V W) (hh : W (main_v443 : DevRef τ sig) = RH8 V) :
    after opsPost W (main_v447 : DevRef τ sig) = ROut V := by
  rw [post_v447, h.arg8, h.arg9, hh]
  rfl

/-- The stretch leaves the arguments as it found them. -/
theorem livePost {V W : Valuation τ sig (Elt F)} (h : Live V W) : Live V (after opsPost W) where
  v5 := (post_keep W main_v5 (by decide)).trans h.v5
  v6 := (post_keep W main_v6 (by decide)).trans h.v6
  v29 := (post_keep W main_v29 (by decide)).trans h.v29
  v35 := (post_keep W main_v35 (by decide)).trans h.v35
  arg0 := (post_keep W main_arg0 (by decide)).trans h.arg0
  arg1 := (post_keep W main_arg1 (by decide)).trans h.arg1
  arg2 := (post_keep W main_arg2 (by decide)).trans h.arg2
  arg3 := (post_keep W main_arg3 (by decide)).trans h.arg3
  arg4 := (post_keep W main_arg4 (by decide)).trans h.arg4
  arg5 := (post_keep W main_arg5 (by decide)).trans h.arg5
  arg6 := (post_keep W main_arg6 (by decide)).trans h.arg6
  arg7 := (post_keep W main_arg7 (by decide)).trans h.arg7
  arg8 := (post_keep W main_arg8 (by decide)).trans h.arg8
  arg9 := (post_keep W main_arg9 (by decide)).trans h.arg9

end Cert.Hand.RChain

end
-- ==== Proof.RChain.lean ====
/-
  The reference program's run, folded: from the launch contents `V`, after all its operations the result buffer holds
  `ROut V` — the last linear map of the eighth layer's activations — and the ten arguments hold what they held at launch.

  The operations are taken part by part (the stretch before the layers, the eight layers, the last stretch); each part
  carries the record of unchanged buffers on and turns the previous activations into the next.
-/
import proofs.«104804_j42004780155161_1_alg».proof.Proof.RefOps
import proofs.«104804_j42004780155161_1_alg».proof.Proof.RStretchPre
import proofs.«104804_j42004780155161_1_alg».proof.Proof.RStretchL0
import proofs.«104804_j42004780155161_1_alg».proof.Proof.RStretchL1
import proofs.«104804_j42004780155161_1_alg».proof.Proof.RStretchL2
import proofs.«104804_j42004780155161_1_alg».proof.Proof.RStretchL3
import proofs.«104804_j42004780155161_1_alg».proof.Proof.RStretchL4
import proofs.«104804_j42004780155161_1_alg».proof.Proof.RStretchL5
import proofs.«104804_j42004780155161_1_alg».proof.Proof.RStretchL6
import proofs.«104804_j42004780155161_1_alg».proof.Proof.RStretchL7
import proofs.«104804_j42004780155161_1_alg».proof.Proof.RStretchPost
import Idealize.ShloMosaic.Lib.StableHlo.Run

noncomputable section

namespace Cert.Hand.RChain

open Cert.ReferenceIdeal Cert.ReferenceIdeal.Gen Idealize.ShloMosaic Idealize.ShloMosaic.TcCoe Idealize.SL.Sem Idealize.ShloMosaic.StableHlo
open Cert.Hand.Terms Cert.Hand.RefRun

variable {F : FTy → Type} [FloatOps F]

/-- After the whole program, from any contents `V`: the arguments (and the edge lists, the edge weights, the residual) hold
    their values, and the result buffer holds the program's result. -/
theorem reference_fold (V : Valuation τ sig (Elt F)) :
    Live V (after ops V) ∧ after ops V (main_v447 : DevRef τ sig) = ROut V := by
  rw [after_ops, after_opsL0, after_opsL1, after_opsL2, after_opsL3, after_opsL4, after_opsL5, after_opsL6, after_opsL7]
  have h0 := livePre V
  have n0 := nextPre V
  have h1 := live0 h0
  have n1 := next0 h0 n0
  have h2 := live1 h1
  have n2 := next1 h1 n1
  have h3 := live2 h2
  have n3 := next2 h2 n2
  have h4 := live3 h3
  have n4 := next3 h3 n3
  have h5 := live4 h4
  have n5 := next4 h4 n4
  have h6 := live5 h5
  have n6 := next5 h5 n5
  have h7 := live6 h6
  have n7 := next6 h6 n6
  have h8 := live7 h7
  have n8 := next7 h7 n7
  exact ⟨livePost h8, nextPost h8 n8⟩

/-- The result buffer after the run from the launch memory `m`, on device `c`. -/
theorem reference_value (m : (ℓ : Loc nD τ sig) → Buf (Elt F) ℓ) (c : Dev nD) :
    after ops (launchContents m c) (main_v447 : DevRef τ sig) = ROut (launchContents m c) :=
  (reference_fold (launchContents m c)).2

/-- Argument 0 after the run is argument 0 at launch. -/
theorem reference_arg0 (m : (ℓ : Loc nD τ sig) → Buf (Elt F) ℓ) (c : Dev nD) :
    after ops (launchContents m c) (main_arg0 : DevRef τ sig) = m (c, (main_arg0 : DevRef τ sig)) :=
  (reference_fold (launchContents m c)).1.arg0

/-- Argument 1 after the run is argument 1 at launch. -/
theorem reference_arg1 (m : (ℓ : Loc nD τ sig) → Buf (Elt F) ℓ) (c : Dev nD) :
    after ops (launchContents m c) (main_arg1 : DevRef τ sig) = m (c, (main_arg1 : DevRef τ sig)) :=
  (reference_fold (launchContents m c)).1.arg1

/-- Argument 2 after the run is argument 2 at launch. -/
theorem reference_arg2 (m : (ℓ : Loc nD τ sig) → Buf (Elt F) ℓ) (c : Dev nD) :
    after ops (launchContents m c) (main_arg2 : DevRef τ sig) = m (c, (main_arg2 : DevRef τ sig)) :=
  (reference_fold (launchContents m c)).1.arg2

/-- Argument 3 after the run is argument 3 at launch. -/
theorem reference_arg3 (m : (ℓ : Loc nD τ sig) → Buf (Elt F) ℓ) (c : Dev nD) :
    after ops (launchContents m c) (main_arg3 : DevRef τ sig) = m (c, (main_arg3 : DevRef τ sig)) :=
  (reference_fold (launchContents m c)).1.arg3

/-- Argument 4 after the run is argument 4 at launch. -/
theorem reference_arg4 (m : (ℓ : Loc nD τ sig) → Buf (Elt F) ℓ) (c : Dev nD) :
    after ops (launchContents m c) (main_arg4 : DevRef τ sig) = m (c, (main_arg4 : DevRef τ sig)) :=
  (reference_fold (launchContents m c)).1.arg4

/-- Argument 5 after the run is argument 5 at launch. -/
theorem reference_arg5 (m : (ℓ : Loc nD τ sig) → Buf (Elt F) ℓ) (c : Dev nD) :
    after ops (launchContents m c) (main_arg5 : DevRef τ sig) = m (c, (main_arg5 : DevRef τ sig)) :=
  (reference_fold (launchContents m c)).1.arg5

/-- Argument 6 after the run is argument 6 at launch. -/
theorem reference_arg6 (m : (ℓ : Loc nD τ sig) → Buf (Elt F) ℓ) (c : Dev nD) :
    after ops (launchContents m c) (main_arg6 : DevRef τ sig) = m (c, (main_arg6 : DevRef τ sig)) :=
  (reference_fold (launchContents m c)).1.arg6

/-- Argument 7 after the run is argument 7 at launch. -/
theorem reference_arg7 (m : (ℓ : Loc nD τ sig) → Buf (Elt F) ℓ) (c : Dev nD) :
    after ops (launchContents m c) (main_arg7 : DevRef τ sig) = m (c, (main_arg7 : DevRef τ sig)) :=
  (reference_fold (launchContents m c)).1.arg7

/-- Argument 8 after the run is argument 8 at launch. -/
theorem reference_arg8 (m : (ℓ : Loc nD τ sig) → Buf (Elt F) ℓ) (c : Dev nD) :
    after ops (launchContents m c) (main_arg8 : DevRef τ sig) = m (c, (main_arg8 : DevRef τ sig)) :=
  (reference_fold (launchContents m c)).1.arg8

/-- Argument 9 after the run is argument 9 at launch. -/
theorem reference_arg9 (m : (ℓ : Loc nD τ sig) → Buf (Elt F) ℓ) (c : Dev nD) :
    after ops (launchContents m c) (main_arg9 : DevRef τ sig) = m (c, (main_arg9 : DevRef τ sig)) :=
  (reference_fold (launchContents m c)).1.arg9

end Cert.Hand.RChain

end
-- ==== Proof.FiniteLib.lean ====
/-
  Finiteness of extended-real arrays.

  At the ideal float values every float is an extended real.  The predicate
  "every entry is a real number" and its closure under the array operations:
  pointwise arithmetic, re-indexings, finite sums (contraction, reduction,
  accumulating scatter), quotients by nonzero reals, square roots of nonnegative
  reals, selection, integer conversion, and the constants whose words are finite.
-/
import Idealize.ShloMosaic.PureOps.Ideal
import Idealize.ShloMosaic.PureOps.Ideal.Laws
import Idealize.ShloMosaic.Lib.ValueIdx

noncomputable section

namespace Cert.Hand.FiniteLib

open Idealize
open Idealize.ShloMosaic (Shape FTy FVec IVec Ideal GatherDims ScatterDims DotDims ContractPrecision CmpFPredicate)
open scoped BigOperators

/-! ## One extended real -/

/-- An extended real that is a real number. -/
def IsReal (a : EReal) : Prop := ∃ r : ℝ, a = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_top {a : EReal} (h : IsReal a) : a ≠ ⊤ := by
  obtain ⟨r, rfl⟩ := h; exact EReal.coe_ne_top r

theorem IsReal.ne_bot {a : EReal} (h : IsReal a) : a ≠ ⊥ := by
  obtain ⟨r, rfl⟩ := h; exact EReal.coe_ne_bot r

theorem isReal_of_ne {a : EReal} (ht : a ≠ ⊤) (hb : a ≠ ⊥) : IsReal a := by
  induction a using EReal.rec with
  | bot => exact absurd rfl hb
  | top => exact absurd rfl ht
  | coe r => exact ⟨r, rfl⟩

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.sub {a b : EReal} (ha : IsReal a) (hb : IsReal b) : IsReal (a - b) := by
  obtain ⟨r, rfl⟩ := ha; obtain ⟨s, rfl⟩ := hb
  exact ⟨r - s, (EReal.coe_sub r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The maximum of two reals, inside the extended reals, is the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- A finite sum of reals, taken in the extended reals, is the real sum. -/
theorem coe_finset_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type*} (s : Finset ι) {f : ι → EReal} (hf : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (hf a (Finset.mem_insert_self a s)).add (ih fun i hi => hf i (Finset.mem_insert_of_mem hi))

/-! ## Quotient, square root, reciprocal square root, comparison -/

/-- The quotient of two reals with a nonzero divisor is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

theorem IsReal.div {a b : EReal} (ha : IsReal a) (hb : ∃ s : ℝ, s ≠ 0 ∧ b = (s : EReal)) : IsReal (Ideal.div a b) := by
  obtain ⟨r, rfl⟩ := ha; obtain ⟨s, hs, rfl⟩ := hb
  exact ⟨r / s, div_coe_coe r hs⟩

/-- A real quotient by a nonzero real equals the product with the reciprocal. -/
theorem div_coe_eq_mul_inv (r : ℝ) {s : ℝ} (hs : s ≠ 0) :
    Ideal.div (r : EReal) (s : EReal) = (r : EReal) * Ideal.div 1 (s : EReal) := by
  rw [div_coe_coe r hs, ← EReal.coe_one, div_coe_coe 1 hs, ← EReal.coe_mul, mul_one_div]

/-- The square root of a nonnegative real is the real square root. -/
theorem sqrt_coe_of_nonneg {r : ℝ} (hr : 0 ≤ r) : Ideal.sqrt (r : EReal) = ((Real.sqrt r : ℝ) : EReal) := by
  rw [Ideal.sqrt_coe, if_neg (not_lt.mpr hr)]

theorem IsReal.sqrt {a : EReal} (ha : ∃ r : ℝ, 0 ≤ r ∧ a = (r : EReal)) : IsReal (Ideal.sqrt a) := by
  obtain ⟨r, hr, rfl⟩ := ha
  exact ⟨Real.sqrt r, sqrt_coe_of_nonneg hr⟩

/-- The reciprocal square root of a positive real is the real one. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsReal.rsqrt {a : EReal} (ha : ∃ r : ℝ, 0 < r ∧ a = (r : EReal)) : IsReal (Ideal.rsqrt a) := by
  obtain ⟨r, hr, rfl⟩ := ha
  exact ⟨(Real.sqrt r)⁻¹, rsqrt_coe_of_pos hr⟩

/-- "Greater than" on two reals is the real comparison. -/
theorem cmp_ogt_coe (r s : ℝ) : Ideal.cmp .ogt (r : EReal) (s : EReal) = BitVec.ofBool (decide (s < r)) := by
  simp only [Ideal.cmp, EReal.coe_lt_coe_iff]

theorem cmp_ogt_of_lt {r s : ℝ} (h : s < r) : Ideal.cmp .ogt (r : EReal) (s : EReal) = 1#1 := by
  rw [cmp_ogt_coe, decide_eq_true h]; rfl

theorem cmp_ogt_of_le {r s : ℝ} (h : r ≤ s) : Ideal.cmp .ogt (r : EReal) (s : EReal) = 0#1 := by
  rw [cmp_ogt_coe, decide_eq_false (not_lt.mpr h)]; rfl

/-! ## Arrays -/

/-- Every entry of the array is a real number. -/
def AllReal {S : Shape} (x : S.Idx → EReal) : Prop := ∀ i, ∃ r : ℝ, x i = (r : EReal)

theorem allReal_iff {S : Shape} {x : S.Idx → EReal} : AllReal x ↔ ∀ i, IsReal (x i) := Iff.rfl

/-- An all-real array is the image of an array of reals. -/
theorem AllReal.exists_fun {S : Shape} {x : S.Idx → EReal} (h : AllReal x) :
    ∃ f : S.Idx → ℝ, x = fun i => (f i : EReal) := by
  choose f hf using h
  exact ⟨f, funext hf⟩

theorem AllReal.of_fun {S : Shape} (f : S.Idx → ℝ) : AllReal (S := S) fun i => (f i : EReal) :=
  fun i => ⟨f i, rfl⟩

theorem AllReal.of_eq {S : Shape} {x y : S.Idx → EReal} (h : AllReal x) (e : y = x) : AllReal y := e ▸ h

/-- Reading an all-real array through any map of indices gives an all-real array. -/
theorem AllReal.comp {S T : Shape} {x : S.Idx → EReal} (h : AllReal x) (g : T.Idx → S.Idx) :
    AllReal (S := T) fun j => x (g j) := fun j => h (g j)

/-- The splat of a real number. -/
theorem AllReal.const {S : Shape} {a : EReal} (ha : IsReal a) : AllReal (S := S) fun _ => a := fun _ => ha

section Pointwise
variable {S : Shape} {φ : FTy}

theorem AllReal.mulf {x y : FVec Ideal S φ} (hx : AllReal x) (hy : AllReal y) : AllReal (ShloMosaic.mulf x y) :=
  fun i => IsReal.mul (hx i) (hy i)

theorem AllReal.addf {x y : FVec Ideal S φ} (hx : AllReal x) (hy : AllReal y) : AllReal (ShloMosaic.addf x y) :=
  fun i => IsReal.add (hx i) (hy i)

theorem AllReal.subf {x y : FVec Ideal S φ} (hx : AllReal x) (hy : AllReal y) : AllReal (ShloMosaic.subf x y) :=
  fun i => IsReal.sub (hx i) (hy i)

theorem AllReal.negf {x : FVec Ideal S φ} (hx : AllReal x) : AllReal (ShloMosaic.negf x) :=
  fun i => IsReal.neg (hx i)

theorem AllReal.maximumf {x y : FVec Ideal S φ} (hx : AllReal x) (hy : AllReal y) :
    AllReal (ShloMosaic.maximumf x y) :=
  fun i => IsReal.max (hx i) (hy i)

theorem AllReal.minimumf {x y : FVec Ideal S φ} (hx : AllReal x) (hy : AllReal y) :
    AllReal (ShloMosaic.minimumf x y) :=
  fun i => IsReal.min (hx i) (hy i)

/-- Entrywise selection between two all-real arrays, whatever the mask. -/
theorem AllReal.select {c : IVec S 1} {a b : S.Idx → EReal} (ha : AllReal a) (hb : AllReal b) :
    AllReal (ShloMosaic.select c a b) := fun i => by
  show IsReal (ShloMosaic.Scalar.select (c i) (a i) (b i))
  unfold ShloMosaic.Scalar.select
  split_ifs
  · exact ha i
  · exact hb i

/-- A signed integer read as a float is that integer. -/
theorem sitofp_apply_coe {w : Nat} (x : IVec S w) (i : S.Idx) :
    (ShloMosaic.sitofp (F := Ideal) φ x) i = (((x i).toInt : ℝ) : EReal) := rfl

theorem AllReal.sitofp {w : Nat} (x : IVec S w) : AllReal (ShloMosaic.sitofp (F := Ideal) φ x) :=
  fun i => ⟨((x i).toInt : ℝ), rfl⟩

/-- The host quotient by an array of nonzero reals. -/
theorem AllReal.divf_of_ne {x y : FVec Ideal S φ} (hx : AllReal x)
    (hy : ∀ i, ∃ s : ℝ, s ≠ 0 ∧ y i = (s : EReal)) : AllReal (ShloMosaic.Host.divf x y) :=
  fun i => IsReal.div (hx i) (hy i)

/-- The vector quotient by an array of nonzero reals. -/
theorem AllReal.vdivf_of_ne {x y : FVec Ideal S φ} (hx : AllReal x)
    (hy : ∀ i, ∃ s : ℝ, s ≠ 0 ∧ y i = (s : EReal)) : AllReal (ShloMosaic.divf x y) :=
  fun i => IsReal.div (hx i) (hy i)

/-- The host quotient read at an entry where both operands are known reals. -/
theorem hostDivf_apply_coe {x y : FVec Ideal S φ} {i : S.Idx} {r s : ℝ} (hx : x i = (r : EReal))
    (hy : y i = (s : EReal)) (hs : s ≠ 0) : ShloMosaic.Host.divf x y i = ((r / s : ℝ) : EReal) := by
  show Ideal.div (x i) (y i) = _
  rw [hx, hy, div_coe_coe r hs]

/-- The host square root of an array of nonnegative reals. -/
theorem AllReal.sqrt_of_nonneg {x : FVec Ideal S φ} (hx : ∀ i, ∃ r : ℝ, 0 ≤ r ∧ x i = (r : EReal)) :
    AllReal (ShloMosaic.Host.sqrt x) :=
  fun i => IsReal.sqrt (hx i)

theorem hostSqrt_apply_coe {x : FVec Ideal S φ} {i : S.Idx} {r : ℝ} (hx : x i = (r : EReal)) (hr : 0 ≤ r) :
    ShloMosaic.Host.sqrt x i = ((Real.sqrt r : ℝ) : EReal) := by
  show Ideal.sqrt (x i) = _
  rw [hx, sqrt_coe_of_nonneg hr]

/-- The host reciprocal square root of an array of positive reals. -/
theorem AllReal.rsqrt_of_pos {x : FVec Ideal S φ} (hx : ∀ i, ∃ r : ℝ, 0 < r ∧ x i = (r : EReal)) :
    AllReal (ShloMosaic.Host.rsqrt x) :=
  fun i => IsReal.rsqrt (hx i)

theorem hostRsqrt_apply_coe {x : FVec Ideal S φ} {i : S.Idx} {r : ℝ} (hx : x i = (r : EReal)) (hr : 0 < r) :
    ShloMosaic.Host.rsqrt x i = (((Real.sqrt r)⁻¹ : ℝ) : EReal) := by
  show Ideal.rsqrt (x i) = _
  rw [hx, rsqrt_coe_of_pos hr]

/-- "Greater than" read at an entry where both operands are known reals. -/
theorem cmpf_ogt_apply_coe {x y : FVec Ideal S φ} {i : S.Idx} {r s : ℝ} (hx : x i = (r : EReal))
    (hy : y i = (s : EReal)) : ShloMosaic.cmpf .ogt x y i = BitVec.ofBool (decide (s < r)) := by
  show Ideal.cmp .ogt (x i) (y i) = _
  rw [hx, hy, cmp_ogt_coe]

theorem cmpf_ogt_apply_of_lt {x y : FVec Ideal S φ} {i : S.Idx} {r s : ℝ} (hx : x i = (r : EReal))
    (hy : y i = (s : EReal)) (h : s < r) : ShloMosaic.cmpf .ogt x y i = 1#1 := by
  show Ideal.cmp .ogt (x i) (y i) = _
  rw [hx, hy, cmp_ogt_of_lt h]

theorem cmpf_ogt_apply_of_le {x y : FVec Ideal S φ} {i : S.Idx} {r s : ℝ} (hx : x i = (r : EReal))
    (hy : y i = (s : EReal)) (h : r ≤ s) : ShloMosaic.cmpf .ogt x y i = 0#1 := by
  show Ideal.cmp .ogt (x i) (y i) = _
  rw [hx, hy, cmp_ogt_of_le h]

end Pointwise

/-! ### The one-entry shape -/

section Scalar
variable {φ : FTy}

/-- An array over the rank-zero shape is all-real as soon as its one entry is. -/
theorem allReal_S_ {x : (⟨0, ![]⟩ : Shape).Idx → EReal} (h : IsReal (x ShloMosaic.ValueIdx.ix0)) : AllReal x :=
  fun i => by rw [ShloMosaic.ValueIdx.eq_ix0 i]; exact h

/-- The host quotient of two one-entry arrays, the divisor a nonzero real. -/
theorem AllReal.divf_S_ {x y : FVec Ideal ⟨0, ![]⟩ φ} (hx : AllReal x) {s : ℝ} (hs : s ≠ 0)
    (hy : y ShloMosaic.ValueIdx.ix0 = (s : EReal)) : AllReal (ShloMosaic.Host.divf x y) :=
  AllReal.divf_of_ne hx fun i => ⟨s, hs, by rw [ShloMosaic.ValueIdx.eq_ix0 i]; exact hy⟩

end Scalar

/-! ## Re-indexings: every entry of the result is an entry of the operand -/

section Reindex
variable {S T : Shape}

theorem AllReal.broadcastInDim {x : S.Idx → EReal} (hx : AllReal x) (dims : Fin S.rank → Fin T.rank)
    (h : S.BroadcastsInDim T dims) : AllReal (ShloMosaic.broadcastInDim T dims h x) :=
  fun _ => hx _

/-- The splat of one real number. -/
theorem AllReal.broadcast {a : EReal} (ha : IsReal a) : AllReal (ShloMosaic.broadcast T a) := fun _ => ha

theorem AllReal.broadcast_coe (r : ℝ) : AllReal (ShloMosaic.broadcast T (r : EReal)) := fun _ => ⟨r, rfl⟩

theorem AllReal.broadcastTo {x : S.Idx → EReal} (hx : AllReal x) (h : S.Broadcasts T) :
    AllReal (ShloMosaic.broadcastTo T x h) :=
  fun _ => hx _

theorem AllReal.shapeCast {x : S.Idx → EReal} (hx : AllReal x) (h : S.ShapeCasts T) :
    AllReal (ShloMosaic.shapeCast T x h) :=
  fun _ => hx _

/-- A reshape: the same elements in row-major order under another shape. -/
theorem AllReal.reshape {x : S.Idx → EReal} (hx : AllReal x) (h : S.ShapeCasts T) :
    AllReal fun i => ShloMosaic.shapeCast T x h i :=
  fun _ => hx _

theorem AllReal.extractStridedSlice {x : S.Idx → EReal} (hx : AllReal x) (off : Fin S.rank → Nat)
    (h : S.Slices off T) : AllReal (ShloMosaic.extractStridedSlice T off x h) :=
  fun _ => hx _

theorem AllReal.slice {x : S.Idx → EReal} (hx : AllReal x) (start strides : Fin S.rank → Nat)
    (h : S.SlicesBy start strides T) : AllReal (ShloMosaic.Host.slice T start strides x h) :=
  fun _ => hx _

theorem AllReal.transpose {x : S.Idx → EReal} (hx : AllReal x) (perm : List (Fin S.rank))
    (h : S.Transposes perm T) : AllReal (ShloMosaic.transpose T perm x h) :=
  fun _ => hx _

/-- A gather reads, at each result index, one entry of the operand: whatever the dimension numbers and
    whatever the index array. -/
theorem AllReal.gather {si : Shape} {w : Nat} (d : GatherDims S si T) {x : S.Idx → EReal} (hx : AllReal x)
    (idx : IVec si w) : AllReal (ShloMosaic.Host.gather d x idx) :=
  fun _ => hx _

end Reindex

/-! ## Finite sums: contraction, reduction, accumulating scatter -/

section Sums
variable {φ : FTy}

/-- The accumulating scatter: each operand entry plus a finite sum of update entries. -/
theorem AllReal.scatterAdd {S si u : Shape} {w : Nat} (d : ScatterDims S si u) {x : FVec Ideal S φ}
    {upd : FVec Ideal u φ} (hx : AllReal x) (idx : IVec si w) (hu : AllReal upd) :
    AllReal (ShloMosaic.Host.scatterAdd d x idx upd) := fun i => by
  show IsReal (Ideal.hostScatterAdd d x idx upd i)
  unfold Ideal.hostScatterAdd
  exact IsReal.add (hx i) (IsReal.sum _ fun j _ => hu j)

/-- The host contraction: at each result index a finite sum of products. -/
theorem AllReal.dotGeneral {sl sr so : Shape} {φ₁ φ₂ : FTy} (d : DotDims sl sr so)
    (prec : Option ContractPrecision) {l : FVec Ideal sl φ₁} {r : FVec Ideal sr φ₂} (hl : AllReal l)
    (hr : AllReal r) : AllReal (ShloMosaic.Host.dotGeneral d prec l r) := fun j => by
  show IsReal (ShloMosaic.FloatOps.dotGeneral d prec .single l r j)
  rw [ShloMosaic.Ideal.dotGeneral_apply]
  exact IsReal.sum _ fun k _ => IsReal.mul (hl _) (hr _)

/-- The matrix unit's contraction onto an all-real accumulator. -/
theorem AllReal.matmul {sl sr so : Shape} {φ₁ φ₂ : FTy} (d : DotDims sl sr so)
    (prec : Option ContractPrecision) {l : FVec Ideal sl φ₁} {r : FVec Ideal sr φ₂} {acc : FVec Ideal so .f32}
    (hl : AllReal l) (hr : AllReal r) (hacc : AllReal acc) : AllReal (ShloMosaic.matmul d prec l r acc) :=
  fun j => by
  show IsReal (ShloMosaic.FloatOps.matmul d prec l r acc j)
  rw [ShloMosaic.Ideal.matmul_apply]
  exact IsReal.add (hacc j) (IsReal.sum _ fun k _ => IsReal.mul (hl _) (hr _))

/-- The host sum over any axes: the initial value plus a finite sum of entries. -/
theorem AllReal.reduceAdd {S t u : Shape} {axes : List (Fin S.rank)} {x : FVec Ideal S φ}
    {init : u.Idx → Ideal φ} (hx : AllReal x) (hi : AllReal (S := u) init) (h : S.ReducesTo axes t)
    (hu : 0 < u.numel) : AllReal (ShloMosaic.Host.reduceAdd x init h hu) := fun j => by
  show IsReal (Ideal.hostReduceAdd h x (init (Shape.Idx.first hu)) j)
  unfold Ideal.hostReduceAdd
  exact IsReal.add (hi _) (IsReal.sum _ fun i _ => hx i)

end Sums

/-! ## Selection decided entry by entry -/

section SelectOf
variable {S : Shape} {φ : FTy}

/-- Selection is all-real as soon as, at every entry, the branch the mask takes is real. -/
theorem AllReal.select_of {c : IVec S 1} {a b : S.Idx → EReal} (ha : ∀ i, c i = 1#1 → IsReal (a i))
    (hb : ∀ i, ¬ c i = 1#1 → IsReal (b i)) : AllReal (ShloMosaic.select c a b) := fun i => by
  show IsReal (ShloMosaic.Scalar.select (c i) (a i) (b i))
  unfold ShloMosaic.Scalar.select
  split_ifs with h
  · exact ha i h
  · exact hb i h

/-- The reciprocal square root kept where the argument is positive, an all-real array elsewhere:
    the argument all-real, the compared array zero. -/
theorem AllReal.select_ogt_rsqrt {x z b : FVec Ideal S φ} (hx : AllReal x) (hz : ∀ i, z i = 0)
    (hb : AllReal b) :
    AllReal (ShloMosaic.select (ShloMosaic.cmpf .ogt x z) (ShloMosaic.Host.rsqrt x) b) := by
  refine AllReal.select_of (fun i hc => ?_) (fun i _ => hb i)
  obtain ⟨r, hr⟩ := hx i
  have hz' : z i = ((0 : ℝ) : EReal) := by rw [hz i]; rfl
  by_cases h : 0 < r
  · exact ⟨_, hostRsqrt_apply_coe hr h⟩
  · rw [cmpf_ogt_apply_of_le hr hz' (not_lt.mp h)] at hc
    exact absurd hc (by decide)

end SelectOf

/-! ## Constants -/

section Consts

/-- A 32-bit word whose exponent field is not all ones denotes a real number. -/
theorem ofBits_f32_isReal (w : BitVec 32) (h : (w.extractLsb' 23 8).toNat ≠ 255) :
    IsReal (Ideal.ofBits .f32 w) := by
  show IsReal (Ideal.ieee 8 23 w)
  unfold Ideal.ieee
  simp only []
  have h' : ¬ (w.extractLsb' 23 8).toNat = 2 ^ 8 - 1 := h
  rw [if_neg h']
  split_ifs <;> exact ⟨_, rfl⟩

/-- A 32-bit word with a clear sign bit and an exponent field neither zero nor all ones denotes a
    positive real number. -/
theorem ofBits_f32_pos (w : BitVec 32) (hs : (w.extractLsb' 31 1 == 1#1) = false)
    (h : (w.extractLsb' 23 8).toNat ≠ 255) (h0 : (w.extractLsb' 23 8).toNat ≠ 0) :
    ∃ r : ℝ, 0 < r ∧ Ideal.ofBits .f32 w = (r : EReal) := by
  show ∃ r : ℝ, 0 < r ∧ Ideal.ieee 8 23 w = (r : EReal)
  unfold Ideal.ieee
  simp only []
  have h' : ¬ (w.extractLsb' 23 8).toNat = 2 ^ 8 - 1 := h
  have hs' : (BitVec.extractLsb' (8 + 23) 1 w == 1#1) = false := hs
  rw [if_neg h', if_neg h0]
  split_ifs with hneg
  · rw [hs'] at hneg; exact absurd hneg (by decide)
  · exact ⟨_, by positivity, rfl⟩

/-- The scalar unit's constant and the vector constant denote the same extended real. -/
theorem scalar_ofBits_eq (w : BitVec 32) : ShloMosaic.Scalar.ofBits (F := Ideal) .f32 w = Ideal.ofBits .f32 w := rfl

/-- The constant of a finite word is all-real, at any shape. -/
theorem constant_real (S : Shape) (w : BitVec 32) (h : (w.extractLsb' 23 8).toNat ≠ 255) :
    AllReal (ShloMosaic.constant (F := Ideal) S .f32 w) :=
  fun _ => ofBits_f32_isReal w h

/-- The splat of the scalar unit's constant of a finite word is all-real. -/
theorem broadcast_ofBits_real (S : Shape) (w : BitVec 32) (h : (w.extractLsb' 23 8).toNat ≠ 255) :
    AllReal (ShloMosaic.broadcast S (ShloMosaic.Scalar.ofBits (F := Ideal) .f32 w)) :=
  fun _ => ofBits_f32_isReal w h

/-- The word of zero. -/
theorem ofBits_zero : Ideal.ofBits .f32 0x00000000#32 = 0 := Ideal.ofBits_zero_f32

/-- The word of one half. -/
theorem ofBits_half : Ideal.ofBits .f32 0x3F000000#32 = ((1 / 2 : ℝ) : EReal) := by
  simp [Ideal.ofBits, Ideal.ieee, -EReal.coe_mul]; norm_num

/-- The word of one. -/
theorem ofBits_one : Ideal.ofBits .f32 0x3F800000#32 = 1 := by
  simp [Ideal.ofBits, Ideal.ieee, -EReal.coe_mul]; norm_num

/-- The word of 6400000, the number of entries of a 50000 × 128 array. -/
theorem ofBits_count : Ideal.ofBits .f32 0x4AC35000#32 = ((6400000 : ℝ) : EReal) := by
  simp [Ideal.ofBits, Ideal.ieee, -EReal.coe_mul]; norm_num

/-- The small positive word added to a standard deviation denotes a positive real. -/
theorem ofBits_eps_pos : ∃ r : ℝ, 0 < r ∧ Ideal.ofBits .f32 0x3727C5AC#32 = (r : EReal) :=
  ofBits_f32_pos _ (by decide) (by decide) (by decide)

theorem constant_real_zero (S : Shape) : AllReal (ShloMosaic.constant (F := Ideal) S .f32 0x00000000#32) :=
  constant_real S _ (by decide)

theorem constant_real_half (S : Shape) : AllReal (ShloMosaic.constant (F := Ideal) S .f32 0x3F000000#32) :=
  constant_real S _ (by decide)

theorem constant_real_one (S : Shape) : AllReal (ShloMosaic.constant (F := Ideal) S .f32 0x3F800000#32) :=
  constant_real S _ (by decide)

theorem constant_real_count (S : Shape) : AllReal (ShloMosaic.constant (F := Ideal) S .f32 0x4AC35000#32) :=
  constant_real S _ (by decide)

theorem constant_real_eps (S : Shape) : AllReal (ShloMosaic.constant (F := Ideal) S .f32 0x3727C5AC#32) :=
  constant_real S _ (by decide)

theorem constant_zero_apply (S : Shape) (i : S.Idx) :
    ShloMosaic.constant (F := Ideal) S .f32 0x00000000#32 i = 0 := ofBits_zero

theorem constant_count_apply (S : Shape) (i : S.Idx) :
    ShloMosaic.constant (F := Ideal) S .f32 0x4AC35000#32 i = ((6400000 : ℝ) : EReal) := ofBits_count

theorem constant_eps_apply_pos (S : Shape) :
    ∃ r : ℝ, 0 < r ∧ ∀ i : S.Idx, ShloMosaic.constant (F := Ideal) S .f32 0x3727C5AC#32 i = (r : EReal) := by
  obtain ⟨r, hr, e⟩ := ofBits_eps_pos
  exact ⟨r, hr, fun _ => e⟩

/-- The sixteen words of the layers' two mixing weights. -/
def betaWords : List (BitVec 32) :=
  [0x3DF1383B#32, 0x3E08BC74#32, 0x3E1DD9AD#32, 0x3E3AB281#32, 0x3E647FBE#32, 0x3E934B11#32, 0x3E9D1BD0#32,
   0x3ECF991F#32, 0x3F183370#32, 0x3F317218#32, 0x3F365A78#32, 0x3F46E010#32, 0x3F515360#32, 0x3F588995#32,
   0x3F5DD0E3#32, 0x3F61D8F9#32]

theorem betaWords_finite : ∀ w ∈ betaWords, (w.extractLsb' 23 8).toNat ≠ 255 := by
  intro w hw
  simp only [betaWords, List.mem_cons, List.mem_nil_iff, or_false] at hw
  rcases hw with rfl | rfl | rfl | rfl | rfl | rfl | rfl | rfl | rfl | rfl | rfl | rfl | rfl | rfl | rfl | rfl <;>
    decide

/-- Each mixing weight is a real number. -/
theorem ofBits_beta_isReal {w : BitVec 32} (hw : w ∈ betaWords) : IsReal (Ideal.ofBits .f32 w) :=
  ofBits_f32_isReal w (betaWords_finite w hw)

/-- The integer zero read as a float is zero, and the entry count less zero is the entry count. -/
theorem count_sub_sitofp_zero :
    ((6400000 : ℝ) : EReal) - (((0#32 : BitVec 32).toInt : ℝ) : EReal) = ((6400000 : ℝ) : EReal) := by
  have h : ((0#32 : BitVec 32).toInt : ℝ) = 0 := by norm_num
  rw [h, ← EReal.coe_sub, sub_zero]

end Consts

/-! ## Arrays of reals seen in the extended reals: the operations computed

For an array written as the image of an array of reals, each operation's result is again such an
image, of the real operation. -/

section Coe
variable {S : Shape} {φ : FTy}

theorem mulf_coe (f g : S.Idx → ℝ) :
    ShloMosaic.mulf (F := Ideal) (φ := φ) (fun i => (f i : EReal)) (fun i => (g i : EReal))
      = fun i => ((f i * g i : ℝ) : EReal) :=
  funext fun _ => (EReal.coe_mul _ _).symm

theorem addf_coe (f g : S.Idx → ℝ) :
    ShloMosaic.addf (F := Ideal) (φ := φ) (fun i => (f i : EReal)) (fun i => (g i : EReal))
      = fun i => ((f i + g i : ℝ) : EReal) :=
  funext fun _ => (EReal.coe_add _ _).symm

theorem subf_coe (f g : S.Idx → ℝ) :
    ShloMosaic.subf (F := Ideal) (φ := φ) (fun i => (f i : EReal)) (fun i => (g i : EReal))
      = fun i => ((f i - g i : ℝ) : EReal) :=
  funext fun _ => (EReal.coe_sub _ _).symm

theorem maximumf_coe (f g : S.Idx → ℝ) :
    ShloMosaic.maximumf (F := Ideal) (φ := φ) (fun i => (f i : EReal)) (fun i => (g i : EReal))
      = fun i => ((max (f i) (g i) : ℝ) : EReal) :=
  funext fun _ => coe_max _ _

theorem hostDivf_coe (f g : S.Idx → ℝ) (hg : ∀ i, g i ≠ 0) :
    ShloMosaic.Host.divf (F := Ideal) (φ := φ) (fun i => (f i : EReal)) (fun i => (g i : EReal))
      = fun i => ((f i / g i : ℝ) : EReal) :=
  funext fun i => div_coe_coe (f i) (hg i)

theorem hostSqrt_coe (f : S.Idx → ℝ) (hf : ∀ i, 0 ≤ f i) :
    ShloMosaic.Host.sqrt (F := Ideal) (φ := φ) (fun i => (f i : EReal)) = fun i => ((Real.sqrt (f i) : ℝ) : EReal) :=
  funext fun i => sqrt_coe_of_nonneg (hf i)

theorem hostRsqrt_coe (f : S.Idx → ℝ) (hf : ∀ i, 0 < f i) :
    ShloMosaic.Host.rsqrt (F := Ideal) (φ := φ) (fun i => (f i : EReal))
      = fun i => (((Real.sqrt (f i))⁻¹ : ℝ) : EReal) :=
  funext fun i => rsqrt_coe_of_pos (hf i)

/-- The host sum over every axis of an array of reals, from a real initial value: the real total. -/
theorem reduceAdd_total_coe {t u : Shape} {axes : List (Fin S.rank)} (f : S.Idx → ℝ) {init : u.Idx → Ideal φ}
    (h : S.ReducesTo axes t) (hu : 0 < u.numel) (ht : ∀ b, t.size b = 1) {r0 : ℝ}
    (hinit : init (Shape.Idx.first hu) = (r0 : EReal)) (j : t.Idx) :
    ShloMosaic.Host.reduceAdd (F := Ideal) (φ := φ) (fun i => (f i : EReal)) init h hu j
      = ((r0 + ∑ i, f i : ℝ) : EReal) := by
  show Ideal.hostReduceAdd h (fun i => (f i : EReal)) (init (Shape.Idx.first hu)) j = _
  rw [ShloMosaic.Ideal.hostReduceAdd_total h ht, hinit, coe_finset_sum, ← EReal.coe_add]

/-- The host contraction of two arrays of reals: the real sum of products. -/
theorem dotGeneral_coe {sl sr so : Shape} {φ₁ φ₂ : FTy} (d : DotDims sl sr so) (prec : Option ContractPrecision)
    (f : sl.Idx → ℝ) (g : sr.Idx → ℝ) (j : so.Idx) :
    ShloMosaic.Host.dotGeneral (F := Ideal) (φ₁ := φ₁) (φ₂ := φ₂) d prec (fun i => (f i : EReal))
        (fun i => (g i : EReal)) j
      = ((∑ k : d.contr.Idx, f (d.lhsIdx j k) * g (d.rhsIdx j k) : ℝ) : EReal) := by
  show ShloMosaic.FloatOps.dotGeneral d prec .single _ _ j = _
  rw [ShloMosaic.Ideal.dotGeneral_apply, ← coe_finset_sum]
  exact Finset.sum_congr rfl fun k _ => (EReal.coe_mul _ _).symm

end Coe

end Cert.Hand.FiniteLib

end
-- ==== Proof.LawCore.lean ====
/-
  The algebra of one normalisation layer, over an abstract finite index set.

  For a finite family of real numbers `f` with `N` members and mean `μ = (∑ f) / N`:
  * the deviations `f − μ` sum to zero, so the centred family has mean zero;
  * hence the variance of the centred family about its own mean is the variance of `f` about `μ`;
  * a sum of squares over `N > 0` is nonnegative, so the deviation `√variance` is a nonnegative real, and adding a
    positive `ε` gives a nonzero real, by which dividing is multiplying with the reciprocal.
  On the extended reals these identities are used only at real entries; the coercion of a finite real sum is the
  extended-real sum of the coercions.
-/
import Idealize.ShloMosaic.PureOps.Ideal

noncomputable section

namespace Cert.Hand.LawCore

open Idealize Idealize.ShloMosaic
open scoped BigOperators

variable {ι : Type*} [Fintype ι]

/-! ## Real algebra -/

/-- The deviations from the mean sum to zero. -/
theorem sum_sub_mean (f : ι → ℝ) {N : ℝ} (hN : (Fintype.card ι : ℝ) = N) (hN0 : N ≠ 0) :
    ∑ i, (f i - (∑ j, f j) / N) = 0 := by
  rw [Finset.sum_sub_distrib, Finset.sum_const, Finset.card_univ, nsmul_eq_mul, hN, mul_div_cancel₀ _ hN0, sub_self]

/-- The centred family has mean zero. -/
theorem mean_centred (f : ι → ℝ) {N : ℝ} (hN : (Fintype.card ι : ℝ) = N) (hN0 : N ≠ 0) :
    (∑ i, (f i - (∑ j, f j) / N)) / N = 0 := by
  rw [sum_sub_mean f hN hN0, zero_div]

/-- The variance of the centred family about its own mean is the variance of the family about its mean. -/
theorem var_centred (f : ι → ℝ) {N : ℝ} (hN : (Fintype.card ι : ℝ) = N) (hN0 : N ≠ 0) :
    (∑ i, ((f i - (∑ j, f j) / N) - (∑ k, (f k - (∑ j, f j) / N)) / N)
        * ((f i - (∑ j, f j) / N) - (∑ k, (f k - (∑ j, f j) / N)) / N)) / N
      = (∑ i, (f i - (∑ j, f j) / N) * (f i - (∑ j, f j) / N)) / N := by
  rw [mean_centred f hN hN0]
  simp only [sub_zero]

/-- A population variance is nonnegative. -/
theorem var_nonneg (g : ι → ℝ) {N : ℝ} (hN0 : 0 < N) : 0 ≤ (∑ i, g i * g i) / N :=
  div_nonneg (Finset.sum_nonneg fun i _ => mul_self_nonneg (g i)) hN0.le

/-- A nonnegative deviation plus a positive `ε` is not zero. -/
theorem std_add_eps_ne_zero {v e : ℝ} (he : 0 < e) : Real.sqrt v + e ≠ 0 :=
  (add_pos_of_nonneg_of_pos (Real.sqrt_nonneg v) he).ne'

/-! ## Extended reals at real entries -/

/-- A finite sum of reals, taken in the extended reals, is the real sum. -/
theorem coe_sum (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The quotient of two reals with a nonzero divisor is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- Dividing a real by a nonzero real is multiplying it with the reciprocal. -/
theorem div_eq_mul_recip (r : ℝ) {s : ℝ} (hs : s ≠ 0) :
    Ideal.div (r : EReal) (s : EReal) = (r : EReal) * Ideal.div ((1 : ℝ) : EReal) (s : EReal) := by
  rw [div_coe_coe r hs, div_coe_coe 1 hs, ← EReal.coe_mul, mul_one_div]

/-- The square root of a nonnegative real is the real square root. -/
theorem sqrt_coe_of_nonneg {r : ℝ} (hr : 0 ≤ r) : Ideal.sqrt (r : EReal) = ((Real.sqrt r : ℝ) : EReal) := by
  rw [Ideal.sqrt_coe, if_neg (not_lt.mpr hr)]

/-- The maximum of two reals, inside the extended reals, is the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- One normalised entry: centring, scaling by the reciprocal of `s + ε`, the column's weight and bias, the positive
    part — equal to the same with a quotient by `s + ε`, and a real number. -/
theorem entry_law (v m s e w b : ℝ) (hs : s + e ≠ 0) :
    max (((((v : EReal) - (m : EReal)) * Ideal.div ((1 : ℝ) : EReal) ((s : EReal) + (e : EReal))) * (w : EReal)) + (b : EReal)) 0
      = max ((Ideal.div ((v : EReal) - (m : EReal)) ((s : EReal) + (e : EReal)) * (w : EReal)) + (b : EReal)) 0 := by
  rw [← EReal.coe_sub, ← EReal.coe_add s e, div_eq_mul_recip (v - m) hs]

/-- The same entry is the real number `max ((v − m) / (s + ε) · w + b) 0`. -/
theorem entry_real (v m s e w b : ℝ) (hs : s + e ≠ 0) :
    max ((Ideal.div ((v : EReal) - (m : EReal)) ((s : EReal) + (e : EReal)) * (w : EReal)) + (b : EReal)) 0
      = ((max ((v - m) / (s + e) * w + b) 0 : ℝ) : EReal) := by
  rw [← EReal.coe_sub, ← EReal.coe_add s e, div_coe_coe (v - m) hs, ← EReal.coe_mul, ← EReal.coe_add,
    ← EReal.coe_zero, coe_max]

end Cert.Hand.LawCore

end
-- ==== Proof.Law.lean ====
/-
  The layer law: one normalise-and-rectify layer computed from the mean and the reciprocal deviation of the combined
  array equals the reference's layer, which centres first and divides by the centred array's own deviation; and the
  layer's result is an array of real numbers whenever its operands are.

  The two agree because, at real entries, the deviations from the mean sum to zero: the centred array has mean zero, so
  its variance about its own mean is the variance of the original about its mean; the deviation is a nonnegative real,
  the small positive constant added to it makes a nonzero real, and dividing by a nonzero real is multiplying with its
  reciprocal. None of this holds at the infinities, which is why every operand is required to be real.
-/
import proofs.«104804_j42004780155161_1_alg».proof.Proof.Terms
import proofs.«104804_j42004780155161_1_alg».proof.Proof.FiniteLib
import proofs.«104804_j42004780155161_1_alg».proof.Proof.RegCombineSpec
import proofs.«104804_j42004780155161_1_alg».proof.Proof.RegNormSpec
import proofs.«104804_j42004780155161_1_alg».proof.Proof.LawCore
import Idealize.ShloMosaic.PureOps.Ideal.Laws
import Idealize.ShloMosaic.Lib.ValueIdx

noncomputable section

namespace Cert.Hand.Law

open Idealize Idealize.ShloMosaic Idealize.ShloMosaic.ValueIdx
open Cert.ReferenceIdeal Cert.Hand.Terms Cert.Hand.FiniteLib
open Cert.Hand.RegCombineSpec Cert.Hand.RegNormSpec
open scoped BigOperators

variable [Cert.ReferenceIdeal.Facts₀]
open Cert.ReferenceIdeal.Facts₀

/-! ## Real families over the activations' index set -/

/-- A 50000 × 128 array has 6 400 000 entries. -/
theorem card_act : (Fintype.card (⟨2, ![50000, 128]⟩ : Shape).Idx : ℝ) = 6400000 := by
  rw [Fintype.card_congr (idxEquiv2 (n0 := 50000) (n1 := 128)), Fintype.card_prod, Fintype.card_fin, Fintype.card_fin]
  norm_num

/-- The array of extended reals whose entries are the given reals. -/
def up (f : (⟨2, ![50000, 128]⟩ : Shape).Idx → ℝ) : (⟨2, ![50000, 128]⟩ : Shape).Idx → EReal :=
  fun i => (f i : EReal)

theorem up_apply (f : (⟨2, ![50000, 128]⟩ : Shape).Idx → ℝ) (i : (⟨2, ![50000, 128]⟩ : Shape).Idx) :
    up f i = (f i : EReal) := rfl

/-- The mean of a real family of 6 400 000 members. -/
def mu (f : (⟨2, ![50000, 128]⟩ : Shape).Idx → ℝ) : ℝ := (∑ i, f i) / 6400000

/-- Its population variance. -/
def var (f : (⟨2, ![50000, 128]⟩ : Shape).Idx → ℝ) : ℝ := (∑ i, (f i - mu f) * (f i - mu f)) / 6400000

theorem var_nonneg (f : (⟨2, ![50000, 128]⟩ : Shape).Idx → ℝ) : 0 ≤ var f :=
  LawCore.var_nonneg (fun i => f i - mu f) (by norm_num)

/-- Centring changes neither the deviations nor, therefore, the variance. -/
theorem var_centred (f : (⟨2, ![50000, 128]⟩ : Shape).Idx → ℝ) : var (fun i => f i - mu f) = var f :=
  LawCore.var_centred f card_act (by norm_num)

/-! ## The reductions at real entries -/

/-- The sum of all entries: the initial zero plus the sum over every index. -/
theorem sumT_apply (x : (⟨2, ![50000, 128]⟩ : Shape).Idx → EReal) (j : (⟨0, ![]⟩ : Shape).Idx) :
    sumT (F := Ideal) x j = ∑ i : (⟨2, ![50000, 128]⟩ : Shape).Idx, x i := by
  show Ideal.hostReduceAdd reducesTo_S50000x128_S_d0_1 x (Ideal.ofBits .f32 0x00000000#32) j = _
  rw [Ideal.hostReduceAdd_total _ (fun b => b.elim0), Ideal.ofBits_zero_f32, zero_add]

theorem sumT_up (f : (⟨2, ![50000, 128]⟩ : Shape).Idx → ℝ) (j : (⟨0, ![]⟩ : Shape).Idx) :
    sumT (F := Ideal) (up f) j = ((∑ i, f i : ℝ) : EReal) := by
  rw [sumT_apply]; exact LawCore.coe_sum f

/-- The mean of an array of reals is the real mean. -/
theorem meanT_up (f : (⟨2, ![50000, 128]⟩ : Shape).Idx → ℝ) (j : (⟨0, ![]⟩ : Shape).Idx) :
    meanT (F := Ideal) (up f) j = ((mu f : ℝ) : EReal) := by
  show Ideal.div (sumT (F := Ideal) (up f) j) (Ideal.ofBits .f32 0x4AC35000#32) = _
  rw [sumT_up, ofBits_count, LawCore.div_coe_coe _ (by norm_num)]
  rfl

/-- The array centred through the one-entry mean, as the variance computes it. -/
def centre11 (x : (⟨2, ![50000, 128]⟩ : Shape).Idx → EReal) : (⟨2, ![50000, 128]⟩ : Shape).Idx → EReal :=
  subf (F := Ideal) (φ := .f32) x
    (broadcastInDim S50000x128 ![0, 1] bcast_S1x1_S50000x128_0_1
      (Host.divf (F := Ideal) (φ := .f32)
        (broadcastInDim S1x1 ![] bcast_S_S1x1 (sumT (F := Ideal) x))
        (broadcastInDim S1x1 ![] bcast_S_S1x1 (constant (F := Ideal) S_ .f32 0x4AC35000#32))))

theorem centre11_up (f : (⟨2, ![50000, 128]⟩ : Shape).Idx → ℝ) : centre11 (up f) = up fun i => f i - mu f := by
  funext i
  show up f i - Ideal.div (sumT (F := Ideal) (up f) _) (Ideal.ofBits .f32 0x4AC35000#32) = _
  rw [sumT_up, ofBits_count, LawCore.div_coe_coe _ (by norm_num), up_apply, up_apply, ← EReal.coe_sub]
  rfl

/-- The variance read at its one entry: the comparison, the quotient, the alternative. -/
theorem varT_eq (x : (⟨2, ![50000, 128]⟩ : Shape).Idx → EReal) (j : (⟨0, ![]⟩ : Shape).Idx) :
    varT (F := Ideal) x (constantI S_ 32 0#32) j
      = Scalar.select
          (Ideal.cmp .ogt (Ideal.ofBits .f32 0x4AC35000#32 - (((0#32 : BitVec 32).toInt : ℝ) : EReal))
            (Ideal.ofBits .f32 0x00000000#32))
          (Ideal.div (sumT (F := Ideal) (mulf (F := Ideal) (φ := .f32) (centre11 x) (centre11 x)) j)
            (Ideal.ofBits .f32 0x4AC35000#32 - (((0#32 : BitVec 32).toInt : ℝ) : EReal)))
          (Ideal.ofBits .f32 0x7FC00000#32) := rfl

/-- The variance of an array of reals is the real population variance. -/
theorem varT_up (f : (⟨2, ![50000, 128]⟩ : Shape).Idx → ℝ) (j : (⟨0, ![]⟩ : Shape).Idx) :
    varT (F := Ideal) (up f) (constantI S_ 32 0#32) j = ((var f : ℝ) : EReal) := by
  have hsq : mulf (F := Ideal) (φ := .f32) (up fun i => f i - mu f) (up fun i => f i - mu f)
      = up fun i => (f i - mu f) * (f i - mu f) := by
    funext i
    show up _ i * up _ i = _
    rw [up_apply, up_apply, ← EReal.coe_mul]
  rw [varT_eq, centre11_up, hsq, sumT_up, ofBits_count, count_sub_sitofp_zero, ofBits_zero, ← EReal.coe_zero,
    cmp_ogt_of_lt (by norm_num : (0 : ℝ) < 6400000), select_one, LawCore.div_coe_coe _ (by norm_num)]
  rfl

/-- The deviation of an array of reals is the real square root of its variance. -/
theorem stdT_up (f : (⟨2, ![50000, 128]⟩ : Shape).Idx → ℝ) (j : (⟨0, ![]⟩ : Shape).Idx) :
    stdT (F := Ideal) (up f) j = ((Real.sqrt (var f) : ℝ) : EReal) := by
  show Ideal.sqrt (varT (F := Ideal) (up f) (constantI S_ 32 0#32) j) = _
  rw [varT_up, LawCore.sqrt_coe_of_nonneg (var_nonneg f)]

/-- The array centred through the scalar mean, as the layer computes it. -/
theorem centre_up (f : (⟨2, ![50000, 128]⟩ : Shape).Idx → ℝ) :
    subf (F := Ideal) (φ := .f32) (up f) (bcA (meanT (F := Ideal) (up f))) = up fun i => f i - mu f := by
  funext i
  show up f i - meanT (F := Ideal) (up f) _ = _
  rw [meanT_up, up_apply, up_apply, ← EReal.coe_sub]

/-- The reciprocal deviation of an array of reals: the reciprocal of a nonzero real. -/
theorem invstdT_up (f : (⟨2, ![50000, 128]⟩ : Shape).Idx → ℝ) (j : (⟨0, ![]⟩ : Shape).Idx) :
    invstdT (F := Ideal) (up f) j
      = Ideal.div ((1 : ℝ) : EReal) (((Real.sqrt (var f) : ℝ) : EReal) + Ideal.ofBits .f32 0x3727C5AC#32) := by
  show Ideal.div (Ideal.ofBits .f32 0x3F800000#32)
      (stdT (F := Ideal) (up f) j + Ideal.ofBits .f32 0x3727C5AC#32) = _
  rw [stdT_up, ofBits_one, EReal.coe_one]

/-! ## Rows along the columns -/

/-- A 128-vector laid along the columns, read at row `p` and column `q`. -/
theorem bcRow_apply (w : (⟨1, ![128]⟩ : Shape).Idx → EReal) (p : Fin 50000) (q : Fin 128) :
    bcRow (F := Ideal) w (ix2 p q) = w (ix1 q) :=
  congrArg w (funext fun a => match a with | ⟨0, _⟩ => rfl)

/-! ## The layer -/

/-- The reference's normalised, rectified array of reals, read at row `p` and column `q`. -/
theorem rnormT_up (f : (⟨2, ![50000, 128]⟩ : Shape).Idx → ℝ) (w b : (⟨1, ![128]⟩ : Shape).Idx → EReal)
    (p : Fin 50000) (q : Fin 128) :
    rnormT (F := Ideal) (up f) w b (ix2 p q)
      = max ((Ideal.div ((f (ix2 p q) : EReal) - ((mu f : ℝ) : EReal))
            (((Real.sqrt (var f) : ℝ) : EReal) + Ideal.ofBits .f32 0x3727C5AC#32) * w (ix1 q)) + b (ix1 q)) 0 := by
  have h : rnormT (F := Ideal) (up f) w b (ix2 p q)
      = max ((Ideal.div (subf (F := Ideal) (φ := .f32) (up f) (bcA (meanT (F := Ideal) (up f))) (ix2 p q))
            (stdT (F := Ideal) (subf (F := Ideal) (φ := .f32) (up f) (bcA (meanT (F := Ideal) (up f)))) ix0
              + Ideal.ofBits .f32 0x3727C5AC#32) * bcRow (F := Ideal) w (ix2 p q)) + bcRow (F := Ideal) b (ix2 p q))
          (Ideal.ofBits .f32 0x00000000#32) := rfl
  rw [h, centre_up, stdT_up, var_centred, bcRow_apply, bcRow_apply, up_apply, EReal.coe_sub, ofBits_zero]

/-- **The normalisation law.** For an all-real array `out`, all-real weight and bias rows, and the kernel's small operands
    given pointwise — the rows as 1 × 128 arrays, the mean and the reciprocal deviation of `out` as 1 × 1 arrays —, the
    index-wise normalise-and-rectify value is the reference's layer norm, and that array is all-real. -/
theorem norm_law (out : (⟨2, ![50000, 128]⟩ : Shape).Idx → EReal) (hout : AllReal out)
    (nw nb : (⟨1, ![128]⟩ : Shape).Idx → EReal) (hnw : AllReal nw) (hnb : AllReal nb)
    (nwK nbK : (⟨2, ![1, 128]⟩ : Shape).Idx → EReal) (mK iK : (⟨2, ![1, 1]⟩ : Shape).Idx → EReal)
    (hnwK : ∀ j : Fin 128, nwK (ix2 0 j) = nw (ix1 j)) (hnbK : ∀ j : Fin 128, nbK (ix2 0 j) = nb (ix1 j))
    (hmK : mK (ix2 0 0) = meanT (F := Ideal) out ix0) (hiK : iK (ix2 0 0) = invstdT (F := Ideal) out ix0) :
    NRM out nwK nbK mK iK = rnormT (F := Ideal) out nw nb ∧ AllReal (rnormT (F := Ideal) out nw nb) := by
  obtain ⟨f, rfl⟩ := hout.exists_fun
  obtain ⟨e, he, heps⟩ := ofBits_eps_pos
  have hse : Real.sqrt (var f) + e ≠ 0 := LawCore.std_add_eps_ne_zero he
  change mK (ix2 0 0) = meanT (F := Ideal) (up f) ix0 at hmK
  change iK (ix2 0 0) = invstdT (F := Ideal) (up f) ix0 at hiK
  rw [meanT_up] at hmK
  rw [invstdT_up, heps] at hiK
  refine ⟨funext fun i => ?_, fun i => ?_⟩
  · obtain ⟨p, q, rfl⟩ : ∃ (p : Fin 50000) (q : Fin 128), i = ix2 p q := ⟨i 0, i 1, eq_ix2 i⟩
    obtain ⟨wq, hwq⟩ := hnw (ix1 q)
    obtain ⟨bq, hbq⟩ := hnb (ix1 q)
    show max ((((up f (ix2 p q) - mK (ix2 0 0)) * iK (ix2 0 0)) * nwK (ix2 0 q)) + nbK (ix2 0 q)) 0
      = rnormT (F := Ideal) (up f) nw nb (ix2 p q)
    rw [rnormT_up, heps, hmK, hiK, hnwK, hnbK, hwq, hbq, up_apply]
    exact LawCore.entry_law _ _ _ _ _ _ hse
  · obtain ⟨p, q, rfl⟩ : ∃ (p : Fin 50000) (q : Fin 128), i = ix2 p q := ⟨i 0, i 1, eq_ix2 i⟩
    obtain ⟨wq, hwq⟩ := hnw (ix1 q)
    obtain ⟨bq, hbq⟩ := hnb (ix1 q)
    show ∃ r : ℝ, rnormT (F := Ideal) (up f) nw nb (ix2 p q) = (r : EReal)
    rw [rnormT_up, heps, hwq, hbq, LawCore.entry_real _ _ _ _ _ _ hse]
    exact ⟨_, rfl⟩

/-! ## Finiteness through the layer's operands -/

/-- The splat of a word that denotes a real number. -/
theorem allReal_splatA {w : BitVec 32} (hw : IsReal (Ideal.ofBits .f32 w)) : AllReal (splatA (F := Ideal) w) :=
  fun _ => hw

/-- Neighbour aggregation of real arrays is real: gathered rows, products with the edge weights, finite sums into a
    zero array, and the halving keep every entry real, whatever the index lists. -/
theorem allReal_propT (r c : Ix Ideal) (n : Edge Ideal) (h : Act Ideal) (hn : AllReal n) (hh : AllReal h) :
    AllReal (propT (F := Ideal) r c n h) := by
  unfold propT
  refine AllReal.mulf ?_ (allReal_splatA (ofBits_f32_isReal _ (by decide)))
  refine AllReal.scatterAdd _ (allReal_splatA (ofBits_f32_isReal _ (by decide))) _ ?_
  refine AllReal.mulf ?_ ?_
  · exact AllReal.broadcastInDim (AllReal.broadcastInDim hn _ _) _ _
  · exact AllReal.gather _ hh _

/-- The combined array of real operands is real: finitely many sums and products of reals. -/
theorem allReal_CMB {c1 c2 : EReal} (hc1 : IsReal c1) (hc2 : IsReal c2)
    {agg x0 : (⟨2, ![50000, 128]⟩ : Shape).Idx → EReal} {w1 w2 : (⟨2, ![128, 128]⟩ : Shape).Idx → EReal}
    (hagg : AllReal agg) (hx0 : AllReal x0) (hw1 : AllReal w1) (hw2 : AllReal w2) :
    AllReal (CMB c1 c2 agg x0 w1 w2) := fun i =>
  IsReal.add
    (IsReal.add
      (IsReal.add (IsReal.mul hc1 (hagg i))
        (IsReal.mul hc2 (IsReal.sum _ fun k _ => IsReal.mul (hagg _) (hw1 _))))
      (IsReal.mul hc1 (hx0 i)))
    (IsReal.mul hc2 (IsReal.sum _ fun k _ => IsReal.mul (hx0 _) (hw2 _)))

/-- **The layer law.** With the two mixing words real, every operand all-real, the reference's combined array read as
    the index-wise combination `CMB`, and the kernel's small operands given pointwise (the weight and bias rows as
    1 × 128 arrays, the mean and the reciprocal deviation of the combined array as 1 × 1 arrays): the index-wise
    normalise-and-rectify value of the combined array is the reference's layer, and the layer's result is all-real. -/
theorem layer_law (c1 c2 : BitVec 32) (hc1 : IsReal (Ideal.ofBits .f32 c1)) (hc2 : IsReal (Ideal.ofBits .f32 c2))
    (r c : Ix Ideal) (n : Edge Ideal) (x0 h : Act Ideal) (w1 w2 : Wt Ideal) (nw nb : Row Ideal)
    (hn : AllReal n) (hx0 : AllReal x0) (hh : AllReal h) (hw1 : AllReal w1) (hw2 : AllReal w2)
    (hnw : AllReal nw) (hnb : AllReal nb)
    (hcmb : combineT (F := Ideal) c1 c2 (propT (F := Ideal) r c n h) x0 w1 w2
      = CMB (Ideal.ofBits .f32 c1) (Ideal.ofBits .f32 c2) (propT (F := Ideal) r c n h) x0 w1 w2)
    (nwK nbK : (⟨2, ![1, 128]⟩ : Shape).Idx → EReal) (mK iK : (⟨2, ![1, 1]⟩ : Shape).Idx → EReal)
    (hnwK : ∀ j : Fin 128, nwK (ix2 0 j) = nw (ix1 j)) (hnbK : ∀ j : Fin 128, nbK (ix2 0 j) = nb (ix1 j))
    (hmK : mK (ix2 0 0) = meanT (F := Ideal)
      (CMB (Ideal.ofBits .f32 c1) (Ideal.ofBits .f32 c2) (propT (F := Ideal) r c n h) x0 w1 w2) ix0)
    (hiK : iK (ix2 0 0) = invstdT (F := Ideal)
      (CMB (Ideal.ofBits .f32 c1) (Ideal.ofBits .f32 c2) (propT (F := Ideal) r c n h) x0 w1 w2) ix0) :
    NRM (CMB (Ideal.ofBits .f32 c1) (Ideal.ofBits .f32 c2) (propT (F := Ideal) r c n h) x0 w1 w2) nwK nbK mK iK
        = rlayerT (F := Ideal) c1 c2 r c n x0 w1 w2 nw nb h
      ∧ AllReal (rlayerT (F := Ideal) c1 c2 r c n x0 w1 w2 nw nb h) := by
  have hout : AllReal (CMB (Ideal.ofBits .f32 c1) (Ideal.ofBits .f32 c2) (propT (F := Ideal) r c n h) x0 w1 w2) :=
    allReal_CMB hc1 hc2 (allReal_propT r c n h hn hh) hx0 hw1 hw2
  have hl : rlayerT (F := Ideal) c1 c2 r c n x0 w1 w2 nw nb h
      = rnormT (F := Ideal) (CMB (Ideal.ofBits .f32 c1) (Ideal.ofBits .f32 c2) (propT (F := Ideal) r c n h) x0 w1 w2)
          nw nb := by
    show rnormT (F := Ideal) (combineT (F := Ideal) c1 c2 (propT (F := Ideal) r c n h) x0 w1 w2) nw nb = _
    rw [hcmb]
  rw [hl]
  exact norm_law _ hout nw nb hnw hnb nwK nbK mK iK hnwK hnbK hmK hiK

end Cert.Hand.Law

end
-- ==== Proof.PrePost.lean ====
/-
  The edge weights, the first stage, and three small reshapes, on the extended reals.

  * The in-degree of a node is 0 plus a finite sum of ones, a real number that is not negative. Where it is positive its
    reciprocal root is a real number, and elsewhere the entry kept is the constant 0: the normalising factor of every node
    is a real number, whatever the edge list. An edge's weight is the product of the factors read at its two ends (a read
    at any index returns an entry of the array read), hence a real number.
  * The first stage x·W + b, and its half, are arrays of real numbers when x, W and b are: a finite sum of products of
    real numbers plus a real number, then times the real number 1/2.
  * A vector laid out as a single row, and a one-entry array laid out as a 1 × 1 array, hold the same entries.
-/
import proofs.«104804_j42004780155161_1_alg».proof.Proof.Terms
import proofs.«104804_j42004780155161_1_alg».proof.Proof.FiniteLib
import Idealize.ShloMosaic.PureOps.Ideal.Laws
import Idealize.ShloMosaic.Lib.IdealHost
import Idealize.ShloMosaic.Lib.ValueLayout

namespace Cert.Hand.PrePost

open Idealize Idealize.ShloMosaic Idealize.ShloMosaic.ValueIdx Cert.ReferenceIdeal Cert.Hand.Terms Cert.Hand.FiniteLib
open scoped BigOperators

/-! ## Three words -/

/-- The word 0x00000000 denotes the real number 0. -/
theorem zero_word : Ideal.ofBits .f32 0x00000000#32 = ((0 : ℝ) : EReal) := by
  rw [Ideal.ofBits_zero_f32, EReal.coe_zero]

/-- The word 0x3F800000 denotes the real number 1. -/
theorem one_word : Ideal.ofBits .f32 0x3F800000#32 = ((1 : ℝ) : EReal) := by
  rw [Ideal.ofBits_one_f32, EReal.coe_one]

/-- The word 0x3F000000 denotes the real number 1/2. -/
theorem half_word : Ideal.ofBits .f32 0x3F000000#32 = (((1 : ℝ) / 2 : ℝ) : EReal) := by
  simp [Ideal.ofBits, Ideal.ieee, -EReal.coe_mul]; norm_num

/-! ## Sums of real numbers that are not negative -/

/-- A finite sum of nonnegative real numbers, taken in the extended reals, is a nonnegative real number. -/
theorem sum_nonneg_real {ι : Type*} (s : Finset ι) {f : ι → EReal}
    (hf : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by rw [Finset.sum_empty, EReal.coe_zero]⟩
  | insert a s ha ih =>
    obtain ⟨r, hr, e⟩ := hf a (Finset.mem_insert_self a s)
    obtain ⟨t, ht, e'⟩ := ih fun i hi => hf i (Finset.mem_insert_of_mem hi)
    exact ⟨r + t, add_nonneg hr ht, by rw [Finset.sum_insert ha, e, e', EReal.coe_add]⟩

/-- An accumulating scatter of nonnegative reals onto nonnegative reals: every entry of the result is the operand's
    entry plus a finite sum of update entries, a nonnegative real number. -/
theorem scatterAdd_nonneg {S si u : Shape} {w : Nat} {φ : FTy} (d : ScatterDims S si u) {x : FVec Ideal S φ}
    {upd : FVec Ideal u φ} (hx : ∀ i, ∃ r : ℝ, 0 ≤ r ∧ x i = (r : EReal)) (idx : IVec si w)
    (hu : ∀ j, ∃ r : ℝ, 0 ≤ r ∧ upd j = (r : EReal)) (i : S.Idx) :
    ∃ r : ℝ, 0 ≤ r ∧ Host.scatterAdd d x idx upd i = (r : EReal) := by
  show ∃ r : ℝ, 0 ≤ r ∧ Ideal.hostScatterAdd d x idx upd i = (r : EReal)
  unfold Ideal.hostScatterAdd
  obtain ⟨a, ha, ea⟩ := hx i
  obtain ⟨t, ht, et⟩ := sum_nonneg_real (Finset.univ.filter fun j => d.resultIdx? j idx = some i) (f := upd)
    fun j _ => hu j
  exact ⟨a + t, add_nonneg ha ht, by rw [ea, et, EReal.coe_add]⟩

section Leaves
variable [Cert.ReferenceIdeal.Facts₀]
open Cert.ReferenceIdeal.Facts₀

/-! ## The degree, the normalising factor, the edge weight -/

/-- Every entry of a splat over the nodes is the value of its word. -/
theorem splatN_apply (w : BitVec 32) (i : S50000.Idx) : splatN (F := Ideal) w i = Ideal.ofBits .f32 w := rfl

/-- Every entry of a splat over the edges is the value of its word. -/
theorem splatE_apply (w : BitVec 32) (j : S550000.Idx) :
    (broadcastInDim S550000 ![] bcast_S_S550000 (constant (F := Ideal) S_ .f32 w) : Edge Ideal) j
      = Ideal.ofBits .f32 w := rfl

/-- The same splat over the nodes, its scalar passed through the identity. -/
theorem splatN_id_apply (w : BitVec 32) (i : S50000.Idx) :
    (broadcastInDim S50000 ![] bcast_S_S50000 ((id : Sc Ideal → Sc Ideal) (constant (F := Ideal) S_ .f32 w)) : Node Ideal) i
      = Ideal.ofBits .f32 w := rfl

/-- Every entry of a splat over the activations' shape is the value of its word. -/
theorem splatA_apply (w : BitVec 32) (i : S50000x128.Idx) : splatA (F := Ideal) w i = Ideal.ofBits .f32 w := rfl

/-- The in-degree of every node is a nonnegative real number, whatever the list of targets. -/
theorem deg_nonneg (c : Ix Ideal) (i : S50000.Idx) : ∃ r : ℝ, 0 ≤ r ∧ degT c i = (r : EReal) := by
  have hx : ∀ k, ∃ r : ℝ, 0 ≤ r ∧ splatN (F := Ideal) 0x00000000#32 k = (r : EReal) :=
    fun k => ⟨0, le_rfl, (splatN_apply _ k).trans zero_word⟩
  have hu : ∀ j, ∃ r : ℝ, 0 ≤ r ∧
      (broadcastInDim S550000 ![] bcast_S_S550000 (constant (F := Ideal) S_ .f32 0x3F800000#32) : Edge Ideal) j
        = (r : EReal) :=
    fun j => ⟨1, zero_le_one, (splatE_apply _ j).trans one_word⟩
  exact scatterAdd_nonneg (φ := .f32) scatter_S50000_S550000x1_S550000_n_0_0_1 hx _ hu i

/-- The normalising factor read at a node: the reciprocal root of the degree where the degree exceeds 0, else 0. -/
theorem dinvT_apply (c : Ix Ideal) (i : S50000.Idx) :
    dinvT c i = if cmpf .ogt (degT c) (splatN (F := Ideal) 0x00000000#32) i = 1#1 then Host.rsqrt (degT c) i
      else (broadcastInDim S50000 ![] bcast_S_S50000
        ((id : Sc Ideal → Sc Ideal) (constant (F := Ideal) S_ .f32 0x00000000#32)) : Node Ideal) i := rfl

/-- The normalising factor of every node is a real number: the reciprocal root of a positive degree, or the constant 0. -/
theorem dinv_real (c : Ix Ideal) : AllReal (dinvT c) := fun i => by
  obtain ⟨r, hr, hd⟩ := deg_nonneg c i
  have hz : splatN (F := Ideal) 0x00000000#32 i = ((0 : ℝ) : EReal) := (splatN_apply _ i).trans zero_word
  rw [dinvT_apply]
  rcases lt_or_ge 0 r with hpos | hle
  · rw [if_pos (cmpf_ogt_apply_of_lt (φ := .f32) hd hz hpos)]
    exact ⟨_, hostRsqrt_apply_coe (φ := .f32) hd hpos⟩
  · rw [if_neg (by rw [cmpf_ogt_apply_of_le (φ := .f32) hd hz hle]; decide)]
    exact ⟨0, (splatN_id_apply _ i).trans zero_word⟩

/-- A node vector of real numbers read at any indices is an edge vector of real numbers. -/
theorem takeN_real {x : Node Ideal} (hx : AllReal x) (v : Ix Ideal) : AllReal (takeN x v) :=
  AllReal.gather gather_S50000_S550000x1_S550000_n_0_n_n_0_1_1 hx (idxT v)

/-- Every edge's weight is a real number, whatever the two index vectors. -/
theorem norm_real (r c : Ix Ideal) : AllReal (normT r c) :=
  AllReal.mulf (φ := .f32) (takeN_real (dinv_real c) r) (takeN_real (dinv_real c) c)

/-! ## The first stage -/

/-- A vector of real numbers laid along the columns is an array of real numbers. -/
theorem bcRow_real {b : Row Ideal} (hb : AllReal b) : AllReal (bcRow b) :=
  (hb.broadcastInDim _ bcast_S128_S1x128_1).broadcastInDim _ bcast_S1x128_S50000x128_0_1

/-- The splat of a word that denotes a real number. -/
theorem splatA_real {w : BitVec 32} (h : IsReal (Ideal.ofBits .f32 w)) : AllReal (splatA (F := Ideal) w) :=
  fun i => by rw [splatA_apply]; exact h

/-- x·W + b is an array of real numbers when x, W and b are. -/
theorem h0_real {x : (⟨S50000x64, .f32⟩ : BufTy).Contents (Elt Ideal)} {w : (⟨S64x128, .f32⟩ : BufTy).Contents (Elt Ideal)}
    {b : Row Ideal} (hx : AllReal x) (hw : AllReal w) (hb : AllReal b) :
    AllReal ((addf (F := Ideal) (φ := .f32) : Act Ideal → Act Ideal → Act Ideal)
      (Host.dotGeneral (F := Ideal) (φ₁ := .f32) (φ₂ := .f32) dot_S50000x64_S64x128_S50000x128_1_0_0_1_n_n none x w) (bcRow b)) :=
  AllReal.addf (φ := .f32) (AllReal.dotGeneral (φ₁ := .f32) (φ₂ := .f32) _ none hx hw) (bcRow_real hb)

/-- Half of an array of real numbers. -/
theorem half_real {h : Act Ideal} (hh : AllReal h) :
    AllReal ((mulf (F := Ideal) (φ := .f32) : Act Ideal → Act Ideal → Act Ideal) (splatA (F := Ideal) 0x3F000000#32) h) :=
  AllReal.mulf (φ := .f32) (splatA_real ⟨_, half_word⟩) hh

/-- Half of x·W + b. -/
theorem x0_real {x : (⟨S50000x64, .f32⟩ : BufTy).Contents (Elt Ideal)} {w : (⟨S64x128, .f32⟩ : BufTy).Contents (Elt Ideal)}
    {b : Row Ideal} (hx : AllReal x) (hw : AllReal w) (hb : AllReal b) :
    AllReal ((mulf (F := Ideal) (φ := .f32) : Act Ideal → Act Ideal → Act Ideal) (splatA (F := Ideal) 0x3F000000#32)
      ((addf (F := Ideal) (φ := .f32) : Act Ideal → Act Ideal → Act Ideal)
        (Host.dotGeneral (F := Ideal) (φ₁ := .f32) (φ₂ := .f32) dot_S50000x64_S64x128_S50000x128_1_0_0_1_n_n none x w) (bcRow b))) :=
  half_real (h0_real hx hw hb)

end Leaves

/-! ## Small reshapes -/

section Reshape
variable {α : Type}

/-- A vector laid out as one row: the entry at (0, j) is the vector's entry j. -/
theorem row_reshape_apply {a : ℕ} (b : (⟨1, ![a]⟩ : Shape).Idx → α)
    (h : (⟨1, ![a]⟩ : Shape).ShapeCasts ⟨2, ![1, a]⟩) (j : Fin a) :
    (fun i => shapeCast ⟨2, ![1, a]⟩ b h i) (ix2 (0 : Fin 1) j) = b (ix1 j) :=
  shapeCast_a_1a_apply b h 0 j

/-- The same at every index of the row: the entry depends on the column only. -/
theorem row_reshape_eq {a : ℕ} (b : (⟨1, ![a]⟩ : Shape).Idx → α)
    (h : (⟨1, ![a]⟩ : Shape).ShapeCasts ⟨2, ![1, a]⟩) :
    (fun i => shapeCast ⟨2, ![1, a]⟩ b h i) = fun i => b (ix1 (i 1 : Fin a)) := by
  funext i
  obtain ⟨u, j, rfl⟩ : ∃ (u : Fin 1) (j : Fin a), i = ix2 u j := ⟨i 0, i 1, eq_ix2 i⟩
  exact shapeCast_a_1a_apply b h u j

/-- A one-entry array laid out as a 1 × 1 array: its entry is the one entry. -/
theorem scalar_reshape_apply (s : (⟨0, ![]⟩ : Shape).Idx → α)
    (h : (⟨0, ![]⟩ : Shape).ShapeCasts ⟨2, ![1, 1]⟩) (j : (⟨2, ![1, 1]⟩ : Shape).Idx) :
    (fun i => shapeCast ⟨2, ![1, 1]⟩ s h i) j = s ix0 := by
  show shapeCast ⟨2, ![1, 1]⟩ s h j = s ix0
  unfold shapeCast
  exact congrArg s (eq_ix0 _)

/-- The 128-vector as a 1 × 128 array, read at (0, j). -/
theorem row128_apply (b : (⟨1, ![128]⟩ : Shape).Idx → α) (h : (⟨1, ![128]⟩ : Shape).ShapeCasts ⟨2, ![1, 128]⟩)
    (j : Fin 128) : (fun i => shapeCast ⟨2, ![1, 128]⟩ b h i) (ix2 (0 : Fin 1) j) = b (ix1 j) :=
  row_reshape_apply b h j

/-- The 64-vector as a 1 × 64 array, read at (0, j). -/
theorem row64_apply (b : (⟨1, ![64]⟩ : Shape).Idx → α) (h : (⟨1, ![64]⟩ : Shape).ShapeCasts ⟨2, ![1, 64]⟩)
    (j : Fin 64) : (fun i => shapeCast ⟨2, ![1, 64]⟩ b h i) (ix2 (0 : Fin 1) j) = b (ix1 j) :=
  row_reshape_apply b h j

/-- The scalar as a 1 × 1 array, read at (0, 0). -/
theorem sc11_apply (s : (⟨0, ![]⟩ : Shape).Idx → α) (h : (⟨0, ![]⟩ : Shape).ShapeCasts ⟨2, ![1, 1]⟩) :
    (fun i => shapeCast ⟨2, ![1, 1]⟩ s h i) (ix2 (0 : Fin 1) (0 : Fin 1)) = s ix0 :=
  scalar_reshape_apply s h _

end Reshape

end Cert.Hand.PrePost
-- ==== Proof.RegMatmulBiasRef.lean ====
/-
  The reference program's two projections read as the same functions the kernels' regions compute.
  The host writes  dot_general(x, w) + broadcast(broadcast(b))  with the bias a vector of the output's width;
  entry (r, c) is the sum over k of x(r, k) · w(k, c), plus b(c): that is `MB0` (`MB17` for the last projection) of
  x, w and the bias seen as a one-row array. The kernel program reshapes the bias vector to one row instead, which at
  the entry (0, c) is again b(c).
-/
import proofs.«104804_j42004780155161_1_alg».proof.ReferenceIdeal
import proofs.«104804_j42004780155161_1_alg».proof.Proof.RegMatmulBiasSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hand.RegMatmulBias.Ref

open Idealize.ShloMosaic Idealize.ShloMosaic.ValueIdx Cert.ReferenceIdeal Cert.Hand.RegMatmulBias

variable [Cert.ReferenceIdeal.Facts₀]
open Cert.ReferenceIdeal.Facts₀

/-! ## The first projection: [50000,64] · [64,128] + [128] -/

theorem lhs1_0 (i : S50000x128.Idx) (q : dot_S50000x64_S64x128_S50000x128_1_0_0_1_n_n.contr.Idx) :
    (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch from List.not_mem_nil), dif_pos (show (0 : Fin S50000x64.rank) ∈ dot_S50000x64_S64x128_S50000x128_1_0_0_1_n_n.lhsNonContracting from List.mem_singleton.mpr rfl)]
  rfl
theorem lhs1_1 (i : S50000x128.Idx) (q : dot_S50000x64_S64x128_S50000x128_1_0_0_1_n_n.contr.Idx) :
    (dot_S50000x64_S64x128_S50000x128_1_0_0_1_n_n.lhsIdx i q 1).val = (q ⟨0, Nat.one_pos⟩).val :=
  dot_S50000x64_S64x128_S50000x128_1_0_0_1_n_n.lhsIdx_val_of_single rfl i q
theorem rhs1_0 (i : S50000x128.Idx) (q : dot_S50000x64_S64x128_S50000x128_1_0_0_1_n_n.contr.Idx) :
    (dot_S50000x64_S64x128_S50000x128_1_0_0_1_n_n.rhsIdx i q 0).val = (q ⟨0, Nat.one_pos⟩).val :=
  dot_S50000x64_S64x128_S50000x128_1_0_0_1_n_n.rhsIdx_val_of_single rfl i q
theorem rhs1_1 (i : S50000x128.Idx) (q : dot_S50000x64_S64x128_S50000x128_1_0_0_1_n_n.contr.Idx) :
    (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch from List.not_mem_nil), dif_pos (show (1 : Fin S64x128.rank) ∈ dot_S50000x64_S64x128_S50000x128_1_0_0_1_n_n.rhsNonContracting from List.mem_singleton.mpr rfl)]
  rfl

/-- The host's product at the entry (r, c): the 64 products of row r with column c, summed. -/
theorem dot1_apply (x : FVec Ideal S50000x64 .f32) (w : FVec Ideal S64x128 .f32) (r : Fin 50000) (c : Fin 128) :
    Host.dotGeneral dot_S50000x64_S64x128_S50000x128_1_0_0_1_n_n none x w (ix2 r c) = ∑ k : Fin 64, x (ix2 r k) * w (ix2 k c) := by
  simp only [Host.dotGeneral]
  rw [Ideal.dotGeneral_apply, ← Equiv.sum_comp (contrEquiv1 dot_S50000x64_S64x128_S50000x128_1_0_0_1_n_n 64 rfl rfl).symm]
  refine Finset.sum_congr rfl fun k _ => ?_
  have hk := contrEquiv1_symm_val dot_S50000x64_S64x128_S50000x128_1_0_0_1_n_n 64 rfl rfl k
  have el : dot_S50000x64_S64x128_S50000x128_1_0_0_1_n_n.lhsIdx (ix2 r c) ((contrEquiv1 dot_S50000x64_S64x128_S50000x128_1_0_0_1_n_n 64 rfl rfl).symm k) = ix2 r k := funext fun a => Fin.ext (by
    match a with
    | ⟨0, _⟩ => exact lhs1_0 _ _
    | ⟨1, _⟩ => exact (lhs1_1 _ _).trans hk)
  have er : dot_S50000x64_S64x128_S50000x128_1_0_0_1_n_n.rhsIdx (ix2 r c) ((contrEquiv1 dot_S50000x64_S64x128_S50000x128_1_0_0_1_n_n 64 rfl rfl).symm k) = ix2 k c := funext fun a => Fin.ext (by
    match a with
    | ⟨0, _⟩ => exact (rhs1_0 _ _).trans hk
    | ⟨1, _⟩ => exact rhs1_1 _ _)
  rw [el, er]

/-- The bias laid along the columns, at the entry (r, c): a vector made a one-row array, the row repeated down the rows. -/
theorem bias1_apply (b1 : FVec Ideal S128 .f32) (r : Fin 50000) (c : Fin 128) :
    (broadcastInDim S50000x128 ![0, 1] bcast_S1x128_S50000x128_0_1 (broadcastInDim S1x128 ![1] bcast_S128_S1x128_1 b1) : FVec Ideal S50000x128 .f32) (ix2 r c) = b1 (ix1 c) := by
  refine (broadcastInDim_apply _ _ _ (ix2 r c) (ix2 (0 : Fin 1) c) fun a => ?_).trans
    (broadcastInDim_apply _ _ _ (ix2 (0 : Fin 1) c) (ix1 c) fun a => ?_)
  · match a with
    | ⟨0, _⟩ => rfl
    | ⟨1, _⟩ => rfl
  · match a with
    | ⟨0, _⟩ => rfl

/-- THE REFERENCE'S FIRST PROJECTION is `MB0` of its operands, the bias vector read as a one-row array. -/
theorem lin1_eq (x : FVec Ideal S50000x64 .f32) (w : FVec Ideal S64x128 .f32) (b1 : FVec Ideal S128 .f32) :
    addf (Host.dotGeneral dot_S50000x64_S64x128_S50000x128_1_0_0_1_n_n none x w)
        (broadcastInDim S50000x128 ![0, 1] bcast_S1x128_S50000x128_0_1 (broadcastInDim S1x128 ![1] bcast_S128_S1x128_1 b1))
      = MB0 x w (fun j => b1 (ix1 (j 1 : Fin 128))) := by
  funext i
  obtain ⟨r, c, rfl⟩ : ∃ (r : Fin 50000) (c : Fin 128), i = ix2 r c := ⟨i 0, i 1, eq_ix2 i⟩
  rw [MB0_apply]
  refine (addf_apply _ _ (ix2 r c)).trans ?_
  exact congrArg₂ (· + ·) (dot1_apply x w r c) (bias1_apply b1 r c)

/-! ## The last projection: [50000,128] · [128,64] + [64] -/

theorem lhs2_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch from List.not_mem_nil), dif_pos (show (0 : Fin S50000x128.rank) ∈ dot_S50000x128_S128x64_S50000x64_1_0_0_1_n_n.lhsNonContracting from List.mem_singleton.mpr rfl)]
  rfl
theorem lhs2_1 (i : S50000x64.Idx) (q : dot_S50000x128_S128x64_S50000x64_1_0_0_1_n_n.contr.Idx) :
    (dot_S50000x128_S128x64_S50000x64_1_0_0_1_n_n.lhsIdx i q 1).val = (q ⟨0, Nat.one_pos⟩).val :=
  dot_S50000x128_S128x64_S50000x64_1_0_0_1_n_n.lhsIdx_val_of_single rfl i q
theorem rhs2_0 (i : S50000x64.Idx) (q : dot_S50000x128_S128x64_S50000x64_1_0_0_1_n_n.contr.Idx) :
    (dot_S50000x128_S128x64_S50000x64_1_0_0_1_n_n.rhsIdx i q 0).val = (q ⟨0, Nat.one_pos⟩).val :=
  dot_S50000x128_S128x64_S50000x64_1_0_0_1_n_n.rhsIdx_val_of_single rfl i q
theorem rhs2_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch from List.not_mem_nil), dif_pos (show (1 : Fin S128x64.rank) ∈ dot_S50000x128_S128x64_S50000x64_1_0_0_1_n_n.rhsNonContracting from List.mem_singleton.mpr rfl)]
  rfl

/-- The host's product at the entry (r, c): the 128 products of row r with column c, summed. -/
theorem dot2_apply (x : FVec Ideal S50000x128 .f32) (w : FVec Ideal S128x64 .f32) (r : Fin 50000) (c : Fin 64) :
    Host.dotGeneral dot_S50000x128_S128x64_S50000x64_1_0_0_1_n_n none x w (ix2 r c) = ∑ k : Fin 128, x (ix2 r k) * w (ix2 k c) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r c) ((contrEquiv1 dot_S50000x128_S128x64_S50000x64_1_0_0_1_n_n 128 rfl rfl).symm k) = ix2 r k := funext fun a => Fin.ext (by
    match a with
    | ⟨0, _⟩ => exact lhs2_0 _ _
    | ⟨1, _⟩ => exact (lhs2_1 _ _).trans hk)
  have er : dot_S50000x128_S128x64_S50000x64_1_0_0_1_n_n.rhsIdx (ix2 r c) ((contrEquiv1 dot_S50000x128_S128x64_S50000x64_1_0_0_1_n_n 128 rfl rfl).symm k) = ix2 k c := funext fun a => Fin.ext (by
    match a with
    | ⟨0, _⟩ => exact (rhs2_0 _ _).trans hk
    | ⟨1, _⟩ => exact rhs2_1 _ _)
  rw [el, er]

/-- The bias laid along the columns, at the entry (r, c): a vector made a one-row array, the row repeated down the rows. -/
theorem bias2_apply (b1 : FVec Ideal S64 .f32) (r : Fin 50000) (c : Fin 64) :
    (broadcastInDim S50000x64 ![0, 1] bcast_S1x64_S50000x64_0_1 (broadcastInDim S1x64 ![1] bcast_S64_S1x64_1 b1) : FVec Ideal S50000x64 .f32) (ix2 r c) = b1 (ix1 c) := by
  refine (broadcastInDim_apply _ _ _ (ix2 r c) (ix2 (0 : Fin 1) c) fun a => ?_).trans
    (broadcastInDim_apply _ _ _ (ix2 (0 : Fin 1) c) (ix1 c) fun a => ?_)
  · match a with
    | ⟨0, _⟩ => rfl
    | ⟨1, _⟩ => rfl
  · match a with
    | ⟨0, _⟩ => rfl

/-- THE REFERENCE'S LAST PROJECTION is `MB17` of its operands, the bias vector read as a one-row array. -/
theorem lin2_eq (x : FVec Ideal S50000x128 .f32) (w : FVec Ideal S128x64 .f32) (b1 : FVec Ideal S64 .f32) :
    addf (Host.dotGeneral dot_S50000x128_S128x64_S50000x64_1_0_0_1_n_n none x w)
        (broadcastInDim S50000x64 ![0, 1] bcast_S1x64_S50000x64_0_1 (broadcastInDim S1x64 ![1] bcast_S64_S1x64_1 b1))
      = MB17 x w (fun j => b1 (ix1 (j 1 : Fin 64))) := by
  funext i
  obtain ⟨r, c, rfl⟩ : ∃ (r : Fin 50000) (c : Fin 64), i = ix2 r c := ⟨i 0, i 1, eq_ix2 i⟩
  rw [MB17_apply]
  refine (addf_apply _ _ (ix2 r c)).trans ?_
  exact congrArg₂ (· + ·) (dot2_apply x w r c) (bias2_apply b1 r c)

end Cert.Hand.RegMatmulBias.Ref

/-! ## A bias vector reshaped to one row (what the kernel program's host code does before each projection) -/

namespace Cert.Hand.RegMatmulBias

open Idealize.ShloMosaic Idealize.ShloMosaic.ValueIdx

/-- A 128-vector cast to [1,128] is, as a function of the index, the vector at the column. -/
theorem reshape_row128 {α : Type} (b1 : (⟨1, ![128]⟩ : Shape).Idx → α) (h : (⟨1, ![128]⟩ : Shape).ShapeCasts ⟨2, ![1, 128]⟩) :
    shapeCast ⟨2, ![1, 128]⟩ b1 h = fun j => b1 (ix1 (j 1 : Fin 128)) := by
  funext j
  obtain ⟨u, c, rfl⟩ : ∃ (u : Fin 1) (c : Fin 128), j = ix2 u c := ⟨j 0, j 1, eq_ix2 j⟩
  exact shapeCast_a_1a_apply b1 h u c

/-- A 64-vector cast to [1,64] is, as a function of the index, the vector at the column. -/
theorem reshape_row64 {α : Type} (b1 : (⟨1, ![64]⟩ : Shape).Idx → α) (h : (⟨1, ![64]⟩ : Shape).ShapeCasts ⟨2, ![1, 64]⟩) :
    shapeCast ⟨2, ![1, 64]⟩ b1 h = fun j => b1 (ix1 (j 1 : Fin 64)) := by
  funext j
  obtain ⟨u, c, rfl⟩ : ∃ (u : Fin 1) (c : Fin 64), j = ix2 u c := ⟨j 0, j 1, eq_ix2 j⟩
  exact shapeCast_a_1a_apply b1 h u c

end Cert.Hand.RegMatmulBias

end
-- ==== Proof.RegCombineRef.lean ====
/-
  The reference's combine layer, read as the combined array of the specification.

  The reference computes the layer with whole-array operations: each scalar is splat over the 50000 × 128 array, each
  product is a plain matrix product with no accumulator, and the four terms are added in the order
  ((c1·agg + c2·(agg·w1)) + c1·x0) + c2·(x0·w2). Entry by entry that is the specification's formula: a splat reads its
  scalar, a product reads the sum over the contraction index of the operands' products.
-/
import proofs.«104804_j42004780155161_1_alg».proof.Proof.Gen.ReferenceIdeal
import proofs.«104804_j42004780155161_1_alg».proof.Proof.RegCombineSpec
import proofs.«104804_j42004780155161_1_alg».proof.Proof.RegCombineDot
import proofs.«104804_j42004780155161_1_alg».proof.Proof.Terms
import Idealize.ShloMosaic.Lib.ValueIdx
import Idealize.ShloMosaic.PureOps.Ideal.Laws

noncomputable section

namespace Cert.Hand.RegCombineRef

open Cert.ReferenceIdeal Cert.ReferenceIdeal.Facts₀ Idealize.ShloMosaic Idealize.ShloMosaic.ValueIdx
open Cert.Hand.RegCombineSpec Cert.Hand.RegCombineDot

/-- The reference's product contracts the left operand's columns against the right operand's rows. -/
theorem plain : Plain dot_S50000x128_S128x128_S50000x128_1_0_0_1_n_n := ⟨rfl, rfl, rfl, rfl, rfl, rfl⟩

/-- THE REFERENCE'S LAYER, READ: two scalars splat over the array, two products with no accumulator, three additions in
    the printed order, is the combined array of the specification, whatever the two words. -/
theorem ref_eq (wa wb : BitVec 32) (agg x0 : FVec Ideal S50000x128 .f32) (w1 w2 : FVec Ideal S128x128 .f32) :
    addf (addf (addf (mulf (broadcastInDim S50000x128 ![] bcast_S_S50000x128 (constant (F := Ideal) S_ .f32 wa)) agg)
                     (mulf (broadcastInDim S50000x128 ![] bcast_S_S50000x128 (constant (F := Ideal) S_ .f32 wb))
                       (Host.dotGeneral dot_S50000x128_S128x128_S50000x128_1_0_0_1_n_n none agg w1)))
               (mulf (broadcastInDim S50000x128 ![] bcast_S_S50000x128 (constant (F := Ideal) S_ .f32 wa)) x0))
         (mulf (broadcastInDim S50000x128 ![] bcast_S_S50000x128 (constant (F := Ideal) S_ .f32 wb))
           (Host.dotGeneral dot_S50000x128_S128x128_S50000x128_1_0_0_1_n_n none x0 w2))
      = CMB (Ideal.ofBits .f32 wa) (Ideal.ofBits .f32 wb) agg x0 w1 w2 := by
  funext i
  obtain ⟨p, q, rfl⟩ : ∃ (p : Fin 50000) (q : Fin 128), i = ix2 p q := ⟨i 0, i 1, eq_ix2 i⟩
  rw [CMB_apply]
  simp only [addf_apply, mulf_apply]
  rw [dotGeneral_apply plain agg w1 p q, dotGeneral_apply plain x0 w2 p q]
  rfl

/-- The same, over the layer written as one named function of its operands. -/
theorem combineT_eq (c1 c2 : BitVec 32) (agg x0 : Cert.Hand.Terms.Act Ideal) (w1 w2 : Cert.Hand.Terms.Wt Ideal) :
    Cert.Hand.Terms.combineT (F := Ideal) c1 c2 agg x0 w1 w2
      = CMB (Ideal.ofBits .f32 c1) (Ideal.ofBits .f32 c2) agg x0 w1 w2 :=
  ref_eq c1 c2 agg x0 w1 w2

end Cert.Hand.RegCombineRef

end
-- ==== Proof.Bridge.lean ====
/-
  The two programs compute the same result from finite arguments.

  With every float argument an array of real numbers, all intermediate arrays of the reference program are arrays of real
  numbers, and stage by stage the kernel program's value is the reference's: the first activations (a matrix product plus a
  bias, read index by index on one side and as host operations on the other), the residual, then eight times the layer law —
  the combine is the same sum of four terms, and normalising by the reciprocal of (deviation + ε) of the array itself equals
  dividing the centred array by (its own deviation + ε), because centring does not change the deviation of an array of
  reals and the divisor is a positive real — and the last matrix product plus bias.
-/
import proofs.«104804_j42004780155161_1_alg».proof.Proof.KVals
import proofs.«104804_j42004780155161_1_alg».proof.Proof.Law
import proofs.«104804_j42004780155161_1_alg».proof.Proof.PrePost
import proofs.«104804_j42004780155161_1_alg».proof.Proof.RegMatmulBiasRef
import proofs.«104804_j42004780155161_1_alg».proof.Proof.RegCombineRef

noncomputable section

namespace Cert.Hand.Bridge

open Idealize.ShloMosaic Idealize.ShloMosaic.ValueIdx Cert.ReferenceIdeal Cert.Hand.Terms Cert.Hand.KVals
open Cert.Hand.FiniteLib Cert.Hand.RegCombineSpec Cert.Hand.RegNormSpec Cert.Hand.RegMatmulBias

variable [Cert.ReferenceIdeal.Facts₀] [Cert.KernelIdeal.Facts₀]
open Cert.ReferenceIdeal.Facts₀

/-- Every float argument is an array of real numbers. -/
structure RealArgs (A : Args) : Prop where
  a0 : AllReal A.a0
  a2 : AllReal A.a2
  a3 : AllReal A.a3
  a4 : AllReal A.a4
  a5 : AllReal A.a5
  a6 : AllReal A.a6
  a7 : AllReal A.a7
  a8 : AllReal A.a8
  a9 : AllReal A.a9

variable {A : Args}

/-- A slab of a real stack is real; a row of a real table is real. -/
theorem w3T_real {k : Nat} (hs : S8x128x128.Slices ![k, 0, 0] S1x128x128)
    {a : (⟨S8x128x128, .f32⟩ : BufTy).Contents (Elt Ideal)} (ha : AllReal a) : AllReal (w3T (F := Ideal) k hs a) :=
  (ha.extractStridedSlice _ hs).reshape _
theorem r2T_real {k : Nat} (hs : S8x128.Slices ![k, 0] S1x128)
    {a : (⟨S8x128, .f32⟩ : BufTy).Contents (Elt Ideal)} (ha : AllReal a) : AllReal (r2T (F := Ideal) k hs a) :=
  (ha.extractStridedSlice _ hs).reshape _

/-- The first activations: the index-by-index product plus bias is the host's. -/
theorem h0_eq (A : Args) : KH0 A = RH0 A := by
  have hb : row128 A.a3 = fun j => A.a3 (ix1 (j 1 : Fin 128)) := reshape_row128 A.a3 _
  unfold KH0 RH0 bcRow
  rw [hb]
  exact (Cert.Hand.RegMatmulBias.Ref.lin1_eq A.a0 A.a2 A.a3).symm

theorem h0_real (hA : RealArgs A) : AllReal (RH0 A) := Cert.Hand.PrePost.h0_real hA.a0 hA.a2 hA.a3

theorem x0_eq (A : Args) : KX0 A = RX0 A := by unfold KX0 RX0; rw [h0_eq]

theorem x0_real (hA : RealArgs A) : AllReal (RX0 A) := Cert.Hand.PrePost.half_real (h0_real hA)

/-- One layer: from equal, real previous activations to equal, real next activations. -/
theorem step (hA : RealArgs A) (c1 c2 : BitVec 32) (hc1 : IsReal (Ideal.ofBits .f32 c1)) (hc2 : IsReal (Ideal.ofBits .f32 c2)) (k : Nat)
    (hs3 : S8x128x128.Slices ![k, 0, 0] S1x128x128) (hs2 : S8x128.Slices ![k, 0] S1x128)
    (kh : (⟨2, ![50000, 128]⟩ : Shape).Idx → EReal) (rh : Act Ideal) (e : kh = rh) (hr : AllReal rh) :
    NRM (CMB (Ideal.ofBits .f32 c1) (Ideal.ofBits .f32 c2) (propT (row A) (col A) (nrm A) kh) (KX0 A)
          (w3T k hs3 A.a4) (w3T k hs3 A.a5))
        (row128 (r2T k hs2 A.a6)) (row128 (r2T k hs2 A.a7))
        (sc11 (meanT (CMB (Ideal.ofBits .f32 c1) (Ideal.ofBits .f32 c2) (propT (row A) (col A) (nrm A) kh) (KX0 A)
          (w3T k hs3 A.a4) (w3T k hs3 A.a5))))
        (sc11 (invstdT (CMB (Ideal.ofBits .f32 c1) (Ideal.ofBits .f32 c2) (propT (row A) (col A) (nrm A) kh) (KX0 A)
          (w3T k hs3 A.a4) (w3T k hs3 A.a5))))
      = rlayerT c1 c2 (row A) (col A) (nrm A) (RX0 A) (w3T k hs3 A.a4) (w3T k hs3 A.a5) (r2T k hs2 A.a6) (r2T k hs2 A.a7) rh
    ∧ AllReal (rlayerT (F := Ideal) c1 c2 (row A) (col A) (nrm A) (RX0 A) (w3T k hs3 A.a4) (w3T k hs3 A.a5)
        (r2T k hs2 A.a6) (r2T k hs2 A.a7) rh) := by
  rw [e, x0_eq A]
  refine Cert.Hand.Law.layer_law c1 c2 hc1 hc2 (row A) (col A) (nrm A) (RX0 A) rh (w3T k hs3 A.a4) (w3T k hs3 A.a5)
    (r2T k hs2 A.a6) (r2T k hs2 A.a7)
    (Cert.Hand.PrePost.norm_real _ _) (x0_real hA) hr (w3T_real hs3 hA.a4) (w3T_real hs3 hA.a5) (r2T_real hs2 hA.a6) (r2T_real hs2 hA.a7)
    (Cert.Hand.RegCombineRef.combineT_eq c1 c2 _ _ _ _)
    _ _ _ _ ?_ ?_ ?_ ?_
  · exact fun j => Cert.Hand.PrePost.row128_apply _ _ j
  · exact fun j => Cert.Hand.PrePost.row128_apply _ _ j
  · exact Cert.Hand.PrePost.sc11_apply _ _
  · exact Cert.Hand.PrePost.sc11_apply _ _

theorem l0 (hA : RealArgs A) : KH1 A = RH1 A ∧ AllReal (RH1 A) := by
  unfold KH1 KOut0 RH1
  exact step hA 0x3E9D1BD0#32 0x3F317218#32 (ofBits_f32_isReal _ (by decide)) (ofBits_f32_isReal _ (by decide)) 0 _ _ _ _
    (h0_eq A) (h0_real hA)
theorem l1 (hA : RealArgs A) : KH2 A = RH2 A ∧ AllReal (RH2 A) := by
  unfold KH2 KOut1 RH2
  exact step hA 0x3F183370#32 0x3ECF991F#32 (ofBits_f32_isReal _ (by decide)) (ofBits_f32_isReal _ (by decide)) 1 _ _ _ _
    (l0 hA).1 (l0 hA).2
theorem l2 (hA : RealArgs A) : KH3 A = RH3 A ∧ AllReal (RH3 A) := by
  unfold KH3 KOut2 RH3
  exact step hA 0x3F365A78#32 0x3E934B11#32 (ofBits_f32_isReal _ (by decide)) (ofBits_f32_isReal _ (by decide)) 2 _ _ _ _
    (l1 hA).1 (l1 hA).2
theorem l3 (hA : RealArgs A) : KH4 A = RH4 A ∧ AllReal (RH4 A) := by
  unfold KH4 KOut3 RH4
  exact step hA 0x3F46E010#32 0x3E647FBE#32 (ofBits_f32_isReal _ (by decide)) (ofBits_f32_isReal _ (by decide)) 3 _ _ _ _
    (l2 hA).1 (l2 hA).2
theorem l4 (hA : RealArgs A) : KH5 A = RH5 A ∧ AllReal (RH5 A) := by
  unfold KH5 KOut4 RH5
  exact step hA 0x3F515360#32 0x3E3AB281#32 (ofBits_f32_isReal _ (by decide)) (ofBits_f32_isReal _ (by decide)) 4 _ _ _ _
    (l3 hA).1 (l3 hA).2
theorem l5 (hA : RealArgs A) : KH6 A = RH6 A ∧ AllReal (RH6 A) := by
  unfold KH6 KOut5 RH6
  exact step hA 0x3F588995#32 0x3E1DD9AD#32 (ofBits_f32_isReal _ (by decide)) (ofBits_f32_isReal _ (by decide)) 5 _ _ _ _
    (l4 hA).1 (l4 hA).2
theorem l6 (hA : RealArgs A) : KH7 A = RH7 A ∧ AllReal (RH7 A) := by
  unfold KH7 KOut6 RH7
  exact step hA 0x3F5DD0E3#32 0x3E08BC74#32 (ofBits_f32_isReal _ (by decide)) (ofBits_f32_isReal _ (by decide)) 6 _ _ _ _
    (l5 hA).1 (l5 hA).2
theorem l7 (hA : RealArgs A) : KH8 A = RH8 A ∧ AllReal (RH8 A) := by
  unfold KH8 KOut7 RH8
  exact step hA 0x3F61D8F9#32 0x3DF1383B#32 (ofBits_f32_isReal _ (by decide)) (ofBits_f32_isReal _ (by decide)) 7 _ _ _ _
    (l6 hA).1 (l6 hA).2

/-- The results agree. -/
theorem result_eq (hA : RealArgs A) : KOut A = ROut A := by
  have hb : row64 A.a9 = fun j => A.a9 (ix1 (j 1 : Fin 64)) := reshape_row64 A.a9 _
  unfold KOut ROut
  rw [(l7 hA).1, hb]
  exact (Cert.Hand.RegMatmulBias.Ref.lin2_eq (RH8 A) A.a8 A.a9).symm

end Cert.Hand.Bridge

end
-- ==== Proof.FinitePre.lean ====
/-
  Finiteness of the arguments, from the precondition.

  The precondition tests every float argument x entrywise by |x| < +∞ and joins the nine answers by "and".
  On the extended reals |x| is max x (−x) and +∞ is the value of the word 0x7F800000, the top element. Now
  max x (−x) < ⊤ fails at x = ⊤ and at x = ⊥ (there −x = ⊤) and holds at every real number: the test at an
  entry says exactly that the entry is a real number. A conjunction of one-bit words is 1 when each is, and an
  "and" over all entries of an array is 1 only when every entry's word is 1; so the precondition gives, for
  each of the nine float arguments, that all its entries are real numbers. (The second argument is an array of
  integers and is not tested.)
-/
import proofs.«104804_j42004780155161_1_alg».proof.Defs
import proofs.«104804_j42004780155161_1_alg».proof.Proof.FiniteLib
import Idealize.ShloMosaic.PureOps.Ideal
import Idealize.ShloMosaic.Lib.ReduceAll
import Idealize.ShloMosaic.Lib.ValueIdx

namespace Cert.Hand.PrePost

open Idealize Idealize.ShloMosaic Idealize.SL.Sem Cert.Hand.FiniteLib

/-- The shape with no axes has one index. -/
instance subsingleton_idx0 : Subsingleton (⟨0, ![]⟩ : Shape).Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (−x) lies below +∞ is a real number. -/
theorem isReal_of_abs_lt_top (x : EReal) (h : max x (-x) < ⊤) : IsReal x := by
  induction x using EReal.rec with
  | bot => simp at h
  | top => simp at h
  | coe r => exact ⟨r, rfl⟩

/-- The entry test of the precondition, read back: the comparison |x| < +∞ answered 1. -/
theorem isReal_of_test (x : EReal)
    (h : Ideal.cmp .olt (max x (-x)) (Ideal.ofBits .f32 0x7F800000#32) = 1#1) : IsReal x := by
  rw [inf_word] at h
  apply isReal_of_abs_lt_top
  by_contra hn
  simp [Ideal.cmp, hn] at h

/-- One conjunct of the precondition: "all entries of x pass the test" makes x an array of real numbers. -/
theorem allReal_of_all_test {S : Shape} {axes : List (Fin S.rank)} (x : FVec Ideal S .f32)
    (hb : (⟨0, ![]⟩ : Shape).BroadcastsInDim S (![] : Fin 0 → Fin S.rank))
    (hr : S.ReducesTo axes ⟨0, ![]⟩) (hu : 0 < (⟨0, ![]⟩ : Shape).numel)
    (e : Host.reduce IntOp.andi
          (cmpf .olt (Host.absf x) (broadcastInDim S ![] hb (constant (F := Ideal) ⟨0, ![]⟩ .f32 0x7F800000#32)))
          (constantI ⟨0, ![]⟩ 1 1#1) hr hu ValueIdx.ix0 = 1#1) : AllReal x := fun i =>
  isReal_of_test (x i) (Host.reduce_andi_all _ _ hr hu ValueIdx.ix0 e i)

/-- The precondition as a function of ten arrays: when it answers 1, each of the nine float arrays is an array
    of real numbers. -/
theorem finite_of_fn [Cert.Pre_finite_inputs.Facts]
    (a0 : FVec Ideal Cert.Pre_finite_inputs.S50000x64 .f32) (a1 : IVec Cert.Pre_finite_inputs.S2x500000 32)
    (a2 : FVec Ideal Cert.Pre_finite_inputs.S64x128 .f32) (a3 : FVec Ideal Cert.Pre_finite_inputs.S128 .f32)
    (a4 a5 : FVec Ideal Cert.Pre_finite_inputs.S8x128x128 .f32) (a6 a7 : FVec Ideal Cert.Pre_finite_inputs.S8x128 .f32)
    (a8 : FVec Ideal Cert.Pre_finite_inputs.S128x64 .f32) (a9 : FVec Ideal Cert.Pre_finite_inputs.S64 .f32)
    (h : Cert.Pre_finite_inputs.fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 ∧ AllReal a8
      ∧ AllReal a9 := by
  have h0 := congrFun h ValueIdx.ix0
  dsimp only [Cert.Pre_finite_inputs.fn, Cert.Pre_finite_inputs.fn_part1, Cert.Pre_finite_inputs.fn_part2,
    ShloMosaic.andi] at h0
  simp only [IntOp.andi_eq_one] at h0
  obtain ⟨⟨⟨⟨⟨⟨⟨⟨e0, e2⟩, e3⟩, e4⟩, e5⟩, e6⟩, e7⟩, e8⟩, e9⟩ := h0
  exact ⟨allReal_of_all_test _ _ _ _ e0, allReal_of_all_test _ _ _ _ e2, allReal_of_all_test _ _ _ _ e3,
    allReal_of_all_test _ _ _ _ e4, allReal_of_all_test _ _ _ _ e5, allReal_of_all_test _ _ _ _ e6,
    allReal_of_all_test _ _ _ _ e7, allReal_of_all_test _ _ _ _ e8, allReal_of_all_test _ _ _ _ e9⟩

/-- The nine float arguments of the kernel program's memory are arrays of real numbers, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (S := Cert.Pre_finite_inputs.S50000x64)
        (m ((c.tc : Thread Cert.KernelIdeal.nD Cert.KernelIdeal.τ).loc Cert.KernelIdeal.main_arg0))
      ∧ AllReal (S := Cert.Pre_finite_inputs.S64x128)
        (m ((c.tc : Thread Cert.KernelIdeal.nD Cert.KernelIdeal.τ).loc Cert.KernelIdeal.main_arg2))
      ∧ AllReal (S := Cert.Pre_finite_inputs.S128)
        (m ((c.tc : Thread Cert.KernelIdeal.nD Cert.KernelIdeal.τ).loc Cert.KernelIdeal.main_arg3))
      ∧ AllReal (S := Cert.Pre_finite_inputs.S8x128x128)
        (m ((c.tc : Thread Cert.KernelIdeal.nD Cert.KernelIdeal.τ).loc Cert.KernelIdeal.main_arg4))
      ∧ AllReal (S := Cert.Pre_finite_inputs.S8x128x128)
        (m ((c.tc : Thread Cert.KernelIdeal.nD Cert.KernelIdeal.τ).loc Cert.KernelIdeal.main_arg5))
      ∧ AllReal (S := Cert.Pre_finite_inputs.S8x128)
        (m ((c.tc : Thread Cert.KernelIdeal.nD Cert.KernelIdeal.τ).loc Cert.KernelIdeal.main_arg6))
      ∧ AllReal (S := Cert.Pre_finite_inputs.S8x128)
        (m ((c.tc : Thread Cert.KernelIdeal.nD Cert.KernelIdeal.τ).loc Cert.KernelIdeal.main_arg7))
      ∧ AllReal (S := Cert.Pre_finite_inputs.S128x64)
        (m ((c.tc : Thread Cert.KernelIdeal.nD Cert.KernelIdeal.τ).loc Cert.KernelIdeal.main_arg8))
      ∧ AllReal (S := Cert.Pre_finite_inputs.S64)
        (m ((c.tc : Thread Cert.KernelIdeal.nD Cert.KernelIdeal.τ).loc Cert.KernelIdeal.main_arg9)) :=
  finite_of_fn _ _ _ _ _ _ _ _ _ _ (h c)

/-- The same for the reference program's memory. -/
theorem finite_of_pre_ref [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    AllReal (S := Cert.Pre_finite_inputs.S50000x64)
        (m ((c.tc : Thread Cert.ReferenceIdeal.nD Cert.ReferenceIdeal.τ).loc Cert.ReferenceIdeal.main_arg0))
      ∧ AllReal (S := Cert.Pre_finite_inputs.S64x128)
        (m ((c.tc : Thread Cert.ReferenceIdeal.nD Cert.ReferenceIdeal.τ).loc Cert.ReferenceIdeal.main_arg2))
      ∧ AllReal (S := Cert.Pre_finite_inputs.S128)
        (m ((c.tc : Thread Cert.ReferenceIdeal.nD Cert.ReferenceIdeal.τ).loc Cert.ReferenceIdeal.main_arg3))
      ∧ AllReal (S := Cert.Pre_finite_inputs.S8x128x128)
        (m ((c.tc : Thread Cert.ReferenceIdeal.nD Cert.ReferenceIdeal.τ).loc Cert.ReferenceIdeal.main_arg4))
      ∧ AllReal (S := Cert.Pre_finite_inputs.S8x128x128)
        (m ((c.tc : Thread Cert.ReferenceIdeal.nD Cert.ReferenceIdeal.τ).loc Cert.ReferenceIdeal.main_arg5))
      ∧ AllReal (S := Cert.Pre_finite_inputs.S8x128)
        (m ((c.tc : Thread Cert.ReferenceIdeal.nD Cert.ReferenceIdeal.τ).loc Cert.ReferenceIdeal.main_arg6))
      ∧ AllReal (S := Cert.Pre_finite_inputs.S8x128)
        (m ((c.tc : Thread Cert.ReferenceIdeal.nD Cert.ReferenceIdeal.τ).loc Cert.ReferenceIdeal.main_arg7))
      ∧ AllReal (S := Cert.Pre_finite_inputs.S128x64)
        (m ((c.tc : Thread Cert.ReferenceIdeal.nD Cert.ReferenceIdeal.τ).loc Cert.ReferenceIdeal.main_arg8))
      ∧ AllReal (S := Cert.Pre_finite_inputs.S64)
        (m ((c.tc : Thread Cert.ReferenceIdeal.nD Cert.ReferenceIdeal.τ).loc Cert.ReferenceIdeal.main_arg9)) :=
  finite_of_fn _ _ _ _ _ _ _ _ _ _ (h c)

end Cert.Hand.PrePost
-- ==== Proof.lean ====
/-
  The proof of `Cert.Claim`: the three frames, the (empty) idealization ledger, and the equality of the two idealized
  programs' results on finite inputs.

  The mathematics. Both programs are the same 8-layer graph network on a 50000 × 128 activation array: the neighbour
  aggregation (gather, scale by the edge weight, sum into the target rows, halve) and the graph normalisation are the same
  host operations on both sides; the dense stages (input and output projections, the combine of aggregated and residual
  activations through two 128 × 128 weights, the normalise-and-rectify step) run as kernels on 5000-row blocks on one side
  and as host operations on the other. Read index by index, the projections and the combine are the same sums on the extended
  reals. The one step that is not syntactic is the normalisation: one side multiplies the centred array by 1 / (σ + ε) with σ the
  deviation of the array, the other divides it by (σ' + ε) with σ' the deviation of the centred array. For an array of real
  numbers the centred array has mean zero, so σ' = σ, and σ + ε is a positive real, so multiplying by its reciprocal is
  dividing by it. That every array is an array of reals follows from the precondition (every float argument finite) carried
  through the network: sums, products, gathers and scatter-sums of reals are real, the degree of a node is a nonnegative real
  whose reciprocal root is taken only where it is positive, and the deviation plus ε is a positive real.
-/
import proofs.«104804_j42004780155161_1_alg».proof.Defs
import proofs.«104804_j42004780155161_1_alg».proof.Proof.Gen.Kernel
import proofs.«104804_j42004780155161_1_alg».proof.Proof.Gen.Kernel.Frame
import proofs.«104804_j42004780155161_1_alg».proof.Proof.Gen.KernelIdeal
import proofs.«104804_j42004780155161_1_alg».proof.Proof.Gen.KernelIdeal.Frame
import proofs.«104804_j42004780155161_1_alg».proof.Proof.Gen.ReferenceIdeal
import proofs.«104804_j42004780155161_1_alg».proof.Proof.Gen.Pre_finite_inputs
import proofs.«104804_j42004780155161_1_alg».proof.Proof.KernelRun
import proofs.«104804_j42004780155161_1_alg».proof.Proof.KChain
import proofs.«104804_j42004780155161_1_alg».proof.Proof.RefRun
import proofs.«104804_j42004780155161_1_alg».proof.Proof.RChain
import proofs.«104804_j42004780155161_1_alg».proof.Proof.Bridge
import proofs.«104804_j42004780155161_1_alg».proof.Proof.FinitePre
import Idealize.ShloMosaic.Adequacy
import Idealize.ShloMosaic.Init

noncomputable section

namespace Cert.Proof

open Idealize.ShloMosaic Idealize.SL.Sem Idealize.ShloMosaic.StableHlo
open Cert.Hand.Terms Cert.Hand.KVals Cert.Hand.FiniteLib

/-! ## The reference's values over its launch contents are the array-level values -/

section RefVals
open Cert.ReferenceIdeal Cert.Hand.RChain

/-- The ten argument arrays of the reference's launch memory. -/
def argsR (m : (ℓ : Loc Cert.ReferenceIdeal.nD Cert.ReferenceIdeal.τ Cert.ReferenceIdeal.sig) → Buf (Elt Ideal) ℓ)
    (c : Dev Cert.ReferenceIdeal.nD) : Args :=
  ⟨m ((c.tc : Thread Cert.ReferenceIdeal.nD Cert.ReferenceIdeal.τ).loc main_arg0), m ((c.tc : Thread Cert.ReferenceIdeal.nD Cert.ReferenceIdeal.τ).loc main_arg1),
   m ((c.tc : Thread Cert.ReferenceIdeal.nD Cert.ReferenceIdeal.τ).loc main_arg2), m ((c.tc : Thread Cert.ReferenceIdeal.nD Cert.ReferenceIdeal.τ).loc main_arg3),
   m ((c.tc : Thread Cert.ReferenceIdeal.nD Cert.ReferenceIdeal.τ).loc main_arg4), m ((c.tc : Thread Cert.ReferenceIdeal.nD Cert.ReferenceIdeal.τ).loc main_arg5),
   m ((c.tc : Thread Cert.ReferenceIdeal.nD Cert.ReferenceIdeal.τ).loc main_arg6), m ((c.tc : Thread Cert.ReferenceIdeal.nD Cert.ReferenceIdeal.τ).loc main_arg7),
   m ((c.tc : Thread Cert.ReferenceIdeal.nD Cert.ReferenceIdeal.τ).loc main_arg8), m ((c.tc : Thread Cert.ReferenceIdeal.nD Cert.ReferenceIdeal.τ).loc main_arg9)⟩

variable (m : (ℓ : Loc Cert.ReferenceIdeal.nD Cert.ReferenceIdeal.τ Cert.ReferenceIdeal.sig) → Buf (Elt Ideal) ℓ) (c : Dev Cert.ReferenceIdeal.nD)

theorem rRow : RRow (F := Ideal) (launchContents m c) = row (argsR m c) := rfl
theorem rCol : RCol (F := Ideal) (launchContents m c) = col (argsR m c) := rfl
theorem rNrm : RNorm (F := Ideal) (launchContents m c) = nrm (argsR m c) := by unfold RNorm nrm; rw [rRow, rCol]
theorem rH0 : Cert.Hand.RChain.RH0 (F := Ideal) (launchContents m c) = Cert.Hand.KVals.RH0 (argsR m c) := rfl
theorem rX0 : Cert.Hand.RChain.RX0 (F := Ideal) (launchContents m c) = Cert.Hand.KVals.RX0 (argsR m c) := by
  unfold Cert.Hand.RChain.RX0 Cert.Hand.KVals.RX0; rw [rH0]
theorem rH1 : Cert.Hand.RChain.RH1 (F := Ideal) (launchContents m c) = Cert.Hand.KVals.RH1 (argsR m c) := by
  unfold Cert.Hand.RChain.RH1 Cert.Hand.KVals.RH1; rw [rRow, rCol, rNrm, rX0, rH0]; rfl
theorem rH2 : Cert.Hand.RChain.RH2 (F := Ideal) (launchContents m c) = Cert.Hand.KVals.RH2 (argsR m c) := by
  unfold Cert.Hand.RChain.RH2 Cert.Hand.KVals.RH2; rw [rRow, rCol, rNrm, rX0, rH1]; rfl
theorem rH3 : Cert.Hand.RChain.RH3 (F := Ideal) (launchContents m c) = Cert.Hand.KVals.RH3 (argsR m c) := by
  unfold Cert.Hand.RChain.RH3 Cert.Hand.KVals.RH3; rw [rRow, rCol, rNrm, rX0, rH2]; rfl
theorem rH4 : Cert.Hand.RChain.RH4 (F := Ideal) (launchContents m c) = Cert.Hand.KVals.RH4 (argsR m c) := by
  unfold Cert.Hand.RChain.RH4 Cert.Hand.KVals.RH4; rw [rRow, rCol, rNrm, rX0, rH3]; rfl
theorem rH5 : Cert.Hand.RChain.RH5 (F := Ideal) (launchContents m c) = Cert.Hand.KVals.RH5 (argsR m c) := by
  unfold Cert.Hand.RChain.RH5 Cert.Hand.KVals.RH5; rw [rRow, rCol, rNrm, rX0, rH4]; rfl
theorem rH6 : Cert.Hand.RChain.RH6 (F := Ideal) (launchContents m c) = Cert.Hand.KVals.RH6 (argsR m c) := by
  unfold Cert.Hand.RChain.RH6 Cert.Hand.KVals.RH6; rw [rRow, rCol, rNrm, rX0, rH5]; rfl
theorem rH7 : Cert.Hand.RChain.RH7 (F := Ideal) (launchContents m c) = Cert.Hand.KVals.RH7 (argsR m c) := by
  unfold Cert.Hand.RChain.RH7 Cert.Hand.KVals.RH7; rw [rRow, rCol, rNrm, rX0, rH6]; rfl
theorem rH8 : Cert.Hand.RChain.RH8 (F := Ideal) (launchContents m c) = Cert.Hand.KVals.RH8 (argsR m c) := by
  unfold Cert.Hand.RChain.RH8 Cert.Hand.KVals.RH8; rw [rRow, rCol, rNrm, rX0, rH7]; rfl
theorem rOut : Cert.Hand.RChain.ROut (F := Ideal) (launchContents m c) = Cert.Hand.KVals.ROut (argsR m c) := by
  unfold Cert.Hand.RChain.ROut Cert.Hand.KVals.ROut; rw [rH8]; rfl

end RefVals

/-! ## The claims -/

theorem frame_k : Cert.frame_Kernel := fun m ρ _ => Cert.Kernel.Gen.frame m ρ
theorem frame_ki : Cert.frame_KernelIdeal := fun m ρ _ => Cert.KernelIdeal.Gen.frame m ρ

/-- The reference runs and leaves its arguments as launched: its run, read at the ten argument buffers. -/
theorem frame_ri : Cert.frame_ReferenceIdeal := fun m ρ _ =>
  (θ_run Cert.ReferenceIdeal.defs _ _).mono
    (fun _ h c => ⟨(h c Cert.ReferenceIdeal.main_arg0).trans (Cert.Hand.RChain.reference_arg0 m c), (h c Cert.ReferenceIdeal.main_arg1).trans (Cert.Hand.RChain.reference_arg1 m c),
      (h c Cert.ReferenceIdeal.main_arg2).trans (Cert.Hand.RChain.reference_arg2 m c), (h c Cert.ReferenceIdeal.main_arg3).trans (Cert.Hand.RChain.reference_arg3 m c),
      (h c Cert.ReferenceIdeal.main_arg4).trans (Cert.Hand.RChain.reference_arg4 m c), (h c Cert.ReferenceIdeal.main_arg5).trans (Cert.Hand.RChain.reference_arg5 m c),
      (h c Cert.ReferenceIdeal.main_arg6).trans (Cert.Hand.RChain.reference_arg6 m c), (h c Cert.ReferenceIdeal.main_arg7).trans (Cert.Hand.RChain.reference_arg7 m c),
      (h c Cert.ReferenceIdeal.main_arg8).trans (Cert.Hand.RChain.reference_arg8 m c), (h c Cert.ReferenceIdeal.main_arg9).trans (Cert.Hand.RChain.reference_arg9 m c)⟩)
    (Cert.Hand.RefRun.run_main (F := Ideal) m ρ)

/-- Both idealized programs end with the same result: the kernel program's run with its result named, the reference's
    run with its result named, and the bridge between the two values under the precondition. -/
theorem algebraic : Cert.algebraic_KernelIdeal_ReferenceIdeal := by
  intro m ρ m' ρ' hpre hagree
  refine ⟨fun c => Cert.Hand.KVals.KOut (Cert.Hand.KChain.argsOf m c), ?_, ?_⟩
  · exact (θ_run Cert.KernelIdeal.defs _ _).mono
      (fun _ h c => ⟨(h c).1.trans (Cert.Hand.KChain.kernel_value m ρ c), (h c).2⟩)
      (Cert.Hand.KernelRun.run_main (F := Ideal) m ρ)
  · refine (θ_run Cert.ReferenceIdeal.defs _ _).mono (fun _ h c => ⟨?_,
        (h c Cert.ReferenceIdeal.main_arg0).trans (Cert.Hand.RChain.reference_arg0 m' c), (h c Cert.ReferenceIdeal.main_arg1).trans (Cert.Hand.RChain.reference_arg1 m' c),
        (h c Cert.ReferenceIdeal.main_arg2).trans (Cert.Hand.RChain.reference_arg2 m' c), (h c Cert.ReferenceIdeal.main_arg3).trans (Cert.Hand.RChain.reference_arg3 m' c),
        (h c Cert.ReferenceIdeal.main_arg4).trans (Cert.Hand.RChain.reference_arg4 m' c), (h c Cert.ReferenceIdeal.main_arg5).trans (Cert.Hand.RChain.reference_arg5 m' c),
        (h c Cert.ReferenceIdeal.main_arg6).trans (Cert.Hand.RChain.reference_arg6 m' c), (h c Cert.ReferenceIdeal.main_arg7).trans (Cert.Hand.RChain.reference_arg7 m' c),
        (h c Cert.ReferenceIdeal.main_arg8).trans (Cert.Hand.RChain.reference_arg8 m' c), (h c Cert.ReferenceIdeal.main_arg9).trans (Cert.Hand.RChain.reference_arg9 m' c)⟩)
      (Cert.Hand.RefRun.run_main (F := Ideal) m' ρ')
    have hargs : argsR m' c = Cert.Hand.KChain.argsOf m c := by
      obtain ⟨e0, e1, e2, e3, e4, e5, e6, e7, e8, e9⟩ := hagree c
      unfold argsR Cert.Hand.KChain.argsOf
      rw [e0, e1, e2, e3, e4, e5, e6, e7, e8, e9]
    have hfin : Cert.Hand.Bridge.RealArgs (Cert.Hand.KChain.argsOf m c) := by
      obtain ⟨f0, f2, f3, f4, f5, f6, f7, f8, f9⟩ := Cert.Hand.PrePost.finite_of_pre m hpre c
      exact ⟨f0, f2, f3, f4, f5, f6, f7, f8, f9⟩
    rw [(h c Cert.ReferenceIdeal.main_v447).trans (Cert.Hand.RChain.reference_value m' c), rOut, hargs]
    exact (Cert.Hand.Bridge.result_eq hfin).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
